-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v16)) (v1 : (c : Dev Cert.KernelIdeal.nD) → Buf (Elt Ideal) ((c.tc : Thread Cert.KernelIdeal.nD Cert.KernelIdeal.τ).loc Cert.KernelIdeal.main_c_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_c_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_c_5) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x128x512x512 : Shape := ⟨4, ![8, 128, 512, 512]⟩
abbrev S8x2048x2 : Shape := ⟨3, ![8, 2048, 2]⟩
abbrev S_ : Shape := ⟨0, ![]⟩

class Facts : Prop where
  bcast_S_S8x128x512x512 : S_.BroadcastsInDim S8x128x512x512 (![] : Fin 0 → Fin S8x128x512x512.rank)
  reducesTo_S8x128x512x512_S_d0_1_2_3 : S8x128x512x512.ReducesTo [0, 1, 2, 3] S_
  h_S_ : 0 < S_.numel
  bcast_S_S8x2048x2 : S_.BroadcastsInDim S8x2048x2 (![] : Fin 0 → Fin S8x2048x2.rank)
  reducesTo_S8x2048x2_S_d0_1_2 : S8x2048x2.ReducesTo [0, 1, 2] S_

variable [Facts]

def fn {F : FTy → Type} [FloatOps F] (main_arg0 : FVec F S8x128x512x512 .f32) (main_arg1 : IVec S8x2048x2 32) : IVec S_ 1 :=
  let main_v0 : FVec F S8x128x512x512 .f32 := Host.absf main_arg0
  let main_cst : FVec F S_ .f32 := constant S_ .f32 0x7F800000#32
  let main_v1 : FVec F S8x128x512x512 .f32 := broadcastInDim S8x128x512x512 ![] bcast_S_S8x128x512x512 main_cst
  let main_v2 : IVec S8x128x512x512 1 := cmpf .olt main_v0 main_v1
  let main_c : IVec S_ 1 := constantI S_ 1 1#1
  let main_v3 : IVec S_ 1 := (fun x v => Host.reduce IntOp.andi x v reducesTo_S8x128x512x512_S_d0_1_2_3 h_S_) main_v2 main_c
  let main_c_0 : IVec S_ 32 := constantI S_ 32 0#32
  let main_v4 : IVec S8x2048x2 32 := broadcastInDim S8x2048x2 ![] bcast_S_S8x2048x2 main_c_0
  let main_v5 : IVec S8x2048x2 1 := cmpi .sge main_arg1 main_v4
  let main_c_1 : IVec S_ 32 := constantI S_ 32 512#32
  let main_v6 : IVec S8x2048x2 32 := broadcastInDim S8x2048x2 ![] bcast_S_S8x2048x2 main_c_1
  let main_v7 : IVec S8x2048x2 1 := cmpi .slt main_arg1 main_v6
  let main_v8 : IVec S8x2048x2 1 := andi main_v5 main_v7
  let main_c_2 : IVec S_ 1 := constantI S_ 1 1#1
  let main_v9 : IVec S_ 1 := (fun x v => Host.reduce IntOp.andi x v reducesTo_S8x2048x2_S_d0_1_2 h_S_) main_v8 main_c_2
  let main_v10 : IVec S_ 1 := andi main_v3 main_v9
  main_v10
-- ==== Kernel.lean ====
abbrev S8x128x512x512 : Shape := ⟨4, ![8, 128, 512, 512]⟩
abbrev S8x2048x2 : Shape := ⟨3, ![8, 2048, 2]⟩
abbrev S8x2048x1 : Shape := ⟨3, ![8, 2048, 1]⟩
abbrev S8x2048 : Shape := ⟨2, ![8, 2048]⟩
abbrev S8 : Shape := ⟨1, ![8]⟩
abbrev S8x1 : Shape := ⟨2, ![8, 1]⟩
abbrev S_ : Shape := ⟨0, ![]⟩
abbrev S16384 : Shape := ⟨1, ![16384]⟩
abbrev S8x512x512x128 : Shape := ⟨4, ![8, 512, 512, 128]⟩
abbrev S2097152x1x128 : Shape := ⟨3, ![2097152, 1, 128]⟩
abbrev S16384x128 : Shape := ⟨2, ![16384, 128]⟩
abbrev S128x128 : Shape := ⟨2, ![128, 128]⟩
abbrev S128x1x128 : Shape := ⟨3, ![128, 1, 128]⟩
abbrev S128 : Shape := ⟨1, ![128]⟩
abbrev S1 : Shape := ⟨1, ![1]⟩
abbrev S1x1x128 : Shape := ⟨3, ![1, 1, 128]⟩
abbrev S1x128 : Shape := ⟨2, ![1, 128]⟩

abbrev nBuf : Space → Nat
  | .hbm => 21
  | .vmem => 3
  | .smem => 1
  | _ => 0

abbrev bufTy : (tb : Table) → Fin (tcTables nBuf tb) → BufTy
  | .hbm, ⟨0, _⟩ => ⟨S8x128x512x512, .f32⟩
  | .hbm, ⟨1, _⟩ => ⟨S8x2048x2, .i32⟩
  | .hbm, ⟨2, _⟩ => ⟨S8x2048x1, .i32⟩
  | .hbm, ⟨3, _⟩ => ⟨S8x2048, .i32⟩
  | .hbm, ⟨4, _⟩ => ⟨S8x2048x1, .i32⟩
  | .hbm, ⟨5, _⟩ => ⟨S8x2048, .i32⟩
  | .hbm, ⟨6, _⟩ => ⟨S8, .i32⟩
  | .hbm, ⟨7, _⟩ => ⟨S8x1, .i32⟩
  | .hbm, ⟨8, _⟩ => ⟨S8x2048, .i32⟩
  | .hbm, ⟨9, _⟩ => ⟨S_, .i32⟩
  | .hbm, ⟨10, _⟩ => ⟨S8x2048, .i32⟩
  | .hbm, ⟨11, _⟩ => ⟨S8x2048, .i32⟩
  | .hbm, ⟨12, _⟩ => ⟨S8x2048, .i32⟩
  | .hbm, ⟨13, _⟩ => ⟨S_, .i32⟩
  | .hbm, ⟨14, _⟩ => ⟨S8x2048, .i32⟩
  | .hbm, ⟨15, _⟩ => ⟨S8x2048, .i32⟩
  | .hbm, ⟨16, _⟩ => ⟨S8x2048, .i32⟩
  | .hbm, ⟨17, _⟩ => ⟨S8x512x512x128, .f32⟩
  | .hbm, ⟨18, _⟩ => ⟨S2097152x1x128, .f32⟩
  | .hbm, ⟨19, _⟩ => ⟨S16384x128, .f32⟩
  | .hbm, ⟨20, _⟩ => ⟨S_, .i32⟩
  | .local _ .vmem, ⟨0, _⟩ => ⟨S128x128, .f32⟩
  | .local _ .vmem, ⟨1, _⟩ => ⟨S128x128, .f32⟩
  | .local _ .vmem, ⟨2, _⟩ => ⟨S128x1x128, .f32⟩
  | .local _ .smem, ⟨0, _⟩ => ⟨S16384, .i32⟩
  | _, _ => ⟨S8x128x512x512, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 130 → Bool
  | ⟨i, _⟩ => dmaSemScopedAt i

abbrev sig : RefSig :=
  ofTc nBuf bufTy 0 130 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_c_1 : Ref sig .tc := ⟨.hbm, 20, rfl⟩
abbrev main_v13 : Ref sig .tc := ⟨.smem, 0, rfl⟩
abbrev cc0_stg0_0 : Ref sig .tc := ⟨.vmem, 0, rfl⟩
abbrev cc0_stg0_1 : Ref sig .tc := ⟨.vmem, 1, rfl⟩
abbrev cc0_scratch0 : Ref sig .tc := ⟨.vmem, 2, rfl⟩
abbrev cc0_sem0_0 : DmaSem sig := 0
abbrev cc0_sem0_1 : DmaSem sig := 1

abbrev nD : Nat := 1
abbrev τ : Topo := Topo.v7x

variable {F : FTy → Type} [FloatOps F]

abbrev grid0 : Pipeline.Grid := ⟨1, ![128], ![false]⟩

abbrev pre0 : Pipeline.Prefetch sig := ⟨1, ![main_v13.idx], fun | 0 => main_v13.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c128_i32 : BitVec 32 := 128#32
  let v0 : BitVec 32 := Scalar.muli arg0 c128_i32
  let c0_i32 : BitVec 32 := 0#32
  let v1 : BitVec 32 := Scalar.addi v0 c0_i32
  let v2 : Index := Scalar.indexCast v1
  ![v2.toNat]
def k0_off2 (v3 : BitVec 32) : Fin 3 → Nat :=
  let c0_i32_4 : BitVec 32 := 0#32
  let c0_i32_5 : BitVec 32 := 0#32
  ![v3.toNat, 0, 0]

def k0_off3 (i : grid0.Coords) : Fin 1 → Nat :=
  let arg0 : BitVec 32 := BitVec.ofNat 32 (i 0).val
  let c128_i32 : BitVec 32 := 128#32
  let v0 : BitVec 32 := Scalar.muli arg0 c128_i32
  let c1_i32 : BitVec 32 := 1#32
  let v10 : BitVec 32 := Scalar.addi v0 c1_i32
  let v11 : Index := Scalar.indexCast v10
  ![v11.toNat]
def k0_off4 (v12 : BitVec 32) : Fin 3 → Nat :=
  let c0_i32_10 : BitVec 32 := 0#32
  let c0_i32_11 : BitVec 32 := 0#32
  ![v12.toNat, 0, 0]

def k0_off5 (i : grid0.Coords) : Fin 1 → Nat :=
  let arg0 : BitVec 32 := BitVec.ofNat 32 (i 0).val
  let c128_i32 : BitVec 32 := 128#32
  let v0 : BitVec 32 := Scalar.muli arg0 c128_i32
  let c2_i32 : BitVec 32 := 2#32
  let v19 : BitVec 32 := Scalar.addi v0 c2_i32
  let v20 : Index := Scalar.indexCast v19
  ![v20.toNat]
def k0_off6 (v21 : BitVec 32) : Fin 3 → Nat :=
  let c0_i32_16 : BitVec 32 := 0#32
  let c0_i32_17 : BitVec 32 := 0#32
  ![v21.toNat, 0, 0]

def k0_off7 (i : grid0.Coords) : Fin 1 → Nat :=
  let arg0 : BitVec 32 := BitVec.ofNat 32 (i 0).val
  let c128_i32 : BitVec 32 := 128#32
  let v0 : BitVec 32 := Scalar.muli arg0 c128_i32
  let c3_i32 : BitVec 32 := 3#32
  let v28 : BitVec 32 := Scalar.addi v0 c3_i32
  let v29 : Index := Scalar.indexCast v28
  ![v29.toNat]
def k0_off8 (v30 : BitVec 32) : Fin 3 → Nat :=
  let c0_i32_22 : BitVec 32 := 0#32
  let c0_i32_23 : BitVec 32 := 0#32
  ![v30.toNat, 0, 0]

def k0_off9 (i : grid0.Coords) : Fin 1 → Nat :=
  let arg0 : BitVec 32 := BitVec.ofNat 32 (i 0).val
  let c128_i32 : BitVec 32 := 128#32
  let v0 : BitVec 32 := Scalar.muli arg0 c128_i32
  let c4_i32 : BitVec 32 := 4#32
  let v37 : BitVec 32 := Scalar.addi v0 c4_i32
  let v38 : Index := Scalar.indexCast v37
  ![v38.toNat]
def k0_off10 (v39 : BitVec 32) : Fin 3 → Nat :=
  let c0_i32_28 : BitVec 32 := 0#32
  let c0_i32_29 : BitVec 32 := 0#32
  ![v39.toNat, 0, 0]

def k0_off11 (i : grid0.Coords) : Fin 1 → Nat :=
  let arg0 : BitVec 32 := BitVec.ofNat 32 (i 0).val
  let c128_i32 : BitVec 32 := 128#32
  let v0 : BitVec 32 := Scalar.muli arg0 c128_i32
  let c5_i32 : BitVec 32 := 5#32
  let v46 : BitVec 32 := Scalar.addi v0 c5_i32
  let v47 : Index := Scalar.indexCast v46
  ![v47.toNat]
def k0_off12 (v48 : BitVec 32) : Fin 3 → Nat :=
  let c0_i32_34 : BitVec 32 := 0#32
  let c0_i32_35 : BitVec 32 := 0#32
  ![v48.toNat, 0, 0]

def k0_off13 (i : grid0.Coords) : Fin 1 → Nat :=
  let arg0 : BitVec 32 := BitVec.ofNat 32 (i 0).val
  let c128_i32 : BitVec 32 := 128#32
  let v0 : BitVec 32 := Scalar.muli arg0 c128_i32
  let c6_i32 : BitVec 32 := 6#32
  let v55 : BitVec 32 := Scalar.addi v0 c6_i32
  let v56 : Index := Scalar.indexCast v55
  ![v56.toNat]
def k0_off14 (v57 : BitVec 32) : Fin 3 → Nat :=
  let c0_i32_40 : BitVec 32 := 0#32
  let c0_i32_41 : BitVec 32 := 0#32
  ![v57.toNat, 0, 0]

def k0_off15 (i : grid0.Coords) : Fin 1 → Nat :=
  let arg0 : BitVec 32 := BitVec.ofNat 32 (i 0).val
  let c128_i32 : BitVec 32 := 128#32
  let v0 : BitVec 32 := Scalar.muli arg0 c128_i32
  let c7_i32 : BitVec 32 := 7#32
  let v64 : BitVec 32 := Scalar.addi v0 c7_i32
  let v65 : Index := Scalar.indexCast v64
  ![v65.toNat]
def k0_off16 (v66 : BitVec 32) : Fin 3 → Nat :=
  let c0_i32_46 : BitVec 32 := 0#32
  let c0_i32_47 : BitVec 32 := 0#32
  ![v66.toNat, 0, 0]

def k0_off17 (i : grid0.Coords) : Fin 1 → Nat :=
  let arg0 : BitVec 32 := BitVec.ofNat 32 (i 0).val
  let c128_i32 : BitVec 32 := 128#32
  let v0 : BitVec 32 := Scalar.muli arg0 c128_i32
  let c8_i32 : BitVec 32 := 8#32
  let v73 : BitVec 32 := Scalar.addi v0 c8_i32
  let v74 : Index := Scalar.indexCast v73
  ![v74.toNat]
def k0_off18 (v75 : BitVec 32) : Fin 3 → Nat :=
  let c0_i32_52 : BitVec 32 := 0#32
  let c0_i32_53 : BitVec 32 := 0#32
  ![v75.toNat, 0, 0]

def k0_off19 (i : grid0.Coords) : Fin 1 → Nat :=
  let arg0 : BitVec 32 := BitVec.ofNat 32 (i 0).val
  let c128_i32 : BitVec 32 := 128#32
  let v0 : BitVec 32 := Scalar.muli arg0 c128_i32
  let c9_i32 : BitVec 32 := 9#32
  let v82 : BitVec 32 := Scalar.addi v0 c9_i32
  let v83 : Index := Scalar.indexCast v82
  ![v83.toNat]
def k0_off20 (v84 : BitVec 32) : Fin 3 → Nat :=
  let c0_i32_58 : BitVec 32 := 0#32
  let c0_i32_59 : BitVec 32 := 0#32
  ![v84.toNat, 0, 0]

def k0_off21 (i : grid0.Coords) : Fin 1 → Nat :=
  let arg0 : BitVec 32 := BitVec.ofNat 32 (i 0).val
  let c128_i32 : BitVec 32 := 128#32
  let v0 : BitVec 32 := Scalar.muli arg0 c128_i32
  let c10_i32 : BitVec 32 := 10#32
  let v91 : BitVec 32 := Scalar.addi v0 c10_i32
  let v92 : Index := Scalar.indexCast v91
  ![v92.toNat]
def k0_off22 (v93 : BitVec 32) : Fin 3 → Nat :=
  let c0_i32_64 : BitVec 32 := 0#32
  let c0_i32_65 : BitVec 32 := 0#32
  ![v93.toNat, 0, 0]

def k0_off23 (i : grid0.Coords) : Fin 1 → Nat :=
  let arg0 : BitVec 32 := BitVec.ofNat 32 (i 0).val
  let c128_i32 : BitVec 32 := 128#32
  let v0 : BitVec 32 := Scalar.muli arg0 c128_i32
  let c11_i32 : BitVec 32 := 11#32
  let v100 : BitVec 32 := Scalar.addi v0 c11_i32
  let v101 : Index := Scalar.indexCast v100
  ![v101.toNat]
def k0_off24 (v102 : BitVec 32) : Fin 3 → Nat :=
  let c0_i32_70 : BitVec 32 := 0#32
  let c0_i32_71 : BitVec 32 := 0#32
  ![v102.toNat, 0, 0]

def k0_off25 (i : grid0.Coords) : Fin 1 → Nat :=
  let arg0 : BitVec 32 := BitVec.ofNat 32 (i 0).val
  let c128_i32 : BitVec 32 := 128#32
  let v0 : BitVec 32 := Scalar.muli arg0 c128_i32
  let c12_i32 : BitVec 32 := 12#32
  let v109 : BitVec 32 := Scalar.addi v0 c12_i32
  let v110 : Index := Scalar.indexCast v109
  ![v110.toNat]
def k0_off26 (v111 : BitVec 32) : Fin 3 → Nat :=
  let c0_i32_76 : BitVec 32 := 0#32
  let c0_i32_77 : BitVec 32 := 0#32
  ![v111.toNat, 0, 0]

def k0_off27 (i : grid0.Coords) : Fin 1 → Nat :=
  let arg0 : BitVec 32 := BitVec.ofNat 32 (i 0).val
  let c128_i32 : BitVec 32 := 128#32
  let v0 : BitVec 32 := Scalar.muli arg0 c128_i32
  let c13_i32 : BitVec 32 := 13#32
  let v118 : BitVec 32 := Scalar.addi v0 c13_i32
  let v119 : Index := Scalar.indexCast v118
  ![v119.toNat]
def k0_off28 (v120 : BitVec 32) : Fin 3 → Nat :=
  let c0_i32_82 : BitVec 32 := 0#32
  let c0_i32_83 : BitVec 32 := 0#32
  ![v120.toNat, 0, 0]

def k0_off29 (i : grid0.Coords) : Fin 1 → Nat :=
  let arg0 : BitVec 32 := BitVec.ofNat 32 (i 0).val
  let c128_i32 : BitVec 32 := 128#32
  let v0 : BitVec 32 := Scalar.muli arg0 c128_i32
  let c14_i32 : BitVec 32 := 14#32
  let v127 : BitVec 32 := Scalar.addi v0 c14_i32
  let v128 : Index := Scalar.indexCast v127
  ![v128.toNat]
def k0_off30 (v129 : BitVec 32) : Fin 3 → Nat :=
  let c0_i32_88 : BitVec 32 := 0#32
  let c0_i32_89 : BitVec 32 := 0#32
  ![v129.toNat, 0, 0]

def k0_off31 (i : grid0.Coords) : Fin 1 → Nat :=
  let arg0 : BitVec 32 := BitVec.ofNat 32 (i 0).val
  let c128_i32 : BitVec 32 := 128#32
  let v0 : BitVec 32 := Scalar.muli arg0 c128_i32
  let c15_i32 : BitVec 32 := 15#32
  let v136 : BitVec 32 := Scalar.addi v0 c15_i32
  let v137 : Index := Scalar.indexCast v136
  ![v137.toNat]
def k0_off32 (v138 : BitVec 32) : Fin 3 → Nat :=
  let c0_i32_94 : BitVec 32 := 0#32
  let c0_i32_95 : BitVec 32 := 0#32
  ![v138.toNat, 0, 0]

def k0_off33 (i : grid0.Coords) : Fin 1 → Nat :=
  let arg0 : BitVec 32 := BitVec.ofNat 32 (i 0).val
  let c128_i32 : BitVec 32 := 128#32
  let v0 : BitVec 32 := Scalar.muli arg0 c128_i32
  let c16_i32 : BitVec 32 := 16#32
  let v145 : BitVec 32 := Scalar.addi v0 c16_i32
  let v146 : Index := Scalar.indexCast v145
  ![v146.toNat]
def k0_off34 (v147 : BitVec 32) : Fin 3 → Nat :=
  let c0_i32_100 : BitVec 32 := 0#32
  let c0_i32_101 : BitVec 32 := 0#32
  ![v147.toNat, 0, 0]

def k0_off35 (i : grid0.Coords) : Fin 1 → Nat :=
  let arg0 : BitVec 32 := BitVec.ofNat 32 (i 0).val
  let c128_i32 : BitVec 32 := 128#32
  let v0 : BitVec 32 := Scalar.muli arg0 c128_i32
  let c17_i32 : BitVec 32 := 17#32
  let v154 : BitVec 32 := Scalar.addi v0 c17_i32
  let v155 : Index := Scalar.indexCast v154
  ![v155.toNat]
def k0_off36 (v156 : BitVec 32) : Fin 3 → Nat :=
  let c0_i32_106 : BitVec 32 := 0#32
  let c0_i32_107 : BitVec 32 := 0#32
  ![v156.toNat, 0, 0]

def k0_off37 (i : grid0.Coords) : Fin 1 → Nat :=
  let arg0 : BitVec 32 := BitVec.ofNat 32 (i 0).val
  let c128_i32 : BitVec 32 := 128#32
  let v0 : BitVec 32 := Scalar.muli arg0 c128_i32
  let c18_i32 : BitVec 32 := 18#32
  let v163 : BitVec 32 := Scalar.addi v0 c18_i32
  let v164 : Index := Scalar.indexCast v163
  ![v164.toNat]
def k0_off38 (v165 : BitVec 32) : Fin 3 → Nat :=
  let c0_i32_112 : BitVec 32 := 0#32
  let c0_i32_113 : BitVec 32 := 0#32
  ![v165.toNat, 0, 0]

def k0_off39 (i : grid0.Coords) : Fin 1 → Nat :=
  let arg0 : BitVec 32 := BitVec.ofNat 32 (i 0).val
  let c128_i32 : BitVec 32 := 128#32
  let v0 : BitVec 32 := Scalar.muli arg0 c128_i32
  let c19_i32 : BitVec 32 := 19#32
  let v172 : BitVec 32 := Scalar.addi v0 c19_i32
  let v173 : Index := Scalar.indexCast v172
  ![v173.toNat]
def k0_off40 (v174 : BitVec 32) : Fin 3 → Nat :=
  let c0_i32_118 : BitVec 32 := 0#32
  let c0_i32_119 : BitVec 32 := 0#32
  ![v174.toNat, 0, 0]

def k0_off41 (i : grid0.Coords) : Fin 1 → Nat :=
  let arg0 : BitVec 32 := BitVec.ofNat 32 (i 0).val
  let c128_i32 : BitVec 32 := 128#32
  let v0 : BitVec 32 := Scalar.muli arg0 c128_i32
  let c20_i32 : BitVec 32 := 20#32
  let v181 : BitVec 32 := Scalar.addi v0 c20_i32
  let v182 : Index := Scalar.indexCast v181
  ![v182.toNat]
def k0_off42 (v183 : BitVec 32) : Fin 3 → Nat :=
  let c0_i32_124 : BitVec 32 := 0#32
  let c0_i32_125 : BitVec 32 := 0#32
  ![v183.toNat, 0, 0]

def k0_off43 (i : grid0.Coords) : Fin 1 → Nat :=
  let arg0 : BitVec 32 := BitVec.ofNat 32 (i 0).val
  let c128_i32 : BitVec 32 := 128#32
  let v0 : BitVec 32 := Scalar.muli arg0 c128_i32
  let c21_i32 : BitVec 32 := 21#32
  let v190 : BitVec 32 := Scalar.addi v0 c21_i32
  let v191 : Index := Scalar.indexCast v190
  ![v191.toNat]
def k0_off44 (v192 : BitVec 32) : Fin 3 → Nat :=
  let c0_i32_130 : BitVec 32 := 0#32
  let c0_i32_131 : BitVec 32 := 0#32
  ![v192.toNat, 0, 0]

def k0_off45 (i : grid0.Coords) : Fin 1 → Nat :=
  let arg0 : BitVec 32 := BitVec.ofNat 32 (i 0).val
  let c128_i32 : BitVec 32 := 128#32
  let v0 : BitVec 32 := Scalar.muli arg0 c128_i32
  let c22_i32 : BitVec 32 := 22#32
  let v199 : BitVec 32 := Scalar.addi v0 c22_i32
  let v200 : Index := Scalar.indexCast v199
  ![v200.toNat]
def k0_off46 (v201 : BitVec 32) : Fin 3 → Nat :=
  let c0_i32_136 : BitVec 32 := 0#32
  let c0_i32_137 : BitVec 32 := 0#32
  ![v201.toNat, 0, 0]

def k0_off47 (i : grid0.Coords) : Fin 1 → Nat :=
  let arg0 : BitVec 32 := BitVec.ofNat 32 (i 0).val
  let c128_i32 : BitVec 32 := 128#32
  let v0 : BitVec 32 := Scalar.muli arg0 c128_i32
  let c23_i32 : BitVec 32 := 23#32
  let v208 : BitVec 32 := Scalar.addi v0 c23_i32
  let v209 : Index := Scalar.indexCast v208
  ![v209.toNat]
def k0_off48 (v210 : BitVec 32) : Fin 3 → Nat :=
  let c0_i32_142 : BitVec 32 := 0#32
  let c0_i32_143 : BitVec 32 := 0#32
  ![v210.toNat, 0, 0]

def k0_off49 (i : grid0.Coords) : Fin 1 → Nat :=
  let arg0 : BitVec 32 := BitVec.ofNat 32 (i 0).val
  let c128_i32 : BitVec 32 := 128#32
  let v0 : BitVec 32 := Scalar.muli arg0 c128_i32
  let c24_i32 : BitVec 32 := 24#32
  let v217 : BitVec 32 := Scalar.addi v0 c24_i32
  let v218 : Index := Scalar.indexCast v217
  ![v218.toNat]
def k0_off50 (v219 : BitVec 32) : Fin 3 → Nat :=
  let c0_i32_148 : BitVec 32 := 0#32
  let c0_i32_149 : BitVec 32 := 0#32
  ![v219.toNat, 0, 0]

def k0_off51 (i : grid0.Coords) : Fin 1 → Nat :=
  let arg0 : BitVec 32 := BitVec.ofNat 32 (i 0).val
  let c128_i32 : BitVec 32 := 128#32
  let v0 : BitVec 32 := Scalar.muli arg0 c128_i32
  let c25_i32 : BitVec 32 := 25#32
  let v226 : BitVec 32 := Scalar.addi v0 c25_i32
  let v227 : Index := Scalar.indexCast v226
  ![v227.toNat]
def k0_off52 (v228 : BitVec 32) : Fin 3 → Nat :=
  let c0_i32_154 : BitVec 32 := 0#32
  let c0_i32_155 : BitVec 32 := 0#32
  ![v228.toNat, 0, 0]

def k0_off53 (i : grid0.Coords) : Fin 1 → Nat :=
  let arg0 : BitVec 32 := BitVec.ofNat 32 (i 0).val
  let c128_i32 : BitVec 32 := 128#32
  let v0 : BitVec 32 := Scalar.muli arg0 c128_i32
  let c26_i32 : BitVec 32 := 26#32
  let v235 : BitVec 32 := Scalar.addi v0 c26_i32
  let v236 : Index := Scalar.indexCast v235
  ![v236.toNat]
def k0_off54 (v237 : BitVec 32) : Fin 3 → Nat :=
  let c0_i32_160 : BitVec 32 := 0#32
  let c0_i32_161 : BitVec 32 := 0#32
  ![v237.toNat, 0, 0]

def k0_off55 (i : grid0.Coords) : Fin 1 → Nat :=
  let arg0 : BitVec 32 := BitVec.ofNat 32 (i 0).val
  let c128_i32 : BitVec 32 := 128#32
  let v0 : BitVec 32 := Scalar.muli arg0 c128_i32
  let c27_i32 : BitVec 32 := 27#32
  let v244 : BitVec 32 := Scalar.addi v0 c27_i32
  let v245 : Index := Scalar.indexCast v244
  ![v245.toNat]
def k0_off56 (v246 : BitVec 32) : Fin 3 → Nat :=
  let c0_i32_166 : BitVec 32 := 0#32
  let c0_i32_167 : BitVec 32 := 0#32
  ![v246.toNat, 0, 0]

def k0_off57 (i : grid0.Coords) : Fin 1 → Nat :=
  let arg0 : BitVec 32 := BitVec.ofNat 32 (i 0).val
  let c128_i32 : BitVec 32 := 128#32
  let v0 : BitVec 32 := Scalar.muli arg0 c128_i32
  let c28_i32 : BitVec 32 := 28#32
  let v253 : BitVec 32 := Scalar.addi v0 c28_i32
  let v254 : Index := Scalar.indexCast v253
  ![v254.toNat]
def k0_off58 (v255 : BitVec 32) : Fin 3 → Nat :=
  let c0_i32_172 : BitVec 32 := 0#32
  let c0_i32_173 : BitVec 32 := 0#32
  ![v255.toNat, 0, 0]

def k0_off59 (i : grid0.Coords) : Fin 1 → Nat :=
  let arg0 : BitVec 32 := BitVec.ofNat 32 (i 0).val
  let c128_i32 : BitVec 32 := 128#32
  let v0 : BitVec 32 := Scalar.muli arg0 c128_i32
  let c29_i32 : BitVec 32 := 29#32
  let v262 : BitVec 32 := Scalar.addi v0 c29_i32
  let v263 : Index := Scalar.indexCast v262
  ![v263.toNat]
def k0_off60 (v264 : BitVec 32) : Fin 3 → Nat :=
  let c0_i32_178 : BitVec 32 := 0#32
  let c0_i32_179 : BitVec 32 := 0#32
  ![v264.toNat, 0, 0]

def k0_off61 (i : grid0.Coords) : Fin 1 → Nat :=
  let arg0 : BitVec 32 := BitVec.ofNat 32 (i 0).val
  let c128_i32 : BitVec 32 := 128#32
  let v0 : BitVec 32 := Scalar.muli arg0 c128_i32
  let c30_i32 : BitVec 32 := 30#32
  let v271 : BitVec 32 := Scalar.addi v0 c30_i32
  let v272 : Index := Scalar.indexCast v271
  ![v272.toNat]
def k0_off62 (v273 : BitVec 32) : Fin 3 → Nat :=
  let c0_i32_184 : BitVec 32 := 0#32
  let c0_i32_185 : BitVec 32 := 0#32
  ![v273.toNat, 0, 0]

def k0_off63 (i : grid0.Coords) : Fin 1 → Nat :=
  let arg0 : BitVec 32 := BitVec.ofNat 32 (i 0).val
  let c128_i32 : BitVec 32 := 128#32
  let v0 : BitVec 32 := Scalar.muli arg0 c128_i32
  let c31_i32 : BitVec 32 := 31#32
  let v280 : BitVec 32 := Scalar.addi v0 c31_i32
  let v281 : Index := Scalar.indexCast v280
  ![v281.toNat]
def k0_off64 (v282 : BitVec 32) : Fin 3 → Nat :=
  let c0_i32_190 : BitVec 32 := 0#32
  let c0_i32_191 : BitVec 32 := 0#32
  ![v282.toNat, 0, 0]

def k0_off65 (i : grid0.Coords) : Fin 1 → Nat :=
  let arg0 : BitVec 32 := BitVec.ofNat 32 (i 0).val
  let c128_i32 : BitVec 32 := 128#32
  let v0 : BitVec 32 := Scalar.muli arg0 c128_i32
  let c32_i32 : BitVec 32 := 32#32
  let v289 : BitVec 32 := Scalar.addi v0 c32_i32
  let v290 : Index := Scalar.indexCast v289
  ![v290.toNat]
def k0_off66 (v291 : BitVec 32) : Fin 3 → Nat :=
  let c0_i32_196 : BitVec 32 := 0#32
  let c0_i32_197 : BitVec 32 := 0#32
  ![v291.toNat, 0, 0]

def k0_off67 (i : grid0.Coords) : Fin 1 → Nat :=
  let arg0 : BitVec 32 := BitVec.ofNat 32 (i 0).val
  let c128_i32 : BitVec 32 := 128#32
  let v0 : BitVec 32 := Scalar.muli arg0 c128_i32
  let c33_i32 : BitVec 32 := 33#32
  let v298 : BitVec 32 := Scalar.addi v0 c33_i32
  let v299 : Index := Scalar.indexCast v298
  ![v299.toNat]
def k0_off68 (v300 : BitVec 32) : Fin 3 → Nat :=
  let c0_i32_202 : BitVec 32 := 0#32
  let c0_i32_203 : BitVec 32 := 0#32
  ![v300.toNat, 0, 0]

def k0_off69 (i : grid0.Coords) : Fin 1 → Nat :=
  let arg0 : BitVec 32 := BitVec.ofNat 32 (i 0).val
  let c128_i32 : BitVec 32 := 128#32
  let v0 : BitVec 32 := Scalar.muli arg0 c128_i32
  let c34_i32 : BitVec 32 := 34#32
  let v307 : BitVec 32 := Scalar.addi v0 c34_i32
  let v308 : Index := Scalar.indexCast v307
  ![v308.toNat]
def k0_off70 (v309 : BitVec 32) : Fin 3 → Nat :=
  let c0_i32_208 : BitVec 32 := 0#32
  let c0_i32_209 : BitVec 32 := 0#32
  ![v309.toNat, 0, 0]

def k0_off71 (i : grid0.Coords) : Fin 1 → Nat :=
  let arg0 : BitVec 32 := BitVec.ofNat 32 (i 0).val
  let c128_i32 : BitVec 32 := 128#32
  let v0 : BitVec 32 := Scalar.muli arg0 c128_i32
  let c35_i32 : BitVec 32 := 35#32
  let v316 : BitVec 32 := Scalar.addi v0 c35_i32
  let v317 : Index := Scalar.indexCast v316
  ![v317.toNat]
def k0_off72 (v318 : BitVec 32) : Fin 3 → Nat :=
  let c0_i32_214 : BitVec 32 := 0#32
  let c0_i32_215 : BitVec 32 := 0#32
  ![v318.toNat, 0, 0]

def k0_off73 (i : grid0.Coords) : Fin 1 → Nat :=
  let arg0 : BitVec 32 := BitVec.ofNat 32 (i 0).val
  let c128_i32 : BitVec 32 := 128#32
  let v0 : BitVec 32 := Scalar.muli arg0 c128_i32
  let c36_i32 : BitVec 32 := 36#32
  let v325 : BitVec 32 := Scalar.addi v0 c36_i32
  let v326 : Index := Scalar.indexCast v325
  ![v326.toNat]
def k0_off74 (v327 : BitVec 32) : Fin 3 → Nat :=
  let c0_i32_220 : BitVec 32 := 0#32
  let c0_i32_221 : BitVec 32 := 0#32
  ![v327.toNat, 0, 0]

def k0_off75 (i : grid0.Coords) : Fin 1 → Nat :=
  let arg0 : BitVec 32 := BitVec.ofNat 32 (i 0).val
  let c128_i32 : BitVec 32 := 128#32
  let v0 : BitVec 32 := Scalar.muli arg0 c128_i32
  let c37_i32 : BitVec 32 := 37#32
  let v334 : BitVec 32 := Scalar.addi v0 c37_i32
  let v335 : Index := Scalar.indexCast v334
  ![v335.toNat]
def k0_off76 (v336 : BitVec 32) : Fin 3 → Nat :=
  let c0_i32_226 : BitVec 32 := 0#32
  let c0_i32_227 : BitVec 32 := 0#32
  ![v336.toNat, 0, 0]

def k0_off77 (i : grid0.Coords) : Fin 1 → Nat :=
  let arg0 : BitVec 32 := BitVec.ofNat 32 (i 0).val
  let c128_i32 : BitVec 32 := 128#32
  let v0 : BitVec 32 := Scalar.muli arg0 c128_i32
  let c38_i32 : BitVec 32 := 38#32
  let v343 : BitVec 32 := Scalar.addi v0 c38_i32
  let v344 : Index := Scalar.indexCast v343
  ![v344.toNat]
def k0_off78 (v345 : BitVec 32) : Fin 3 → Nat :=
  let c0_i32_232 : BitVec 32 := 0#32
  let c0_i32_233 : BitVec 32 := 0#32
  ![v345.toNat, 0, 0]

def k0_off79 (i : grid0.Coords) : Fin 1 → Nat :=
  let arg0 : BitVec 32 := BitVec.ofNat 32 (i 0).val
  let c128_i32 : BitVec 32 := 128#32
  let v0 : BitVec 32 := Scalar.muli arg0 c128_i32
  let c39_i32 : BitVec 32 := 39#32
  let v352 : BitVec 32 := Scalar.addi v0 c39_i32
  let v353 : Index := Scalar.indexCast v352
  ![v353.toNat]
def k0_off80 (v354 : BitVec 32) : Fin 3 → Nat :=
  let c0_i32_238 : BitVec 32 := 0#32
  let c0_i32_239 : BitVec 32 := 0#32
  ![v354.toNat, 0, 0]

def k0_off81 (i : grid0.Coords) : Fin 1 → Nat :=
  let arg0 : BitVec 32 := BitVec.ofNat 32 (i 0).val
  let c128_i32 : BitVec 32 := 128#32
  let v0 : BitVec 32 := Scalar.muli arg0 c128_i32
  let c40_i32 : BitVec 32 := 40#32
  let v361 : BitVec 32 := Scalar.addi v0 c40_i32
  let v362 : Index := Scalar.indexCast v361
  ![v362.toNat]
def k0_off82 (v363 : BitVec 32) : Fin 3 → Nat :=
  let c0_i32_244 : BitVec 32 := 0#32
  let c0_i32_245 : BitVec 32 := 0#32
  ![v363.toNat, 0, 0]

def k0_off83 (i : grid0.Coords) : Fin 1 → Nat :=
  let arg0 : BitVec 32 := BitVec.ofNat 32 (i 0).val
  let c128_i32 : BitVec 32 := 128#32
  let v0 : BitVec 32 := Scalar.muli arg0 c128_i32
  let c41_i32 : BitVec 32 := 41#32
  let v370 : BitVec 32 := Scalar.addi v0 c41_i32
  let v371 : Index := Scalar.indexCast v370
  ![v371.toNat]
def k0_off84 (v372 : BitVec 32) : Fin 3 → Nat :=
  let c0_i32_250 : BitVec 32 := 0#32
  let c0_i32_251 : BitVec 32 := 0#32
  ![v372.toNat, 0, 0]

def k0_off85 (i : grid0.Coords) : Fin 1 → Nat :=
  let arg0 : BitVec 32 := BitVec.ofNat 32 (i 0).val
  let c128_i32 : BitVec 32 := 128#32
  let v0 : BitVec 32 := Scalar.muli arg0 c128_i32
  let c42_i32 : BitVec 32 := 42#32
  let v379 : BitVec 32 := Scalar.addi v0 c42_i32
  let v380 : Index := Scalar.indexCast v379
  ![v380.toNat]
def k0_off86 (v381 : BitVec 32) : Fin 3 → Nat :=
  let c0_i32_256 : BitVec 32 := 0#32
  let c0_i32_257 : BitVec 32 := 0#32
  ![v381.toNat, 0, 0]

def k0_off87 (i : grid0.Coords) : Fin 1 → Nat :=
  let arg0 : BitVec 32 := BitVec.ofNat 32 (i 0).val
  let c128_i32 : BitVec 32 := 128#32
  let v0 : BitVec 32 := Scalar.muli arg0 c128_i32
  let c43_i32 : BitVec 32 := 43#32
  let v388 : BitVec 32 := Scalar.addi v0 c43_i32
  let v389 : Index := Scalar.indexCast v388
  ![v389.toNat]
def k0_off88 (v390 : BitVec 32) : Fin 3 → Nat :=
  let c0_i32_262 : BitVec 32 := 0#32
  let c0_i32_263 : BitVec 32 := 0#32
  ![v390.toNat, 0, 0]

def k0_off89 (i : grid0.Coords) : Fin 1 → Nat :=
  let arg0 : BitVec 32 := BitVec.ofNat 32 (i 0).val
  let c128_i32 : BitVec 32 := 128#32
  let v0 : BitVec 32 := Scalar.muli arg0 c128_i32
  let c44_i32 : BitVec 32 := 44#32
  let v397 : BitVec 32 := Scalar.addi v0 c44_i32
  let v398 : Index := Scalar.indexCast v397
  ![v398.toNat]
def k0_off90 (v399 : BitVec 32) : Fin 3 → Nat :=
  let c0_i32_268 : BitVec 32 := 0#32
  let c0_i32_269 : BitVec 32 := 0#32
  ![v399.toNat, 0, 0]

def k0_off91 (i : grid0.Coords) : Fin 1 → Nat :=
  let arg0 : BitVec 32 := BitVec.ofNat 32 (i 0).val
  let c128_i32 : BitVec 32 := 128#32
  let v0 : BitVec 32 := Scalar.muli arg0 c128_i32
  let c45_i32 : BitVec 32 := 45#32
  let v406 : BitVec 32 := Scalar.addi v0 c45_i32
  let v407 : Index := Scalar.indexCast v406
  ![v407.toNat]
def k0_off92 (v408 : BitVec 32) : Fin 3 → Nat :=
  let c0_i32_274 : BitVec 32 := 0#32
  let c0_i32_275 : BitVec 32 := 0#32
  ![v408.toNat, 0, 0]

def k0_off93 (i : grid0.Coords) : Fin 1 → Nat :=
  let arg0 : BitVec 32 := BitVec.ofNat 32 (i 0).val
  let c128_i32 : BitVec 32 := 128#32
  let v0 : BitVec 32 := Scalar.muli arg0 c128_i32
  let c46_i32 : BitVec 32 := 46#32
  let v415 : BitVec 32 := Scalar.addi v0 c46_i32
  let v416 : Index := Scalar.indexCast v415
  ![v416.toNat]
def k0_off94 (v417 : BitVec 32) : Fin 3 → Nat :=
  let c0_i32_280 : BitVec 32 := 0#32
  let c0_i32_281 : BitVec 32 := 0#32
  ![v417.toNat, 0, 0]

def k0_off95 (i : grid0.Coords) : Fin 1 → Nat :=
  let arg0 : BitVec 32 := BitVec.ofNat 32 (i 0).val
  let c128_i32 : BitVec 32 := 128#32
  let v0 : BitVec 32 := Scalar.muli arg0 c128_i32
  let c47_i32 : BitVec 32 := 47#32
  let v424 : BitVec 32 := Scalar.addi v0 c47_i32
  let v425 : Index := Scalar.indexCast v424
  ![v425.toNat]
def k0_off96 (v426 : BitVec 32) : Fin 3 → Nat :=
  let c0_i32_286 : BitVec 32 := 0#32
  let c0_i32_287 : BitVec 32 := 0#32
  ![v426.toNat, 0, 0]

def k0_off97 (i : grid0.Coords) : Fin 1 → Nat :=
  let arg0 : BitVec 32 := BitVec.ofNat 32 (i 0).val
  let c128_i32 : BitVec 32 := 128#32
  let v0 : BitVec 32 := Scalar.muli arg0 c128_i32
  let c48_i32 : BitVec 32 := 48#32
  let v433 : BitVec 32 := Scalar.addi v0 c48_i32
  let v434 : Index := Scalar.indexCast v433
  ![v434.toNat]
def k0_off98 (v435 : BitVec 32) : Fin 3 → Nat :=
  let c0_i32_292 : BitVec 32 := 0#32
  let c0_i32_293 : BitVec 32 := 0#32
  ![v435.toNat, 0, 0]

def k0_off99 (i : grid0.Coords) : Fin 1 → Nat :=
  let arg0 : BitVec 32 := BitVec.ofNat 32 (i 0).val
  let c128_i32 : BitVec 32 := 128#32
  let v0 : BitVec 32 := Scalar.muli arg0 c128_i32
  let c49_i32 : BitVec 32 := 49#32
  let v442 : BitVec 32 := Scalar.addi v0 c49_i32
  let v443 : Index := Scalar.indexCast v442
  ![v443.toNat]
def k0_off100 (v444 : BitVec 32) : Fin 3 → Nat :=
  let c0_i32_298 : BitVec 32 := 0#32
  let c0_i32_299 : BitVec 32 := 0#32
  ![v444.toNat, 0, 0]

def k0_off101 (i : grid0.Coords) : Fin 1 → Nat :=
  let arg0 : BitVec 32 := BitVec.ofNat 32 (i 0).val
  let c128_i32 : BitVec 32 := 128#32
  let v0 : BitVec 32 := Scalar.muli arg0 c128_i32
  let c50_i32 : BitVec 32 := 50#32
  let v451 : BitVec 32 := Scalar.addi v0 c50_i32
  let v452 : Index := Scalar.indexCast v451
  ![v452.toNat]
def k0_off102 (v453 : BitVec 32) : Fin 3 → Nat :=
  let c0_i32_304 : BitVec 32 := 0#32
  let c0_i32_305 : BitVec 32 := 0#32
  ![v453.toNat, 0, 0]

def k0_off103 (i : grid0.Coords) : Fin 1 → Nat :=
  let arg0 : BitVec 32 := BitVec.ofNat 32 (i 0).val
  let c128_i32 : BitVec 32 := 128#32
  let v0 : BitVec 32 := Scalar.muli arg0 c128_i32
  let c51_i32 : BitVec 32 := 51#32
  let v460 : BitVec 32 := Scalar.addi v0 c51_i32
  let v461 : Index := Scalar.indexCast v460
  ![v461.toNat]
def k0_off104 (v462 : BitVec 32) : Fin 3 → Nat :=
  let c0_i32_310 : BitVec 32 := 0#32
  let c0_i32_311 : BitVec 32 := 0#32
  ![v462.toNat, 0, 0]

def k0_off105 (i : grid0.Coords) : Fin 1 → Nat :=
  let arg0 : BitVec 32 := BitVec.ofNat 32 (i 0).val
  let c128_i32 : BitVec 32 := 128#32
  let v0 : BitVec 32 := Scalar.muli arg0 c128_i32
  let c52_i32 : BitVec 32 := 52#32
  let v469 : BitVec 32 := Scalar.addi v0 c52_i32
  let v470 : Index := Scalar.indexCast v469
  ![v470.toNat]
def k0_off106 (v471 : BitVec 32) : Fin 3 → Nat :=
  let c0_i32_316 : BitVec 32 := 0#32
  let c0_i32_317 : BitVec 32 := 0#32
  ![v471.toNat, 0, 0]

def k0_off107 (i : grid0.Coords) : Fin 1 → Nat :=
  let arg0 : BitVec 32 := BitVec.ofNat 32 (i 0).val
  let c128_i32 : BitVec 32 := 128#32
  let v0 : BitVec 32 := Scalar.muli arg0 c128_i32
  let c53_i32 : BitVec 32 := 53#32
  let v478 : BitVec 32 := Scalar.addi v0 c53_i32
  let v479 : Index := Scalar.indexCast v478
  ![v479.toNat]
def k0_off108 (v480 : BitVec 32) : Fin 3 → Nat :=
  let c0_i32_322 : BitVec 32 := 0#32
  let c0_i32_323 : BitVec 32 := 0#32
  ![v480.toNat, 0, 0]

def k0_off109 (i : grid0.Coords) : Fin 1 → Nat :=
  let arg0 : BitVec 32 := BitVec.ofNat 32 (i 0).val
  let c128_i32 : BitVec 32 := 128#32
  let v0 : BitVec 32 := Scalar.muli arg0 c128_i32
  let c54_i32 : BitVec 32 := 54#32
  let v487 : BitVec 32 := Scalar.addi v0 c54_i32
  let v488 : Index := Scalar.indexCast v487
  ![v488.toNat]
def k0_off110 (v489 : BitVec 32) : Fin 3 → Nat :=
  let c0_i32_328 : BitVec 32 := 0#32
  let c0_i32_329 : BitVec 32 := 0#32
  ![v489.toNat, 0, 0]

def k0_off111 (i : grid0.Coords) : Fin 1 → Nat :=
  let arg0 : BitVec 32 := BitVec.ofNat 32 (i 0).val
  let c128_i32 : BitVec 32 := 128#32
  let v0 : BitVec 32 := Scalar.muli arg0 c128_i32
  let c55_i32 : BitVec 32 := 55#32
  let v496 : BitVec 32 := Scalar.addi v0 c55_i32
  let v497 : Index := Scalar.indexCast v496
  ![v497.toNat]
def k0_off112 (v498 : BitVec 32) : Fin 3 → Nat :=
  let c0_i32_334 : BitVec 32 := 0#32
  let c0_i32_335 : BitVec 32 := 0#32
  ![v498.toNat, 0, 0]

def k0_off113 (i : grid0.Coords) : Fin 1 → Nat :=
  let arg0 : BitVec 32 := BitVec.ofNat 32 (i 0).val
  let c128_i32 : BitVec 32 := 128#32
  let v0 : BitVec 32 := Scalar.muli arg0 c128_i32
  let c56_i32 : BitVec 32 := 56#32
  let v505 : BitVec 32 := Scalar.addi v0 c56_i32
  let v506 : Index := Scalar.indexCast v505
  ![v506.toNat]
def k0_off114 (v507 : BitVec 32) : Fin 3 → Nat :=
  let c0_i32_340 : BitVec 32 := 0#32
  let c0_i32_341 : BitVec 32 := 0#32
  ![v507.toNat, 0, 0]

def k0_off115 (i : grid0.Coords) : Fin 1 → Nat :=
  let arg0 : BitVec 32 := BitVec.ofNat 32 (i 0).val
  let c128_i32 : BitVec 32 := 128#32
  let v0 : BitVec 32 := Scalar.muli arg0 c128_i32
  let c57_i32 : BitVec 32 := 57#32
  let v514 : BitVec 32 := Scalar.addi v0 c57_i32
  let v515 : Index := Scalar.indexCast v514
  ![v515.toNat]
def k0_off116 (v516 : BitVec 32) : Fin 3 → Nat :=
  let c0_i32_346 : BitVec 32 := 0#32
  let c0_i32_347 : BitVec 32 := 0#32
  ![v516.toNat, 0, 0]

def k0_off117 (i : grid0.Coords) : Fin 1 → Nat :=
  let arg0 : BitVec 32 := BitVec.ofNat 32 (i 0).val
  let c128_i32 : BitVec 32 := 128#32
  let v0 : BitVec 32 := Scalar.muli arg0 c128_i32
  let c58_i32 : BitVec 32 := 58#32
  let v523 : BitVec 32 := Scalar.addi v0 c58_i32
  let v524 : Index := Scalar.indexCast v523
  ![v524.toNat]
def k0_off118 (v525 : BitVec 32) : Fin 3 → Nat :=
  let c0_i32_352 : BitVec 32 := 0#32
  let c0_i32_353 : BitVec 32 := 0#32
  ![v525.toNat, 0, 0]

def k0_off119 (i : grid0.Coords) : Fin 1 → Nat :=
  let arg0 : BitVec 32 := BitVec.ofNat 32 (i 0).val
  let c128_i32 : BitVec 32 := 128#32
  let v0 : BitVec 32 := Scalar.muli arg0 c128_i32
  let c59_i32 : BitVec 32 := 59#32
  let v532 : BitVec 32 := Scalar.addi v0 c59_i32
  let v533 : Index := Scalar.indexCast v532
  ![v533.toNat]
def k0_off120 (v534 : BitVec 32) : Fin 3 → Nat :=
  let c0_i32_358 : BitVec 32 := 0#32
  let c0_i32_359 : BitVec 32 := 0#32
  ![v534.toNat, 0, 0]

def k0_off121 (i : grid0.Coords) : Fin 1 → Nat :=
  let arg0 : BitVec 32 := BitVec.ofNat 32 (i 0).val
  let c128_i32 : BitVec 32 := 128#32
  let v0 : BitVec 32 := Scalar.muli arg0 c128_i32
  let c60_i32 : BitVec 32 := 60#32
  let v541 : BitVec 32 := Scalar.addi v0 c60_i32
  let v542 : Index := Scalar.indexCast v541
  ![v542.toNat]
def k0_off122 (v543 : BitVec 32) : Fin 3 → Nat :=
  let c0_i32_364 : BitVec 32 := 0#32
  let c0_i32_365 : BitVec 32 := 0#32
  ![v543.toNat, 0, 0]

def k0_off123 (i : grid0.Coords) : Fin 1 → Nat :=
  let arg0 : BitVec 32 := BitVec.ofNat 32 (i 0).val
  let c128_i32 : BitVec 32 := 128#32
  let v0 : BitVec 32 := Scalar.muli arg0 c128_i32
  let c61_i32 : BitVec 32 := 61#32
  let v550 : BitVec 32 := Scalar.addi v0 c61_i32
  let v551 : Index := Scalar.indexCast v550
  ![v551.toNat]
def k0_off124 (v552 : BitVec 32) : Fin 3 → Nat :=
  let c0_i32_370 : BitVec 32 := 0#32
  let c0_i32_371 : BitVec 32 := 0#32
  ![v552.toNat, 0, 0]

def k0_off125 (i : grid0.Coords) : Fin 1 → Nat :=
  let arg0 : BitVec 32 := BitVec.ofNat 32 (i 0).val
  let c128_i32 : BitVec 32 := 128#32
  let v0 : BitVec 32 := Scalar.muli arg0 c128_i32
  let c62_i32 : BitVec 32 := 62#32
  let v559 : BitVec 32 := Scalar.addi v0 c62_i32
  let v560 : Index := Scalar.indexCast v559
  ![v560.toNat]
def k0_off126 (v561 : BitVec 32) : Fin 3 → Nat :=
  let c0_i32_376 : BitVec 32 := 0#32
  let c0_i32_377 : BitVec 32 := 0#32
  ![v561.toNat, 0, 0]

def k0_off127 (i : grid0.Coords) : Fin 1 → Nat :=
  let arg0 : BitVec 32 := BitVec.ofNat 32 (i 0).val
  let c128_i32 : BitVec 32 := 128#32
  let v0 : BitVec 32 := Scalar.muli arg0 c128_i32
  let c63_i32 : BitVec 32 := 63#32
  let v568 : BitVec 32 := Scalar.addi v0 c63_i32
  let v569 : Index := Scalar.indexCast v568
  ![v569.toNat]
def k0_off128 (v570 : BitVec 32) : Fin 3 → Nat :=
  let c0_i32_382 : BitVec 32 := 0#32
  let c0_i32_383 : BitVec 32 := 0#32
  ![v570.toNat, 0, 0]

def k0_off129 (i : grid0.Coords) : Fin 1 → Nat :=
  let arg0 : BitVec 32 := BitVec.ofNat 32 (i 0).val
  let c128_i32 : BitVec 32 := 128#32
  let v0 : BitVec 32 := Scalar.muli arg0 c128_i32
  let c64_i32 : BitVec 32 := 64#32
  let v577 : BitVec 32 := Scalar.addi v0 c64_i32
  let v578 : Index := Scalar.indexCast v577
  ![v578.toNat]
def k0_off130 (v579 : BitVec 32) : Fin 3 → Nat :=
  let c0_i32_388 : BitVec 32 := 0#32
  let c0_i32_389 : BitVec 32 := 0#32
  ![v579.toNat, 0, 0]

def k0_off131 (i : grid0.Coords) : Fin 1 → Nat :=
  let arg0 : BitVec 32 := BitVec.ofNat 32 (i 0).val
  let c128_i32 : BitVec 32 := 128#32
  let v0 : BitVec 32 := Scalar.muli arg0 c128_i32
  let c65_i32 : BitVec 32 := 65#32
  let v586 : BitVec 32 := Scalar.addi v0 c65_i32
  let v587 : Index := Scalar.indexCast v586
  ![v587.toNat]
def k0_off132 (v588 : BitVec 32) : Fin 3 → Nat :=
  let c0_i32_394 : BitVec 32 := 0#32
  let c0_i32_395 : BitVec 32 := 0#32
  ![v588.toNat, 0, 0]

def k0_off133 (i : grid0.Coords) : Fin 1 → Nat :=
  let arg0 : BitVec 32 := BitVec.ofNat 32 (i 0).val
  let c128_i32 : BitVec 32 := 128#32
  let v0 : BitVec 32 := Scalar.muli arg0 c128_i32
  let c66_i32 : BitVec 32 := 66#32
  let v595 : BitVec 32 := Scalar.addi v0 c66_i32
  let v596 : Index := Scalar.indexCast v595
  ![v596.toNat]
def k0_off134 (v597 : BitVec 32) : Fin 3 → Nat :=
  let c0_i32_400 : BitVec 32 := 0#32
  let c0_i32_401 : BitVec 32 := 0#32
  ![v597.toNat, 0, 0]

def k0_off135 (i : grid0.Coords) : Fin 1 → Nat :=
  let arg0 : BitVec 32 := BitVec.ofNat 32 (i 0).val
  let c128_i32 : BitVec 32 := 128#32
  let v0 : BitVec 32 := Scalar.muli arg0 c128_i32
  let c67_i32 : BitVec 32 := 67#32
  let v604 : BitVec 32 := Scalar.addi v0 c67_i32
  let v605 : Index := Scalar.indexCast v604
  ![v605.toNat]
def k0_off136 (v606 : BitVec 32) : Fin 3 → Nat :=
  let c0_i32_406 : BitVec 32 := 0#32
  let c0_i32_407 : BitVec 32 := 0#32
  ![v606.toNat, 0, 0]

def k0_off137 (i : grid0.Coords) : Fin 1 → Nat :=
  let arg0 : BitVec 32 := BitVec.ofNat 32 (i 0).val
  let c128_i32 : BitVec 32 := 128#32
  let v0 : BitVec 32 := Scalar.muli arg0 c128_i32
  let c68_i32 : BitVec 32 := 68#32
  let v613 : BitVec 32 := Scalar.addi v0 c68_i32
  let v614 : Index := Scalar.indexCast v613
  ![v614.toNat]
def k0_off138 (v615 : BitVec 32) : Fin 3 → Nat :=
  let c0_i32_412 : BitVec 32 := 0#32
  let c0_i32_413 : BitVec 32 := 0#32
  ![v615.toNat, 0, 0]

def k0_off139 (i : grid0.Coords) : Fin 1 → Nat :=
  let arg0 : BitVec 32 := BitVec.ofNat 32 (i 0).val
  let c128_i32 : BitVec 32 := 128#32
  let v0 : BitVec 32 := Scalar.muli arg0 c128_i32
  let c69_i32 : BitVec 32 := 69#32
  let v622 : BitVec 32 := Scalar.addi v0 c69_i32
  let v623 : Index := Scalar.indexCast v622
  ![v623.toNat]
def k0_off140 (v624 : BitVec 32) : Fin 3 → Nat :=
  let c0_i32_418 : BitVec 32 := 0#32
  let c0_i32_419 : BitVec 32 := 0#32
  ![v624.toNat, 0, 0]

def k0_off141 (i : grid0.Coords) : Fin 1 → Nat :=
  let arg0 : BitVec 32 := BitVec.ofNat 32 (i 0).val
  let c128_i32 : BitVec 32 := 128#32
  let v0 : BitVec 32 := Scalar.muli arg0 c128_i32
  let c70_i32 : BitVec 32 := 70#32
  let v631 : BitVec 32 := Scalar.addi v0 c70_i32
  let v632 : Index := Scalar.indexCast v631
  ![v632.toNat]
def k0_off142 (v633 : BitVec 32) : Fin 3 → Nat :=
  let c0_i32_424 : BitVec 32 := 0#32
  let c0_i32_425 : BitVec 32 := 0#32
  ![v633.toNat, 0, 0]

def k0_off143 (i : grid0.Coords) : Fin 1 → Nat :=
  let arg0 : BitVec 32 := BitVec.ofNat 32 (i 0).val
  let c128_i32 : BitVec 32 := 128#32
  let v0 : BitVec 32 := Scalar.muli arg0 c128_i32
  let c71_i32 : BitVec 32 := 71#32
  let v640 : BitVec 32 := Scalar.addi v0 c71_i32
  let v641 : Index := Scalar.indexCast v640
  ![v641.toNat]
def k0_off144 (v642 : BitVec 32) : Fin 3 → Nat :=
  let c0_i32_430 : BitVec 32 := 0#32
  let c0_i32_431 : BitVec 32 := 0#32
  ![v642.toNat, 0, 0]

def k0_off145 (i : grid0.Coords) : Fin 1 → Nat :=
  let arg0 : BitVec 32 := BitVec.ofNat 32 (i 0).val
  let c128_i32 : BitVec 32 := 128#32
  let v0 : BitVec 32 := Scalar.muli arg0 c128_i32
  let c72_i32 : BitVec 32 := 72#32
  let v649 : BitVec 32 := Scalar.addi v0 c72_i32
  let v650 : Index := Scalar.indexCast v649
  ![v650.toNat]
def k0_off146 (v651 : BitVec 32) : Fin 3 → Nat :=
  let c0_i32_436 : BitVec 32 := 0#32
  let c0_i32_437 : BitVec 32 := 0#32
  ![v651.toNat, 0, 0]

def k0_off147 (i : grid0.Coords) : Fin 1 → Nat :=
  let arg0 : BitVec 32 := BitVec.ofNat 32 (i 0).val
  let c128_i32 : BitVec 32 := 128#32
  let v0 : BitVec 32 := Scalar.muli arg0 c128_i32
  let c73_i32 : BitVec 32 := 73#32
  let v658 : BitVec 32 := Scalar.addi v0 c73_i32
  let v659 : Index := Scalar.indexCast v658
  ![v659.toNat]
def k0_off148 (v660 : BitVec 32) : Fin 3 → Nat :=
  let c0_i32_442 : BitVec 32 := 0#32
  let c0_i32_443 : BitVec 32 := 0#32
  ![v660.toNat, 0, 0]

def k0_off149 (i : grid0.Coords) : Fin 1 → Nat :=
  let arg0 : BitVec 32 := BitVec.ofNat 32 (i 0).val
  let c128_i32 : BitVec 32 := 128#32
  let v0 : BitVec 32 := Scalar.muli arg0 c128_i32
  let c74_i32 : BitVec 32 := 74#32
  let v667 : BitVec 32 := Scalar.addi v0 c74_i32
  let v668 : Index := Scalar.indexCast v667
  ![v668.toNat]
def k0_off150 (v669 : BitVec 32) : Fin 3 → Nat :=
  let c0_i32_448 : BitVec 32 := 0#32
  let c0_i32_449 : BitVec 32 := 0#32
  ![v669.toNat, 0, 0]

def k0_off151 (i : grid0.Coords) : Fin 1 → Nat :=
  let arg0 : BitVec 32 := BitVec.ofNat 32 (i 0).val
  let c128_i32 : BitVec 32 := 128#32
  let v0 : BitVec 32 := Scalar.muli arg0 c128_i32
  let c75_i32 : BitVec 32 := 75#32
  let v676 : BitVec 32 := Scalar.addi v0 c75_i32
  let v677 : Index := Scalar.indexCast v676
  ![v677.toNat]
def k0_off152 (v678 : BitVec 32) : Fin 3 → Nat :=
  let c0_i32_454 : BitVec 32 := 0#32
  let c0_i32_455 : BitVec 32 := 0#32
  ![v678.toNat, 0, 0]

def k0_off153 (i : grid0.Coords) : Fin 1 → Nat :=
  let arg0 : BitVec 32 := BitVec.ofNat 32 (i 0).val
  let c128_i32 : BitVec 32 := 128#32
  let v0 : BitVec 32 := Scalar.muli arg0 c128_i32
  let c76_i32 : BitVec 32 := 76#32
  let v685 : BitVec 32 := Scalar.addi v0 c76_i32
  let v686 : Index := Scalar.indexCast v685
  ![v686.toNat]
def k0_off154 (v687 : BitVec 32) : Fin 3 → Nat :=
  let c0_i32_460 : BitVec 32 := 0#32
  let c0_i32_461 : BitVec 32 := 0#32
  ![v687.toNat, 0, 0]

def k0_off155 (i : grid0.Coords) : Fin 1 → Nat :=
  let arg0 : BitVec 32 := BitVec.ofNat 32 (i 0).val
  let c128_i32 : BitVec 32 := 128#32
  let v0 : BitVec 32 := Scalar.muli arg0 c128_i32
  let c77_i32 : BitVec 32 := 77#32
  let v694 : BitVec 32 := Scalar.addi v0 c77_i32
  let v695 : Index := Scalar.indexCast v694
  ![v695.toNat]
def k0_off156 (v696 : BitVec 32) : Fin 3 → Nat :=
  let c0_i32_466 : BitVec 32 := 0#32
  let c0_i32_467 : BitVec 32 := 0#32
  ![v696.toNat, 0, 0]

def k0_off157 (i : grid0.Coords) : Fin 1 → Nat :=
  let arg0 : BitVec 32 := BitVec.ofNat 32 (i 0).val
  let c128_i32 : BitVec 32 := 128#32
  let v0 : BitVec 32 := Scalar.muli arg0 c128_i32
  let c78_i32 : BitVec 32 := 78#32
  let v703 : BitVec 32 := Scalar.addi v0 c78_i32
  let v704 : Index := Scalar.indexCast v703
  ![v704.toNat]
def k0_off158 (v705 : BitVec 32) : Fin 3 → Nat :=
  let c0_i32_472 : BitVec 32 := 0#32
  let c0_i32_473 : BitVec 32 := 0#32
  ![v705.toNat, 0, 0]

def k0_off159 (i : grid0.Coords) : Fin 1 → Nat :=
  let arg0 : BitVec 32 := BitVec.ofNat 32 (i 0).val
  let c128_i32 : BitVec 32 := 128#32
  let v0 : BitVec 32 := Scalar.muli arg0 c128_i32
  let c79_i32 : BitVec 32 := 79#32
  let v712 : BitVec 32 := Scalar.addi v0 c79_i32
  let v713 : Index := Scalar.indexCast v712
  ![v713.toNat]
def k0_off160 (v714 : BitVec 32) : Fin 3 → Nat :=
  let c0_i32_478 : BitVec 32 := 0#32
  let c0_i32_479 : BitVec 32 := 0#32
  ![v714.toNat, 0, 0]

def k0_off161 (i : grid0.Coords) : Fin 1 → Nat :=
  let arg0 : BitVec 32 := BitVec.ofNat 32 (i 0).val
  let c128_i32 : BitVec 32 := 128#32
  let v0 : BitVec 32 := Scalar.muli arg0 c128_i32
  let c80_i32 : BitVec 32 := 80#32
  let v721 : BitVec 32 := Scalar.addi v0 c80_i32
  let v722 : Index := Scalar.indexCast v721
  ![v722.toNat]
def k0_off162 (v723 : BitVec 32) : Fin 3 → Nat :=
  let c0_i32_484 : BitVec 32 := 0#32
  let c0_i32_485 : BitVec 32 := 0#32
  ![v723.toNat, 0, 0]

def k0_off163 (i : grid0.Coords) : Fin 1 → Nat :=
  let arg0 : BitVec 32 := BitVec.ofNat 32 (i 0).val
  let c128_i32 : BitVec 32 := 128#32
  let v0 : BitVec 32 := Scalar.muli arg0 c128_i32
  let c81_i32 : BitVec 32 := 81#32
  let v730 : BitVec 32 := Scalar.addi v0 c81_i32
  let v731 : Index := Scalar.indexCast v730
  ![v731.toNat]
def k0_off164 (v732 : BitVec 32) : Fin 3 → Nat :=
  let c0_i32_490 : BitVec 32 := 0#32
  let c0_i32_491 : BitVec 32 := 0#32
  ![v732.toNat, 0, 0]

def k0_off165 (i : grid0.Coords) : Fin 1 → Nat :=
  let arg0 : BitVec 32 := BitVec.ofNat 32 (i 0).val
  let c128_i32 : BitVec 32 := 128#32
  let v0 : BitVec 32 := Scalar.muli arg0 c128_i32
  let c82_i32 : BitVec 32 := 82#32
  let v739 : BitVec 32 := Scalar.addi v0 c82_i32
  let v740 : Index := Scalar.indexCast v739
  ![v740.toNat]
def k0_off166 (v741 : BitVec 32) : Fin 3 → Nat :=
  let c0_i32_496 : BitVec 32 := 0#32
  let c0_i32_497 : BitVec 32 := 0#32
  ![v741.toNat, 0, 0]

def k0_off167 (i : grid0.Coords) : Fin 1 → Nat :=
  let arg0 : BitVec 32 := BitVec.ofNat 32 (i 0).val
  let c128_i32 : BitVec 32 := 128#32
  let v0 : BitVec 32 := Scalar.muli arg0 c128_i32
  let c83_i32 : BitVec 32 := 83#32
  let v748 : BitVec 32 := Scalar.addi v0 c83_i32
  let v749 : Index := Scalar.indexCast v748
  ![v749.toNat]
def k0_off168 (v750 : BitVec 32) : Fin 3 → Nat :=
  let c0_i32_502 : BitVec 32 := 0#32
  let c0_i32_503 : BitVec 32 := 0#32
  ![v750.toNat, 0, 0]

def k0_off169 (i : grid0.Coords) : Fin 1 → Nat :=
  let arg0 : BitVec 32 := BitVec.ofNat 32 (i 0).val
  let c128_i32 : BitVec 32 := 128#32
  let v0 : BitVec 32 := Scalar.muli arg0 c128_i32
  let c84_i32 : BitVec 32 := 84#32
  let v757 : BitVec 32 := Scalar.addi v0 c84_i32
  let v758 : Index := Scalar.indexCast v757
  ![v758.toNat]
def k0_off170 (v759 : BitVec 32) : Fin 3 → Nat :=
  let c0_i32_508 : BitVec 32 := 0#32
  let c0_i32_509 : BitVec 32 := 0#32
  ![v759.toNat, 0, 0]

def k0_off171 (i : grid0.Coords) : Fin 1 → Nat :=
  let arg0 : BitVec 32 := BitVec.ofNat 32 (i 0).val
  let c128_i32 : BitVec 32 := 128#32
  let v0 : BitVec 32 := Scalar.muli arg0 c128_i32
  let c85_i32 : BitVec 32 := 85#32
  let v766 : BitVec 32 := Scalar.addi v0 c85_i32
  let v767 : Index := Scalar.indexCast v766
  ![v767.toNat]
def k0_off172 (v768 : BitVec 32) : Fin 3 → Nat :=
  let c0_i32_514 : BitVec 32 := 0#32
  let c0_i32_515 : BitVec 32 := 0#32
  ![v768.toNat, 0, 0]

def k0_off173 (i : grid0.Coords) : Fin 1 → Nat :=
  let arg0 : BitVec 32 := BitVec.ofNat 32 (i 0).val
  let c128_i32 : BitVec 32 := 128#32
  let v0 : BitVec 32 := Scalar.muli arg0 c128_i32
  let c86_i32 : BitVec 32 := 86#32
  let v775 : BitVec 32 := Scalar.addi v0 c86_i32
  let v776 : Index := Scalar.indexCast v775
  ![v776.toNat]
def k0_off174 (v777 : BitVec 32) : Fin 3 → Nat :=
  let c0_i32_520 : BitVec 32 := 0#32
  let c0_i32_521 : BitVec 32 := 0#32
  ![v777.toNat, 0, 0]

def k0_off175 (i : grid0.Coords) : Fin 1 → Nat :=
  let arg0 : BitVec 32 := BitVec.ofNat 32 (i 0).val
  let c128_i32 : BitVec 32 := 128#32
  let v0 : BitVec 32 := Scalar.muli arg0 c128_i32
  let c87_i32 : BitVec 32 := 87#32
  let v784 : BitVec 32 := Scalar.addi v0 c87_i32
  let v785 : Index := Scalar.indexCast v784
  ![v785.toNat]
def k0_off176 (v786 : BitVec 32) : Fin 3 → Nat :=
  let c0_i32_526 : BitVec 32 := 0#32
  let c0_i32_527 : BitVec 32 := 0#32
  ![v786.toNat, 0, 0]

def k0_off177 (i : grid0.Coords) : Fin 1 → Nat :=
  let arg0 : BitVec 32 := BitVec.ofNat 32 (i 0).val
  let c128_i32 : BitVec 32 := 128#32
  let v0 : BitVec 32 := Scalar.muli arg0 c128_i32
  let c88_i32 : BitVec 32 := 88#32
  let v793 : BitVec 32 := Scalar.addi v0 c88_i32
  let v794 : Index := Scalar.indexCast v793
  ![v794.toNat]
def k0_off178 (v795 : BitVec 32) : Fin 3 → Nat :=
  let c0_i32_532 : BitVec 32 := 0#32
  let c0_i32_533 : BitVec 32 := 0#32
  ![v795.toNat, 0, 0]

def k0_off179 (i : grid0.Coords) : Fin 1 → Nat :=
  let arg0 : BitVec 32 := BitVec.ofNat 32 (i 0).val
  let c128_i32 : BitVec 32 := 128#32
  let v0 : BitVec 32 := Scalar.muli arg0 c128_i32
  let c89_i32 : BitVec 32 := 89#32
  let v802 : BitVec 32 := Scalar.addi v0 c89_i32
  let v803 : Index := Scalar.indexCast v802
  ![v803.toNat]
def k0_off180 (v804 : BitVec 32) : Fin 3 → Nat :=
  let c0_i32_538 : BitVec 32 := 0#32
  let c0_i32_539 : BitVec 32 := 0#32
  ![v804.toNat, 0, 0]

def k0_off181 (i : grid0.Coords) : Fin 1 → Nat :=
  let arg0 : BitVec 32 := BitVec.ofNat 32 (i 0).val
  let c128_i32 : BitVec 32 := 128#32
  let v0 : BitVec 32 := Scalar.muli arg0 c128_i32
  let c90_i32 : BitVec 32 := 90#32
  let v811 : BitVec 32 := Scalar.addi v0 c90_i32
  let v812 : Index := Scalar.indexCast v811
  ![v812.toNat]
def k0_off182 (v813 : BitVec 32) : Fin 3 → Nat :=
  let c0_i32_544 : BitVec 32 := 0#32
  let c0_i32_545 : BitVec 32 := 0#32
  ![v813.toNat, 0, 0]

def k0_off183 (i : grid0.Coords) : Fin 1 → Nat :=
  let arg0 : BitVec 32 := BitVec.ofNat 32 (i 0).val
  let c128_i32 : BitVec 32 := 128#32
  let v0 : BitVec 32 := Scalar.muli arg0 c128_i32
  let c91_i32 : BitVec 32 := 91#32
  let v820 : BitVec 32 := Scalar.addi v0 c91_i32
  let v821 : Index := Scalar.indexCast v820
  ![v821.toNat]
def k0_off184 (v822 : BitVec 32) : Fin 3 → Nat :=
  let c0_i32_550 : BitVec 32 := 0#32
  let c0_i32_551 : BitVec 32 := 0#32
  ![v822.toNat, 0, 0]

def k0_off185 (i : grid0.Coords) : Fin 1 → Nat :=
  let arg0 : BitVec 32 := BitVec.ofNat 32 (i 0).val
  let c128_i32 : BitVec 32 := 128#32
  let v0 : BitVec 32 := Scalar.muli arg0 c128_i32
  let c92_i32 : BitVec 32 := 92#32
  let v829 : BitVec 32 := Scalar.addi v0 c92_i32
  let v830 : Index := Scalar.indexCast v829
  ![v830.toNat]
def k0_off186 (v831 : BitVec 32) : Fin 3 → Nat :=
  let c0_i32_556 : BitVec 32 := 0#32
  let c0_i32_557 : BitVec 32 := 0#32
  ![v831.toNat, 0, 0]

def k0_off187 (i : grid0.Coords) : Fin 1 → Nat :=
  let arg0 : BitVec 32 := BitVec.ofNat 32 (i 0).val
  let c128_i32 : BitVec 32 := 128#32
  let v0 : BitVec 32 := Scalar.muli arg0 c128_i32
  let c93_i32 : BitVec 32 := 93#32
  let v838 : BitVec 32 := Scalar.addi v0 c93_i32
  let v839 : Index := Scalar.indexCast v838
  ![v839.toNat]
def k0_off188 (v840 : BitVec 32) : Fin 3 → Nat :=
  let c0_i32_562 : BitVec 32 := 0#32
  let c0_i32_563 : BitVec 32 := 0#32
  ![v840.toNat, 0, 0]

def k0_off189 (i : grid0.Coords) : Fin 1 → Nat :=
  let arg0 : BitVec 32 := BitVec.ofNat 32 (i 0).val
  let c128_i32 : BitVec 32 := 128#32
  let v0 : BitVec 32 := Scalar.muli arg0 c128_i32
  let c94_i32 : BitVec 32 := 94#32
  let v847 : BitVec 32 := Scalar.addi v0 c94_i32
  let v848 : Index := Scalar.indexCast v847
  ![v848.toNat]
def k0_off190 (v849 : BitVec 32) : Fin 3 → Nat :=
  let c0_i32_568 : BitVec 32 := 0#32
  let c0_i32_569 : BitVec 32 := 0#32
  ![v849.toNat, 0, 0]

def k0_off191 (i : grid0.Coords) : Fin 1 → Nat :=
  let arg0 : BitVec 32 := BitVec.ofNat 32 (i 0).val
  let c128_i32 : BitVec 32 := 128#32
  let v0 : BitVec 32 := Scalar.muli arg0 c128_i32
  let c95_i32 : BitVec 32 := 95#32
  let v856 : BitVec 32 := Scalar.addi v0 c95_i32
  let v857 : Index := Scalar.indexCast v856
  ![v857.toNat]
def k0_off192 (v858 : BitVec 32) : Fin 3 → Nat :=
  let c0_i32_574 : BitVec 32 := 0#32
  let c0_i32_575 : BitVec 32 := 0#32
  ![v858.toNat, 0, 0]

def k0_off193 (i : grid0.Coords) : Fin 1 → Nat :=
  let arg0 : BitVec 32 := BitVec.ofNat 32 (i 0).val
  let c128_i32 : BitVec 32 := 128#32
  let v0 : BitVec 32 := Scalar.muli arg0 c128_i32
  let c96_i32 : BitVec 32 := 96#32
  let v865 : BitVec 32 := Scalar.addi v0 c96_i32
  let v866 : Index := Scalar.indexCast v865
  ![v866.toNat]
def k0_off194 (v867 : BitVec 32) : Fin 3 → Nat :=
  let c0_i32_580 : BitVec 32 := 0#32
  let c0_i32_581 : BitVec 32 := 0#32
  ![v867.toNat, 0, 0]

def k0_off195 (i : grid0.Coords) : Fin 1 → Nat :=
  let arg0 : BitVec 32 := BitVec.ofNat 32 (i 0).val
  let c128_i32 : BitVec 32 := 128#32
  let v0 : BitVec 32 := Scalar.muli arg0 c128_i32
  let c97_i32 : BitVec 32 := 97#32
  let v874 : BitVec 32 := Scalar.addi v0 c97_i32
  let v875 : Index := Scalar.indexCast v874
  ![v875.toNat]
def k0_off196 (v876 : BitVec 32) : Fin 3 → Nat :=
  let c0_i32_586 : BitVec 32 := 0#32
  let c0_i32_587 : BitVec 32 := 0#32
  ![v876.toNat, 0, 0]

def k0_off197 (i : grid0.Coords) : Fin 1 → Nat :=
  let arg0 : BitVec 32 := BitVec.ofNat 32 (i 0).val
  let c128_i32 : BitVec 32 := 128#32
  let v0 : BitVec 32 := Scalar.muli arg0 c128_i32
  let c98_i32 : BitVec 32 := 98#32
  let v883 : BitVec 32 := Scalar.addi v0 c98_i32
  let v884 : Index := Scalar.indexCast v883
  ![v884.toNat]
def k0_off198 (v885 : BitVec 32) : Fin 3 → Nat :=
  let c0_i32_592 : BitVec 32 := 0#32
  let c0_i32_593 : BitVec 32 := 0#32
  ![v885.toNat, 0, 0]

def k0_off199 (i : grid0.Coords) : Fin 1 → Nat :=
  let arg0 : BitVec 32 := BitVec.ofNat 32 (i 0).val
  let c128_i32 : BitVec 32 := 128#32
  let v0 : BitVec 32 := Scalar.muli arg0 c128_i32
  let c99_i32 : BitVec 32 := 99#32
  let v892 : BitVec 32 := Scalar.addi v0 c99_i32
  let v893 : Index := Scalar.indexCast v892
  ![v893.toNat]
def k0_off200 (v894 : BitVec 32) : Fin 3 → Nat :=
  let c0_i32_598 : BitVec 32 := 0#32
  let c0_i32_599 : BitVec 32 := 0#32
  ![v894.toNat, 0, 0]

def k0_off201 (i : grid0.Coords) : Fin 1 → Nat :=
  let arg0 : BitVec 32 := BitVec.ofNat 32 (i 0).val
  let c128_i32 : BitVec 32 := 128#32
  let v0 : BitVec 32 := Scalar.muli arg0 c128_i32
  let c100_i32 : BitVec 32 := 100#32
  let v901 : BitVec 32 := Scalar.addi v0 c100_i32
  let v902 : Index := Scalar.indexCast v901
  ![v902.toNat]
def k0_off202 (v903 : BitVec 32) : Fin 3 → Nat :=
  let c0_i32_604 : BitVec 32 := 0#32
  let c0_i32_605 : BitVec 32 := 0#32
  ![v903.toNat, 0, 0]

def k0_off203 (i : grid0.Coords) : Fin 1 → Nat :=
  let arg0 : BitVec 32 := BitVec.ofNat 32 (i 0).val
  let c128_i32 : BitVec 32 := 128#32
  let v0 : BitVec 32 := Scalar.muli arg0 c128_i32
  let c101_i32 : BitVec 32 := 101#32
  let v910 : BitVec 32 := Scalar.addi v0 c101_i32
  let v911 : Index := Scalar.indexCast v910
  ![v911.toNat]
def k0_off204 (v912 : BitVec 32) : Fin 3 → Nat :=
  let c0_i32_610 : BitVec 32 := 0#32
  let c0_i32_611 : BitVec 32 := 0#32
  ![v912.toNat, 0, 0]

def k0_off205 (i : grid0.Coords) : Fin 1 → Nat :=
  let arg0 : BitVec 32 := BitVec.ofNat 32 (i 0).val
  let c128_i32 : BitVec 32 := 128#32
  let v0 : BitVec 32 := Scalar.muli arg0 c128_i32
  let c102_i32 : BitVec 32 := 102#32
  let v919 : BitVec 32 := Scalar.addi v0 c102_i32
  let v920 : Index := Scalar.indexCast v919
  ![v920.toNat]
def k0_off206 (v921 : BitVec 32) : Fin 3 → Nat :=
  let c0_i32_616 : BitVec 32 := 0#32
  let c0_i32_617 : BitVec 32 := 0#32
  ![v921.toNat, 0, 0]

def k0_off207 (i : grid0.Coords) : Fin 1 → Nat :=
  let arg0 : BitVec 32 := BitVec.ofNat 32 (i 0).val
  let c128_i32 : BitVec 32 := 128#32
  let v0 : BitVec 32 := Scalar.muli arg0 c128_i32
  let c103_i32 : BitVec 32 := 103#32
  let v928 : BitVec 32 := Scalar.addi v0 c103_i32
  let v929 : Index := Scalar.indexCast v928
  ![v929.toNat]
def k0_off208 (v930 : BitVec 32) : Fin 3 → Nat :=
  let c0_i32_622 : BitVec 32 := 0#32
  let c0_i32_623 : BitVec 32 := 0#32
  ![v930.toNat, 0, 0]

def k0_off209 (i : grid0.Coords) : Fin 1 → Nat :=
  let arg0 : BitVec 32 := BitVec.ofNat 32 (i 0).val
  let c128_i32 : BitVec 32 := 128#32
  let v0 : BitVec 32 := Scalar.muli arg0 c128_i32
  let c104_i32 : BitVec 32 := 104#32
  let v937 : BitVec 32 := Scalar.addi v0 c104_i32
  let v938 : Index := Scalar.indexCast v937
  ![v938.toNat]
def k0_off210 (v939 : BitVec 32) : Fin 3 → Nat :=
  let c0_i32_628 : BitVec 32 := 0#32
  let c0_i32_629 : BitVec 32 := 0#32
  ![v939.toNat, 0, 0]

def k0_off211 (i : grid0.Coords) : Fin 1 → Nat :=
  let arg0 : BitVec 32 := BitVec.ofNat 32 (i 0).val
  let c128_i32 : BitVec 32 := 128#32
  let v0 : BitVec 32 := Scalar.muli arg0 c128_i32
  let c105_i32 : BitVec 32 := 105#32
  let v946 : BitVec 32 := Scalar.addi v0 c105_i32
  let v947 : Index := Scalar.indexCast v946
  ![v947.toNat]
def k0_off212 (v948 : BitVec 32) : Fin 3 → Nat :=
  let c0_i32_634 : BitVec 32 := 0#32
  let c0_i32_635 : BitVec 32 := 0#32
  ![v948.toNat, 0, 0]

def k0_off213 (i : grid0.Coords) : Fin 1 → Nat :=
  let arg0 : BitVec 32 := BitVec.ofNat 32 (i 0).val
  let c128_i32 : BitVec 32 := 128#32
  let v0 : BitVec 32 := Scalar.muli arg0 c128_i32
  let c106_i32 : BitVec 32 := 106#32
  let v955 : BitVec 32 := Scalar.addi v0 c106_i32
  let v956 : Index := Scalar.indexCast v955
  ![v956.toNat]
def k0_off214 (v957 : BitVec 32) : Fin 3 → Nat :=
  let c0_i32_640 : BitVec 32 := 0#32
  let c0_i32_641 : BitVec 32 := 0#32
  ![v957.toNat, 0, 0]

def k0_off215 (i : grid0.Coords) : Fin 1 → Nat :=
  let arg0 : BitVec 32 := BitVec.ofNat 32 (i 0).val
  let c128_i32 : BitVec 32 := 128#32
  let v0 : BitVec 32 := Scalar.muli arg0 c128_i32
  let c107_i32 : BitVec 32 := 107#32
  let v964 : BitVec 32 := Scalar.addi v0 c107_i32
  let v965 : Index := Scalar.indexCast v964
  ![v965.toNat]
def k0_off216 (v966 : BitVec 32) : Fin 3 → Nat :=
  let c0_i32_646 : BitVec 32 := 0#32
  let c0_i32_647 : BitVec 32 := 0#32
  ![v966.toNat, 0, 0]

def k0_off217 (i : grid0.Coords) : Fin 1 → Nat :=
  let arg0 : BitVec 32 := BitVec.ofNat 32 (i 0).val
  let c128_i32 : BitVec 32 := 128#32
  let v0 : BitVec 32 := Scalar.muli arg0 c128_i32
  let c108_i32 : BitVec 32 := 108#32
  let v973 : BitVec 32 := Scalar.addi v0 c108_i32
  let v974 : Index := Scalar.indexCast v973
  ![v974.toNat]
def k0_off218 (v975 : BitVec 32) : Fin 3 → Nat :=
  let c0_i32_652 : BitVec 32 := 0#32
  let c0_i32_653 : BitVec 32 := 0#32
  ![v975.toNat, 0, 0]

def k0_off219 (i : grid0.Coords) : Fin 1 → Nat :=
  let arg0 : BitVec 32 := BitVec.ofNat 32 (i 0).val
  let c128_i32 : BitVec 32 := 128#32
  let v0 : BitVec 32 := Scalar.muli arg0 c128_i32
  let c109_i32 : BitVec 32 := 109#32
  let v982 : BitVec 32 := Scalar.addi v0 c109_i32
  let v983 : Index := Scalar.indexCast v982
  ![v983.toNat]
def k0_off220 (v984 : BitVec 32) : Fin 3 → Nat :=
  let c0_i32_658 : BitVec 32 := 0#32
  let c0_i32_659 : BitVec 32 := 0#32
  ![v984.toNat, 0, 0]

def k0_off221 (i : grid0.Coords) : Fin 1 → Nat :=
  let arg0 : BitVec 32 := BitVec.ofNat 32 (i 0).val
  let c128_i32 : BitVec 32 := 128#32
  let v0 : BitVec 32 := Scalar.muli arg0 c128_i32
  let c110_i32 : BitVec 32 := 110#32
  let v991 : BitVec 32 := Scalar.addi v0 c110_i32
  let v992 : Index := Scalar.indexCast v991
  ![v992.toNat]
def k0_off222 (v993 : BitVec 32) : Fin 3 → Nat :=
  let c0_i32_664 : BitVec 32 := 0#32
  let c0_i32_665 : BitVec 32 := 0#32
  ![v993.toNat, 0, 0]

def k0_off223 (i : grid0.Coords) : Fin 1 → Nat :=
  let arg0 : BitVec 32 := BitVec.ofNat 32 (i 0).val
  let c128_i32 : BitVec 32 := 128#32
  let v0 : BitVec 32 := Scalar.muli arg0 c128_i32
  let c111_i32 : BitVec 32 := 111#32
  let v1000 : BitVec 32 := Scalar.addi v0 c111_i32
  let v1001 : Index := Scalar.indexCast v1000
  ![v1001.toNat]
def k0_off224 (v1002 : BitVec 32) : Fin 3 → Nat :=
  let c0_i32_670 : BitVec 32 := 0#32
  let c0_i32_671 : BitVec 32 := 0#32
  ![v1002.toNat, 0, 0]

def k0_off225 (i : grid0.Coords) : Fin 1 → Nat :=
  let arg0 : BitVec 32 := BitVec.ofNat 32 (i 0).val
  let c128_i32 : BitVec 32 := 128#32
  let v0 : BitVec 32 := Scalar.muli arg0 c128_i32
  let c112_i32 : BitVec 32 := 112#32
  let v1009 : BitVec 32 := Scalar.addi v0 c112_i32
  let v1010 : Index := Scalar.indexCast v1009
  ![v1010.toNat]
def k0_off226 (v1011 : BitVec 32) : Fin 3 → Nat :=
  let c0_i32_676 : BitVec 32 := 0#32
  let c0_i32_677 : BitVec 32 := 0#32
  ![v1011.toNat, 0, 0]

def k0_off227 (i : grid0.Coords) : Fin 1 → Nat :=
  let arg0 : BitVec 32 := BitVec.ofNat 32 (i 0).val
  let c128_i32 : BitVec 32 := 128#32
  let v0 : BitVec 32 := Scalar.muli arg0 c128_i32
  let c113_i32 : BitVec 32 := 113#32
  let v1018 : BitVec 32 := Scalar.addi v0 c113_i32
  let v1019 : Index := Scalar.indexCast v1018
  ![v1019.toNat]
def k0_off228 (v1020 : BitVec 32) : Fin 3 → Nat :=
  let c0_i32_682 : BitVec 32 := 0#32
  let c0_i32_683 : BitVec 32 := 0#32
  ![v1020.toNat, 0, 0]

def k0_off229 (i : grid0.Coords) : Fin 1 → Nat :=
  let arg0 : BitVec 32 := BitVec.ofNat 32 (i 0).val
  let c128_i32 : BitVec 32 := 128#32
  let v0 : BitVec 32 := Scalar.muli arg0 c128_i32
  let c114_i32 : BitVec 32 := 114#32
  let v1027 : BitVec 32 := Scalar.addi v0 c114_i32
  let v1028 : Index := Scalar.indexCast v1027
  ![v1028.toNat]
def k0_off230 (v1029 : BitVec 32) : Fin 3 → Nat :=
  let c0_i32_688 : BitVec 32 := 0#32
  let c0_i32_689 : BitVec 32 := 0#32
  ![v1029.toNat, 0, 0]

def k0_off231 (i : grid0.Coords) : Fin 1 → Nat :=
  let arg0 : BitVec 32 := BitVec.ofNat 32 (i 0).val
  let c128_i32 : BitVec 32 := 128#32
  let v0 : BitVec 32 := Scalar.muli arg0 c128_i32
  let c115_i32 : BitVec 32 := 115#32
  let v1036 : BitVec 32 := Scalar.addi v0 c115_i32
  let v1037 : Index := Scalar.indexCast v1036
  ![v1037.toNat]
def k0_off232 (v1038 : BitVec 32) : Fin 3 → Nat :=
  let c0_i32_694 : BitVec 32 := 0#32
  let c0_i32_695 : BitVec 32 := 0#32
  ![v1038.toNat, 0, 0]

def k0_off233 (i : grid0.Coords) : Fin 1 → Nat :=
  let arg0 : BitVec 32 := BitVec.ofNat 32 (i 0).val
  let c128_i32 : BitVec 32 := 128#32
  let v0 : BitVec 32 := Scalar.muli arg0 c128_i32
  let c116_i32 : BitVec 32 := 116#32
  let v1045 : BitVec 32 := Scalar.addi v0 c116_i32
  let v1046 : Index := Scalar.indexCast v1045
  ![v1046.toNat]
def k0_off234 (v1047 : BitVec 32) : Fin 3 → Nat :=
  let c0_i32_700 : BitVec 32 := 0#32
  let c0_i32_701 : BitVec 32 := 0#32
  ![v1047.toNat, 0, 0]

def k0_off235 (i : grid0.Coords) : Fin 1 → Nat :=
  let arg0 : BitVec 32 := BitVec.ofNat 32 (i 0).val
  let c128_i32 : BitVec 32 := 128#32
  let v0 : BitVec 32 := Scalar.muli arg0 c128_i32
  let c117_i32 : BitVec 32 := 117#32
  let v1054 : BitVec 32 := Scalar.addi v0 c117_i32
  let v1055 : Index := Scalar.indexCast v1054
  ![v1055.toNat]
def k0_off236 (v1056 : BitVec 32) : Fin 3 → Nat :=
  let c0_i32_706 : BitVec 32 := 0#32
  let c0_i32_707 : BitVec 32 := 0#32
  ![v1056.toNat, 0, 0]

def k0_off237 (i : grid0.Coords) : Fin 1 → Nat :=
  let arg0 : BitVec 32 := BitVec.ofNat 32 (i 0).val
  let c128_i32 : BitVec 32 := 128#32
  let v0 : BitVec 32 := Scalar.muli arg0 c128_i32
  let c118_i32 : BitVec 32 := 118#32
  let v1063 : BitVec 32 := Scalar.addi v0 c118_i32
  let v1064 : Index := Scalar.indexCast v1063
  ![v1064.toNat]
def k0_off238 (v1065 : BitVec 32) : Fin 3 → Nat :=
  let c0_i32_712 : BitVec 32 := 0#32
  let c0_i32_713 : BitVec 32 := 0#32
  ![v1065.toNat, 0, 0]

def k0_off239 (i : grid0.Coords) : Fin 1 → Nat :=
  let arg0 : BitVec 32 := BitVec.ofNat 32 (i 0).val
  let c128_i32 : BitVec 32 := 128#32
  let v0 : BitVec 32 := Scalar.muli arg0 c128_i32
  let c119_i32 : BitVec 32 := 119#32
  let v1072 : BitVec 32 := Scalar.addi v0 c119_i32
  let v1073 : Index := Scalar.indexCast v1072
  ![v1073.toNat]
def k0_off240 (v1074 : BitVec 32) : Fin 3 → Nat :=
  let c0_i32_718 : BitVec 32 := 0#32
  let c0_i32_719 : BitVec 32 := 0#32
  ![v1074.toNat, 0, 0]

def k0_off241 (i : grid0.Coords) : Fin 1 → Nat :=
  let arg0 : BitVec 32 := BitVec.ofNat 32 (i 0).val
  let c128_i32 : BitVec 32 := 128#32
  let v0 : BitVec 32 := Scalar.muli arg0 c128_i32
  let c120_i32 : BitVec 32 := 120#32
  let v1081 : BitVec 32 := Scalar.addi v0 c120_i32
  let v1082 : Index := Scalar.indexCast v1081
  ![v1082.toNat]
def k0_off242 (v1083 : BitVec 32) : Fin 3 → Nat :=
  let c0_i32_724 : BitVec 32 := 0#32
  let c0_i32_725 : BitVec 32 := 0#32
  ![v1083.toNat, 0, 0]

def k0_off243 (i : grid0.Coords) : Fin 1 → Nat :=
  let arg0 : BitVec 32 := BitVec.ofNat 32 (i 0).val
  let c128_i32 : BitVec 32 := 128#32
  let v0 : BitVec 32 := Scalar.muli arg0 c128_i32
  let c121_i32 : BitVec 32 := 121#32
  let v1090 : BitVec 32 := Scalar.addi v0 c121_i32
  let v1091 : Index := Scalar.indexCast v1090
  ![v1091.toNat]
def k0_off244 (v1092 : BitVec 32) : Fin 3 → Nat :=
  let c0_i32_730 : BitVec 32 := 0#32
  let c0_i32_731 : BitVec 32 := 0#32
  ![v1092.toNat, 0, 0]

def k0_off245 (i : grid0.Coords) : Fin 1 → Nat :=
  let arg0 : BitVec 32 := BitVec.ofNat 32 (i 0).val
  let c128_i32 : BitVec 32 := 128#32
  let v0 : BitVec 32 := Scalar.muli arg0 c128_i32
  let c122_i32 : BitVec 32 := 122#32
  let v1099 : BitVec 32 := Scalar.addi v0 c122_i32
  let v1100 : Index := Scalar.indexCast v1099
  ![v1100.toNat]
def k0_off246 (v1101 : BitVec 32) : Fin 3 → Nat :=
  let c0_i32_736 : BitVec 32 := 0#32
  let c0_i32_737 : BitVec 32 := 0#32
  ![v1101.toNat, 0, 0]

def k0_off247 (i : grid0.Coords) : Fin 1 → Nat :=
  let arg0 : BitVec 32 := BitVec.ofNat 32 (i 0).val
  let c128_i32 : BitVec 32 := 128#32
  let v0 : BitVec 32 := Scalar.muli arg0 c128_i32
  let c123_i32 : BitVec 32 := 123#32
  let v1108 : BitVec 32 := Scalar.addi v0 c123_i32
  let v1109 : Index := Scalar.indexCast v1108
  ![v1109.toNat]
def k0_off248 (v1110 : BitVec 32) : Fin 3 → Nat :=
  let c0_i32_742 : BitVec 32 := 0#32
  let c0_i32_743 : BitVec 32 := 0#32
  ![v1110.toNat, 0, 0]

def k0_off249 (i : grid0.Coords) : Fin 1 → Nat :=
  let arg0 : BitVec 32 := BitVec.ofNat 32 (i 0).val
  let c128_i32 : BitVec 32 := 128#32
  let v0 : BitVec 32 := Scalar.muli arg0 c128_i32
  let c124_i32 : BitVec 32 := 124#32
  let v1117 : BitVec 32 := Scalar.addi v0 c124_i32
  let v1118 : Index := Scalar.indexCast v1117
  ![v1118.toNat]
def k0_off250 (v1119 : BitVec 32) : Fin 3 → Nat :=
  let c0_i32_748 : BitVec 32 := 0#32
  let c0_i32_749 : BitVec 32 := 0#32
  ![v1119.toNat, 0, 0]

def k0_off251 (i : grid0.Coords) : Fin 1 → Nat :=
  let arg0 : BitVec 32 := BitVec.ofNat 32 (i 0).val
  let c128_i32 : BitVec 32 := 128#32
  let v0 : BitVec 32 := Scalar.muli arg0 c128_i32
  let c125_i32 : BitVec 32 := 125#32
  let v1126 : BitVec 32 := Scalar.addi v0 c125_i32
  let v1127 : Index := Scalar.indexCast v1126
  ![v1127.toNat]
def k0_off252 (v1128 : BitVec 32) : Fin 3 → Nat :=
  let c0_i32_754 : BitVec 32 := 0#32
  let c0_i32_755 : BitVec 32 := 0#32
  ![v1128.toNat, 0, 0]

def k0_off253 (i : grid0.Coords) : Fin 1 → Nat :=
  let arg0 : BitVec 32 := BitVec.ofNat 32 (i 0).val
  let c128_i32 : BitVec 32 := 128#32
  let v0 : BitVec 32 := Scalar.muli arg0 c128_i32
  let c126_i32 : BitVec 32 := 126#32
  let v1135 : BitVec 32 := Scalar.addi v0 c126_i32
  let v1136 : Index := Scalar.indexCast v1135
  ![v1136.toNat]
def k0_off254 (v1137 : BitVec 32) : Fin 3 → Nat :=
  let c0_i32_760 : BitVec 32 := 0#32
  let c0_i32_761 : BitVec 32 := 0#32
  ![v1137.toNat, 0, 0]

def k0_off255 (i : grid0.Coords) : Fin 1 → Nat :=
  let arg0 : BitVec 32 := BitVec.ofNat 32 (i 0).val
  let c128_i32 : BitVec 32 := 128#32
  let v0 : BitVec 32 := Scalar.muli arg0 c128_i32
  let c127_i32 : BitVec 32 := 127#32
  let v1144 : BitVec 32 := Scalar.addi v0 c127_i32
  let v1145 : Index := Scalar.indexCast v1144
  ![v1145.toNat]
def k0_off256 (v1146 : BitVec 32) : Fin 3 → Nat :=
  let c0_i32_766 : BitVec 32 := 0#32
  let c0_i32_767 : BitVec 32 := 0#32
  ![v1146.toNat, 0, 0]

def k0_chk128 (v1146 : BitVec 32) : Prop :=
  (∀ a, (k0_off256 v1146) a + S1x1x128.size a ≤ S2097152x1x128.size a)
instance k0_chk128.dec : ∀ (v1146 : BitVec 32), Decidable (k0_chk128 v1146) := fun v1146 => decidable_of_iff' _ (Iff.of_eq (k0_chk128.eq_1 v1146))
theorem k0_off256_inb : ∀ (v1146 : BitVec 32) (k0_hw128 : k0_chk128 v1146), ∀ a, (k0_off256 v1146) a + S1x1x128.size a ≤ S2097152x1x128.size a := fun v1146 k0_hw128 => k0_hw128

def k0_off257 (v3 : BitVec 32) : Fin 3 → Nat :=
  let c0_i32_772 : BitVec 32 := 0#32
  let c0_i32_773 : BitVec 32 := 0#32
  ![v3.toNat, 0, 0]

def k0_chk1 (v3 : BitVec 32) : Prop :=
  (∀ a, (k0_off2 v3) a + S1x1x128.size a ≤ S2097152x1x128.size a) ∧
  (∀ a, (k0_off257 v3) a + S1x1x128.size a ≤ S2097152x1x128.size a)
instance k0_chk1.dec : ∀ (v3 : BitVec 32), Decidable (k0_chk1 v3) := fun v3 => decidable_of_iff' _ (Iff.of_eq (k0_chk1.eq_1 v3))
theorem k0_off2_inb : ∀ (v3 : BitVec 32) (k0_hw1 : k0_chk1 v3), ∀ a, (k0_off2 v3) a + S1x1x128.size a ≤ S2097152x1x128.size a := fun v3 k0_hw1 => k0_hw1.1
theorem k0_off257_inb : ∀ (v3 : BitVec 32) (k0_hw1 : k0_chk1 v3), ∀ a, (k0_off257 v3) a + S1x1x128.size a ≤ S2097152x1x128.size a := fun v3 k0_hw1 => k0_hw1.2

def k0_off258 (v12 : BitVec 32) : Fin 3 → Nat :=
  let c0_i32_778 : BitVec 32 := 0#32
  let c0_i32_779 : BitVec 32 := 0#32
  ![v12.toNat, 0, 0]

def k0_chk2 (v12 : BitVec 32) : Prop :=
  (∀ a, (k0_off4 v12) a + S1x1x128.size a ≤ S2097152x1x128.size a) ∧
  (∀ a, (k0_off258 v12) a + S1x1x128.size a ≤ S2097152x1x128.size a)
instance k0_chk2.dec : ∀ (v12 : BitVec 32), Decidable (k0_chk2 v12) := fun v12 => decidable_of_iff' _ (Iff.of_eq (k0_chk2.eq_1 v12))
theorem k0_off4_inb : ∀ (v12 : BitVec 32) (k0_hw2 : k0_chk2 v12), ∀ a, (k0_off4 v12) a + S1x1x128.size a ≤ S2097152x1x128.size a := fun v12 k0_hw2 => k0_hw2.1
theorem k0_off258_inb : ∀ (v12 : BitVec 32) (k0_hw2 : k0_chk2 v12), ∀ a, (k0_off258 v12) a + S1x1x128.size a ≤ S2097152x1x128.size a := fun v12 k0_hw2 => k0_hw2.2

def k0_off259 (v21 : BitVec 32) : Fin 3 → Nat :=
  let c0_i32_784 : BitVec 32 := 0#32
  let c0_i32_785 : BitVec 32 := 0#32
  ![v21.toNat, 0, 0]

def k0_chk3 (v21 : BitVec 32) : Prop :=
  (∀ a, (k0_off6 v21) a + S1x1x128.size a ≤ S2097152x1x128.size a) ∧
  (∀ a, (k0_off259 v21) a + S1x1x128.size a ≤ S2097152x1x128.size a)
instance k0_chk3.dec : ∀ (v21 : BitVec 32), Decidable (k0_chk3 v21) := fun v21 => decidable_of_iff' _ (Iff.of_eq (k0_chk3.eq_1 v21))
theorem k0_off6_inb : ∀ (v21 : BitVec 32) (k0_hw3 : k0_chk3 v21), ∀ a, (k0_off6 v21) a + S1x1x128.size a ≤ S2097152x1x128.size a := fun v21 k0_hw3 => k0_hw3.1
theorem k0_off259_inb : ∀ (v21 : BitVec 32) (k0_hw3 : k0_chk3 v21), ∀ a, (k0_off259 v21) a + S1x1x128.size a ≤ S2097152x1x128.size a := fun v21 k0_hw3 => k0_hw3.2

def k0_off260 (v30 : BitVec 32) : Fin 3 → Nat :=
  let c0_i32_790 : BitVec 32 := 0#32
  let c0_i32_791 : BitVec 32 := 0#32
  ![v30.toNat, 0, 0]

def k0_chk4 (v30 : BitVec 32) : Prop :=
  (∀ a, (k0_off8 v30) a + S1x1x128.size a ≤ S2097152x1x128.size a) ∧
  (∀ a, (k0_off260 v30) a + S1x1x128.size a ≤ S2097152x1x128.size a)
instance k0_chk4.dec : ∀ (v30 : BitVec 32), Decidable (k0_chk4 v30) := fun v30 => decidable_of_iff' _ (Iff.of_eq (k0_chk4.eq_1 v30))
theorem k0_off8_inb : ∀ (v30 : BitVec 32) (k0_hw4 : k0_chk4 v30), ∀ a, (k0_off8 v30) a + S1x1x128.size a ≤ S2097152x1x128.size a := fun v30 k0_hw4 => k0_hw4.1
theorem k0_off260_inb : ∀ (v30 : BitVec 32) (k0_hw4 : k0_chk4 v30), ∀ a, (k0_off260 v30) a + S1x1x128.size a ≤ S2097152x1x128.size a := fun v30 k0_hw4 => k0_hw4.2

def k0_off261 (v39 : BitVec 32) : Fin 3 → Nat :=
  let c0_i32_796 : BitVec 32 := 0#32
  let c0_i32_797 : BitVec 32 := 0#32
  ![v39.toNat, 0, 0]

def k0_chk5 (v39 : BitVec 32) : Prop :=
  (∀ a, (k0_off10 v39) a + S1x1x128.size a ≤ S2097152x1x128.size a) ∧
  (∀ a, (k0_off261 v39) a + S1x1x128.size a ≤ S2097152x1x128.size a)
instance k0_chk5.dec : ∀ (v39 : BitVec 32), Decidable (k0_chk5 v39) := fun v39 => decidable_of_iff' _ (Iff.of_eq (k0_chk5.eq_1 v39))
theorem k0_off10_inb : ∀ (v39 : BitVec 32) (k0_hw5 : k0_chk5 v39), ∀ a, (k0_off10 v39) a + S1x1x128.size a ≤ S2097152x1x128.size a := fun v39 k0_hw5 => k0_hw5.1
theorem k0_off261_inb : ∀ (v39 : BitVec 32) (k0_hw5 : k0_chk5 v39), ∀ a, (k0_off261 v39) a + S1x1x128.size a ≤ S2097152x1x128.size a := fun v39 k0_hw5 => k0_hw5.2

def k0_off262 (v48 : BitVec 32) : Fin 3 → Nat :=
  let c0_i32_802 : BitVec 32 := 0#32
  let c0_i32_803 : BitVec 32 := 0#32
  ![v48.toNat, 0, 0]

def k0_chk6 (v48 : BitVec 32) : Prop :=
  (∀ a, (k0_off12 v48) a + S1x1x128.size a ≤ S2097152x1x128.size a) ∧
  (∀ a, (k0_off262 v48) a + S1x1x128.size a ≤ S2097152x1x128.size a)
instance k0_chk6.dec : ∀ (v48 : BitVec 32), Decidable (k0_chk6 v48) := fun v48 => decidable_of_iff' _ (Iff.of_eq (k0_chk6.eq_1 v48))
theorem k0_off12_inb : ∀ (v48 : BitVec 32) (k0_hw6 : k0_chk6 v48), ∀ a, (k0_off12 v48) a + S1x1x128.size a ≤ S2097152x1x128.size a := fun v48 k0_hw6 => k0_hw6.1
theorem k0_off262_inb : ∀ (v48 : BitVec 32) (k0_hw6 : k0_chk6 v48), ∀ a, (k0_off262 v48) a + S1x1x128.size a ≤ S2097152x1x128.size a := fun v48 k0_hw6 => k0_hw6.2

def k0_off263 (v57 : BitVec 32) : Fin 3 → Nat :=
  let c0_i32_808 : BitVec 32 := 0#32
  let c0_i32_809 : BitVec 32 := 0#32
  ![v57.toNat, 0, 0]

def k0_chk7 (v57 : BitVec 32) : Prop :=
  (∀ a, (k0_off14 v57) a + S1x1x128.size a ≤ S2097152x1x128.size a) ∧
  (∀ a, (k0_off263 v57) a + S1x1x128.size a ≤ S2097152x1x128.size a)
instance k0_chk7.dec : ∀ (v57 : BitVec 32), Decidable (k0_chk7 v57) := fun v57 => decidable_of_iff' _ (Iff.of_eq (k0_chk7.eq_1 v57))
theorem k0_off14_inb : ∀ (v57 : BitVec 32) (k0_hw7 : k0_chk7 v57), ∀ a, (k0_off14 v57) a + S1x1x128.size a ≤ S2097152x1x128.size a := fun v57 k0_hw7 => k0_hw7.1
theorem k0_off263_inb : ∀ (v57 : BitVec 32) (k0_hw7 : k0_chk7 v57), ∀ a, (k0_off263 v57) a + S1x1x128.size a ≤ S2097152x1x128.size a := fun v57 k0_hw7 => k0_hw7.2

def k0_off264 (v66 : BitVec 32) : Fin 3 → Nat :=
  let c0_i32_814 : BitVec 32 := 0#32
  let c0_i32_815 : BitVec 32 := 0#32
  ![v66.toNat, 0, 0]

def k0_chk8 (v66 : BitVec 32) : Prop :=
  (∀ a, (k0_off16 v66) a + S1x1x128.size a ≤ S2097152x1x128.size a) ∧
  (∀ a, (k0_off264 v66) a + S1x1x128.size a ≤ S2097152x1x128.size a)
instance k0_chk8.dec : ∀ (v66 : BitVec 32), Decidable (k0_chk8 v66) := fun v66 => decidable_of_iff' _ (Iff.of_eq (k0_chk8.eq_1 v66))
theorem k0_off16_inb : ∀ (v66 : BitVec 32) (k0_hw8 : k0_chk8 v66), ∀ a, (k0_off16 v66) a + S1x1x128.size a ≤ S2097152x1x128.size a := fun v66 k0_hw8 => k0_hw8.1
theorem k0_off264_inb : ∀ (v66 : BitVec 32) (k0_hw8 : k0_chk8 v66), ∀ a, (k0_off264 v66) a + S1x1x128.size a ≤ S2097152x1x128.size a := fun v66 k0_hw8 => k0_hw8.2

def k0_off265 (v75 : BitVec 32) : Fin 3 → Nat :=
  let c0_i32_820 : BitVec 32 := 0#32
  let c0_i32_821 : BitVec 32 := 0#32
  ![v75.toNat, 0, 0]

def k0_chk9 (v75 : BitVec 32) : Prop :=
  (∀ a, (k0_off18 v75) a + S1x1x128.size a ≤ S2097152x1x128.size a) ∧
  (∀ a, (k0_off265 v75) a + S1x1x128.size a ≤ S2097152x1x128.size a)
instance k0_chk9.dec : ∀ (v75 : BitVec 32), Decidable (k0_chk9 v75) := fun v75 => decidable_of_iff' _ (Iff.of_eq (k0_chk9.eq_1 v75))
theorem k0_off18_inb : ∀ (v75 : BitVec 32) (k0_hw9 : k0_chk9 v75), ∀ a, (k0_off18 v75) a + S1x1x128.size a ≤ S2097152x1x128.size a := fun v75 k0_hw9 => k0_hw9.1
theorem k0_off265_inb : ∀ (v75 : BitVec 32) (k0_hw9 : k0_chk9 v75), ∀ a, (k0_off265 v75) a + S1x1x128.size a ≤ S2097152x1x128.size a := fun v75 k0_hw9 => k0_hw9.2

def k0_off266 (v84 : BitVec 32) : Fin 3 → Nat :=
  let c0_i32_826 : BitVec 32 := 0#32
  let c0_i32_827 : BitVec 32 := 0#32
  ![v84.toNat, 0, 0]

def k0_chk10 (v84 : BitVec 32) : Prop :=
  (∀ a, (k0_off20 v84) a + S1x1x128.size a ≤ S2097152x1x128.size a) ∧
  (∀ a, (k0_off266 v84) a + S1x1x128.size a ≤ S2097152x1x128.size a)
instance k0_chk10.dec : ∀ (v84 : BitVec 32), Decidable (k0_chk10 v84) := fun v84 => decidable_of_iff' _ (Iff.of_eq (k0_chk10.eq_1 v84))
theorem k0_off20_inb : ∀ (v84 : BitVec 32) (k0_hw10 : k0_chk10 v84), ∀ a, (k0_off20 v84) a + S1x1x128.size a ≤ S2097152x1x128.size a := fun v84 k0_hw10 => k0_hw10.1
theorem k0_off266_inb : ∀ (v84 : BitVec 32) (k0_hw10 : k0_chk10 v84), ∀ a, (k0_off266 v84) a + S1x1x128.size a ≤ S2097152x1x128.size a := fun v84 k0_hw10 => k0_hw10.2

def k0_off267 (v93 : BitVec 32) : Fin 3 → Nat :=
  let c0_i32_832 : BitVec 32 := 0#32
  let c0_i32_833 : BitVec 32 := 0#32
  ![v93.toNat, 0, 0]

def k0_chk11 (v93 : BitVec 32) : Prop :=
  (∀ a, (k0_off22 v93) a + S1x1x128.size a ≤ S2097152x1x128.size a) ∧
  (∀ a, (k0_off267 v93) a + S1x1x128.size a ≤ S2097152x1x128.size a)
instance k0_chk11.dec : ∀ (v93 : BitVec 32), Decidable (k0_chk11 v93) := fun v93 => decidable_of_iff' _ (Iff.of_eq (k0_chk11.eq_1 v93))
theorem k0_off22_inb : ∀ (v93 : BitVec 32) (k0_hw11 : k0_chk11 v93), ∀ a, (k0_off22 v93) a + S1x1x128.size a ≤ S2097152x1x128.size a := fun v93 k0_hw11 => k0_hw11.1
theorem k0_off267_inb : ∀ (v93 : BitVec 32) (k0_hw11 : k0_chk11 v93), ∀ a, (k0_off267 v93) a + S1x1x128.size a ≤ S2097152x1x128.size a := fun v93 k0_hw11 => k0_hw11.2

def k0_off268 (v102 : BitVec 32) : Fin 3 → Nat :=
  let c0_i32_838 : BitVec 32 := 0#32
  let c0_i32_839 : BitVec 32 := 0#32
  ![v102.toNat, 0, 0]

def k0_chk12 (v102 : BitVec 32) : Prop :=
  (∀ a, (k0_off24 v102) a + S1x1x128.size a ≤ S2097152x1x128.size a) ∧
  (∀ a, (k0_off268 v102) a + S1x1x128.size a ≤ S2097152x1x128.size a)
instance k0_chk12.dec : ∀ (v102 : BitVec 32), Decidable (k0_chk12 v102) := fun v102 => decidable_of_iff' _ (Iff.of_eq (k0_chk12.eq_1 v102))
theorem k0_off24_inb : ∀ (v102 : BitVec 32) (k0_hw12 : k0_chk12 v102), ∀ a, (k0_off24 v102) a + S1x1x128.size a ≤ S2097152x1x128.size a := fun v102 k0_hw12 => k0_hw12.1
theorem k0_off268_inb : ∀ (v102 : BitVec 32) (k0_hw12 : k0_chk12 v102), ∀ a, (k0_off268 v102) a + S1x1x128.size a ≤ S2097152x1x128.size a := fun v102 k0_hw12 => k0_hw12.2

def k0_off269 (v111 : BitVec 32) : Fin 3 → Nat :=
  let c0_i32_844 : BitVec 32 := 0#32
  let c0_i32_845 : BitVec 32 := 0#32
  ![v111.toNat, 0, 0]

def k0_chk13 (v111 : BitVec 32) : Prop :=
  (∀ a, (k0_off26 v111) a + S1x1x128.size a ≤ S2097152x1x128.size a) ∧
  (∀ a, (k0_off269 v111) a + S1x1x128.size a ≤ S2097152x1x128.size a)
instance k0_chk13.dec : ∀ (v111 : BitVec 32), Decidable (k0_chk13 v111) := fun v111 => decidable_of_iff' _ (Iff.of_eq (k0_chk13.eq_1 v111))
theorem k0_off26_inb : ∀ (v111 : BitVec 32) (k0_hw13 : k0_chk13 v111), ∀ a, (k0_off26 v111) a + S1x1x128.size a ≤ S2097152x1x128.size a := fun v111 k0_hw13 => k0_hw13.1
theorem k0_off269_inb : ∀ (v111 : BitVec 32) (k0_hw13 : k0_chk13 v111), ∀ a, (k0_off269 v111) a + S1x1x128.size a ≤ S2097152x1x128.size a := fun v111 k0_hw13 => k0_hw13.2

def k0_off270 (v120 : BitVec 32) : Fin 3 → Nat :=
  let c0_i32_850 : BitVec 32 := 0#32
  let c0_i32_851 : BitVec 32 := 0#32
  ![v120.toNat, 0, 0]

def k0_chk14 (v120 : BitVec 32) : Prop :=
  (∀ a, (k0_off28 v120) a + S1x1x128.size a ≤ S2097152x1x128.size a) ∧
  (∀ a, (k0_off270 v120) a + S1x1x128.size a ≤ S2097152x1x128.size a)
instance k0_chk14.dec : ∀ (v120 : BitVec 32), Decidable (k0_chk14 v120) := fun v120 => decidable_of_iff' _ (Iff.of_eq (k0_chk14.eq_1 v120))
theorem k0_off28_inb : ∀ (v120 : BitVec 32) (k0_hw14 : k0_chk14 v120), ∀ a, (k0_off28 v120) a + S1x1x128.size a ≤ S2097152x1x128.size a := fun v120 k0_hw14 => k0_hw14.1
theorem k0_off270_inb : ∀ (v120 : BitVec 32) (k0_hw14 : k0_chk14 v120), ∀ a, (k0_off270 v120) a + S1x1x128.size a ≤ S2097152x1x128.size a := fun v120 k0_hw14 => k0_hw14.2

def k0_off271 (v129 : BitVec 32) : Fin 3 → Nat :=
  let c0_i32_856 : BitVec 32 := 0#32
  let c0_i32_857 : BitVec 32 := 0#32
  ![v129.toNat, 0, 0]

def k0_chk15 (v129 : BitVec 32) : Prop :=
  (∀ a, (k0_off30 v129) a + S1x1x128.size a ≤ S2097152x1x128.size a) ∧
  (∀ a, (k0_off271 v129) a + S1x1x128.size a ≤ S2097152x1x128.size a)
instance k0_chk15.dec : ∀ (v129 : BitVec 32), Decidable (k0_chk15 v129) := fun v129 => decidable_of_iff' _ (Iff.of_eq (k0_chk15.eq_1 v129))
theorem k0_off30_inb : ∀ (v129 : BitVec 32) (k0_hw15 : k0_chk15 v129), ∀ a, (k0_off30 v129) a + S1x1x128.size a ≤ S2097152x1x128.size a := fun v129 k0_hw15 => k0_hw15.1
theorem k0_off271_inb : ∀ (v129 : BitVec 32) (k0_hw15 : k0_chk15 v129), ∀ a, (k0_off271 v129) a + S1x1x128.size a ≤ S2097152x1x128.size a := fun v129 k0_hw15 => k0_hw15.2

def k0_off272 (v138 : BitVec 32) : Fin 3 → Nat :=
  let c0_i32_862 : BitVec 32 := 0#32
  let c0_i32_863 : BitVec 32 := 0#32
  ![v138.toNat, 0, 0]

def k0_chk16 (v138 : BitVec 32) : Prop :=
  (∀ a, (k0_off32 v138) a + S1x1x128.size a ≤ S2097152x1x128.size a) ∧
  (∀ a, (k0_off272 v138) a + S1x1x128.size a ≤ S2097152x1x128.size a)
instance k0_chk16.dec : ∀ (v138 : BitVec 32), Decidable (k0_chk16 v138) := fun v138 => decidable_of_iff' _ (Iff.of_eq (k0_chk16.eq_1 v138))
theorem k0_off32_inb : ∀ (v138 : BitVec 32) (k0_hw16 : k0_chk16 v138), ∀ a, (k0_off32 v138) a + S1x1x128.size a ≤ S2097152x1x128.size a := fun v138 k0_hw16 => k0_hw16.1
theorem k0_off272_inb : ∀ (v138 : BitVec 32) (k0_hw16 : k0_chk16 v138), ∀ a, (k0_off272 v138) a + S1x1x128.size a ≤ S2097152x1x128.size a := fun v138 k0_hw16 => k0_hw16.2

def k0_off273 (v147 : BitVec 32) : Fin 3 → Nat :=
  let c0_i32_868 : BitVec 32 := 0#32
  let c0_i32_869 : BitVec 32 := 0#32
  ![v147.toNat, 0, 0]

def k0_chk17 (v147 : BitVec 32) : Prop :=
  (∀ a, (k0_off34 v147) a + S1x1x128.size a ≤ S2097152x1x128.size a) ∧
  (∀ a, (k0_off273 v147) a + S1x1x128.size a ≤ S2097152x1x128.size a)
instance k0_chk17.dec : ∀ (v147 : BitVec 32), Decidable (k0_chk17 v147) := fun v147 => decidable_of_iff' _ (Iff.of_eq (k0_chk17.eq_1 v147))
theorem k0_off34_inb : ∀ (v147 : BitVec 32) (k0_hw17 : k0_chk17 v147), ∀ a, (k0_off34 v147) a + S1x1x128.size a ≤ S2097152x1x128.size a := fun v147 k0_hw17 => k0_hw17.1
theorem k0_off273_inb : ∀ (v147 : BitVec 32) (k0_hw17 : k0_chk17 v147), ∀ a, (k0_off273 v147) a + S1x1x128.size a ≤ S2097152x1x128.size a := fun v147 k0_hw17 => k0_hw17.2

def k0_off274 (v156 : BitVec 32) : Fin 3 → Nat :=
  let c0_i32_874 : BitVec 32 := 0#32
  let c0_i32_875 : BitVec 32 := 0#32
  ![v156.toNat, 0, 0]

def k0_chk18 (v156 : BitVec 32) : Prop :=
  (∀ a, (k0_off36 v156) a + S1x1x128.size a ≤ S2097152x1x128.size a) ∧
  (∀ a, (k0_off274 v156) a + S1x1x128.size a ≤ S2097152x1x128.size a)
instance k0_chk18.dec : ∀ (v156 : BitVec 32), Decidable (k0_chk18 v156) := fun v156 => decidable_of_iff' _ (Iff.of_eq (k0_chk18.eq_1 v156))
theorem k0_off36_inb : ∀ (v156 : BitVec 32) (k0_hw18 : k0_chk18 v156), ∀ a, (k0_off36 v156) a + S1x1x128.size a ≤ S2097152x1x128.size a := fun v156 k0_hw18 => k0_hw18.1
theorem k0_off274_inb : ∀ (v156 : BitVec 32) (k0_hw18 : k0_chk18 v156), ∀ a, (k0_off274 v156) a + S1x1x128.size a ≤ S2097152x1x128.size a := fun v156 k0_hw18 => k0_hw18.2

def k0_off275 (v165 : BitVec 32) : Fin 3 → Nat :=
  let c0_i32_880 : BitVec 32 := 0#32
  let c0_i32_881 : BitVec 32 := 0#32
  ![v165.toNat, 0, 0]

def k0_chk19 (v165 : BitVec 32) : Prop :=
  (∀ a, (k0_off38 v165) a + S1x1x128.size a ≤ S2097152x1x128.size a) ∧
  (∀ a, (k0_off275 v165) a + S1x1x128.size a ≤ S2097152x1x128.size a)
instance k0_chk19.dec : ∀ (v165 : BitVec 32), Decidable (k0_chk19 v165) := fun v165 => decidable_of_iff' _ (Iff.of_eq (k0_chk19.eq_1 v165))
theorem k0_off38_inb : ∀ (v165 : BitVec 32) (k0_hw19 : k0_chk19 v165), ∀ a, (k0_off38 v165) a + S1x1x128.size a ≤ S2097152x1x128.size a := fun v165 k0_hw19 => k0_hw19.1
theorem k0_off275_inb : ∀ (v165 : BitVec 32) (k0_hw19 : k0_chk19 v165), ∀ a, (k0_off275 v165) a + S1x1x128.size a ≤ S2097152x1x128.size a := fun v165 k0_hw19 => k0_hw19.2

def k0_off276 (v174 : BitVec 32) : Fin 3 → Nat :=
  let c0_i32_886 : BitVec 32 := 0#32
  let c0_i32_887 : BitVec 32 := 0#32
  ![v174.toNat, 0, 0]

def k0_chk20 (v174 : BitVec 32) : Prop :=
  (∀ a, (k0_off40 v174) a + S1x1x128.size a ≤ S2097152x1x128.size a) ∧
  (∀ a, (k0_off276 v174) a + S1x1x128.size a ≤ S2097152x1x128.size a)
instance k0_chk20.dec : ∀ (v174 : BitVec 32), Decidable (k0_chk20 v174) := fun v174 => decidable_of_iff' _ (Iff.of_eq (k0_chk20.eq_1 v174))
theorem k0_off40_inb : ∀ (v174 : BitVec 32) (k0_hw20 : k0_chk20 v174), ∀ a, (k0_off40 v174) a + S1x1x128.size a ≤ S2097152x1x128.size a := fun v174 k0_hw20 => k0_hw20.1
theorem k0_off276_inb : ∀ (v174 : BitVec 32) (k0_hw20 : k0_chk20 v174), ∀ a, (k0_off276 v174) a + S1x1x128.size a ≤ S2097152x1x128.size a := fun v174 k0_hw20 => k0_hw20.2

def k0_off277 (v183 : BitVec 32) : Fin 3 → Nat :=
  let c0_i32_892 : BitVec 32 := 0#32
  let c0_i32_893 : BitVec 32 := 0#32
  ![v183.toNat, 0, 0]

def k0_chk21 (v183 : BitVec 32) : Prop :=
  (∀ a, (k0_off42 v183) a + S1x1x128.size a ≤ S2097152x1x128.size a) ∧
  (∀ a, (k0_off277 v183) a + S1x1x128.size a ≤ S2097152x1x128.size a)
instance k0_chk21.dec : ∀ (v183 : BitVec 32), Decidable (k0_chk21 v183) := fun v183 => decidable_of_iff' _ (Iff.of_eq (k0_chk21.eq_1 v183))
theorem k0_off42_inb : ∀ (v183 : BitVec 32) (k0_hw21 : k0_chk21 v183), ∀ a, (k0_off42 v183) a + S1x1x128.size a ≤ S2097152x1x128.size a := fun v183 k0_hw21 => k0_hw21.1
theorem k0_off277_inb : ∀ (v183 : BitVec 32) (k0_hw21 : k0_chk21 v183), ∀ a, (k0_off277 v183) a + S1x1x128.size a ≤ S2097152x1x128.size a := fun v183 k0_hw21 => k0_hw21.2

def k0_off278 (v192 : BitVec 32) : Fin 3 → Nat :=
  let c0_i32_898 : BitVec 32 := 0#32
  let c0_i32_899 : BitVec 32 := 0#32
  ![v192.toNat, 0, 0]

def k0_chk22 (v192 : BitVec 32) : Prop :=
  (∀ a, (k0_off44 v192) a + S1x1x128.size a ≤ S2097152x1x128.size a) ∧
  (∀ a, (k0_off278 v192) a + S1x1x128.size a ≤ S2097152x1x128.size a)
instance k0_chk22.dec : ∀ (v192 : BitVec 32), Decidable (k0_chk22 v192) := fun v192 => decidable_of_iff' _ (Iff.of_eq (k0_chk22.eq_1 v192))
theorem k0_off44_inb : ∀ (v192 : BitVec 32) (k0_hw22 : k0_chk22 v192), ∀ a, (k0_off44 v192) a + S1x1x128.size a ≤ S2097152x1x128.size a := fun v192 k0_hw22 => k0_hw22.1
theorem k0_off278_inb : ∀ (v192 : BitVec 32) (k0_hw22 : k0_chk22 v192), ∀ a, (k0_off278 v192) a + S1x1x128.size a ≤ S2097152x1x128.size a := fun v192 k0_hw22 => k0_hw22.2

def k0_off279 (v201 : BitVec 32) : Fin 3 → Nat :=
  let c0_i32_904 : BitVec 32 := 0#32
  let c0_i32_905 : BitVec 32 := 0#32
  ![v201.toNat, 0, 0]

def k0_chk23 (v201 : BitVec 32) : Prop :=
  (∀ a, (k0_off46 v201) a + S1x1x128.size a ≤ S2097152x1x128.size a) ∧
  (∀ a, (k0_off279 v201) a + S1x1x128.size a ≤ S2097152x1x128.size a)
instance k0_chk23.dec : ∀ (v201 : BitVec 32), Decidable (k0_chk23 v201) := fun v201 => decidable_of_iff' _ (Iff.of_eq (k0_chk23.eq_1 v201))
theorem k0_off46_inb : ∀ (v201 : BitVec 32) (k0_hw23 : k0_chk23 v201), ∀ a, (k0_off46 v201) a + S1x1x128.size a ≤ S2097152x1x128.size a := fun v201 k0_hw23 => k0_hw23.1
theorem k0_off279_inb : ∀ (v201 : BitVec 32) (k0_hw23 : k0_chk23 v201), ∀ a, (k0_off279 v201) a + S1x1x128.size a ≤ S2097152x1x128.size a := fun v201 k0_hw23 => k0_hw23.2

def k0_off280 (v210 : BitVec 32) : Fin 3 → Nat :=
  let c0_i32_910 : BitVec 32 := 0#32
  let c0_i32_911 : BitVec 32 := 0#32
  ![v210.toNat, 0, 0]

def k0_chk24 (v210 : BitVec 32) : Prop :=
  (∀ a, (k0_off48 v210) a + S1x1x128.size a ≤ S2097152x1x128.size a) ∧
  (∀ a, (k0_off280 v210) a + S1x1x128.size a ≤ S2097152x1x128.size a)
instance k0_chk24.dec : ∀ (v210 : BitVec 32), Decidable (k0_chk24 v210) := fun v210 => decidable_of_iff' _ (Iff.of_eq (k0_chk24.eq_1 v210))
theorem k0_off48_inb : ∀ (v210 : BitVec 32) (k0_hw24 : k0_chk24 v210), ∀ a, (k0_off48 v210) a + S1x1x128.size a ≤ S2097152x1x128.size a := fun v210 k0_hw24 => k0_hw24.1
theorem k0_off280_inb : ∀ (v210 : BitVec 32) (k0_hw24 : k0_chk24 v210), ∀ a, (k0_off280 v210) a + S1x1x128.size a ≤ S2097152x1x128.size a := fun v210 k0_hw24 => k0_hw24.2

def k0_off281 (v219 : BitVec 32) : Fin 3 → Nat :=
  let c0_i32_916 : BitVec 32 := 0#32
  let c0_i32_917 : BitVec 32 := 0#32
  ![v219.toNat, 0, 0]

def k0_chk25 (v219 : BitVec 32) : Prop :=
  (∀ a, (k0_off50 v219) a + S1x1x128.size a ≤ S2097152x1x128.size a) ∧
  (∀ a, (k0_off281 v219) a + S1x1x128.size a ≤ S2097152x1x128.size a)
instance k0_chk25.dec : ∀ (v219 : BitVec 32), Decidable (k0_chk25 v219) := fun v219 => decidable_of_iff' _ (Iff.of_eq (k0_chk25.eq_1 v219))
theorem k0_off50_inb : ∀ (v219 : BitVec 32) (k0_hw25 : k0_chk25 v219), ∀ a, (k0_off50 v219) a + S1x1x128.size a ≤ S2097152x1x128.size a := fun v219 k0_hw25 => k0_hw25.1
theorem k0_off281_inb : ∀ (v219 : BitVec 32) (k0_hw25 : k0_chk25 v219), ∀ a, (k0_off281 v219) a + S1x1x128.size a ≤ S2097152x1x128.size a := fun v219 k0_hw25 => k0_hw25.2

def k0_off282 (v228 : BitVec 32) : Fin 3 → Nat :=
  let c0_i32_922 : BitVec 32 := 0#32
  let c0_i32_923 : BitVec 32 := 0#32
  ![v228.toNat, 0, 0]

def k0_chk26 (v228 : BitVec 32) : Prop :=
  (∀ a, (k0_off52 v228) a + S1x1x128.size a ≤ S2097152x1x128.size a) ∧
  (∀ a, (k0_off282 v228) a + S1x1x128.size a ≤ S2097152x1x128.size a)
instance k0_chk26.dec : ∀ (v228 : BitVec 32), Decidable (k0_chk26 v228) := fun v228 => decidable_of_iff' _ (Iff.of_eq (k0_chk26.eq_1 v228))
theorem k0_off52_inb : ∀ (v228 : BitVec 32) (k0_hw26 : k0_chk26 v228), ∀ a, (k0_off52 v228) a + S1x1x128.size a ≤ S2097152x1x128.size a := fun v228 k0_hw26 => k0_hw26.1
theorem k0_off282_inb : ∀ (v228 : BitVec 32) (k0_hw26 : k0_chk26 v228), ∀ a, (k0_off282 v228) a + S1x1x128.size a ≤ S2097152x1x128.size a := fun v228 k0_hw26 => k0_hw26.2

def k0_off283 (v237 : BitVec 32) : Fin 3 → Nat :=
  let c0_i32_928 : BitVec 32 := 0#32
  let c0_i32_929 : BitVec 32 := 0#32
  ![v237.toNat, 0, 0]

def k0_chk27 (v237 : BitVec 32) : Prop :=
  (∀ a, (k0_off54 v237) a + S1x1x128.size a ≤ S2097152x1x128.size a) ∧
  (∀ a, (k0_off283 v237) a + S1x1x128.size a ≤ S2097152x1x128.size a)
instance k0_chk27.dec : ∀ (v237 : BitVec 32), Decidable (k0_chk27 v237) := fun v237 => decidable_of_iff' _ (Iff.of_eq (k0_chk27.eq_1 v237))
theorem k0_off54_inb : ∀ (v237 : BitVec 32) (k0_hw27 : k0_chk27 v237), ∀ a, (k0_off54 v237) a + S1x1x128.size a ≤ S2097152x1x128.size a := fun v237 k0_hw27 => k0_hw27.1
theorem k0_off283_inb : ∀ (v237 : BitVec 32) (k0_hw27 : k0_chk27 v237), ∀ a, (k0_off283 v237) a + S1x1x128.size a ≤ S2097152x1x128.size a := fun v237 k0_hw27 => k0_hw27.2

def k0_off284 (v246 : BitVec 32) : Fin 3 → Nat :=
  let c0_i32_934 : BitVec 32 := 0#32
  let c0_i32_935 : BitVec 32 := 0#32
  ![v246.toNat, 0, 0]

def k0_chk28 (v246 : BitVec 32) : Prop :=
  (∀ a, (k0_off56 v246) a + S1x1x128.size a ≤ S2097152x1x128.size a) ∧
  (∀ a, (k0_off284 v246) a + S1x1x128.size a ≤ S2097152x1x128.size a)
instance k0_chk28.dec : ∀ (v246 : BitVec 32), Decidable (k0_chk28 v246) := fun v246 => decidable_of_iff' _ (Iff.of_eq (k0_chk28.eq_1 v246))
theorem k0_off56_inb : ∀ (v246 : BitVec 32) (k0_hw28 : k0_chk28 v246), ∀ a, (k0_off56 v246) a + S1x1x128.size a ≤ S2097152x1x128.size a := fun v246 k0_hw28 => k0_hw28.1
theorem k0_off284_inb : ∀ (v246 : BitVec 32) (k0_hw28 : k0_chk28 v246), ∀ a, (k0_off284 v246) a + S1x1x128.size a ≤ S2097152x1x128.size a := fun v246 k0_hw28 => k0_hw28.2

def k0_off285 (v255 : BitVec 32) : Fin 3 → Nat :=
  let c0_i32_940 : BitVec 32 := 0#32
  let c0_i32_941 : BitVec 32 := 0#32
  ![v255.toNat, 0, 0]

def k0_chk29 (v255 : BitVec 32) : Prop :=
  (∀ a, (k0_off58 v255) a + S1x1x128.size a ≤ S2097152x1x128.size a) ∧
  (∀ a, (k0_off285 v255) a + S1x1x128.size a ≤ S2097152x1x128.size a)
instance k0_chk29.dec : ∀ (v255 : BitVec 32), Decidable (k0_chk29 v255) := fun v255 => decidable_of_iff' _ (Iff.of_eq (k0_chk29.eq_1 v255))
theorem k0_off58_inb : ∀ (v255 : BitVec 32) (k0_hw29 : k0_chk29 v255), ∀ a, (k0_off58 v255) a + S1x1x128.size a ≤ S2097152x1x128.size a := fun v255 k0_hw29 => k0_hw29.1
theorem k0_off285_inb : ∀ (v255 : BitVec 32) (k0_hw29 : k0_chk29 v255), ∀ a, (k0_off285 v255) a + S1x1x128.size a ≤ S2097152x1x128.size a := fun v255 k0_hw29 => k0_hw29.2

def k0_off286 (v264 : BitVec 32) : Fin 3 → Nat :=
  let c0_i32_946 : BitVec 32 := 0#32
  let c0_i32_947 : BitVec 32 := 0#32
  ![v264.toNat, 0, 0]

def k0_chk30 (v264 : BitVec 32) : Prop :=
  (∀ a, (k0_off60 v264) a + S1x1x128.size a ≤ S2097152x1x128.size a) ∧
  (∀ a, (k0_off286 v264) a + S1x1x128.size a ≤ S2097152x1x128.size a)
instance k0_chk30.dec : ∀ (v264 : BitVec 32), Decidable (k0_chk30 v264) := fun v264 => decidable_of_iff' _ (Iff.of_eq (k0_chk30.eq_1 v264))
theorem k0_off60_inb : ∀ (v264 : BitVec 32) (k0_hw30 : k0_chk30 v264), ∀ a, (k0_off60 v264) a + S1x1x128.size a ≤ S2097152x1x128.size a := fun v264 k0_hw30 => k0_hw30.1
theorem k0_off286_inb : ∀ (v264 : BitVec 32) (k0_hw30 : k0_chk30 v264), ∀ a, (k0_off286 v264) a + S1x1x128.size a ≤ S2097152x1x128.size a := fun v264 k0_hw30 => k0_hw30.2

def k0_off287 (v273 : BitVec 32) : Fin 3 → Nat :=
  let c0_i32_952 : BitVec 32 := 0#32
  let c0_i32_953 : BitVec 32 := 0#32
  ![v273.toNat, 0, 0]

def k0_chk31 (v273 : BitVec 32) : Prop :=
  (∀ a, (k0_off62 v273) a + S1x1x128.size a ≤ S2097152x1x128.size a) ∧
  (∀ a, (k0_off287 v273) a + S1x1x128.size a ≤ S2097152x1x128.size a)
instance k0_chk31.dec : ∀ (v273 : BitVec 32), Decidable (k0_chk31 v273) := fun v273 => decidable_of_iff' _ (Iff.of_eq (k0_chk31.eq_1 v273))
theorem k0_off62_inb : ∀ (v273 : BitVec 32) (k0_hw31 : k0_chk31 v273), ∀ a, (k0_off62 v273) a + S1x1x128.size a ≤ S2097152x1x128.size a := fun v273 k0_hw31 => k0_hw31.1
theorem k0_off287_inb : ∀ (v273 : BitVec 32) (k0_hw31 : k0_chk31 v273), ∀ a, (k0_off287 v273) a + S1x1x128.size a ≤ S2097152x1x128.size a := fun v273 k0_hw31 => k0_hw31.2

def k0_off288 (v282 : BitVec 32) : Fin 3 → Nat :=
  let c0_i32_958 : BitVec 32 := 0#32
  let c0_i32_959 : BitVec 32 := 0#32
  ![v282.toNat, 0, 0]

def k0_chk32 (v282 : BitVec 32) : Prop :=
  (∀ a, (k0_off64 v282) a + S1x1x128.size a ≤ S2097152x1x128.size a) ∧
  (∀ a, (k0_off288 v282) a + S1x1x128.size a ≤ S2097152x1x128.size a)
instance k0_chk32.dec : ∀ (v282 : BitVec 32), Decidable (k0_chk32 v282) := fun v282 => decidable_of_iff' _ (Iff.of_eq (k0_chk32.eq_1 v282))
theorem k0_off64_inb : ∀ (v282 : BitVec 32) (k0_hw32 : k0_chk32 v282), ∀ a, (k0_off64 v282) a + S1x1x128.size a ≤ S2097152x1x128.size a := fun v282 k0_hw32 => k0_hw32.1
theorem k0_off288_inb : ∀ (v282 : BitVec 32) (k0_hw32 : k0_chk32 v282), ∀ a, (k0_off288 v282) a + S1x1x128.size a ≤ S2097152x1x128.size a := fun v282 k0_hw32 => k0_hw32.2

def k0_off289 (v291 : BitVec 32) : Fin 3 → Nat :=
  let c0_i32_964 : BitVec 32 := 0#32
  let c0_i32_965 : BitVec 32 := 0#32
  ![v291.toNat, 0, 0]

def k0_chk33 (v291 : BitVec 32) : Prop :=
  (∀ a, (k0_off66 v291) a + S1x1x128.size a ≤ S2097152x1x128.size a) ∧
  (∀ a, (k0_off289 v291) a + S1x1x128.size a ≤ S2097152x1x128.size a)
instance k0_chk33.dec : ∀ (v291 : BitVec 32), Decidable (k0_chk33 v291) := fun v291 => decidable_of_iff' _ (Iff.of_eq (k0_chk33.eq_1 v291))
theorem k0_off66_inb : ∀ (v291 : BitVec 32) (k0_hw33 : k0_chk33 v291), ∀ a, (k0_off66 v291) a + S1x1x128.size a ≤ S2097152x1x128.size a := fun v291 k0_hw33 => k0_hw33.1
theorem k0_off289_inb : ∀ (v291 : BitVec 32) (k0_hw33 : k0_chk33 v291), ∀ a, (k0_off289 v291) a + S1x1x128.size a ≤ S2097152x1x128.size a := fun v291 k0_hw33 => k0_hw33.2

def k0_off290 (v300 : BitVec 32) : Fin 3 → Nat :=
  let c0_i32_970 : BitVec 32 := 0#32
  let c0_i32_971 : BitVec 32 := 0#32
  ![v300.toNat, 0, 0]

def k0_chk34 (v300 : BitVec 32) : Prop :=
  (∀ a, (k0_off68 v300) a + S1x1x128.size a ≤ S2097152x1x128.size a) ∧
  (∀ a, (k0_off290 v300) a + S1x1x128.size a ≤ S2097152x1x128.size a)
instance k0_chk34.dec : ∀ (v300 : BitVec 32), Decidable (k0_chk34 v300) := fun v300 => decidable_of_iff' _ (Iff.of_eq (k0_chk34.eq_1 v300))
theorem k0_off68_inb : ∀ (v300 : BitVec 32) (k0_hw34 : k0_chk34 v300), ∀ a, (k0_off68 v300) a + S1x1x128.size a ≤ S2097152x1x128.size a := fun v300 k0_hw34 => k0_hw34.1
theorem k0_off290_inb : ∀ (v300 : BitVec 32) (k0_hw34 : k0_chk34 v300), ∀ a, (k0_off290 v300) a + S1x1x128.size a ≤ S2097152x1x128.size a := fun v300 k0_hw34 => k0_hw34.2

def k0_off291 (v309 : BitVec 32) : Fin 3 → Nat :=
  let c0_i32_976 : BitVec 32 := 0#32
  let c0_i32_977 : BitVec 32 := 0#32
  ![v309.toNat, 0, 0]

def k0_chk35 (v309 : BitVec 32) : Prop :=
  (∀ a, (k0_off70 v309) a + S1x1x128.size a ≤ S2097152x1x128.size a) ∧
  (∀ a, (k0_off291 v309) a + S1x1x128.size a ≤ S2097152x1x128.size a)
instance k0_chk35.dec : ∀ (v309 : BitVec 32), Decidable (k0_chk35 v309) := fun v309 => decidable_of_iff' _ (Iff.of_eq (k0_chk35.eq_1 v309))
theorem k0_off70_inb : ∀ (v309 : BitVec 32) (k0_hw35 : k0_chk35 v309), ∀ a, (k0_off70 v309) a + S1x1x128.size a ≤ S2097152x1x128.size a := fun v309 k0_hw35 => k0_hw35.1
theorem k0_off291_inb : ∀ (v309 : BitVec 32) (k0_hw35 : k0_chk35 v309), ∀ a, (k0_off291 v309) a + S1x1x128.size a ≤ S2097152x1x128.size a := fun v309 k0_hw35 => k0_hw35.2

def k0_off292 (v318 : BitVec 32) : Fin 3 → Nat :=
  let c0_i32_982 : BitVec 32 := 0#32
  let c0_i32_983 : BitVec 32 := 0#32
  ![v318.toNat, 0, 0]

def k0_chk36 (v318 : BitVec 32) : Prop :=
  (∀ a, (k0_off72 v318) a + S1x1x128.size a ≤ S2097152x1x128.size a) ∧
  (∀ a, (k0_off292 v318) a + S1x1x128.size a ≤ S2097152x1x128.size a)
instance k0_chk36.dec : ∀ (v318 : BitVec 32), Decidable (k0_chk36 v318) := fun v318 => decidable_of_iff' _ (Iff.of_eq (k0_chk36.eq_1 v318))
theorem k0_off72_inb : ∀ (v318 : BitVec 32) (k0_hw36 : k0_chk36 v318), ∀ a, (k0_off72 v318) a + S1x1x128.size a ≤ S2097152x1x128.size a := fun v318 k0_hw36 => k0_hw36.1
theorem k0_off292_inb : ∀ (v318 : BitVec 32) (k0_hw36 : k0_chk36 v318), ∀ a, (k0_off292 v318) a + S1x1x128.size a ≤ S2097152x1x128.size a := fun v318 k0_hw36 => k0_hw36.2

def k0_off293 (v327 : BitVec 32) : Fin 3 → Nat :=
  let c0_i32_988 : BitVec 32 := 0#32
  let c0_i32_989 : BitVec 32 := 0#32
  ![v327.toNat, 0, 0]

def k0_chk37 (v327 : BitVec 32) : Prop :=
  (∀ a, (k0_off74 v327) a + S1x1x128.size a ≤ S2097152x1x128.size a) ∧
  (∀ a, (k0_off293 v327) a + S1x1x128.size a ≤ S2097152x1x128.size a)
instance k0_chk37.dec : ∀ (v327 : BitVec 32), Decidable (k0_chk37 v327) := fun v327 => decidable_of_iff' _ (Iff.of_eq (k0_chk37.eq_1 v327))
theorem k0_off74_inb : ∀ (v327 : BitVec 32) (k0_hw37 : k0_chk37 v327), ∀ a, (k0_off74 v327) a + S1x1x128.size a ≤ S2097152x1x128.size a := fun v327 k0_hw37 => k0_hw37.1
theorem k0_off293_inb : ∀ (v327 : BitVec 32) (k0_hw37 : k0_chk37 v327), ∀ a, (k0_off293 v327) a + S1x1x128.size a ≤ S2097152x1x128.size a := fun v327 k0_hw37 => k0_hw37.2

def k0_off294 (v336 : BitVec 32) : Fin 3 → Nat :=
  let c0_i32_994 : BitVec 32 := 0#32
  let c0_i32_995 : BitVec 32 := 0#32
  ![v336.toNat, 0, 0]

def k0_chk38 (v336 : BitVec 32) : Prop :=
  (∀ a, (k0_off76 v336) a + S1x1x128.size a ≤ S2097152x1x128.size a) ∧
  (∀ a, (k0_off294 v336) a + S1x1x128.size a ≤ S2097152x1x128.size a)
instance k0_chk38.dec : ∀ (v336 : BitVec 32), Decidable (k0_chk38 v336) := fun v336 => decidable_of_iff' _ (Iff.of_eq (k0_chk38.eq_1 v336))
theorem k0_off76_inb : ∀ (v336 : BitVec 32) (k0_hw38 : k0_chk38 v336), ∀ a, (k0_off76 v336) a + S1x1x128.size a ≤ S2097152x1x128.size a := fun v336 k0_hw38 => k0_hw38.1
theorem k0_off294_inb : ∀ (v336 : BitVec 32) (k0_hw38 : k0_chk38 v336), ∀ a, (k0_off294 v336) a + S1x1x128.size a ≤ S2097152x1x128.size a := fun v336 k0_hw38 => k0_hw38.2

def k0_off295 (v345 : BitVec 32) : Fin 3 → Nat :=
  let c0_i32_1000 : BitVec 32 := 0#32
  let c0_i32_1001 : BitVec 32 := 0#32
  ![v345.toNat, 0, 0]

def k0_chk39 (v345 : BitVec 32) : Prop :=
  (∀ a, (k0_off78 v345) a + S1x1x128.size a ≤ S2097152x1x128.size a) ∧
  (∀ a, (k0_off295 v345) a + S1x1x128.size a ≤ S2097152x1x128.size a)
instance k0_chk39.dec : ∀ (v345 : BitVec 32), Decidable (k0_chk39 v345) := fun v345 => decidable_of_iff' _ (Iff.of_eq (k0_chk39.eq_1 v345))
theorem k0_off78_inb : ∀ (v345 : BitVec 32) (k0_hw39 : k0_chk39 v345), ∀ a, (k0_off78 v345) a + S1x1x128.size a ≤ S2097152x1x128.size a := fun v345 k0_hw39 => k0_hw39.1
theorem k0_off295_inb : ∀ (v345 : BitVec 32) (k0_hw39 : k0_chk39 v345), ∀ a, (k0_off295 v345) a + S1x1x128.size a ≤ S2097152x1x128.size a := fun v345 k0_hw39 => k0_hw39.2

def k0_off296 (v354 : BitVec 32) : Fin 3 → Nat :=
  let c0_i32_1006 : BitVec 32 := 0#32
  let c0_i32_1007 : BitVec 32 := 0#32
  ![v354.toNat, 0, 0]

def k0_chk40 (v354 : BitVec 32) : Prop :=
  (∀ a, (k0_off80 v354) a + S1x1x128.size a ≤ S2097152x1x128.size a) ∧
  (∀ a, (k0_off296 v354) a + S1x1x128.size a ≤ S2097152x1x128.size a)
instance k0_chk40.dec : ∀ (v354 : BitVec 32), Decidable (k0_chk40 v354) := fun v354 => decidable_of_iff' _ (Iff.of_eq (k0_chk40.eq_1 v354))
theorem k0_off80_inb : ∀ (v354 : BitVec 32) (k0_hw40 : k0_chk40 v354), ∀ a, (k0_off80 v354) a + S1x1x128.size a ≤ S2097152x1x128.size a := fun v354 k0_hw40 => k0_hw40.1
theorem k0_off296_inb : ∀ (v354 : BitVec 32) (k0_hw40 : k0_chk40 v354), ∀ a, (k0_off296 v354) a + S1x1x128.size a ≤ S2097152x1x128.size a := fun v354 k0_hw40 => k0_hw40.2

def k0_off297 (v363 : BitVec 32) : Fin 3 → Nat :=
  let c0_i32_1012 : BitVec 32 := 0#32
  let c0_i32_1013 : BitVec 32 := 0#32
  ![v363.toNat, 0, 0]

def k0_chk41 (v363 : BitVec 32) : Prop :=
  (∀ a, (k0_off82 v363) a + S1x1x128.size a ≤ S2097152x1x128.size a) ∧
  (∀ a, (k0_off297 v363) a + S1x1x128.size a ≤ S2097152x1x128.size a)
instance k0_chk41.dec : ∀ (v363 : BitVec 32), Decidable (k0_chk41 v363) := fun v363 => decidable_of_iff' _ (Iff.of_eq (k0_chk41.eq_1 v363))
theorem k0_off82_inb : ∀ (v363 : BitVec 32) (k0_hw41 : k0_chk41 v363), ∀ a, (k0_off82 v363) a + S1x1x128.size a ≤ S2097152x1x128.size a := fun v363 k0_hw41 => k0_hw41.1
theorem k0_off297_inb : ∀ (v363 : BitVec 32) (k0_hw41 : k0_chk41 v363), ∀ a, (k0_off297 v363) a + S1x1x128.size a ≤ S2097152x1x128.size a := fun v363 k0_hw41 => k0_hw41.2

def k0_off298 (v372 : BitVec 32) : Fin 3 → Nat :=
  let c0_i32_1018 : BitVec 32 := 0#32
  let c0_i32_1019 : BitVec 32 := 0#32
  ![v372.toNat, 0, 0]

def k0_chk42 (v372 : BitVec 32) : Prop :=
  (∀ a, (k0_off84 v372) a + S1x1x128.size a ≤ S2097152x1x128.size a) ∧
  (∀ a, (k0_off298 v372) a + S1x1x128.size a ≤ S2097152x1x128.size a)
instance k0_chk42.dec : ∀ (v372 : BitVec 32), Decidable (k0_chk42 v372) := fun v372 => decidable_of_iff' _ (Iff.of_eq (k0_chk42.eq_1 v372))
theorem k0_off84_inb : ∀ (v372 : BitVec 32) (k0_hw42 : k0_chk42 v372), ∀ a, (k0_off84 v372) a + S1x1x128.size a ≤ S2097152x1x128.size a := fun v372 k0_hw42 => k0_hw42.1
theorem k0_off298_inb : ∀ (v372 : BitVec 32) (k0_hw42 : k0_chk42 v372), ∀ a, (k0_off298 v372) a + S1x1x128.size a ≤ S2097152x1x128.size a := fun v372 k0_hw42 => k0_hw42.2

def k0_off299 (v381 : BitVec 32) : Fin 3 → Nat :=
  let c0_i32_1024 : BitVec 32 := 0#32
  let c0_i32_1025 : BitVec 32 := 0#32
  ![v381.toNat, 0, 0]

def k0_chk43 (v381 : BitVec 32) : Prop :=
  (∀ a, (k0_off86 v381) a + S1x1x128.size a ≤ S2097152x1x128.size a) ∧
  (∀ a, (k0_off299 v381) a + S1x1x128.size a ≤ S2097152x1x128.size a)
instance k0_chk43.dec : ∀ (v381 : BitVec 32), Decidable (k0_chk43 v381) := fun v381 => decidable_of_iff' _ (Iff.of_eq (k0_chk43.eq_1 v381))
theorem k0_off86_inb : ∀ (v381 : BitVec 32) (k0_hw43 : k0_chk43 v381), ∀ a, (k0_off86 v381) a + S1x1x128.size a ≤ S2097152x1x128.size a := fun v381 k0_hw43 => k0_hw43.1
theorem k0_off299_inb : ∀ (v381 : BitVec 32) (k0_hw43 : k0_chk43 v381), ∀ a, (k0_off299 v381) a + S1x1x128.size a ≤ S2097152x1x128.size a := fun v381 k0_hw43 => k0_hw43.2

def k0_off300 (v390 : BitVec 32) : Fin 3 → Nat :=
  let c0_i32_1030 : BitVec 32 := 0#32
  let c0_i32_1031 : BitVec 32 := 0#32
  ![v390.toNat, 0, 0]

def k0_chk44 (v390 : BitVec 32) : Prop :=
  (∀ a, (k0_off88 v390) a + S1x1x128.size a ≤ S2097152x1x128.size a) ∧
  (∀ a, (k0_off300 v390) a + S1x1x128.size a ≤ S2097152x1x128.size a)
instance k0_chk44.dec : ∀ (v390 : BitVec 32), Decidable (k0_chk44 v390) := fun v390 => decidable_of_iff' _ (Iff.of_eq (k0_chk44.eq_1 v390))
theorem k0_off88_inb : ∀ (v390 : BitVec 32) (k0_hw44 : k0_chk44 v390), ∀ a, (k0_off88 v390) a + S1x1x128.size a ≤ S2097152x1x128.size a := fun v390 k0_hw44 => k0_hw44.1
theorem k0_off300_inb : ∀ (v390 : BitVec 32) (k0_hw44 : k0_chk44 v390), ∀ a, (k0_off300 v390) a + S1x1x128.size a ≤ S2097152x1x128.size a := fun v390 k0_hw44 => k0_hw44.2

def k0_off301 (v399 : BitVec 32) : Fin 3 → Nat :=
  let c0_i32_1036 : BitVec 32 := 0#32
  let c0_i32_1037 : BitVec 32 := 0#32
  ![v399.toNat, 0, 0]

def k0_chk45 (v399 : BitVec 32) : Prop :=
  (∀ a, (k0_off90 v399) a + S1x1x128.size a ≤ S2097152x1x128.size a) ∧
  (∀ a, (k0_off301 v399) a + S1x1x128.size a ≤ S2097152x1x128.size a)
instance k0_chk45.dec : ∀ (v399 : BitVec 32), Decidable (k0_chk45 v399) := fun v399 => decidable_of_iff' _ (Iff.of_eq (k0_chk45.eq_1 v399))
theorem k0_off90_inb : ∀ (v399 : BitVec 32) (k0_hw45 : k0_chk45 v399), ∀ a, (k0_off90 v399) a + S1x1x128.size a ≤ S2097152x1x128.size a := fun v399 k0_hw45 => k0_hw45.1
theorem k0_off301_inb : ∀ (v399 : BitVec 32) (k0_hw45 : k0_chk45 v399), ∀ a, (k0_off301 v399) a + S1x1x128.size a ≤ S2097152x1x128.size a := fun v399 k0_hw45 => k0_hw45.2

def k0_off302 (v408 : BitVec 32) : Fin 3 → Nat :=
  let c0_i32_1042 : BitVec 32 := 0#32
  let c0_i32_1043 : BitVec 32 := 0#32
  ![v408.toNat, 0, 0]

def k0_chk46 (v408 : BitVec 32) : Prop :=
  (∀ a, (k0_off92 v408) a + S1x1x128.size a ≤ S2097152x1x128.size a) ∧
  (∀ a, (k0_off302 v408) a + S1x1x128.size a ≤ S2097152x1x128.size a)
instance k0_chk46.dec : ∀ (v408 : BitVec 32), Decidable (k0_chk46 v408) := fun v408 => decidable_of_iff' _ (Iff.of_eq (k0_chk46.eq_1 v408))
theorem k0_off92_inb : ∀ (v408 : BitVec 32) (k0_hw46 : k0_chk46 v408), ∀ a, (k0_off92 v408) a + S1x1x128.size a ≤ S2097152x1x128.size a := fun v408 k0_hw46 => k0_hw46.1
theorem k0_off302_inb : ∀ (v408 : BitVec 32) (k0_hw46 : k0_chk46 v408), ∀ a, (k0_off302 v408) a + S1x1x128.size a ≤ S2097152x1x128.size a := fun v408 k0_hw46 => k0_hw46.2

def k0_off303 (v417 : BitVec 32) : Fin 3 → Nat :=
  let c0_i32_1048 : BitVec 32 := 0#32
  let c0_i32_1049 : BitVec 32 := 0#32
  ![v417.toNat, 0, 0]

def k0_chk47 (v417 : BitVec 32) : Prop :=
  (∀ a, (k0_off94 v417) a + S1x1x128.size a ≤ S2097152x1x128.size a) ∧
  (∀ a, (k0_off303 v417) a + S1x1x128.size a ≤ S2097152x1x128.size a)
instance k0_chk47.dec : ∀ (v417 : BitVec 32), Decidable (k0_chk47 v417) := fun v417 => decidable_of_iff' _ (Iff.of_eq (k0_chk47.eq_1 v417))
theorem k0_off94_inb : ∀ (v417 : BitVec 32) (k0_hw47 : k0_chk47 v417), ∀ a, (k0_off94 v417) a + S1x1x128.size a ≤ S2097152x1x128.size a := fun v417 k0_hw47 => k0_hw47.1
theorem k0_off303_inb : ∀ (v417 : BitVec 32) (k0_hw47 : k0_chk47 v417), ∀ a, (k0_off303 v417) a + S1x1x128.size a ≤ S2097152x1x128.size a := fun v417 k0_hw47 => k0_hw47.2

def k0_off304 (v426 : BitVec 32) : Fin 3 → Nat :=
  let c0_i32_1054 : BitVec 32 := 0#32
  let c0_i32_1055 : BitVec 32 := 0#32
  ![v426.toNat, 0, 0]

def k0_chk48 (v426 : BitVec 32) : Prop :=
  (∀ a, (k0_off96 v426) a + S1x1x128.size a ≤ S2097152x1x128.size a) ∧
  (∀ a, (k0_off304 v426) a + S1x1x128.size a ≤ S2097152x1x128.size a)
instance k0_chk48.dec : ∀ (v426 : BitVec 32), Decidable (k0_chk48 v426) := fun v426 => decidable_of_iff' _ (Iff.of_eq (k0_chk48.eq_1 v426))
theorem k0_off96_inb : ∀ (v426 : BitVec 32) (k0_hw48 : k0_chk48 v426), ∀ a, (k0_off96 v426) a + S1x1x128.size a ≤ S2097152x1x128.size a := fun v426 k0_hw48 => k0_hw48.1
theorem k0_off304_inb : ∀ (v426 : BitVec 32) (k0_hw48 : k0_chk48 v426), ∀ a, (k0_off304 v426) a + S1x1x128.size a ≤ S2097152x1x128.size a := fun v426 k0_hw48 => k0_hw48.2

def k0_off305 (v435 : BitVec 32) : Fin 3 → Nat :=
  let c0_i32_1060 : BitVec 32 := 0#32
  let c0_i32_1061 : BitVec 32 := 0#32
  ![v435.toNat, 0, 0]

def k0_chk49 (v435 : BitVec 32) : Prop :=
  (∀ a, (k0_off98 v435) a + S1x1x128.size a ≤ S2097152x1x128.size a) ∧
  (∀ a, (k0_off305 v435) a + S1x1x128.size a ≤ S2097152x1x128.size a)
instance k0_chk49.dec : ∀ (v435 : BitVec 32), Decidable (k0_chk49 v435) := fun v435 => decidable_of_iff' _ (Iff.of_eq (k0_chk49.eq_1 v435))
theorem k0_off98_inb : ∀ (v435 : BitVec 32) (k0_hw49 : k0_chk49 v435), ∀ a, (k0_off98 v435) a + S1x1x128.size a ≤ S2097152x1x128.size a := fun v435 k0_hw49 => k0_hw49.1
theorem k0_off305_inb : ∀ (v435 : BitVec 32) (k0_hw49 : k0_chk49 v435), ∀ a, (k0_off305 v435) a + S1x1x128.size a ≤ S2097152x1x128.size a := fun v435 k0_hw49 => k0_hw49.2

def k0_off306 (v444 : BitVec 32) : Fin 3 → Nat :=
  let c0_i32_1066 : BitVec 32 := 0#32
  let c0_i32_1067 : BitVec 32 := 0#32
  ![v444.toNat, 0, 0]

def k0_chk50 (v444 : BitVec 32) : Prop :=
  (∀ a, (k0_off100 v444) a + S1x1x128.size a ≤ S2097152x1x128.size a) ∧
  (∀ a, (k0_off306 v444) a + S1x1x128.size a ≤ S2097152x1x128.size a)
instance k0_chk50.dec : ∀ (v444 : BitVec 32), Decidable (k0_chk50 v444) := fun v444 => decidable_of_iff' _ (Iff.of_eq (k0_chk50.eq_1 v444))
theorem k0_off100_inb : ∀ (v444 : BitVec 32) (k0_hw50 : k0_chk50 v444), ∀ a, (k0_off100 v444) a + S1x1x128.size a ≤ S2097152x1x128.size a := fun v444 k0_hw50 => k0_hw50.1
theorem k0_off306_inb : ∀ (v444 : BitVec 32) (k0_hw50 : k0_chk50 v444), ∀ a, (k0_off306 v444) a + S1x1x128.size a ≤ S2097152x1x128.size a := fun v444 k0_hw50 => k0_hw50.2

def k0_off307 (v453 : BitVec 32) : Fin 3 → Nat :=
  let c0_i32_1072 : BitVec 32 := 0#32
  let c0_i32_1073 : BitVec 32 := 0#32
  ![v453.toNat, 0, 0]

def k0_chk51 (v453 : BitVec 32) : Prop :=
  (∀ a, (k0_off102 v453) a + S1x1x128.size a ≤ S2097152x1x128.size a) ∧
  (∀ a, (k0_off307 v453) a + S1x1x128.size a ≤ S2097152x1x128.size a)
instance k0_chk51.dec : ∀ (v453 : BitVec 32), Decidable (k0_chk51 v453) := fun v453 => decidable_of_iff' _ (Iff.of_eq (k0_chk51.eq_1 v453))
theorem k0_off102_inb : ∀ (v453 : BitVec 32) (k0_hw51 : k0_chk51 v453), ∀ a, (k0_off102 v453) a + S1x1x128.size a ≤ S2097152x1x128.size a := fun v453 k0_hw51 => k0_hw51.1
theorem k0_off307_inb : ∀ (v453 : BitVec 32) (k0_hw51 : k0_chk51 v453), ∀ a, (k0_off307 v453) a + S1x1x128.size a ≤ S2097152x1x128.size a := fun v453 k0_hw51 => k0_hw51.2

def k0_off308 (v462 : BitVec 32) : Fin 3 → Nat :=
  let c0_i32_1078 : BitVec 32 := 0#32
  let c0_i32_1079 : BitVec 32 := 0#32
  ![v462.toNat, 0, 0]

def k0_chk52 (v462 : BitVec 32) : Prop :=
  (∀ a, (k0_off104 v462) a + S1x1x128.size a ≤ S2097152x1x128.size a) ∧
  (∀ a, (k0_off308 v462) a + S1x1x128.size a ≤ S2097152x1x128.size a)
instance k0_chk52.dec : ∀ (v462 : BitVec 32), Decidable (k0_chk52 v462) := fun v462 => decidable_of_iff' _ (Iff.of_eq (k0_chk52.eq_1 v462))
theorem k0_off104_inb : ∀ (v462 : BitVec 32) (k0_hw52 : k0_chk52 v462), ∀ a, (k0_off104 v462) a + S1x1x128.size a ≤ S2097152x1x128.size a := fun v462 k0_hw52 => k0_hw52.1
theorem k0_off308_inb : ∀ (v462 : BitVec 32) (k0_hw52 : k0_chk52 v462), ∀ a, (k0_off308 v462) a + S1x1x128.size a ≤ S2097152x1x128.size a := fun v462 k0_hw52 => k0_hw52.2

def k0_off309 (v471 : BitVec 32) : Fin 3 → Nat :=
  let c0_i32_1084 : BitVec 32 := 0#32
  let c0_i32_1085 : BitVec 32 := 0#32
  ![v471.toNat, 0, 0]

def k0_chk53 (v471 : BitVec 32) : Prop :=
  (∀ a, (k0_off106 v471) a + S1x1x128.size a ≤ S2097152x1x128.size a) ∧
  (∀ a, (k0_off309 v471) a + S1x1x128.size a ≤ S2097152x1x128.size a)
instance k0_chk53.dec : ∀ (v471 : BitVec 32), Decidable (k0_chk53 v471) := fun v471 => decidable_of_iff' _ (Iff.of_eq (k0_chk53.eq_1 v471))
theorem k0_off106_inb : ∀ (v471 : BitVec 32) (k0_hw53 : k0_chk53 v471), ∀ a, (k0_off106 v471) a + S1x1x128.size a ≤ S2097152x1x128.size a := fun v471 k0_hw53 => k0_hw53.1
theorem k0_off309_inb : ∀ (v471 : BitVec 32) (k0_hw53 : k0_chk53 v471), ∀ a, (k0_off309 v471) a + S1x1x128.size a ≤ S2097152x1x128.size a := fun v471 k0_hw53 => k0_hw53.2

def k0_off310 (v480 : BitVec 32) : Fin 3 → Nat :=
  let c0_i32_1090 : BitVec 32 := 0#32
  let c0_i32_1091 : BitVec 32 := 0#32
  ![v480.toNat, 0, 0]

def k0_chk54 (v480 : BitVec 32) : Prop :=
  (∀ a, (k0_off108 v480) a + S1x1x128.size a ≤ S2097152x1x128.size a) ∧
  (∀ a, (k0_off310 v480) a + S1x1x128.size a ≤ S2097152x1x128.size a)
instance k0_chk54.dec : ∀ (v480 : BitVec 32), Decidable (k0_chk54 v480) := fun v480 => decidable_of_iff' _ (Iff.of_eq (k0_chk54.eq_1 v480))
theorem k0_off108_inb : ∀ (v480 : BitVec 32) (k0_hw54 : k0_chk54 v480), ∀ a, (k0_off108 v480) a + S1x1x128.size a ≤ S2097152x1x128.size a := fun v480 k0_hw54 => k0_hw54.1
theorem k0_off310_inb : ∀ (v480 : BitVec 32) (k0_hw54 : k0_chk54 v480), ∀ a, (k0_off310 v480) a + S1x1x128.size a ≤ S2097152x1x128.size a := fun v480 k0_hw54 => k0_hw54.2

def k0_off311 (v489 : BitVec 32) : Fin 3 → Nat :=
  let c0_i32_1096 : BitVec 32 := 0#32
  let c0_i32_1097 : BitVec 32 := 0#32
  ![v489.toNat, 0, 0]

def k0_chk55 (v489 : BitVec 32) : Prop :=
  (∀ a, (k0_off110 v489) a + S1x1x128.size a ≤ S2097152x1x128.size a) ∧
  (∀ a, (k0_off311 v489) a + S1x1x128.size a ≤ S2097152x1x128.size a)
instance k0_chk55.dec : ∀ (v489 : BitVec 32), Decidable (k0_chk55 v489) := fun v489 => decidable_of_iff' _ (Iff.of_eq (k0_chk55.eq_1 v489))
theorem k0_off110_inb : ∀ (v489 : BitVec 32) (k0_hw55 : k0_chk55 v489), ∀ a, (k0_off110 v489) a + S1x1x128.size a ≤ S2097152x1x128.size a := fun v489 k0_hw55 => k0_hw55.1
theorem k0_off311_inb : ∀ (v489 : BitVec 32) (k0_hw55 : k0_chk55 v489), ∀ a, (k0_off311 v489) a + S1x1x128.size a ≤ S2097152x1x128.size a := fun v489 k0_hw55 => k0_hw55.2

def k0_off312 (v498 : BitVec 32) : Fin 3 → Nat :=
  let c0_i32_1102 : BitVec 32 := 0#32
  let c0_i32_1103 : BitVec 32 := 0#32
  ![v498.toNat, 0, 0]

def k0_chk56 (v498 : BitVec 32) : Prop :=
  (∀ a, (k0_off112 v498) a + S1x1x128.size a ≤ S2097152x1x128.size a) ∧
  (∀ a, (k0_off312 v498) a + S1x1x128.size a ≤ S2097152x1x128.size a)
instance k0_chk56.dec : ∀ (v498 : BitVec 32), Decidable (k0_chk56 v498) := fun v498 => decidable_of_iff' _ (Iff.of_eq (k0_chk56.eq_1 v498))
theorem k0_off112_inb : ∀ (v498 : BitVec 32) (k0_hw56 : k0_chk56 v498), ∀ a, (k0_off112 v498) a + S1x1x128.size a ≤ S2097152x1x128.size a := fun v498 k0_hw56 => k0_hw56.1
theorem k0_off312_inb : ∀ (v498 : BitVec 32) (k0_hw56 : k0_chk56 v498), ∀ a, (k0_off312 v498) a + S1x1x128.size a ≤ S2097152x1x128.size a := fun v498 k0_hw56 => k0_hw56.2

def k0_off313 (v507 : BitVec 32) : Fin 3 → Nat :=
  let c0_i32_1108 : BitVec 32 := 0#32
  let c0_i32_1109 : BitVec 32 := 0#32
  ![v507.toNat, 0, 0]

def k0_chk57 (v507 : BitVec 32) : Prop :=
  (∀ a, (k0_off114 v507) a + S1x1x128.size a ≤ S2097152x1x128.size a) ∧
  (∀ a, (k0_off313 v507) a + S1x1x128.size a ≤ S2097152x1x128.size a)
instance k0_chk57.dec : ∀ (v507 : BitVec 32), Decidable (k0_chk57 v507) := fun v507 => decidable_of_iff' _ (Iff.of_eq (k0_chk57.eq_1 v507))
theorem k0_off114_inb : ∀ (v507 : BitVec 32) (k0_hw57 : k0_chk57 v507), ∀ a, (k0_off114 v507) a + S1x1x128.size a ≤ S2097152x1x128.size a := fun v507 k0_hw57 => k0_hw57.1
theorem k0_off313_inb : ∀ (v507 : BitVec 32) (k0_hw57 : k0_chk57 v507), ∀ a, (k0_off313 v507) a + S1x1x128.size a ≤ S2097152x1x128.size a := fun v507 k0_hw57 => k0_hw57.2

def k0_off314 (v516 : BitVec 32) : Fin 3 → Nat :=
  let c0_i32_1114 : BitVec 32 := 0#32
  let c0_i32_1115 : BitVec 32 := 0#32
  ![v516.toNat, 0, 0]

def k0_chk58 (v516 : BitVec 32) : Prop :=
  (∀ a, (k0_off116 v516) a + S1x1x128.size a ≤ S2097152x1x128.size a) ∧
  (∀ a, (k0_off314 v516) a + S1x1x128.size a ≤ S2097152x1x128.size a)
instance k0_chk58.dec : ∀ (v516 : BitVec 32), Decidable (k0_chk58 v516) := fun v516 => decidable_of_iff' _ (Iff.of_eq (k0_chk58.eq_1 v516))
theorem k0_off116_inb : ∀ (v516 : BitVec 32) (k0_hw58 : k0_chk58 v516), ∀ a, (k0_off116 v516) a + S1x1x128.size a ≤ S2097152x1x128.size a := fun v516 k0_hw58 => k0_hw58.1
theorem k0_off314_inb : ∀ (v516 : BitVec 32) (k0_hw58 : k0_chk58 v516), ∀ a, (k0_off314 v516) a + S1x1x128.size a ≤ S2097152x1x128.size a := fun v516 k0_hw58 => k0_hw58.2

def k0_off315 (v525 : BitVec 32) : Fin 3 → Nat :=
  let c0_i32_1120 : BitVec 32 := 0#32
  let c0_i32_1121 : BitVec 32 := 0#32
  ![v525.toNat, 0, 0]

def k0_chk59 (v525 : BitVec 32) : Prop :=
  (∀ a, (k0_off118 v525) a + S1x1x128.size a ≤ S2097152x1x128.size a) ∧
  (∀ a, (k0_off315 v525) a + S1x1x128.size a ≤ S2097152x1x128.size a)
instance k0_chk59.dec : ∀ (v525 : BitVec 32), Decidable (k0_chk59 v525) := fun v525 => decidable_of_iff' _ (Iff.of_eq (k0_chk59.eq_1 v525))
theorem k0_off118_inb : ∀ (v525 : BitVec 32) (k0_hw59 : k0_chk59 v525), ∀ a, (k0_off118 v525) a + S1x1x128.size a ≤ S2097152x1x128.size a := fun v525 k0_hw59 => k0_hw59.1
theorem k0_off315_inb : ∀ (v525 : BitVec 32) (k0_hw59 : k0_chk59 v525), ∀ a, (k0_off315 v525) a + S1x1x128.size a ≤ S2097152x1x128.size a := fun v525 k0_hw59 => k0_hw59.2

def k0_off316 (v534 : BitVec 32) : Fin 3 → Nat :=
  let c0_i32_1126 : BitVec 32 := 0#32
  let c0_i32_1127 : BitVec 32 := 0#32
  ![v534.toNat, 0, 0]

def k0_chk60 (v534 : BitVec 32) : Prop :=
  (∀ a, (k0_off120 v534) a + S1x1x128.size a ≤ S2097152x1x128.size a) ∧
  (∀ a, (k0_off316 v534) a + S1x1x128.size a ≤ S2097152x1x128.size a)
instance k0_chk60.dec : ∀ (v534 : BitVec 32), Decidable (k0_chk60 v534) := fun v534 => decidable_of_iff' _ (Iff.of_eq (k0_chk60.eq_1 v534))
theorem k0_off120_inb : ∀ (v534 : BitVec 32) (k0_hw60 : k0_chk60 v534), ∀ a, (k0_off120 v534) a + S1x1x128.size a ≤ S2097152x1x128.size a := fun v534 k0_hw60 => k0_hw60.1
theorem k0_off316_inb : ∀ (v534 : BitVec 32) (k0_hw60 : k0_chk60 v534), ∀ a, (k0_off316 v534) a + S1x1x128.size a ≤ S2097152x1x128.size a := fun v534 k0_hw60 => k0_hw60.2

def k0_off317 (v543 : BitVec 32) : Fin 3 → Nat :=
  let c0_i32_1132 : BitVec 32 := 0#32
  let c0_i32_1133 : BitVec 32 := 0#32
  ![v543.toNat, 0, 0]

def k0_chk61 (v543 : BitVec 32) : Prop :=
  (∀ a, (k0_off122 v543) a + S1x1x128.size a ≤ S2097152x1x128.size a) ∧
  (∀ a, (k0_off317 v543) a + S1x1x128.size a ≤ S2097152x1x128.size a)
instance k0_chk61.dec : ∀ (v543 : BitVec 32), Decidable (k0_chk61 v543) := fun v543 => decidable_of_iff' _ (Iff.of_eq (k0_chk61.eq_1 v543))
theorem k0_off122_inb : ∀ (v543 : BitVec 32) (k0_hw61 : k0_chk61 v543), ∀ a, (k0_off122 v543) a + S1x1x128.size a ≤ S2097152x1x128.size a := fun v543 k0_hw61 => k0_hw61.1
theorem k0_off317_inb : ∀ (v543 : BitVec 32) (k0_hw61 : k0_chk61 v543), ∀ a, (k0_off317 v543) a + S1x1x128.size a ≤ S2097152x1x128.size a := fun v543 k0_hw61 => k0_hw61.2

def k0_off318 (v552 : BitVec 32) : Fin 3 → Nat :=
  let c0_i32_1138 : BitVec 32 := 0#32
  let c0_i32_1139 : BitVec 32 := 0#32
  ![v552.toNat, 0, 0]

def k0_chk62 (v552 : BitVec 32) : Prop :=
  (∀ a, (k0_off124 v552) a + S1x1x128.size a ≤ S2097152x1x128.size a) ∧
  (∀ a, (k0_off318 v552) a + S1x1x128.size a ≤ S2097152x1x128.size a)
instance k0_chk62.dec : ∀ (v552 : BitVec 32), Decidable (k0_chk62 v552) := fun v552 => decidable_of_iff' _ (Iff.of_eq (k0_chk62.eq_1 v552))
theorem k0_off124_inb : ∀ (v552 : BitVec 32) (k0_hw62 : k0_chk62 v552), ∀ a, (k0_off124 v552) a + S1x1x128.size a ≤ S2097152x1x128.size a := fun v552 k0_hw62 => k0_hw62.1
theorem k0_off318_inb : ∀ (v552 : BitVec 32) (k0_hw62 : k0_chk62 v552), ∀ a, (k0_off318 v552) a + S1x1x128.size a ≤ S2097152x1x128.size a := fun v552 k0_hw62 => k0_hw62.2

def k0_off319 (v561 : BitVec 32) : Fin 3 → Nat :=
  let c0_i32_1144 : BitVec 32 := 0#32
  let c0_i32_1145 : BitVec 32 := 0#32
  ![v561.toNat, 0, 0]

def k0_chk63 (v561 : BitVec 32) : Prop :=
  (∀ a, (k0_off126 v561) a + S1x1x128.size a ≤ S2097152x1x128.size a) ∧
  (∀ a, (k0_off319 v561) a + S1x1x128.size a ≤ S2097152x1x128.size a)
instance k0_chk63.dec : ∀ (v561 : BitVec 32), Decidable (k0_chk63 v561) := fun v561 => decidable_of_iff' _ (Iff.of_eq (k0_chk63.eq_1 v561))
theorem k0_off126_inb : ∀ (v561 : BitVec 32) (k0_hw63 : k0_chk63 v561), ∀ a, (k0_off126 v561) a + S1x1x128.size a ≤ S2097152x1x128.size a := fun v561 k0_hw63 => k0_hw63.1
theorem k0_off319_inb : ∀ (v561 : BitVec 32) (k0_hw63 : k0_chk63 v561), ∀ a, (k0_off319 v561) a + S1x1x128.size a ≤ S2097152x1x128.size a := fun v561 k0_hw63 => k0_hw63.2

def k0_off320 (v570 : BitVec 32) : Fin 3 → Nat :=
  let c0_i32_1150 : BitVec 32 := 0#32
  let c0_i32_1151 : BitVec 32 := 0#32
  ![v570.toNat, 0, 0]

def k0_chk64 (v570 : BitVec 32) : Prop :=
  (∀ a, (k0_off128 v570) a + S1x1x128.size a ≤ S2097152x1x128.size a) ∧
  (∀ a, (k0_off320 v570) a + S1x1x128.size a ≤ S2097152x1x128.size a)
instance k0_chk64.dec : ∀ (v570 : BitVec 32), Decidable (k0_chk64 v570) := fun v570 => decidable_of_iff' _ (Iff.of_eq (k0_chk64.eq_1 v570))
theorem k0_off128_inb : ∀ (v570 : BitVec 32) (k0_hw64 : k0_chk64 v570), ∀ a, (k0_off128 v570) a + S1x1x128.size a ≤ S2097152x1x128.size a := fun v570 k0_hw64 => k0_hw64.1
theorem k0_off320_inb : ∀ (v570 : BitVec 32) (k0_hw64 : k0_chk64 v570), ∀ a, (k0_off320 v570) a + S1x1x128.size a ≤ S2097152x1x128.size a := fun v570 k0_hw64 => k0_hw64.2

def k0_off321 (v579 : BitVec 32) : Fin 3 → Nat :=
  let c0_i32_1156 : BitVec 32 := 0#32
  let c0_i32_1157 : BitVec 32 := 0#32
  ![v579.toNat, 0, 0]

def k0_chk65 (v579 : BitVec 32) : Prop :=
  (∀ a, (k0_off130 v579) a + S1x1x128.size a ≤ S2097152x1x128.size a) ∧
  (∀ a, (k0_off321 v579) a + S1x1x128.size a ≤ S2097152x1x128.size a)
instance k0_chk65.dec : ∀ (v579 : BitVec 32), Decidable (k0_chk65 v579) := fun v579 => decidable_of_iff' _ (Iff.of_eq (k0_chk65.eq_1 v579))
theorem k0_off130_inb : ∀ (v579 : BitVec 32) (k0_hw65 : k0_chk65 v579), ∀ a, (k0_off130 v579) a + S1x1x128.size a ≤ S2097152x1x128.size a := fun v579 k0_hw65 => k0_hw65.1
theorem k0_off321_inb : ∀ (v579 : BitVec 32) (k0_hw65 : k0_chk65 v579), ∀ a, (k0_off321 v579) a + S1x1x128.size a ≤ S2097152x1x128.size a := fun v579 k0_hw65 => k0_hw65.2

def k0_off322 (v588 : BitVec 32) : Fin 3 → Nat :=
  let c0_i32_1162 : BitVec 32 := 0#32
  let c0_i32_1163 : BitVec 32 := 0#32
  ![v588.toNat, 0, 0]

def k0_chk66 (v588 : BitVec 32) : Prop :=
  (∀ a, (k0_off132 v588) a + S1x1x128.size a ≤ S2097152x1x128.size a) ∧
  (∀ a, (k0_off322 v588) a + S1x1x128.size a ≤ S2097152x1x128.size a)
instance k0_chk66.dec : ∀ (v588 : BitVec 32), Decidable (k0_chk66 v588) := fun v588 => decidable_of_iff' _ (Iff.of_eq (k0_chk66.eq_1 v588))
theorem k0_off132_inb : ∀ (v588 : BitVec 32) (k0_hw66 : k0_chk66 v588), ∀ a, (k0_off132 v588) a + S1x1x128.size a ≤ S2097152x1x128.size a := fun v588 k0_hw66 => k0_hw66.1
theorem k0_off322_inb : ∀ (v588 : BitVec 32) (k0_hw66 : k0_chk66 v588), ∀ a, (k0_off322 v588) a + S1x1x128.size a ≤ S2097152x1x128.size a := fun v588 k0_hw66 => k0_hw66.2

def k0_off323 (v597 : BitVec 32) : Fin 3 → Nat :=
  let c0_i32_1168 : BitVec 32 := 0#32
  let c0_i32_1169 : BitVec 32 := 0#32
  ![v597.toNat, 0, 0]

def k0_chk67 (v597 : BitVec 32) : Prop :=
  (∀ a, (k0_off134 v597) a + S1x1x128.size a ≤ S2097152x1x128.size a) ∧
  (∀ a, (k0_off323 v597) a + S1x1x128.size a ≤ S2097152x1x128.size a)
instance k0_chk67.dec : ∀ (v597 : BitVec 32), Decidable (k0_chk67 v597) := fun v597 => decidable_of_iff' _ (Iff.of_eq (k0_chk67.eq_1 v597))
theorem k0_off134_inb : ∀ (v597 : BitVec 32) (k0_hw67 : k0_chk67 v597), ∀ a, (k0_off134 v597) a + S1x1x128.size a ≤ S2097152x1x128.size a := fun v597 k0_hw67 => k0_hw67.1
theorem k0_off323_inb : ∀ (v597 : BitVec 32) (k0_hw67 : k0_chk67 v597), ∀ a, (k0_off323 v597) a + S1x1x128.size a ≤ S2097152x1x128.size a := fun v597 k0_hw67 => k0_hw67.2

def k0_off324 (v606 : BitVec 32) : Fin 3 → Nat :=
  let c0_i32_1174 : BitVec 32 := 0#32
  let c0_i32_1175 : BitVec 32 := 0#32
  ![v606.toNat, 0, 0]

def k0_chk68 (v606 : BitVec 32) : Prop :=
  (∀ a, (k0_off136 v606) a + S1x1x128.size a ≤ S2097152x1x128.size a) ∧
  (∀ a, (k0_off324 v606) a + S1x1x128.size a ≤ S2097152x1x128.size a)
instance k0_chk68.dec : ∀ (v606 : BitVec 32), Decidable (k0_chk68 v606) := fun v606 => decidable_of_iff' _ (Iff.of_eq (k0_chk68.eq_1 v606))
theorem k0_off136_inb : ∀ (v606 : BitVec 32) (k0_hw68 : k0_chk68 v606), ∀ a, (k0_off136 v606) a + S1x1x128.size a ≤ S2097152x1x128.size a := fun v606 k0_hw68 => k0_hw68.1
theorem k0_off324_inb : ∀ (v606 : BitVec 32) (k0_hw68 : k0_chk68 v606), ∀ a, (k0_off324 v606) a + S1x1x128.size a ≤ S2097152x1x128.size a := fun v606 k0_hw68 => k0_hw68.2

def k0_off325 (v615 : BitVec 32) : Fin 3 → Nat :=
  let c0_i32_1180 : BitVec 32 := 0#32
  let c0_i32_1181 : BitVec 32 := 0#32
  ![v615.toNat, 0, 0]

def k0_chk69 (v615 : BitVec 32) : Prop :=
  (∀ a, (k0_off138 v615) a + S1x1x128.size a ≤ S2097152x1x128.size a) ∧
  (∀ a, (k0_off325 v615) a + S1x1x128.size a ≤ S2097152x1x128.size a)
instance k0_chk69.dec : ∀ (v615 : BitVec 32), Decidable (k0_chk69 v615) := fun v615 => decidable_of_iff' _ (Iff.of_eq (k0_chk69.eq_1 v615))
theorem k0_off138_inb : ∀ (v615 : BitVec 32) (k0_hw69 : k0_chk69 v615), ∀ a, (k0_off138 v615) a + S1x1x128.size a ≤ S2097152x1x128.size a := fun v615 k0_hw69 => k0_hw69.1
theorem k0_off325_inb : ∀ (v615 : BitVec 32) (k0_hw69 : k0_chk69 v615), ∀ a, (k0_off325 v615) a + S1x1x128.size a ≤ S2097152x1x128.size a := fun v615 k0_hw69 => k0_hw69.2

def k0_off326 (v624 : BitVec 32) : Fin 3 → Nat :=
  let c0_i32_1186 : BitVec 32 := 0#32
  let c0_i32_1187 : BitVec 32 := 0#32
  ![v624.toNat, 0, 0]

def k0_chk70 (v624 : BitVec 32) : Prop :=
  (∀ a, (k0_off140 v624) a + S1x1x128.size a ≤ S2097152x1x128.size a) ∧
  (∀ a, (k0_off326 v624) a + S1x1x128.size a ≤ S2097152x1x128.size a)
instance k0_chk70.dec : ∀ (v624 : BitVec 32), Decidable (k0_chk70 v624) := fun v624 => decidable_of_iff' _ (Iff.of_eq (k0_chk70.eq_1 v624))
theorem k0_off140_inb : ∀ (v624 : BitVec 32) (k0_hw70 : k0_chk70 v624), ∀ a, (k0_off140 v624) a + S1x1x128.size a ≤ S2097152x1x128.size a := fun v624 k0_hw70 => k0_hw70.1
theorem k0_off326_inb : ∀ (v624 : BitVec 32) (k0_hw70 : k0_chk70 v624), ∀ a, (k0_off326 v624) a + S1x1x128.size a ≤ S2097152x1x128.size a := fun v624 k0_hw70 => k0_hw70.2

def k0_off327 (v633 : BitVec 32) : Fin 3 → Nat :=
  let c0_i32_1192 : BitVec 32 := 0#32
  let c0_i32_1193 : BitVec 32 := 0#32
  ![v633.toNat, 0, 0]

def k0_chk71 (v633 : BitVec 32) : Prop :=
  (∀ a, (k0_off142 v633) a + S1x1x128.size a ≤ S2097152x1x128.size a) ∧
  (∀ a, (k0_off327 v633) a + S1x1x128.size a ≤ S2097152x1x128.size a)
instance k0_chk71.dec : ∀ (v633 : BitVec 32), Decidable (k0_chk71 v633) := fun v633 => decidable_of_iff' _ (Iff.of_eq (k0_chk71.eq_1 v633))
theorem k0_off142_inb : ∀ (v633 : BitVec 32) (k0_hw71 : k0_chk71 v633), ∀ a, (k0_off142 v633) a + S1x1x128.size a ≤ S2097152x1x128.size a := fun v633 k0_hw71 => k0_hw71.1
theorem k0_off327_inb : ∀ (v633 : BitVec 32) (k0_hw71 : k0_chk71 v633), ∀ a, (k0_off327 v633) a + S1x1x128.size a ≤ S2097152x1x128.size a := fun v633 k0_hw71 => k0_hw71.2

def k0_off328 (v642 : BitVec 32) : Fin 3 → Nat :=
  let c0_i32_1198 : BitVec 32 := 0#32
  let c0_i32_1199 : BitVec 32 := 0#32
  ![v642.toNat, 0, 0]

def k0_chk72 (v642 : BitVec 32) : Prop :=
  (∀ a, (k0_off144 v642) a + S1x1x128.size a ≤ S2097152x1x128.size a) ∧
  (∀ a, (k0_off328 v642) a + S1x1x128.size a ≤ S2097152x1x128.size a)
instance k0_chk72.dec : ∀ (v642 : BitVec 32), Decidable (k0_chk72 v642) := fun v642 => decidable_of_iff' _ (Iff.of_eq (k0_chk72.eq_1 v642))
theorem k0_off144_inb : ∀ (v642 : BitVec 32) (k0_hw72 : k0_chk72 v642), ∀ a, (k0_off144 v642) a + S1x1x128.size a ≤ S2097152x1x128.size a := fun v642 k0_hw72 => k0_hw72.1
theorem k0_off328_inb : ∀ (v642 : BitVec 32) (k0_hw72 : k0_chk72 v642), ∀ a, (k0_off328 v642) a + S1x1x128.size a ≤ S2097152x1x128.size a := fun v642 k0_hw72 => k0_hw72.2

def k0_off329 (v651 : BitVec 32) : Fin 3 → Nat :=
  let c0_i32_1204 : BitVec 32 := 0#32
  let c0_i32_1205 : BitVec 32 := 0#32
  ![v651.toNat, 0, 0]

def k0_chk73 (v651 : BitVec 32) : Prop :=
  (∀ a, (k0_off146 v651) a + S1x1x128.size a ≤ S2097152x1x128.size a) ∧
  (∀ a, (k0_off329 v651) a + S1x1x128.size a ≤ S2097152x1x128.size a)
instance k0_chk73.dec : ∀ (v651 : BitVec 32), Decidable (k0_chk73 v651) := fun v651 => decidable_of_iff' _ (Iff.of_eq (k0_chk73.eq_1 v651))
theorem k0_off146_inb : ∀ (v651 : BitVec 32) (k0_hw73 : k0_chk73 v651), ∀ a, (k0_off146 v651) a + S1x1x128.size a ≤ S2097152x1x128.size a := fun v651 k0_hw73 => k0_hw73.1
theorem k0_off329_inb : ∀ (v651 : BitVec 32) (k0_hw73 : k0_chk73 v651), ∀ a, (k0_off329 v651) a + S1x1x128.size a ≤ S2097152x1x128.size a := fun v651 k0_hw73 => k0_hw73.2

def k0_off330 (v660 : BitVec 32) : Fin 3 → Nat :=
  let c0_i32_1210 : BitVec 32 := 0#32
  let c0_i32_1211 : BitVec 32 := 0#32
  ![v660.toNat, 0, 0]

def k0_chk74 (v660 : BitVec 32) : Prop :=
  (∀ a, (k0_off148 v660) a + S1x1x128.size a ≤ S2097152x1x128.size a) ∧
  (∀ a, (k0_off330 v660) a + S1x1x128.size a ≤ S2097152x1x128.size a)
instance k0_chk74.dec : ∀ (v660 : BitVec 32), Decidable (k0_chk74 v660) := fun v660 => decidable_of_iff' _ (Iff.of_eq (k0_chk74.eq_1 v660))
theorem k0_off148_inb : ∀ (v660 : BitVec 32) (k0_hw74 : k0_chk74 v660), ∀ a, (k0_off148 v660) a + S1x1x128.size a ≤ S2097152x1x128.size a := fun v660 k0_hw74 => k0_hw74.1
theorem k0_off330_inb : ∀ (v660 : BitVec 32) (k0_hw74 : k0_chk74 v660), ∀ a, (k0_off330 v660) a + S1x1x128.size a ≤ S2097152x1x128.size a := fun v660 k0_hw74 => k0_hw74.2

def k0_off331 (v669 : BitVec 32) : Fin 3 → Nat :=
  let c0_i32_1216 : BitVec 32 := 0#32
  let c0_i32_1217 : BitVec 32 := 0#32
  ![v669.toNat, 0, 0]

def k0_chk75 (v669 : BitVec 32) : Prop :=
  (∀ a, (k0_off150 v669) a + S1x1x128.size a ≤ S2097152x1x128.size a) ∧
  (∀ a, (k0_off331 v669) a + S1x1x128.size a ≤ S2097152x1x128.size a)
instance k0_chk75.dec : ∀ (v669 : BitVec 32), Decidable (k0_chk75 v669) := fun v669 => decidable_of_iff' _ (Iff.of_eq (k0_chk75.eq_1 v669))
theorem k0_off150_inb : ∀ (v669 : BitVec 32) (k0_hw75 : k0_chk75 v669), ∀ a, (k0_off150 v669) a + S1x1x128.size a ≤ S2097152x1x128.size a := fun v669 k0_hw75 => k0_hw75.1
theorem k0_off331_inb : ∀ (v669 : BitVec 32) (k0_hw75 : k0_chk75 v669), ∀ a, (k0_off331 v669) a + S1x1x128.size a ≤ S2097152x1x128.size a := fun v669 k0_hw75 => k0_hw75.2

def k0_off332 (v678 : BitVec 32) : Fin 3 → Nat :=
  let c0_i32_1222 : BitVec 32 := 0#32
  let c0_i32_1223 : BitVec 32 := 0#32
  ![v678.toNat, 0, 0]

def k0_chk76 (v678 : BitVec 32) : Prop :=
  (∀ a, (k0_off152 v678) a + S1x1x128.size a ≤ S2097152x1x128.size a) ∧
  (∀ a, (k0_off332 v678) a + S1x1x128.size a ≤ S2097152x1x128.size a)
instance k0_chk76.dec : ∀ (v678 : BitVec 32), Decidable (k0_chk76 v678) := fun v678 => decidable_of_iff' _ (Iff.of_eq (k0_chk76.eq_1 v678))
theorem k0_off152_inb : ∀ (v678 : BitVec 32) (k0_hw76 : k0_chk76 v678), ∀ a, (k0_off152 v678) a + S1x1x128.size a ≤ S2097152x1x128.size a := fun v678 k0_hw76 => k0_hw76.1
theorem k0_off332_inb : ∀ (v678 : BitVec 32) (k0_hw76 : k0_chk76 v678), ∀ a, (k0_off332 v678) a + S1x1x128.size a ≤ S2097152x1x128.size a := fun v678 k0_hw76 => k0_hw76.2

def k0_off333 (v687 : BitVec 32) : Fin 3 → Nat :=
  let c0_i32_1228 : BitVec 32 := 0#32
  let c0_i32_1229 : BitVec 32 := 0#32
  ![v687.toNat, 0, 0]

def k0_chk77 (v687 : BitVec 32) : Prop :=
  (∀ a, (k0_off154 v687) a + S1x1x128.size a ≤ S2097152x1x128.size a) ∧
  (∀ a, (k0_off333 v687) a + S1x1x128.size a ≤ S2097152x1x128.size a)
instance k0_chk77.dec : ∀ (v687 : BitVec 32), Decidable (k0_chk77 v687) := fun v687 => decidable_of_iff' _ (Iff.of_eq (k0_chk77.eq_1 v687))
theorem k0_off154_inb : ∀ (v687 : BitVec 32) (k0_hw77 : k0_chk77 v687), ∀ a, (k0_off154 v687) a + S1x1x128.size a ≤ S2097152x1x128.size a := fun v687 k0_hw77 => k0_hw77.1
theorem k0_off333_inb : ∀ (v687 : BitVec 32) (k0_hw77 : k0_chk77 v687), ∀ a, (k0_off333 v687) a + S1x1x128.size a ≤ S2097152x1x128.size a := fun v687 k0_hw77 => k0_hw77.2

def k0_off334 (v696 : BitVec 32) : Fin 3 → Nat :=
  let c0_i32_1234 : BitVec 32 := 0#32
  let c0_i32_1235 : BitVec 32 := 0#32
  ![v696.toNat, 0, 0]

def k0_chk78 (v696 : BitVec 32) : Prop :=
  (∀ a, (k0_off156 v696) a + S1x1x128.size a ≤ S2097152x1x128.size a) ∧
  (∀ a, (k0_off334 v696) a + S1x1x128.size a ≤ S2097152x1x128.size a)
instance k0_chk78.dec : ∀ (v696 : BitVec 32), Decidable (k0_chk78 v696) := fun v696 => decidable_of_iff' _ (Iff.of_eq (k0_chk78.eq_1 v696))
theorem k0_off156_inb : ∀ (v696 : BitVec 32) (k0_hw78 : k0_chk78 v696), ∀ a, (k0_off156 v696) a + S1x1x128.size a ≤ S2097152x1x128.size a := fun v696 k0_hw78 => k0_hw78.1
theorem k0_off334_inb : ∀ (v696 : BitVec 32) (k0_hw78 : k0_chk78 v696), ∀ a, (k0_off334 v696) a + S1x1x128.size a ≤ S2097152x1x128.size a := fun v696 k0_hw78 => k0_hw78.2

def k0_off335 (v705 : BitVec 32) : Fin 3 → Nat :=
  let c0_i32_1240 : BitVec 32 := 0#32
  let c0_i32_1241 : BitVec 32 := 0#32
  ![v705.toNat, 0, 0]

def k0_chk79 (v705 : BitVec 32) : Prop :=
  (∀ a, (k0_off158 v705) a + S1x1x128.size a ≤ S2097152x1x128.size a) ∧
  (∀ a, (k0_off335 v705) a + S1x1x128.size a ≤ S2097152x1x128.size a)
instance k0_chk79.dec : ∀ (v705 : BitVec 32), Decidable (k0_chk79 v705) := fun v705 => decidable_of_iff' _ (Iff.of_eq (k0_chk79.eq_1 v705))
theorem k0_off158_inb : ∀ (v705 : BitVec 32) (k0_hw79 : k0_chk79 v705), ∀ a, (k0_off158 v705) a + S1x1x128.size a ≤ S2097152x1x128.size a := fun v705 k0_hw79 => k0_hw79.1
theorem k0_off335_inb : ∀ (v705 : BitVec 32) (k0_hw79 : k0_chk79 v705), ∀ a, (k0_off335 v705) a + S1x1x128.size a ≤ S2097152x1x128.size a := fun v705 k0_hw79 => k0_hw79.2

def k0_off336 (v714 : BitVec 32) : Fin 3 → Nat :=
  let c0_i32_1246 : BitVec 32 := 0#32
  let c0_i32_1247 : BitVec 32 := 0#32
  ![v714.toNat, 0, 0]

def k0_chk80 (v714 : BitVec 32) : Prop :=
  (∀ a, (k0_off160 v714) a + S1x1x128.size a ≤ S2097152x1x128.size a) ∧
  (∀ a, (k0_off336 v714) a + S1x1x128.size a ≤ S2097152x1x128.size a)
instance k0_chk80.dec : ∀ (v714 : BitVec 32), Decidable (k0_chk80 v714) := fun v714 => decidable_of_iff' _ (Iff.of_eq (k0_chk80.eq_1 v714))
theorem k0_off160_inb : ∀ (v714 : BitVec 32) (k0_hw80 : k0_chk80 v714), ∀ a, (k0_off160 v714) a + S1x1x128.size a ≤ S2097152x1x128.size a := fun v714 k0_hw80 => k0_hw80.1
theorem k0_off336_inb : ∀ (v714 : BitVec 32) (k0_hw80 : k0_chk80 v714), ∀ a, (k0_off336 v714) a + S1x1x128.size a ≤ S2097152x1x128.size a := fun v714 k0_hw80 => k0_hw80.2

def k0_off337 (v723 : BitVec 32) : Fin 3 → Nat :=
  let c0_i32_1252 : BitVec 32 := 0#32
  let c0_i32_1253 : BitVec 32 := 0#32
  ![v723.toNat, 0, 0]

def k0_chk81 (v723 : BitVec 32) : Prop :=
  (∀ a, (k0_off162 v723) a + S1x1x128.size a ≤ S2097152x1x128.size a) ∧
  (∀ a, (k0_off337 v723) a + S1x1x128.size a ≤ S2097152x1x128.size a)
instance k0_chk81.dec : ∀ (v723 : BitVec 32), Decidable (k0_chk81 v723) := fun v723 => decidable_of_iff' _ (Iff.of_eq (k0_chk81.eq_1 v723))
theorem k0_off162_inb : ∀ (v723 : BitVec 32) (k0_hw81 : k0_chk81 v723), ∀ a, (k0_off162 v723) a + S1x1x128.size a ≤ S2097152x1x128.size a := fun v723 k0_hw81 => k0_hw81.1
theorem k0_off337_inb : ∀ (v723 : BitVec 32) (k0_hw81 : k0_chk81 v723), ∀ a, (k0_off337 v723) a + S1x1x128.size a ≤ S2097152x1x128.size a := fun v723 k0_hw81 => k0_hw81.2

def k0_off338 (v732 : BitVec 32) : Fin 3 → Nat :=
  let c0_i32_1258 : BitVec 32 := 0#32
  let c0_i32_1259 : BitVec 32 := 0#32
  ![v732.toNat, 0, 0]

def k0_chk82 (v732 : BitVec 32) : Prop :=
  (∀ a, (k0_off164 v732) a + S1x1x128.size a ≤ S2097152x1x128.size a) ∧
  (∀ a, (k0_off338 v732) a + S1x1x128.size a ≤ S2097152x1x128.size a)
instance k0_chk82.dec : ∀ (v732 : BitVec 32), Decidable (k0_chk82 v732) := fun v732 => decidable_of_iff' _ (Iff.of_eq (k0_chk82.eq_1 v732))
theorem k0_off164_inb : ∀ (v732 : BitVec 32) (k0_hw82 : k0_chk82 v732), ∀ a, (k0_off164 v732) a + S1x1x128.size a ≤ S2097152x1x128.size a := fun v732 k0_hw82 => k0_hw82.1
theorem k0_off338_inb : ∀ (v732 : BitVec 32) (k0_hw82 : k0_chk82 v732), ∀ a, (k0_off338 v732) a + S1x1x128.size a ≤ S2097152x1x128.size a := fun v732 k0_hw82 => k0_hw82.2

def k0_off339 (v741 : BitVec 32) : Fin 3 → Nat :=
  let c0_i32_1264 : BitVec 32 := 0#32
  let c0_i32_1265 : BitVec 32 := 0#32
  ![v741.toNat, 0, 0]

def k0_chk83 (v741 : BitVec 32) : Prop :=
  (∀ a, (k0_off166 v741) a + S1x1x128.size a ≤ S2097152x1x128.size a) ∧
  (∀ a, (k0_off339 v741) a + S1x1x128.size a ≤ S2097152x1x128.size a)
instance k0_chk83.dec : ∀ (v741 : BitVec 32), Decidable (k0_chk83 v741) := fun v741 => decidable_of_iff' _ (Iff.of_eq (k0_chk83.eq_1 v741))
theorem k0_off166_inb : ∀ (v741 : BitVec 32) (k0_hw83 : k0_chk83 v741), ∀ a, (k0_off166 v741) a + S1x1x128.size a ≤ S2097152x1x128.size a := fun v741 k0_hw83 => k0_hw83.1
theorem k0_off339_inb : ∀ (v741 : BitVec 32) (k0_hw83 : k0_chk83 v741), ∀ a, (k0_off339 v741) a + S1x1x128.size a ≤ S2097152x1x128.size a := fun v741 k0_hw83 => k0_hw83.2

def k0_off340 (v750 : BitVec 32) : Fin 3 → Nat :=
  let c0_i32_1270 : BitVec 32 := 0#32
  let c0_i32_1271 : BitVec 32 := 0#32
  ![v750.toNat, 0, 0]

def k0_chk84 (v750 : BitVec 32) : Prop :=
  (∀ a, (k0_off168 v750) a + S1x1x128.size a ≤ S2097152x1x128.size a) ∧
  (∀ a, (k0_off340 v750) a + S1x1x128.size a ≤ S2097152x1x128.size a)
instance k0_chk84.dec : ∀ (v750 : BitVec 32), Decidable (k0_chk84 v750) := fun v750 => decidable_of_iff' _ (Iff.of_eq (k0_chk84.eq_1 v750))
theorem k0_off168_inb : ∀ (v750 : BitVec 32) (k0_hw84 : k0_chk84 v750), ∀ a, (k0_off168 v750) a + S1x1x128.size a ≤ S2097152x1x128.size a := fun v750 k0_hw84 => k0_hw84.1
theorem k0_off340_inb : ∀ (v750 : BitVec 32) (k0_hw84 : k0_chk84 v750), ∀ a, (k0_off340 v750) a + S1x1x128.size a ≤ S2097152x1x128.size a := fun v750 k0_hw84 => k0_hw84.2

def k0_off341 (v759 : BitVec 32) : Fin 3 → Nat :=
  let c0_i32_1276 : BitVec 32 := 0#32
  let c0_i32_1277 : BitVec 32 := 0#32
  ![v759.toNat, 0, 0]

def k0_chk85 (v759 : BitVec 32) : Prop :=
  (∀ a, (k0_off170 v759) a + S1x1x128.size a ≤ S2097152x1x128.size a) ∧
  (∀ a, (k0_off341 v759) a + S1x1x128.size a ≤ S2097152x1x128.size a)
instance k0_chk85.dec : ∀ (v759 : BitVec 32), Decidable (k0_chk85 v759) := fun v759 => decidable_of_iff' _ (Iff.of_eq (k0_chk85.eq_1 v759))
theorem k0_off170_inb : ∀ (v759 : BitVec 32) (k0_hw85 : k0_chk85 v759), ∀ a, (k0_off170 v759) a + S1x1x128.size a ≤ S2097152x1x128.size a := fun v759 k0_hw85 => k0_hw85.1
theorem k0_off341_inb : ∀ (v759 : BitVec 32) (k0_hw85 : k0_chk85 v759), ∀ a, (k0_off341 v759) a + S1x1x128.size a ≤ S2097152x1x128.size a := fun v759 k0_hw85 => k0_hw85.2

def k0_off342 (v768 : BitVec 32) : Fin 3 → Nat :=
  let c0_i32_1282 : BitVec 32 := 0#32
  let c0_i32_1283 : BitVec 32 := 0#32
  ![v768.toNat, 0, 0]

def k0_chk86 (v768 : BitVec 32) : Prop :=
  (∀ a, (k0_off172 v768) a + S1x1x128.size a ≤ S2097152x1x128.size a) ∧
  (∀ a, (k0_off342 v768) a + S1x1x128.size a ≤ S2097152x1x128.size a)
instance k0_chk86.dec : ∀ (v768 : BitVec 32), Decidable (k0_chk86 v768) := fun v768 => decidable_of_iff' _ (Iff.of_eq (k0_chk86.eq_1 v768))
theorem k0_off172_inb : ∀ (v768 : BitVec 32) (k0_hw86 : k0_chk86 v768), ∀ a, (k0_off172 v768) a + S1x1x128.size a ≤ S2097152x1x128.size a := fun v768 k0_hw86 => k0_hw86.1
theorem k0_off342_inb : ∀ (v768 : BitVec 32) (k0_hw86 : k0_chk86 v768), ∀ a, (k0_off342 v768) a + S1x1x128.size a ≤ S2097152x1x128.size a := fun v768 k0_hw86 => k0_hw86.2

def k0_off343 (v777 : BitVec 32) : Fin 3 → Nat :=
  let c0_i32_1288 : BitVec 32 := 0#32
  let c0_i32_1289 : BitVec 32 := 0#32
  ![v777.toNat, 0, 0]

def k0_chk87 (v777 : BitVec 32) : Prop :=
  (∀ a, (k0_off174 v777) a + S1x1x128.size a ≤ S2097152x1x128.size a) ∧
  (∀ a, (k0_off343 v777) a + S1x1x128.size a ≤ S2097152x1x128.size a)
instance k0_chk87.dec : ∀ (v777 : BitVec 32), Decidable (k0_chk87 v777) := fun v777 => decidable_of_iff' _ (Iff.of_eq (k0_chk87.eq_1 v777))
theorem k0_off174_inb : ∀ (v777 : BitVec 32) (k0_hw87 : k0_chk87 v777), ∀ a, (k0_off174 v777) a + S1x1x128.size a ≤ S2097152x1x128.size a := fun v777 k0_hw87 => k0_hw87.1
theorem k0_off343_inb : ∀ (v777 : BitVec 32) (k0_hw87 : k0_chk87 v777), ∀ a, (k0_off343 v777) a + S1x1x128.size a ≤ S2097152x1x128.size a := fun v777 k0_hw87 => k0_hw87.2

def k0_off344 (v786 : BitVec 32) : Fin 3 → Nat :=
  let c0_i32_1294 : BitVec 32 := 0#32
  let c0_i32_1295 : BitVec 32 := 0#32
  ![v786.toNat, 0, 0]

def k0_chk88 (v786 : BitVec 32) : Prop :=
  (∀ a, (k0_off176 v786) a + S1x1x128.size a ≤ S2097152x1x128.size a) ∧
  (∀ a, (k0_off344 v786) a + S1x1x128.size a ≤ S2097152x1x128.size a)
instance k0_chk88.dec : ∀ (v786 : BitVec 32), Decidable (k0_chk88 v786) := fun v786 => decidable_of_iff' _ (Iff.of_eq (k0_chk88.eq_1 v786))
theorem k0_off176_inb : ∀ (v786 : BitVec 32) (k0_hw88 : k0_chk88 v786), ∀ a, (k0_off176 v786) a + S1x1x128.size a ≤ S2097152x1x128.size a := fun v786 k0_hw88 => k0_hw88.1
theorem k0_off344_inb : ∀ (v786 : BitVec 32) (k0_hw88 : k0_chk88 v786), ∀ a, (k0_off344 v786) a + S1x1x128.size a ≤ S2097152x1x128.size a := fun v786 k0_hw88 => k0_hw88.2

def k0_off345 (v795 : BitVec 32) : Fin 3 → Nat :=
  let c0_i32_1300 : BitVec 32 := 0#32
  let c0_i32_1301 : BitVec 32 := 0#32
  ![v795.toNat, 0, 0]

def k0_chk89 (v795 : BitVec 32) : Prop :=
  (∀ a, (k0_off178 v795) a + S1x1x128.size a ≤ S2097152x1x128.size a) ∧
  (∀ a, (k0_off345 v795) a + S1x1x128.size a ≤ S2097152x1x128.size a)
instance k0_chk89.dec : ∀ (v795 : BitVec 32), Decidable (k0_chk89 v795) := fun v795 => decidable_of_iff' _ (Iff.of_eq (k0_chk89.eq_1 v795))
theorem k0_off178_inb : ∀ (v795 : BitVec 32) (k0_hw89 : k0_chk89 v795), ∀ a, (k0_off178 v795) a + S1x1x128.size a ≤ S2097152x1x128.size a := fun v795 k0_hw89 => k0_hw89.1
theorem k0_off345_inb : ∀ (v795 : BitVec 32) (k0_hw89 : k0_chk89 v795), ∀ a, (k0_off345 v795) a + S1x1x128.size a ≤ S2097152x1x128.size a := fun v795 k0_hw89 => k0_hw89.2

def k0_off346 (v804 : BitVec 32) : Fin 3 → Nat :=
  let c0_i32_1306 : BitVec 32 := 0#32
  let c0_i32_1307 : BitVec 32 := 0#32
  ![v804.toNat, 0, 0]

def k0_chk90 (v804 : BitVec 32) : Prop :=
  (∀ a, (k0_off180 v804) a + S1x1x128.size a ≤ S2097152x1x128.size a) ∧
  (∀ a, (k0_off346 v804) a + S1x1x128.size a ≤ S2097152x1x128.size a)
instance k0_chk90.dec : ∀ (v804 : BitVec 32), Decidable (k0_chk90 v804) := fun v804 => decidable_of_iff' _ (Iff.of_eq (k0_chk90.eq_1 v804))
theorem k0_off180_inb : ∀ (v804 : BitVec 32) (k0_hw90 : k0_chk90 v804), ∀ a, (k0_off180 v804) a + S1x1x128.size a ≤ S2097152x1x128.size a := fun v804 k0_hw90 => k0_hw90.1
theorem k0_off346_inb : ∀ (v804 : BitVec 32) (k0_hw90 : k0_chk90 v804), ∀ a, (k0_off346 v804) a + S1x1x128.size a ≤ S2097152x1x128.size a := fun v804 k0_hw90 => k0_hw90.2

def k0_off347 (v813 : BitVec 32) : Fin 3 → Nat :=
  let c0_i32_1312 : BitVec 32 := 0#32
  let c0_i32_1313 : BitVec 32 := 0#32
  ![v813.toNat, 0, 0]

def k0_chk91 (v813 : BitVec 32) : Prop :=
  (∀ a, (k0_off182 v813) a + S1x1x128.size a ≤ S2097152x1x128.size a) ∧
  (∀ a, (k0_off347 v813) a + S1x1x128.size a ≤ S2097152x1x128.size a)
instance k0_chk91.dec : ∀ (v813 : BitVec 32), Decidable (k0_chk91 v813) := fun v813 => decidable_of_iff' _ (Iff.of_eq (k0_chk91.eq_1 v813))
theorem k0_off182_inb : ∀ (v813 : BitVec 32) (k0_hw91 : k0_chk91 v813), ∀ a, (k0_off182 v813) a + S1x1x128.size a ≤ S2097152x1x128.size a := fun v813 k0_hw91 => k0_hw91.1
theorem k0_off347_inb : ∀ (v813 : BitVec 32) (k0_hw91 : k0_chk91 v813), ∀ a, (k0_off347 v813) a + S1x1x128.size a ≤ S2097152x1x128.size a := fun v813 k0_hw91 => k0_hw91.2

def k0_off348 (v822 : BitVec 32) : Fin 3 → Nat :=
  let c0_i32_1318 : BitVec 32 := 0#32
  let c0_i32_1319 : BitVec 32 := 0#32
  ![v822.toNat, 0, 0]

def k0_chk92 (v822 : BitVec 32) : Prop :=
  (∀ a, (k0_off184 v822) a + S1x1x128.size a ≤ S2097152x1x128.size a) ∧
  (∀ a, (k0_off348 v822) a + S1x1x128.size a ≤ S2097152x1x128.size a)
instance k0_chk92.dec : ∀ (v822 : BitVec 32), Decidable (k0_chk92 v822) := fun v822 => decidable_of_iff' _ (Iff.of_eq (k0_chk92.eq_1 v822))
theorem k0_off184_inb : ∀ (v822 : BitVec 32) (k0_hw92 : k0_chk92 v822), ∀ a, (k0_off184 v822) a + S1x1x128.size a ≤ S2097152x1x128.size a := fun v822 k0_hw92 => k0_hw92.1
theorem k0_off348_inb : ∀ (v822 : BitVec 32) (k0_hw92 : k0_chk92 v822), ∀ a, (k0_off348 v822) a + S1x1x128.size a ≤ S2097152x1x128.size a := fun v822 k0_hw92 => k0_hw92.2

def k0_off349 (v831 : BitVec 32) : Fin 3 → Nat :=
  let c0_i32_1324 : BitVec 32 := 0#32
  let c0_i32_1325 : BitVec 32 := 0#32
  ![v831.toNat, 0, 0]

def k0_chk93 (v831 : BitVec 32) : Prop :=
  (∀ a, (k0_off186 v831) a + S1x1x128.size a ≤ S2097152x1x128.size a) ∧
  (∀ a, (k0_off349 v831) a + S1x1x128.size a ≤ S2097152x1x128.size a)
instance k0_chk93.dec : ∀ (v831 : BitVec 32), Decidable (k0_chk93 v831) := fun v831 => decidable_of_iff' _ (Iff.of_eq (k0_chk93.eq_1 v831))
theorem k0_off186_inb : ∀ (v831 : BitVec 32) (k0_hw93 : k0_chk93 v831), ∀ a, (k0_off186 v831) a + S1x1x128.size a ≤ S2097152x1x128.size a := fun v831 k0_hw93 => k0_hw93.1
theorem k0_off349_inb : ∀ (v831 : BitVec 32) (k0_hw93 : k0_chk93 v831), ∀ a, (k0_off349 v831) a + S1x1x128.size a ≤ S2097152x1x128.size a := fun v831 k0_hw93 => k0_hw93.2

def k0_off350 (v840 : BitVec 32) : Fin 3 → Nat :=
  let c0_i32_1330 : BitVec 32 := 0#32
  let c0_i32_1331 : BitVec 32 := 0#32
  ![v840.toNat, 0, 0]

def k0_chk94 (v840 : BitVec 32) : Prop :=
  (∀ a, (k0_off188 v840) a + S1x1x128.size a ≤ S2097152x1x128.size a) ∧
  (∀ a, (k0_off350 v840) a + S1x1x128.size a ≤ S2097152x1x128.size a)
instance k0_chk94.dec : ∀ (v840 : BitVec 32), Decidable (k0_chk94 v840) := fun v840 => decidable_of_iff' _ (Iff.of_eq (k0_chk94.eq_1 v840))
theorem k0_off188_inb : ∀ (v840 : BitVec 32) (k0_hw94 : k0_chk94 v840), ∀ a, (k0_off188 v840) a + S1x1x128.size a ≤ S2097152x1x128.size a := fun v840 k0_hw94 => k0_hw94.1
theorem k0_off350_inb : ∀ (v840 : BitVec 32) (k0_hw94 : k0_chk94 v840), ∀ a, (k0_off350 v840) a + S1x1x128.size a ≤ S2097152x1x128.size a := fun v840 k0_hw94 => k0_hw94.2

def k0_off351 (v849 : BitVec 32) : Fin 3 → Nat :=
  let c0_i32_1336 : BitVec 32 := 0#32
  let c0_i32_1337 : BitVec 32 := 0#32
  ![v849.toNat, 0, 0]

def k0_chk95 (v849 : BitVec 32) : Prop :=
  (∀ a, (k0_off190 v849) a + S1x1x128.size a ≤ S2097152x1x128.size a) ∧
  (∀ a, (k0_off351 v849) a + S1x1x128.size a ≤ S2097152x1x128.size a)
instance k0_chk95.dec : ∀ (v849 : BitVec 32), Decidable (k0_chk95 v849) := fun v849 => decidable_of_iff' _ (Iff.of_eq (k0_chk95.eq_1 v849))
theorem k0_off190_inb : ∀ (v849 : BitVec 32) (k0_hw95 : k0_chk95 v849), ∀ a, (k0_off190 v849) a + S1x1x128.size a ≤ S2097152x1x128.size a := fun v849 k0_hw95 => k0_hw95.1
theorem k0_off351_inb : ∀ (v849 : BitVec 32) (k0_hw95 : k0_chk95 v849), ∀ a, (k0_off351 v849) a + S1x1x128.size a ≤ S2097152x1x128.size a := fun v849 k0_hw95 => k0_hw95.2

def k0_off352 (v858 : BitVec 32) : Fin 3 → Nat :=
  let c0_i32_1342 : BitVec 32 := 0#32
  let c0_i32_1343 : BitVec 32 := 0#32
  ![v858.toNat, 0, 0]

def k0_chk96 (v858 : BitVec 32) : Prop :=
  (∀ a, (k0_off192 v858) a + S1x1x128.size a ≤ S2097152x1x128.size a) ∧
  (∀ a, (k0_off352 v858) a + S1x1x128.size a ≤ S2097152x1x128.size a)
instance k0_chk96.dec : ∀ (v858 : BitVec 32), Decidable (k0_chk96 v858) := fun v858 => decidable_of_iff' _ (Iff.of_eq (k0_chk96.eq_1 v858))
theorem k0_off192_inb : ∀ (v858 : BitVec 32) (k0_hw96 : k0_chk96 v858), ∀ a, (k0_off192 v858) a + S1x1x128.size a ≤ S2097152x1x128.size a := fun v858 k0_hw96 => k0_hw96.1
theorem k0_off352_inb : ∀ (v858 : BitVec 32) (k0_hw96 : k0_chk96 v858), ∀ a, (k0_off352 v858) a + S1x1x128.size a ≤ S2097152x1x128.size a := fun v858 k0_hw96 => k0_hw96.2

def k0_off353 (v867 : BitVec 32) : Fin 3 → Nat :=
  let c0_i32_1348 : BitVec 32 := 0#32
  let c0_i32_1349 : BitVec 32 := 0#32
  ![v867.toNat, 0, 0]

def k0_chk97 (v867 : BitVec 32) : Prop :=
  (∀ a, (k0_off194 v867) a + S1x1x128.size a ≤ S2097152x1x128.size a) ∧
  (∀ a, (k0_off353 v867) a + S1x1x128.size a ≤ S2097152x1x128.size a)
instance k0_chk97.dec : ∀ (v867 : BitVec 32), Decidable (k0_chk97 v867) := fun v867 => decidable_of_iff' _ (Iff.of_eq (k0_chk97.eq_1 v867))
theorem k0_off194_inb : ∀ (v867 : BitVec 32) (k0_hw97 : k0_chk97 v867), ∀ a, (k0_off194 v867) a + S1x1x128.size a ≤ S2097152x1x128.size a := fun v867 k0_hw97 => k0_hw97.1
theorem k0_off353_inb : ∀ (v867 : BitVec 32) (k0_hw97 : k0_chk97 v867), ∀ a, (k0_off353 v867) a + S1x1x128.size a ≤ S2097152x1x128.size a := fun v867 k0_hw97 => k0_hw97.2

def k0_off354 (v876 : BitVec 32) : Fin 3 → Nat :=
  let c0_i32_1354 : BitVec 32 := 0#32
  let c0_i32_1355 : BitVec 32 := 0#32
  ![v876.toNat, 0, 0]

def k0_chk98 (v876 : BitVec 32) : Prop :=
  (∀ a, (k0_off196 v876) a + S1x1x128.size a ≤ S2097152x1x128.size a) ∧
  (∀ a, (k0_off354 v876) a + S1x1x128.size a ≤ S2097152x1x128.size a)
instance k0_chk98.dec : ∀ (v876 : BitVec 32), Decidable (k0_chk98 v876) := fun v876 => decidable_of_iff' _ (Iff.of_eq (k0_chk98.eq_1 v876))
theorem k0_off196_inb : ∀ (v876 : BitVec 32) (k0_hw98 : k0_chk98 v876), ∀ a, (k0_off196 v876) a + S1x1x128.size a ≤ S2097152x1x128.size a := fun v876 k0_hw98 => k0_hw98.1
theorem k0_off354_inb : ∀ (v876 : BitVec 32) (k0_hw98 : k0_chk98 v876), ∀ a, (k0_off354 v876) a + S1x1x128.size a ≤ S2097152x1x128.size a := fun v876 k0_hw98 => k0_hw98.2

def k0_off355 (v885 : BitVec 32) : Fin 3 → Nat :=
  let c0_i32_1360 : BitVec 32 := 0#32
  let c0_i32_1361 : BitVec 32 := 0#32
  ![v885.toNat, 0, 0]

def k0_chk99 (v885 : BitVec 32) : Prop :=
  (∀ a, (k0_off198 v885) a + S1x1x128.size a ≤ S2097152x1x128.size a) ∧
  (∀ a, (k0_off355 v885) a + S1x1x128.size a ≤ S2097152x1x128.size a)
instance k0_chk99.dec : ∀ (v885 : BitVec 32), Decidable (k0_chk99 v885) := fun v885 => decidable_of_iff' _ (Iff.of_eq (k0_chk99.eq_1 v885))
theorem k0_off198_inb : ∀ (v885 : BitVec 32) (k0_hw99 : k0_chk99 v885), ∀ a, (k0_off198 v885) a + S1x1x128.size a ≤ S2097152x1x128.size a := fun v885 k0_hw99 => k0_hw99.1
theorem k0_off355_inb : ∀ (v885 : BitVec 32) (k0_hw99 : k0_chk99 v885), ∀ a, (k0_off355 v885) a + S1x1x128.size a ≤ S2097152x1x128.size a := fun v885 k0_hw99 => k0_hw99.2

def k0_off356 (v894 : BitVec 32) : Fin 3 → Nat :=
  let c0_i32_1366 : BitVec 32 := 0#32
  let c0_i32_1367 : BitVec 32 := 0#32
  ![v894.toNat, 0, 0]

def k0_chk100 (v894 : BitVec 32) : Prop :=
  (∀ a, (k0_off200 v894) a + S1x1x128.size a ≤ S2097152x1x128.size a) ∧
  (∀ a, (k0_off356 v894) a + S1x1x128.size a ≤ S2097152x1x128.size a)
instance k0_chk100.dec : ∀ (v894 : BitVec 32), Decidable (k0_chk100 v894) := fun v894 => decidable_of_iff' _ (Iff.of_eq (k0_chk100.eq_1 v894))
theorem k0_off200_inb : ∀ (v894 : BitVec 32) (k0_hw100 : k0_chk100 v894), ∀ a, (k0_off200 v894) a + S1x1x128.size a ≤ S2097152x1x128.size a := fun v894 k0_hw100 => k0_hw100.1
theorem k0_off356_inb : ∀ (v894 : BitVec 32) (k0_hw100 : k0_chk100 v894), ∀ a, (k0_off356 v894) a + S1x1x128.size a ≤ S2097152x1x128.size a := fun v894 k0_hw100 => k0_hw100.2

def k0_off357 (v903 : BitVec 32) : Fin 3 → Nat :=
  let c0_i32_1372 : BitVec 32 := 0#32
  let c0_i32_1373 : BitVec 32 := 0#32
  ![v903.toNat, 0, 0]

def k0_chk101 (v903 : BitVec 32) : Prop :=
  (∀ a, (k0_off202 v903) a + S1x1x128.size a ≤ S2097152x1x128.size a) ∧
  (∀ a, (k0_off357 v903) a + S1x1x128.size a ≤ S2097152x1x128.size a)
instance k0_chk101.dec : ∀ (v903 : BitVec 32), Decidable (k0_chk101 v903) := fun v903 => decidable_of_iff' _ (Iff.of_eq (k0_chk101.eq_1 v903))
theorem k0_off202_inb : ∀ (v903 : BitVec 32) (k0_hw101 : k0_chk101 v903), ∀ a, (k0_off202 v903) a + S1x1x128.size a ≤ S2097152x1x128.size a := fun v903 k0_hw101 => k0_hw101.1
theorem k0_off357_inb : ∀ (v903 : BitVec 32) (k0_hw101 : k0_chk101 v903), ∀ a, (k0_off357 v903) a + S1x1x128.size a ≤ S2097152x1x128.size a := fun v903 k0_hw101 => k0_hw101.2

def k0_off358 (v912 : BitVec 32) : Fin 3 → Nat :=
  let c0_i32_1378 : BitVec 32 := 0#32
  let c0_i32_1379 : BitVec 32 := 0#32
  ![v912.toNat, 0, 0]

def k0_chk102 (v912 : BitVec 32) : Prop :=
  (∀ a, (k0_off204 v912) a + S1x1x128.size a ≤ S2097152x1x128.size a) ∧
  (∀ a, (k0_off358 v912) a + S1x1x128.size a ≤ S2097152x1x128.size a)
instance k0_chk102.dec : ∀ (v912 : BitVec 32), Decidable (k0_chk102 v912) := fun v912 => decidable_of_iff' _ (Iff.of_eq (k0_chk102.eq_1 v912))
theorem k0_off204_inb : ∀ (v912 : BitVec 32) (k0_hw102 : k0_chk102 v912), ∀ a, (k0_off204 v912) a + S1x1x128.size a ≤ S2097152x1x128.size a := fun v912 k0_hw102 => k0_hw102.1
theorem k0_off358_inb : ∀ (v912 : BitVec 32) (k0_hw102 : k0_chk102 v912), ∀ a, (k0_off358 v912) a + S1x1x128.size a ≤ S2097152x1x128.size a := fun v912 k0_hw102 => k0_hw102.2

def k0_off359 (v921 : BitVec 32) : Fin 3 → Nat :=
  let c0_i32_1384 : BitVec 32 := 0#32
  let c0_i32_1385 : BitVec 32 := 0#32
  ![v921.toNat, 0, 0]

def k0_chk103 (v921 : BitVec 32) : Prop :=
  (∀ a, (k0_off206 v921) a + S1x1x128.size a ≤ S2097152x1x128.size a) ∧
  (∀ a, (k0_off359 v921) a + S1x1x128.size a ≤ S2097152x1x128.size a)
instance k0_chk103.dec : ∀ (v921 : BitVec 32), Decidable (k0_chk103 v921) := fun v921 => decidable_of_iff' _ (Iff.of_eq (k0_chk103.eq_1 v921))
theorem k0_off206_inb : ∀ (v921 : BitVec 32) (k0_hw103 : k0_chk103 v921), ∀ a, (k0_off206 v921) a + S1x1x128.size a ≤ S2097152x1x128.size a := fun v921 k0_hw103 => k0_hw103.1
theorem k0_off359_inb : ∀ (v921 : BitVec 32) (k0_hw103 : k0_chk103 v921), ∀ a, (k0_off359 v921) a + S1x1x128.size a ≤ S2097152x1x128.size a := fun v921 k0_hw103 => k0_hw103.2

def k0_off360 (v930 : BitVec 32) : Fin 3 → Nat :=
  let c0_i32_1390 : BitVec 32 := 0#32
  let c0_i32_1391 : BitVec 32 := 0#32
  ![v930.toNat, 0, 0]

def k0_chk104 (v930 : BitVec 32) : Prop :=
  (∀ a, (k0_off208 v930) a + S1x1x128.size a ≤ S2097152x1x128.size a) ∧
  (∀ a, (k0_off360 v930) a + S1x1x128.size a ≤ S2097152x1x128.size a)
instance k0_chk104.dec : ∀ (v930 : BitVec 32), Decidable (k0_chk104 v930) := fun v930 => decidable_of_iff' _ (Iff.of_eq (k0_chk104.eq_1 v930))
theorem k0_off208_inb : ∀ (v930 : BitVec 32) (k0_hw104 : k0_chk104 v930), ∀ a, (k0_off208 v930) a + S1x1x128.size a ≤ S2097152x1x128.size a := fun v930 k0_hw104 => k0_hw104.1
theorem k0_off360_inb : ∀ (v930 : BitVec 32) (k0_hw104 : k0_chk104 v930), ∀ a, (k0_off360 v930) a + S1x1x128.size a ≤ S2097152x1x128.size a := fun v930 k0_hw104 => k0_hw104.2

def k0_off361 (v939 : BitVec 32) : Fin 3 → Nat :=
  let c0_i32_1396 : BitVec 32 := 0#32
  let c0_i32_1397 : BitVec 32 := 0#32
  ![v939.toNat, 0, 0]

def k0_chk105 (v939 : BitVec 32) : Prop :=
  (∀ a, (k0_off210 v939) a + S1x1x128.size a ≤ S2097152x1x128.size a) ∧
  (∀ a, (k0_off361 v939) a + S1x1x128.size a ≤ S2097152x1x128.size a)
instance k0_chk105.dec : ∀ (v939 : BitVec 32), Decidable (k0_chk105 v939) := fun v939 => decidable_of_iff' _ (Iff.of_eq (k0_chk105.eq_1 v939))
theorem k0_off210_inb : ∀ (v939 : BitVec 32) (k0_hw105 : k0_chk105 v939), ∀ a, (k0_off210 v939) a + S1x1x128.size a ≤ S2097152x1x128.size a := fun v939 k0_hw105 => k0_hw105.1
theorem k0_off361_inb : ∀ (v939 : BitVec 32) (k0_hw105 : k0_chk105 v939), ∀ a, (k0_off361 v939) a + S1x1x128.size a ≤ S2097152x1x128.size a := fun v939 k0_hw105 => k0_hw105.2

def k0_off362 (v948 : BitVec 32) : Fin 3 → Nat :=
  let c0_i32_1402 : BitVec 32 := 0#32
  let c0_i32_1403 : BitVec 32 := 0#32
  ![v948.toNat, 0, 0]

def k0_chk106 (v948 : BitVec 32) : Prop :=
  (∀ a, (k0_off212 v948) a + S1x1x128.size a ≤ S2097152x1x128.size a) ∧
  (∀ a, (k0_off362 v948) a + S1x1x128.size a ≤ S2097152x1x128.size a)
instance k0_chk106.dec : ∀ (v948 : BitVec 32), Decidable (k0_chk106 v948) := fun v948 => decidable_of_iff' _ (Iff.of_eq (k0_chk106.eq_1 v948))
theorem k0_off212_inb : ∀ (v948 : BitVec 32) (k0_hw106 : k0_chk106 v948), ∀ a, (k0_off212 v948) a + S1x1x128.size a ≤ S2097152x1x128.size a := fun v948 k0_hw106 => k0_hw106.1
theorem k0_off362_inb : ∀ (v948 : BitVec 32) (k0_hw106 : k0_chk106 v948), ∀ a, (k0_off362 v948) a + S1x1x128.size a ≤ S2097152x1x128.size a := fun v948 k0_hw106 => k0_hw106.2

def k0_off363 (v957 : BitVec 32) : Fin 3 → Nat :=
  let c0_i32_1408 : BitVec 32 := 0#32
  let c0_i32_1409 : BitVec 32 := 0#32
  ![v957.toNat, 0, 0]

def k0_chk107 (v957 : BitVec 32) : Prop :=
  (∀ a, (k0_off214 v957) a + S1x1x128.size a ≤ S2097152x1x128.size a) ∧
  (∀ a, (k0_off363 v957) a + S1x1x128.size a ≤ S2097152x1x128.size a)
instance k0_chk107.dec : ∀ (v957 : BitVec 32), Decidable (k0_chk107 v957) := fun v957 => decidable_of_iff' _ (Iff.of_eq (k0_chk107.eq_1 v957))
theorem k0_off214_inb : ∀ (v957 : BitVec 32) (k0_hw107 : k0_chk107 v957), ∀ a, (k0_off214 v957) a + S1x1x128.size a ≤ S2097152x1x128.size a := fun v957 k0_hw107 => k0_hw107.1
theorem k0_off363_inb : ∀ (v957 : BitVec 32) (k0_hw107 : k0_chk107 v957), ∀ a, (k0_off363 v957) a + S1x1x128.size a ≤ S2097152x1x128.size a := fun v957 k0_hw107 => k0_hw107.2

def k0_off364 (v966 : BitVec 32) : Fin 3 → Nat :=
  let c0_i32_1414 : BitVec 32 := 0#32
  let c0_i32_1415 : BitVec 32 := 0#32
  ![v966.toNat, 0, 0]

def k0_chk108 (v966 : BitVec 32) : Prop :=
  (∀ a, (k0_off216 v966) a + S1x1x128.size a ≤ S2097152x1x128.size a) ∧
  (∀ a, (k0_off364 v966) a + S1x1x128.size a ≤ S2097152x1x128.size a)
instance k0_chk108.dec : ∀ (v966 : BitVec 32), Decidable (k0_chk108 v966) := fun v966 => decidable_of_iff' _ (Iff.of_eq (k0_chk108.eq_1 v966))
theorem k0_off216_inb : ∀ (v966 : BitVec 32) (k0_hw108 : k0_chk108 v966), ∀ a, (k0_off216 v966) a + S1x1x128.size a ≤ S2097152x1x128.size a := fun v966 k0_hw108 => k0_hw108.1
theorem k0_off364_inb : ∀ (v966 : BitVec 32) (k0_hw108 : k0_chk108 v966), ∀ a, (k0_off364 v966) a + S1x1x128.size a ≤ S2097152x1x128.size a := fun v966 k0_hw108 => k0_hw108.2

def k0_off365 (v975 : BitVec 32) : Fin 3 → Nat :=
  let c0_i32_1420 : BitVec 32 := 0#32
  let c0_i32_1421 : BitVec 32 := 0#32
  ![v975.toNat, 0, 0]

def k0_chk109 (v975 : BitVec 32) : Prop :=
  (∀ a, (k0_off218 v975) a + S1x1x128.size a ≤ S2097152x1x128.size a) ∧
  (∀ a, (k0_off365 v975) a + S1x1x128.size a ≤ S2097152x1x128.size a)
instance k0_chk109.dec : ∀ (v975 : BitVec 32), Decidable (k0_chk109 v975) := fun v975 => decidable_of_iff' _ (Iff.of_eq (k0_chk109.eq_1 v975))
theorem k0_off218_inb : ∀ (v975 : BitVec 32) (k0_hw109 : k0_chk109 v975), ∀ a, (k0_off218 v975) a + S1x1x128.size a ≤ S2097152x1x128.size a := fun v975 k0_hw109 => k0_hw109.1
theorem k0_off365_inb : ∀ (v975 : BitVec 32) (k0_hw109 : k0_chk109 v975), ∀ a, (k0_off365 v975) a + S1x1x128.size a ≤ S2097152x1x128.size a := fun v975 k0_hw109 => k0_hw109.2

def k0_off366 (v984 : BitVec 32) : Fin 3 → Nat :=
  let c0_i32_1426 : BitVec 32 := 0#32
  let c0_i32_1427 : BitVec 32 := 0#32
  ![v984.toNat, 0, 0]

def k0_chk110 (v984 : BitVec 32) : Prop :=
  (∀ a, (k0_off220 v984) a + S1x1x128.size a ≤ S2097152x1x128.size a) ∧
  (∀ a, (k0_off366 v984) a + S1x1x128.size a ≤ S2097152x1x128.size a)
instance k0_chk110.dec : ∀ (v984 : BitVec 32), Decidable (k0_chk110 v984) := fun v984 => decidable_of_iff' _ (Iff.of_eq (k0_chk110.eq_1 v984))
theorem k0_off220_inb : ∀ (v984 : BitVec 32) (k0_hw110 : k0_chk110 v984), ∀ a, (k0_off220 v984) a + S1x1x128.size a ≤ S2097152x1x128.size a := fun v984 k0_hw110 => k0_hw110.1
theorem k0_off366_inb : ∀ (v984 : BitVec 32) (k0_hw110 : k0_chk110 v984), ∀ a, (k0_off366 v984) a + S1x1x128.size a ≤ S2097152x1x128.size a := fun v984 k0_hw110 => k0_hw110.2

def k0_off367 (v993 : BitVec 32) : Fin 3 → Nat :=
  let c0_i32_1432 : BitVec 32 := 0#32
  let c0_i32_1433 : BitVec 32 := 0#32
  ![v993.toNat, 0, 0]

def k0_chk111 (v993 : BitVec 32) : Prop :=
  (∀ a, (k0_off222 v993) a + S1x1x128.size a ≤ S2097152x1x128.size a) ∧
  (∀ a, (k0_off367 v993) a + S1x1x128.size a ≤ S2097152x1x128.size a)
instance k0_chk111.dec : ∀ (v993 : BitVec 32), Decidable (k0_chk111 v993) := fun v993 => decidable_of_iff' _ (Iff.of_eq (k0_chk111.eq_1 v993))
theorem k0_off222_inb : ∀ (v993 : BitVec 32) (k0_hw111 : k0_chk111 v993), ∀ a, (k0_off222 v993) a + S1x1x128.size a ≤ S2097152x1x128.size a := fun v993 k0_hw111 => k0_hw111.1
theorem k0_off367_inb : ∀ (v993 : BitVec 32) (k0_hw111 : k0_chk111 v993), ∀ a, (k0_off367 v993) a + S1x1x128.size a ≤ S2097152x1x128.size a := fun v993 k0_hw111 => k0_hw111.2

def k0_off368 (v1002 : BitVec 32) : Fin 3 → Nat :=
  let c0_i32_1438 : BitVec 32 := 0#32
  let c0_i32_1439 : BitVec 32 := 0#32
  ![v1002.toNat, 0, 0]

def k0_chk112 (v1002 : BitVec 32) : Prop :=
  (∀ a, (k0_off224 v1002) a + S1x1x128.size a ≤ S2097152x1x128.size a) ∧
  (∀ a, (k0_off368 v1002) a + S1x1x128.size a ≤ S2097152x1x128.size a)
instance k0_chk112.dec : ∀ (v1002 : BitVec 32), Decidable (k0_chk112 v1002) := fun v1002 => decidable_of_iff' _ (Iff.of_eq (k0_chk112.eq_1 v1002))
theorem k0_off224_inb : ∀ (v1002 : BitVec 32) (k0_hw112 : k0_chk112 v1002), ∀ a, (k0_off224 v1002) a + S1x1x128.size a ≤ S2097152x1x128.size a := fun v1002 k0_hw112 => k0_hw112.1
theorem k0_off368_inb : ∀ (v1002 : BitVec 32) (k0_hw112 : k0_chk112 v1002), ∀ a, (k0_off368 v1002) a + S1x1x128.size a ≤ S2097152x1x128.size a := fun v1002 k0_hw112 => k0_hw112.2

def k0_off369 (v1011 : BitVec 32) : Fin 3 → Nat :=
  let c0_i32_1444 : BitVec 32 := 0#32
  let c0_i32_1445 : BitVec 32 := 0#32
  ![v1011.toNat, 0, 0]

def k0_chk113 (v1011 : BitVec 32) : Prop :=
  (∀ a, (k0_off226 v1011) a + S1x1x128.size a ≤ S2097152x1x128.size a) ∧
  (∀ a, (k0_off369 v1011) a + S1x1x128.size a ≤ S2097152x1x128.size a)
instance k0_chk113.dec : ∀ (v1011 : BitVec 32), Decidable (k0_chk113 v1011) := fun v1011 => decidable_of_iff' _ (Iff.of_eq (k0_chk113.eq_1 v1011))
theorem k0_off226_inb : ∀ (v1011 : BitVec 32) (k0_hw113 : k0_chk113 v1011), ∀ a, (k0_off226 v1011) a + S1x1x128.size a ≤ S2097152x1x128.size a := fun v1011 k0_hw113 => k0_hw113.1
theorem k0_off369_inb : ∀ (v1011 : BitVec 32) (k0_hw113 : k0_chk113 v1011), ∀ a, (k0_off369 v1011) a + S1x1x128.size a ≤ S2097152x1x128.size a := fun v1011 k0_hw113 => k0_hw113.2

def k0_off370 (v1020 : BitVec 32) : Fin 3 → Nat :=
  let c0_i32_1450 : BitVec 32 := 0#32
  let c0_i32_1451 : BitVec 32 := 0#32
  ![v1020.toNat, 0, 0]

def k0_chk114 (v1020 : BitVec 32) : Prop :=
  (∀ a, (k0_off228 v1020) a + S1x1x128.size a ≤ S2097152x1x128.size a) ∧
  (∀ a, (k0_off370 v1020) a + S1x1x128.size a ≤ S2097152x1x128.size a)
instance k0_chk114.dec : ∀ (v1020 : BitVec 32), Decidable (k0_chk114 v1020) := fun v1020 => decidable_of_iff' _ (Iff.of_eq (k0_chk114.eq_1 v1020))
theorem k0_off228_inb : ∀ (v1020 : BitVec 32) (k0_hw114 : k0_chk114 v1020), ∀ a, (k0_off228 v1020) a + S1x1x128.size a ≤ S2097152x1x128.size a := fun v1020 k0_hw114 => k0_hw114.1
theorem k0_off370_inb : ∀ (v1020 : BitVec 32) (k0_hw114 : k0_chk114 v1020), ∀ a, (k0_off370 v1020) a + S1x1x128.size a ≤ S2097152x1x128.size a := fun v1020 k0_hw114 => k0_hw114.2

def k0_off371 (v1029 : BitVec 32) : Fin 3 → Nat :=
  let c0_i32_1456 : BitVec 32 := 0#32
  let c0_i32_1457 : BitVec 32 := 0#32
  ![v1029.toNat, 0, 0]

def k0_chk115 (v1029 : BitVec 32) : Prop :=
  (∀ a, (k0_off230 v1029) a + S1x1x128.size a ≤ S2097152x1x128.size a) ∧
  (∀ a, (k0_off371 v1029) a + S1x1x128.size a ≤ S2097152x1x128.size a)
instance k0_chk115.dec : ∀ (v1029 : BitVec 32), Decidable (k0_chk115 v1029) := fun v1029 => decidable_of_iff' _ (Iff.of_eq (k0_chk115.eq_1 v1029))
theorem k0_off230_inb : ∀ (v1029 : BitVec 32) (k0_hw115 : k0_chk115 v1029), ∀ a, (k0_off230 v1029) a + S1x1x128.size a ≤ S2097152x1x128.size a := fun v1029 k0_hw115 => k0_hw115.1
theorem k0_off371_inb : ∀ (v1029 : BitVec 32) (k0_hw115 : k0_chk115 v1029), ∀ a, (k0_off371 v1029) a + S1x1x128.size a ≤ S2097152x1x128.size a := fun v1029 k0_hw115 => k0_hw115.2

def k0_off372 (v1038 : BitVec 32) : Fin 3 → Nat :=
  let c0_i32_1462 : BitVec 32 := 0#32
  let c0_i32_1463 : BitVec 32 := 0#32
  ![v1038.toNat, 0, 0]

def k0_chk116 (v1038 : BitVec 32) : Prop :=
  (∀ a, (k0_off232 v1038) a + S1x1x128.size a ≤ S2097152x1x128.size a) ∧
  (∀ a, (k0_off372 v1038) a + S1x1x128.size a ≤ S2097152x1x128.size a)
instance k0_chk116.dec : ∀ (v1038 : BitVec 32), Decidable (k0_chk116 v1038) := fun v1038 => decidable_of_iff' _ (Iff.of_eq (k0_chk116.eq_1 v1038))
theorem k0_off232_inb : ∀ (v1038 : BitVec 32) (k0_hw116 : k0_chk116 v1038), ∀ a, (k0_off232 v1038) a + S1x1x128.size a ≤ S2097152x1x128.size a := fun v1038 k0_hw116 => k0_hw116.1
theorem k0_off372_inb : ∀ (v1038 : BitVec 32) (k0_hw116 : k0_chk116 v1038), ∀ a, (k0_off372 v1038) a + S1x1x128.size a ≤ S2097152x1x128.size a := fun v1038 k0_hw116 => k0_hw116.2

def k0_off373 (v1047 : BitVec 32) : Fin 3 → Nat :=
  let c0_i32_1468 : BitVec 32 := 0#32
  let c0_i32_1469 : BitVec 32 := 0#32
  ![v1047.toNat, 0, 0]

def k0_chk117 (v1047 : BitVec 32) : Prop :=
  (∀ a, (k0_off234 v1047) a + S1x1x128.size a ≤ S2097152x1x128.size a) ∧
  (∀ a, (k0_off373 v1047) a + S1x1x128.size a ≤ S2097152x1x128.size a)
instance k0_chk117.dec : ∀ (v1047 : BitVec 32), Decidable (k0_chk117 v1047) := fun v1047 => decidable_of_iff' _ (Iff.of_eq (k0_chk117.eq_1 v1047))
theorem k0_off234_inb : ∀ (v1047 : BitVec 32) (k0_hw117 : k0_chk117 v1047), ∀ a, (k0_off234 v1047) a + S1x1x128.size a ≤ S2097152x1x128.size a := fun v1047 k0_hw117 => k0_hw117.1
theorem k0_off373_inb : ∀ (v1047 : BitVec 32) (k0_hw117 : k0_chk117 v1047), ∀ a, (k0_off373 v1047) a + S1x1x128.size a ≤ S2097152x1x128.size a := fun v1047 k0_hw117 => k0_hw117.2

def k0_off374 (v1056 : BitVec 32) : Fin 3 → Nat :=
  let c0_i32_1474 : BitVec 32 := 0#32
  let c0_i32_1475 : BitVec 32 := 0#32
  ![v1056.toNat, 0, 0]

def k0_chk118 (v1056 : BitVec 32) : Prop :=
  (∀ a, (k0_off236 v1056) a + S1x1x128.size a ≤ S2097152x1x128.size a) ∧
  (∀ a, (k0_off374 v1056) a + S1x1x128.size a ≤ S2097152x1x128.size a)
instance k0_chk118.dec : ∀ (v1056 : BitVec 32), Decidable (k0_chk118 v1056) := fun v1056 => decidable_of_iff' _ (Iff.of_eq (k0_chk118.eq_1 v1056))
theorem k0_off236_inb : ∀ (v1056 : BitVec 32) (k0_hw118 : k0_chk118 v1056), ∀ a, (k0_off236 v1056) a + S1x1x128.size a ≤ S2097152x1x128.size a := fun v1056 k0_hw118 => k0_hw118.1
theorem k0_off374_inb : ∀ (v1056 : BitVec 32) (k0_hw118 : k0_chk118 v1056), ∀ a, (k0_off374 v1056) a + S1x1x128.size a ≤ S2097152x1x128.size a := fun v1056 k0_hw118 => k0_hw118.2

def k0_off375 (v1065 : BitVec 32) : Fin 3 → Nat :=
  let c0_i32_1480 : BitVec 32 := 0#32
  let c0_i32_1481 : BitVec 32 := 0#32
  ![v1065.toNat, 0, 0]

def k0_chk119 (v1065 : BitVec 32) : Prop :=
  (∀ a, (k0_off238 v1065) a + S1x1x128.size a ≤ S2097152x1x128.size a) ∧
  (∀ a, (k0_off375 v1065) a + S1x1x128.size a ≤ S2097152x1x128.size a)
instance k0_chk119.dec : ∀ (v1065 : BitVec 32), Decidable (k0_chk119 v1065) := fun v1065 => decidable_of_iff' _ (Iff.of_eq (k0_chk119.eq_1 v1065))
theorem k0_off238_inb : ∀ (v1065 : BitVec 32) (k0_hw119 : k0_chk119 v1065), ∀ a, (k0_off238 v1065) a + S1x1x128.size a ≤ S2097152x1x128.size a := fun v1065 k0_hw119 => k0_hw119.1
theorem k0_off375_inb : ∀ (v1065 : BitVec 32) (k0_hw119 : k0_chk119 v1065), ∀ a, (k0_off375 v1065) a + S1x1x128.size a ≤ S2097152x1x128.size a := fun v1065 k0_hw119 => k0_hw119.2

def k0_off376 (v1074 : BitVec 32) : Fin 3 → Nat :=
  let c0_i32_1486 : BitVec 32 := 0#32
  let c0_i32_1487 : BitVec 32 := 0#32
  ![v1074.toNat, 0, 0]

def k0_chk120 (v1074 : BitVec 32) : Prop :=
  (∀ a, (k0_off240 v1074) a + S1x1x128.size a ≤ S2097152x1x128.size a) ∧
  (∀ a, (k0_off376 v1074) a + S1x1x128.size a ≤ S2097152x1x128.size a)
instance k0_chk120.dec : ∀ (v1074 : BitVec 32), Decidable (k0_chk120 v1074) := fun v1074 => decidable_of_iff' _ (Iff.of_eq (k0_chk120.eq_1 v1074))
theorem k0_off240_inb : ∀ (v1074 : BitVec 32) (k0_hw120 : k0_chk120 v1074), ∀ a, (k0_off240 v1074) a + S1x1x128.size a ≤ S2097152x1x128.size a := fun v1074 k0_hw120 => k0_hw120.1
theorem k0_off376_inb : ∀ (v1074 : BitVec 32) (k0_hw120 : k0_chk120 v1074), ∀ a, (k0_off376 v1074) a + S1x1x128.size a ≤ S2097152x1x128.size a := fun v1074 k0_hw120 => k0_hw120.2

def k0_off377 (v1083 : BitVec 32) : Fin 3 → Nat :=
  let c0_i32_1492 : BitVec 32 := 0#32
  let c0_i32_1493 : BitVec 32 := 0#32
  ![v1083.toNat, 0, 0]

def k0_chk121 (v1083 : BitVec 32) : Prop :=
  (∀ a, (k0_off242 v1083) a + S1x1x128.size a ≤ S2097152x1x128.size a) ∧
  (∀ a, (k0_off377 v1083) a + S1x1x128.size a ≤ S2097152x1x128.size a)
instance k0_chk121.dec : ∀ (v1083 : BitVec 32), Decidable (k0_chk121 v1083) := fun v1083 => decidable_of_iff' _ (Iff.of_eq (k0_chk121.eq_1 v1083))
theorem k0_off242_inb : ∀ (v1083 : BitVec 32) (k0_hw121 : k0_chk121 v1083), ∀ a, (k0_off242 v1083) a + S1x1x128.size a ≤ S2097152x1x128.size a := fun v1083 k0_hw121 => k0_hw121.1
theorem k0_off377_inb : ∀ (v1083 : BitVec 32) (k0_hw121 : k0_chk121 v1083), ∀ a, (k0_off377 v1083) a + S1x1x128.size a ≤ S2097152x1x128.size a := fun v1083 k0_hw121 => k0_hw121.2

def k0_off378 (v1092 : BitVec 32) : Fin 3 → Nat :=
  let c0_i32_1498 : BitVec 32 := 0#32
  let c0_i32_1499 : BitVec 32 := 0#32
  ![v1092.toNat, 0, 0]

def k0_chk122 (v1092 : BitVec 32) : Prop :=
  (∀ a, (k0_off244 v1092) a + S1x1x128.size a ≤ S2097152x1x128.size a) ∧
  (∀ a, (k0_off378 v1092) a + S1x1x128.size a ≤ S2097152x1x128.size a)
instance k0_chk122.dec : ∀ (v1092 : BitVec 32), Decidable (k0_chk122 v1092) := fun v1092 => decidable_of_iff' _ (Iff.of_eq (k0_chk122.eq_1 v1092))
theorem k0_off244_inb : ∀ (v1092 : BitVec 32) (k0_hw122 : k0_chk122 v1092), ∀ a, (k0_off244 v1092) a + S1x1x128.size a ≤ S2097152x1x128.size a := fun v1092 k0_hw122 => k0_hw122.1
theorem k0_off378_inb : ∀ (v1092 : BitVec 32) (k0_hw122 : k0_chk122 v1092), ∀ a, (k0_off378 v1092) a + S1x1x128.size a ≤ S2097152x1x128.size a := fun v1092 k0_hw122 => k0_hw122.2

def k0_off379 (v1101 : BitVec 32) : Fin 3 → Nat :=
  let c0_i32_1504 : BitVec 32 := 0#32
  let c0_i32_1505 : BitVec 32 := 0#32
  ![v1101.toNat, 0, 0]

def k0_chk123 (v1101 : BitVec 32) : Prop :=
  (∀ a, (k0_off246 v1101) a + S1x1x128.size a ≤ S2097152x1x128.size a) ∧
  (∀ a, (k0_off379 v1101) a + S1x1x128.size a ≤ S2097152x1x128.size a)
instance k0_chk123.dec : ∀ (v1101 : BitVec 32), Decidable (k0_chk123 v1101) := fun v1101 => decidable_of_iff' _ (Iff.of_eq (k0_chk123.eq_1 v1101))
theorem k0_off246_inb : ∀ (v1101 : BitVec 32) (k0_hw123 : k0_chk123 v1101), ∀ a, (k0_off246 v1101) a + S1x1x128.size a ≤ S2097152x1x128.size a := fun v1101 k0_hw123 => k0_hw123.1
theorem k0_off379_inb : ∀ (v1101 : BitVec 32) (k0_hw123 : k0_chk123 v1101), ∀ a, (k0_off379 v1101) a + S1x1x128.size a ≤ S2097152x1x128.size a := fun v1101 k0_hw123 => k0_hw123.2

def k0_off380 (v1110 : BitVec 32) : Fin 3 → Nat :=
  let c0_i32_1510 : BitVec 32 := 0#32
  let c0_i32_1511 : BitVec 32 := 0#32
  ![v1110.toNat, 0, 0]

def k0_chk124 (v1110 : BitVec 32) : Prop :=
  (∀ a, (k0_off248 v1110) a + S1x1x128.size a ≤ S2097152x1x128.size a) ∧
  (∀ a, (k0_off380 v1110) a + S1x1x128.size a ≤ S2097152x1x128.size a)
instance k0_chk124.dec : ∀ (v1110 : BitVec 32), Decidable (k0_chk124 v1110) := fun v1110 => decidable_of_iff' _ (Iff.of_eq (k0_chk124.eq_1 v1110))
theorem k0_off248_inb : ∀ (v1110 : BitVec 32) (k0_hw124 : k0_chk124 v1110), ∀ a, (k0_off248 v1110) a + S1x1x128.size a ≤ S2097152x1x128.size a := fun v1110 k0_hw124 => k0_hw124.1
theorem k0_off380_inb : ∀ (v1110 : BitVec 32) (k0_hw124 : k0_chk124 v1110), ∀ a, (k0_off380 v1110) a + S1x1x128.size a ≤ S2097152x1x128.size a := fun v1110 k0_hw124 => k0_hw124.2

def k0_off381 (v1119 : BitVec 32) : Fin 3 → Nat :=
  let c0_i32_1516 : BitVec 32 := 0#32
  let c0_i32_1517 : BitVec 32 := 0#32
  ![v1119.toNat, 0, 0]

def k0_chk125 (v1119 : BitVec 32) : Prop :=
  (∀ a, (k0_off250 v1119) a + S1x1x128.size a ≤ S2097152x1x128.size a) ∧
  (∀ a, (k0_off381 v1119) a + S1x1x128.size a ≤ S2097152x1x128.size a)
instance k0_chk125.dec : ∀ (v1119 : BitVec 32), Decidable (k0_chk125 v1119) := fun v1119 => decidable_of_iff' _ (Iff.of_eq (k0_chk125.eq_1 v1119))
theorem k0_off250_inb : ∀ (v1119 : BitVec 32) (k0_hw125 : k0_chk125 v1119), ∀ a, (k0_off250 v1119) a + S1x1x128.size a ≤ S2097152x1x128.size a := fun v1119 k0_hw125 => k0_hw125.1
theorem k0_off381_inb : ∀ (v1119 : BitVec 32) (k0_hw125 : k0_chk125 v1119), ∀ a, (k0_off381 v1119) a + S1x1x128.size a ≤ S2097152x1x128.size a := fun v1119 k0_hw125 => k0_hw125.2

def k0_off382 (v1128 : BitVec 32) : Fin 3 → Nat :=
  let c0_i32_1522 : BitVec 32 := 0#32
  let c0_i32_1523 : BitVec 32 := 0#32
  ![v1128.toNat, 0, 0]

def k0_chk126 (v1128 : BitVec 32) : Prop :=
  (∀ a, (k0_off252 v1128) a + S1x1x128.size a ≤ S2097152x1x128.size a) ∧
  (∀ a, (k0_off382 v1128) a + S1x1x128.size a ≤ S2097152x1x128.size a)
instance k0_chk126.dec : ∀ (v1128 : BitVec 32), Decidable (k0_chk126 v1128) := fun v1128 => decidable_of_iff' _ (Iff.of_eq (k0_chk126.eq_1 v1128))
theorem k0_off252_inb : ∀ (v1128 : BitVec 32) (k0_hw126 : k0_chk126 v1128), ∀ a, (k0_off252 v1128) a + S1x1x128.size a ≤ S2097152x1x128.size a := fun v1128 k0_hw126 => k0_hw126.1
theorem k0_off382_inb : ∀ (v1128 : BitVec 32) (k0_hw126 : k0_chk126 v1128), ∀ a, (k0_off382 v1128) a + S1x1x128.size a ≤ S2097152x1x128.size a := fun v1128 k0_hw126 => k0_hw126.2

def k0_off383 (v1137 : BitVec 32) : Fin 3 → Nat :=
  let c0_i32_1528 : BitVec 32 := 0#32
  let c0_i32_1529 : BitVec 32 := 0#32
  ![v1137.toNat, 0, 0]

def k0_chk127 (v1137 : BitVec 32) : Prop :=
  (∀ a, (k0_off254 v1137) a + S1x1x128.size a ≤ S2097152x1x128.size a) ∧
  (∀ a, (k0_off383 v1137) a + S1x1x128.size a ≤ S2097152x1x128.size a)
instance k0_chk127.dec : ∀ (v1137 : BitVec 32), Decidable (k0_chk127 v1137) := fun v1137 => decidable_of_iff' _ (Iff.of_eq (k0_chk127.eq_1 v1137))
theorem k0_off254_inb : ∀ (v1137 : BitVec 32) (k0_hw127 : k0_chk127 v1137), ∀ a, (k0_off254 v1137) a + S1x1x128.size a ≤ S2097152x1x128.size a := fun v1137 k0_hw127 => k0_hw127.1
theorem k0_off383_inb : ∀ (v1137 : BitVec 32) (k0_hw127 : k0_chk127 v1137), ∀ a, (k0_off383 v1137) a + S1x1x128.size a ≤ S2097152x1x128.size a := fun v1137 k0_hw127 => k0_hw127.2

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

class Facts₀ : Prop where
  slices_S8x2048x2_S8x2048x1_0_0_0 : S8x2048x2.Slices ![0, 0, 0] S8x2048x1
  shapeCasts_S8x2048x1_S8x2048 : S8x2048x1.ShapeCasts S8x2048
  slices_S8x2048x2_S8x2048x1_0_0_1 : S8x2048x2.Slices ![0, 0, 1] S8x2048x1
  bcast_S8_S8x1_0 : S8.BroadcastsInDim S8x1 (![0] : Fin 1 → Fin S8x1.rank)
  bcast_S8x1_S8x2048_0_1 : S8x1.BroadcastsInDim S8x2048 (![0, 1] : Fin 2 → Fin S8x2048.rank)
  bcast_S_S8x2048 : S_.BroadcastsInDim S8x2048 (![] : Fin 0 → Fin S8x2048.rank)
  shapeCasts_S8x2048_S16384 : S8x2048.ShapeCasts S16384
  transposes_S8x128x512x512_S8x512x512x128_0_2_3_1 : S8x128x512x512.Transposes [0, 2, 3, 1] S8x512x512x128
  shapeCasts_S8x512x512x128_S2097152x1x128 : S8x512x512x128.ShapeCasts S2097152x1x128
  numel1_S1 : S1.numel = 1
  inb_S128_S1_0 : ∀ a, (![0] : Fin 1 → Nat) a + S1.size a ≤ S128.size a
  squeezes_S1_S_ : S1.Squeezes S_
  inb_S128x1x128_S1x1x128_0_0_0 : ∀ a, (![0, 0, 0] : Fin 3 → Nat) a + S1x1x128.size a ≤ S128x1x128.size a
  squeezes_S1x1x128_S1x128 : S1x1x128.Squeezes S1x128
  inb_S128_S1_1 : ∀ a, (![1] : Fin 1 → Nat) a + S1.size a ≤ S128.size a
  inb_S128x1x128_S1x1x128_1_0_0 : ∀ a, (![1, 0, 0] : Fin 3 → Nat) a + S1x1x128.size a ≤ S128x1x128.size a
  inb_S128_S1_2 : ∀ a, (![2] : Fin 1 → Nat) a + S1.size a ≤ S128.size a
  inb_S128x1x128_S1x1x128_2_0_0 : ∀ a, (![2, 0, 0] : Fin 3 → Nat) a + S1x1x128.size a ≤ S128x1x128.size a
  inb_S128_S1_3 : ∀ a, (![3] : Fin 1 → Nat) a + S1.size a ≤ S128.size a
  inb_S128x1x128_S1x1x128_3_0_0 : ∀ a, (![3, 0, 0] : Fin 3 → Nat) a + S1x1x128.size a ≤ S128x1x128.size a
  inb_S128_S1_4 : ∀ a, (![4] : Fin 1 → Nat) a + S1.size a ≤ S128.size a
  inb_S128x1x128_S1x1x128_4_0_0 : ∀ a, (![4, 0, 0] : Fin 3 → Nat) a + S1x1x128.size a ≤ S128x1x128.size a
  inb_S128_S1_5 : ∀ a, (![5] : Fin 1 → Nat) a + S1.size a ≤ S128.size a
  inb_S128x1x128_S1x1x128_5_0_0 : ∀ a, (![5, 0, 0] : Fin 3 → Nat) a + S1x1x128.size a ≤ S128x1x128.size a
  inb_S128_S1_6 : ∀ a, (![6] : Fin 1 → Nat) a + S1.size a ≤ S128.size a
  inb_S128x1x128_S1x1x128_6_0_0 : ∀ a, (![6, 0, 0] : Fin 3 → Nat) a + S1x1x128.size a ≤ S128x1x128.size a
  inb_S128_S1_7 : ∀ a, (![7] : Fin 1 → Nat) a + S1.size a ≤ S128.size a
  inb_S128x1x128_S1x1x128_7_0_0 : ∀ a, (![7, 0, 0] : Fin 3 → Nat) a + S1x1x128.size a ≤ S128x1x128.size a
  inb_S128_S1_8 : ∀ a, (![8] : Fin 1 → Nat) a + S1.size a ≤ S128.size a
  inb_S128x1x128_S1x1x128_8_0_0 : ∀ a, (![8, 0, 0] : Fin 3 → Nat) a + S1x1x128.size a ≤ S128x1x128.size a
  inb_S128_S1_9 : ∀ a, (![9] : Fin 1 → Nat) a + S1.size a ≤ S128.size a
  inb_S128x1x128_S1x1x128_9_0_0 : ∀ a, (![9, 0, 0] : Fin 3 → Nat) a + S1x1x128.size a ≤ S128x1x128.size a
  inb_S128_S1_10 : ∀ a, (![10] : Fin 1 → Nat) a + S1.size a ≤ S128.size a
  inb_S128x1x128_S1x1x128_10_0_0 : ∀ a, (![10, 0, 0] : Fin 3 → Nat) a + S1x1x128.size a ≤ S128x1x128.size a
  inb_S128_S1_11 : ∀ a, (![11] : Fin 1 → Nat) a + S1.size a ≤ S128.size a
  inb_S128x1x128_S1x1x128_11_0_0 : ∀ a, (![11, 0, 0] : Fin 3 → Nat) a + S1x1x128.size a ≤ S128x1x128.size a
  inb_S128_S1_12 : ∀ a, (![12] : Fin 1 → Nat) a + S1.size a ≤ S128.size a
  inb_S128x1x128_S1x1x128_12_0_0 : ∀ a, (![12, 0, 0] : Fin 3 → Nat) a + S1x1x128.size a ≤ S128x1x128.size a
  inb_S128_S1_13 : ∀ a, (![13] : Fin 1 → Nat) a + S1.size a ≤ S128.size a
  inb_S128x1x128_S1x1x128_13_0_0 : ∀ a, (![13, 0, 0] : Fin 3 → Nat) a + S1x1x128.size a ≤ S128x1x128.size a
  inb_S128_S1_14 : ∀ a, (![14] : Fin 1 → Nat) a + S1.size a ≤ S128.size a
  inb_S128x1x128_S1x1x128_14_0_0 : ∀ a, (![14, 0, 0] : Fin 3 → Nat) a + S1x1x128.size a ≤ S128x1x128.size a
  inb_S128_S1_15 : ∀ a, (![15] : Fin 1 → Nat) a + S1.size a ≤ S128.size a
  inb_S128x1x128_S1x1x128_15_0_0 : ∀ a, (![15, 0, 0] : Fin 3 → Nat) a + S1x1x128.size a ≤ S128x1x128.size a
  inb_S128_S1_16 : ∀ a, (![16] : Fin 1 → Nat) a + S1.size a ≤ S128.size a
  inb_S128x1x128_S1x1x128_16_0_0 : ∀ a, (![16, 0, 0] : Fin 3 → Nat) a + S1x1x128.size a ≤ S128x1x128.size a
  inb_S128_S1_17 : ∀ a, (![17] : Fin 1 → Nat) a + S1.size a ≤ S128.size a
  inb_S128x1x128_S1x1x128_17_0_0 : ∀ a, (![17, 0, 0] : Fin 3 → Nat) a + S1x1x128.size a ≤ S128x1x128.size a
  inb_S128_S1_18 : ∀ a, (![18] : Fin 1 → Nat) a + S1.size a ≤ S128.size a
  inb_S128x1x128_S1x1x128_18_0_0 : ∀ a, (![18, 0, 0] : Fin 3 → Nat) a + S1x1x128.size a ≤ S128x1x128.size a
  inb_S128_S1_19 : ∀ a, (![19] : Fin 1 → Nat) a + S1.size a ≤ S128.size a
  inb_S128x1x128_S1x1x128_19_0_0 : ∀ a, (![19, 0, 0] : Fin 3 → Nat) a + S1x1x128.size a ≤ S128x1x128.size a
  inb_S128_S1_20 : ∀ a, (![20] : Fin 1 → Nat) a + S1.size a ≤ S128.size a
  inb_S128x1x128_S1x1x128_20_0_0 : ∀ a, (![20, 0, 0] : Fin 3 → Nat) a + S1x1x128.size a ≤ S128x1x128.size a
  inb_S128_S1_21 : ∀ a, (![21] : Fin 1 → Nat) a + S1.size a ≤ S128.size a
  inb_S128x1x128_S1x1x128_21_0_0 : ∀ a, (![21, 0, 0] : Fin 3 → Nat) a + S1x1x128.size a ≤ S128x1x128.size a
  inb_S128_S1_22 : ∀ a, (![22] : Fin 1 → Nat) a + S1.size a ≤ S128.size a
  inb_S128x1x128_S1x1x128_22_0_0 : ∀ a, (![22, 0, 0] : Fin 3 → Nat) a + S1x1x128.size a ≤ S128x1x128.size a
  inb_S128_S1_23 : ∀ a, (![23] : Fin 1 → Nat) a + S1.size a ≤ S128.size a
  inb_S128x1x128_S1x1x128_23_0_0 : ∀ a, (![23, 0, 0] : Fin 3 → Nat) a + S1x1x128.size a ≤ S128x1x128.size a
  inb_S128_S1_24 : ∀ a, (![24] : Fin 1 → Nat) a + S1.size a ≤ S128.size a
  inb_S128x1x128_S1x1x128_24_0_0 : ∀ a, (![24, 0, 0] : Fin 3 → Nat) a + S1x1x128.size a ≤ S128x1x128.size a
  inb_S128_S1_25 : ∀ a, (![25] : Fin 1 → Nat) a + S1.size a ≤ S128.size a
  inb_S128x1x128_S1x1x128_25_0_0 : ∀ a, (![25, 0, 0] : Fin 3 → Nat) a + S1x1x128.size a ≤ S128x1x128.size a
  inb_S128_S1_26 : ∀ a, (![26] : Fin 1 → Nat) a + S1.size a ≤ S128.size a
  inb_S128x1x128_S1x1x128_26_0_0 : ∀ a, (![26, 0, 0] : Fin 3 → Nat) a + S1x1x128.size a ≤ S128x1x128.size a
  inb_S128_S1_27 : ∀ a, (![27] : Fin 1 → Nat) a + S1.size a ≤ S128.size a
  inb_S128x1x128_S1x1x128_27_0_0 : ∀ a, (![27, 0, 0] : Fin 3 → Nat) a + S1x1x128.size a ≤ S128x1x128.size a
  inb_S128_S1_28 : ∀ a, (![28] : Fin 1 → Nat) a + S1.size a ≤ S128.size a
  inb_S128x1x128_S1x1x128_28_0_0 : ∀ a, (![28, 0, 0] : Fin 3 → Nat) a + S1x1x128.size a ≤ S128x1x128.size a
  inb_S128_S1_29 : ∀ a, (![29] : Fin 1 → Nat) a + S1.size a ≤ S128.size a
  inb_S128x1x128_S1x1x128_29_0_0 : ∀ a, (![29, 0, 0] : Fin 3 → Nat) a + S1x1x128.size a ≤ S128x1x128.size a
  inb_S128_S1_30 : ∀ a, (![30] : Fin 1 → Nat) a + S1.size a ≤ S128.size a
  inb_S128x1x128_S1x1x128_30_0_0 : ∀ a, (![30, 0, 0] : Fin 3 → Nat) a + S1x1x128.size a ≤ S128x1x128.size a
  inb_S128_S1_31 : ∀ a, (![31] : Fin 1 → Nat) a + S1.size a ≤ S128.size a
  inb_S128x1x128_S1x1x128_31_0_0 : ∀ a, (![31, 0, 0] : Fin 3 → Nat) a + S1x1x128.size a ≤ S128x1x128.size a
  inb_S128_S1_32 : ∀ a, (![32] : Fin 1 → Nat) a + S1.size a ≤ S128.size a
  inb_S128x1x128_S1x1x128_32_0_0 : ∀ a, (![32, 0, 0] : Fin 3 → Nat) a + S1x1x128.size a ≤ S128x1x128.size a
  inb_S128_S1_33 : ∀ a, (![33] : Fin 1 → Nat) a + S1.size a ≤ S128.size a
  inb_S128x1x128_S1x1x128_33_0_0 : ∀ a, (![33, 0, 0] : Fin 3 → Nat) a + S1x1x128.size a ≤ S128x1x128.size a
  inb_S128_S1_34 : ∀ a, (![34] : Fin 1 → Nat) a + S1.size a ≤ S128.size a
  inb_S128x1x128_S1x1x128_34_0_0 : ∀ a, (![34, 0, 0] : Fin 3 → Nat) a + S1x1x128.size a ≤ S128x1x128.size a
  inb_S128_S1_35 : ∀ a, (![35] : Fin 1 → Nat) a + S1.size a ≤ S128.size a
  inb_S128x1x128_S1x1x128_35_0_0 : ∀ a, (![35, 0, 0] : Fin 3 → Nat) a + S1x1x128.size a ≤ S128x1x128.size a
  inb_S128_S1_36 : ∀ a, (![36] : Fin 1 → Nat) a + S1.size a ≤ S128.size a
  inb_S128x1x128_S1x1x128_36_0_0 : ∀ a, (![36, 0, 0] : Fin 3 → Nat) a + S1x1x128.size a ≤ S128x1x128.size a
  inb_S128_S1_37 : ∀ a, (![37] : Fin 1 → Nat) a + S1.size a ≤ S128.size a
  inb_S128x1x128_S1x1x128_37_0_0 : ∀ a, (![37, 0, 0] : Fin 3 → Nat) a + S1x1x128.size a ≤ S128x1x128.size a
  inb_S128_S1_38 : ∀ a, (![38] : Fin 1 → Nat) a + S1.size a ≤ S128.size a
  inb_S128x1x128_S1x1x128_38_0_0 : ∀ a, (![38, 0, 0] : Fin 3 → Nat) a + S1x1x128.size a ≤ S128x1x128.size a
  inb_S128_S1_39 : ∀ a, (![39] : Fin 1 → Nat) a + S1.size a ≤ S128.size a
  inb_S128x1x128_S1x1x128_39_0_0 : ∀ a, (![39, 0, 0] : Fin 3 → Nat) a + S1x1x128.size a ≤ S128x1x128.size a
  inb_S128_S1_40 : ∀ a, (![40] : Fin 1 → Nat) a + S1.size a ≤ S128.size a
  inb_S128x1x128_S1x1x128_40_0_0 : ∀ a, (![40, 0, 0] : Fin 3 → Nat) a + S1x1x128.size a ≤ S128x1x128.size a
  inb_S128_S1_41 : ∀ a, (![41] : Fin 1 → Nat) a + S1.size a ≤ S128.size a
  inb_S128x1x128_S1x1x128_41_0_0 : ∀ a, (![41, 0, 0] : Fin 3 → Nat) a + S1x1x128.size a ≤ S128x1x128.size a
  inb_S128_S1_42 : ∀ a, (![42] : Fin 1 → Nat) a + S1.size a ≤ S128.size a
  inb_S128x1x128_S1x1x128_42_0_0 : ∀ a, (![42, 0, 0] : Fin 3 → Nat) a + S1x1x128.size a ≤ S128x1x128.size a
  inb_S128_S1_43 : ∀ a, (![43] : Fin 1 → Nat) a + S1.size a ≤ S128.size a
  inb_S128x1x128_S1x1x128_43_0_0 : ∀ a, (![43, 0, 0] : Fin 3 → Nat) a + S1x1x128.size a ≤ S128x1x128.size a
  inb_S128_S1_44 : ∀ a, (![44] : Fin 1 → Nat) a + S1.size a ≤ S128.size a
  inb_S128x1x128_S1x1x128_44_0_0 : ∀ a, (![44, 0, 0] : Fin 3 → Nat) a + S1x1x128.size a ≤ S128x1x128.size a
  inb_S128_S1_45 : ∀ a, (![45] : Fin 1 → Nat) a + S1.size a ≤ S128.size a
  inb_S128x1x128_S1x1x128_45_0_0 : ∀ a, (![45, 0, 0] : Fin 3 → Nat) a + S1x1x128.size a ≤ S128x1x128.size a
  inb_S128_S1_46 : ∀ a, (![46] : Fin 1 → Nat) a + S1.size a ≤ S128.size a
  inb_S128x1x128_S1x1x128_46_0_0 : ∀ a, (![46, 0, 0] : Fin 3 → Nat) a + S1x1x128.size a ≤ S128x1x128.size a
  inb_S128_S1_47 : ∀ a, (![47] : Fin 1 → Nat) a + S1.size a ≤ S128.size a
  inb_S128x1x128_S1x1x128_47_0_0 : ∀ a, (![47, 0, 0] : Fin 3 → Nat) a + S1x1x128.size a ≤ S128x1x128.size a
  inb_S128_S1_48 : ∀ a, (![48] : Fin 1 → Nat) a + S1.size a ≤ S128.size a
  inb_S128x1x128_S1x1x128_48_0_0 : ∀ a, (![48, 0, 0] : Fin 3 → Nat) a + S1x1x128.size a ≤ S128x1x128.size a
  inb_S128_S1_49 : ∀ a, (![49] : Fin 1 → Nat) a + S1.size a ≤ S128.size a
  inb_S128x1x128_S1x1x128_49_0_0 : ∀ a, (![49, 0, 0] : Fin 3 → Nat) a + S1x1x128.size a ≤ S128x1x128.size a
  inb_S128_S1_50 : ∀ a, (![50] : Fin 1 → Nat) a + S1.size a ≤ S128.size a
  inb_S128x1x128_S1x1x128_50_0_0 : ∀ a, (![50, 0, 0] : Fin 3 → Nat) a + S1x1x128.size a ≤ S128x1x128.size a
  inb_S128_S1_51 : ∀ a, (![51] : Fin 1 → Nat) a + S1.size a ≤ S128.size a
  inb_S128x1x128_S1x1x128_51_0_0 : ∀ a, (![51, 0, 0] : Fin 3 → Nat) a + S1x1x128.size a ≤ S128x1x128.size a
  inb_S128_S1_52 : ∀ a, (![52] : Fin 1 → Nat) a + S1.size a ≤ S128.size a
  inb_S128x1x128_S1x1x128_52_0_0 : ∀ a, (![52, 0, 0] : Fin 3 → Nat) a + S1x1x128.size a ≤ S128x1x128.size a
  inb_S128_S1_53 : ∀ a, (![53] : Fin 1 → Nat) a + S1.size a ≤ S128.size a
  inb_S128x1x128_S1x1x128_53_0_0 : ∀ a, (![53, 0, 0] : Fin 3 → Nat) a + S1x1x128.size a ≤ S128x1x128.size a
  inb_S128_S1_54 : ∀ a, (![54] : Fin 1 → Nat) a + S1.size a ≤ S128.size a
  inb_S128x1x128_S1x1x128_54_0_0 : ∀ a, (![54, 0, 0] : Fin 3 → Nat) a + S1x1x128.size a ≤ S128x1x128.size a
  inb_S128_S1_55 : ∀ a, (![55] : Fin 1 → Nat) a + S1.size a ≤ S128.size a
  inb_S128x1x128_S1x1x128_55_0_0 : ∀ a, (![55, 0, 0] : Fin 3 → Nat) a + S1x1x128.size a ≤ S128x1x128.size a
  inb_S128_S1_56 : ∀ a, (![56] : Fin 1 → Nat) a + S1.size a ≤ S128.size a
  inb_S128x1x128_S1x1x128_56_0_0 : ∀ a, (![56, 0, 0] : Fin 3 → Nat) a + S1x1x128.size a ≤ S128x1x128.size a
  inb_S128_S1_57 : ∀ a, (![57] : Fin 1 → Nat) a + S1.size a ≤ S128.size a
  inb_S128x1x128_S1x1x128_57_0_0 : ∀ a, (![57, 0, 0] : Fin 3 → Nat) a + S1x1x128.size a ≤ S128x1x128.size a
  inb_S128_S1_58 : ∀ a, (![58] : Fin 1 → Nat) a + S1.size a ≤ S128.size a
  inb_S128x1x128_S1x1x128_58_0_0 : ∀ a, (![58, 0, 0] : Fin 3 → Nat) a + S1x1x128.size a ≤ S128x1x128.size a
  inb_S128_S1_59 : ∀ a, (![59] : Fin 1 → Nat) a + S1.size a ≤ S128.size a
  inb_S128x1x128_S1x1x128_59_0_0 : ∀ a, (![59, 0, 0] : Fin 3 → Nat) a + S1x1x128.size a ≤ S128x1x128.size a
  inb_S128_S1_60 : ∀ a, (![60] : Fin 1 → Nat) a + S1.size a ≤ S128.size a
  inb_S128x1x128_S1x1x128_60_0_0 : ∀ a, (![60, 0, 0] : Fin 3 → Nat) a + S1x1x128.size a ≤ S128x1x128.size a
  inb_S128_S1_61 : ∀ a, (![61] : Fin 1 → Nat) a + S1.size a ≤ S128.size a
  inb_S128x1x128_S1x1x128_61_0_0 : ∀ a, (![61, 0, 0] : Fin 3 → Nat) a + S1x1x128.size a ≤ S128x1x128.size a
  inb_S128_S1_62 : ∀ a, (![62] : Fin 1 → Nat) a + S1.size a ≤ S128.size a
  inb_S128x1x128_S1x1x128_62_0_0 : ∀ a, (![62, 0, 0] : Fin 3 → Nat) a + S1x1x128.size a ≤ S128x1x128.size a
  inb_S128_S1_63 : ∀ a, (![63] : Fin 1 → Nat) a + S1.size a ≤ S128.size a
  inb_S128x1x128_S1x1x128_63_0_0 : ∀ a, (![63, 0, 0] : Fin 3 → Nat) a + S1x1x128.size a ≤ S128x1x128.size a
  inb_S128_S1_64 : ∀ a, (![64] : Fin 1 → Nat) a + S1.size a ≤ S128.size a
  inb_S128x1x128_S1x1x128_64_0_0 : ∀ a, (![64, 0, 0] : Fin 3 → Nat) a + S1x1x128.size a ≤ S128x1x128.size a
  inb_S128_S1_65 : ∀ a, (![65] : Fin 1 → Nat) a + S1.size a ≤ S128.size a
  inb_S128x1x128_S1x1x128_65_0_0 : ∀ a, (![65, 0, 0] : Fin 3 → Nat) a + S1x1x128.size a ≤ S128x1x128.size a
  inb_S128_S1_66 : ∀ a, (![66] : Fin 1 → Nat) a + S1.size a ≤ S128.size a
  inb_S128x1x128_S1x1x128_66_0_0 : ∀ a, (![66, 0, 0] : Fin 3 → Nat) a + S1x1x128.size a ≤ S128x1x128.size a
  inb_S128_S1_67 : ∀ a, (![67] : Fin 1 → Nat) a + S1.size a ≤ S128.size a
  inb_S128x1x128_S1x1x128_67_0_0 : ∀ a, (![67, 0, 0] : Fin 3 → Nat) a + S1x1x128.size a ≤ S128x1x128.size a
  inb_S128_S1_68 : ∀ a, (![68] : Fin 1 → Nat) a + S1.size a ≤ S128.size a
  inb_S128x1x128_S1x1x128_68_0_0 : ∀ a, (![68, 0, 0] : Fin 3 → Nat) a + S1x1x128.size a ≤ S128x1x128.size a
  inb_S128_S1_69 : ∀ a, (![69] : Fin 1 → Nat) a + S1.size a ≤ S128.size a
  inb_S128x1x128_S1x1x128_69_0_0 : ∀ a, (![69, 0, 0] : Fin 3 → Nat) a + S1x1x128.size a ≤ S128x1x128.size a
  inb_S128_S1_70 : ∀ a, (![70] : Fin 1 → Nat) a + S1.size a ≤ S128.size a
  inb_S128x1x128_S1x1x128_70_0_0 : ∀ a, (![70, 0, 0] : Fin 3 → Nat) a + S1x1x128.size a ≤ S128x1x128.size a
  inb_S128_S1_71 : ∀ a, (![71] : Fin 1 → Nat) a + S1.size a ≤ S128.size a
  inb_S128x1x128_S1x1x128_71_0_0 : ∀ a, (![71, 0, 0] : Fin 3 → Nat) a + S1x1x128.size a ≤ S128x1x128.size a
  inb_S128_S1_72 : ∀ a, (![72] : Fin 1 → Nat) a + S1.size a ≤ S128.size a
  inb_S128x1x128_S1x1x128_72_0_0 : ∀ a, (![72, 0, 0] : Fin 3 → Nat) a + S1x1x128.size a ≤ S128x1x128.size a
  inb_S128_S1_73 : ∀ a, (![73] : Fin 1 → Nat) a + S1.size a ≤ S128.size a
  inb_S128x1x128_S1x1x128_73_0_0 : ∀ a, (![73, 0, 0] : Fin 3 → Nat) a + S1x1x128.size a ≤ S128x1x128.size a
  inb_S128_S1_74 : ∀ a, (![74] : Fin 1 → Nat) a + S1.size a ≤ S128.size a
  inb_S128x1x128_S1x1x128_74_0_0 : ∀ a, (![74, 0, 0] : Fin 3 → Nat) a + S1x1x128.size a ≤ S128x1x128.size a
  inb_S128_S1_75 : ∀ a, (![75] : Fin 1 → Nat) a + S1.size a ≤ S128.size a
  inb_S128x1x128_S1x1x128_75_0_0 : ∀ a, (![75, 0, 0] : Fin 3 → Nat) a + S1x1x128.size a ≤ S128x1x128.size a
  inb_S128_S1_76 : ∀ a, (![76] : Fin 1 → Nat) a + S1.size a ≤ S128.size a
  inb_S128x1x128_S1x1x128_76_0_0 : ∀ a, (![76, 0, 0] : Fin 3 → Nat) a + S1x1x128.size a ≤ S128x1x128.size a
  inb_S128_S1_77 : ∀ a, (![77] : Fin 1 → Nat) a + S1.size a ≤ S128.size a
  inb_S128x1x128_S1x1x128_77_0_0 : ∀ a, (![77, 0, 0] : Fin 3 → Nat) a + S1x1x128.size a ≤ S128x1x128.size a
  inb_S128_S1_78 : ∀ a, (![78] : Fin 1 → Nat) a + S1.size a ≤ S128.size a
  inb_S128x1x128_S1x1x128_78_0_0 : ∀ a, (![78, 0, 0] : Fin 3 → Nat) a + S1x1x128.size a ≤ S128x1x128.size a
  inb_S128_S1_79 : ∀ a, (![79] : Fin 1 → Nat) a + S1.size a ≤ S128.size a
  inb_S128x1x128_S1x1x128_79_0_0 : ∀ a, (![79, 0, 0] : Fin 3 → Nat) a + S1x1x128.size a ≤ S128x1x128.size a
  inb_S128_S1_80 : ∀ a, (![80] : Fin 1 → Nat) a + S1.size a ≤ S128.size a
  inb_S128x1x128_S1x1x128_80_0_0 : ∀ a, (![80, 0, 0] : Fin 3 → Nat) a + S1x1x128.size a ≤ S128x1x128.size a
  inb_S128_S1_81 : ∀ a, (![81] : Fin 1 → Nat) a + S1.size a ≤ S128.size a
  inb_S128x1x128_S1x1x128_81_0_0 : ∀ a, (![81, 0, 0] : Fin 3 → Nat) a + S1x1x128.size a ≤ S128x1x128.size a
  inb_S128_S1_82 : ∀ a, (![82] : Fin 1 → Nat) a + S1.size a ≤ S128.size a
  inb_S128x1x128_S1x1x128_82_0_0 : ∀ a, (![82, 0, 0] : Fin 3 → Nat) a + S1x1x128.size a ≤ S128x1x128.size a
  inb_S128_S1_83 : ∀ a, (![83] : Fin 1 → Nat) a + S1.size a ≤ S128.size a
  inb_S128x1x128_S1x1x128_83_0_0 : ∀ a, (![83, 0, 0] : Fin 3 → Nat) a + S1x1x128.size a ≤ S128x1x128.size a
  inb_S128_S1_84 : ∀ a, (![84] : Fin 1 → Nat) a + S1.size a ≤ S128.size a
  inb_S128x1x128_S1x1x128_84_0_0 : ∀ a, (![84, 0, 0] : Fin 3 → Nat) a + S1x1x128.size a ≤ S128x1x128.size a
  inb_S128_S1_85 : ∀ a, (![85] : Fin 1 → Nat) a + S1.size a ≤ S128.size a
  inb_S128x1x128_S1x1x128_85_0_0 : ∀ a, (![85, 0, 0] : Fin 3 → Nat) a + S1x1x128.size a ≤ S128x1x128.size a
  inb_S128_S1_86 : ∀ a, (![86] : Fin 1 → Nat) a + S1.size a ≤ S128.size a
  inb_S128x1x128_S1x1x128_86_0_0 : ∀ a, (![86, 0, 0] : Fin 3 → Nat) a + S1x1x128.size a ≤ S128x1x128.size a
  inb_S128_S1_87 : ∀ a, (![87] : Fin 1 → Nat) a + S1.size a ≤ S128.size a
  inb_S128x1x128_S1x1x128_87_0_0 : ∀ a, (![87, 0, 0] : Fin 3 → Nat) a + S1x1x128.size a ≤ S128x1x128.size a
  inb_S128_S1_88 : ∀ a, (![88] : Fin 1 → Nat) a + S1.size a ≤ S128.size a
  inb_S128x1x128_S1x1x128_88_0_0 : ∀ a, (![88, 0, 0] : Fin 3 → Nat) a + S1x1x128.size a ≤ S128x1x128.size a
  inb_S128_S1_89 : ∀ a, (![89] : Fin 1 → Nat) a + S1.size a ≤ S128.size a
  inb_S128x1x128_S1x1x128_89_0_0 : ∀ a, (![89, 0, 0] : Fin 3 → Nat) a + S1x1x128.size a ≤ S128x1x128.size a
  inb_S128_S1_90 : ∀ a, (![90] : Fin 1 → Nat) a + S1.size a ≤ S128.size a
  inb_S128x1x128_S1x1x128_90_0_0 : ∀ a, (![90, 0, 0] : Fin 3 → Nat) a + S1x1x128.size a ≤ S128x1x128.size a
  inb_S128_S1_91 : ∀ a, (![91] : Fin 1 → Nat) a + S1.size a ≤ S128.size a
  inb_S128x1x128_S1x1x128_91_0_0 : ∀ a, (![91, 0, 0] : Fin 3 → Nat) a + S1x1x128.size a ≤ S128x1x128.size a
  inb_S128_S1_92 : ∀ a, (![92] : Fin 1 → Nat) a + S1.size a ≤ S128.size a
  inb_S128x1x128_S1x1x128_92_0_0 : ∀ a, (![92, 0, 0] : Fin 3 → Nat) a + S1x1x128.size a ≤ S128x1x128.size a
  inb_S128_S1_93 : ∀ a, (![93] : Fin 1 → Nat) a + S1.size a ≤ S128.size a
  inb_S128x1x128_S1x1x128_93_0_0 : ∀ a, (![93, 0, 0] : Fin 3 → Nat) a + S1x1x128.size a ≤ S128x1x128.size a
  inb_S128_S1_94 : ∀ a, (![94] : Fin 1 → Nat) a + S1.size a ≤ S128.size a
  inb_S128x1x128_S1x1x128_94_0_0 : ∀ a, (![94, 0, 0] : Fin 3 → Nat) a + S1x1x128.size a ≤ S128x1x128.size a
  inb_S128_S1_95 : ∀ a, (![95] : Fin 1 → Nat) a + S1.size a ≤ S128.size a
  inb_S128x1x128_S1x1x128_95_0_0 : ∀ a, (![95, 0, 0] : Fin 3 → Nat) a + S1x1x128.size a ≤ S128x1x128.size a
  inb_S128_S1_96 : ∀ a, (![96] : Fin 1 → Nat) a + S1.size a ≤ S128.size a
  inb_S128x1x128_S1x1x128_96_0_0 : ∀ a, (![96, 0, 0] : Fin 3 → Nat) a + S1x1x128.size a ≤ S128x1x128.size a
  inb_S128_S1_97 : ∀ a, (![97] : Fin 1 → Nat) a + S1.size a ≤ S128.size a
  inb_S128x1x128_S1x1x128_97_0_0 : ∀ a, (![97, 0, 0] : Fin 3 → Nat) a + S1x1x128.size a ≤ S128x1x128.size a
  inb_S128_S1_98 : ∀ a, (![98] : Fin 1 → Nat) a + S1.size a ≤ S128.size a
  inb_S128x1x128_S1x1x128_98_0_0 : ∀ a, (![98, 0, 0] : Fin 3 → Nat) a + S1x1x128.size a ≤ S128x1x128.size a
  inb_S128_S1_99 : ∀ a, (![99] : Fin 1 → Nat) a + S1.size a ≤ S128.size a
  inb_S128x1x128_S1x1x128_99_0_0 : ∀ a, (![99, 0, 0] : Fin 3 → Nat) a + S1x1x128.size a ≤ S128x1x128.size a
  inb_S128_S1_100 : ∀ a, (![100] : Fin 1 → Nat) a + S1.size a ≤ S128.size a
  inb_S128x1x128_S1x1x128_100_0_0 : ∀ a, (![100, 0, 0] : Fin 3 → Nat) a + S1x1x128.size a ≤ S128x1x128.size a
  inb_S128_S1_101 : ∀ a, (![101] : Fin 1 → Nat) a + S1.size a ≤ S128.size a
  inb_S128x1x128_S1x1x128_101_0_0 : ∀ a, (![101, 0, 0] : Fin 3 → Nat) a + S1x1x128.size a ≤ S128x1x128.size a
  inb_S128_S1_102 : ∀ a, (![102] : Fin 1 → Nat) a + S1.size a ≤ S128.size a
  inb_S128x1x128_S1x1x128_102_0_0 : ∀ a, (![102, 0, 0] : Fin 3 → Nat) a + S1x1x128.size a ≤ S128x1x128.size a
  inb_S128_S1_103 : ∀ a, (![103] : Fin 1 → Nat) a + S1.size a ≤ S128.size a
  inb_S128x1x128_S1x1x128_103_0_0 : ∀ a, (![103, 0, 0] : Fin 3 → Nat) a + S1x1x128.size a ≤ S128x1x128.size a
  inb_S128_S1_104 : ∀ a, (![104] : Fin 1 → Nat) a + S1.size a ≤ S128.size a
  inb_S128x1x128_S1x1x128_104_0_0 : ∀ a, (![104, 0, 0] : Fin 3 → Nat) a + S1x1x128.size a ≤ S128x1x128.size a
  inb_S128_S1_105 : ∀ a, (![105] : Fin 1 → Nat) a + S1.size a ≤ S128.size a
  inb_S128x1x128_S1x1x128_105_0_0 : ∀ a, (![105, 0, 0] : Fin 3 → Nat) a + S1x1x128.size a ≤ S128x1x128.size a
  inb_S128_S1_106 : ∀ a, (![106] : Fin 1 → Nat) a + S1.size a ≤ S128.size a
  inb_S128x1x128_S1x1x128_106_0_0 : ∀ a, (![106, 0, 0] : Fin 3 → Nat) a + S1x1x128.size a ≤ S128x1x128.size a
  inb_S128_S1_107 : ∀ a, (![107] : Fin 1 → Nat) a + S1.size a ≤ S128.size a
  inb_S128x1x128_S1x1x128_107_0_0 : ∀ a, (![107, 0, 0] : Fin 3 → Nat) a + S1x1x128.size a ≤ S128x1x128.size a
  inb_S128_S1_108 : ∀ a, (![108] : Fin 1 → Nat) a + S1.size a ≤ S128.size a
  inb_S128x1x128_S1x1x128_108_0_0 : ∀ a, (![108, 0, 0] : Fin 3 → Nat) a + S1x1x128.size a ≤ S128x1x128.size a
  inb_S128_S1_109 : ∀ a, (![109] : Fin 1 → Nat) a + S1.size a ≤ S128.size a
  inb_S128x1x128_S1x1x128_109_0_0 : ∀ a, (![109, 0, 0] : Fin 3 → Nat) a + S1x1x128.size a ≤ S128x1x128.size a
  inb_S128_S1_110 : ∀ a, (![110] : Fin 1 → Nat) a + S1.size a ≤ S128.size a
  inb_S128x1x128_S1x1x128_110_0_0 : ∀ a, (![110, 0, 0] : Fin 3 → Nat) a + S1x1x128.size a ≤ S128x1x128.size a
  inb_S128_S1_111 : ∀ a, (![111] : Fin 1 → Nat) a + S1.size a ≤ S128.size a
  inb_S128x1x128_S1x1x128_111_0_0 : ∀ a, (![111, 0, 0] : Fin 3 → Nat) a + S1x1x128.size a ≤ S128x1x128.size a
  inb_S128_S1_112 : ∀ a, (![112] : Fin 1 → Nat) a + S1.size a ≤ S128.size a
  inb_S128x1x128_S1x1x128_112_0_0 : ∀ a, (![112, 0, 0] : Fin 3 → Nat) a + S1x1x128.size a ≤ S128x1x128.size a
  inb_S128_S1_113 : ∀ a, (![113] : Fin 1 → Nat) a + S1.size a ≤ S128.size a
  inb_S128x1x128_S1x1x128_113_0_0 : ∀ a, (![113, 0, 0] : Fin 3 → Nat) a + S1x1x128.size a ≤ S128x1x128.size a
  inb_S128_S1_114 : ∀ a, (![114] : Fin 1 → Nat) a + S1.size a ≤ S128.size a
  inb_S128x1x128_S1x1x128_114_0_0 : ∀ a, (![114, 0, 0] : Fin 3 → Nat) a + S1x1x128.size a ≤ S128x1x128.size a
  inb_S128_S1_115 : ∀ a, (![115] : Fin 1 → Nat) a + S1.size a ≤ S128.size a
  inb_S128x1x128_S1x1x128_115_0_0 : ∀ a, (![115, 0, 0] : Fin 3 → Nat) a + S1x1x128.size a ≤ S128x1x128.size a
  inb_S128_S1_116 : ∀ a, (![116] : Fin 1 → Nat) a + S1.size a ≤ S128.size a
  inb_S128x1x128_S1x1x128_116_0_0 : ∀ a, (![116, 0, 0] : Fin 3 → Nat) a + S1x1x128.size a ≤ S128x1x128.size a
  inb_S128_S1_117 : ∀ a, (![117] : Fin 1 → Nat) a + S1.size a ≤ S128.size a
  inb_S128x1x128_S1x1x128_117_0_0 : ∀ a, (![117, 0, 0] : Fin 3 → Nat) a + S1x1x128.size a ≤ S128x1x128.size a
  inb_S128_S1_118 : ∀ a, (![118] : Fin 1 → Nat) a + S1.size a ≤ S128.size a
  inb_S128x1x128_S1x1x128_118_0_0 : ∀ a, (![118, 0, 0] : Fin 3 → Nat) a + S1x1x128.size a ≤ S128x1x128.size a
  inb_S128_S1_119 : ∀ a, (![119] : Fin 1 → Nat) a + S1.size a ≤ S128.size a
  inb_S128x1x128_S1x1x128_119_0_0 : ∀ a, (![119, 0, 0] : Fin 3 → Nat) a + S1x1x128.size a ≤ S128x1x128.size a
  inb_S128_S1_120 : ∀ a, (![120] : Fin 1 → Nat) a + S1.size a ≤ S128.size a
  inb_S128x1x128_S1x1x128_120_0_0 : ∀ a, (![120, 0, 0] : Fin 3 → Nat) a + S1x1x128.size a ≤ S128x1x128.size a
  inb_S128_S1_121 : ∀ a, (![121] : Fin 1 → Nat) a + S1.size a ≤ S128.size a
  inb_S128x1x128_S1x1x128_121_0_0 : ∀ a, (![121, 0, 0] : Fin 3 → Nat) a + S1x1x128.size a ≤ S128x1x128.size a
  inb_S128_S1_122 : ∀ a, (![122] : Fin 1 → Nat) a + S1.size a ≤ S128.size a
  inb_S128x1x128_S1x1x128_122_0_0 : ∀ a, (![122, 0, 0] : Fin 3 → Nat) a + S1x1x128.size a ≤ S128x1x128.size a
  inb_S128_S1_123 : ∀ a, (![123] : Fin 1 → Nat) a + S1.size a ≤ S128.size a
  inb_S128x1x128_S1x1x128_123_0_0 : ∀ a, (![123, 0, 0] : Fin 3 → Nat) a + S1x1x128.size a ≤ S128x1x128.size a
  inb_S128_S1_124 : ∀ a, (![124] : Fin 1 → Nat) a + S1.size a ≤ S128.size a
  inb_S128x1x128_S1x1x128_124_0_0 : ∀ a, (![124, 0, 0] : Fin 3 → Nat) a + S1x1x128.size a ≤ S128x1x128.size a
  inb_S128_S1_125 : ∀ a, (![125] : Fin 1 → Nat) a + S1.size a ≤ S128.size a
  inb_S128x1x128_S1x1x128_125_0_0 : ∀ a, (![125, 0, 0] : Fin 3 → Nat) a + S1x1x128.size a ≤ S128x1x128.size a
  inb_S128_S1_126 : ∀ a, (![126] : Fin 1 → Nat) a + S1.size a ≤ S128.size a
  inb_S128x1x128_S1x1x128_126_0_0 : ∀ a, (![126, 0, 0] : Fin 3 → Nat) a + S1x1x128.size a ≤ S128x1x128.size a
  inb_S128_S1_127 : ∀ a, (![127] : Fin 1 → Nat) a + S1.size a ≤ S128.size a
  inb_S128x1x128_S1x1x128_127_0_0 : ∀ a, (![127, 0, 0] : Fin 3 → Nat) a + S1x1x128.size a ≤ S128x1x128.size a
  inb_S128x1x128_S128x1x128_0_0_0 : ∀ a, (![0, 0, 0] : Fin 3 → Nat) a + S128x1x128.size a ≤ S128x1x128.size a
  h_S128x1x128 : 0 < S128x1x128.numel
  shapeCasts_S128x1x128_S128x128 : S128x1x128.ShapeCasts S128x128
  inb_S128x128_S128x128_0_0 : ∀ a, (![0, 0] : Fin 2 → Nat) a + S128x128.size a ≤ S128x128.size a
  h_S128x128 : 0 < S128x128.numel
  hcc0_scratch1 : 2 + S128.numel ≤ 130
  hrank0 : 0 < grid0.rank
  k0_off1_inb : ∀ i : grid0.Coords, ∀ a, (k0_off1 i) a + S1.size a ≤ S16384.size a
  k0_off3_inb : ∀ i : grid0.Coords, ∀ a, (k0_off3 i) a + S1.size a ≤ S16384.size a
  k0_off5_inb : ∀ i : grid0.Coords, ∀ a, (k0_off5 i) a + S1.size a ≤ S16384.size a
  k0_off7_inb : ∀ i : grid0.Coords, ∀ a, (k0_off7 i) a + S1.size a ≤ S16384.size a
  k0_off9_inb : ∀ i : grid0.Coords, ∀ a, (k0_off9 i) a + S1.size a ≤ S16384.size a
  k0_off11_inb : ∀ i : grid0.Coords, ∀ a, (k0_off11 i) a + S1.size a ≤ S16384.size a
  k0_off13_inb : ∀ i : grid0.Coords, ∀ a, (k0_off13 i) a + S1.size a ≤ S16384.size a
  k0_off15_inb : ∀ i : grid0.Coords, ∀ a, (k0_off15 i) a + S1.size a ≤ S16384.size a
  k0_off17_inb : ∀ i : grid0.Coords, ∀ a, (k0_off17 i) a + S1.size a ≤ S16384.size a
  k0_off19_inb : ∀ i : grid0.Coords, ∀ a, (k0_off19 i) a + S1.size a ≤ S16384.size a
  k0_off21_inb : ∀ i : grid0.Coords, ∀ a, (k0_off21 i) a + S1.size a ≤ S16384.size a
  k0_off23_inb : ∀ i : grid0.Coords, ∀ a, (k0_off23 i) a + S1.size a ≤ S16384.size a
  k0_off25_inb : ∀ i : grid0.Coords, ∀ a, (k0_off25 i) a + S1.size a ≤ S16384.size a
  k0_off27_inb : ∀ i : grid0.Coords, ∀ a, (k0_off27 i) a + S1.size a ≤ S16384.size a
  k0_off29_inb : ∀ i : grid0.Coords, ∀ a, (k0_off29 i) a + S1.size a ≤ S16384.size a
  k0_off31_inb : ∀ i : grid0.Coords, ∀ a, (k0_off31 i) a + S1.size a ≤ S16384.size a
  k0_off33_inb : ∀ i : grid0.Coords, ∀ a, (k0_off33 i) a + S1.size a ≤ S16384.size a
  k0_off35_inb : ∀ i : grid0.Coords, ∀ a, (k0_off35 i) a + S1.size a ≤ S16384.size a
  k0_off37_inb : ∀ i : grid0.Coords, ∀ a, (k0_off37 i) a + S1.size a ≤ S16384.size a
  k0_off39_inb : ∀ i : grid0.Coords, ∀ a, (k0_off39 i) a + S1.size a ≤ S16384.size a
  k0_off41_inb : ∀ i : grid0.Coords, ∀ a, (k0_off41 i) a + S1.size a ≤ S16384.size a
  k0_off43_inb : ∀ i : grid0.Coords, ∀ a, (k0_off43 i) a + S1.size a ≤ S16384.size a
  k0_off45_inb : ∀ i : grid0.Coords, ∀ a, (k0_off45 i) a + S1.size a ≤ S16384.size a
  k0_off47_inb : ∀ i : grid0.Coords, ∀ a, (k0_off47 i) a + S1.size a ≤ S16384.size a
  k0_off49_inb : ∀ i : grid0.Coords, ∀ a, (k0_off49 i) a + S1.size a ≤ S16384.size a
  k0_off51_inb : ∀ i : grid0.Coords, ∀ a, (k0_off51 i) a + S1.size a ≤ S16384.size a
  k0_off53_inb : ∀ i : grid0.Coords, ∀ a, (k0_off53 i) a + S1.size a ≤ S16384.size a
  k0_off55_inb : ∀ i : grid0.Coords, ∀ a, (k0_off55 i) a + S1.size a ≤ S16384.size a
  k0_off57_inb : ∀ i : grid0.Coords, ∀ a, (k0_off57 i) a + S1.size a ≤ S16384.size a
  k0_off59_inb : ∀ i : grid0.Coords, ∀ a, (k0_off59 i) a + S1.size a ≤ S16384.size a
  k0_off61_inb : ∀ i : grid0.Coords, ∀ a, (k0_off61 i) a + S1.size a ≤ S16384.size a
  k0_off63_inb : ∀ i : grid0.Coords, ∀ a, (k0_off63 i) a + S1.size a ≤ S16384.size a
  k0_off65_inb : ∀ i : grid0.Coords, ∀ a, (k0_off65 i) a + S1.size a ≤ S16384.size a
  k0_off67_inb : ∀ i : grid0.Coords, ∀ a, (k0_off67 i) a + S1.size a ≤ S16384.size a
  k0_off69_inb : ∀ i : grid0.Coords, ∀ a, (k0_off69 i) a + S1.size a ≤ S16384.size a
  k0_off71_inb : ∀ i : grid0.Coords, ∀ a, (k0_off71 i) a + S1.size a ≤ S16384.size a
  k0_off73_inb : ∀ i : grid0.Coords, ∀ a, (k0_off73 i) a + S1.size a ≤ S16384.size a
  k0_off75_inb : ∀ i : grid0.Coords, ∀ a, (k0_off75 i) a + S1.size a ≤ S16384.size a
  k0_off77_inb : ∀ i : grid0.Coords, ∀ a, (k0_off77 i) a + S1.size a ≤ S16384.size a
  k0_off79_inb : ∀ i : grid0.Coords, ∀ a, (k0_off79 i) a + S1.size a ≤ S16384.size a
  k0_off81_inb : ∀ i : grid0.Coords, ∀ a, (k0_off81 i) a + S1.size a ≤ S16384.size a
  k0_off83_inb : ∀ i : grid0.Coords, ∀ a, (k0_off83 i) a + S1.size a ≤ S16384.size a
  k0_off85_inb : ∀ i : grid0.Coords, ∀ a, (k0_off85 i) a + S1.size a ≤ S16384.size a
  k0_off87_inb : ∀ i : grid0.Coords, ∀ a, (k0_off87 i) a + S1.size a ≤ S16384.size a
  k0_off89_inb : ∀ i : grid0.Coords, ∀ a, (k0_off89 i) a + S1.size a ≤ S16384.size a
  k0_off91_inb : ∀ i : grid0.Coords, ∀ a, (k0_off91 i) a + S1.size a ≤ S16384.size a
  k0_off93_inb : ∀ i : grid0.Coords, ∀ a, (k0_off93 i) a + S1.size a ≤ S16384.size a
  k0_off95_inb : ∀ i : grid0.Coords, ∀ a, (k0_off95 i) a + S1.size a ≤ S16384.size a
  k0_off97_inb : ∀ i : grid0.Coords, ∀ a, (k0_off97 i) a + S1.size a ≤ S16384.size a
  k0_off99_inb : ∀ i : grid0.Coords, ∀ a, (k0_off99 i) a + S1.size a ≤ S16384.size a
  k0_off101_inb : ∀ i : grid0.Coords, ∀ a, (k0_off101 i) a + S1.size a ≤ S16384.size a
  k0_off103_inb : ∀ i : grid0.Coords, ∀ a, (k0_off103 i) a + S1.size a ≤ S16384.size a
  k0_off105_inb : ∀ i : grid0.Coords, ∀ a, (k0_off105 i) a + S1.size a ≤ S16384.size a
  k0_off107_inb : ∀ i : grid0.Coords, ∀ a, (k0_off107 i) a + S1.size a ≤ S16384.size a
  k0_off109_inb : ∀ i : grid0.Coords, ∀ a, (k0_off109 i) a + S1.size a ≤ S16384.size a
  k0_off111_inb : ∀ i : grid0.Coords, ∀ a, (k0_off111 i) a + S1.size a ≤ S16384.size a
  k0_off113_inb : ∀ i : grid0.Coords, ∀ a, (k0_off113 i) a + S1.size a ≤ S16384.size a
  k0_off115_inb : ∀ i : grid0.Coords, ∀ a, (k0_off115 i) a + S1.size a ≤ S16384.size a
  k0_off117_inb : ∀ i : grid0.Coords, ∀ a, (k0_off117 i) a + S1.size a ≤ S16384.size a
  k0_off119_inb : ∀ i : grid0.Coords, ∀ a, (k0_off119 i) a + S1.size a ≤ S16384.size a
  k0_off121_inb : ∀ i : grid0.Coords, ∀ a, (k0_off121 i) a + S1.size a ≤ S16384.size a
  k0_off123_inb : ∀ i : grid0.Coords, ∀ a, (k0_off123 i) a + S1.size a ≤ S16384.size a
  k0_off125_inb : ∀ i : grid0.Coords, ∀ a, (k0_off125 i) a + S1.size a ≤ S16384.size a
  k0_off127_inb : ∀ i : grid0.Coords, ∀ a, (k0_off127 i) a + S1.size a ≤ S16384.size a
  k0_off129_inb : ∀ i : grid0.Coords, ∀ a, (k0_off129 i) a + S1.size a ≤ S16384.size a
  k0_off131_inb : ∀ i : grid0.Coords, ∀ a, (k0_off131 i) a + S1.size a ≤ S16384.size a
  k0_off133_inb : ∀ i : grid0.Coords, ∀ a, (k0_off133 i) a + S1.size a ≤ S16384.size a
  k0_off135_inb : ∀ i : grid0.Coords, ∀ a, (k0_off135 i) a + S1.size a ≤ S16384.size a
  k0_off137_inb : ∀ i : grid0.Coords, ∀ a, (k0_off137 i) a + S1.size a ≤ S16384.size a
  k0_off139_inb : ∀ i : grid0.Coords, ∀ a, (k0_off139 i) a + S1.size a ≤ S16384.size a
  k0_off141_inb : ∀ i : grid0.Coords, ∀ a, (k0_off141 i) a + S1.size a ≤ S16384.size a
  k0_off143_inb : ∀ i : grid0.Coords, ∀ a, (k0_off143 i) a + S1.size a ≤ S16384.size a
  k0_off145_inb : ∀ i : grid0.Coords, ∀ a, (k0_off145 i) a + S1.size a ≤ S16384.size a
  k0_off147_inb : ∀ i : grid0.Coords, ∀ a, (k0_off147 i) a + S1.size a ≤ S16384.size a
  k0_off149_inb : ∀ i : grid0.Coords, ∀ a, (k0_off149 i) a + S1.size a ≤ S16384.size a
  k0_off151_inb : ∀ i : grid0.Coords, ∀ a, (k0_off151 i) a + S1.size a ≤ S16384.size a
  k0_off153_inb : ∀ i : grid0.Coords, ∀ a, (k0_off153 i) a + S1.size a ≤ S16384.size a
  k0_off155_inb : ∀ i : grid0.Coords, ∀ a, (k0_off155 i) a + S1.size a ≤ S16384.size a
  k0_off157_inb : ∀ i : grid0.Coords, ∀ a, (k0_off157 i) a + S1.size a ≤ S16384.size a
  k0_off159_inb : ∀ i : grid0.Coords, ∀ a, (k0_off159 i) a + S1.size a ≤ S16384.size a
  k0_off161_inb : ∀ i : grid0.Coords, ∀ a, (k0_off161 i) a + S1.size a ≤ S16384.size a
  k0_off163_inb : ∀ i : grid0.Coords, ∀ a, (k0_off163 i) a + S1.size a ≤ S16384.size a
  k0_off165_inb : ∀ i : grid0.Coords, ∀ a, (k0_off165 i) a + S1.size a ≤ S16384.size a
  k0_off167_inb : ∀ i : grid0.Coords, ∀ a, (k0_off167 i) a + S1.size a ≤ S16384.size a
  k0_off169_inb : ∀ i : grid0.Coords, ∀ a, (k0_off169 i) a + S1.size a ≤ S16384.size a
  k0_off171_inb : ∀ i : grid0.Coords, ∀ a, (k0_off171 i) a + S1.size a ≤ S16384.size a
  k0_off173_inb : ∀ i : grid0.Coords, ∀ a, (k0_off173 i) a + S1.size a ≤ S16384.size a
  k0_off175_inb : ∀ i : grid0.Coords, ∀ a, (k0_off175 i) a + S1.size a ≤ S16384.size a
  k0_off177_inb : ∀ i : grid0.Coords, ∀ a, (k0_off177 i) a + S1.size a ≤ S16384.size a
  k0_off179_inb : ∀ i : grid0.Coords, ∀ a, (k0_off179 i) a + S1.size a ≤ S16384.size a
  k0_off181_inb : ∀ i : grid0.Coords, ∀ a, (k0_off181 i) a + S1.size a ≤ S16384.size a
  k0_off183_inb : ∀ i : grid0.Coords, ∀ a, (k0_off183 i) a + S1.size a ≤ S16384.size a
  k0_off185_inb : ∀ i : grid0.Coords, ∀ a, (k0_off185 i) a + S1.size a ≤ S16384.size a
  k0_off187_inb : ∀ i : grid0.Coords, ∀ a, (k0_off187 i) a + S1.size a ≤ S16384.size a
  k0_off189_inb : ∀ i : grid0.Coords, ∀ a, (k0_off189 i) a + S1.size a ≤ S16384.size a
  k0_off191_inb : ∀ i : grid0.Coords, ∀ a, (k0_off191 i) a + S1.size a ≤ S16384.size a
  k0_off193_inb : ∀ i : grid0.Coords, ∀ a, (k0_off193 i) a + S1.size a ≤ S16384.size a
  k0_off195_inb : ∀ i : grid0.Coords, ∀ a, (k0_off195 i) a + S1.size a ≤ S16384.size a
  k0_off197_inb : ∀ i : grid0.Coords, ∀ a, (k0_off197 i) a + S1.size a ≤ S16384.size a
  k0_off199_inb : ∀ i : grid0.Coords, ∀ a, (k0_off199 i) a + S1.size a ≤ S16384.size a
  k0_off201_inb : ∀ i : grid0.Coords, ∀ a, (k0_off201 i) a + S1.size a ≤ S16384.size a
  k0_off203_inb : ∀ i : grid0.Coords, ∀ a, (k0_off203 i) a + S1.size a ≤ S16384.size a
  k0_off205_inb : ∀ i : grid0.Coords, ∀ a, (k0_off205 i) a + S1.size a ≤ S16384.size a
  k0_off207_inb : ∀ i : grid0.Coords, ∀ a, (k0_off207 i) a + S1.size a ≤ S16384.size a
  k0_off209_inb : ∀ i : grid0.Coords, ∀ a, (k0_off209 i) a + S1.size a ≤ S16384.size a
  k0_off211_inb : ∀ i : grid0.Coords, ∀ a, (k0_off211 i) a + S1.size a ≤ S16384.size a
  k0_off213_inb : ∀ i : grid0.Coords, ∀ a, (k0_off213 i) a + S1.size a ≤ S16384.size a
  k0_off215_inb : ∀ i : grid0.Coords, ∀ a, (k0_off215 i) a + S1.size a ≤ S16384.size a
  k0_off217_inb : ∀ i : grid0.Coords, ∀ a, (k0_off217 i) a + S1.size a ≤ S16384.size a
  k0_off219_inb : ∀ i : grid0.Coords, ∀ a, (k0_off219 i) a + S1.size a ≤ S16384.size a
  k0_off221_inb : ∀ i : grid0.Coords, ∀ a, (k0_off221 i) a + S1.size a ≤ S16384.size a
  k0_off223_inb : ∀ i : grid0.Coords, ∀ a, (k0_off223 i) a + S1.size a ≤ S16384.size a
  k0_off225_inb : ∀ i : grid0.Coords, ∀ a, (k0_off225 i) a + S1.size a ≤ S16384.size a
  k0_off227_inb : ∀ i : grid0.Coords, ∀ a, (k0_off227 i) a + S1.size a ≤ S16384.size a
  k0_off229_inb : ∀ i : grid0.Coords, ∀ a, (k0_off229 i) a + S1.size a ≤ S16384.size a
  k0_off231_inb : ∀ i : grid0.Coords, ∀ a, (k0_off231 i) a + S1.size a ≤ S16384.size a
  k0_off233_inb : ∀ i : grid0.Coords, ∀ a, (k0_off233 i) a + S1.size a ≤ S16384.size a
  k0_off235_inb : ∀ i : grid0.Coords, ∀ a, (k0_off235 i) a + S1.size a ≤ S16384.size a
  k0_off237_inb : ∀ i : grid0.Coords, ∀ a, (k0_off237 i) a + S1.size a ≤ S16384.size a
  k0_off239_inb : ∀ i : grid0.Coords, ∀ a, (k0_off239 i) a + S1.size a ≤ S16384.size a
  k0_off241_inb : ∀ i : grid0.Coords, ∀ a, (k0_off241 i) a + S1.size a ≤ S16384.size a
  k0_off243_inb : ∀ i : grid0.Coords, ∀ a, (k0_off243 i) a + S1.size a ≤ S16384.size a
  k0_off245_inb : ∀ i : grid0.Coords, ∀ a, (k0_off245 i) a + S1.size a ≤ S16384.size a
  k0_off247_inb : ∀ i : grid0.Coords, ∀ a, (k0_off247 i) a + S1.size a ≤ S16384.size a
  k0_off249_inb : ∀ i : grid0.Coords, ∀ a, (k0_off249 i) a + S1.size a ≤ S16384.size a
  k0_off251_inb : ∀ i : grid0.Coords, ∀ a, (k0_off251 i) a + S1.size a ≤ S16384.size a
  k0_off253_inb : ∀ i : grid0.Coords, ∀ a, (k0_off253 i) a + S1.size a ≤ S16384.size a
  k0_off255_inb : ∀ i : grid0.Coords, ∀ a, (k0_off255 i) a + S1.size a ≤ S16384.size a
  hstage0_0 : ∀ j, (stage0_0 j).IsWhole
  nbuf0_0 : grid0.bufCount reads0_0 false = 2
  hreads0_0 : ∀ i i' : grid0.Coords, (∀ a, reads0_0 a = true → i a = i' a) → cc0_transform_1 i = cc0_transform_1 i'
  hinb0_0 : ∀ (i : grid0.Coords) a, (cc0_transform_1 i a + 1) * S128x128.size a ≤ S16384x128.size a
  hwx0_0 : ∀ i : grid0.Coords, EltTy.bits .f32 = 32 ∨ (Rect.block (s := S16384x128) S128x128.size (cc0_transform_1 i) (hinb0_0 i)).WholeWords (EltTy.packing .f32)

variable [Facts₀]

abbrev cc0_scratch1 : DmaSems sig S128 := SemArray.consecutive 2 S128 hcc0_scratch1

abbrev spec0_0 : Pipeline.WinSpec sig grid0.rank :=
  Pipeline.WinSpec.ofSpec (Memref.whole main_v16) S128x128.size reads0_0 true false 2 stage0_0 sem0_0 nbuf0_0 hstage0_0

abbrev spec0 : Fin 1 → Pipeline.WinSpec sig grid0.rank := fun | 0 => spec0_0 | ⟨_ + 1, h⟩ => absurd h (Nat.not_lt.2 (Nat.le_add_left _ _))
theorem hcount0 : ∀ w, grid0.bufCount (spec0 w).reads (spec0 w).sync = (spec0 w).nbuf := fun | 0 => nbuf0_0 | ⟨_ + 1, h⟩ => absurd h (Nat.not_lt.2 (Nat.le_add_left _ _))
abbrev ix0 (pf : pre0.Contents (Elt F)) : (w : Fin 1) → grid0.Coords → Fin (spec0 w).shape.rank → Nat := fun | 0 => cc0_transform_1 | ⟨_ + 1, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | ⟨_ + 1, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | ⟨_ + 1, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | ⟨_ + 1, h⟩ => absurd h (Nat.not_lt.2 (Nat.le_add_left _ _))

class Facts : Prop extends Facts₀ where
  harr0 : ∀ w, (spec0 w).arr.IsWhole

variable [Facts]
-- ==== ReferenceIdeal.lean ====
abbrev S8x128x512x512 : Shape := ⟨4, ![8, 128, 512, 512]⟩
abbrev S8x2048x2 : Shape := ⟨3, ![8, 2048, 2]⟩
abbrev S8x2048x1 : Shape := ⟨3, ![8, 2048, 1]⟩
abbrev S8x2048 : Shape := ⟨2, ![8, 2048]⟩
abbrev S8 : Shape := ⟨1, ![8]⟩
abbrev S8x1 : Shape := ⟨2, ![8, 1]⟩
abbrev S_ : Shape := ⟨0, ![]⟩
abbrev S8x2048x3 : Shape := ⟨3, ![8, 2048, 3]⟩
abbrev S8x2048x128 : Shape := ⟨3, ![8, 2048, 128]⟩
abbrev S16384x128 : Shape := ⟨2, ![16384, 128]⟩

abbrev nBuf : Space → Nat
  | .hbm => 37
  | .vmem => 0
  | .smem => 0
  | _ => 0

abbrev bufTy : (tb : Table) → Fin (tcTables nBuf tb) → BufTy
  | .hbm, ⟨0, _⟩ => ⟨S8x128x512x512, .f32⟩
  | .hbm, ⟨1, _⟩ => ⟨S8x2048x2, .i32⟩
  | .hbm, ⟨2, _⟩ => ⟨S8x2048x1, .i32⟩
  | .hbm, ⟨3, _⟩ => ⟨S8x2048, .i32⟩
  | .hbm, ⟨4, _⟩ => ⟨S8x2048x1, .i32⟩
  | .hbm, ⟨5, _⟩ => ⟨S8x2048, .i32⟩
  | .hbm, ⟨6, _⟩ => ⟨S8, .i32⟩
  | .hbm, ⟨7, _⟩ => ⟨S8x1, .i32⟩
  | .hbm, ⟨8, _⟩ => ⟨S_, .i32⟩
  | .hbm, ⟨9, _⟩ => ⟨S8x1, .i32⟩
  | .hbm, ⟨10, _⟩ => ⟨S8x1, .i1⟩
  | .hbm, ⟨11, _⟩ => ⟨S_, .i32⟩
  | .hbm, ⟨12, _⟩ => ⟨S8x1, .i32⟩
  | .hbm, ⟨13, _⟩ => ⟨S8x1, .i32⟩
  | .hbm, ⟨14, _⟩ => ⟨S8x1, .i32⟩
  | .hbm, ⟨15, _⟩ => ⟨S_, .i32⟩
  | .hbm, ⟨16, _⟩ => ⟨S8x2048, .i32⟩
  | .hbm, ⟨17, _⟩ => ⟨S8x2048, .i1⟩
  | .hbm, ⟨18, _⟩ => ⟨S_, .i32⟩
  | .hbm, ⟨19, _⟩ => ⟨S8x2048, .i32⟩
  | .hbm, ⟨20, _⟩ => ⟨S8x2048, .i32⟩
  | .hbm, ⟨21, _⟩ => ⟨S8x2048, .i32⟩
  | .hbm, ⟨22, _⟩ => ⟨S_, .i32⟩
  | .hbm, ⟨23, _⟩ => ⟨S8x2048, .i32⟩
  | .hbm, ⟨24, _⟩ => ⟨S8x2048, .i1⟩
  | .hbm, ⟨25, _⟩ => ⟨S_, .i32⟩
  | .hbm, ⟨26, _⟩ => ⟨S8x2048, .i32⟩
  | .hbm, ⟨27, _⟩ => ⟨S8x2048, .i32⟩
  | .hbm, ⟨28, _⟩ => ⟨S8x2048, .i32⟩
  | .hbm, ⟨29, _⟩ => ⟨S8x2048, .i32⟩
  | .hbm, ⟨30, _⟩ => ⟨S8x2048x1, .i32⟩
  | .hbm, ⟨31, _⟩ => ⟨S8x2048x1, .i32⟩
  | .hbm, ⟨32, _⟩ => ⟨S8x2048x1, .i32⟩
  | .hbm, ⟨33, _⟩ => ⟨S8x2048x3, .i32⟩
  | .hbm, ⟨34, _⟩ => ⟨S8x2048x128, .f32⟩
  | .hbm, ⟨35, _⟩ => ⟨S16384x128, .f32⟩
  | .hbm, ⟨36, _⟩ => ⟨S_, .i32⟩
  | _, _ => ⟨S8x128x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_v6 : Ref sig .tc := ⟨.hbm, 9, rfl⟩
abbrev main_v7 : Ref sig .tc := ⟨.hbm, 10, rfl⟩
abbrev main_c_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_c_1 : Ref sig .tc := ⟨.hbm, 15, rfl⟩
abbrev main_v11 : Ref sig .tc := ⟨.hbm, 16, rfl⟩
abbrev main_v12 : Ref sig .tc := ⟨.hbm, 17, rfl⟩
abbrev main_c_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c_3 : Ref sig .tc := ⟨.hbm, 22, rfl⟩
abbrev main_v16 : Ref sig .tc := ⟨.hbm, 23, rfl⟩
abbrev main_v17 : Ref sig .tc := ⟨.hbm, 24, rfl⟩
abbrev main_c_4 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_c_5 : Ref sig .tc := ⟨.hbm, 36, rfl⟩

abbrev nD : Nat := 1
abbrev τ : Topo := Topo.v7x

variable {F : FTy → Type} [FloatOps F]

class Facts₀ : Prop where
  slices_S8x2048x2_S8x2048x1_0_0_0 : S8x2048x2.Slices ![0, 0, 0] S8x2048x1
  shapeCasts_S8x2048x1_S8x2048 : S8x2048x1.ShapeCasts S8x2048
  slices_S8x2048x2_S8x2048x1_0_0_1 : S8x2048x2.Slices ![0, 0, 1] S8x2048x1
  bcast_S8_S8x1_0 : S8.BroadcastsInDim S8x1 (![0] : Fin 1 → Fin S8x1.rank)
  bcast_S_S8x1 : S_.BroadcastsInDim S8x1 (![] : Fin 0 → Fin S8x1.rank)
  bcast_S_S8x2048 : S_.BroadcastsInDim S8x2048 (![] : Fin 0 → Fin S8x2048.rank)
  bcast_S8x1_S8x2048_0_1 : S8x1.BroadcastsInDim S8x2048 (![0, 1] : Fin 2 → Fin S8x2048.rank)
  bcast_S8x2048_S8x2048x1_0_1 : S8x2048.BroadcastsInDim S8x2048x1 (![0, 1] : Fin 2 → Fin S8x2048x1.rank)
  concatenates_S8x2048x1_S8x2048x1_S8x2048x1_S8x2048x3_d2 : Shape.Concatenates [S8x2048x1, S8x2048x1, S8x2048x1] S8x2048x3 2
  shapeCasts_S8x2048x128_S16384x128 : S8x2048x128.ShapeCasts S16384x128
  gather_S8x128x512x512_S8x2048x3_S8x2048x128_2_023_n_n_023_2_112811_wf : GatherDims.WF S8x128x512x512 S8x2048x3 S8x2048x128 [2] [0, 2, 3] [] [0, 2, 3] [] 2 ![1, 128, 1, 1]

variable [Facts₀]

def gather_S8x128x512x512_S8x2048x3_S8x2048x128_2_023_n_n_023_2_112811 : GatherDims S8x128x512x512 S8x2048x3 S8x2048x128 where
  offsetDims := [2]
  collapsedSliceDims := [0, 2, 3]
  operandBatchingDims := []
  startIndicesBatchingDims := []
  startIndexMap := [0, 2, 3]
  indexVectorDim := 2
  sliceSizes := ![1, 128, 1, 1]
  wf := gather_S8x128x512x512_S8x2048x3_S8x2048x128_2_023_n_n_023_2_112811_wf

class Facts : Prop extends Facts₀ where

variable [Facts]
-- ==== Proof.Spec.lean ====
/-
  The mathematics both programs compute, stated once.

  An image batch `img : [8, 128, 512, 512]` (image, channel, row, column) and a table of points
  `pts : [8, 2048, 2]` (image, point, (column x, row y)) give the array `out : [16384, 128]` whose row
  `n = 2048 * b + q` is the channel vector of image `b` at the pixel (row `y`, column `x`) named by point
  `q` of image `b`:  `out[n, ch] = img[b, ch, y, x]`.  The coordinates are read as naturals and reduced
  modulo 512, which changes nothing for coordinates in range (`InRange`) and keeps the definition total.
-/
import Idealize.ShloMosaic.PureOps
import Idealize.ShloMosaic.Lib.ValueIdx

namespace Cert.Spec

open Idealize.ShloMosaic Idealize.ShloMosaic.ValueIdx

abbrev SImg : Shape := ⟨4, ![8, 128, 512, 512]⟩
abbrev SPts : Shape := ⟨3, ![8, 2048, 2]⟩
abbrev SOut : Shape := ⟨2, ![16384, 128]⟩

/-- Every coordinate word of the point table, read unsigned, is a pixel coordinate of a 512 × 512 image.
    (A word below 512 unsigned is also non-negative signed.) -/
def InRange (pts : IVec SPts 32) : Prop := ∀ i : SPts.Idx, (pts i).toNat < 512

/-- The image a flat output row belongs to, and the point's number within that image. -/
def imgOf (n : Fin 16384) : Fin 8 := ⟨n.val / 2048, by have := n.isLt; omega⟩
def ptOf (n : Fin 16384) : Fin 2048 := ⟨n.val % 2048, Nat.mod_lt _ (by decide)⟩

/-- The column (x, component 0) and the row (y, component 1) of the point that output row `n` reads. -/
def colOf (pts : IVec SPts 32) (n : Fin 16384) : Fin 512 :=
  ⟨(pts (ix3 (imgOf n) (ptOf n) (0 : Fin 2))).toNat % 512, Nat.mod_lt _ (by decide)⟩
def rowOf (pts : IVec SPts 32) (n : Fin 16384) : Fin 512 :=
  ⟨(pts (ix3 (imgOf n) (ptOf n) (1 : Fin 2))).toNat % 512, Nat.mod_lt _ (by decide)⟩

/-- The gathered pixels: `out[n, ch] = img[n / 2048, ch, y, x]`. -/
def gatherPix {α : Type} (img : SImg.Idx → α) (pts : IVec SPts 32) : SOut.Idx → α :=
  fun j => img (ix4 (imgOf (j 0)) (j 1) (rowOf pts (j 0)) (colOf pts (j 0)))

theorem gatherPix_apply {α : Type} (img : SImg.Idx → α) (pts : IVec SPts 32) (n : Fin 16384) (ch : Fin 128) :
    gatherPix img pts (ix2 n ch) = img (ix4 (imgOf n) ch (rowOf pts n) (colOf pts n)) := rfl

/-- The flat index of pixel (image `b`, row `y`, column `x`) in the channel-last row table `[8·512·512, 1, 128]`. -/
def flatOf (pts : IVec SPts 32) (n : Fin 16384) : Nat :=
  ((imgOf n).val * 512 + (rowOf pts n).val) * 512 + (colOf pts n).val

theorem flatOf_lt (pts : IVec SPts 32) (n : Fin 16384) : flatOf pts n < 2097152 := by
  unfold flatOf
  have h1 := (imgOf n).isLt; have h2 := (rowOf pts n).isLt; have h3 := (colOf pts n).isLt
  omega

end Cert.Spec
-- ==== Proof.RefValue.lean ====
import proofs.«410525_j11055245820322_2_alg».proof.Proof.Gen.ReferenceIdeal.Run
import proofs.«410525_j11055245820322_2_alg».proof.Proof.Gen.ReferenceIdeal.Read
import proofs.«410525_j11055245820322_2_alg».proof.Proof.Spec
import Idealize.ShloMosaic.Lib.ValueIdx
import Idealize.ShloMosaic.Lib.Pipeline.Value
import Idealize.ShloMosaic.Lib.StableHlo.Predicate

/-!
  The reference program computes the specification.

  The reference builds, for every image `b` and point `q`, the triple of start indices
  `(b', y', x')`: the image number (an iota), the point's row `y` and its column `x`, each passed through
  the "negative index wraps once" selection `if v < 0 then v + extent else v`; it gathers the channel
  vector `img[b', :, y', x']` (start indices clamped into the array) and lays the `[8, 2048, 128]` result
  out as `[16384, 128]`.  When every coordinate word is below 512 (and the image number below 8) no word
  is negative and no clamp binds, so row `n = 2048 b + q`, channel `ch` of the result is
  `img[b, ch, y, x]` with `(x, y)` point `q` of image `b`: the specification `gatherPix`.
-/

noncomputable section

namespace Cert.ReferenceIdeal.RefValue

open Cert.ReferenceIdeal Cert.ReferenceIdeal.Gen Cert.ReferenceIdeal.Read
open Idealize.ShloMosaic Idealize.ShloMosaic.ValueIdx Idealize.ShloMosaic.StableHlo.Predicate

/-! ## Words -/

/-- A word below `2 ^ 31` is not negative: the wrap `if v < 0 then v + n else v` leaves it alone. -/
theorem wrap_of_lt (v n : BitVec 32) (hv : v.toNat < 2 ^ 31) :
    Scalar.select (IntOp.cmpi .slt v 0#32) (IntOp.addi v n) v = v := by
  have hz : IntOp.cmpi .slt v 0#32 = 0#1 := by
    refine eq_zero_of_ne_one fun h1 => ?_
    have := (slt_iff_toNat hv (by decide)).mp h1
    simp at this
  rw [hz, select_zero]

/-- Such a word read as a signed integer is its unsigned value. -/
theorem toInt_toNat_of_lt (v : BitVec 32) (hv : v.toNat < 2 ^ 31) : v.toInt.toNat = v.toNat := by
  rw [BitVec.toInt_eq_toNat_of_lt (by omega)]
  rfl

/-! ## The gather read at an index

The dimension numbers: operand axes 0, 2, 3 (image, row, column) are collapsed and take the three components of
the start index, in that order; operand axis 1 (channel) is the one offset axis, result axis 2; the index vector
lies along axis 2 of the start indices. So result element `(b, q, ch)` reads the operand at
`(clamp idx[b, q, 0], ch, clamp idx[b, q, 1], clamp idx[b, q, 2])`. -/

section Gather

/-- The program's gather dimension numbers. -/
abbrev gD : GatherDims S8x128x512x512 S8x2048x3 S8x2048x128 :=
  gather_S8x128x512x512_S8x2048x3_S8x2048x128_2_023_n_n_023_2_112811

/-- Component `c` of the start index of result element `(b, q, ch)` sits at `[b, q, c]`. -/
theorem siIdx_eq (b : Fin 8) (q : Fin 2048) (ch : Fin 128) (k : Nat) (hk : k < gD.startIndexMap.length) (c : Fin 3)
    (hkc : k = c.val) : gD.siIdx (ix3 b q ch) ⟨k, hk⟩ = ix3 b q c := by
  subst hkc
  funext a; refine Fin.ext ?_
  match a with
  | ⟨0, _⟩ => rfl
  | ⟨1, _⟩ => rfl
  | ⟨2, _⟩ => rfl

variable (idx : IVec S8x2048x3 32) (b : Fin 8) (q : Fin 2048) (ch : Fin 128)

theorem opIdx0 : (gD.operandIdx (ix3 b q ch) idx (0 : Fin 4)).val = min (idx (ix3 b q (0 : Fin 3))).toInt.toNat 7 := by
  have hm : (0 : Fin 4) ∈ gD.startIndexMap := by decide
  show gD.start (ix3 b q ch) idx (0 : Fin 4) + gD.batchCoord (ix3 b q ch) (0 : Fin 4) + gD.offCoord (ix3 b q ch) (0 : Fin 4) = _
  rw [GatherDims.batchCoord_eq_zero _ _ _ List.not_mem_nil,
    GatherDims.offCoord_eq_zero _ _ _ (fun h => ((GatherDims.mem_sKept _ _).mp h).1 (by decide))]
  simp only [Nat.add_zero]
  unfold GatherDims.start
  rw [dif_pos hm]
  have hsi : gD.siIdx (ix3 b q ch) ⟨List.idxOf (0 : Fin 4) gD.startIndexMap, List.idxOf_lt_length_iff.2 hm⟩
      = ix3 b q (0 : Fin 3) := siIdx_eq b q ch _ _ (0 : Fin 3) rfl
  rw [hsi]
  rfl

theorem opIdx1 : (gD.operandIdx (ix3 b q ch) idx (1 : Fin 4)).val = ch.val := by
  have hm : ¬ (1 : Fin 4) ∈ gD.startIndexMap := by decide
  have hk : (1 : Fin 4) ∈ gD.sKept := by decide
  show gD.start (ix3 b q ch) idx (1 : Fin 4) + gD.batchCoord (ix3 b q ch) (1 : Fin 4) + gD.offCoord (ix3 b q ch) (1 : Fin 4) = _
  rw [GatherDims.batchCoord_eq_zero _ _ _ List.not_mem_nil]
  unfold GatherDims.start GatherDims.offCoord
  rw [dif_neg hm, dif_pos hk]
  simp only [Nat.zero_add]
  rfl

theorem opIdx2 : (gD.operandIdx (ix3 b q ch) idx (2 : Fin 4)).val = min (idx (ix3 b q (1 : Fin 3))).toInt.toNat 511 := by
  have hm : (2 : Fin 4) ∈ gD.startIndexMap := by decide
  show gD.start (ix3 b q ch) idx (2 : Fin 4) + gD.batchCoord (ix3 b q ch) (2 : Fin 4) + gD.offCoord (ix3 b q ch) (2 : Fin 4) = _
  rw [GatherDims.batchCoord_eq_zero _ _ _ List.not_mem_nil,
    GatherDims.offCoord_eq_zero _ _ _ (fun h => ((GatherDims.mem_sKept _ _).mp h).1 (by decide))]
  simp only [Nat.add_zero]
  unfold GatherDims.start
  rw [dif_pos hm]
  have hsi : gD.siIdx (ix3 b q ch) ⟨List.idxOf (2 : Fin 4) gD.startIndexMap, List.idxOf_lt_length_iff.2 hm⟩
      = ix3 b q (1 : Fin 3) := siIdx_eq b q ch _ _ (1 : Fin 3) rfl
  rw [hsi]
  rfl

theorem opIdx3 : (gD.operandIdx (ix3 b q ch) idx (3 : Fin 4)).val = min (idx (ix3 b q (2 : Fin 3))).toInt.toNat 511 := by
  have hm : (3 : Fin 4) ∈ gD.startIndexMap := by decide
  show gD.start (ix3 b q ch) idx (3 : Fin 4) + gD.batchCoord (ix3 b q ch) (3 : Fin 4) + gD.offCoord (ix3 b q ch) (3 : Fin 4) = _
  rw [GatherDims.batchCoord_eq_zero _ _ _ List.not_mem_nil,
    GatherDims.offCoord_eq_zero _ _ _ (fun h => ((GatherDims.mem_sKept _ _).mp h).1 (by decide))]
  simp only [Nat.add_zero]
  unfold GatherDims.start
  rw [dif_pos hm]
  have hsi : gD.siIdx (ix3 b q ch) ⟨List.idxOf (3 : Fin 4) gD.startIndexMap, List.idxOf_lt_length_iff.2 hm⟩
      = ix3 b q (2 : Fin 3) := siIdx_eq b q ch _ _ (2 : Fin 3) rfl
  rw [hsi]
  rfl

/-- The gather at `(b, q, ch)`, given what the three clamped start components are. -/
theorem gather_apply {α : Type} (img : S8x128x512x512.Idx → α) (b' : Fin 8) (y' x' : Fin 512)
    (hb : min (idx (ix3 b q (0 : Fin 3))).toInt.toNat 7 = b'.val)
    (hy : min (idx (ix3 b q (1 : Fin 3))).toInt.toNat 511 = y'.val)
    (hx : min (idx (ix3 b q (2 : Fin 3))).toInt.toNat 511 = x'.val) :
    Host.gather gD img idx (ix3 b q ch) = img (ix4 b' ch y' x') := by
  unfold Host.gather
  refine congrArg img ?_
  funext a
  refine Fin.ext ?_
  match a with
  | ⟨0, _⟩ => exact (opIdx0 idx b q ch).trans hb
  | ⟨1, _⟩ => exact opIdx1 idx b q ch
  | ⟨2, _⟩ => exact (opIdx2 idx b q ch).trans hy
  | ⟨3, _⟩ => exact (opIdx3 idx b q ch).trans hx

end Gather

/-! ## The start indices

The start indices `[8, 2048, 3]` join three `[8, 2048, 1]` arrays along the last axis: the wrapped image number,
the wrapped row `y` (component 1 of the point) and the wrapped column `x` (component 0). -/

section StartIndices

variable {F : FTy → Type} [FloatOps F]
variable (pts : IVec S8x2048x2 32) (b : Fin 8) (q : Fin 2048)

theorem idxvec0 : val_main_v25 (F := F) pts (ix3 b q (0 : Fin 3)) = val_main_v22 (F := F) (ix3 b q (0 : Fin 1)) := by
  unfold val_main_v25
  refine concatenate_apply_piece (t := S8x2048x3) (2 : Fin 3) _ _ (ix3 b q (0 : Fin 3)) 0 (by show (0 : Nat) < 3; omega) S8x2048x1
    (val_main_v22 (F := F)) rfl rfl 0 rfl (ix3 b q (0 : Fin 1)) (fun a ha => ?_) rfl
  match a with
  | ⟨0, _⟩ => rfl
  | ⟨1, _⟩ => rfl
  | ⟨2, _⟩ => exact absurd rfl ha

theorem idxvec1 : val_main_v25 (F := F) pts (ix3 b q (1 : Fin 3)) = val_main_v23 (F := F) pts (ix3 b q (0 : Fin 1)) := by
  unfold val_main_v25
  refine concatenate_apply_piece (t := S8x2048x3) (2 : Fin 3) _ _ (ix3 b q (1 : Fin 3)) 1 (by show (1 : Nat) < 3; omega) S8x2048x1
    (val_main_v23 (F := F) pts) rfl rfl 1 rfl (ix3 b q (0 : Fin 1)) (fun a ha => ?_) rfl
  match a with
  | ⟨0, _⟩ => rfl
  | ⟨1, _⟩ => rfl
  | ⟨2, _⟩ => exact absurd rfl ha

theorem idxvec2 : val_main_v25 (F := F) pts (ix3 b q (2 : Fin 3)) = val_main_v24 (F := F) pts (ix3 b q (0 : Fin 1)) := by
  unfold val_main_v25
  refine concatenate_apply_piece (t := S8x2048x3) (2 : Fin 3) _ _ (ix3 b q (2 : Fin 3)) 2 (by show (2 : Nat) < 3; omega) S8x2048x1
    (val_main_v24 (F := F) pts) rfl rfl 2 rfl (ix3 b q (0 : Fin 1)) (fun a ha => ?_) rfl
  match a with
  | ⟨0, _⟩ => rfl
  | ⟨1, _⟩ => rfl
  | ⟨2, _⟩ => exact absurd rfl ha

/-- The image number of `(b, q)` is the word `b`: an iota below 8 is not negative. -/
theorem v22_read : val_main_v22 (F := F) (ix3 b q (0 : Fin 1)) = BitVec.ofNat 32 b.val := by
  rw [val_main_v22_apply, val_main_v21_apply, val_main_v10_apply, val_main_v7_apply, val_main_v9_apply,
    val_main_v5_apply, val_main_v4_apply, val_main_v6_apply, val_main_c_apply, val_main_v8_apply, val_main_c_0_apply]
  exact wrap_of_lt (BitVec.ofNat 32 b.val) 8#32 (by rw [BitVec.toNat_ofNat]; have := b.isLt; omega)

/-- The slice of component 1, flattened and read at `(b, q)`, is the point table at `[b, q, 1]`. -/
theorem coord_read1 : idx_main_v2 (idx_main_v3 (idx_main_v23 (ix3 b q (0 : Fin 1)))) = ix3 b q (1 : Fin 2) := by
  funext a; refine Fin.ext ?_
  have hb := b.isLt; have hq := q.isLt
  match a with
  | ⟨0, _⟩ => show (b.val * 2048 + q.val) / 2048 = b.val; omega
  | ⟨1, _⟩ => show (b.val * 2048 + q.val) / 1 % 2048 = q.val; omega
  | ⟨2, _⟩ => rfl

/-- The slice of component 0, flattened and read at `(b, q)`, is the point table at `[b, q, 0]`. -/
theorem coord_read0 : idx_main_v0 (idx_main_v1 (idx_main_v24 (ix3 b q (0 : Fin 1)))) = ix3 b q (0 : Fin 2) := by
  funext a; refine Fin.ext ?_
  have hb := b.isLt; have hq := q.isLt
  match a with
  | ⟨0, _⟩ => show (b.val * 2048 + q.val) / 2048 = b.val; omega
  | ⟨1, _⟩ => show (b.val * 2048 + q.val) / 1 % 2048 = q.val; omega
  | ⟨2, _⟩ => rfl

variable (h : Cert.Spec.InRange pts)
include h

/-- The row component: `y` in range is not negative, so it is not wrapped. -/
theorem v23_read : val_main_v23 (F := F) pts (ix3 b q (0 : Fin 1)) = pts (ix3 b q (1 : Fin 2)) := by
  rw [val_main_v23_apply, val_main_v15_apply, val_main_v12_apply, val_main_v14_apply, val_main_v11_apply,
    val_main_c_1_apply, val_main_v13_apply, val_main_c_2_apply, val_main_v3_apply, val_main_v2_apply, coord_read1]
  exact wrap_of_lt _ _ (by have := h (ix3 b q (1 : Fin 2)); omega)

/-- The column component: `x` in range is not negative, so it is not wrapped. -/
theorem v24_read : val_main_v24 (F := F) pts (ix3 b q (0 : Fin 1)) = pts (ix3 b q (0 : Fin 2)) := by
  rw [val_main_v24_apply, val_main_v20_apply, val_main_v17_apply, val_main_v19_apply, val_main_v16_apply,
    val_main_c_3_apply, val_main_v18_apply, val_main_c_4_apply, val_main_v1_apply, val_main_v0_apply, coord_read0]
  exact wrap_of_lt _ _ (by have := h (ix3 b q (0 : Fin 2)); omega)

end StartIndices

/-! ## The result -/

section Result

open Cert.Spec

variable {F : FTy → Type} [FloatOps F]

/-- Row `n`, channel `ch` of the `[16384, 128]` result is element `(n / 2048, n % 2048, ch)` of the gather. -/
theorem idx27 (n : Fin 16384) (ch : Fin 128) : idx_main_v27 (ix2 n ch) = ix3 (imgOf n) (ptOf n) ch := by
  funext a; refine Fin.ext ?_
  have hn := n.isLt; have hc := ch.isLt
  match a with
  | ⟨0, _⟩ => show (n.val * 128 + ch.val) / 262144 = n.val / 2048; omega
  | ⟨1, _⟩ => show (n.val * 128 + ch.val) / 128 % 2048 = n.val % 2048; omega
  | ⟨2, _⟩ => show (n.val * 128 + ch.val) % 128 = ch.val; omega

/-- The reference at row `n`, channel `ch`: no wrap happens and no clamp binds, so it is the specification's pixel. -/
theorem ref_value_apply (img : FVec F S8x128x512x512 .f32) (pts : IVec S8x2048x2 32) (h : InRange pts)
    (n : Fin 16384) (ch : Fin 128) :
    val_main_v27 (F := F) img pts (ix2 n ch) = gatherPix img pts (ix2 n ch) := by
  rw [val_main_v27_apply, idx27, gatherPix_apply]
  unfold val_main_v26
  have hb := (imgOf n).isLt
  refine gather_apply _ (imgOf n) (ptOf n) ch img (imgOf n) (rowOf pts n) (colOf pts n) ?_ ?_ ?_
  · rw [idxvec0, v22_read, toInt_toNat_of_lt _ (by rw [BitVec.toNat_ofNat]; omega), BitVec.toNat_ofNat]
    omega
  · have hy := h (ix3 (imgOf n) (ptOf n) (1 : Fin 2))
    rw [idxvec1, v23_read pts _ _ h, toInt_toNat_of_lt _ (by omega)]
    show min _ 511 = (pts (ix3 (imgOf n) (ptOf n) (1 : Fin 2))).toNat % 512
    omega
  · have hx := h (ix3 (imgOf n) (ptOf n) (0 : Fin 2))
    rw [idxvec2, v24_read pts _ _ h, toInt_toNat_of_lt _ (by omega)]
    show min _ 511 = (pts (ix3 (imgOf n) (ptOf n) (0 : Fin 2))).toNat % 512
    omega

/-- **The reference program's result is the specification**, for point tables in range, at any float instance. -/
theorem ref_value_gen (img : FVec F S8x128x512x512 .f32) (pts : IVec S8x2048x2 32) (h : InRange pts) :
    val_main_v27 (F := F) img pts = gatherPix img pts := by
  funext j
  obtain ⟨n, ch, rfl⟩ : ∃ (n : Fin 16384) (ch : Fin 128), j = ix2 n ch := ⟨j 0, j 1, eq_ix2 j⟩
  exact ref_value_apply img pts h n ch

/-- The same at the ideal instance. -/
theorem ref_value (img : FVec Ideal S8x128x512x512 .f32) (pts : IVec S8x2048x2 32) (h : InRange pts) :
    val_main_v27 (F := Ideal) img pts = gatherPix img pts :=
  ref_value_gen img pts h

end Result

/-! ## The run -/

section Run

open Idealize.ShloMosaic.TcCoe Idealize.SL.Sem Idealize.ShloMosaic.StableHlo

/-- On every device, from any memory whose point table is in range (and zero counters), every weakly fair execution
    of the reference terminates with its first result the specification of the two arguments, its second result
    the constant 16384, and the arguments unchanged. -/
theorem run_value (m : (ℓ : Loc nD τ sig) → Buf (Elt Ideal) ℓ) (ρ : Dev nD → PrngReg)
    (h : ∀ c : Dev nD, Cert.Spec.InRange (m ((c.tc : Thread nD τ).loc main_arg1))) :
    θ_run (defs (F := Ideal)) (onTc (τ := τ) (main (F := Ideal))) ⟨m, fun _ => 0, ρ⟩ fun r => ∀ c : Dev nD,
      r.2.mem ((c.tc : Thread nD τ).loc main_v27)
          = Cert.Spec.gatherPix (m ((c.tc : Thread nD τ).loc main_arg0)) (m ((c.tc : Thread nD τ).loc main_arg1))
      ∧ r.2.mem ((c.tc : Thread nD τ).loc main_c_5) = constantI S_ 32 16384#32
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono
    (fun _ hr c => ⟨((hr c).1.trans (val_main_v27_eq _ _)).trans (ref_value _ _ (h c)), (hr c).2⟩)
    (Cert.ReferenceIdeal.Value.run m ρ)

end Run

end Cert.ReferenceIdeal.RefValue

end
-- ==== Proof.KernelIdealBase.lean ====
/-
  What the kernel region is handed and what it leaves, named once.

  The region finds the flat index table (`main_v13`, prefetched into scalar memory: one word per output row)
  and the channel-last row table (`main_v15`, left in HBM: row `r` is the 128 channels of one pixel). At grid
  point `i` the body copies, for `k = 0 … 127`, row `table[128·i + k]` of the row table into row `k` of its scratch
  buffer, each copy on a semaphore of its own, waits for all of them and stores the scratch into the output block.
  So the output block at point `i` holds, at (k, ch), the row table's entry (table[128·i + k], 0, ch): `outBlk`.
-/
import proofs.«410525_j11055245820322_2_alg».proof.Proof.Gen.KernelIdeal.Launch
import proofs.«410525_j11055245820322_2_alg».proof.Proof.Gen.KernelIdeal.Skeleton
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The table, the row table and the scratch buffer as the body is handed them: whole buffers. -/
abbrev tbM : Memref sig .tc .smem S16384 .i32 := Memref.whole main_v13
abbrev hbM : Memref sig .tc .hbm S2097152x1x128 .f32 := Memref.whole main_v15
abbrev scM : Memref sig .tc .vmem S128x1x128 .f32 := Memref.whole cc0_scratch0

/-- A memref's buffer on core `c`: its contents type; the buffer held whole at a share; a memref's own elements held. -/
abbrev MBuf (c : Dev nD) {sp : Space} {S : Shape} {e : EltTy} (M : Memref sig .tc sp S e) : Type := Buf (Elt F) (M.view.loc (c : Thread nD τ))
abbrev mPt (c : Dev nD) {sp : Space} {S : Shape} {e : EltTy} (M : Memref sig .tc sp S e) (q : PosShare TreeShare) (f : MBuf (F := F) c M) : sProp 𝕄 :=
  M.view.loc (c : Thread nD τ) ↦{q} f
abbrev mOwn (c : Dev nD) {sp : Space} {S : Shape} {e : EltTy} (M : Memref sig .tc sp S e) (f : MBuf (F := F) c M) : sProp 𝕄 :=
  M.view.loc (c : Thread nD τ) ↦[M.view.set]{fullShare} f

/-- The body's own DMA semaphores: cell `k` of its semaphore array is semaphore `2 + k` of the pool. -/
abbrev osem0 : Fin 128 → SemLoc sig := fun k => SemLoc.dma ⟨2 + k.val, by have := k.isLt; show 2 + k.val < 130; omega⟩

/-- Every word of the table is a row of the row table. -/
def TblOk (pf : S16384.Idx → BitVec 32) : Prop := ∀ n : Fin 16384, (pf (ix1 n)).toNat < 2097152

/-- The table word the `k`-th copy of grid point `i` reads. -/
def wordAt (pf : S16384.Idx → BitVec 32) (i : grid0.Coords) (k : Fin 128) : BitVec 32 :=
  pf (ix1 (⟨128 * (i 0).val + k.val, by have h0 : (i 0).val < 128 := (i 0).isLt; have := k.isLt; omega⟩ : Fin 16384))

/-- What the body leaves in the output block at grid point `i`: entry (k, ch) is the row table's entry
    (table[128·i + k], 0, ch). (The row number is reduced modulo the table's length, which changes nothing for a word in
    range and keeps the definition total.) -/
def outBlk {α : Type} (pf : S16384.Idx → BitVec 32) (fh : S2097152x1x128.Idx → α) (i : grid0.Coords) : S128x128.Idx → α :=
  fun j => fh (ix3 (⟨(wordAt pf i (j 0)).toNat % 2097152, Nat.mod_lt _ (by decide)⟩ : Fin 2097152) (0 : Fin 1) (j 1))

variable (m : (ℓ : Loc nD τ sig) → Buf (Elt F) ℓ)

/-- Core `c`'s TensorCore buffer contents when the region is entered, as a valuation: after the host operations before
    the region; and the same read at a TensorCore reference. -/
abbrev V0 (c : Dev nD) : Valuation τ sig (Elt F) := StableHlo.after (List.flatten [hostOps0]) (fun b => m (c, b))
abbrev V (c : Dev nD) (b : Ref sig .tc) : Buf (Elt F) ((c : Thread nD τ).loc b) := V0 m c (Proc.devRef .tc b)

end Cert.KernelIdeal.Hand

end
-- ==== Proof.KernelIdealHost.lean ====
/-
  What the kernel program's host operations hand its region, read at an index, and what the precondition says.

  Before the region the program computes, from the point table `pts : [8, 2048, 2]`, the flat row number of every
  point, `(b · 512 + y) · 512 + x` as 32-bit words, reshaped to one table of 16384 words (`flatTbl`); and from the
  image batch `img : [8, 128, 512, 512]` the channel-last row table `[8 · 512 · 512, 1, 128]`, whose row
  `r = (b · 512 + y) · 512 + x` holds the 128 channels of pixel (y, x) of image `b`. The arguments themselves are
  untouched. Under the range condition on the coordinates the 32-bit arithmetic does not wrap (the row number is
  below 2²¹), so the table's words are the specification's flat row numbers. The printed precondition's second
  conjunct is that range condition.
-/
import proofs.«410525_j11055245820322_2_alg».proof.Proof.Gen.KernelIdeal.Launch
import proofs.«410525_j11055245820322_2_alg».proof.Proof.Gen.KernelIdeal.Skeleton
import proofs.«410525_j11055245820322_2_alg».proof.Proof.KernelIdealBase
import proofs.«410525_j11055245820322_2_alg».proof.Proof.Spec
import proofs.«410525_j11055245820322_2_alg».proof.Pre_finite_inputs
import proofs.«410525_j11055245820322_2_alg».proof.Proof.Gen.Pre_finite_inputs
import Idealize.ShloMosaic.Lib.Pipeline.FrameBody
import Idealize.ShloMosaic.Lib.Pipeline.FrameSuffix
import Idealize.ShloMosaic.Lib.Pipeline.Value
import Idealize.ShloMosaic.Lib.StableHlo.Run
import Idealize.ShloMosaic.Lib.StableHlo.Predicate
import Idealize.ShloMosaic.Lib.ReduceAll
import Idealize.ShloMosaic.Lib.Ring
import Idealize.ShloMosaic.Lib.Tactic
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The table and the row table as terms of the arguments -/

/-- The column words `x` and the row words `y` of the points, as `[8, 2048]` arrays: the point table's two slices along its
    last axis, the unit axis dropped. -/
def xOf (pts : IVec S8x2048x2 32) : IVec S8x2048 32 :=
  shapeCast S8x2048 (extractStridedSlice S8x2048x1 ![0, 0, 0] pts Gen.slices_S8x2048x2_S8x2048x1_0_0_0) Gen.shapeCasts_S8x2048x1_S8x2048
def yOf (pts : IVec S8x2048x2 32) : IVec S8x2048 32 :=
  shapeCast S8x2048 (extractStridedSlice S8x2048x1 ![0, 0, 1] pts Gen.slices_S8x2048x2_S8x2048x1_0_0_1) Gen.shapeCasts_S8x2048x1_S8x2048

/-- The image number of every point (an iota over the images, copied along the points), and the word 512 everywhere. -/
def imgIdx : IVec S8x2048 32 :=
  broadcastInDim S8x2048 ![0, 1] Gen.bcast_S8x1_S8x2048_0_1 (broadcastInDim S8x1 ![0] Gen.bcast_S8_S8x1_0 (iotaInDim S8 32 0))
def c512 : IVec S8x2048 32 := broadcastInDim S8x2048 ![] Gen.bcast_S_S8x2048 (constantI S_ 32 512#32)

/-- The flat row number of every point, `(b · 512 + y) · 512 + x` in 32-bit words, over `[8, 2048]`. -/
def flat2 (pts : IVec S8x2048x2 32) : IVec S8x2048 32 :=
  addi (muli (addi (muli imgIdx c512) (yOf pts)) c512) (xOf pts)

/-- The flat row numbers as one table of 16384 words: what the host operations before the region compute. -/
def flatTbl (pts : IVec S8x2048x2 32) : IVec S16384 32 := shapeCast S16384 (flat2 pts) Gen.shapeCasts_S8x2048_S16384

/-- The channel-last row table: the image batch with the channel axis moved last, reshaped to one row per pixel. -/
def rowsTbl {α : Type} (img : S8x128x512x512.Idx → α) : S2097152x1x128.Idx → α :=
  shapeCast S2097152x1x128
    (transpose S8x512x512x128 [0, 2, 3, 1] img Gen.transposes_S8x128x512x512_S8x512x512x128_0_2_3_1)
    Gen.shapeCasts_S8x512x512x128_S2097152x1x128

section Launch
variable (m : (ℓ : Loc nD τ sig) → Buf (Elt F) ℓ)

/-- No host operation writes an argument. -/
theorem V_main_arg0 (c : Dev nD) : V m c main_arg0 = m ((c : Thread nD τ).loc main_arg0) := by
  dsimp only [V, V0]
  simp only [hostOps0, List.flatten_cons, List.flatten_nil, List.append_nil]
  after_results

theorem V_main_arg1 (c : Dev nD) : V m c main_arg1 = m ((c : Thread nD τ).loc main_arg1) := by
  dsimp only [V, V0]
  simp only [hostOps0, List.flatten_cons, List.flatten_nil, List.append_nil]
  after_results

/-- The prefetched table is the flat row numbers of the point table. -/
theorem V_tbl (c : Dev nD) : V m c main_v13 = flatTbl (m ((c : Thread nD τ).loc main_arg1)) := by
  dsimp only [V, V0]
  simp only [hostOps0, List.flatten_cons, List.flatten_nil, List.append_nil]
  after_results
  rfl

/-- The row table the region reads is the channel-last relayout of the image batch. -/
theorem V_rows (c : Dev nD) : V m c main_v15 = rowsTbl (m ((c : Thread nD τ).loc main_arg0)) := by
  dsimp only [V, V0]
  simp only [hostOps0, List.flatten_cons, List.flatten_nil, List.append_nil]
  after_results
  rfl

end Launch

/-! ## The table's words are the specification's flat row numbers -/

/-- A point's column word: the point table at component 0. -/
theorem xOf_apply (pts : IVec S8x2048x2 32) (b : Fin 8) (q : Fin 2048) : xOf pts (ix2 b q) = pts (ix3 b q (0 : Fin 2)) := by
  unfold xOf
  refine (shapeCast_apply _ Gen.shapeCasts_S8x2048x1_S8x2048 (ix2 b q) (ix3 b q (0 : Fin 1)) ?_).trans ?_
  · rw [Shape.rowMajor_val_three, Shape.rowMajor_val_two]
    show (b.val * 2048 + q.val) * 1 + 0 = b.val * 2048 + q.val
    omega
  · refine extractStridedSlice_apply _ pts Gen.slices_S8x2048x2_S8x2048x1_0_0_0 (ix3 b q (0 : Fin 1)) (ix3 b q (0 : Fin 2)) fun a => ?_
    match a with
    | ⟨0, _⟩ => show b.val = 0 + b.val; omega
    | ⟨1, _⟩ => show q.val = 0 + q.val; omega
    | ⟨2, _⟩ => show 0 = 0 + 0; omega

/-- A point's row word: the point table at component 1. -/
theorem yOf_apply (pts : IVec S8x2048x2 32) (b : Fin 8) (q : Fin 2048) : yOf pts (ix2 b q) = pts (ix3 b q (1 : Fin 2)) := by
  unfold yOf
  refine (shapeCast_apply _ Gen.shapeCasts_S8x2048x1_S8x2048 (ix2 b q) (ix3 b q (0 : Fin 1)) ?_).trans ?_
  · rw [Shape.rowMajor_val_three, Shape.rowMajor_val_two]
    show (b.val * 2048 + q.val) * 1 + 0 = b.val * 2048 + q.val
    omega
  · refine extractStridedSlice_apply _ pts Gen.slices_S8x2048x2_S8x2048x1_0_0_1 (ix3 b q (0 : Fin 1)) (ix3 b q (1 : Fin 2)) fun a => ?_
    match a with
    | ⟨0, _⟩ => show b.val = 0 + b.val; omega
    | ⟨1, _⟩ => show q.val = 0 + q.val; omega
    | ⟨2, _⟩ => show 1 = 1 + 0; omega

/-- A point's image number, as a word. -/
theorem imgIdx_apply (b : Fin 8) (q : Fin 2048) : imgIdx (ix2 b q) = BitVec.ofNat 32 b.val := by
  unfold imgIdx
  refine (broadcastInDim_apply _ Gen.bcast_S8x1_S8x2048_0_1 _ (ix2 b q) (ix2 b (0 : Fin 1)) fun a => ?_).trans ?_
  · match a with
    | ⟨0, _⟩ => rfl
    | ⟨1, _⟩ => rfl
  · refine (broadcastInDim_apply _ Gen.bcast_S8_S8x1_0 _ (ix2 b (0 : Fin 1)) (ix1 b) fun a => ?_).trans rfl
    match a with
    | ⟨0, _⟩ => rfl

theorem c512_apply (j : S8x2048.Idx) : c512 j = 512#32 := rfl

/-- The flat row number of point `q` of image `b`, in words. -/
theorem flat2_apply (pts : IVec S8x2048x2 32) (b : Fin 8) (q : Fin 2048) :
    flat2 pts (ix2 b q)
      = (BitVec.ofNat 32 b.val * 512#32 + pts (ix3 b q (1 : Fin 2))) * 512#32 + pts (ix3 b q (0 : Fin 2)) := by
  show IntOp.addi (IntOp.muli (IntOp.addi (IntOp.muli (imgIdx (ix2 b q)) (c512 (ix2 b q))) (yOf pts (ix2 b q))) (c512 (ix2 b q))) (xOf pts (ix2 b q)) = _
  rw [imgIdx_apply, c512_apply, yOf_apply, xOf_apply]
  rfl

/-- Word `n` of the table is the flat row number of point `n % 2048` of image `n / 2048`. -/
theorem flatTbl_word (pts : IVec S8x2048x2 32) (n : Fin 16384) :
    flatTbl pts (ix1 n)
      = (BitVec.ofNat 32 (Cert.Spec.imgOf n).val * 512#32 + pts (ix3 (Cert.Spec.imgOf n) (Cert.Spec.ptOf n) (1 : Fin 2))) * 512#32
          + pts (ix3 (Cert.Spec.imgOf n) (Cert.Spec.ptOf n) (0 : Fin 2)) := by
  unfold flatTbl
  refine (shapeCast_apply _ Gen.shapeCasts_S8x2048_S16384 (ix1 n) (ix2 (Cert.Spec.imgOf n) (Cert.Spec.ptOf n)) ?_).trans (flat2_apply pts _ _)
  rw [Shape.rowMajor_val_two, Shape.rowMajor_val_one]
  show n.val / 2048 * 2048 + n.val % 2048 = n.val
  omega

/-- With every coordinate below 512 the 32-bit arithmetic does not wrap (the row number is below 2²¹), and the table's word
    is the specification's flat row number. -/
theorem flatTbl_apply (pts : IVec S8x2048x2 32) (h : Cert.Spec.InRange pts) (n : Fin 16384) :
    (flatTbl pts (ix1 n)).toNat = Cert.Spec.flatOf pts n := by
  have hy : (pts (ix3 (Cert.Spec.imgOf n) (Cert.Spec.ptOf n) (1 : Fin 2))).toNat < 512 := h _
  have hx : (pts (ix3 (Cert.Spec.imgOf n) (Cert.Spec.ptOf n) (0 : Fin 2))).toNat < 512 := h _
  have hb : (Cert.Spec.imgOf n).val < 8 := (Cert.Spec.imgOf n).isLt
  rw [flatTbl_word]
  unfold Cert.Spec.flatOf Cert.Spec.rowOf Cert.Spec.colOf
  simp only [BitVec.toNat_add, BitVec.toNat_mul, BitVec.toNat_ofNat]
  generalize (pts (ix3 (Cert.Spec.imgOf n) (Cert.Spec.ptOf n) (1 : Fin 2))).toNat = y at hy ⊢
  generalize (pts (ix3 (Cert.Spec.imgOf n) (Cert.Spec.ptOf n) (0 : Fin 2))).toNat = x at hx ⊢
  generalize (Cert.Spec.imgOf n).val = b at hb ⊢
  omega

/-- Under the range condition every word of the table is a row of the row table. -/
theorem tblOk_of_inRange (pts : IVec S8x2048x2 32) (h : Cert.Spec.InRange pts) : TblOk (flatTbl pts) := fun n => by
  rw [flatTbl_apply pts h n]
  exact Cert.Spec.flatOf_lt pts n

/-! ## The row table read at an index -/

/-- Row `r = (b · 512 + y) · 512 + x` of the channel-last table holds, at channel `ch`, the image batch at (b, ch, y, x). -/
theorem rowsTbl_apply {α : Type} (img : S8x128x512x512.Idx → α) (r : Fin 2097152) (ch : Fin 128) :
    rowsTbl img (ix3 r (0 : Fin 1) ch)
      = img (ix4 (⟨r.val / 262144, by have := r.isLt; omega⟩ : Fin 8) ch
          (⟨(r.val / 512) % 512, Nat.mod_lt _ (by decide)⟩ : Fin 512) (⟨r.val % 512, Nat.mod_lt _ (by decide)⟩ : Fin 512)) := by
  unfold rowsTbl
  refine (shapeCast_apply _ Gen.shapeCasts_S8x512x512x128_S2097152x1x128 (ix3 r (0 : Fin 1) ch)
    (ix4 (⟨r.val / 262144, by have := r.isLt; omega⟩ : Fin 8) (⟨(r.val / 512) % 512, Nat.mod_lt _ (by decide)⟩ : Fin 512)
      (⟨r.val % 512, Nat.mod_lt _ (by decide)⟩ : Fin 512) ch) ?_).trans ?_
  · rw [Shape.rowMajor_val_four, Shape.rowMajor_val_three]
    show ((r.val / 262144 * 512 + r.val / 512 % 512) * 512 + r.val % 512) * 128 + ch.val = (r.val * 1 + 0) * 128 + ch.val
    omega
  · refine transpose_apply _ img Gen.transposes_S8x128x512x512_S8x512x512x128_0_2_3_1 _ _ fun a => ?_
    match a with
    | ⟨0, _⟩ => rfl
    | ⟨1, _⟩ => rfl
    | ⟨2, _⟩ => rfl
    | ⟨3, _⟩ => rfl

/-- The row table the region reads, at (r, 0, ch): the image batch's pixel (r / 512 % 512, r % 512) of image r / 512², channel ch. -/
theorem V_rows_apply (m : (ℓ : Loc nD τ sig) → Buf (Elt F) ℓ) (c : Dev nD) (r : Fin 2097152) (ch : Fin 128) :
    V m c main_v15 (ix3 r (0 : Fin 1) ch)
      = (m ((c : Thread nD τ).loc main_arg0)) (ix4 (⟨r.val / 262144, by have := r.isLt; omega⟩ : Fin 8) ch
          (⟨(r.val / 512) % 512, Nat.mod_lt _ (by decide)⟩ : Fin 512) (⟨r.val % 512, Nat.mod_lt _ (by decide)⟩ : Fin 512)) := by
  rw [V_rows]
  exact rowsTbl_apply _ r ch

/-! ## The precondition's range condition -/

/-- The printed precondition's second conjunct: every coordinate word is at least 0 and below 512, read signed; such a word is
    below 512 read unsigned. -/
theorem inRange_of_pre (x : FVec F Cert.Pre_finite_inputs.S8x128x512x512 .f32) (p : IVec Cert.Pre_finite_inputs.S8x2048x2 32)
    (h : Cert.Pre_finite_inputs.fn (F := F) x p = fun _ => 1#1) : Cert.Spec.InRange p := by
  intro i
  haveI : Subsingleton Cert.Pre_finite_inputs.S_.Idx := ⟨fun a b => funext fun d => d.elim0⟩
  have h0 := congrFun h ValueIdx.ix0
  dsimp only [Cert.Pre_finite_inputs.fn] at h0
  obtain ⟨-, h2⟩ := IntOp.andi_eq_one.1 h0
  have h3 := Host.reduce_andi_all _ _ _ _ ValueIdx.ix0 h2 i
  obtain ⟨hge, hlt⟩ := IntOp.andi_eq_one.1 h3
  have hnn : 2 * (p i).toNat < 2 ^ 32 := (Scalar.nonneg_iff (p i)).1 hge
  have hlt' : (p i).toNat < (512#32 : BitVec 32).toNat :=
    (StableHlo.Predicate.slt_iff_toNat (by omega) (by decide)).1 hlt
  exact hlt'

end Cert.KernelIdeal.Hand

end
-- ==== Proof.KernelIdealSetup.lean ====
/-
  The pipeline of the one region at the table the host operations computed, and the proof data of its frame run.
-/
import proofs.«410525_j11055245820322_2_alg».proof.Proof.Gen.KernelIdeal.Launch
import proofs.«410525_j11055245820322_2_alg».proof.Proof.Gen.KernelIdeal.Skeleton
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.ValueIdx
import proofs.«410525_j11055245820322_2_alg».proof.Proof.KernelIdealBase
set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The prefetched table's contents when the region is entered (there is one device). -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl

/-- The table's contents as admissible contents (the pipeline's side condition on them is empty: no index map reads the
    table), and the pipeline at them. -/
abbrev adm : (pcfg0 (F := F)).Adm := ⟨tbl m, trivial⟩
abbrev cfgM : Pipeline.Cfg sig Λ₀ := cfg0 (adm m)

/-- The row table is the one unscoped buffer the body moves itself. -/
def H0 : Finset (Ref sig .tc) := {main_v15}

/-- The frame's hypothesis: on every core, every word of the table the host operations computed is a row of the row
    table. The certificate's precondition implies it. -/
def Hyps : Prop := ∀ c : Dev nD, TblOk (V m c main_v13)

/-- The proof data of the pipeline on core `c`: the output array as the region finds it; after the body at point `t` the
    output block's staging buffer at `outBlk` of the table and the row table; the invariant: the scratch buffer at some
    contents, the generator register, the 128 own cells at zero, the row table whole at its region-entry contents, and half
    of the table; nothing owed; full shares. -/
def dats (_ : Fin 1) (c : Dev nD) : Dat τ (Elt F) Unit ℕ (Pipeline.UD sig nD τ) ℕ (cfgM m) c where
  A w := V m c (Pipeline.arrRef spec0 w)
  after w t := match w with
    | ⟨0, _⟩ => outBlk (V m c main_v13) (V m c main_v15) (grid0.coords t)
  Φ _ := iprop(Pipeline.ΦD osem0 spec0 H0 (V m) c ∗ Pipeline.ΦT pre0 (tbl m) c)
  q _ := fullShare
  owed _ := 0

/-- What the output array holds when the program ends: row `n` is the row table's row `table[n]`. -/
def finalOut (c : Dev nD) : S16384x128.Idx → Elt F .f32 :=
  fun j => V m c main_v15 (ix3 (⟨(V m c main_v13 (ix1 (j 0))).toNat % 2097152, Nat.mod_lt _ (by decide)⟩ : Fin 2097152) (0 : Fin 1) (j 1))

end Cert.KernelIdeal.Hand

end
-- ==== Proof.KernelIdealBridge.lean ====
/-
  From the range condition on the point table to what the frame run needs and what the program leaves.

  The frame's hypothesis (every word of the table is a row of the row table) follows from the range condition, which the
  printed precondition states. And under it the output array the program leaves, row `n` = the row table's row
  `table[n]`, is the specification's gather: the table's word is the flat row number `r = (b · 512 + y) · 512 + x` of point
  `n`, below 8 · 512 · 512, and row `r` of the channel-last table holds the channels of pixel (y, x) of image `b`, because
  `r / 512² = b`, `r / 512 % 512 = y` and `r % 512 = x` for `y, x < 512`.
-/
import proofs.«410525_j11055245820322_2_alg».proof.Proof.Gen.KernelIdeal.Launch
import proofs.«410525_j11055245820322_2_alg».proof.Proof.Gen.KernelIdeal.Skeleton
import proofs.«410525_j11055245820322_2_alg».proof.Proof.KernelIdealBase
import proofs.«410525_j11055245820322_2_alg».proof.Proof.KernelIdealSetup
import proofs.«410525_j11055245820322_2_alg».proof.Proof.KernelIdealHost
import proofs.«410525_j11055245820322_2_alg».proof.Proof.Spec
import proofs.«410525_j11055245820322_2_alg».proof.Pre_finite_inputs
import proofs.«410525_j11055245820322_2_alg».proof.Proof.Gen.Pre_finite_inputs
import Idealize.ShloMosaic.Lib.Pipeline.FrameBody
import Idealize.ShloMosaic.Lib.Pipeline.FrameSuffix
import Idealize.ShloMosaic.Lib.Pipeline.Value
import Idealize.ShloMosaic.Lib.StableHlo.Run
import Idealize.ShloMosaic.Lib.StableHlo.Predicate
import Idealize.ShloMosaic.Lib.ReduceAll
import Idealize.ShloMosaic.Lib.Ring
import Idealize.ShloMosaic.Lib.Tactic
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The flat row number taken apart -/

theorem flatOf_div (pts : IVec S8x2048x2 32) (n : Fin 16384) : Cert.Spec.flatOf pts n / 262144 = (Cert.Spec.imgOf n).val := by
  unfold Cert.Spec.flatOf
  have h2 := (Cert.Spec.rowOf pts n).isLt; have h3 := (Cert.Spec.colOf pts n).isLt
  omega
theorem flatOf_row (pts : IVec S8x2048x2 32) (n : Fin 16384) : Cert.Spec.flatOf pts n / 512 % 512 = (Cert.Spec.rowOf pts n).val := by
  unfold Cert.Spec.flatOf
  have h2 := (Cert.Spec.rowOf pts n).isLt; have h3 := (Cert.Spec.colOf pts n).isLt
  omega
theorem flatOf_col (pts : IVec S8x2048x2 32) (n : Fin 16384) : Cert.Spec.flatOf pts n % 512 = (Cert.Spec.colOf pts n).val := by
  unfold Cert.Spec.flatOf
  have h2 := (Cert.Spec.rowOf pts n).isLt; have h3 := (Cert.Spec.colOf pts n).isLt
  omega

/-- The channel-last table's row at a point's flat row number holds that point's pixel. -/
theorem rowsTbl_flatOf {α : Type} (img : S8x128x512x512.Idx → α) (pts : IVec S8x2048x2 32) (n : Fin 16384) (ch : Fin 128) :
    rowsTbl img (ix3 (⟨Cert.Spec.flatOf pts n, Cert.Spec.flatOf_lt pts n⟩ : Fin 2097152) (0 : Fin 1) ch)
      = img (ix4 (Cert.Spec.imgOf n) ch (Cert.Spec.rowOf pts n) (Cert.Spec.colOf pts n)) := by
  rw [rowsTbl_apply]
  congr 1
  funext a
  match a with
  | ⟨0, _⟩ => exact Fin.ext (flatOf_div pts n)
  | ⟨1, _⟩ => rfl
  | ⟨2, _⟩ => exact Fin.ext (flatOf_row pts n)
  | ⟨3, _⟩ => exact Fin.ext (flatOf_col pts n)

section Launch
variable (m : (ℓ : Loc nD τ sig) → Buf (Elt F) ℓ)

/-! ## The frame's hypothesis -/

/-- Under the range condition every word of the prefetched table is a row of the row table. -/
theorem hyps_of_inRange (h : ∀ c : Dev nD, Cert.Spec.InRange (m ((c : Thread nD τ).loc main_arg1))) : Hyps m := fun c => by
  rw [V_tbl]
  exact tblOk_of_inRange _ (h c)

/-- The printed precondition gives the range condition on every device … -/
theorem inRange_of_pre'
    (h : ∀ c : Dev nD, Cert.Pre_finite_inputs.fn (F := F) (m ((c : Thread nD τ).loc main_arg0)) (m ((c : Thread nD τ).loc main_arg1)) = fun _ => 1#1)
    (c : Dev nD) : Cert.Spec.InRange (m ((c : Thread nD τ).loc main_arg1)) :=
  inRange_of_pre _ _ (h c)

/-- … and so the frame's hypothesis. -/
theorem hyps_of_pre
    (h : ∀ c : Dev nD, Cert.Pre_finite_inputs.fn (F := F) (m ((c : Thread nD τ).loc main_arg0)) (m ((c : Thread nD τ).loc main_arg1)) = fun _ => 1#1) :
    Hyps m :=
  hyps_of_inRange m (inRange_of_pre' m h)

/-! ## What the program leaves is the specification's gather -/

theorem finalOut_eq (c : Dev nD) (h : Cert.Spec.InRange (m ((c : Thread nD τ).loc main_arg1))) :
    finalOut m c = Cert.Spec.gatherPix (m ((c : Thread nD τ).loc main_arg0)) (m ((c : Thread nD τ).loc main_arg1)) := by
  funext j
  obtain ⟨n, ch, rfl⟩ : ∃ (n : Fin 16384) (ch : Fin 128), j = ix2 n ch := ⟨j 0, j 1, eq_ix2 j⟩
  have hr : (⟨(V m c main_v13 (ix1 n)).toNat % 2097152, Nat.mod_lt _ (by decide)⟩ : Fin 2097152)
      = ⟨Cert.Spec.flatOf (m ((c : Thread nD τ).loc main_arg1)) n, Cert.Spec.flatOf_lt _ n⟩ := by
    apply Fin.ext
    show (V m c main_v13 (ix1 n)).toNat % 2097152 = Cert.Spec.flatOf (m ((c : Thread nD τ).loc main_arg1)) n
    rw [V_tbl, flatTbl_apply _ h n]
    exact Nat.mod_eq_of_lt (Cert.Spec.flatOf_lt _ n)
  show V m c main_v15 (ix3 (⟨(V m c main_v13 (ix1 n)).toNat % 2097152, Nat.mod_lt _ (by decide)⟩ : Fin 2097152) (0 : Fin 1) ch) = _
  rw [hr, V_rows, Cert.Spec.gatherPix_apply]
  exact rowsTbl_flatOf _ _ n ch

end Launch

end Cert.KernelIdeal.Hand

end
-- ==== Proof.KernelIdealTable.lean ====
import proofs.«410525_j11055245820322_2_alg».proof.Proof.KernelIdealBase

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-! Row k of the scratch buffer, as copy k's destination is spelt. -/
abbrev scRow0 : Memref sig .tc .vmem S1x128 .f32 := (scM.slice (Rect.unit (s := S128x1x128) ![0, 0, 0] S1x1x128.size inb_S128x1x128_S1x1x128_0_0_0) (fun _ => rfl)).squeeze S1x128 squeezes_S1x1x128_S1x128
abbrev scRow1 : Memref sig .tc .vmem S1x128 .f32 := (scM.slice (Rect.unit (s := S128x1x128) ![1, 0, 0] S1x1x128.size inb_S128x1x128_S1x1x128_1_0_0) (fun _ => rfl)).squeeze S1x128 squeezes_S1x1x128_S1x128
abbrev scRow2 : Memref sig .tc .vmem S1x128 .f32 := (scM.slice (Rect.unit (s := S128x1x128) ![2, 0, 0] S1x1x128.size inb_S128x1x128_S1x1x128_2_0_0) (fun _ => rfl)).squeeze S1x128 squeezes_S1x1x128_S1x128
abbrev scRow3 : Memref sig .tc .vmem S1x128 .f32 := (scM.slice (Rect.unit (s := S128x1x128) ![3, 0, 0] S1x1x128.size inb_S128x1x128_S1x1x128_3_0_0) (fun _ => rfl)).squeeze S1x128 squeezes_S1x1x128_S1x128
abbrev scRow4 : Memref sig .tc .vmem S1x128 .f32 := (scM.slice (Rect.unit (s := S128x1x128) ![4, 0, 0] S1x1x128.size inb_S128x1x128_S1x1x128_4_0_0) (fun _ => rfl)).squeeze S1x128 squeezes_S1x1x128_S1x128
abbrev scRow5 : Memref sig .tc .vmem S1x128 .f32 := (scM.slice (Rect.unit (s := S128x1x128) ![5, 0, 0] S1x1x128.size inb_S128x1x128_S1x1x128_5_0_0) (fun _ => rfl)).squeeze S1x128 squeezes_S1x1x128_S1x128
abbrev scRow6 : Memref sig .tc .vmem S1x128 .f32 := (scM.slice (Rect.unit (s := S128x1x128) ![6, 0, 0] S1x1x128.size inb_S128x1x128_S1x1x128_6_0_0) (fun _ => rfl)).squeeze S1x128 squeezes_S1x1x128_S1x128
abbrev scRow7 : Memref sig .tc .vmem S1x128 .f32 := (scM.slice (Rect.unit (s := S128x1x128) ![7, 0, 0] S1x1x128.size inb_S128x1x128_S1x1x128_7_0_0) (fun _ => rfl)).squeeze S1x128 squeezes_S1x1x128_S1x128
abbrev scRow8 : Memref sig .tc .vmem S1x128 .f32 := (scM.slice (Rect.unit (s := S128x1x128) ![8, 0, 0] S1x1x128.size inb_S128x1x128_S1x1x128_8_0_0) (fun _ => rfl)).squeeze S1x128 squeezes_S1x1x128_S1x128
abbrev scRow9 : Memref sig .tc .vmem S1x128 .f32 := (scM.slice (Rect.unit (s := S128x1x128) ![9, 0, 0] S1x1x128.size inb_S128x1x128_S1x1x128_9_0_0) (fun _ => rfl)).squeeze S1x128 squeezes_S1x1x128_S1x128
abbrev scRow10 : Memref sig .tc .vmem S1x128 .f32 := (scM.slice (Rect.unit (s := S128x1x128) ![10, 0, 0] S1x1x128.size inb_S128x1x128_S1x1x128_10_0_0) (fun _ => rfl)).squeeze S1x128 squeezes_S1x1x128_S1x128
abbrev scRow11 : Memref sig .tc .vmem S1x128 .f32 := (scM.slice (Rect.unit (s := S128x1x128) ![11, 0, 0] S1x1x128.size inb_S128x1x128_S1x1x128_11_0_0) (fun _ => rfl)).squeeze S1x128 squeezes_S1x1x128_S1x128
abbrev scRow12 : Memref sig .tc .vmem S1x128 .f32 := (scM.slice (Rect.unit (s := S128x1x128) ![12, 0, 0] S1x1x128.size inb_S128x1x128_S1x1x128_12_0_0) (fun _ => rfl)).squeeze S1x128 squeezes_S1x1x128_S1x128
abbrev scRow13 : Memref sig .tc .vmem S1x128 .f32 := (scM.slice (Rect.unit (s := S128x1x128) ![13, 0, 0] S1x1x128.size inb_S128x1x128_S1x1x128_13_0_0) (fun _ => rfl)).squeeze S1x128 squeezes_S1x1x128_S1x128
abbrev scRow14 : Memref sig .tc .vmem S1x128 .f32 := (scM.slice (Rect.unit (s := S128x1x128) ![14, 0, 0] S1x1x128.size inb_S128x1x128_S1x1x128_14_0_0) (fun _ => rfl)).squeeze S1x128 squeezes_S1x1x128_S1x128
abbrev scRow15 : Memref sig .tc .vmem S1x128 .f32 := (scM.slice (Rect.unit (s := S128x1x128) ![15, 0, 0] S1x1x128.size inb_S128x1x128_S1x1x128_15_0_0) (fun _ => rfl)).squeeze S1x128 squeezes_S1x1x128_S1x128
abbrev scRow16 : Memref sig .tc .vmem S1x128 .f32 := (scM.slice (Rect.unit (s := S128x1x128) ![16, 0, 0] S1x1x128.size inb_S128x1x128_S1x1x128_16_0_0) (fun _ => rfl)).squeeze S1x128 squeezes_S1x1x128_S1x128
abbrev scRow17 : Memref sig .tc .vmem S1x128 .f32 := (scM.slice (Rect.unit (s := S128x1x128) ![17, 0, 0] S1x1x128.size inb_S128x1x128_S1x1x128_17_0_0) (fun _ => rfl)).squeeze S1x128 squeezes_S1x1x128_S1x128
abbrev scRow18 : Memref sig .tc .vmem S1x128 .f32 := (scM.slice (Rect.unit (s := S128x1x128) ![18, 0, 0] S1x1x128.size inb_S128x1x128_S1x1x128_18_0_0) (fun _ => rfl)).squeeze S1x128 squeezes_S1x1x128_S1x128
abbrev scRow19 : Memref sig .tc .vmem S1x128 .f32 := (scM.slice (Rect.unit (s := S128x1x128) ![19, 0, 0] S1x1x128.size inb_S128x1x128_S1x1x128_19_0_0) (fun _ => rfl)).squeeze S1x128 squeezes_S1x1x128_S1x128
abbrev scRow20 : Memref sig .tc .vmem S1x128 .f32 := (scM.slice (Rect.unit (s := S128x1x128) ![20, 0, 0] S1x1x128.size inb_S128x1x128_S1x1x128_20_0_0) (fun _ => rfl)).squeeze S1x128 squeezes_S1x1x128_S1x128
abbrev scRow21 : Memref sig .tc .vmem S1x128 .f32 := (scM.slice (Rect.unit (s := S128x1x128) ![21, 0, 0] S1x1x128.size inb_S128x1x128_S1x1x128_21_0_0) (fun _ => rfl)).squeeze S1x128 squeezes_S1x1x128_S1x128
abbrev scRow22 : Memref sig .tc .vmem S1x128 .f32 := (scM.slice (Rect.unit (s := S128x1x128) ![22, 0, 0] S1x1x128.size inb_S128x1x128_S1x1x128_22_0_0) (fun _ => rfl)).squeeze S1x128 squeezes_S1x1x128_S1x128
abbrev scRow23 : Memref sig .tc .vmem S1x128 .f32 := (scM.slice (Rect.unit (s := S128x1x128) ![23, 0, 0] S1x1x128.size inb_S128x1x128_S1x1x128_23_0_0) (fun _ => rfl)).squeeze S1x128 squeezes_S1x1x128_S1x128
abbrev scRow24 : Memref sig .tc .vmem S1x128 .f32 := (scM.slice (Rect.unit (s := S128x1x128) ![24, 0, 0] S1x1x128.size inb_S128x1x128_S1x1x128_24_0_0) (fun _ => rfl)).squeeze S1x128 squeezes_S1x1x128_S1x128
abbrev scRow25 : Memref sig .tc .vmem S1x128 .f32 := (scM.slice (Rect.unit (s := S128x1x128) ![25, 0, 0] S1x1x128.size inb_S128x1x128_S1x1x128_25_0_0) (fun _ => rfl)).squeeze S1x128 squeezes_S1x1x128_S1x128
abbrev scRow26 : Memref sig .tc .vmem S1x128 .f32 := (scM.slice (Rect.unit (s := S128x1x128) ![26, 0, 0] S1x1x128.size inb_S128x1x128_S1x1x128_26_0_0) (fun _ => rfl)).squeeze S1x128 squeezes_S1x1x128_S1x128
abbrev scRow27 : Memref sig .tc .vmem S1x128 .f32 := (scM.slice (Rect.unit (s := S128x1x128) ![27, 0, 0] S1x1x128.size inb_S128x1x128_S1x1x128_27_0_0) (fun _ => rfl)).squeeze S1x128 squeezes_S1x1x128_S1x128
abbrev scRow28 : Memref sig .tc .vmem S1x128 .f32 := (scM.slice (Rect.unit (s := S128x1x128) ![28, 0, 0] S1x1x128.size inb_S128x1x128_S1x1x128_28_0_0) (fun _ => rfl)).squeeze S1x128 squeezes_S1x1x128_S1x128
abbrev scRow29 : Memref sig .tc .vmem S1x128 .f32 := (scM.slice (Rect.unit (s := S128x1x128) ![29, 0, 0] S1x1x128.size inb_S128x1x128_S1x1x128_29_0_0) (fun _ => rfl)).squeeze S1x128 squeezes_S1x1x128_S1x128
abbrev scRow30 : Memref sig .tc .vmem S1x128 .f32 := (scM.slice (Rect.unit (s := S128x1x128) ![30, 0, 0] S1x1x128.size inb_S128x1x128_S1x1x128_30_0_0) (fun _ => rfl)).squeeze S1x128 squeezes_S1x1x128_S1x128
abbrev scRow31 : Memref sig .tc .vmem S1x128 .f32 := (scM.slice (Rect.unit (s := S128x1x128) ![31, 0, 0] S1x1x128.size inb_S128x1x128_S1x1x128_31_0_0) (fun _ => rfl)).squeeze S1x128 squeezes_S1x1x128_S1x128
abbrev scRow32 : Memref sig .tc .vmem S1x128 .f32 := (scM.slice (Rect.unit (s := S128x1x128) ![32, 0, 0] S1x1x128.size inb_S128x1x128_S1x1x128_32_0_0) (fun _ => rfl)).squeeze S1x128 squeezes_S1x1x128_S1x128
abbrev scRow33 : Memref sig .tc .vmem S1x128 .f32 := (scM.slice (Rect.unit (s := S128x1x128) ![33, 0, 0] S1x1x128.size inb_S128x1x128_S1x1x128_33_0_0) (fun _ => rfl)).squeeze S1x128 squeezes_S1x1x128_S1x128
abbrev scRow34 : Memref sig .tc .vmem S1x128 .f32 := (scM.slice (Rect.unit (s := S128x1x128) ![34, 0, 0] S1x1x128.size inb_S128x1x128_S1x1x128_34_0_0) (fun _ => rfl)).squeeze S1x128 squeezes_S1x1x128_S1x128
abbrev scRow35 : Memref sig .tc .vmem S1x128 .f32 := (scM.slice (Rect.unit (s := S128x1x128) ![35, 0, 0] S1x1x128.size inb_S128x1x128_S1x1x128_35_0_0) (fun _ => rfl)).squeeze S1x128 squeezes_S1x1x128_S1x128
abbrev scRow36 : Memref sig .tc .vmem S1x128 .f32 := (scM.slice (Rect.unit (s := S128x1x128) ![36, 0, 0] S1x1x128.size inb_S128x1x128_S1x1x128_36_0_0) (fun _ => rfl)).squeeze S1x128 squeezes_S1x1x128_S1x128
abbrev scRow37 : Memref sig .tc .vmem S1x128 .f32 := (scM.slice (Rect.unit (s := S128x1x128) ![37, 0, 0] S1x1x128.size inb_S128x1x128_S1x1x128_37_0_0) (fun _ => rfl)).squeeze S1x128 squeezes_S1x1x128_S1x128
abbrev scRow38 : Memref sig .tc .vmem S1x128 .f32 := (scM.slice (Rect.unit (s := S128x1x128) ![38, 0, 0] S1x1x128.size inb_S128x1x128_S1x1x128_38_0_0) (fun _ => rfl)).squeeze S1x128 squeezes_S1x1x128_S1x128
abbrev scRow39 : Memref sig .tc .vmem S1x128 .f32 := (scM.slice (Rect.unit (s := S128x1x128) ![39, 0, 0] S1x1x128.size inb_S128x1x128_S1x1x128_39_0_0) (fun _ => rfl)).squeeze S1x128 squeezes_S1x1x128_S1x128
abbrev scRow40 : Memref sig .tc .vmem S1x128 .f32 := (scM.slice (Rect.unit (s := S128x1x128) ![40, 0, 0] S1x1x128.size inb_S128x1x128_S1x1x128_40_0_0) (fun _ => rfl)).squeeze S1x128 squeezes_S1x1x128_S1x128
abbrev scRow41 : Memref sig .tc .vmem S1x128 .f32 := (scM.slice (Rect.unit (s := S128x1x128) ![41, 0, 0] S1x1x128.size inb_S128x1x128_S1x1x128_41_0_0) (fun _ => rfl)).squeeze S1x128 squeezes_S1x1x128_S1x128
abbrev scRow42 : Memref sig .tc .vmem S1x128 .f32 := (scM.slice (Rect.unit (s := S128x1x128) ![42, 0, 0] S1x1x128.size inb_S128x1x128_S1x1x128_42_0_0) (fun _ => rfl)).squeeze S1x128 squeezes_S1x1x128_S1x128
abbrev scRow43 : Memref sig .tc .vmem S1x128 .f32 := (scM.slice (Rect.unit (s := S128x1x128) ![43, 0, 0] S1x1x128.size inb_S128x1x128_S1x1x128_43_0_0) (fun _ => rfl)).squeeze S1x128 squeezes_S1x1x128_S1x128
abbrev scRow44 : Memref sig .tc .vmem S1x128 .f32 := (scM.slice (Rect.unit (s := S128x1x128) ![44, 0, 0] S1x1x128.size inb_S128x1x128_S1x1x128_44_0_0) (fun _ => rfl)).squeeze S1x128 squeezes_S1x1x128_S1x128
abbrev scRow45 : Memref sig .tc .vmem S1x128 .f32 := (scM.slice (Rect.unit (s := S128x1x128) ![45, 0, 0] S1x1x128.size inb_S128x1x128_S1x1x128_45_0_0) (fun _ => rfl)).squeeze S1x128 squeezes_S1x1x128_S1x128
abbrev scRow46 : Memref sig .tc .vmem S1x128 .f32 := (scM.slice (Rect.unit (s := S128x1x128) ![46, 0, 0] S1x1x128.size inb_S128x1x128_S1x1x128_46_0_0) (fun _ => rfl)).squeeze S1x128 squeezes_S1x1x128_S1x128
abbrev scRow47 : Memref sig .tc .vmem S1x128 .f32 := (scM.slice (Rect.unit (s := S128x1x128) ![47, 0, 0] S1x1x128.size inb_S128x1x128_S1x1x128_47_0_0) (fun _ => rfl)).squeeze S1x128 squeezes_S1x1x128_S1x128
abbrev scRow48 : Memref sig .tc .vmem S1x128 .f32 := (scM.slice (Rect.unit (s := S128x1x128) ![48, 0, 0] S1x1x128.size inb_S128x1x128_S1x1x128_48_0_0) (fun _ => rfl)).squeeze S1x128 squeezes_S1x1x128_S1x128
abbrev scRow49 : Memref sig .tc .vmem S1x128 .f32 := (scM.slice (Rect.unit (s := S128x1x128) ![49, 0, 0] S1x1x128.size inb_S128x1x128_S1x1x128_49_0_0) (fun _ => rfl)).squeeze S1x128 squeezes_S1x1x128_S1x128
abbrev scRow50 : Memref sig .tc .vmem S1x128 .f32 := (scM.slice (Rect.unit (s := S128x1x128) ![50, 0, 0] S1x1x128.size inb_S128x1x128_S1x1x128_50_0_0) (fun _ => rfl)).squeeze S1x128 squeezes_S1x1x128_S1x128
abbrev scRow51 : Memref sig .tc .vmem S1x128 .f32 := (scM.slice (Rect.unit (s := S128x1x128) ![51, 0, 0] S1x1x128.size inb_S128x1x128_S1x1x128_51_0_0) (fun _ => rfl)).squeeze S1x128 squeezes_S1x1x128_S1x128
abbrev scRow52 : Memref sig .tc .vmem S1x128 .f32 := (scM.slice (Rect.unit (s := S128x1x128) ![52, 0, 0] S1x1x128.size inb_S128x1x128_S1x1x128_52_0_0) (fun _ => rfl)).squeeze S1x128 squeezes_S1x1x128_S1x128
abbrev scRow53 : Memref sig .tc .vmem S1x128 .f32 := (scM.slice (Rect.unit (s := S128x1x128) ![53, 0, 0] S1x1x128.size inb_S128x1x128_S1x1x128_53_0_0) (fun _ => rfl)).squeeze S1x128 squeezes_S1x1x128_S1x128
abbrev scRow54 : Memref sig .tc .vmem S1x128 .f32 := (scM.slice (Rect.unit (s := S128x1x128) ![54, 0, 0] S1x1x128.size inb_S128x1x128_S1x1x128_54_0_0) (fun _ => rfl)).squeeze S1x128 squeezes_S1x1x128_S1x128
abbrev scRow55 : Memref sig .tc .vmem S1x128 .f32 := (scM.slice (Rect.unit (s := S128x1x128) ![55, 0, 0] S1x1x128.size inb_S128x1x128_S1x1x128_55_0_0) (fun _ => rfl)).squeeze S1x128 squeezes_S1x1x128_S1x128
abbrev scRow56 : Memref sig .tc .vmem S1x128 .f32 := (scM.slice (Rect.unit (s := S128x1x128) ![56, 0, 0] S1x1x128.size inb_S128x1x128_S1x1x128_56_0_0) (fun _ => rfl)).squeeze S1x128 squeezes_S1x1x128_S1x128
abbrev scRow57 : Memref sig .tc .vmem S1x128 .f32 := (scM.slice (Rect.unit (s := S128x1x128) ![57, 0, 0] S1x1x128.size inb_S128x1x128_S1x1x128_57_0_0) (fun _ => rfl)).squeeze S1x128 squeezes_S1x1x128_S1x128
abbrev scRow58 : Memref sig .tc .vmem S1x128 .f32 := (scM.slice (Rect.unit (s := S128x1x128) ![58, 0, 0] S1x1x128.size inb_S128x1x128_S1x1x128_58_0_0) (fun _ => rfl)).squeeze S1x128 squeezes_S1x1x128_S1x128
abbrev scRow59 : Memref sig .tc .vmem S1x128 .f32 := (scM.slice (Rect.unit (s := S128x1x128) ![59, 0, 0] S1x1x128.size inb_S128x1x128_S1x1x128_59_0_0) (fun _ => rfl)).squeeze S1x128 squeezes_S1x1x128_S1x128
abbrev scRow60 : Memref sig .tc .vmem S1x128 .f32 := (scM.slice (Rect.unit (s := S128x1x128) ![60, 0, 0] S1x1x128.size inb_S128x1x128_S1x1x128_60_0_0) (fun _ => rfl)).squeeze S1x128 squeezes_S1x1x128_S1x128
abbrev scRow61 : Memref sig .tc .vmem S1x128 .f32 := (scM.slice (Rect.unit (s := S128x1x128) ![61, 0, 0] S1x1x128.size inb_S128x1x128_S1x1x128_61_0_0) (fun _ => rfl)).squeeze S1x128 squeezes_S1x1x128_S1x128
abbrev scRow62 : Memref sig .tc .vmem S1x128 .f32 := (scM.slice (Rect.unit (s := S128x1x128) ![62, 0, 0] S1x1x128.size inb_S128x1x128_S1x1x128_62_0_0) (fun _ => rfl)).squeeze S1x128 squeezes_S1x1x128_S1x128
abbrev scRow63 : Memref sig .tc .vmem S1x128 .f32 := (scM.slice (Rect.unit (s := S128x1x128) ![63, 0, 0] S1x1x128.size inb_S128x1x128_S1x1x128_63_0_0) (fun _ => rfl)).squeeze S1x128 squeezes_S1x1x128_S1x128
abbrev scRow64 : Memref sig .tc .vmem S1x128 .f32 := (scM.slice (Rect.unit (s := S128x1x128) ![64, 0, 0] S1x1x128.size inb_S128x1x128_S1x1x128_64_0_0) (fun _ => rfl)).squeeze S1x128 squeezes_S1x1x128_S1x128
abbrev scRow65 : Memref sig .tc .vmem S1x128 .f32 := (scM.slice (Rect.unit (s := S128x1x128) ![65, 0, 0] S1x1x128.size inb_S128x1x128_S1x1x128_65_0_0) (fun _ => rfl)).squeeze S1x128 squeezes_S1x1x128_S1x128
abbrev scRow66 : Memref sig .tc .vmem S1x128 .f32 := (scM.slice (Rect.unit (s := S128x1x128) ![66, 0, 0] S1x1x128.size inb_S128x1x128_S1x1x128_66_0_0) (fun _ => rfl)).squeeze S1x128 squeezes_S1x1x128_S1x128
abbrev scRow67 : Memref sig .tc .vmem S1x128 .f32 := (scM.slice (Rect.unit (s := S128x1x128) ![67, 0, 0] S1x1x128.size inb_S128x1x128_S1x1x128_67_0_0) (fun _ => rfl)).squeeze S1x128 squeezes_S1x1x128_S1x128
abbrev scRow68 : Memref sig .tc .vmem S1x128 .f32 := (scM.slice (Rect.unit (s := S128x1x128) ![68, 0, 0] S1x1x128.size inb_S128x1x128_S1x1x128_68_0_0) (fun _ => rfl)).squeeze S1x128 squeezes_S1x1x128_S1x128
abbrev scRow69 : Memref sig .tc .vmem S1x128 .f32 := (scM.slice (Rect.unit (s := S128x1x128) ![69, 0, 0] S1x1x128.size inb_S128x1x128_S1x1x128_69_0_0) (fun _ => rfl)).squeeze S1x128 squeezes_S1x1x128_S1x128
abbrev scRow70 : Memref sig .tc .vmem S1x128 .f32 := (scM.slice (Rect.unit (s := S128x1x128) ![70, 0, 0] S1x1x128.size inb_S128x1x128_S1x1x128_70_0_0) (fun _ => rfl)).squeeze S1x128 squeezes_S1x1x128_S1x128
abbrev scRow71 : Memref sig .tc .vmem S1x128 .f32 := (scM.slice (Rect.unit (s := S128x1x128) ![71, 0, 0] S1x1x128.size inb_S128x1x128_S1x1x128_71_0_0) (fun _ => rfl)).squeeze S1x128 squeezes_S1x1x128_S1x128
abbrev scRow72 : Memref sig .tc .vmem S1x128 .f32 := (scM.slice (Rect.unit (s := S128x1x128) ![72, 0, 0] S1x1x128.size inb_S128x1x128_S1x1x128_72_0_0) (fun _ => rfl)).squeeze S1x128 squeezes_S1x1x128_S1x128
abbrev scRow73 : Memref sig .tc .vmem S1x128 .f32 := (scM.slice (Rect.unit (s := S128x1x128) ![73, 0, 0] S1x1x128.size inb_S128x1x128_S1x1x128_73_0_0) (fun _ => rfl)).squeeze S1x128 squeezes_S1x1x128_S1x128
abbrev scRow74 : Memref sig .tc .vmem S1x128 .f32 := (scM.slice (Rect.unit (s := S128x1x128) ![74, 0, 0] S1x1x128.size inb_S128x1x128_S1x1x128_74_0_0) (fun _ => rfl)).squeeze S1x128 squeezes_S1x1x128_S1x128
abbrev scRow75 : Memref sig .tc .vmem S1x128 .f32 := (scM.slice (Rect.unit (s := S128x1x128) ![75, 0, 0] S1x1x128.size inb_S128x1x128_S1x1x128_75_0_0) (fun _ => rfl)).squeeze S1x128 squeezes_S1x1x128_S1x128
abbrev scRow76 : Memref sig .tc .vmem S1x128 .f32 := (scM.slice (Rect.unit (s := S128x1x128) ![76, 0, 0] S1x1x128.size inb_S128x1x128_S1x1x128_76_0_0) (fun _ => rfl)).squeeze S1x128 squeezes_S1x1x128_S1x128
abbrev scRow77 : Memref sig .tc .vmem S1x128 .f32 := (scM.slice (Rect.unit (s := S128x1x128) ![77, 0, 0] S1x1x128.size inb_S128x1x128_S1x1x128_77_0_0) (fun _ => rfl)).squeeze S1x128 squeezes_S1x1x128_S1x128
abbrev scRow78 : Memref sig .tc .vmem S1x128 .f32 := (scM.slice (Rect.unit (s := S128x1x128) ![78, 0, 0] S1x1x128.size inb_S128x1x128_S1x1x128_78_0_0) (fun _ => rfl)).squeeze S1x128 squeezes_S1x1x128_S1x128
abbrev scRow79 : Memref sig .tc .vmem S1x128 .f32 := (scM.slice (Rect.unit (s := S128x1x128) ![79, 0, 0] S1x1x128.size inb_S128x1x128_S1x1x128_79_0_0) (fun _ => rfl)).squeeze S1x128 squeezes_S1x1x128_S1x128
abbrev scRow80 : Memref sig .tc .vmem S1x128 .f32 := (scM.slice (Rect.unit (s := S128x1x128) ![80, 0, 0] S1x1x128.size inb_S128x1x128_S1x1x128_80_0_0) (fun _ => rfl)).squeeze S1x128 squeezes_S1x1x128_S1x128
abbrev scRow81 : Memref sig .tc .vmem S1x128 .f32 := (scM.slice (Rect.unit (s := S128x1x128) ![81, 0, 0] S1x1x128.size inb_S128x1x128_S1x1x128_81_0_0) (fun _ => rfl)).squeeze S1x128 squeezes_S1x1x128_S1x128
abbrev scRow82 : Memref sig .tc .vmem S1x128 .f32 := (scM.slice (Rect.unit (s := S128x1x128) ![82, 0, 0] S1x1x128.size inb_S128x1x128_S1x1x128_82_0_0) (fun _ => rfl)).squeeze S1x128 squeezes_S1x1x128_S1x128
abbrev scRow83 : Memref sig .tc .vmem S1x128 .f32 := (scM.slice (Rect.unit (s := S128x1x128) ![83, 0, 0] S1x1x128.size inb_S128x1x128_S1x1x128_83_0_0) (fun _ => rfl)).squeeze S1x128 squeezes_S1x1x128_S1x128
abbrev scRow84 : Memref sig .tc .vmem S1x128 .f32 := (scM.slice (Rect.unit (s := S128x1x128) ![84, 0, 0] S1x1x128.size inb_S128x1x128_S1x1x128_84_0_0) (fun _ => rfl)).squeeze S1x128 squeezes_S1x1x128_S1x128
abbrev scRow85 : Memref sig .tc .vmem S1x128 .f32 := (scM.slice (Rect.unit (s := S128x1x128) ![85, 0, 0] S1x1x128.size inb_S128x1x128_S1x1x128_85_0_0) (fun _ => rfl)).squeeze S1x128 squeezes_S1x1x128_S1x128
abbrev scRow86 : Memref sig .tc .vmem S1x128 .f32 := (scM.slice (Rect.unit (s := S128x1x128) ![86, 0, 0] S1x1x128.size inb_S128x1x128_S1x1x128_86_0_0) (fun _ => rfl)).squeeze S1x128 squeezes_S1x1x128_S1x128
abbrev scRow87 : Memref sig .tc .vmem S1x128 .f32 := (scM.slice (Rect.unit (s := S128x1x128) ![87, 0, 0] S1x1x128.size inb_S128x1x128_S1x1x128_87_0_0) (fun _ => rfl)).squeeze S1x128 squeezes_S1x1x128_S1x128
abbrev scRow88 : Memref sig .tc .vmem S1x128 .f32 := (scM.slice (Rect.unit (s := S128x1x128) ![88, 0, 0] S1x1x128.size inb_S128x1x128_S1x1x128_88_0_0) (fun _ => rfl)).squeeze S1x128 squeezes_S1x1x128_S1x128
abbrev scRow89 : Memref sig .tc .vmem S1x128 .f32 := (scM.slice (Rect.unit (s := S128x1x128) ![89, 0, 0] S1x1x128.size inb_S128x1x128_S1x1x128_89_0_0) (fun _ => rfl)).squeeze S1x128 squeezes_S1x1x128_S1x128
abbrev scRow90 : Memref sig .tc .vmem S1x128 .f32 := (scM.slice (Rect.unit (s := S128x1x128) ![90, 0, 0] S1x1x128.size inb_S128x1x128_S1x1x128_90_0_0) (fun _ => rfl)).squeeze S1x128 squeezes_S1x1x128_S1x128
abbrev scRow91 : Memref sig .tc .vmem S1x128 .f32 := (scM.slice (Rect.unit (s := S128x1x128) ![91, 0, 0] S1x1x128.size inb_S128x1x128_S1x1x128_91_0_0) (fun _ => rfl)).squeeze S1x128 squeezes_S1x1x128_S1x128
abbrev scRow92 : Memref sig .tc .vmem S1x128 .f32 := (scM.slice (Rect.unit (s := S128x1x128) ![92, 0, 0] S1x1x128.size inb_S128x1x128_S1x1x128_92_0_0) (fun _ => rfl)).squeeze S1x128 squeezes_S1x1x128_S1x128
abbrev scRow93 : Memref sig .tc .vmem S1x128 .f32 := (scM.slice (Rect.unit (s := S128x1x128) ![93, 0, 0] S1x1x128.size inb_S128x1x128_S1x1x128_93_0_0) (fun _ => rfl)).squeeze S1x128 squeezes_S1x1x128_S1x128
abbrev scRow94 : Memref sig .tc .vmem S1x128 .f32 := (scM.slice (Rect.unit (s := S128x1x128) ![94, 0, 0] S1x1x128.size inb_S128x1x128_S1x1x128_94_0_0) (fun _ => rfl)).squeeze S1x128 squeezes_S1x1x128_S1x128
abbrev scRow95 : Memref sig .tc .vmem S1x128 .f32 := (scM.slice (Rect.unit (s := S128x1x128) ![95, 0, 0] S1x1x128.size inb_S128x1x128_S1x1x128_95_0_0) (fun _ => rfl)).squeeze S1x128 squeezes_S1x1x128_S1x128
abbrev scRow96 : Memref sig .tc .vmem S1x128 .f32 := (scM.slice (Rect.unit (s := S128x1x128) ![96, 0, 0] S1x1x128.size inb_S128x1x128_S1x1x128_96_0_0) (fun _ => rfl)).squeeze S1x128 squeezes_S1x1x128_S1x128
abbrev scRow97 : Memref sig .tc .vmem S1x128 .f32 := (scM.slice (Rect.unit (s := S128x1x128) ![97, 0, 0] S1x1x128.size inb_S128x1x128_S1x1x128_97_0_0) (fun _ => rfl)).squeeze S1x128 squeezes_S1x1x128_S1x128
abbrev scRow98 : Memref sig .tc .vmem S1x128 .f32 := (scM.slice (Rect.unit (s := S128x1x128) ![98, 0, 0] S1x1x128.size inb_S128x1x128_S1x1x128_98_0_0) (fun _ => rfl)).squeeze S1x128 squeezes_S1x1x128_S1x128
abbrev scRow99 : Memref sig .tc .vmem S1x128 .f32 := (scM.slice (Rect.unit (s := S128x1x128) ![99, 0, 0] S1x1x128.size inb_S128x1x128_S1x1x128_99_0_0) (fun _ => rfl)).squeeze S1x128 squeezes_S1x1x128_S1x128
abbrev scRow100 : Memref sig .tc .vmem S1x128 .f32 := (scM.slice (Rect.unit (s := S128x1x128) ![100, 0, 0] S1x1x128.size inb_S128x1x128_S1x1x128_100_0_0) (fun _ => rfl)).squeeze S1x128 squeezes_S1x1x128_S1x128
abbrev scRow101 : Memref sig .tc .vmem S1x128 .f32 := (scM.slice (Rect.unit (s := S128x1x128) ![101, 0, 0] S1x1x128.size inb_S128x1x128_S1x1x128_101_0_0) (fun _ => rfl)).squeeze S1x128 squeezes_S1x1x128_S1x128
abbrev scRow102 : Memref sig .tc .vmem S1x128 .f32 := (scM.slice (Rect.unit (s := S128x1x128) ![102, 0, 0] S1x1x128.size inb_S128x1x128_S1x1x128_102_0_0) (fun _ => rfl)).squeeze S1x128 squeezes_S1x1x128_S1x128
abbrev scRow103 : Memref sig .tc .vmem S1x128 .f32 := (scM.slice (Rect.unit (s := S128x1x128) ![103, 0, 0] S1x1x128.size inb_S128x1x128_S1x1x128_103_0_0) (fun _ => rfl)).squeeze S1x128 squeezes_S1x1x128_S1x128
abbrev scRow104 : Memref sig .tc .vmem S1x128 .f32 := (scM.slice (Rect.unit (s := S128x1x128) ![104, 0, 0] S1x1x128.size inb_S128x1x128_S1x1x128_104_0_0) (fun _ => rfl)).squeeze S1x128 squeezes_S1x1x128_S1x128
abbrev scRow105 : Memref sig .tc .vmem S1x128 .f32 := (scM.slice (Rect.unit (s := S128x1x128) ![105, 0, 0] S1x1x128.size inb_S128x1x128_S1x1x128_105_0_0) (fun _ => rfl)).squeeze S1x128 squeezes_S1x1x128_S1x128
abbrev scRow106 : Memref sig .tc .vmem S1x128 .f32 := (scM.slice (Rect.unit (s := S128x1x128) ![106, 0, 0] S1x1x128.size inb_S128x1x128_S1x1x128_106_0_0) (fun _ => rfl)).squeeze S1x128 squeezes_S1x1x128_S1x128
abbrev scRow107 : Memref sig .tc .vmem S1x128 .f32 := (scM.slice (Rect.unit (s := S128x1x128) ![107, 0, 0] S1x1x128.size inb_S128x1x128_S1x1x128_107_0_0) (fun _ => rfl)).squeeze S1x128 squeezes_S1x1x128_S1x128
abbrev scRow108 : Memref sig .tc .vmem S1x128 .f32 := (scM.slice (Rect.unit (s := S128x1x128) ![108, 0, 0] S1x1x128.size inb_S128x1x128_S1x1x128_108_0_0) (fun _ => rfl)).squeeze S1x128 squeezes_S1x1x128_S1x128
abbrev scRow109 : Memref sig .tc .vmem S1x128 .f32 := (scM.slice (Rect.unit (s := S128x1x128) ![109, 0, 0] S1x1x128.size inb_S128x1x128_S1x1x128_109_0_0) (fun _ => rfl)).squeeze S1x128 squeezes_S1x1x128_S1x128
abbrev scRow110 : Memref sig .tc .vmem S1x128 .f32 := (scM.slice (Rect.unit (s := S128x1x128) ![110, 0, 0] S1x1x128.size inb_S128x1x128_S1x1x128_110_0_0) (fun _ => rfl)).squeeze S1x128 squeezes_S1x1x128_S1x128
abbrev scRow111 : Memref sig .tc .vmem S1x128 .f32 := (scM.slice (Rect.unit (s := S128x1x128) ![111, 0, 0] S1x1x128.size inb_S128x1x128_S1x1x128_111_0_0) (fun _ => rfl)).squeeze S1x128 squeezes_S1x1x128_S1x128
abbrev scRow112 : Memref sig .tc .vmem S1x128 .f32 := (scM.slice (Rect.unit (s := S128x1x128) ![112, 0, 0] S1x1x128.size inb_S128x1x128_S1x1x128_112_0_0) (fun _ => rfl)).squeeze S1x128 squeezes_S1x1x128_S1x128
abbrev scRow113 : Memref sig .tc .vmem S1x128 .f32 := (scM.slice (Rect.unit (s := S128x1x128) ![113, 0, 0] S1x1x128.size inb_S128x1x128_S1x1x128_113_0_0) (fun _ => rfl)).squeeze S1x128 squeezes_S1x1x128_S1x128
abbrev scRow114 : Memref sig .tc .vmem S1x128 .f32 := (scM.slice (Rect.unit (s := S128x1x128) ![114, 0, 0] S1x1x128.size inb_S128x1x128_S1x1x128_114_0_0) (fun _ => rfl)).squeeze S1x128 squeezes_S1x1x128_S1x128
abbrev scRow115 : Memref sig .tc .vmem S1x128 .f32 := (scM.slice (Rect.unit (s := S128x1x128) ![115, 0, 0] S1x1x128.size inb_S128x1x128_S1x1x128_115_0_0) (fun _ => rfl)).squeeze S1x128 squeezes_S1x1x128_S1x128
abbrev scRow116 : Memref sig .tc .vmem S1x128 .f32 := (scM.slice (Rect.unit (s := S128x1x128) ![116, 0, 0] S1x1x128.size inb_S128x1x128_S1x1x128_116_0_0) (fun _ => rfl)).squeeze S1x128 squeezes_S1x1x128_S1x128
abbrev scRow117 : Memref sig .tc .vmem S1x128 .f32 := (scM.slice (Rect.unit (s := S128x1x128) ![117, 0, 0] S1x1x128.size inb_S128x1x128_S1x1x128_117_0_0) (fun _ => rfl)).squeeze S1x128 squeezes_S1x1x128_S1x128
abbrev scRow118 : Memref sig .tc .vmem S1x128 .f32 := (scM.slice (Rect.unit (s := S128x1x128) ![118, 0, 0] S1x1x128.size inb_S128x1x128_S1x1x128_118_0_0) (fun _ => rfl)).squeeze S1x128 squeezes_S1x1x128_S1x128
abbrev scRow119 : Memref sig .tc .vmem S1x128 .f32 := (scM.slice (Rect.unit (s := S128x1x128) ![119, 0, 0] S1x1x128.size inb_S128x1x128_S1x1x128_119_0_0) (fun _ => rfl)).squeeze S1x128 squeezes_S1x1x128_S1x128
abbrev scRow120 : Memref sig .tc .vmem S1x128 .f32 := (scM.slice (Rect.unit (s := S128x1x128) ![120, 0, 0] S1x1x128.size inb_S128x1x128_S1x1x128_120_0_0) (fun _ => rfl)).squeeze S1x128 squeezes_S1x1x128_S1x128
abbrev scRow121 : Memref sig .tc .vmem S1x128 .f32 := (scM.slice (Rect.unit (s := S128x1x128) ![121, 0, 0] S1x1x128.size inb_S128x1x128_S1x1x128_121_0_0) (fun _ => rfl)).squeeze S1x128 squeezes_S1x1x128_S1x128
abbrev scRow122 : Memref sig .tc .vmem S1x128 .f32 := (scM.slice (Rect.unit (s := S128x1x128) ![122, 0, 0] S1x1x128.size inb_S128x1x128_S1x1x128_122_0_0) (fun _ => rfl)).squeeze S1x128 squeezes_S1x1x128_S1x128
abbrev scRow123 : Memref sig .tc .vmem S1x128 .f32 := (scM.slice (Rect.unit (s := S128x1x128) ![123, 0, 0] S1x1x128.size inb_S128x1x128_S1x1x128_123_0_0) (fun _ => rfl)).squeeze S1x128 squeezes_S1x1x128_S1x128
abbrev scRow124 : Memref sig .tc .vmem S1x128 .f32 := (scM.slice (Rect.unit (s := S128x1x128) ![124, 0, 0] S1x1x128.size inb_S128x1x128_S1x1x128_124_0_0) (fun _ => rfl)).squeeze S1x128 squeezes_S1x1x128_S1x128
abbrev scRow125 : Memref sig .tc .vmem S1x128 .f32 := (scM.slice (Rect.unit (s := S128x1x128) ![125, 0, 0] S1x1x128.size inb_S128x1x128_S1x1x128_125_0_0) (fun _ => rfl)).squeeze S1x128 squeezes_S1x1x128_S1x128
abbrev scRow126 : Memref sig .tc .vmem S1x128 .f32 := (scM.slice (Rect.unit (s := S128x1x128) ![126, 0, 0] S1x1x128.size inb_S128x1x128_S1x1x128_126_0_0) (fun _ => rfl)).squeeze S1x128 squeezes_S1x1x128_S1x128
abbrev scRow127 : Memref sig .tc .vmem S1x128 .f32 := (scM.slice (Rect.unit (s := S128x1x128) ![127, 0, 0] S1x1x128.size inb_S128x1x128_S1x1x128_127_0_0) (fun _ => rfl)).squeeze S1x128 squeezes_S1x1x128_S1x128

/-- The 128 rows, each held by its own elements, at the contents f. -/
def RowsAt (c : Dev nD) (f : MBuf (F := F) c scM) : sProp 𝕄 :=
  iprop(mOwn c scRow0 f ∗ mOwn c scRow1 f ∗ mOwn c scRow2 f ∗ mOwn c scRow3 f ∗ mOwn c scRow4 f ∗ mOwn c scRow5 f ∗ mOwn c scRow6 f ∗ mOwn c scRow7 f ∗ mOwn c scRow8 f ∗ mOwn c scRow9 f ∗ mOwn c scRow10 f ∗ mOwn c scRow11 f ∗ mOwn c scRow12 f ∗ mOwn c scRow13 f ∗ mOwn c scRow14 f ∗ mOwn c scRow15 f ∗ mOwn c scRow16 f ∗ mOwn c scRow17 f ∗ mOwn c scRow18 f ∗ mOwn c scRow19 f ∗ mOwn c scRow20 f ∗ mOwn c scRow21 f ∗ mOwn c scRow22 f ∗ mOwn c scRow23 f ∗ mOwn c scRow24 f ∗ mOwn c scRow25 f ∗ mOwn c scRow26 f ∗ mOwn c scRow27 f ∗ mOwn c scRow28 f ∗ mOwn c scRow29 f ∗ mOwn c scRow30 f ∗ mOwn c scRow31 f ∗ mOwn c scRow32 f ∗ mOwn c scRow33 f ∗ mOwn c scRow34 f ∗ mOwn c scRow35 f ∗ mOwn c scRow36 f ∗ mOwn c scRow37 f ∗ mOwn c scRow38 f ∗ mOwn c scRow39 f ∗ mOwn c scRow40 f ∗ mOwn c scRow41 f ∗ mOwn c scRow42 f ∗ mOwn c scRow43 f ∗ mOwn c scRow44 f ∗ mOwn c scRow45 f ∗ mOwn c scRow46 f ∗ mOwn c scRow47 f ∗ mOwn c scRow48 f ∗ mOwn c scRow49 f ∗ mOwn c scRow50 f ∗ mOwn c scRow51 f ∗ mOwn c scRow52 f ∗ mOwn c scRow53 f ∗ mOwn c scRow54 f ∗ mOwn c scRow55 f ∗ mOwn c scRow56 f ∗ mOwn c scRow57 f ∗ mOwn c scRow58 f ∗ mOwn c scRow59 f ∗ mOwn c scRow60 f ∗ mOwn c scRow61 f ∗ mOwn c scRow62 f ∗ mOwn c scRow63 f ∗ mOwn c scRow64 f ∗ mOwn c scRow65 f ∗ mOwn c scRow66 f ∗ mOwn c scRow67 f ∗ mOwn c scRow68 f ∗ mOwn c scRow69 f ∗ mOwn c scRow70 f ∗ mOwn c scRow71 f ∗ mOwn c scRow72 f ∗ mOwn c scRow73 f ∗ mOwn c scRow74 f ∗ mOwn c scRow75 f ∗ mOwn c scRow76 f ∗ mOwn c scRow77 f ∗ mOwn c scRow78 f ∗ mOwn c scRow79 f ∗ mOwn c scRow80 f ∗ mOwn c scRow81 f ∗ mOwn c scRow82 f ∗ mOwn c scRow83 f ∗ mOwn c scRow84 f ∗ mOwn c scRow85 f ∗ mOwn c scRow86 f ∗ mOwn c scRow87 f ∗ mOwn c scRow88 f ∗ mOwn c scRow89 f ∗ mOwn c scRow90 f ∗ mOwn c scRow91 f ∗ mOwn c scRow92 f ∗ mOwn c scRow93 f ∗ mOwn c scRow94 f ∗ mOwn c scRow95 f ∗ mOwn c scRow96 f ∗ mOwn c scRow97 f ∗ mOwn c scRow98 f ∗ mOwn c scRow99 f ∗ mOwn c scRow100 f ∗ mOwn c scRow101 f ∗ mOwn c scRow102 f ∗ mOwn c scRow103 f ∗ mOwn c scRow104 f ∗ mOwn c scRow105 f ∗ mOwn c scRow106 f ∗ mOwn c scRow107 f ∗ mOwn c scRow108 f ∗ mOwn c scRow109 f ∗ mOwn c scRow110 f ∗ mOwn c scRow111 f ∗ mOwn c scRow112 f ∗ mOwn c scRow113 f ∗ mOwn c scRow114 f ∗ mOwn c scRow115 f ∗ mOwn c scRow116 f ∗ mOwn c scRow117 f ∗ mOwn c scRow118 f ∗ mOwn c scRow119 f ∗ mOwn c scRow120 f ∗ mOwn c scRow121 f ∗ mOwn c scRow122 f ∗ mOwn c scRow123 f ∗ mOwn c scRow124 f ∗ mOwn c scRow125 f ∗ mOwn c scRow126 f ∗ mOwn c scRow127 f)

/-- The row table's remainder and read shares 0 … 129. -/
def ToksAt (c : Dev nD) (fh : MBuf (F := F) c hbM) : sProp 𝕄 :=
  iprop(mPt c hbM (Transfers.shareDrop fullShare 130) fh ∗ mPt c hbM (Transfers.shareTokN fullShare 0) fh ∗ mPt c hbM (Transfers.shareTokN fullShare 1) fh ∗ mPt c hbM (Transfers.shareTokN fullShare 2) fh ∗ mPt c hbM (Transfers.shareTokN fullShare 3) fh ∗ mPt c hbM (Transfers.shareTokN fullShare 4) fh ∗ mPt c hbM (Transfers.shareTokN fullShare 5) fh ∗ mPt c hbM (Transfers.shareTokN fullShare 6) fh ∗ mPt c hbM (Transfers.shareTokN fullShare 7) fh ∗ mPt c hbM (Transfers.shareTokN fullShare 8) fh ∗ mPt c hbM (Transfers.shareTokN fullShare 9) fh ∗ mPt c hbM (Transfers.shareTokN fullShare 10) fh ∗ mPt c hbM (Transfers.shareTokN fullShare 11) fh ∗ mPt c hbM (Transfers.shareTokN fullShare 12) fh ∗ mPt c hbM (Transfers.shareTokN fullShare 13) fh ∗ mPt c hbM (Transfers.shareTokN fullShare 14) fh ∗ mPt c hbM (Transfers.shareTokN fullShare 15) fh ∗ mPt c hbM (Transfers.shareTokN fullShare 16) fh ∗ mPt c hbM (Transfers.shareTokN fullShare 17) fh ∗ mPt c hbM (Transfers.shareTokN fullShare 18) fh ∗ mPt c hbM (Transfers.shareTokN fullShare 19) fh ∗ mPt c hbM (Transfers.shareTokN fullShare 20) fh ∗ mPt c hbM (Transfers.shareTokN fullShare 21) fh ∗ mPt c hbM (Transfers.shareTokN fullShare 22) fh ∗ mPt c hbM (Transfers.shareTokN fullShare 23) fh ∗ mPt c hbM (Transfers.shareTokN fullShare 24) fh ∗ mPt c hbM (Transfers.shareTokN fullShare 25) fh ∗ mPt c hbM (Transfers.shareTokN fullShare 26) fh ∗ mPt c hbM (Transfers.shareTokN fullShare 27) fh ∗ mPt c hbM (Transfers.shareTokN fullShare 28) fh ∗ mPt c hbM (Transfers.shareTokN fullShare 29) fh ∗ mPt c hbM (Transfers.shareTokN fullShare 30) fh ∗ mPt c hbM (Transfers.shareTokN fullShare 31) fh ∗ mPt c hbM (Transfers.shareTokN fullShare 32) fh ∗ mPt c hbM (Transfers.shareTokN fullShare 33) fh ∗ mPt c hbM (Transfers.shareTokN fullShare 34) fh ∗ mPt c hbM (Transfers.shareTokN fullShare 35) fh ∗ mPt c hbM (Transfers.shareTokN fullShare 36) fh ∗ mPt c hbM (Transfers.shareTokN fullShare 37) fh ∗ mPt c hbM (Transfers.shareTokN fullShare 38) fh ∗ mPt c hbM (Transfers.shareTokN fullShare 39) fh ∗ mPt c hbM (Transfers.shareTokN fullShare 40) fh ∗ mPt c hbM (Transfers.shareTokN fullShare 41) fh ∗ mPt c hbM (Transfers.shareTokN fullShare 42) fh ∗ mPt c hbM (Transfers.shareTokN fullShare 43) fh ∗ mPt c hbM (Transfers.shareTokN fullShare 44) fh ∗ mPt c hbM (Transfers.shareTokN fullShare 45) fh ∗ mPt c hbM (Transfers.shareTokN fullShare 46) fh ∗ mPt c hbM (Transfers.shareTokN fullShare 47) fh ∗ mPt c hbM (Transfers.shareTokN fullShare 48) fh ∗ mPt c hbM (Transfers.shareTokN fullShare 49) fh ∗ mPt c hbM (Transfers.shareTokN fullShare 50) fh ∗ mPt c hbM (Transfers.shareTokN fullShare 51) fh ∗ mPt c hbM (Transfers.shareTokN fullShare 52) fh ∗ mPt c hbM (Transfers.shareTokN fullShare 53) fh ∗ mPt c hbM (Transfers.shareTokN fullShare 54) fh ∗ mPt c hbM (Transfers.shareTokN fullShare 55) fh ∗ mPt c hbM (Transfers.shareTokN fullShare 56) fh ∗ mPt c hbM (Transfers.shareTokN fullShare 57) fh ∗ mPt c hbM (Transfers.shareTokN fullShare 58) fh ∗ mPt c hbM (Transfers.shareTokN fullShare 59) fh ∗ mPt c hbM (Transfers.shareTokN fullShare 60) fh ∗ mPt c hbM (Transfers.shareTokN fullShare 61) fh ∗ mPt c hbM (Transfers.shareTokN fullShare 62) fh ∗ mPt c hbM (Transfers.shareTokN fullShare 63) fh ∗ mPt c hbM (Transfers.shareTokN fullShare 64) fh ∗ mPt c hbM (Transfers.shareTokN fullShare 65) fh ∗ mPt c hbM (Transfers.shareTokN fullShare 66) fh ∗ mPt c hbM (Transfers.shareTokN fullShare 67) fh ∗ mPt c hbM (Transfers.shareTokN fullShare 68) fh ∗ mPt c hbM (Transfers.shareTokN fullShare 69) fh ∗ mPt c hbM (Transfers.shareTokN fullShare 70) fh ∗ mPt c hbM (Transfers.shareTokN fullShare 71) fh ∗ mPt c hbM (Transfers.shareTokN fullShare 72) fh ∗ mPt c hbM (Transfers.shareTokN fullShare 73) fh ∗ mPt c hbM (Transfers.shareTokN fullShare 74) fh ∗ mPt c hbM (Transfers.shareTokN fullShare 75) fh ∗ mPt c hbM (Transfers.shareTokN fullShare 76) fh ∗ mPt c hbM (Transfers.shareTokN fullShare 77) fh ∗ mPt c hbM (Transfers.shareTokN fullShare 78) fh ∗ mPt c hbM (Transfers.shareTokN fullShare 79) fh ∗ mPt c hbM (Transfers.shareTokN fullShare 80) fh ∗ mPt c hbM (Transfers.shareTokN fullShare 81) fh ∗ mPt c hbM (Transfers.shareTokN fullShare 82) fh ∗ mPt c hbM (Transfers.shareTokN fullShare 83) fh ∗ mPt c hbM (Transfers.shareTokN fullShare 84) fh ∗ mPt c hbM (Transfers.shareTokN fullShare 85) fh ∗ mPt c hbM (Transfers.shareTokN fullShare 86) fh ∗ mPt c hbM (Transfers.shareTokN fullShare 87) fh ∗ mPt c hbM (Transfers.shareTokN fullShare 88) fh ∗ mPt c hbM (Transfers.shareTokN fullShare 89) fh ∗ mPt c hbM (Transfers.shareTokN fullShare 90) fh ∗ mPt c hbM (Transfers.shareTokN fullShare 91) fh ∗ mPt c hbM (Transfers.shareTokN fullShare 92) fh ∗ mPt c hbM (Transfers.shareTokN fullShare 93) fh ∗ mPt c hbM (Transfers.shareTokN fullShare 94) fh ∗ mPt c hbM (Transfers.shareTokN fullShare 95) fh ∗ mPt c hbM (Transfers.shareTokN fullShare 96) fh ∗ mPt c hbM (Transfers.shareTokN fullShare 97) fh ∗ mPt c hbM (Transfers.shareTokN fullShare 98) fh ∗ mPt c hbM (Transfers.shareTokN fullShare 99) fh ∗ mPt c hbM (Transfers.shareTokN fullShare 100) fh ∗ mPt c hbM (Transfers.shareTokN fullShare 101) fh ∗ mPt c hbM (Transfers.shareTokN fullShare 102) fh ∗ mPt c hbM (Transfers.shareTokN fullShare 103) fh ∗ mPt c hbM (Transfers.shareTokN fullShare 104) fh ∗ mPt c hbM (Transfers.shareTokN fullShare 105) fh ∗ mPt c hbM (Transfers.shareTokN fullShare 106) fh ∗ mPt c hbM (Transfers.shareTokN fullShare 107) fh ∗ mPt c hbM (Transfers.shareTokN fullShare 108) fh ∗ mPt c hbM (Transfers.shareTokN fullShare 109) fh ∗ mPt c hbM (Transfers.shareTokN fullShare 110) fh ∗ mPt c hbM (Transfers.shareTokN fullShare 111) fh ∗ mPt c hbM (Transfers.shareTokN fullShare 112) fh ∗ mPt c hbM (Transfers.shareTokN fullShare 113) fh ∗ mPt c hbM (Transfers.shareTokN fullShare 114) fh ∗ mPt c hbM (Transfers.shareTokN fullShare 115) fh ∗ mPt c hbM (Transfers.shareTokN fullShare 116) fh ∗ mPt c hbM (Transfers.shareTokN fullShare 117) fh ∗ mPt c hbM (Transfers.shareTokN fullShare 118) fh ∗ mPt c hbM (Transfers.shareTokN fullShare 119) fh ∗ mPt c hbM (Transfers.shareTokN fullShare 120) fh ∗ mPt c hbM (Transfers.shareTokN fullShare 121) fh ∗ mPt c hbM (Transfers.shareTokN fullShare 122) fh ∗ mPt c hbM (Transfers.shareTokN fullShare 123) fh ∗ mPt c hbM (Transfers.shareTokN fullShare 124) fh ∗ mPt c hbM (Transfers.shareTokN fullShare 125) fh ∗ mPt c hbM (Transfers.shareTokN fullShare 126) fh ∗ mPt c hbM (Transfers.shareTokN fullShare 127) fh ∗ mPt c hbM (Transfers.shareTokN fullShare 128) fh ∗ mPt c hbM (Transfers.shareTokN fullShare 129) fh)

/-- The body's own cells (semaphores 2 … 129 of the pool) at zero. -/
def SemsAt (c : Dev nD) : sProp 𝕄 :=
  iprop(semVal ((c : Thread nD τ), SemLoc.dma (⟨2, by decide⟩ : DmaSem sig)) 0 ∗ semVal ((c : Thread nD τ), SemLoc.dma (⟨3, by decide⟩ : DmaSem sig)) 0 ∗ semVal ((c : Thread nD τ), SemLoc.dma (⟨4, by decide⟩ : DmaSem sig)) 0 ∗ semVal ((c : Thread nD τ), SemLoc.dma (⟨5, by decide⟩ : DmaSem sig)) 0 ∗ semVal ((c : Thread nD τ), SemLoc.dma (⟨6, by decide⟩ : DmaSem sig)) 0 ∗ semVal ((c : Thread nD τ), SemLoc.dma (⟨7, by decide⟩ : DmaSem sig)) 0 ∗ semVal ((c : Thread nD τ), SemLoc.dma (⟨8, by decide⟩ : DmaSem sig)) 0 ∗ semVal ((c : Thread nD τ), SemLoc.dma (⟨9, by decide⟩ : DmaSem sig)) 0 ∗ semVal ((c : Thread nD τ), SemLoc.dma (⟨10, by decide⟩ : DmaSem sig)) 0 ∗ semVal ((c : Thread nD τ), SemLoc.dma (⟨11, by decide⟩ : DmaSem sig)) 0 ∗ semVal ((c : Thread nD τ), SemLoc.dma (⟨12, by decide⟩ : DmaSem sig)) 0 ∗ semVal ((c : Thread nD τ), SemLoc.dma (⟨13, by decide⟩ : DmaSem sig)) 0 ∗ semVal ((c : Thread nD τ), SemLoc.dma (⟨14, by decide⟩ : DmaSem sig)) 0 ∗ semVal ((c : Thread nD τ), SemLoc.dma (⟨15, by decide⟩ : DmaSem sig)) 0 ∗ semVal ((c : Thread nD τ), SemLoc.dma (⟨16, by decide⟩ : DmaSem sig)) 0 ∗ semVal ((c : Thread nD τ), SemLoc.dma (⟨17, by decide⟩ : DmaSem sig)) 0 ∗ semVal ((c : Thread nD τ), SemLoc.dma (⟨18, by decide⟩ : DmaSem sig)) 0 ∗ semVal ((c : Thread nD τ), SemLoc.dma (⟨19, by decide⟩ : DmaSem sig)) 0 ∗ semVal ((c : Thread nD τ), SemLoc.dma (⟨20, by decide⟩ : DmaSem sig)) 0 ∗ semVal ((c : Thread nD τ), SemLoc.dma (⟨21, by decide⟩ : DmaSem sig)) 0 ∗ semVal ((c : Thread nD τ), SemLoc.dma (⟨22, by decide⟩ : DmaSem sig)) 0 ∗ semVal ((c : Thread nD τ), SemLoc.dma (⟨23, by decide⟩ : DmaSem sig)) 0 ∗ semVal ((c : Thread nD τ), SemLoc.dma (⟨24, by decide⟩ : DmaSem sig)) 0 ∗ semVal ((c : Thread nD τ), SemLoc.dma (⟨25, by decide⟩ : DmaSem sig)) 0 ∗ semVal ((c : Thread nD τ), SemLoc.dma (⟨26, by decide⟩ : DmaSem sig)) 0 ∗ semVal ((c : Thread nD τ), SemLoc.dma (⟨27, by decide⟩ : DmaSem sig)) 0 ∗ semVal ((c : Thread nD τ), SemLoc.dma (⟨28, by decide⟩ : DmaSem sig)) 0 ∗ semVal ((c : Thread nD τ), SemLoc.dma (⟨29, by decide⟩ : DmaSem sig)) 0 ∗ semVal ((c : Thread nD τ), SemLoc.dma (⟨30, by decide⟩ : DmaSem sig)) 0 ∗ semVal ((c : Thread nD τ), SemLoc.dma (⟨31, by decide⟩ : DmaSem sig)) 0 ∗ semVal ((c : Thread nD τ), SemLoc.dma (⟨32, by decide⟩ : DmaSem sig)) 0 ∗ semVal ((c : Thread nD τ), SemLoc.dma (⟨33, by decide⟩ : DmaSem sig)) 0 ∗ semVal ((c : Thread nD τ), SemLoc.dma (⟨34, by decide⟩ : DmaSem sig)) 0 ∗ semVal ((c : Thread nD τ), SemLoc.dma (⟨35, by decide⟩ : DmaSem sig)) 0 ∗ semVal ((c : Thread nD τ), SemLoc.dma (⟨36, by decide⟩ : DmaSem sig)) 0 ∗ semVal ((c : Thread nD τ), SemLoc.dma (⟨37, by decide⟩ : DmaSem sig)) 0 ∗ semVal ((c : Thread nD τ), SemLoc.dma (⟨38, by decide⟩ : DmaSem sig)) 0 ∗ semVal ((c : Thread nD τ), SemLoc.dma (⟨39, by decide⟩ : DmaSem sig)) 0 ∗ semVal ((c : Thread nD τ), SemLoc.dma (⟨40, by decide⟩ : DmaSem sig)) 0 ∗ semVal ((c : Thread nD τ), SemLoc.dma (⟨41, by decide⟩ : DmaSem sig)) 0 ∗ semVal ((c : Thread nD τ), SemLoc.dma (⟨42, by decide⟩ : DmaSem sig)) 0 ∗ semVal ((c : Thread nD τ), SemLoc.dma (⟨43, by decide⟩ : DmaSem sig)) 0 ∗ semVal ((c : Thread nD τ), SemLoc.dma (⟨44, by decide⟩ : DmaSem sig)) 0 ∗ semVal ((c : Thread nD τ), SemLoc.dma (⟨45, by decide⟩ : DmaSem sig)) 0 ∗ semVal ((c : Thread nD τ), SemLoc.dma (⟨46, by decide⟩ : DmaSem sig)) 0 ∗ semVal ((c : Thread nD τ), SemLoc.dma (⟨47, by decide⟩ : DmaSem sig)) 0 ∗ semVal ((c : Thread nD τ), SemLoc.dma (⟨48, by decide⟩ : DmaSem sig)) 0 ∗ semVal ((c : Thread nD τ), SemLoc.dma (⟨49, by decide⟩ : DmaSem sig)) 0 ∗ semVal ((c : Thread nD τ), SemLoc.dma (⟨50, by decide⟩ : DmaSem sig)) 0 ∗ semVal ((c : Thread nD τ), SemLoc.dma (⟨51, by decide⟩ : DmaSem sig)) 0 ∗ semVal ((c : Thread nD τ), SemLoc.dma (⟨52, by decide⟩ : DmaSem sig)) 0 ∗ semVal ((c : Thread nD τ), SemLoc.dma (⟨53, by decide⟩ : DmaSem sig)) 0 ∗ semVal ((c : Thread nD τ), SemLoc.dma (⟨54, by decide⟩ : DmaSem sig)) 0 ∗ semVal ((c : Thread nD τ), SemLoc.dma (⟨55, by decide⟩ : DmaSem sig)) 0 ∗ semVal ((c : Thread nD τ), SemLoc.dma (⟨56, by decide⟩ : DmaSem sig)) 0 ∗ semVal ((c : Thread nD τ), SemLoc.dma (⟨57, by decide⟩ : DmaSem sig)) 0 ∗ semVal ((c : Thread nD τ), SemLoc.dma (⟨58, by decide⟩ : DmaSem sig)) 0 ∗ semVal ((c : Thread nD τ), SemLoc.dma (⟨59, by decide⟩ : DmaSem sig)) 0 ∗ semVal ((c : Thread nD τ), SemLoc.dma (⟨60, by decide⟩ : DmaSem sig)) 0 ∗ semVal ((c : Thread nD τ), SemLoc.dma (⟨61, by decide⟩ : DmaSem sig)) 0 ∗ semVal ((c : Thread nD τ), SemLoc.dma (⟨62, by decide⟩ : DmaSem sig)) 0 ∗ semVal ((c : Thread nD τ), SemLoc.dma (⟨63, by decide⟩ : DmaSem sig)) 0 ∗ semVal ((c : Thread nD τ), SemLoc.dma (⟨64, by decide⟩ : DmaSem sig)) 0 ∗ semVal ((c : Thread nD τ), SemLoc.dma (⟨65, by decide⟩ : DmaSem sig)) 0 ∗ semVal ((c : Thread nD τ), SemLoc.dma (⟨66, by decide⟩ : DmaSem sig)) 0 ∗ semVal ((c : Thread nD τ), SemLoc.dma (⟨67, by decide⟩ : DmaSem sig)) 0 ∗ semVal ((c : Thread nD τ), SemLoc.dma (⟨68, by decide⟩ : DmaSem sig)) 0 ∗ semVal ((c : Thread nD τ), SemLoc.dma (⟨69, by decide⟩ : DmaSem sig)) 0 ∗ semVal ((c : Thread nD τ), SemLoc.dma (⟨70, by decide⟩ : DmaSem sig)) 0 ∗ semVal ((c : Thread nD τ), SemLoc.dma (⟨71, by decide⟩ : DmaSem sig)) 0 ∗ semVal ((c : Thread nD τ), SemLoc.dma (⟨72, by decide⟩ : DmaSem sig)) 0 ∗ semVal ((c : Thread nD τ), SemLoc.dma (⟨73, by decide⟩ : DmaSem sig)) 0 ∗ semVal ((c : Thread nD τ), SemLoc.dma (⟨74, by decide⟩ : DmaSem sig)) 0 ∗ semVal ((c : Thread nD τ), SemLoc.dma (⟨75, by decide⟩ : DmaSem sig)) 0 ∗ semVal ((c : Thread nD τ), SemLoc.dma (⟨76, by decide⟩ : DmaSem sig)) 0 ∗ semVal ((c : Thread nD τ), SemLoc.dma (⟨77, by decide⟩ : DmaSem sig)) 0 ∗ semVal ((c : Thread nD τ), SemLoc.dma (⟨78, by decide⟩ : DmaSem sig)) 0 ∗ semVal ((c : Thread nD τ), SemLoc.dma (⟨79, by decide⟩ : DmaSem sig)) 0 ∗ semVal ((c : Thread nD τ), SemLoc.dma (⟨80, by decide⟩ : DmaSem sig)) 0 ∗ semVal ((c : Thread nD τ), SemLoc.dma (⟨81, by decide⟩ : DmaSem sig)) 0 ∗ semVal ((c : Thread nD τ), SemLoc.dma (⟨82, by decide⟩ : DmaSem sig)) 0 ∗ semVal ((c : Thread nD τ), SemLoc.dma (⟨83, by decide⟩ : DmaSem sig)) 0 ∗ semVal ((c : Thread nD τ), SemLoc.dma (⟨84, by decide⟩ : DmaSem sig)) 0 ∗ semVal ((c : Thread nD τ), SemLoc.dma (⟨85, by decide⟩ : DmaSem sig)) 0 ∗ semVal ((c : Thread nD τ), SemLoc.dma (⟨86, by decide⟩ : DmaSem sig)) 0 ∗ semVal ((c : Thread nD τ), SemLoc.dma (⟨87, by decide⟩ : DmaSem sig)) 0 ∗ semVal ((c : Thread nD τ), SemLoc.dma (⟨88, by decide⟩ : DmaSem sig)) 0 ∗ semVal ((c : Thread nD τ), SemLoc.dma (⟨89, by decide⟩ : DmaSem sig)) 0 ∗ semVal ((c : Thread nD τ), SemLoc.dma (⟨90, by decide⟩ : DmaSem sig)) 0 ∗ semVal ((c : Thread nD τ), SemLoc.dma (⟨91, by decide⟩ : DmaSem sig)) 0 ∗ semVal ((c : Thread nD τ), SemLoc.dma (⟨92, by decide⟩ : DmaSem sig)) 0 ∗ semVal ((c : Thread nD τ), SemLoc.dma (⟨93, by decide⟩ : DmaSem sig)) 0 ∗ semVal ((c : Thread nD τ), SemLoc.dma (⟨94, by decide⟩ : DmaSem sig)) 0 ∗ semVal ((c : Thread nD τ), SemLoc.dma (⟨95, by decide⟩ : DmaSem sig)) 0 ∗ semVal ((c : Thread nD τ), SemLoc.dma (⟨96, by decide⟩ : DmaSem sig)) 0 ∗ semVal ((c : Thread nD τ), SemLoc.dma (⟨97, by decide⟩ : DmaSem sig)) 0 ∗ semVal ((c : Thread nD τ), SemLoc.dma (⟨98, by decide⟩ : DmaSem sig)) 0 ∗ semVal ((c : Thread nD τ), SemLoc.dma (⟨99, by decide⟩ : DmaSem sig)) 0 ∗ semVal ((c : Thread nD τ), SemLoc.dma (⟨100, by decide⟩ : DmaSem sig)) 0 ∗ semVal ((c : Thread nD τ), SemLoc.dma (⟨101, by decide⟩ : DmaSem sig)) 0 ∗ semVal ((c : Thread nD τ), SemLoc.dma (⟨102, by decide⟩ : DmaSem sig)) 0 ∗ semVal ((c : Thread nD τ), SemLoc.dma (⟨103, by decide⟩ : DmaSem sig)) 0 ∗ semVal ((c : Thread nD τ), SemLoc.dma (⟨104, by decide⟩ : DmaSem sig)) 0 ∗ semVal ((c : Thread nD τ), SemLoc.dma (⟨105, by decide⟩ : DmaSem sig)) 0 ∗ semVal ((c : Thread nD τ), SemLoc.dma (⟨106, by decide⟩ : DmaSem sig)) 0 ∗ semVal ((c : Thread nD τ), SemLoc.dma (⟨107, by decide⟩ : DmaSem sig)) 0 ∗ semVal ((c : Thread nD τ), SemLoc.dma (⟨108, by decide⟩ : DmaSem sig)) 0 ∗ semVal ((c : Thread nD τ), SemLoc.dma (⟨109, by decide⟩ : DmaSem sig)) 0 ∗ semVal ((c : Thread nD τ), SemLoc.dma (⟨110, by decide⟩ : DmaSem sig)) 0 ∗ semVal ((c : Thread nD τ), SemLoc.dma (⟨111, by decide⟩ : DmaSem sig)) 0 ∗ semVal ((c : Thread nD τ), SemLoc.dma (⟨112, by decide⟩ : DmaSem sig)) 0 ∗ semVal ((c : Thread nD τ), SemLoc.dma (⟨113, by decide⟩ : DmaSem sig)) 0 ∗ semVal ((c : Thread nD τ), SemLoc.dma (⟨114, by decide⟩ : DmaSem sig)) 0 ∗ semVal ((c : Thread nD τ), SemLoc.dma (⟨115, by decide⟩ : DmaSem sig)) 0 ∗ semVal ((c : Thread nD τ), SemLoc.dma (⟨116, by decide⟩ : DmaSem sig)) 0 ∗ semVal ((c : Thread nD τ), SemLoc.dma (⟨117, by decide⟩ : DmaSem sig)) 0 ∗ semVal ((c : Thread nD τ), SemLoc.dma (⟨118, by decide⟩ : DmaSem sig)) 0 ∗ semVal ((c : Thread nD τ), SemLoc.dma (⟨119, by decide⟩ : DmaSem sig)) 0 ∗ semVal ((c : Thread nD τ), SemLoc.dma (⟨120, by decide⟩ : DmaSem sig)) 0 ∗ semVal ((c : Thread nD τ), SemLoc.dma (⟨121, by decide⟩ : DmaSem sig)) 0 ∗ semVal ((c : Thread nD τ), SemLoc.dma (⟨122, by decide⟩ : DmaSem sig)) 0 ∗ semVal ((c : Thread nD τ), SemLoc.dma (⟨123, by decide⟩ : DmaSem sig)) 0 ∗ semVal ((c : Thread nD τ), SemLoc.dma (⟨124, by decide⟩ : DmaSem sig)) 0 ∗ semVal ((c : Thread nD τ), SemLoc.dma (⟨125, by decide⟩ : DmaSem sig)) 0 ∗ semVal ((c : Thread nD τ), SemLoc.dma (⟨126, by decide⟩ : DmaSem sig)) 0 ∗ semVal ((c : Thread nD τ), SemLoc.dma (⟨127, by decide⟩ : DmaSem sig)) 0 ∗ semVal ((c : Thread nD τ), SemLoc.dma (⟨128, by decide⟩ : DmaSem sig)) 0 ∗ semVal ((c : Thread nD τ), SemLoc.dma (⟨129, by decide⟩ : DmaSem sig)) 0)

/-- The indices, listed. -/
def idx128 : List (Fin 128) := [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61, 62, 63, 64, 65, 66, 67, 68, 69, 70, 71, 72, 73, 74, 75, 76, 77, 78, 79, 80, 81, 82, 83, 84, 85, 86, 87, 88, 89, 90, 91, 92, 93, 94, 95, 96, 97, 98, 99, 100, 101, 102, 103, 104, 105, 106, 107, 108, 109, 110, 111, 112, 113, 114, 115, 116, 117, 118, 119, 120, 121, 122, 123, 124, 125, 126, 127]
def idx130 : List ℕ := [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61, 62, 63, 64, 65, 66, 67, 68, 69, 70, 71, 72, 73, 74, 75, 76, 77, 78, 79, 80, 81, 82, 83, 84, 85, 86, 87, 88, 89, 90, 91, 92, 93, 94, 95, 96, 97, 98, 99, 100, 101, 102, 103, 104, 105, 106, 107, 108, 109, 110, 111, 112, 113, 114, 115, 116, 117, 118, 119, 120, 121, 122, 123, 124, 125, 126, 127, 128, 129]

/-! The names the run gives the listed hypotheses. -/
set_option hygiene false in
macro "icases_rows " h:ident : tactic => `(tactic| icases $h:ident with ⟨HS0, HS1, HS2, HS3, HS4, HS5, HS6, HS7, HS8, HS9, HS10, HS11, HS12, HS13, HS14, HS15, HS16, HS17, HS18, HS19, HS20, HS21, HS22, HS23, HS24, HS25, HS26, HS27, HS28, HS29, HS30, HS31, HS32, HS33, HS34, HS35, HS36, HS37, HS38, HS39, HS40, HS41, HS42, HS43, HS44, HS45, HS46, HS47, HS48, HS49, HS50, HS51, HS52, HS53, HS54, HS55, HS56, HS57, HS58, HS59, HS60, HS61, HS62, HS63, HS64, HS65, HS66, HS67, HS68, HS69, HS70, HS71, HS72, HS73, HS74, HS75, HS76, HS77, HS78, HS79, HS80, HS81, HS82, HS83, HS84, HS85, HS86, HS87, HS88, HS89, HS90, HS91, HS92, HS93, HS94, HS95, HS96, HS97, HS98, HS99, HS100, HS101, HS102, HS103, HS104, HS105, HS106, HS107, HS108, HS109, HS110, HS111, HS112, HS113, HS114, HS115, HS116, HS117, HS118, HS119, HS120, HS121, HS122, HS123, HS124, HS125, HS126, HS127⟩)
set_option hygiene false in
macro "icases_toks " h:ident : tactic => `(tactic| icases $h:ident with ⟨Hrem, Hx0, Hx1, Hh0, Hh1, Hh2, Hh3, Hh4, Hh5, Hh6, Hh7, Hh8, Hh9, Hh10, Hh11, Hh12, Hh13, Hh14, Hh15, Hh16, Hh17, Hh18, Hh19, Hh20, Hh21, Hh22, Hh23, Hh24, Hh25, Hh26, Hh27, Hh28, Hh29, Hh30, Hh31, Hh32, Hh33, Hh34, Hh35, Hh36, Hh37, Hh38, Hh39, Hh40, Hh41, Hh42, Hh43, Hh44, Hh45, Hh46, Hh47, Hh48, Hh49, Hh50, Hh51, Hh52, Hh53, Hh54, Hh55, Hh56, Hh57, Hh58, Hh59, Hh60, Hh61, Hh62, Hh63, Hh64, Hh65, Hh66, Hh67, Hh68, Hh69, Hh70, Hh71, Hh72, Hh73, Hh74, Hh75, Hh76, Hh77, Hh78, Hh79, Hh80, Hh81, Hh82, Hh83, Hh84, Hh85, Hh86, Hh87, Hh88, Hh89, Hh90, Hh91, Hh92, Hh93, Hh94, Hh95, Hh96, Hh97, Hh98, Hh99, Hh100, Hh101, Hh102, Hh103, Hh104, Hh105, Hh106, Hh107, Hh108, Hh109, Hh110, Hh111, Hh112, Hh113, Hh114, Hh115, Hh116, Hh117, Hh118, Hh119, Hh120, Hh121, Hh122, Hh123, Hh124, Hh125, Hh126, Hh127⟩)
set_option hygiene false in
macro "icases_sems " h:ident : tactic => `(tactic| icases $h:ident with ⟨Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, Hq25, Hq26, Hq27, Hq28, Hq29, Hq30, Hq31, Hq32, Hq33, Hq34, Hq35, Hq36, Hq37, Hq38, Hq39, Hq40, Hq41, Hq42, Hq43, Hq44, Hq45, Hq46, Hq47, Hq48, Hq49, Hq50, Hq51, Hq52, Hq53, Hq54, Hq55, Hq56, Hq57, Hq58, Hq59, Hq60, Hq61, Hq62, Hq63, Hq64, Hq65, Hq66, Hq67, Hq68, Hq69, Hq70, Hq71, Hq72, Hq73, Hq74, Hq75, Hq76, Hq77, Hq78, Hq79, Hq80, Hq81, Hq82, Hq83, Hq84, Hq85, Hq86, Hq87, Hq88, Hq89, Hq90, Hq91, Hq92, Hq93, Hq94, Hq95, Hq96, Hq97, Hq98, Hq99, Hq100, Hq101, Hq102, Hq103, Hq104, Hq105, Hq106, Hq107, Hq108, Hq109, Hq110, Hq111, Hq112, Hq113, Hq114, Hq115, Hq116, Hq117, Hq118, Hq119, Hq120, Hq121, Hq122, Hq123, Hq124, Hq125, Hq126, Hq127⟩)
set_option hygiene false in
macro "isplitl_rows" : tactic => `(tactic| isplitl [HS0 HS1 HS2 HS3 HS4 HS5 HS6 HS7 HS8 HS9 HS10 HS11 HS12 HS13 HS14 HS15 HS16 HS17 HS18 HS19 HS20 HS21 HS22 HS23 HS24 HS25 HS26 HS27 HS28 HS29 HS30 HS31 HS32 HS33 HS34 HS35 HS36 HS37 HS38 HS39 HS40 HS41 HS42 HS43 HS44 HS45 HS46 HS47 HS48 HS49 HS50 HS51 HS52 HS53 HS54 HS55 HS56 HS57 HS58 HS59 HS60 HS61 HS62 HS63 HS64 HS65 HS66 HS67 HS68 HS69 HS70 HS71 HS72 HS73 HS74 HS75 HS76 HS77 HS78 HS79 HS80 HS81 HS82 HS83 HS84 HS85 HS86 HS87 HS88 HS89 HS90 HS91 HS92 HS93 HS94 HS95 HS96 HS97 HS98 HS99 HS100 HS101 HS102 HS103 HS104 HS105 HS106 HS107 HS108 HS109 HS110 HS111 HS112 HS113 HS114 HS115 HS116 HS117 HS118 HS119 HS120 HS121 HS122 HS123 HS124 HS125 HS126 HS127])
set_option hygiene false in
macro "isplitl_toks" : tactic => `(tactic| isplitl [Hrem Hx0 Hx1 Hh0 Hh1 Hh2 Hh3 Hh4 Hh5 Hh6 Hh7 Hh8 Hh9 Hh10 Hh11 Hh12 Hh13 Hh14 Hh15 Hh16 Hh17 Hh18 Hh19 Hh20 Hh21 Hh22 Hh23 Hh24 Hh25 Hh26 Hh27 Hh28 Hh29 Hh30 Hh31 Hh32 Hh33 Hh34 Hh35 Hh36 Hh37 Hh38 Hh39 Hh40 Hh41 Hh42 Hh43 Hh44 Hh45 Hh46 Hh47 Hh48 Hh49 Hh50 Hh51 Hh52 Hh53 Hh54 Hh55 Hh56 Hh57 Hh58 Hh59 Hh60 Hh61 Hh62 Hh63 Hh64 Hh65 Hh66 Hh67 Hh68 Hh69 Hh70 Hh71 Hh72 Hh73 Hh74 Hh75 Hh76 Hh77 Hh78 Hh79 Hh80 Hh81 Hh82 Hh83 Hh84 Hh85 Hh86 Hh87 Hh88 Hh89 Hh90 Hh91 Hh92 Hh93 Hh94 Hh95 Hh96 Hh97 Hh98 Hh99 Hh100 Hh101 Hh102 Hh103 Hh104 Hh105 Hh106 Hh107 Hh108 Hh109 Hh110 Hh111 Hh112 Hh113 Hh114 Hh115 Hh116 Hh117 Hh118 Hh119 Hh120 Hh121 Hh122 Hh123 Hh124 Hh125 Hh126 Hh127])
set_option hygiene false in
macro "isplitl_sems" : tactic => `(tactic| isplitl [Hq0 Hq1 Hq2 Hq3 Hq4 Hq5 Hq6 Hq7 Hq8 Hq9 Hq10 Hq11 Hq12 Hq13 Hq14 Hq15 Hq16 Hq17 Hq18 Hq19 Hq20 Hq21 Hq22 Hq23 Hq24 Hq25 Hq26 Hq27 Hq28 Hq29 Hq30 Hq31 Hq32 Hq33 Hq34 Hq35 Hq36 Hq37 Hq38 Hq39 Hq40 Hq41 Hq42 Hq43 Hq44 Hq45 Hq46 Hq47 Hq48 Hq49 Hq50 Hq51 Hq52 Hq53 Hq54 Hq55 Hq56 Hq57 Hq58 Hq59 Hq60 Hq61 Hq62 Hq63 Hq64 Hq65 Hq66 Hq67 Hq68 Hq69 Hq70 Hq71 Hq72 Hq73 Hq74 Hq75 Hq76 Hq77 Hq78 Hq79 Hq80 Hq81 Hq82 Hq83 Hq84 Hq85 Hq86 Hq87 Hq88 Hq89 Hq90 Hq91 Hq92 Hq93 Hq94 Hq95 Hq96 Hq97 Hq98 Hq99 Hq100 Hq101 Hq102 Hq103 Hq104 Hq105 Hq106 Hq107 Hq108 Hq109 Hq110 Hq111 Hq112 Hq113 Hq114 Hq115 Hq116 Hq117 Hq118 Hq119 Hq120 Hq121 Hq122 Hq123 Hq124 Hq125 Hq126 Hq127])
set_option hygiene false in
macro "iexact_rows" : tactic => `(tactic| (isplitl [HS0]; iexact HS0; isplitl [HS1]; iexact HS1; isplitl [HS2]; iexact HS2; isplitl [HS3]; iexact HS3; isplitl [HS4]; iexact HS4; isplitl [HS5]; iexact HS5; isplitl [HS6]; iexact HS6; isplitl [HS7]; iexact HS7; isplitl [HS8]; iexact HS8; isplitl [HS9]; iexact HS9; isplitl [HS10]; iexact HS10; isplitl [HS11]; iexact HS11; isplitl [HS12]; iexact HS12; isplitl [HS13]; iexact HS13; isplitl [HS14]; iexact HS14; isplitl [HS15]; iexact HS15; isplitl [HS16]; iexact HS16; isplitl [HS17]; iexact HS17; isplitl [HS18]; iexact HS18; isplitl [HS19]; iexact HS19; isplitl [HS20]; iexact HS20; isplitl [HS21]; iexact HS21; isplitl [HS22]; iexact HS22; isplitl [HS23]; iexact HS23; isplitl [HS24]; iexact HS24; isplitl [HS25]; iexact HS25; isplitl [HS26]; iexact HS26; isplitl [HS27]; iexact HS27; isplitl [HS28]; iexact HS28; isplitl [HS29]; iexact HS29; isplitl [HS30]; iexact HS30; isplitl [HS31]; iexact HS31; isplitl [HS32]; iexact HS32; isplitl [HS33]; iexact HS33; isplitl [HS34]; iexact HS34; isplitl [HS35]; iexact HS35; isplitl [HS36]; iexact HS36; isplitl [HS37]; iexact HS37; isplitl [HS38]; iexact HS38; isplitl [HS39]; iexact HS39; isplitl [HS40]; iexact HS40; isplitl [HS41]; iexact HS41; isplitl [HS42]; iexact HS42; isplitl [HS43]; iexact HS43; isplitl [HS44]; iexact HS44; isplitl [HS45]; iexact HS45; isplitl [HS46]; iexact HS46; isplitl [HS47]; iexact HS47; isplitl [HS48]; iexact HS48; isplitl [HS49]; iexact HS49; isplitl [HS50]; iexact HS50; isplitl [HS51]; iexact HS51; isplitl [HS52]; iexact HS52; isplitl [HS53]; iexact HS53; isplitl [HS54]; iexact HS54; isplitl [HS55]; iexact HS55; isplitl [HS56]; iexact HS56; isplitl [HS57]; iexact HS57; isplitl [HS58]; iexact HS58; isplitl [HS59]; iexact HS59; isplitl [HS60]; iexact HS60; isplitl [HS61]; iexact HS61; isplitl [HS62]; iexact HS62; isplitl [HS63]; iexact HS63; isplitl [HS64]; iexact HS64; isplitl [HS65]; iexact HS65; isplitl [HS66]; iexact HS66; isplitl [HS67]; iexact HS67; isplitl [HS68]; iexact HS68; isplitl [HS69]; iexact HS69; isplitl [HS70]; iexact HS70; isplitl [HS71]; iexact HS71; isplitl [HS72]; iexact HS72; isplitl [HS73]; iexact HS73; isplitl [HS74]; iexact HS74; isplitl [HS75]; iexact HS75; isplitl [HS76]; iexact HS76; isplitl [HS77]; iexact HS77; isplitl [HS78]; iexact HS78; isplitl [HS79]; iexact HS79; isplitl [HS80]; iexact HS80; isplitl [HS81]; iexact HS81; isplitl [HS82]; iexact HS82; isplitl [HS83]; iexact HS83; isplitl [HS84]; iexact HS84; isplitl [HS85]; iexact HS85; isplitl [HS86]; iexact HS86; isplitl [HS87]; iexact HS87; isplitl [HS88]; iexact HS88; isplitl [HS89]; iexact HS89; isplitl [HS90]; iexact HS90; isplitl [HS91]; iexact HS91; isplitl [HS92]; iexact HS92; isplitl [HS93]; iexact HS93; isplitl [HS94]; iexact HS94; isplitl [HS95]; iexact HS95; isplitl [HS96]; iexact HS96; isplitl [HS97]; iexact HS97; isplitl [HS98]; iexact HS98; isplitl [HS99]; iexact HS99; isplitl [HS100]; iexact HS100; isplitl [HS101]; iexact HS101; isplitl [HS102]; iexact HS102; isplitl [HS103]; iexact HS103; isplitl [HS104]; iexact HS104; isplitl [HS105]; iexact HS105; isplitl [HS106]; iexact HS106; isplitl [HS107]; iexact HS107; isplitl [HS108]; iexact HS108; isplitl [HS109]; iexact HS109; isplitl [HS110]; iexact HS110; isplitl [HS111]; iexact HS111; isplitl [HS112]; iexact HS112; isplitl [HS113]; iexact HS113; isplitl [HS114]; iexact HS114; isplitl [HS115]; iexact HS115; isplitl [HS116]; iexact HS116; isplitl [HS117]; iexact HS117; isplitl [HS118]; iexact HS118; isplitl [HS119]; iexact HS119; isplitl [HS120]; iexact HS120; isplitl [HS121]; iexact HS121; isplitl [HS122]; iexact HS122; isplitl [HS123]; iexact HS123; isplitl [HS124]; iexact HS124; isplitl [HS125]; iexact HS125; isplitl [HS126]; iexact HS126; iexact HS127))
set_option hygiene false in
macro "iexact_toks" : tactic => `(tactic| (isplitl [Hrem]; iexact Hrem; isplitl [Hx0]; iexact Hx0; isplitl [Hx1]; iexact Hx1; isplitl [Hh0]; iexact Hh0; isplitl [Hh1]; iexact Hh1; isplitl [Hh2]; iexact Hh2; isplitl [Hh3]; iexact Hh3; isplitl [Hh4]; iexact Hh4; isplitl [Hh5]; iexact Hh5; isplitl [Hh6]; iexact Hh6; isplitl [Hh7]; iexact Hh7; isplitl [Hh8]; iexact Hh8; isplitl [Hh9]; iexact Hh9; isplitl [Hh10]; iexact Hh10; isplitl [Hh11]; iexact Hh11; isplitl [Hh12]; iexact Hh12; isplitl [Hh13]; iexact Hh13; isplitl [Hh14]; iexact Hh14; isplitl [Hh15]; iexact Hh15; isplitl [Hh16]; iexact Hh16; isplitl [Hh17]; iexact Hh17; isplitl [Hh18]; iexact Hh18; isplitl [Hh19]; iexact Hh19; isplitl [Hh20]; iexact Hh20; isplitl [Hh21]; iexact Hh21; isplitl [Hh22]; iexact Hh22; isplitl [Hh23]; iexact Hh23; isplitl [Hh24]; iexact Hh24; isplitl [Hh25]; iexact Hh25; isplitl [Hh26]; iexact Hh26; isplitl [Hh27]; iexact Hh27; isplitl [Hh28]; iexact Hh28; isplitl [Hh29]; iexact Hh29; isplitl [Hh30]; iexact Hh30; isplitl [Hh31]; iexact Hh31; isplitl [Hh32]; iexact Hh32; isplitl [Hh33]; iexact Hh33; isplitl [Hh34]; iexact Hh34; isplitl [Hh35]; iexact Hh35; isplitl [Hh36]; iexact Hh36; isplitl [Hh37]; iexact Hh37; isplitl [Hh38]; iexact Hh38; isplitl [Hh39]; iexact Hh39; isplitl [Hh40]; iexact Hh40; isplitl [Hh41]; iexact Hh41; isplitl [Hh42]; iexact Hh42; isplitl [Hh43]; iexact Hh43; isplitl [Hh44]; iexact Hh44; isplitl [Hh45]; iexact Hh45; isplitl [Hh46]; iexact Hh46; isplitl [Hh47]; iexact Hh47; isplitl [Hh48]; iexact Hh48; isplitl [Hh49]; iexact Hh49; isplitl [Hh50]; iexact Hh50; isplitl [Hh51]; iexact Hh51; isplitl [Hh52]; iexact Hh52; isplitl [Hh53]; iexact Hh53; isplitl [Hh54]; iexact Hh54; isplitl [Hh55]; iexact Hh55; isplitl [Hh56]; iexact Hh56; isplitl [Hh57]; iexact Hh57; isplitl [Hh58]; iexact Hh58; isplitl [Hh59]; iexact Hh59; isplitl [Hh60]; iexact Hh60; isplitl [Hh61]; iexact Hh61; isplitl [Hh62]; iexact Hh62; isplitl [Hh63]; iexact Hh63; isplitl [Hh64]; iexact Hh64; isplitl [Hh65]; iexact Hh65; isplitl [Hh66]; iexact Hh66; isplitl [Hh67]; iexact Hh67; isplitl [Hh68]; iexact Hh68; isplitl [Hh69]; iexact Hh69; isplitl [Hh70]; iexact Hh70; isplitl [Hh71]; iexact Hh71; isplitl [Hh72]; iexact Hh72; isplitl [Hh73]; iexact Hh73; isplitl [Hh74]; iexact Hh74; isplitl [Hh75]; iexact Hh75; isplitl [Hh76]; iexact Hh76; isplitl [Hh77]; iexact Hh77; isplitl [Hh78]; iexact Hh78; isplitl [Hh79]; iexact Hh79; isplitl [Hh80]; iexact Hh80; isplitl [Hh81]; iexact Hh81; isplitl [Hh82]; iexact Hh82; isplitl [Hh83]; iexact Hh83; isplitl [Hh84]; iexact Hh84; isplitl [Hh85]; iexact Hh85; isplitl [Hh86]; iexact Hh86; isplitl [Hh87]; iexact Hh87; isplitl [Hh88]; iexact Hh88; isplitl [Hh89]; iexact Hh89; isplitl [Hh90]; iexact Hh90; isplitl [Hh91]; iexact Hh91; isplitl [Hh92]; iexact Hh92; isplitl [Hh93]; iexact Hh93; isplitl [Hh94]; iexact Hh94; isplitl [Hh95]; iexact Hh95; isplitl [Hh96]; iexact Hh96; isplitl [Hh97]; iexact Hh97; isplitl [Hh98]; iexact Hh98; isplitl [Hh99]; iexact Hh99; isplitl [Hh100]; iexact Hh100; isplitl [Hh101]; iexact Hh101; isplitl [Hh102]; iexact Hh102; isplitl [Hh103]; iexact Hh103; isplitl [Hh104]; iexact Hh104; isplitl [Hh105]; iexact Hh105; isplitl [Hh106]; iexact Hh106; isplitl [Hh107]; iexact Hh107; isplitl [Hh108]; iexact Hh108; isplitl [Hh109]; iexact Hh109; isplitl [Hh110]; iexact Hh110; isplitl [Hh111]; iexact Hh111; isplitl [Hh112]; iexact Hh112; isplitl [Hh113]; iexact Hh113; isplitl [Hh114]; iexact Hh114; isplitl [Hh115]; iexact Hh115; isplitl [Hh116]; iexact Hh116; isplitl [Hh117]; iexact Hh117; isplitl [Hh118]; iexact Hh118; isplitl [Hh119]; iexact Hh119; isplitl [Hh120]; iexact Hh120; isplitl [Hh121]; iexact Hh121; isplitl [Hh122]; iexact Hh122; isplitl [Hh123]; iexact Hh123; isplitl [Hh124]; iexact Hh124; isplitl [Hh125]; iexact Hh125; isplitl [Hh126]; iexact Hh126; iexact Hh127))
set_option hygiene false in
macro "iexact_sems" : tactic => `(tactic| (isplitl [Hq0]; iexact Hq0; isplitl [Hq1]; iexact Hq1; isplitl [Hq2]; iexact Hq2; isplitl [Hq3]; iexact Hq3; isplitl [Hq4]; iexact Hq4; isplitl [Hq5]; iexact Hq5; isplitl [Hq6]; iexact Hq6; isplitl [Hq7]; iexact Hq7; isplitl [Hq8]; iexact Hq8; isplitl [Hq9]; iexact Hq9; isplitl [Hq10]; iexact Hq10; isplitl [Hq11]; iexact Hq11; isplitl [Hq12]; iexact Hq12; isplitl [Hq13]; iexact Hq13; isplitl [Hq14]; iexact Hq14; isplitl [Hq15]; iexact Hq15; isplitl [Hq16]; iexact Hq16; isplitl [Hq17]; iexact Hq17; isplitl [Hq18]; iexact Hq18; isplitl [Hq19]; iexact Hq19; isplitl [Hq20]; iexact Hq20; isplitl [Hq21]; iexact Hq21; isplitl [Hq22]; iexact Hq22; isplitl [Hq23]; iexact Hq23; isplitl [Hq24]; iexact Hq24; isplitl [Hq25]; iexact Hq25; isplitl [Hq26]; iexact Hq26; isplitl [Hq27]; iexact Hq27; isplitl [Hq28]; iexact Hq28; isplitl [Hq29]; iexact Hq29; isplitl [Hq30]; iexact Hq30; isplitl [Hq31]; iexact Hq31; isplitl [Hq32]; iexact Hq32; isplitl [Hq33]; iexact Hq33; isplitl [Hq34]; iexact Hq34; isplitl [Hq35]; iexact Hq35; isplitl [Hq36]; iexact Hq36; isplitl [Hq37]; iexact Hq37; isplitl [Hq38]; iexact Hq38; isplitl [Hq39]; iexact Hq39; isplitl [Hq40]; iexact Hq40; isplitl [Hq41]; iexact Hq41; isplitl [Hq42]; iexact Hq42; isplitl [Hq43]; iexact Hq43; isplitl [Hq44]; iexact Hq44; isplitl [Hq45]; iexact Hq45; isplitl [Hq46]; iexact Hq46; isplitl [Hq47]; iexact Hq47; isplitl [Hq48]; iexact Hq48; isplitl [Hq49]; iexact Hq49; isplitl [Hq50]; iexact Hq50; isplitl [Hq51]; iexact Hq51; isplitl [Hq52]; iexact Hq52; isplitl [Hq53]; iexact Hq53; isplitl [Hq54]; iexact Hq54; isplitl [Hq55]; iexact Hq55; isplitl [Hq56]; iexact Hq56; isplitl [Hq57]; iexact Hq57; isplitl [Hq58]; iexact Hq58; isplitl [Hq59]; iexact Hq59; isplitl [Hq60]; iexact Hq60; isplitl [Hq61]; iexact Hq61; isplitl [Hq62]; iexact Hq62; isplitl [Hq63]; iexact Hq63; isplitl [Hq64]; iexact Hq64; isplitl [Hq65]; iexact Hq65; isplitl [Hq66]; iexact Hq66; isplitl [Hq67]; iexact Hq67; isplitl [Hq68]; iexact Hq68; isplitl [Hq69]; iexact Hq69; isplitl [Hq70]; iexact Hq70; isplitl [Hq71]; iexact Hq71; isplitl [Hq72]; iexact Hq72; isplitl [Hq73]; iexact Hq73; isplitl [Hq74]; iexact Hq74; isplitl [Hq75]; iexact Hq75; isplitl [Hq76]; iexact Hq76; isplitl [Hq77]; iexact Hq77; isplitl [Hq78]; iexact Hq78; isplitl [Hq79]; iexact Hq79; isplitl [Hq80]; iexact Hq80; isplitl [Hq81]; iexact Hq81; isplitl [Hq82]; iexact Hq82; isplitl [Hq83]; iexact Hq83; isplitl [Hq84]; iexact Hq84; isplitl [Hq85]; iexact Hq85; isplitl [Hq86]; iexact Hq86; isplitl [Hq87]; iexact Hq87; isplitl [Hq88]; iexact Hq88; isplitl [Hq89]; iexact Hq89; isplitl [Hq90]; iexact Hq90; isplitl [Hq91]; iexact Hq91; isplitl [Hq92]; iexact Hq92; isplitl [Hq93]; iexact Hq93; isplitl [Hq94]; iexact Hq94; isplitl [Hq95]; iexact Hq95; isplitl [Hq96]; iexact Hq96; isplitl [Hq97]; iexact Hq97; isplitl [Hq98]; iexact Hq98; isplitl [Hq99]; iexact Hq99; isplitl [Hq100]; iexact Hq100; isplitl [Hq101]; iexact Hq101; isplitl [Hq102]; iexact Hq102; isplitl [Hq103]; iexact Hq103; isplitl [Hq104]; iexact Hq104; isplitl [Hq105]; iexact Hq105; isplitl [Hq106]; iexact Hq106; isplitl [Hq107]; iexact Hq107; isplitl [Hq108]; iexact Hq108; isplitl [Hq109]; iexact Hq109; isplitl [Hq110]; iexact Hq110; isplitl [Hq111]; iexact Hq111; isplitl [Hq112]; iexact Hq112; isplitl [Hq113]; iexact Hq113; isplitl [Hq114]; iexact Hq114; isplitl [Hq115]; iexact Hq115; isplitl [Hq116]; iexact Hq116; isplitl [Hq117]; iexact Hq117; isplitl [Hq118]; iexact Hq118; isplitl [Hq119]; iexact Hq119; isplitl [Hq120]; iexact Hq120; isplitl [Hq121]; iexact Hq121; isplitl [Hq122]; iexact Hq122; isplitl [Hq123]; iexact Hq123; isplitl [Hq124]; iexact Hq124; isplitl [Hq125]; iexact Hq125; isplitl [Hq126]; iexact Hq126; iexact Hq127))

end Cert.KernelIdeal.Hand

end
-- ==== Proof.KernelIdealRows.lean ====
/-
  The scratch buffer row by row, the row table's read shares cell by cell, the body's semaphores one by one.

  The body's 128 copies are in flight at once: copy `k` lands in row `k` of the scratch buffer, reads the row table,
  and completes on semaphore `2 + k`. So the scratch buffer is held as its 128 rows, the row table as one read share
  per semaphore (and a remainder), and the semaphores one by one; after the waits the rows are joined again.
-/
import proofs.«410525_j11055245820322_2_alg».proof.Proof.Gen.KernelIdeal.Launch
import proofs.«410525_j11055245820322_2_alg».proof.Proof.Gen.KernelIdeal.Skeleton
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.ValueIdx
import proofs.«410525_j11055245820322_2_alg».proof.Proof.KernelIdealTable
set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

theorem inbRow (k : Fin 128) : ∀ a, (![k.val, 0, 0] : Fin 3 → Nat) a + S1x1x128.size a ≤ S128x1x128.size a := by
  intro a
  have := k.isLt
  match a with
  | ⟨0, _⟩ => show k.val + 1 ≤ 128; omega
  | ⟨1, _⟩ => show 0 + 1 ≤ 1; omega
  | ⟨2, _⟩ => show 0 + 128 ≤ 128; omega

/-- Row `k` of the scratch buffer, for a variable `k` (at a literal `k` it is the table's `scRow<k>`, by `rfl`). -/
abbrev scRowF (k : Fin 128) : Memref sig .tc .vmem S1x128 .f32 :=
  (scM.slice (Rect.unit (s := S128x1x128) ![k.val, 0, 0] S1x1x128.size (inbRow k)) (fun _ => rfl)).squeeze S1x128 squeezes_S1x1x128_S1x128

/-- An element of the scratch buffer is in row `k` exactly when its first coordinate is `k`. -/
theorem mem_row (k : Fin 128) (i : S128x1x128.Idx) : i ∈ (scRowF k).view.set ↔ (i 0).val = k.val := by
  have hset : (scRowF k).view.set = (Rect.unit (s := S128x1x128) ![k.val, 0, 0] S1x1x128.size (inbRow k)).set :=
    (View.set_reshape (v := (View.whole cc0_scratch0).slice (Rect.unit (s := S128x1x128) ![k.val, 0, 0] S1x1x128.size (inbRow k))) _).trans
      (View.set_slice_whole cc0_scratch0 _)
  rw [hset, Rect.mem_set_unit]
  have h1 : (i 1).val < 1 := Nat.lt_of_lt_of_le (i 1).isLt (Nat.le_of_eq rfl)
  have h2 : (i 2).val < 128 := Nat.lt_of_lt_of_le (i 2).isLt (Nat.le_of_eq rfl)
  constructor
  · intro h
    have h0 : k.val ≤ (i 0).val ∧ (i 0).val < k.val + 1 := h 0
    omega
  · intro h a
    match a with
    | ⟨0, _⟩ => show k.val ≤ (i 0).val ∧ (i 0).val < k.val + 1; omega
    | ⟨1, _⟩ => show 0 ≤ (i 1).val ∧ (i 1).val < 0 + 1; omega
    | ⟨2, _⟩ => show 0 ≤ (i 2).val ∧ (i 2).val < 0 + 128; omega

/-- A row's contents matter only on the row. -/
theorem row_congr (c : Dev nD) (k : Fin 128) (f g : MBuf (F := F) c scM) (h : ∀ i : S128x1x128.Idx, (i 0).val = k.val → f i = g i) :
    (mOwn c (scRowF k) f : sProp 𝕄) ⊢ mOwn c (scRowF k) g := by
  have e : (mOwn c (scRowF k) f : sProp 𝕄) = mOwn c (scRowF k) g :=
    pointsTo_congr fun i hi => h i ((mem_row k i).mp hi)
  rw [e]

/-- Two different rows share no element: their elements differ in the first coordinate. -/
theorem rows_disjoint (k k' : Fin 128) (hk : k ≠ k') : Disjoint (scRowF k).view.set (scRowF k').view.set := by
  rw [Finset.disjoint_left]
  intro i hi hi'
  exact hk (Fin.ext (((mem_row k i).mp hi).symm.trans ((mem_row k' i).mp hi')))

/-- A set of elements of the scratch buffer that holds every element is the whole buffer's. -/
theorem set_of_all (S : Finset S128x1x128.Idx) (hS : ∀ i, i ∈ S) : S = scM.view.set := by
  rw [show scM.view.set = Finset.univ from View.set_whole cc0_scratch0]
  exact Finset.eq_univ_iff_forall.mpr hS

/-- The scratch buffer is the disjoint union of its rows: element `i` lies in row `i 0`. -/
theorem rows_univ (c : Dev nD) (f : MBuf (F := F) c scM) :
    (mOwn c scM f : sProp 𝕄) = bigSep Finset.univ fun k : Fin 128 => mOwn c (scRowF k) f := by
  have H := pointsTo_biUnion (Ix := Unit) (Name := ℕ) (U := Pipeline.UD sig nD τ) (Lvl := ℕ) (ℓ := scM.view.loc (c : Thread nD τ))
    (q := fullShare) (f := f) (Finset.univ : Finset (Fin 128)) (fun k => (scRowF k).view.set)
    (fun k _ k' _ hk => rows_disjoint k k' hk)
  refine (congrArg (fun S => ((scM.view.loc (c : Thread nD τ)) ↦[S]{fullShare} f : sProp 𝕄)) (set_of_all _ ?_)).symm.trans H
  intro i
  exact Finset.mem_biUnion.mpr ⟨(⟨(i 0).val, (i 0).isLt⟩ : Fin 128), Finset.mem_univ _, (mem_row _ i).mpr rfl⟩

/-- The rows one by one. -/
theorem rows_eq (c : Dev nD) (f : MBuf (F := F) c scM) : (mOwn c scM f : sProp 𝕄) = RowsAt c f := by
  rw [rows_univ c f, bigSep_univ_eq_bigSepL idx128 (by decide) (by decide)]
  rfl

/-- The scratch buffer held by its own elements is its 128 rows, each held by its own elements, at the same contents. -/
theorem rows_split (c : Dev nD) (f : MBuf (F := F) c scM) : (mOwn c scM f : sProp 𝕄) ⊢ RowsAt c f := by
  rw [rows_eq c f]

theorem rows_join (c : Dev nD) (f : MBuf (F := F) c scM) : (RowsAt c f : sProp 𝕄) ⊢ mOwn c scM f := by
  rw [rows_eq c f]

/-- The row table held whole, and its remainder with the 130 read shares one by one. -/
theorem toks_equiv (c : Dev nD) (fh : MBuf (F := F) c hbM) : (mPt c hbM fullShare fh : sProp 𝕄) ⊣⊢ ToksAt c fh := by
  have H := Transfers.pointsTo_toks_range (Ix := Unit) (Name := ℕ) (U := Pipeline.UD sig nD τ) (Lvl := ℕ)
    (ℓ := hbM.view.loc (c : Thread nD τ)) (S := Finset.univ) (f := fh) fullShare 130
  rw [bigSep_eq_bigSepL_of_eq idx130 (by decide) (by decide)] at H
  exact H

/-- The row table held whole is a remainder and one read share per semaphore of the pool (the body uses shares 2 … 129). -/
theorem toks_split (c : Dev nD) (fh : MBuf (F := F) c hbM) : (mPt c hbM fullShare fh : sProp 𝕄) ⊢ ToksAt c fh :=
  (toks_equiv c fh).1

theorem toks_join (c : Dev nD) (fh : MBuf (F := F) c hbM) : (ToksAt c fh : sProp 𝕄) ⊢ mPt c hbM fullShare fh :=
  (toks_equiv c fh).2

/-- The body's own cells at zero, one by one. -/
theorem sems_eq (c : Dev nD) :
    (Pipeline.ownSems0 (Ix := Unit) (Name := ℕ) (U := Pipeline.UD sig nD τ) (Lvl := ℕ) (Val := Elt F) (τ := τ) osem0 c : sProp 𝕄) = SemsAt c := by
  rw [Pipeline.ownSems0_eq_of_list c osem0 idx128 (by decide) (by decide)]
  rfl

end Cert.KernelIdeal.Hand

end
-- ==== Proof.KernelIdealTable2.lean ====
import proofs.«410525_j11055245820322_2_alg».proof.Proof.KernelIdealTable

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

/-! Row k of the scratch buffer, once copy k has landed, holds the row table's row table[128 i + k]: land_row at k, for each k. -/
set_option maxHeartbeats 4000000 in
set_option hygiene false in
macro "land_rows0" : tactic => `(tactic| (ihave HS0 := (show mOwn c scRow0 (scRow0.view.writes (Elt F) d [⟨Rect.whole S1x128, runCore.sl.dma1 c i pf fh hall⟩]) ⊢ mOwn c scRow0 (landed pf fh i) from land_row c 0 d fh pf i (runCore.sl.r c i pf) (word_eq c pf i 0 (k0_off1 i) rfl _ _) (hall _ _) (k0_off2 (runCore.sl.r c i pf)) rfl _) $$ HS0; ihave HS1 := (show mOwn c scRow1 (scRow1.view.writes (Elt F) d [⟨Rect.whole S1x128, runCore.sl.dma2 c i pf fh hall⟩]) ⊢ mOwn c scRow1 (landed pf fh i) from land_row c 1 d fh pf i (runCore.sl.r_1 c i pf) (word_eq c pf i 1 (k0_off3 i) rfl _ _) (hall _ _) (k0_off4 (runCore.sl.r_1 c i pf)) rfl _) $$ HS1; ihave HS2 := (show mOwn c scRow2 (scRow2.view.writes (Elt F) d [⟨Rect.whole S1x128, runCore.sl.dma3 c i pf fh hall⟩]) ⊢ mOwn c scRow2 (landed pf fh i) from land_row c 2 d fh pf i (runCore.sl.r_2 c i pf) (word_eq c pf i 2 (k0_off5 i) rfl _ _) (hall _ _) (k0_off6 (runCore.sl.r_2 c i pf)) rfl _) $$ HS2; ihave HS3 := (show mOwn c scRow3 (scRow3.view.writes (Elt F) d [⟨Rect.whole S1x128, runCore.sl.dma4 c i pf fh hall⟩]) ⊢ mOwn c scRow3 (landed pf fh i) from land_row c 3 d fh pf i (runCore.sl.r_3 c i pf) (word_eq c pf i 3 (k0_off7 i) rfl _ _) (hall _ _) (k0_off8 (runCore.sl.r_3 c i pf)) rfl _) $$ HS3; ihave HS4 := (show mOwn c scRow4 (scRow4.view.writes (Elt F) d [⟨Rect.whole S1x128, runCore.sl.dma5 c i pf fh hall⟩]) ⊢ mOwn c scRow4 (landed pf fh i) from land_row c 4 d fh pf i (runCore.sl.r_4 c i pf) (word_eq c pf i 4 (k0_off9 i) rfl _ _) (hall _ _) (k0_off10 (runCore.sl.r_4 c i pf)) rfl _) $$ HS4; ihave HS5 := (show mOwn c scRow5 (scRow5.view.writes (Elt F) d [⟨Rect.whole S1x128, runCore.sl.dma6 c i pf fh hall⟩]) ⊢ mOwn c scRow5 (landed pf fh i) from land_row c 5 d fh pf i (runCore.sl.r_5 c i pf) (word_eq c pf i 5 (k0_off11 i) rfl _ _) (hall _ _) (k0_off12 (runCore.sl.r_5 c i pf)) rfl _) $$ HS5; ihave HS6 := (show mOwn c scRow6 (scRow6.view.writes (Elt F) d [⟨Rect.whole S1x128, runCore.sl.dma7 c i pf fh hall⟩]) ⊢ mOwn c scRow6 (landed pf fh i) from land_row c 6 d fh pf i (runCore.sl.r_6 c i pf) (word_eq c pf i 6 (k0_off13 i) rfl _ _) (hall _ _) (k0_off14 (runCore.sl.r_6 c i pf)) rfl _) $$ HS6; ihave HS7 := (show mOwn c scRow7 (scRow7.view.writes (Elt F) d [⟨Rect.whole S1x128, runCore.sl.dma8 c i pf fh hall⟩]) ⊢ mOwn c scRow7 (landed pf fh i) from land_row c 7 d fh pf i (runCore.sl.r_7 c i pf) (word_eq c pf i 7 (k0_off15 i) rfl _ _) (hall _ _) (k0_off16 (runCore.sl.r_7 c i pf)) rfl _) $$ HS7))
set_option maxHeartbeats 4000000 in
set_option hygiene false in
macro "land_rows1" : tactic => `(tactic| (ihave HS8 := (show mOwn c scRow8 (scRow8.view.writes (Elt F) d [⟨Rect.whole S1x128, runCore.sl.dma9 c i pf fh hall⟩]) ⊢ mOwn c scRow8 (landed pf fh i) from land_row c 8 d fh pf i (runCore.sl.r_8 c i pf) (word_eq c pf i 8 (k0_off17 i) rfl _ _) (hall _ _) (k0_off18 (runCore.sl.r_8 c i pf)) rfl _) $$ HS8; ihave HS9 := (show mOwn c scRow9 (scRow9.view.writes (Elt F) d [⟨Rect.whole S1x128, runCore.sl.dma10 c i pf fh hall⟩]) ⊢ mOwn c scRow9 (landed pf fh i) from land_row c 9 d fh pf i (runCore.sl.r_9 c i pf) (word_eq c pf i 9 (k0_off19 i) rfl _ _) (hall _ _) (k0_off20 (runCore.sl.r_9 c i pf)) rfl _) $$ HS9; ihave HS10 := (show mOwn c scRow10 (scRow10.view.writes (Elt F) d [⟨Rect.whole S1x128, runCore.sl.dma11 c i pf fh hall⟩]) ⊢ mOwn c scRow10 (landed pf fh i) from land_row c 10 d fh pf i (runCore.sl.r_10 c i pf) (word_eq c pf i 10 (k0_off21 i) rfl _ _) (hall _ _) (k0_off22 (runCore.sl.r_10 c i pf)) rfl _) $$ HS10; ihave HS11 := (show mOwn c scRow11 (scRow11.view.writes (Elt F) d [⟨Rect.whole S1x128, runCore.sl.dma12 c i pf fh hall⟩]) ⊢ mOwn c scRow11 (landed pf fh i) from land_row c 11 d fh pf i (runCore.sl.r_11 c i pf) (word_eq c pf i 11 (k0_off23 i) rfl _ _) (hall _ _) (k0_off24 (runCore.sl.r_11 c i pf)) rfl _) $$ HS11; ihave HS12 := (show mOwn c scRow12 (scRow12.view.writes (Elt F) d [⟨Rect.whole S1x128, runCore.sl.dma13 c i pf fh hall⟩]) ⊢ mOwn c scRow12 (landed pf fh i) from land_row c 12 d fh pf i (runCore.sl.r_12 c i pf) (word_eq c pf i 12 (k0_off25 i) rfl _ _) (hall _ _) (k0_off26 (runCore.sl.r_12 c i pf)) rfl _) $$ HS12; ihave HS13 := (show mOwn c scRow13 (scRow13.view.writes (Elt F) d [⟨Rect.whole S1x128, runCore.sl.dma14 c i pf fh hall⟩]) ⊢ mOwn c scRow13 (landed pf fh i) from land_row c 13 d fh pf i (runCore.sl.r_13 c i pf) (word_eq c pf i 13 (k0_off27 i) rfl _ _) (hall _ _) (k0_off28 (runCore.sl.r_13 c i pf)) rfl _) $$ HS13; ihave HS14 := (show mOwn c scRow14 (scRow14.view.writes (Elt F) d [⟨Rect.whole S1x128, runCore.sl.dma15 c i pf fh hall⟩]) ⊢ mOwn c scRow14 (landed pf fh i) from land_row c 14 d fh pf i (runCore.sl.r_14 c i pf) (word_eq c pf i 14 (k0_off29 i) rfl _ _) (hall _ _) (k0_off30 (runCore.sl.r_14 c i pf)) rfl _) $$ HS14; ihave HS15 := (show mOwn c scRow15 (scRow15.view.writes (Elt F) d [⟨Rect.whole S1x128, runCore.sl.dma16 c i pf fh hall⟩]) ⊢ mOwn c scRow15 (landed pf fh i) from land_row c 15 d fh pf i (runCore.sl.r_15 c i pf) (word_eq c pf i 15 (k0_off31 i) rfl _ _) (hall _ _) (k0_off32 (runCore.sl.r_15 c i pf)) rfl _) $$ HS15))
set_option maxHeartbeats 4000000 in
set_option hygiene false in
macro "land_rows2" : tactic => `(tactic| (ihave HS16 := (show mOwn c scRow16 (scRow16.view.writes (Elt F) d [⟨Rect.whole S1x128, runCore.sl.dma17 c i pf fh hall⟩]) ⊢ mOwn c scRow16 (landed pf fh i) from land_row c 16 d fh pf i (runCore.sl.r_16 c i pf) (word_eq c pf i 16 (k0_off33 i) rfl _ _) (hall _ _) (k0_off34 (runCore.sl.r_16 c i pf)) rfl _) $$ HS16; ihave HS17 := (show mOwn c scRow17 (scRow17.view.writes (Elt F) d [⟨Rect.whole S1x128, runCore.sl.dma18 c i pf fh hall⟩]) ⊢ mOwn c scRow17 (landed pf fh i) from land_row c 17 d fh pf i (runCore.sl.r_17 c i pf) (word_eq c pf i 17 (k0_off35 i) rfl _ _) (hall _ _) (k0_off36 (runCore.sl.r_17 c i pf)) rfl _) $$ HS17; ihave HS18 := (show mOwn c scRow18 (scRow18.view.writes (Elt F) d [⟨Rect.whole S1x128, runCore.sl.dma19 c i pf fh hall⟩]) ⊢ mOwn c scRow18 (landed pf fh i) from land_row c 18 d fh pf i (runCore.sl.r_18 c i pf) (word_eq c pf i 18 (k0_off37 i) rfl _ _) (hall _ _) (k0_off38 (runCore.sl.r_18 c i pf)) rfl _) $$ HS18; ihave HS19 := (show mOwn c scRow19 (scRow19.view.writes (Elt F) d [⟨Rect.whole S1x128, runCore.sl.dma20 c i pf fh hall⟩]) ⊢ mOwn c scRow19 (landed pf fh i) from land_row c 19 d fh pf i (runCore.sl.r_19 c i pf) (word_eq c pf i 19 (k0_off39 i) rfl _ _) (hall _ _) (k0_off40 (runCore.sl.r_19 c i pf)) rfl _) $$ HS19; ihave HS20 := (show mOwn c scRow20 (scRow20.view.writes (Elt F) d [⟨Rect.whole S1x128, runCore.sl.dma21 c i pf fh hall⟩]) ⊢ mOwn c scRow20 (landed pf fh i) from land_row c 20 d fh pf i (runCore.sl.r_20 c i pf) (word_eq c pf i 20 (k0_off41 i) rfl _ _) (hall _ _) (k0_off42 (runCore.sl.r_20 c i pf)) rfl _) $$ HS20; ihave HS21 := (show mOwn c scRow21 (scRow21.view.writes (Elt F) d [⟨Rect.whole S1x128, runCore.sl.dma22 c i pf fh hall⟩]) ⊢ mOwn c scRow21 (landed pf fh i) from land_row c 21 d fh pf i (runCore.sl.r_21 c i pf) (word_eq c pf i 21 (k0_off43 i) rfl _ _) (hall _ _) (k0_off44 (runCore.sl.r_21 c i pf)) rfl _) $$ HS21; ihave HS22 := (show mOwn c scRow22 (scRow22.view.writes (Elt F) d [⟨Rect.whole S1x128, runCore.sl.dma23 c i pf fh hall⟩]) ⊢ mOwn c scRow22 (landed pf fh i) from land_row c 22 d fh pf i (runCore.sl.r_22 c i pf) (word_eq c pf i 22 (k0_off45 i) rfl _ _) (hall _ _) (k0_off46 (runCore.sl.r_22 c i pf)) rfl _) $$ HS22; ihave HS23 := (show mOwn c scRow23 (scRow23.view.writes (Elt F) d [⟨Rect.whole S1x128, runCore.sl.dma24 c i pf fh hall⟩]) ⊢ mOwn c scRow23 (landed pf fh i) from land_row c 23 d fh pf i (runCore.sl.r_23 c i pf) (word_eq c pf i 23 (k0_off47 i) rfl _ _) (hall _ _) (k0_off48 (runCore.sl.r_23 c i pf)) rfl _) $$ HS23))
set_option maxHeartbeats 4000000 in
set_option hygiene false in
macro "land_rows3" : tactic => `(tactic| (ihave HS24 := (show mOwn c scRow24 (scRow24.view.writes (Elt F) d [⟨Rect.whole S1x128, runCore.sl.dma25 c i pf fh hall⟩]) ⊢ mOwn c scRow24 (landed pf fh i) from land_row c 24 d fh pf i (runCore.sl.r_24 c i pf) (word_eq c pf i 24 (k0_off49 i) rfl _ _) (hall _ _) (k0_off50 (runCore.sl.r_24 c i pf)) rfl _) $$ HS24; ihave HS25 := (show mOwn c scRow25 (scRow25.view.writes (Elt F) d [⟨Rect.whole S1x128, runCore.sl.dma26 c i pf fh hall⟩]) ⊢ mOwn c scRow25 (landed pf fh i) from land_row c 25 d fh pf i (runCore.sl.r_25 c i pf) (word_eq c pf i 25 (k0_off51 i) rfl _ _) (hall _ _) (k0_off52 (runCore.sl.r_25 c i pf)) rfl _) $$ HS25; ihave HS26 := (show mOwn c scRow26 (scRow26.view.writes (Elt F) d [⟨Rect.whole S1x128, runCore.sl.dma27 c i pf fh hall⟩]) ⊢ mOwn c scRow26 (landed pf fh i) from land_row c 26 d fh pf i (runCore.sl.r_26 c i pf) (word_eq c pf i 26 (k0_off53 i) rfl _ _) (hall _ _) (k0_off54 (runCore.sl.r_26 c i pf)) rfl _) $$ HS26; ihave HS27 := (show mOwn c scRow27 (scRow27.view.writes (Elt F) d [⟨Rect.whole S1x128, runCore.sl.dma28 c i pf fh hall⟩]) ⊢ mOwn c scRow27 (landed pf fh i) from land_row c 27 d fh pf i (runCore.sl.r_27 c i pf) (word_eq c pf i 27 (k0_off55 i) rfl _ _) (hall _ _) (k0_off56 (runCore.sl.r_27 c i pf)) rfl _) $$ HS27; ihave HS28 := (show mOwn c scRow28 (scRow28.view.writes (Elt F) d [⟨Rect.whole S1x128, runCore.sl.dma29 c i pf fh hall⟩]) ⊢ mOwn c scRow28 (landed pf fh i) from land_row c 28 d fh pf i (runCore.sl.r_28 c i pf) (word_eq c pf i 28 (k0_off57 i) rfl _ _) (hall _ _) (k0_off58 (runCore.sl.r_28 c i pf)) rfl _) $$ HS28; ihave HS29 := (show mOwn c scRow29 (scRow29.view.writes (Elt F) d [⟨Rect.whole S1x128, runCore.sl.dma30 c i pf fh hall⟩]) ⊢ mOwn c scRow29 (landed pf fh i) from land_row c 29 d fh pf i (runCore.sl.r_29 c i pf) (word_eq c pf i 29 (k0_off59 i) rfl _ _) (hall _ _) (k0_off60 (runCore.sl.r_29 c i pf)) rfl _) $$ HS29; ihave HS30 := (show mOwn c scRow30 (scRow30.view.writes (Elt F) d [⟨Rect.whole S1x128, runCore.sl.dma31 c i pf fh hall⟩]) ⊢ mOwn c scRow30 (landed pf fh i) from land_row c 30 d fh pf i (runCore.sl.r_30 c i pf) (word_eq c pf i 30 (k0_off61 i) rfl _ _) (hall _ _) (k0_off62 (runCore.sl.r_30 c i pf)) rfl _) $$ HS30; ihave HS31 := (show mOwn c scRow31 (scRow31.view.writes (Elt F) d [⟨Rect.whole S1x128, runCore.sl.dma32 c i pf fh hall⟩]) ⊢ mOwn c scRow31 (landed pf fh i) from land_row c 31 d fh pf i (runCore.sl.r_31 c i pf) (word_eq c pf i 31 (k0_off63 i) rfl _ _) (hall _ _) (k0_off64 (runCore.sl.r_31 c i pf)) rfl _) $$ HS31))
set_option maxHeartbeats 4000000 in
set_option hygiene false in
macro "land_rows4" : tactic => `(tactic| (ihave HS32 := (show mOwn c scRow32 (scRow32.view.writes (Elt F) d [⟨Rect.whole S1x128, runCore.sl.dma33 c i pf fh hall⟩]) ⊢ mOwn c scRow32 (landed pf fh i) from land_row c 32 d fh pf i (runCore.sl.r_32 c i pf) (word_eq c pf i 32 (k0_off65 i) rfl _ _) (hall _ _) (k0_off66 (runCore.sl.r_32 c i pf)) rfl _) $$ HS32; ihave HS33 := (show mOwn c scRow33 (scRow33.view.writes (Elt F) d [⟨Rect.whole S1x128, runCore.sl.dma34 c i pf fh hall⟩]) ⊢ mOwn c scRow33 (landed pf fh i) from land_row c 33 d fh pf i (runCore.sl.r_33 c i pf) (word_eq c pf i 33 (k0_off67 i) rfl _ _) (hall _ _) (k0_off68 (runCore.sl.r_33 c i pf)) rfl _) $$ HS33; ihave HS34 := (show mOwn c scRow34 (scRow34.view.writes (Elt F) d [⟨Rect.whole S1x128, runCore.sl.dma35 c i pf fh hall⟩]) ⊢ mOwn c scRow34 (landed pf fh i) from land_row c 34 d fh pf i (runCore.sl.r_34 c i pf) (word_eq c pf i 34 (k0_off69 i) rfl _ _) (hall _ _) (k0_off70 (runCore.sl.r_34 c i pf)) rfl _) $$ HS34; ihave HS35 := (show mOwn c scRow35 (scRow35.view.writes (Elt F) d [⟨Rect.whole S1x128, runCore.sl.dma36 c i pf fh hall⟩]) ⊢ mOwn c scRow35 (landed pf fh i) from land_row c 35 d fh pf i (runCore.sl.r_35 c i pf) (word_eq c pf i 35 (k0_off71 i) rfl _ _) (hall _ _) (k0_off72 (runCore.sl.r_35 c i pf)) rfl _) $$ HS35; ihave HS36 := (show mOwn c scRow36 (scRow36.view.writes (Elt F) d [⟨Rect.whole S1x128, runCore.sl.dma37 c i pf fh hall⟩]) ⊢ mOwn c scRow36 (landed pf fh i) from land_row c 36 d fh pf i (runCore.sl.r_36 c i pf) (word_eq c pf i 36 (k0_off73 i) rfl _ _) (hall _ _) (k0_off74 (runCore.sl.r_36 c i pf)) rfl _) $$ HS36; ihave HS37 := (show mOwn c scRow37 (scRow37.view.writes (Elt F) d [⟨Rect.whole S1x128, runCore.sl.dma38 c i pf fh hall⟩]) ⊢ mOwn c scRow37 (landed pf fh i) from land_row c 37 d fh pf i (runCore.sl.r_37 c i pf) (word_eq c pf i 37 (k0_off75 i) rfl _ _) (hall _ _) (k0_off76 (runCore.sl.r_37 c i pf)) rfl _) $$ HS37; ihave HS38 := (show mOwn c scRow38 (scRow38.view.writes (Elt F) d [⟨Rect.whole S1x128, runCore.sl.dma39 c i pf fh hall⟩]) ⊢ mOwn c scRow38 (landed pf fh i) from land_row c 38 d fh pf i (runCore.sl.r_38 c i pf) (word_eq c pf i 38 (k0_off77 i) rfl _ _) (hall _ _) (k0_off78 (runCore.sl.r_38 c i pf)) rfl _) $$ HS38; ihave HS39 := (show mOwn c scRow39 (scRow39.view.writes (Elt F) d [⟨Rect.whole S1x128, runCore.sl.dma40 c i pf fh hall⟩]) ⊢ mOwn c scRow39 (landed pf fh i) from land_row c 39 d fh pf i (runCore.sl.r_39 c i pf) (word_eq c pf i 39 (k0_off79 i) rfl _ _) (hall _ _) (k0_off80 (runCore.sl.r_39 c i pf)) rfl _) $$ HS39))
set_option maxHeartbeats 4000000 in
set_option hygiene false in
macro "land_rows5" : tactic => `(tactic| (ihave HS40 := (show mOwn c scRow40 (scRow40.view.writes (Elt F) d [⟨Rect.whole S1x128, runCore.sl.dma41 c i pf fh hall⟩]) ⊢ mOwn c scRow40 (landed pf fh i) from land_row c 40 d fh pf i (runCore.sl.r_40 c i pf) (word_eq c pf i 40 (k0_off81 i) rfl _ _) (hall _ _) (k0_off82 (runCore.sl.r_40 c i pf)) rfl _) $$ HS40; ihave HS41 := (show mOwn c scRow41 (scRow41.view.writes (Elt F) d [⟨Rect.whole S1x128, runCore.sl.dma42 c i pf fh hall⟩]) ⊢ mOwn c scRow41 (landed pf fh i) from land_row c 41 d fh pf i (runCore.sl.r_41 c i pf) (word_eq c pf i 41 (k0_off83 i) rfl _ _) (hall _ _) (k0_off84 (runCore.sl.r_41 c i pf)) rfl _) $$ HS41; ihave HS42 := (show mOwn c scRow42 (scRow42.view.writes (Elt F) d [⟨Rect.whole S1x128, runCore.sl.dma43 c i pf fh hall⟩]) ⊢ mOwn c scRow42 (landed pf fh i) from land_row c 42 d fh pf i (runCore.sl.r_42 c i pf) (word_eq c pf i 42 (k0_off85 i) rfl _ _) (hall _ _) (k0_off86 (runCore.sl.r_42 c i pf)) rfl _) $$ HS42; ihave HS43 := (show mOwn c scRow43 (scRow43.view.writes (Elt F) d [⟨Rect.whole S1x128, runCore.sl.dma44 c i pf fh hall⟩]) ⊢ mOwn c scRow43 (landed pf fh i) from land_row c 43 d fh pf i (runCore.sl.r_43 c i pf) (word_eq c pf i 43 (k0_off87 i) rfl _ _) (hall _ _) (k0_off88 (runCore.sl.r_43 c i pf)) rfl _) $$ HS43; ihave HS44 := (show mOwn c scRow44 (scRow44.view.writes (Elt F) d [⟨Rect.whole S1x128, runCore.sl.dma45 c i pf fh hall⟩]) ⊢ mOwn c scRow44 (landed pf fh i) from land_row c 44 d fh pf i (runCore.sl.r_44 c i pf) (word_eq c pf i 44 (k0_off89 i) rfl _ _) (hall _ _) (k0_off90 (runCore.sl.r_44 c i pf)) rfl _) $$ HS44; ihave HS45 := (show mOwn c scRow45 (scRow45.view.writes (Elt F) d [⟨Rect.whole S1x128, runCore.sl.dma46 c i pf fh hall⟩]) ⊢ mOwn c scRow45 (landed pf fh i) from land_row c 45 d fh pf i (runCore.sl.r_45 c i pf) (word_eq c pf i 45 (k0_off91 i) rfl _ _) (hall _ _) (k0_off92 (runCore.sl.r_45 c i pf)) rfl _) $$ HS45; ihave HS46 := (show mOwn c scRow46 (scRow46.view.writes (Elt F) d [⟨Rect.whole S1x128, runCore.sl.dma47 c i pf fh hall⟩]) ⊢ mOwn c scRow46 (landed pf fh i) from land_row c 46 d fh pf i (runCore.sl.r_46 c i pf) (word_eq c pf i 46 (k0_off93 i) rfl _ _) (hall _ _) (k0_off94 (runCore.sl.r_46 c i pf)) rfl _) $$ HS46; ihave HS47 := (show mOwn c scRow47 (scRow47.view.writes (Elt F) d [⟨Rect.whole S1x128, runCore.sl.dma48 c i pf fh hall⟩]) ⊢ mOwn c scRow47 (landed pf fh i) from land_row c 47 d fh pf i (runCore.sl.r_47 c i pf) (word_eq c pf i 47 (k0_off95 i) rfl _ _) (hall _ _) (k0_off96 (runCore.sl.r_47 c i pf)) rfl _) $$ HS47))
set_option maxHeartbeats 4000000 in
set_option hygiene false in
macro "land_rows6" : tactic => `(tactic| (ihave HS48 := (show mOwn c scRow48 (scRow48.view.writes (Elt F) d [⟨Rect.whole S1x128, runCore.sl.dma49 c i pf fh hall⟩]) ⊢ mOwn c scRow48 (landed pf fh i) from land_row c 48 d fh pf i (runCore.sl.r_48 c i pf) (word_eq c pf i 48 (k0_off97 i) rfl _ _) (hall _ _) (k0_off98 (runCore.sl.r_48 c i pf)) rfl _) $$ HS48; ihave HS49 := (show mOwn c scRow49 (scRow49.view.writes (Elt F) d [⟨Rect.whole S1x128, runCore.sl.dma50 c i pf fh hall⟩]) ⊢ mOwn c scRow49 (landed pf fh i) from land_row c 49 d fh pf i (runCore.sl.r_49 c i pf) (word_eq c pf i 49 (k0_off99 i) rfl _ _) (hall _ _) (k0_off100 (runCore.sl.r_49 c i pf)) rfl _) $$ HS49; ihave HS50 := (show mOwn c scRow50 (scRow50.view.writes (Elt F) d [⟨Rect.whole S1x128, runCore.sl.dma51 c i pf fh hall⟩]) ⊢ mOwn c scRow50 (landed pf fh i) from land_row c 50 d fh pf i (runCore.sl.r_50 c i pf) (word_eq c pf i 50 (k0_off101 i) rfl _ _) (hall _ _) (k0_off102 (runCore.sl.r_50 c i pf)) rfl _) $$ HS50; ihave HS51 := (show mOwn c scRow51 (scRow51.view.writes (Elt F) d [⟨Rect.whole S1x128, runCore.sl.dma52 c i pf fh hall⟩]) ⊢ mOwn c scRow51 (landed pf fh i) from land_row c 51 d fh pf i (runCore.sl.r_51 c i pf) (word_eq c pf i 51 (k0_off103 i) rfl _ _) (hall _ _) (k0_off104 (runCore.sl.r_51 c i pf)) rfl _) $$ HS51; ihave HS52 := (show mOwn c scRow52 (scRow52.view.writes (Elt F) d [⟨Rect.whole S1x128, runCore.sl.dma53 c i pf fh hall⟩]) ⊢ mOwn c scRow52 (landed pf fh i) from land_row c 52 d fh pf i (runCore.sl.r_52 c i pf) (word_eq c pf i 52 (k0_off105 i) rfl _ _) (hall _ _) (k0_off106 (runCore.sl.r_52 c i pf)) rfl _) $$ HS52; ihave HS53 := (show mOwn c scRow53 (scRow53.view.writes (Elt F) d [⟨Rect.whole S1x128, runCore.sl.dma54 c i pf fh hall⟩]) ⊢ mOwn c scRow53 (landed pf fh i) from land_row c 53 d fh pf i (runCore.sl.r_53 c i pf) (word_eq c pf i 53 (k0_off107 i) rfl _ _) (hall _ _) (k0_off108 (runCore.sl.r_53 c i pf)) rfl _) $$ HS53; ihave HS54 := (show mOwn c scRow54 (scRow54.view.writes (Elt F) d [⟨Rect.whole S1x128, runCore.sl.dma55 c i pf fh hall⟩]) ⊢ mOwn c scRow54 (landed pf fh i) from land_row c 54 d fh pf i (runCore.sl.r_54 c i pf) (word_eq c pf i 54 (k0_off109 i) rfl _ _) (hall _ _) (k0_off110 (runCore.sl.r_54 c i pf)) rfl _) $$ HS54; ihave HS55 := (show mOwn c scRow55 (scRow55.view.writes (Elt F) d [⟨Rect.whole S1x128, runCore.sl.dma56 c i pf fh hall⟩]) ⊢ mOwn c scRow55 (landed pf fh i) from land_row c 55 d fh pf i (runCore.sl.r_55 c i pf) (word_eq c pf i 55 (k0_off111 i) rfl _ _) (hall _ _) (k0_off112 (runCore.sl.r_55 c i pf)) rfl _) $$ HS55))
set_option maxHeartbeats 4000000 in
set_option hygiene false in
macro "land_rows7" : tactic => `(tactic| (ihave HS56 := (show mOwn c scRow56 (scRow56.view.writes (Elt F) d [⟨Rect.whole S1x128, runCore.sl.dma57 c i pf fh hall⟩]) ⊢ mOwn c scRow56 (landed pf fh i) from land_row c 56 d fh pf i (runCore.sl.r_56 c i pf) (word_eq c pf i 56 (k0_off113 i) rfl _ _) (hall _ _) (k0_off114 (runCore.sl.r_56 c i pf)) rfl _) $$ HS56; ihave HS57 := (show mOwn c scRow57 (scRow57.view.writes (Elt F) d [⟨Rect.whole S1x128, runCore.sl.dma58 c i pf fh hall⟩]) ⊢ mOwn c scRow57 (landed pf fh i) from land_row c 57 d fh pf i (runCore.sl.r_57 c i pf) (word_eq c pf i 57 (k0_off115 i) rfl _ _) (hall _ _) (k0_off116 (runCore.sl.r_57 c i pf)) rfl _) $$ HS57; ihave HS58 := (show mOwn c scRow58 (scRow58.view.writes (Elt F) d [⟨Rect.whole S1x128, runCore.sl.dma59 c i pf fh hall⟩]) ⊢ mOwn c scRow58 (landed pf fh i) from land_row c 58 d fh pf i (runCore.sl.r_58 c i pf) (word_eq c pf i 58 (k0_off117 i) rfl _ _) (hall _ _) (k0_off118 (runCore.sl.r_58 c i pf)) rfl _) $$ HS58; ihave HS59 := (show mOwn c scRow59 (scRow59.view.writes (Elt F) d [⟨Rect.whole S1x128, runCore.sl.dma60 c i pf fh hall⟩]) ⊢ mOwn c scRow59 (landed pf fh i) from land_row c 59 d fh pf i (runCore.sl.r_59 c i pf) (word_eq c pf i 59 (k0_off119 i) rfl _ _) (hall _ _) (k0_off120 (runCore.sl.r_59 c i pf)) rfl _) $$ HS59; ihave HS60 := (show mOwn c scRow60 (scRow60.view.writes (Elt F) d [⟨Rect.whole S1x128, runCore.sl.dma61 c i pf fh hall⟩]) ⊢ mOwn c scRow60 (landed pf fh i) from land_row c 60 d fh pf i (runCore.sl.r_60 c i pf) (word_eq c pf i 60 (k0_off121 i) rfl _ _) (hall _ _) (k0_off122 (runCore.sl.r_60 c i pf)) rfl _) $$ HS60; ihave HS61 := (show mOwn c scRow61 (scRow61.view.writes (Elt F) d [⟨Rect.whole S1x128, runCore.sl.dma62 c i pf fh hall⟩]) ⊢ mOwn c scRow61 (landed pf fh i) from land_row c 61 d fh pf i (runCore.sl.r_61 c i pf) (word_eq c pf i 61 (k0_off123 i) rfl _ _) (hall _ _) (k0_off124 (runCore.sl.r_61 c i pf)) rfl _) $$ HS61; ihave HS62 := (show mOwn c scRow62 (scRow62.view.writes (Elt F) d [⟨Rect.whole S1x128, runCore.sl.dma63 c i pf fh hall⟩]) ⊢ mOwn c scRow62 (landed pf fh i) from land_row c 62 d fh pf i (runCore.sl.r_62 c i pf) (word_eq c pf i 62 (k0_off125 i) rfl _ _) (hall _ _) (k0_off126 (runCore.sl.r_62 c i pf)) rfl _) $$ HS62; ihave HS63 := (show mOwn c scRow63 (scRow63.view.writes (Elt F) d [⟨Rect.whole S1x128, runCore.sl.dma64 c i pf fh hall⟩]) ⊢ mOwn c scRow63 (landed pf fh i) from land_row c 63 d fh pf i (runCore.sl.r_63 c i pf) (word_eq c pf i 63 (k0_off127 i) rfl _ _) (hall _ _) (k0_off128 (runCore.sl.r_63 c i pf)) rfl _) $$ HS63))
set_option maxHeartbeats 4000000 in
set_option hygiene false in
macro "land_rows8" : tactic => `(tactic| (ihave HS64 := (show mOwn c scRow64 (scRow64.view.writes (Elt F) d [⟨Rect.whole S1x128, runCore.sl.dma65 c i pf fh hall⟩]) ⊢ mOwn c scRow64 (landed pf fh i) from land_row c 64 d fh pf i (runCore.sl.r_64 c i pf) (word_eq c pf i 64 (k0_off129 i) rfl _ _) (hall _ _) (k0_off130 (runCore.sl.r_64 c i pf)) rfl _) $$ HS64; ihave HS65 := (show mOwn c scRow65 (scRow65.view.writes (Elt F) d [⟨Rect.whole S1x128, runCore.sl.dma66 c i pf fh hall⟩]) ⊢ mOwn c scRow65 (landed pf fh i) from land_row c 65 d fh pf i (runCore.sl.r_65 c i pf) (word_eq c pf i 65 (k0_off131 i) rfl _ _) (hall _ _) (k0_off132 (runCore.sl.r_65 c i pf)) rfl _) $$ HS65; ihave HS66 := (show mOwn c scRow66 (scRow66.view.writes (Elt F) d [⟨Rect.whole S1x128, runCore.sl.dma67 c i pf fh hall⟩]) ⊢ mOwn c scRow66 (landed pf fh i) from land_row c 66 d fh pf i (runCore.sl.r_66 c i pf) (word_eq c pf i 66 (k0_off133 i) rfl _ _) (hall _ _) (k0_off134 (runCore.sl.r_66 c i pf)) rfl _) $$ HS66; ihave HS67 := (show mOwn c scRow67 (scRow67.view.writes (Elt F) d [⟨Rect.whole S1x128, runCore.sl.dma68 c i pf fh hall⟩]) ⊢ mOwn c scRow67 (landed pf fh i) from land_row c 67 d fh pf i (runCore.sl.r_67 c i pf) (word_eq c pf i 67 (k0_off135 i) rfl _ _) (hall _ _) (k0_off136 (runCore.sl.r_67 c i pf)) rfl _) $$ HS67; ihave HS68 := (show mOwn c scRow68 (scRow68.view.writes (Elt F) d [⟨Rect.whole S1x128, runCore.sl.dma69 c i pf fh hall⟩]) ⊢ mOwn c scRow68 (landed pf fh i) from land_row c 68 d fh pf i (runCore.sl.r_68 c i pf) (word_eq c pf i 68 (k0_off137 i) rfl _ _) (hall _ _) (k0_off138 (runCore.sl.r_68 c i pf)) rfl _) $$ HS68; ihave HS69 := (show mOwn c scRow69 (scRow69.view.writes (Elt F) d [⟨Rect.whole S1x128, runCore.sl.dma70 c i pf fh hall⟩]) ⊢ mOwn c scRow69 (landed pf fh i) from land_row c 69 d fh pf i (runCore.sl.r_69 c i pf) (word_eq c pf i 69 (k0_off139 i) rfl _ _) (hall _ _) (k0_off140 (runCore.sl.r_69 c i pf)) rfl _) $$ HS69; ihave HS70 := (show mOwn c scRow70 (scRow70.view.writes (Elt F) d [⟨Rect.whole S1x128, runCore.sl.dma71 c i pf fh hall⟩]) ⊢ mOwn c scRow70 (landed pf fh i) from land_row c 70 d fh pf i (runCore.sl.r_70 c i pf) (word_eq c pf i 70 (k0_off141 i) rfl _ _) (hall _ _) (k0_off142 (runCore.sl.r_70 c i pf)) rfl _) $$ HS70; ihave HS71 := (show mOwn c scRow71 (scRow71.view.writes (Elt F) d [⟨Rect.whole S1x128, runCore.sl.dma72 c i pf fh hall⟩]) ⊢ mOwn c scRow71 (landed pf fh i) from land_row c 71 d fh pf i (runCore.sl.r_71 c i pf) (word_eq c pf i 71 (k0_off143 i) rfl _ _) (hall _ _) (k0_off144 (runCore.sl.r_71 c i pf)) rfl _) $$ HS71))
set_option maxHeartbeats 4000000 in
set_option hygiene false in
macro "land_rows9" : tactic => `(tactic| (ihave HS72 := (show mOwn c scRow72 (scRow72.view.writes (Elt F) d [⟨Rect.whole S1x128, runCore.sl.dma73 c i pf fh hall⟩]) ⊢ mOwn c scRow72 (landed pf fh i) from land_row c 72 d fh pf i (runCore.sl.r_72 c i pf) (word_eq c pf i 72 (k0_off145 i) rfl _ _) (hall _ _) (k0_off146 (runCore.sl.r_72 c i pf)) rfl _) $$ HS72; ihave HS73 := (show mOwn c scRow73 (scRow73.view.writes (Elt F) d [⟨Rect.whole S1x128, runCore.sl.dma74 c i pf fh hall⟩]) ⊢ mOwn c scRow73 (landed pf fh i) from land_row c 73 d fh pf i (runCore.sl.r_73 c i pf) (word_eq c pf i 73 (k0_off147 i) rfl _ _) (hall _ _) (k0_off148 (runCore.sl.r_73 c i pf)) rfl _) $$ HS73; ihave HS74 := (show mOwn c scRow74 (scRow74.view.writes (Elt F) d [⟨Rect.whole S1x128, runCore.sl.dma75 c i pf fh hall⟩]) ⊢ mOwn c scRow74 (landed pf fh i) from land_row c 74 d fh pf i (runCore.sl.r_74 c i pf) (word_eq c pf i 74 (k0_off149 i) rfl _ _) (hall _ _) (k0_off150 (runCore.sl.r_74 c i pf)) rfl _) $$ HS74; ihave HS75 := (show mOwn c scRow75 (scRow75.view.writes (Elt F) d [⟨Rect.whole S1x128, runCore.sl.dma76 c i pf fh hall⟩]) ⊢ mOwn c scRow75 (landed pf fh i) from land_row c 75 d fh pf i (runCore.sl.r_75 c i pf) (word_eq c pf i 75 (k0_off151 i) rfl _ _) (hall _ _) (k0_off152 (runCore.sl.r_75 c i pf)) rfl _) $$ HS75; ihave HS76 := (show mOwn c scRow76 (scRow76.view.writes (Elt F) d [⟨Rect.whole S1x128, runCore.sl.dma77 c i pf fh hall⟩]) ⊢ mOwn c scRow76 (landed pf fh i) from land_row c 76 d fh pf i (runCore.sl.r_76 c i pf) (word_eq c pf i 76 (k0_off153 i) rfl _ _) (hall _ _) (k0_off154 (runCore.sl.r_76 c i pf)) rfl _) $$ HS76; ihave HS77 := (show mOwn c scRow77 (scRow77.view.writes (Elt F) d [⟨Rect.whole S1x128, runCore.sl.dma78 c i pf fh hall⟩]) ⊢ mOwn c scRow77 (landed pf fh i) from land_row c 77 d fh pf i (runCore.sl.r_77 c i pf) (word_eq c pf i 77 (k0_off155 i) rfl _ _) (hall _ _) (k0_off156 (runCore.sl.r_77 c i pf)) rfl _) $$ HS77; ihave HS78 := (show mOwn c scRow78 (scRow78.view.writes (Elt F) d [⟨Rect.whole S1x128, runCore.sl.dma79 c i pf fh hall⟩]) ⊢ mOwn c scRow78 (landed pf fh i) from land_row c 78 d fh pf i (runCore.sl.r_78 c i pf) (word_eq c pf i 78 (k0_off157 i) rfl _ _) (hall _ _) (k0_off158 (runCore.sl.r_78 c i pf)) rfl _) $$ HS78; ihave HS79 := (show mOwn c scRow79 (scRow79.view.writes (Elt F) d [⟨Rect.whole S1x128, runCore.sl.dma80 c i pf fh hall⟩]) ⊢ mOwn c scRow79 (landed pf fh i) from land_row c 79 d fh pf i (runCore.sl.r_79 c i pf) (word_eq c pf i 79 (k0_off159 i) rfl _ _) (hall _ _) (k0_off160 (runCore.sl.r_79 c i pf)) rfl _) $$ HS79))
set_option maxHeartbeats 4000000 in
set_option hygiene false in
macro "land_rows10" : tactic => `(tactic| (ihave HS80 := (show mOwn c scRow80 (scRow80.view.writes (Elt F) d [⟨Rect.whole S1x128, runCore.sl.dma81 c i pf fh hall⟩]) ⊢ mOwn c scRow80 (landed pf fh i) from land_row c 80 d fh pf i (runCore.sl.r_80 c i pf) (word_eq c pf i 80 (k0_off161 i) rfl _ _) (hall _ _) (k0_off162 (runCore.sl.r_80 c i pf)) rfl _) $$ HS80; ihave HS81 := (show mOwn c scRow81 (scRow81.view.writes (Elt F) d [⟨Rect.whole S1x128, runCore.sl.dma82 c i pf fh hall⟩]) ⊢ mOwn c scRow81 (landed pf fh i) from land_row c 81 d fh pf i (runCore.sl.r_81 c i pf) (word_eq c pf i 81 (k0_off163 i) rfl _ _) (hall _ _) (k0_off164 (runCore.sl.r_81 c i pf)) rfl _) $$ HS81; ihave HS82 := (show mOwn c scRow82 (scRow82.view.writes (Elt F) d [⟨Rect.whole S1x128, runCore.sl.dma83 c i pf fh hall⟩]) ⊢ mOwn c scRow82 (landed pf fh i) from land_row c 82 d fh pf i (runCore.sl.r_82 c i pf) (word_eq c pf i 82 (k0_off165 i) rfl _ _) (hall _ _) (k0_off166 (runCore.sl.r_82 c i pf)) rfl _) $$ HS82; ihave HS83 := (show mOwn c scRow83 (scRow83.view.writes (Elt F) d [⟨Rect.whole S1x128, runCore.sl.dma84 c i pf fh hall⟩]) ⊢ mOwn c scRow83 (landed pf fh i) from land_row c 83 d fh pf i (runCore.sl.r_83 c i pf) (word_eq c pf i 83 (k0_off167 i) rfl _ _) (hall _ _) (k0_off168 (runCore.sl.r_83 c i pf)) rfl _) $$ HS83; ihave HS84 := (show mOwn c scRow84 (scRow84.view.writes (Elt F) d [⟨Rect.whole S1x128, runCore.sl.dma85 c i pf fh hall⟩]) ⊢ mOwn c scRow84 (landed pf fh i) from land_row c 84 d fh pf i (runCore.sl.r_84 c i pf) (word_eq c pf i 84 (k0_off169 i) rfl _ _) (hall _ _) (k0_off170 (runCore.sl.r_84 c i pf)) rfl _) $$ HS84; ihave HS85 := (show mOwn c scRow85 (scRow85.view.writes (Elt F) d [⟨Rect.whole S1x128, runCore.sl.dma86 c i pf fh hall⟩]) ⊢ mOwn c scRow85 (landed pf fh i) from land_row c 85 d fh pf i (runCore.sl.r_85 c i pf) (word_eq c pf i 85 (k0_off171 i) rfl _ _) (hall _ _) (k0_off172 (runCore.sl.r_85 c i pf)) rfl _) $$ HS85; ihave HS86 := (show mOwn c scRow86 (scRow86.view.writes (Elt F) d [⟨Rect.whole S1x128, runCore.sl.dma87 c i pf fh hall⟩]) ⊢ mOwn c scRow86 (landed pf fh i) from land_row c 86 d fh pf i (runCore.sl.r_86 c i pf) (word_eq c pf i 86 (k0_off173 i) rfl _ _) (hall _ _) (k0_off174 (runCore.sl.r_86 c i pf)) rfl _) $$ HS86; ihave HS87 := (show mOwn c scRow87 (scRow87.view.writes (Elt F) d [⟨Rect.whole S1x128, runCore.sl.dma88 c i pf fh hall⟩]) ⊢ mOwn c scRow87 (landed pf fh i) from land_row c 87 d fh pf i (runCore.sl.r_87 c i pf) (word_eq c pf i 87 (k0_off175 i) rfl _ _) (hall _ _) (k0_off176 (runCore.sl.r_87 c i pf)) rfl _) $$ HS87))
set_option maxHeartbeats 4000000 in
set_option hygiene false in
macro "land_rows11" : tactic => `(tactic| (ihave HS88 := (show mOwn c scRow88 (scRow88.view.writes (Elt F) d [⟨Rect.whole S1x128, runCore.sl.dma89 c i pf fh hall⟩]) ⊢ mOwn c scRow88 (landed pf fh i) from land_row c 88 d fh pf i (runCore.sl.r_88 c i pf) (word_eq c pf i 88 (k0_off177 i) rfl _ _) (hall _ _) (k0_off178 (runCore.sl.r_88 c i pf)) rfl _) $$ HS88; ihave HS89 := (show mOwn c scRow89 (scRow89.view.writes (Elt F) d [⟨Rect.whole S1x128, runCore.sl.dma90 c i pf fh hall⟩]) ⊢ mOwn c scRow89 (landed pf fh i) from land_row c 89 d fh pf i (runCore.sl.r_89 c i pf) (word_eq c pf i 89 (k0_off179 i) rfl _ _) (hall _ _) (k0_off180 (runCore.sl.r_89 c i pf)) rfl _) $$ HS89; ihave HS90 := (show mOwn c scRow90 (scRow90.view.writes (Elt F) d [⟨Rect.whole S1x128, runCore.sl.dma91 c i pf fh hall⟩]) ⊢ mOwn c scRow90 (landed pf fh i) from land_row c 90 d fh pf i (runCore.sl.r_90 c i pf) (word_eq c pf i 90 (k0_off181 i) rfl _ _) (hall _ _) (k0_off182 (runCore.sl.r_90 c i pf)) rfl _) $$ HS90; ihave HS91 := (show mOwn c scRow91 (scRow91.view.writes (Elt F) d [⟨Rect.whole S1x128, runCore.sl.dma92 c i pf fh hall⟩]) ⊢ mOwn c scRow91 (landed pf fh i) from land_row c 91 d fh pf i (runCore.sl.r_91 c i pf) (word_eq c pf i 91 (k0_off183 i) rfl _ _) (hall _ _) (k0_off184 (runCore.sl.r_91 c i pf)) rfl _) $$ HS91; ihave HS92 := (show mOwn c scRow92 (scRow92.view.writes (Elt F) d [⟨Rect.whole S1x128, runCore.sl.dma93 c i pf fh hall⟩]) ⊢ mOwn c scRow92 (landed pf fh i) from land_row c 92 d fh pf i (runCore.sl.r_92 c i pf) (word_eq c pf i 92 (k0_off185 i) rfl _ _) (hall _ _) (k0_off186 (runCore.sl.r_92 c i pf)) rfl _) $$ HS92; ihave HS93 := (show mOwn c scRow93 (scRow93.view.writes (Elt F) d [⟨Rect.whole S1x128, runCore.sl.dma94 c i pf fh hall⟩]) ⊢ mOwn c scRow93 (landed pf fh i) from land_row c 93 d fh pf i (runCore.sl.r_93 c i pf) (word_eq c pf i 93 (k0_off187 i) rfl _ _) (hall _ _) (k0_off188 (runCore.sl.r_93 c i pf)) rfl _) $$ HS93; ihave HS94 := (show mOwn c scRow94 (scRow94.view.writes (Elt F) d [⟨Rect.whole S1x128, runCore.sl.dma95 c i pf fh hall⟩]) ⊢ mOwn c scRow94 (landed pf fh i) from land_row c 94 d fh pf i (runCore.sl.r_94 c i pf) (word_eq c pf i 94 (k0_off189 i) rfl _ _) (hall _ _) (k0_off190 (runCore.sl.r_94 c i pf)) rfl _) $$ HS94; ihave HS95 := (show mOwn c scRow95 (scRow95.view.writes (Elt F) d [⟨Rect.whole S1x128, runCore.sl.dma96 c i pf fh hall⟩]) ⊢ mOwn c scRow95 (landed pf fh i) from land_row c 95 d fh pf i (runCore.sl.r_95 c i pf) (word_eq c pf i 95 (k0_off191 i) rfl _ _) (hall _ _) (k0_off192 (runCore.sl.r_95 c i pf)) rfl _) $$ HS95))
set_option maxHeartbeats 4000000 in
set_option hygiene false in
macro "land_rows12" : tactic => `(tactic| (ihave HS96 := (show mOwn c scRow96 (scRow96.view.writes (Elt F) d [⟨Rect.whole S1x128, runCore.sl.dma97 c i pf fh hall⟩]) ⊢ mOwn c scRow96 (landed pf fh i) from land_row c 96 d fh pf i (runCore.sl.r_96 c i pf) (word_eq c pf i 96 (k0_off193 i) rfl _ _) (hall _ _) (k0_off194 (runCore.sl.r_96 c i pf)) rfl _) $$ HS96; ihave HS97 := (show mOwn c scRow97 (scRow97.view.writes (Elt F) d [⟨Rect.whole S1x128, runCore.sl.dma98 c i pf fh hall⟩]) ⊢ mOwn c scRow97 (landed pf fh i) from land_row c 97 d fh pf i (runCore.sl.r_97 c i pf) (word_eq c pf i 97 (k0_off195 i) rfl _ _) (hall _ _) (k0_off196 (runCore.sl.r_97 c i pf)) rfl _) $$ HS97; ihave HS98 := (show mOwn c scRow98 (scRow98.view.writes (Elt F) d [⟨Rect.whole S1x128, runCore.sl.dma99 c i pf fh hall⟩]) ⊢ mOwn c scRow98 (landed pf fh i) from land_row c 98 d fh pf i (runCore.sl.r_98 c i pf) (word_eq c pf i 98 (k0_off197 i) rfl _ _) (hall _ _) (k0_off198 (runCore.sl.r_98 c i pf)) rfl _) $$ HS98; ihave HS99 := (show mOwn c scRow99 (scRow99.view.writes (Elt F) d [⟨Rect.whole S1x128, runCore.sl.dma100 c i pf fh hall⟩]) ⊢ mOwn c scRow99 (landed pf fh i) from land_row c 99 d fh pf i (runCore.sl.r_99 c i pf) (word_eq c pf i 99 (k0_off199 i) rfl _ _) (hall _ _) (k0_off200 (runCore.sl.r_99 c i pf)) rfl _) $$ HS99; ihave HS100 := (show mOwn c scRow100 (scRow100.view.writes (Elt F) d [⟨Rect.whole S1x128, runCore.sl.dma101 c i pf fh hall⟩]) ⊢ mOwn c scRow100 (landed pf fh i) from land_row c 100 d fh pf i (runCore.sl.r_100 c i pf) (word_eq c pf i 100 (k0_off201 i) rfl _ _) (hall _ _) (k0_off202 (runCore.sl.r_100 c i pf)) rfl _) $$ HS100; ihave HS101 := (show mOwn c scRow101 (scRow101.view.writes (Elt F) d [⟨Rect.whole S1x128, runCore.sl.dma102 c i pf fh hall⟩]) ⊢ mOwn c scRow101 (landed pf fh i) from land_row c 101 d fh pf i (runCore.sl.r_101 c i pf) (word_eq c pf i 101 (k0_off203 i) rfl _ _) (hall _ _) (k0_off204 (runCore.sl.r_101 c i pf)) rfl _) $$ HS101; ihave HS102 := (show mOwn c scRow102 (scRow102.view.writes (Elt F) d [⟨Rect.whole S1x128, runCore.sl.dma103 c i pf fh hall⟩]) ⊢ mOwn c scRow102 (landed pf fh i) from land_row c 102 d fh pf i (runCore.sl.r_102 c i pf) (word_eq c pf i 102 (k0_off205 i) rfl _ _) (hall _ _) (k0_off206 (runCore.sl.r_102 c i pf)) rfl _) $$ HS102; ihave HS103 := (show mOwn c scRow103 (scRow103.view.writes (Elt F) d [⟨Rect.whole S1x128, runCore.sl.dma104 c i pf fh hall⟩]) ⊢ mOwn c scRow103 (landed pf fh i) from land_row c 103 d fh pf i (runCore.sl.r_103 c i pf) (word_eq c pf i 103 (k0_off207 i) rfl _ _) (hall _ _) (k0_off208 (runCore.sl.r_103 c i pf)) rfl _) $$ HS103))
set_option maxHeartbeats 4000000 in
set_option hygiene false in
macro "land_rows13" : tactic => `(tactic| (ihave HS104 := (show mOwn c scRow104 (scRow104.view.writes (Elt F) d [⟨Rect.whole S1x128, runCore.sl.dma105 c i pf fh hall⟩]) ⊢ mOwn c scRow104 (landed pf fh i) from land_row c 104 d fh pf i (runCore.sl.r_104 c i pf) (word_eq c pf i 104 (k0_off209 i) rfl _ _) (hall _ _) (k0_off210 (runCore.sl.r_104 c i pf)) rfl _) $$ HS104; ihave HS105 := (show mOwn c scRow105 (scRow105.view.writes (Elt F) d [⟨Rect.whole S1x128, runCore.sl.dma106 c i pf fh hall⟩]) ⊢ mOwn c scRow105 (landed pf fh i) from land_row c 105 d fh pf i (runCore.sl.r_105 c i pf) (word_eq c pf i 105 (k0_off211 i) rfl _ _) (hall _ _) (k0_off212 (runCore.sl.r_105 c i pf)) rfl _) $$ HS105; ihave HS106 := (show mOwn c scRow106 (scRow106.view.writes (Elt F) d [⟨Rect.whole S1x128, runCore.sl.dma107 c i pf fh hall⟩]) ⊢ mOwn c scRow106 (landed pf fh i) from land_row c 106 d fh pf i (runCore.sl.r_106 c i pf) (word_eq c pf i 106 (k0_off213 i) rfl _ _) (hall _ _) (k0_off214 (runCore.sl.r_106 c i pf)) rfl _) $$ HS106; ihave HS107 := (show mOwn c scRow107 (scRow107.view.writes (Elt F) d [⟨Rect.whole S1x128, runCore.sl.dma108 c i pf fh hall⟩]) ⊢ mOwn c scRow107 (landed pf fh i) from land_row c 107 d fh pf i (runCore.sl.r_107 c i pf) (word_eq c pf i 107 (k0_off215 i) rfl _ _) (hall _ _) (k0_off216 (runCore.sl.r_107 c i pf)) rfl _) $$ HS107; ihave HS108 := (show mOwn c scRow108 (scRow108.view.writes (Elt F) d [⟨Rect.whole S1x128, runCore.sl.dma109 c i pf fh hall⟩]) ⊢ mOwn c scRow108 (landed pf fh i) from land_row c 108 d fh pf i (runCore.sl.r_108 c i pf) (word_eq c pf i 108 (k0_off217 i) rfl _ _) (hall _ _) (k0_off218 (runCore.sl.r_108 c i pf)) rfl _) $$ HS108; ihave HS109 := (show mOwn c scRow109 (scRow109.view.writes (Elt F) d [⟨Rect.whole S1x128, runCore.sl.dma110 c i pf fh hall⟩]) ⊢ mOwn c scRow109 (landed pf fh i) from land_row c 109 d fh pf i (runCore.sl.r_109 c i pf) (word_eq c pf i 109 (k0_off219 i) rfl _ _) (hall _ _) (k0_off220 (runCore.sl.r_109 c i pf)) rfl _) $$ HS109; ihave HS110 := (show mOwn c scRow110 (scRow110.view.writes (Elt F) d [⟨Rect.whole S1x128, runCore.sl.dma111 c i pf fh hall⟩]) ⊢ mOwn c scRow110 (landed pf fh i) from land_row c 110 d fh pf i (runCore.sl.r_110 c i pf) (word_eq c pf i 110 (k0_off221 i) rfl _ _) (hall _ _) (k0_off222 (runCore.sl.r_110 c i pf)) rfl _) $$ HS110; ihave HS111 := (show mOwn c scRow111 (scRow111.view.writes (Elt F) d [⟨Rect.whole S1x128, runCore.sl.dma112 c i pf fh hall⟩]) ⊢ mOwn c scRow111 (landed pf fh i) from land_row c 111 d fh pf i (runCore.sl.r_111 c i pf) (word_eq c pf i 111 (k0_off223 i) rfl _ _) (hall _ _) (k0_off224 (runCore.sl.r_111 c i pf)) rfl _) $$ HS111))
set_option maxHeartbeats 4000000 in
set_option hygiene false in
macro "land_rows14" : tactic => `(tactic| (ihave HS112 := (show mOwn c scRow112 (scRow112.view.writes (Elt F) d [⟨Rect.whole S1x128, runCore.sl.dma113 c i pf fh hall⟩]) ⊢ mOwn c scRow112 (landed pf fh i) from land_row c 112 d fh pf i (runCore.sl.r_112 c i pf) (word_eq c pf i 112 (k0_off225 i) rfl _ _) (hall _ _) (k0_off226 (runCore.sl.r_112 c i pf)) rfl _) $$ HS112; ihave HS113 := (show mOwn c scRow113 (scRow113.view.writes (Elt F) d [⟨Rect.whole S1x128, runCore.sl.dma114 c i pf fh hall⟩]) ⊢ mOwn c scRow113 (landed pf fh i) from land_row c 113 d fh pf i (runCore.sl.r_113 c i pf) (word_eq c pf i 113 (k0_off227 i) rfl _ _) (hall _ _) (k0_off228 (runCore.sl.r_113 c i pf)) rfl _) $$ HS113; ihave HS114 := (show mOwn c scRow114 (scRow114.view.writes (Elt F) d [⟨Rect.whole S1x128, runCore.sl.dma115 c i pf fh hall⟩]) ⊢ mOwn c scRow114 (landed pf fh i) from land_row c 114 d fh pf i (runCore.sl.r_114 c i pf) (word_eq c pf i 114 (k0_off229 i) rfl _ _) (hall _ _) (k0_off230 (runCore.sl.r_114 c i pf)) rfl _) $$ HS114; ihave HS115 := (show mOwn c scRow115 (scRow115.view.writes (Elt F) d [⟨Rect.whole S1x128, runCore.sl.dma116 c i pf fh hall⟩]) ⊢ mOwn c scRow115 (landed pf fh i) from land_row c 115 d fh pf i (runCore.sl.r_115 c i pf) (word_eq c pf i 115 (k0_off231 i) rfl _ _) (hall _ _) (k0_off232 (runCore.sl.r_115 c i pf)) rfl _) $$ HS115; ihave HS116 := (show mOwn c scRow116 (scRow116.view.writes (Elt F) d [⟨Rect.whole S1x128, runCore.sl.dma117 c i pf fh hall⟩]) ⊢ mOwn c scRow116 (landed pf fh i) from land_row c 116 d fh pf i (runCore.sl.r_116 c i pf) (word_eq c pf i 116 (k0_off233 i) rfl _ _) (hall _ _) (k0_off234 (runCore.sl.r_116 c i pf)) rfl _) $$ HS116; ihave HS117 := (show mOwn c scRow117 (scRow117.view.writes (Elt F) d [⟨Rect.whole S1x128, runCore.sl.dma118 c i pf fh hall⟩]) ⊢ mOwn c scRow117 (landed pf fh i) from land_row c 117 d fh pf i (runCore.sl.r_117 c i pf) (word_eq c pf i 117 (k0_off235 i) rfl _ _) (hall _ _) (k0_off236 (runCore.sl.r_117 c i pf)) rfl _) $$ HS117; ihave HS118 := (show mOwn c scRow118 (scRow118.view.writes (Elt F) d [⟨Rect.whole S1x128, runCore.sl.dma119 c i pf fh hall⟩]) ⊢ mOwn c scRow118 (landed pf fh i) from land_row c 118 d fh pf i (runCore.sl.r_118 c i pf) (word_eq c pf i 118 (k0_off237 i) rfl _ _) (hall _ _) (k0_off238 (runCore.sl.r_118 c i pf)) rfl _) $$ HS118; ihave HS119 := (show mOwn c scRow119 (scRow119.view.writes (Elt F) d [⟨Rect.whole S1x128, runCore.sl.dma120 c i pf fh hall⟩]) ⊢ mOwn c scRow119 (landed pf fh i) from land_row c 119 d fh pf i (runCore.sl.r_119 c i pf) (word_eq c pf i 119 (k0_off239 i) rfl _ _) (hall _ _) (k0_off240 (runCore.sl.r_119 c i pf)) rfl _) $$ HS119))
set_option maxHeartbeats 4000000 in
set_option hygiene false in
macro "land_rows15" : tactic => `(tactic| (ihave HS120 := (show mOwn c scRow120 (scRow120.view.writes (Elt F) d [⟨Rect.whole S1x128, runCore.sl.dma121 c i pf fh hall⟩]) ⊢ mOwn c scRow120 (landed pf fh i) from land_row c 120 d fh pf i (runCore.sl.r_120 c i pf) (word_eq c pf i 120 (k0_off241 i) rfl _ _) (hall _ _) (k0_off242 (runCore.sl.r_120 c i pf)) rfl _) $$ HS120; ihave HS121 := (show mOwn c scRow121 (scRow121.view.writes (Elt F) d [⟨Rect.whole S1x128, runCore.sl.dma122 c i pf fh hall⟩]) ⊢ mOwn c scRow121 (landed pf fh i) from land_row c 121 d fh pf i (runCore.sl.r_121 c i pf) (word_eq c pf i 121 (k0_off243 i) rfl _ _) (hall _ _) (k0_off244 (runCore.sl.r_121 c i pf)) rfl _) $$ HS121; ihave HS122 := (show mOwn c scRow122 (scRow122.view.writes (Elt F) d [⟨Rect.whole S1x128, runCore.sl.dma123 c i pf fh hall⟩]) ⊢ mOwn c scRow122 (landed pf fh i) from land_row c 122 d fh pf i (runCore.sl.r_122 c i pf) (word_eq c pf i 122 (k0_off245 i) rfl _ _) (hall _ _) (k0_off246 (runCore.sl.r_122 c i pf)) rfl _) $$ HS122; ihave HS123 := (show mOwn c scRow123 (scRow123.view.writes (Elt F) d [⟨Rect.whole S1x128, runCore.sl.dma124 c i pf fh hall⟩]) ⊢ mOwn c scRow123 (landed pf fh i) from land_row c 123 d fh pf i (runCore.sl.r_123 c i pf) (word_eq c pf i 123 (k0_off247 i) rfl _ _) (hall _ _) (k0_off248 (runCore.sl.r_123 c i pf)) rfl _) $$ HS123; ihave HS124 := (show mOwn c scRow124 (scRow124.view.writes (Elt F) d [⟨Rect.whole S1x128, runCore.sl.dma125 c i pf fh hall⟩]) ⊢ mOwn c scRow124 (landed pf fh i) from land_row c 124 d fh pf i (runCore.sl.r_124 c i pf) (word_eq c pf i 124 (k0_off249 i) rfl _ _) (hall _ _) (k0_off250 (runCore.sl.r_124 c i pf)) rfl _) $$ HS124; ihave HS125 := (show mOwn c scRow125 (scRow125.view.writes (Elt F) d [⟨Rect.whole S1x128, runCore.sl.dma126 c i pf fh hall⟩]) ⊢ mOwn c scRow125 (landed pf fh i) from land_row c 125 d fh pf i (runCore.sl.r_125 c i pf) (word_eq c pf i 125 (k0_off251 i) rfl _ _) (hall _ _) (k0_off252 (runCore.sl.r_125 c i pf)) rfl _) $$ HS125; ihave HS126 := (show mOwn c scRow126 (scRow126.view.writes (Elt F) d [⟨Rect.whole S1x128, runCore.sl.dma127 c i pf fh hall⟩]) ⊢ mOwn c scRow126 (landed pf fh i) from land_row c 126 d fh pf i (runCore.sl.r_126 c i pf) (word_eq c pf i 126 (k0_off253 i) rfl _ _) (hall _ _) (k0_off254 (runCore.sl.r_126 c i pf)) rfl _) $$ HS126; ihave HS127 := (show mOwn c scRow127 (scRow127.view.writes (Elt F) d [⟨Rect.whole S1x128, runCore.sl.dma128 c i pf fh hall⟩]) ⊢ mOwn c scRow127 (landed pf fh i) from land_row c 127 d fh pf i (runCore.sl.r_127 c i pf) (word_eq c pf i 127 (k0_off255 i) rfl _ _) (hall _ _) (k0_off256 (runCore.sl.r_127 c i pf)) rfl _) $$ HS127))
set_option maxHeartbeats 4000000 in
set_option hygiene false in
macro "land_all2" : tactic => `(tactic| (land_rows0; land_rows1; land_rows2; land_rows3; land_rows4; land_rows5; land_rows6; land_rows7; land_rows8; land_rows9; land_rows10; land_rows11; land_rows12; land_rows13; land_rows14; land_rows15))
/-! The rows joined. -/
set_option maxHeartbeats 4000000 in
set_option hygiene false in
macro "ijoin_rows2" : tactic => `(tactic| ihave HS := (rows_join c (landed pf fh i)) $$ [HS0 HS1 HS2 HS3 HS4 HS5 HS6 HS7 HS8 HS9 HS10 HS11 HS12 HS13 HS14 HS15 HS16 HS17 HS18 HS19 HS20 HS21 HS22 HS23 HS24 HS25 HS26 HS27 HS28 HS29 HS30 HS31 HS32 HS33 HS34 HS35 HS36 HS37 HS38 HS39 HS40 HS41 HS42 HS43 HS44 HS45 HS46 HS47 HS48 HS49 HS50 HS51 HS52 HS53 HS54 HS55 HS56 HS57 HS58 HS59 HS60 HS61 HS62 HS63 HS64 HS65 HS66 HS67 HS68 HS69 HS70 HS71 HS72 HS73 HS74 HS75 HS76 HS77 HS78 HS79 HS80 HS81 HS82 HS83 HS84 HS85 HS86 HS87 HS88 HS89 HS90 HS91 HS92 HS93 HS94 HS95 HS96 HS97 HS98 HS99 HS100 HS101 HS102 HS103 HS104 HS105 HS106 HS107 HS108 HS109 HS110 HS111 HS112 HS113 HS114 HS115 HS116 HS117 HS118 HS119 HS120 HS121 HS122 HS123 HS124 HS125 HS126 HS127])

end Cert.KernelIdeal.Hand
-- ==== Proof.KernelIdealRun.lean ====
/-
  The kernel body at one grid point, with the scratch buffer held row by row.

  Copy `k` of grid point `i` reads the table word `table[128·i + k]` (a row number of the row table, by hypothesis in
  range), copies that row of the row table into row `k` of the scratch buffer on semaphore `2 + k`; all 128 copies are
  started, then all are waited for; then the scratch buffer is read whole and stored into the output block.
  Row `k` of the scratch buffer therefore ends at the row table's row `table[128·i + k]` (`land_row`), the scratch buffer
  whole at `landed`, and the output block at `outBlk` (`tail_val`).
-/
import proofs.«410525_j11055245820322_2_alg».proof.Proof.Gen.KernelIdeal.Launch
import proofs.«410525_j11055245820322_2_alg».proof.Proof.Gen.KernelIdeal.Skeleton
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.ValueIdx
import proofs.«410525_j11055245820322_2_alg».proof.Proof.KernelIdealRows
import proofs.«410525_j11055245820322_2_alg».proof.Proof.KernelIdealTable2
import Idealize.ShloMosaic.Lib.ValueLayout
import Idealize.ShloMosaic.Lib.Pipeline.Value
set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- A table word in range names a row inside the row table. -/
theorem chk_of_lt (v : BitVec 32) (h : v.toNat < 2097152) :
    ∀ a, (![v.toNat, 0, 0] : Fin 3 → Nat) a + S1x1x128.size a ≤ S2097152x1x128.size a := by
  intro a
  match a with
  | ⟨0, _⟩ => show v.toNat + 1 ≤ 2097152; omega
  | ⟨1, _⟩ => show 0 + 1 ≤ 1; omega
  | ⟨2, _⟩ => show 0 + 128 ≤ 128; omega

/-- Where entry (x, q) of row `k` sits in the scratch buffer: at (k, 0, q). -/
theorem rowEmb (k : Fin 128) (x : Fin 1) (q : Fin 128) :
    (scRowF k).view.emb (ix2 x q) = (ix3 k (0 : Fin 1) q : S128x1x128.Idx) := by
  show (Rect.unit (s := S128x1x128) ![k.val, 0, 0] S1x1x128.size (inbRow k)).emb (Shape.reshapeEquiv _ (ix2 x q)) = _
  rw [reshapeEquiv_ix2_1ab]
  funext a
  apply Fin.ext
  rw [Rect.emb_apply]
  have hx := x.isLt
  match a with
  | ⟨0, _⟩ => show k.val + 1 * 0 = k.val; omega
  | ⟨1, _⟩ => show 0 + 1 * x.val = 0; omega
  | ⟨2, _⟩ => show 0 + 1 * q.val = q.val; omega

/-- Where entry (x, q) of the copied row sits in the row table: at (n, 0, q). -/
theorem srcEmb (n : Fin 2097152) (off : Fin 3 → Nat) (hoff : off = ![n.val, 0, 0])
    (inb : ∀ a, off a + S1x1x128.size a ≤ S2097152x1x128.size a) (x : Fin 1) (q : Fin 128) :
    ((hbM.slice (Rect.unit (s := S2097152x1x128) off S1x1x128.size inb) (fun _ => rfl)).squeeze S1x128 squeezes_S1x1x128_S1x128).view.emb (ix2 x q)
      = (ix3 n (0 : Fin 1) q : S2097152x1x128.Idx) := by
  subst hoff
  show (Rect.unit (s := S2097152x1x128) ![n.val, 0, 0] S1x1x128.size inb).emb (Shape.reshapeEquiv _ (ix2 x q)) = _
  rw [reshapeEquiv_ix2_1ab]
  funext a
  apply Fin.ext
  rw [Rect.emb_apply]
  have hx := x.isLt
  match a with
  | ⟨0, _⟩ => show n.val + 1 * 0 = n.val; omega
  | ⟨1, _⟩ => show 0 + 1 * x.val = 0; omega
  | ⟨2, _⟩ => show 0 + 1 * q.val = q.val; omega

/-- What the scratch buffer holds once every copy of grid point `i` has landed: entry (k, 0, q) is the row table's entry
    (table[128·i + k], 0, q). -/
def landed {α : Type} (pf : S16384.Idx → BitVec 32) (fh : S2097152x1x128.Idx → α) (i : grid0.Coords) : S128x1x128.Idx → α :=
  fun j => fh (ix3 (⟨(wordAt pf i ⟨(j 0).val % 128, Nat.mod_lt _ (by decide)⟩).toNat % 2097152, Nat.mod_lt _ (by decide)⟩ : Fin 2097152) (0 : Fin 1)
    (⟨(j 2).val % 128, Nat.mod_lt _ (by decide)⟩ : Fin 128))

theorem land_row (c : Dev nD) (k : Fin 128) (d : MBuf (F := F) c scM) (fh : MBuf (F := F) c hbM) (pf : MBuf (F := F) c tbM) (i : grid0.Coords)
    (v : BitVec 32) (hv : v = wordAt pf i k) (hlt : v.toNat < 2097152)
    (off : Fin 3 → Nat) (hoff : off = ![v.toNat, 0, 0]) (inb : ∀ a, off a + S1x1x128.size a ≤ S2097152x1x128.size a) :
    (mOwn c (scRowF k) ((scRowF k).view.writes (Elt F) d [⟨Rect.whole S1x128, ReadAs.same.apply (View.read (Elt F)
        ((hbM.slice (Rect.unit (s := S2097152x1x128) off S1x1x128.size inb) (fun _ => rfl)).squeeze S1x128 squeezes_S1x1x128_S1x128).view fh)⟩]) : sProp 𝕄)
      ⊢ mOwn c (scRowF k) (landed pf fh i) := by
  refine Entails.of_eq (pointsTo_congr ?_)
  intro j hj
  obtain ⟨y, -, rfl⟩ := Finset.mem_map.mp hj
  obtain ⟨x, q, rfl⟩ : ∃ (x : Fin 1) (q : Fin 128), y = ix2 x q := ⟨y 0, y 1, eq_ix2 y⟩
  rw [View.writes_singleton]
  have he : (scRowF k).view.emb (ix2 x q) = ((scRowF k).view.slice (Rect.whole S1x128)).emb (ix2 x q) := by
    rw [View.emb_slice]
    show _ = (scRowF k).view.emb ((Rect.whole S1x128).emb (ix2 x q))
    rw [Rect.emb_whole_apply]
  rw [he, View.write_emb_of_mem _ _ (Finset.mem_univ _), ← he, rowEmb]
  show (View.read (Elt F) ((hbM.slice (Rect.unit (s := S2097152x1x128) off S1x1x128.size inb) (fun _ => rfl)).squeeze S1x128 squeezes_S1x1x128_S1x128).view fh (ix2 x q)) = _
  rw [View.read_apply, srcEmb ⟨v.toNat, hlt⟩ off hoff inb]
  unfold landed
  have hk : (⟨((ix3 k (0 : Fin 1) q : S128x1x128.Idx) 0).val % 128, Nat.mod_lt _ (by decide)⟩ : Fin 128) = k :=
    Fin.ext (Nat.mod_eq_of_lt k.isLt)
  have hq : (⟨((ix3 k (0 : Fin 1) q : S128x1x128.Idx) 2).val % 128, Nat.mod_lt _ (by decide)⟩ : Fin 128) = q :=
    Fin.ext (Nat.mod_eq_of_lt q.isLt)
  refine (cast_eq _ _).trans (congrArg fh ?_)
  have hA : (⟨v.toNat, hlt⟩ : Fin 2097152)
      = ⟨(wordAt pf i ⟨((ix3 k (0 : Fin 1) q : S128x1x128.Idx) 0).val % 128, Nat.mod_lt _ (by decide)⟩).toNat % 2097152, Nat.mod_lt _ (by decide)⟩ := by
    apply Fin.ext
    show v.toNat = (wordAt pf i ⟨((ix3 k (0 : Fin 1) q : S128x1x128.Idx) 0).val % 128, Nat.mod_lt _ (by decide)⟩).toNat % 2097152
    rw [hk, ← hv, Nat.mod_eq_of_lt hlt]
  rw [hA, hq]

/-- The offset of the table word copy `k` of grid point `i` loads, as the body computes it in 32-bit words. -/
def wordOff (i : grid0.Coords) (k : Fin 128) : Fin 1 → Nat :=
  ![(Scalar.indexCast (Scalar.addi (Scalar.muli (BitVec.ofNat 32 (i 0).val) 128#32) (BitVec.ofNat 32 k.val))).toNat]

theorem wordOff_val (i : grid0.Coords) (k : Fin 128) : wordOff i k 0 = 128 * (i 0).val + k.val := by
  have hi : (i 0).val < 128 := (i 0).isLt
  have hk := k.isLt
  show (Scalar.indexCast (Scalar.addi (Scalar.muli (BitVec.ofNat 32 (i 0).val) 128#32) (BitVec.ofNat 32 k.val))).toNat = _
  simp only [Scalar.indexCast, Scalar.addi, Scalar.muli, IntOp.addi, IntOp.muli]
  rw [BitVec.toNat_add, BitVec.toNat_mul, BitVec.toNat_ofNat, BitVec.toNat_ofNat]
  show ((i 0).val % 2 ^ 32 * 128 % 2 ^ 32 + k.val % 2 ^ 32) % 2 ^ 32 = _
  omega

theorem word_eq (c : Dev nD) (pf : MBuf (F := F) c tbM) (i : grid0.Coords) (k : Fin 128) (off : Fin 1 → Nat) (hoff : off = wordOff i k)
    (inb : ∀ a, off a + S1.size a ≤ S16384.size a) (h : 0 < (Rect.unit (s := S16384) off S1.size inb).toLoadRect.shape.numel) :
    View.readAt (Elt F) tbM.view (Rect.unit (s := S16384) off S1.size inb).toLoadRect pf (Shape.Idx.first h) = wordAt pf i k := by
  subst hoff
  rw [View.readAt_apply, View.read_apply]
  refine (cast_eq _ _).trans ?_
  unfold wordAt
  refine congrArg pf ?_
  funext a
  apply Fin.ext
  match a with
  | ⟨0, _⟩ =>
    show (tbM.view.emb ((Rect.unit (s := S16384) (wordOff i k) S1.size inb).idx (Shape.Idx.first h)) ⟨0, by decide⟩ : Nat) = 128 * (i 0).val + k.val
    have e : (tbM.view.emb ((Rect.unit (s := S16384) (wordOff i k) S1.size inb).idx (Shape.Idx.first h)) ⟨0, by decide⟩ : Nat) = wordOff i k 0 + 1 * 0 := rfl
    rw [e, wordOff_val]; omega

theorem landed_apply {α : Type} (pf : S16384.Idx → BitVec 32) (fh : S2097152x1x128.Idx → α) (i : grid0.Coords) (k q : Fin 128) :
    landed pf fh i (ix3 k (0 : Fin 1) q) = outBlk pf fh i (ix2 k q) := by
  unfold landed outBlk
  have hk : (⟨((ix3 k (0 : Fin 1) q : S128x1x128.Idx) 0).val % 128, Nat.mod_lt _ (by decide)⟩ : Fin 128) = k :=
    Fin.ext (Nat.mod_eq_of_lt k.isLt)
  have hq : (⟨((ix3 k (0 : Fin 1) q : S128x1x128.Idx) 2).val % 128, Nat.mod_lt _ (by decide)⟩ : Fin 128) = q :=
    Fin.ext (Nat.mod_eq_of_lt q.isLt)
  refine congrArg fh ?_
  have hA : (⟨(wordAt pf i ⟨((ix3 k (0 : Fin 1) q : S128x1x128.Idx) 0).val % 128, Nat.mod_lt _ (by decide)⟩).toNat % 2097152, Nat.mod_lt _ (by decide)⟩ : Fin 2097152)
      = ⟨(wordAt pf i ((ix2 k q : S128x128.Idx) 0)).toNat % 2097152, Nat.mod_lt _ (by decide)⟩ := by
    apply Fin.ext
    show (wordAt pf i ⟨((ix3 k (0 : Fin 1) q : S128x1x128.Idx) 0).val % 128, Nat.mod_lt _ (by decide)⟩).toNat % 2097152 = (wordAt pf i k).toNat % 2097152
    rw [hk]
  rw [hA, hq]

/-- The vector the body stores into its output block — the scratch buffer read whole, its unit middle axis dropped — is the
    output block's contents `outBlk`. -/
theorem tail_val (c : Dev nD) (pf : MBuf (F := F) c tbM) (fh : MBuf (F := F) c hbM) (i : grid0.Coords) :
    k0_pay1 (F := F) (scM.view.readAt (Elt F) (Rect.unit (s := S128x1x128) ![0, 0, 0] S128x1x128.size inb_S128x1x128_S128x1x128_0_0_0).toLoadRect (landed pf fh i))
      = outBlk pf fh i := by
  funext j
  obtain ⟨k, q, rfl⟩ : ∃ (k : Fin 128) (q : Fin 128), j = ix2 k q := ⟨j 0, j 1, eq_ix2 j⟩
  unfold k0_pay1
  refine (shapeCast_apply _ _ (ix2 k q) (ix3 k (0 : Fin 1) q) ?_).trans ?_
  · rw [Shape.rowMajor_val_three, Shape.rowMajor_val_two]
    show (k.val * 1 + 0) * 128 + q.val = k.val * 128 + q.val
    omega
  · rw [View.readAt_apply, View.read_apply]
    refine (cast_eq _ _).trans ?_
    have e : scM.view.emb ((Rect.unit (s := S128x1x128) ![0, 0, 0] S128x1x128.size inb_S128x1x128_S128x1x128_0_0_0).toLoadRect.idx (ix3 k (0 : Fin 1) q))
        = (ix3 k (0 : Fin 1) q : S128x1x128.Idx) := by
      funext a
      apply Fin.ext
      match a with
      | ⟨0, _⟩ => show 0 + 1 * k.val = k.val; omega
      | ⟨1, _⟩ => show 0 + 1 * 0 = 0; omega
      | ⟨2, _⟩ => show 0 + 1 * q.val = q.val; omega
    rw [e]
    exact landed_apply pf fh i k q

/-- Every word a load reads off a table whose words are all in range is in range. -/
theorem readAt_lt (c : Dev nD) (pf : MBuf (F := F) c tbM) (hpf : TblOk pf) (r : LoadRect S16384) (j : r.shape.Idx) :
    ((tbM.view.readAt (Elt F) r pf j : Elt F .i32) : BitVec 32).toNat < 2097152 := by
  rw [View.readAt_apply, View.read_apply]
  refine lt_of_eq_of_lt (congrArg BitVec.toNat (cast_eq _ _)) ?_
  have e : tbM.view.emb (r.idx j) = ix1 (⟨(r.idx j 0).val, (r.idx j 0).isLt⟩ : Fin 16384) := by
    funext a
    match a with
    | ⟨0, _⟩ => rfl
  rw [e]
  exact hpf _

set_option maxHeartbeats 40000000 in
/-- The body at grid point `i` with the scratch buffer held row by row (at contents `d`), the row table as read shares, the
    semaphores one by one: it runs to its end with the output block's staging buffer at `outBlk pf fh i` and the scratch
    buffer whole at `landed pf fh i`. -/
theorem runCore (c : Dev nD) (i : grid0.Coords) (arg3 : Memref sig .tc .vmem S128x128 .f32) (harg3 : arg3.IsWhole)
    (pf : MBuf (F := F) c tbM) (fh : MBuf (F := F) c hbM) (d : MBuf (F := F) c scM)
    (hall : ∀ (r : LoadRect S16384) (j : r.shape.Idx), ((tbM.view.readAt (Elt F) r pf j : Elt F .i32) : BitVec 32).toNat < 2097152)
    (W : Waits sig Unit) (K : PUnit → sProp 𝕄) :
    iprop(mPt c tbM fullShare.right pf ∗ (∃ d3, owns (c : Thread nD τ) arg3 fullShare d3) ∗ RowsAt c d ∗ ToksAt c fh ∗ SemsAt c
        ∗ owes (c : Thread nD τ) 0 W
        ∗ (iprop(mPt c tbM fullShare.right pf ∗ owns (c : Thread nD τ) arg3 fullShare (outBlk pf fh i) ∗ mOwn c scM (landed pf fh i)
              ∗ ToksAt c fh ∗ SemsAt c ∗ (∃ W', owes (c : Thread nD τ) 0 W')) -∗ K ⟨⟩))
      ⊢ wp frame (wpE (defs₀ (F := F)) Variants.none c none) Set.univ
          (cc0__gather_kernel i tbM (Memref.isWhole_whole _) hbM (Memref.isWhole_whole _) arg3 harg3 scM (Memref.isWhole_whole _) cc0_scratch1) K := by
  simp only [cc0__gather_kernel_eq_skeleton]; unfold cc0__gather_kernel_skel
  unfold owns RowsAt ToksAt SemsAt
  iintro ⟨HT, ⟨%d3, %f3, -, H3⟩, HR, HTk, Hsem, HW, Hk⟩
  icases_rows HR
  icases_toks HTk
  icases_sems Hsem
  sl_exec (disch := first | exact ⟨chk_of_lt _ (hall _ _), chk_of_lt _ (hall _ _)⟩ | exact chk_of_lt _ (hall _ _))
  land_all2
  ijoin_rows2
  · unfold RowsAt; iexact_rows
  sl_exec
  sl_step
  iapply Hk
  isplitl [HT]; · iexact HT
  isplitl [H3]
  · iexists _; isplitr; swap; · iexact H3
    ipureintro
    have hz : (![0, 0] : Fin 2 → Nat) = fun _ => 0 := by funext a; match a with | ⟨0, _⟩ => rfl | ⟨1, _⟩ => rfl
    rw [View.read_writes_eq_canon _ _ _ (View.cover_of_tiledL _ S128x128.size (by sl_kernel_rfl)), View.canon_unit_zero hz]
    exact tail_val c pf fh i
  isplitl [HS]; · iexact HS
  isplitl_toks; · iexact_toks
  isplitl_sems; · iexact_sems
  iexists _; iexact HW

/-- The body at grid point `i`, handed the table at half a share at contents `pf` (every word a row of the row table),
    its output block's staging buffer, its scratch buffer, its 128 semaphores at zero, the row table whole at contents `fh`
    and the core's wait record, runs to its end handing everything back as it was, the output block's staging buffer at
    `outBlk pf fh i`. -/
theorem kernel_run (c : Dev nD) (i : grid0.Coords) (arg3 : Memref sig .tc .vmem S128x128 .f32) (harg3 : arg3.IsWhole)
    (pf : MBuf (F := F) c tbM) (fh : MBuf (F := F) c hbM) (hpf : TblOk pf) (W : Waits sig Unit) (K : PUnit → sProp 𝕄) :
    iprop(mPt c tbM fullShare.right pf ∗ (∃ d, owns (c : Thread nD τ) arg3 fullShare d) ∗ (∃ d, owns (c : Thread nD τ) scM fullShare d)
        ∗ Pipeline.ownSems0 (Ix := Unit) (Name := ℕ) (U := Pipeline.UD sig nD τ) (Lvl := ℕ) (Val := Elt F) (τ := τ) osem0 c
        ∗ mPt c hbM fullShare fh ∗ owes (c : Thread nD τ) 0 W
        ∗ (iprop(mPt c tbM fullShare.right pf ∗ owns (c : Thread nD τ) arg3 fullShare (outBlk pf fh i) ∗ (∃ d, owns (c : Thread nD τ) scM fullShare d)
              ∗ Pipeline.ownSems0 (Ix := Unit) (Name := ℕ) (U := Pipeline.UD sig nD τ) (Lvl := ℕ) (Val := Elt F) (τ := τ) osem0 c
              ∗ mPt c hbM fullShare fh ∗ (∃ W', owes (c : Thread nD τ) 0 W')) -∗ K ⟨⟩))
      ⊢ wp frame (wpE (defs₀ (F := F)) Variants.none c none) Set.univ
          (cc0__gather_kernel i tbM (Memref.isWhole_whole _) hbM (Memref.isWhole_whole _) arg3 harg3 scM (Memref.isWhole_whole _) cc0_scratch1) K := by
  rw [sems_eq]
  iintro ⟨HT, H3, ⟨%ds0, HS⟩, Hsem, Hh, HW, Hk⟩
  unfold owns
  icases HS with ⟨%fs0, -, HS⟩
  iapply (runCore c i arg3 harg3 pf fh fs0 (readAt_lt c pf hpf) W K)
  isplitl [HT]; · iexact HT
  isplitl [H3]; · iexact H3
  isplitl [HS]; · iapply (rows_split c fs0); iexact HS
  isplitl [Hh]; · iapply (toks_split c fh); iexact Hh
  isplitl [Hsem]; · iexact Hsem
  isplitl [HW]; · iexact HW
  iintro ⟨HT, H3, HS, HTk, Hsem, HW⟩
  unfold owns
  iapply Hk
  isplitl [HT]; · iexact HT
  isplitl [H3]; · iexact H3
  isplitl [HS]
  · iexists _, _; isplitr; swap; · iexact HS
    ipureintro; rfl
  isplitl [Hsem]; · iexact Hsem
  isplitl [HTk]; · iapply (toks_join c fh); iexact HTk
  iexact HW

end Cert.KernelIdeal.Hand

end
-- ==== Proof.KernelIdealFrame.lean ====
/-
  The launch of the program: from the body's triple at one grid point to the run of @main.

  @main is eighteen host operations, one kernel region and one more host operation. The region's pipeline has one output
  window; the index table is prefetched into scalar memory and the row table stays in HBM, where the body reads it by
  copies of its own. The body's triple at a grid point is lifted to the pipeline's body obligation, and the library's
  launch theorem for a region with a prefetched table, transfers of the body's own and host operations after the region
  gives the run of @main.
-/
import proofs.«410525_j11055245820322_2_alg».proof.Proof.Gen.KernelIdeal.Launch
import proofs.«410525_j11055245820322_2_alg».proof.Proof.Gen.KernelIdeal.Skeleton
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.ValueIdx
import proofs.«410525_j11055245820322_2_alg».proof.Proof.KernelIdealBase
import proofs.«410525_j11055245820322_2_alg».proof.Proof.KernelIdealSetup
import proofs.«410525_j11055245820322_2_alg».proof.Proof.KernelIdealRun
set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## @main around the region -/

/-- No host operation before the region allocates a buffer. -/
theorem hostOps0_fresh : (hostOps0 : List (HloOp τ sig (Elt F))).Forall fun op => op.fresh = ∅ := by
  simp only [List.Forall]; repeat' constructor

/-- Nor does the one after it. -/
theorem hostOps1_fresh : (hostOps1 : List (HloOp τ sig (Elt F))).Forall fun op => op.fresh = ∅ := by
  simp only [List.Forall]; repeat' constructor

/-- @main reduces to the region continued by the host operation after it, at the contents the host operations before the
    region leave. -/
theorem hmain (𝒱₀ : Variants) : Pipeline.HMainPK (Ix := Unit) (Name := ℕ) (U := Pipeline.UD sig nD τ) (Lvl := ℕ) pcfgs 0 defs₀ 𝒱₀ m (main (F := F)) (V m)
      (fun _ => Pipeline.chain [StableHlo.seq hostOps1]) :=
  Pipeline.hmainP_around pcfgs 0 defs₀ 𝒱₀ m main [hostOps0] [hostOps1] hostOps0_sub hostOps0_fresh main_chain

/-! ## The body's own semaphores and the buffer it moves itself -/

/-- The body's 128 semaphores are DMA semaphores, pairwise distinct, none a staging semaphore of the window. -/
theorem ownSemFacts0 : Pipeline.OwnSemFacts spec0 osem0 := by decide +kernel

/-- The row table is unscoped, no window's array and no prefetched table. -/
theorem H0_sub : H0 ⊆ Pipeline.restRefsP sig pre0 spec0 := by decide

/-! ## The host operation after the region -/

/-- It touches only its own result buffer, which bypasses the region and is not the row table. -/
theorem sfx_sub : ∀ ops ∈ ([hostOps1] : List (List (HloOp τ sig (Elt F)))), ∀ op ∈ ops,
    op.bufs ⊆ Pipeline.tailRefsBut sig pre0 spec0 H0 := by
  intro ops hops op hop
  simp only [List.mem_cons, List.mem_nil_iff, or_false] at hops
  subst hops
  simp only [hostOps1, List.mem_cons, List.mem_nil_iff, or_false] at hop
  subst hop
  refine Pipeline.sub_tailRefsBut pre0 spec0 H0 _ (StableHlo.nullary_bufs_sub ..) ?_ ?_
  · intro k
    rw [StableHlo.nullary_bufs, Finset.mem_singleton]
    exact StableHlo.devRef_ne_of_ne ((by decide : ∀ k : Fin 1, pre0.ref k ≠ main_c_1) k)
  · intro b hb
    rw [StableHlo.nullary_bufs, Finset.mem_singleton]
    simp only [H0, Finset.mem_singleton] at hb
    subst hb
    exact StableHlo.devRef_ne_of_ne (by decide)

/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

/-- It does not write the output array. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  subst hops
  simp only [hostOps1, List.mem_cons, List.mem_nil_iff, or_false] at hop
  subst hop
  intro w
  fin_cases w
  simp only [StableHlo.nullary_writes, Finset.mem_singleton]
  exact StableHlo.devRef_ne_of_ne (by decide)

/-! ## The proof data, projected -/

/-- The proof data's array is the output array as the region finds it. -/
theorem A_eq (c : Dev nD) (w : Fin (cfgM m).W) : (dats m 0 c).A w = V m c (Pipeline.arrRef spec0 w) := by
  dsimp only [dats]

/-- What the body leaves in the output block's staging buffer at point `t`. -/
theorem after0_0 (c : Dev nD) (t : Fin (cfgM m).N) :
    (dats m 0 c).after 0 t = outBlk (V m c main_v13) (V m c main_v15) (grid0.coords t) := by
  dsimp only [dats]
  rfl

/-! ## The body obligation -/

/-- The body as the pipeline calls it at point `t`: on the whole table, the whole row table, the output window's current
    staging buffer, the whole scratch buffer and the body's semaphore array. -/
abbrev bodyAt0 (t : Fin (cfgM m).N) : Prog (TpuEff nD τ sig (Elt F) Λ₀ .tc) PUnit :=
  cc0__gather_kernel (grid0.coords t) (Memref.whole main_v13) (Memref.isWhole_whole _) (Memref.whole main_v15) (Memref.isWhole_whole _)
    (spec0_0.stage ((cfgM m).slots t 0)) (hstage0_0 (((cfgM m).slots t 0).cast nbuf0_0)) (Memref.whole cc0_scratch0) (Memref.isWhole_whole _) cc0_scratch1

/-- The table's half the region hands the body: the one table, whole, at half a share. -/
theorem PhiT0_eq (c : Dev nD) : (Pipeline.ΦT pre0 (tbl m) c : sProp 𝕄) = iprop(mPt c tbM fullShare.right (tbl m 0)) := by
  unfold Pipeline.ΦT Pipeline.prefHeld
  rw [show (Finset.univ : Finset (Fin 1)) = {(0 : Fin 1)} from by decide, bigSep_singleton]
  rfl

/-- The buffers the body moves itself, listed: the row table, whole, at its region-entry contents. -/
theorem hbmPts0_eq (c : Dev nD) :
    (bigSep H0 (fun b => ((c : Thread nD τ).loc b) ↦{fullShare} V m c b) : sProp 𝕄) = iprop(mPt c hbM fullShare (V m c main_v15)) := by
  rw [BI.bigSep_eq_bigSepL_of_eq [main_v15] (by decide) (by decide)]; rfl

/-- The invariant of a body with transfers of its own, conjunct by conjunct: the scratch buffer at some contents, the
    generator register at some state, the body's semaphores at zero, the row table at its region-entry contents. -/
theorem PhiD0_eq (c : Dev nD) :
    (Pipeline.ΦD osem0 spec0 H0 (V m) c : sProp 𝕄)
      = iprop((∃ d, owns (c : Thread nD τ) scM fullShare d) ∗ (∃ r, prngReg c r)
          ∗ Pipeline.ownSems0 (Ix := Unit) (Name := ℕ) (U := Pipeline.UD sig nD τ) (Lvl := ℕ) (Val := Elt F) (τ := τ) osem0 c
          ∗ mPt c hbM fullShare (V m c main_v15)) := by
  rw [Pipeline.ΦD_eq, scopedRest0_eq, hbmPts0_eq]; simp only [scM, owns_whole]; try rfl

/-- What the body is called with at point `t`: the invariant, the core's wait record within its bound, and the output
    window's current staging buffer at whatever the pipeline left there, -/
def bodyPre (c : Dev nD) (t : Fin (cfgM m).N) : sProp 𝕄 :=
  iprop((dats m 0 c).Φ t.castSucc ∗ (dats m 0 c).owesAt () t.castSucc
    ∗ (∃ d, owns (c : Thread nD τ) (spec0_0.stage ((cfgM m).slots t 0)) fullShare ((dats m 0 c).before 0 t d)))

/-- and what it returns: the invariant, a wait record, the staging buffer at the block of gathered rows. -/
def bodyPost (c : Dev nD) (t : Fin (cfgM m).N) : sProp 𝕄 :=
  iprop((dats m 0 c).Φ t.succ ∗ (dats m 0 c).owesAt () t.succ
    ∗ owns (c : Thread nD τ) (spec0_0.stage ((cfgM m).slots t 0)) fullShare ((dats m 0 c).after 0 t))

set_option backward.isDefEq.respectTransparency.types false in
/-- The body at any point: the invariant hands it the scratch buffer, its semaphores at zero, the row table and the
    table's half; the body's triple applies, every word of the table being a row of the row table; everything comes back
    as it was, the staging buffer at the block of gathered rows; the wait record comes back within the next point's
    bound, which is everything. -/
theorem sound_body (hH : Hyps m) (c : Dev nD) (t : Fin (cfgM m).N) :
    bodyPre m c t ⊢ wp frame (wpE (defs₀ (F := F)) Variants.none c none) Set.univ (bodyAt0 m t) (fun _ => bodyPost m c t) := by
  have hpf : V m c main_v13 = tbl m 0 := V_pre m c 0
  have hok : TblOk (tbl m 0) := hpf ▸ hH c
  unfold bodyPre bodyPost bodyAt0
  rw [after0_0, hpf]
  rw [show (dats m 0 c).Φ t.succ = iprop(Pipeline.ΦD osem0 spec0 H0 (V m) c ∗ Pipeline.ΦT pre0 (tbl m) c) from rfl,
    show (dats m 0 c).Φ t.castSucc = iprop(Pipeline.ΦD osem0 spec0 H0 (V m) c ∗ Pipeline.ΦT pre0 (tbl m) c) from rfl,
    PhiD0_eq, PhiT0_eq]
  unfold Dat.owesAt Pipeline.owesWithin
  rw [show (dats m 0 c).owed t.castSucc = 0 from rfl, show (dats m 0 c).owed t.succ = 0 from rfl]
  iintro ⟨⟨⟨HS, Hg, Hq, Hh⟩, Ht⟩, ⟨%W, -, HW⟩, ⟨%d, Hst⟩⟩
  iapply (kernel_run c (grid0.coords t) (spec0_0.stage ((cfgM m).slots t 0)) (hstage0_0 (((cfgM m).slots t 0).cast nbuf0_0))
    (tbl m 0) (V m c main_v15) hok W _)
  isplitl [Ht]; · iexact Ht
  isplitl [Hst]; · iexists _; iexact Hst
  isplitl [HS]; · iexact HS
  isplitl [Hq]; · iexact Hq
  isplitl [Hh]; · iexact Hh
  isplitl [HW]; · iexact HW
  iintro ⟨Ht, Hst, HS, Hq, Hh, ⟨%W', HW'⟩⟩
  isplitl [HS Hg Hq Hh Ht]
  · isplitr [Ht]
    · isplitl [HS]; · iexact HS
      isplitl [Hg]; · iexact Hg
      isplitl [Hq]; · iexact Hq
      iexact Hh
    · iexact Ht
  isplitl [HW']
  · iexists W'; isplitr; · ipureintro; exact fun _ _ => Or.inl trivial
    iexact HW'
  iexact Hst

/-- An entailment into a predicate transformer applied to a postcondition, transported along equalities of the
    precondition, the transformer and the postcondition. -/
theorem ent_of_eq {α : Type} {A A' : sProp 𝕄} {w w' : sWPT 𝕄 α} {Q Q' : α → sProp 𝕄}
    (h : A' ⊢ w' Q') (hA : A = A') (hw : w = w') (hQ : Q = Q') : A ⊢ w Q := by
  subst hA hw hQ; exact h

/-- At every point the body, handed the invariant, the core's wait record and the output window's current staging buffer,
    hands back the invariant, a wait record and the staging buffer at the block of gathered rows. -/
theorem body_obligation (hH : Hyps m) (c : Dev nD) :
    BodyObligation (dats (F := F) m 0 c) (defs₀ (F := F)) Variants.none () Set.univ := fun t => by
  rw [bigSep_W0, bigSep_W0]
  refine ent_of_eq (sound_body m hH c t) ?_ ?_ ?_
  · rfl
  · exact congrArg (wp frame (wpE (defs₀ (F := F)) Variants.none c none) Set.univ) (rfl : _ = bodyAt0 m t)
  · rfl

/-! ## The run -/

set_option backward.isDefEq.respectTransparency.types false in
/-- Under the frame's hypothesis, from any memory with zero counters every weakly fair execution of @main on the
    TensorCores terminates, and every final state has the output array at what the library computes from the proof data
    and every other unscoped buffer at what the host operation after the region leaves. -/
theorem run_main (hH : Hyps m) : θ_run defs (onTc (τ := τ) (main (F := F))) (s₀ m ρ)
    (Pipeline.FramePost (Pipeline.pin pcfgs fun _ => adm m) (dats m) 0
      (Pipeline.afterTail pcfgs (fun _ => adm m) (dats m) 0 (V0 m) [hostOps1])) :=
  Pipeline.θ_run_frameP_dma_around pcfgs (fun _ => adm m) (dats m) (0 : Fin 1) launch0 osem0 defs₀ Variants.none ownSemFacts0 H0 H0_sub m ρ main
    (hbody := fun c => (body_obligation m hH c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hpf := fun c k => V_pre m c k)
    (hin := fun _ => .rfl)
    (hout := fun c => (show iprop(Pipeline.ΦD osem0 spec0 H0 (V m) c ∗ Pipeline.ΦT pre0 (tbl m) c) ⊢ Pipeline.ΦD osem0 spec0 H0 (V m) c from by
      iintro ⟨H, -⟩; iexact H))

end Cert.KernelIdeal.Hand

end
-- ==== Proof.KernelIdealValue.lean ====
/-
  Reading the frame run's post: from the post of the run over the one region and the host operation after it to the memory's
  arrays as plain functions. The output array is written back block by block (128 rows per grid point); every block is the
  restriction of ONE whole-array function, so the array ends holding that function; the buffers the region bypasses hold what
  the host operations left in them.
-/
import proofs.«410525_j11055245820322_2_alg».proof.Proof.Gen.KernelIdeal.Launch
import proofs.«410525_j11055245820322_2_alg».proof.Proof.Gen.KernelIdeal.Skeleton
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.ValueIdx
import proofs.«410525_j11055245820322_2_alg».proof.Proof.KernelIdealBase
import proofs.«410525_j11055245820322_2_alg».proof.Proof.KernelIdealSetup
import Idealize.ShloMosaic.Lib.Pipeline.Value
import Idealize.ShloMosaic.Lib.StableHlo.Run
set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The output window's index map, decided over the grid: at point `t` the block index is `(t, 0)`, and the grid's one
    coordinate at point `t` is `t`. -/
theorem idx_facts : ∀ t : Fin grid0.N, cc0_transform_1 (grid0.coords t) 0 = t.val ∧ cc0_transform_1 (grid0.coords t) 1 = 0
    ∧ (grid0.coords t 0).val = t.val := by decide +kernel

/-- The block `outBlk` at grid coordinates `g`, at the block's entry `y`, is the row table's row `table[r]` at column `ch` for
    any array index `i = (r, ch)` with `r = 128 · g + ` the entry's row and `ch` the entry's column. -/
theorem outBlk_at {α : Type} (pf : S16384.Idx → BitVec 32) (fh : S2097152x1x128.Idx → α) (g : grid0.Coords) (y : S128x128.Idx)
    (i : S16384x128.Idx) (h0 : (i 0).val = 128 * (g 0).val + (y 0).val) (h1 : (i 1).val = (y 1).val) :
    outBlk pf fh g y = fh (ix3 (⟨(pf (ix1 (i 0))).toNat % 2097152, Nat.mod_lt _ (by decide)⟩ : Fin 2097152) (0 : Fin 1) (i 1)) := by
  unfold outBlk wordAt
  exact congrArg₂ (fun (a : Fin 16384) (b : Fin 128) =>
      fh (ix3 (⟨(pf (ix1 a)).toNat % 2097152, Nat.mod_lt _ (by decide)⟩ : Fin 2097152) (0 : Fin 1) b))
    (Fin.ext h0.symm) (Fin.ext h1.symm)

/-- Every grid point writes its block back: the block index changes from each point to the next. -/
theorem flush_all (t : Fin (cfgM m).N) : ((cfgM m).win 0).flush t = true := by
  rw [Pipeline.Window.flush_out _ rfl]
  have hN : grid0.N = 128 := N_0
  have htl : t.val < grid0.N := t.isLt
  by_cases h : t.val + 1 = grid0.N
  · exact .inl h
  · have ht : t.val + 1 < grid0.N := by omega
    refine .inr ⟨ht, fun e => ?_⟩
    have e0 : cc0_transform_1 (grid0.coords ⟨t.val + 1, ht⟩) 0 = cc0_transform_1 (grid0.coords t) 0 := congrFun e (0 : Fin 2)
    rw [(idx_facts ⟨t.val + 1, ht⟩).1, (idx_facts t).1] at e0
    exact absurd e0 (by show t.val + 1 ≠ t.val; omega)

/-- What grid point `t` writes back is block `t` of the whole-array function `finalOut`. -/
theorem flushed_eq (c : Dev nD) (t : Fin (cfgM m).N) :
    (dats m 0 c).flushed 0 t = (((cfgM m).win 0).blk t).view.read (Elt F) (finalOut m c) := by
  obtain ⟨e0, e1, e2⟩ := idx_facts t
  funext y
  show outBlk (V m c main_v13) (V m c main_v15) (grid0.coords t) (((cfgM m).win 0).xinj (grid0.coords t) y)
    = finalOut m c ((((cfgM m).win 0).blk t).view.emb y)
  refine outBlk_at _ _ _ _ _ ?_ ?_
  · show cc0_transform_1 (grid0.coords t) 0 * 128 + 1 * (y (0 : Fin 2)).val = 128 * (grid0.coords t 0).val + (y (0 : Fin 2)).val
    rw [e0, e2]; omega
  · show cc0_transform_1 (grid0.coords t) 1 * 128 + 1 * (y (1 : Fin 2)).val = (y (1 : Fin 2)).val
    rw [e1]; omega

/-- An index of the array is in point `t`'s block iff each coordinate is in the block's range on its axis. -/
theorem mem_blk (t : Fin (cfgM m).N) (i : S16384x128.Idx) :
    i ∈ (((cfgM m).win 0).blk t).view.set ↔ ∀ a : Fin 2, cc0_transform_1 (grid0.coords t) a * S128x128.size a ≤ (i a).val
      ∧ (i a).val < cc0_transform_1 (grid0.coords t) a * S128x128.size a + S128x128.size a := by
  refine Iff.trans (Eq.to_iff (congrArg (fun s => i ∈ s) (View.set_slice_whole main_v16 (((cfgM m).win 0).rect t)))) ?_
  exact Rect.mem_set_unit

/-- Row `r` of the array is in the block of grid point `r / 128`. -/
theorem cover (i : S16384x128.Idx) :
    ∃ t : Fin (cfgM m).N, ((cfgM m).win 0).flush t = true ∧ i ∈ (((cfgM m).win 0).blk t).view.set := by
  have hN : grid0.N = 128 := N_0
  have hi0 : (i 0).val < 16384 := (i 0).isLt
  have hi1 : (i 1).val < 128 := (i 1).isLt
  have ht : (i 0).val / 128 < grid0.N := by omega
  obtain ⟨e0, e1, e2⟩ := idx_facts ⟨(i 0).val / 128, ht⟩
  refine ⟨⟨(i 0).val / 128, ht⟩, flush_all m _, ?_⟩
  rw [mem_blk]
  intro a
  match a with
  | ⟨0, _⟩ =>
    show cc0_transform_1 (grid0.coords ⟨(i 0).val / 128, ht⟩) 0 * 128 ≤ (i 0).val
      ∧ (i 0).val < cc0_transform_1 (grid0.coords ⟨(i 0).val / 128, ht⟩) 0 * 128 + 128
    rw [e0]; show (i 0).val / 128 * 128 ≤ (i 0).val ∧ (i 0).val < (i 0).val / 128 * 128 + 128; omega
  | ⟨1, _⟩ =>
    show cc0_transform_1 (grid0.coords ⟨(i 0).val / 128, ht⟩) 1 * 128 ≤ (i 1).val
      ∧ (i 1).val < cc0_transform_1 (grid0.coords ⟨(i 0).val / 128, ht⟩) 1 * 128 + 128
    rw [e1]; omega

/-- The output array after the run is `finalOut`: the 128 blocks of 128 rows tile its 16384 rows. -/
theorem final_eq (c : Dev nD) : (dats m 0 c).arrAt 0 (cfgM m).N = finalOut m c :=
  (dats m 0 c).arrAt_eq_of_cover 0 (finalOut m c) (fun t _ => flushed_eq m c t) (cover m)

/-- The scalar result after the host operation that follows the region: the constant it writes. -/
theorem tail_c_1 (c : Dev nD) :
    Pipeline.afterTail pcfgs (fun _ => adm m) (dats m) 0 (V0 m) [hostOps1] c main_c_1 = constantI S_ 32 16384#32 := by
  unfold Pipeline.afterTail
  show StableHlo.after hostOps1 _ (Proc.devRef .tc main_c_1) = _
  after_results

/-- The first argument after the host operation that follows the region: what was launched. -/
theorem tail_arg0 (c : Dev nD) :
    Pipeline.afterTail pcfgs (fun _ => adm m) (dats m) 0 (V0 m) [hostOps1] c main_arg0 = m ((c.tc : Thread nD τ).loc main_arg0) := by
  unfold Pipeline.afterTail
  show StableHlo.after hostOps1 _ (Proc.devRef .tc main_arg0) = _
  after_results
  rw [Pipeline.withArrays_of_ne _ c (V0 m c) _ main_arg0 (by decide : ∀ w : Fin 1, Pipeline.arrRef spec0 w ≠ main_arg0)]
  show StableHlo.after hostOps0 (fun b => m (c, b)) (Proc.devRef .tc main_arg0) = _
  after_results

/-- The second argument after the host operation that follows the region: what was launched. -/
theorem tail_arg1 (c : Dev nD) :
    Pipeline.afterTail pcfgs (fun _ => adm m) (dats m) 0 (V0 m) [hostOps1] c main_arg1 = m ((c.tc : Thread nD τ).loc main_arg1) := by
  unfold Pipeline.afterTail
  show StableHlo.after hostOps1 _ (Proc.devRef .tc main_arg1) = _
  after_results
  rw [Pipeline.withArrays_of_ne _ c (V0 m c) _ main_arg1 (by decide : ∀ w : Fin 1, Pipeline.arrRef spec0 w ≠ main_arg1)]
  show StableHlo.after hostOps0 (fun b => m (c, b)) (Proc.devRef .tc main_arg1) = _
  after_results

/-- The frame run re-posted: the output array at `finalOut`, the scalar result at its constant, the arguments unchanged. -/
theorem run_value
    (h : θ_run defs (onTc (τ := τ) (main (F := F))) (s₀ m ρ) (Pipeline.FramePost (Pipeline.pin pcfgs fun _ => adm m) (dats m) 0
      (Pipeline.afterTail pcfgs (fun _ => adm m) (dats m) 0 (V0 m) [hostOps1]))) :
    θ_run defs (onTc (τ := τ) (main (F := F))) ⟨m, fun _ => 0, ρ⟩ (fun r => ∀ c : Dev nD,
      r.2.mem ((c.tc : Thread nD τ).loc main_v16) = finalOut m c
      ∧ r.2.mem ((c.tc : Thread nD τ).loc main_c_1) = constantI S_ 32 16384#32
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 0).trans (final_eq m c),
      ((h c).2 main_c_1 (by decide : main_c_1 ∈ Pipeline.restRefs sig spec0)).trans (tail_c_1 m c),
      ((h c).2 main_arg0 (by decide : main_arg0 ∈ Pipeline.restRefs sig spec0)).trans (tail_arg0 m c),
      ((h c).2 main_arg1 (by decide : main_arg1 ∈ Pipeline.restRefs sig spec0)).trans (tail_arg1 m c)⟩) h

end Cert.KernelIdeal.Hand

end
-- ==== Proof.KernelBase.lean ====
/-
  What the kernel region is handed and what it leaves, named once.

  The region finds the flat index table (`main_v13`, prefetched into scalar memory: one word per output row)
  and the channel-last row table (`main_v15`, left in HBM: row `r` is the 128 channels of one pixel). At grid
  point `i` the body copies, for `k = 0 … 127`, row `table[128·i + k]` of the row table into row `k` of its scratch
  buffer, each copy on a semaphore of its own, waits for all of them and stores the scratch into the output block.
  So the output block at point `i` holds, at (k, ch), the row table's entry (table[128·i + k], 0, ch): `outBlk`.
-/
import proofs.«410525_j11055245820322_2_alg».proof.Proof.Gen.Kernel.Launch
import proofs.«410525_j11055245820322_2_alg».proof.Proof.Gen.Kernel.Skeleton
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.ValueIdx

set_option maxRecDepth 16384

noncomputable section

namespace Cert.Kernel.Hand

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The table, the row table and the scratch buffer as the body is handed them: whole buffers. -/
abbrev tbM : Memref sig .tc .smem S16384 .i32 := Memref.whole main_v13
abbrev hbM : Memref sig .tc .hbm S2097152x1x128 .f32 := Memref.whole main_v15
abbrev scM : Memref sig .tc .vmem S128x1x128 .f32 := Memref.whole cc0_scratch0

/-- A memref's buffer on core `c`: its contents type; the buffer held whole at a share; a memref's own elements held. -/
abbrev MBuf (c : Dev nD) {sp : Space} {S : Shape} {e : EltTy} (M : Memref sig .tc sp S e) : Type := Buf (Elt F) (M.view.loc (c : Thread nD τ))
abbrev mPt (c : Dev nD) {sp : Space} {S : Shape} {e : EltTy} (M : Memref sig .tc sp S e) (q : PosShare TreeShare) (f : MBuf (F := F) c M) : sProp 𝕄 :=
  M.view.loc (c : Thread nD τ) ↦{q} f
abbrev mOwn (c : Dev nD) {sp : Space} {S : Shape} {e : EltTy} (M : Memref sig .tc sp S e) (f : MBuf (F := F) c M) : sProp 𝕄 :=
  M.view.loc (c : Thread nD τ) ↦[M.view.set]{fullShare} f

/-- The body's own DMA semaphores: cell `k` of its semaphore array is semaphore `2 + k` of the pool. -/
abbrev osem0 : Fin 128 → SemLoc sig := fun k => SemLoc.dma ⟨2 + k.val, by have := k.isLt; show 2 + k.val < 130; omega⟩

/-- Every word of the table is a row of the row table. -/
def TblOk (pf : S16384.Idx → BitVec 32) : Prop := ∀ n : Fin 16384, (pf (ix1 n)).toNat < 2097152

/-- The table word the `k`-th copy of grid point `i` reads. -/
def wordAt (pf : S16384.Idx → BitVec 32) (i : grid0.Coords) (k : Fin 128) : BitVec 32 :=
  pf (ix1 (⟨128 * (i 0).val + k.val, by have h0 : (i 0).val < 128 := (i 0).isLt; have := k.isLt; omega⟩ : Fin 16384))

/-- What the body leaves in the output block at grid point `i`: entry (k, ch) is the row table's entry
    (table[128·i + k], 0, ch). (The row number is reduced modulo the table's length, which changes nothing for a word in
    range and keeps the definition total.) -/
def outBlk {α : Type} (pf : S16384.Idx → BitVec 32) (fh : S2097152x1x128.Idx → α) (i : grid0.Coords) : S128x128.Idx → α :=
  fun j => fh (ix3 (⟨(wordAt pf i (j 0)).toNat % 2097152, Nat.mod_lt _ (by decide)⟩ : Fin 2097152) (0 : Fin 1) (j 1))

variable (m : (ℓ : Loc nD τ sig) → Buf (Elt F) ℓ)

/-- Core `c`'s TensorCore buffer contents when the region is entered, as a valuation: after the host operations before
    the region; and the same read at a TensorCore reference. -/
abbrev V0 (c : Dev nD) : Valuation τ sig (Elt F) := StableHlo.after (List.flatten [hostOps0]) (fun b => m (c, b))
abbrev V (c : Dev nD) (b : Ref sig .tc) : Buf (Elt F) ((c : Thread nD τ).loc b) := V0 m c (Proc.devRef .tc b)

end Cert.Kernel.Hand

end
-- ==== Proof.KernelSetup.lean ====
/-
  The pipeline of the one region at the table the host operations computed, and the proof data of its frame run.
-/
import proofs.«410525_j11055245820322_2_alg».proof.Proof.Gen.Kernel.Launch
import proofs.«410525_j11055245820322_2_alg».proof.Proof.Gen.Kernel.Skeleton
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.ValueIdx
import proofs.«410525_j11055245820322_2_alg».proof.Proof.KernelBase
set_option maxRecDepth 16384

noncomputable section

namespace Cert.Kernel.Hand

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The prefetched table's contents when the region is entered (there is one device). -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl

/-- The table's contents as admissible contents (the pipeline's side condition on them is empty: no index map reads the
    table), and the pipeline at them. -/
abbrev adm : (pcfg0 (F := F)).Adm := ⟨tbl m, trivial⟩
abbrev cfgM : Pipeline.Cfg sig Λ₀ := cfg0 (adm m)

/-- The row table is the one unscoped buffer the body moves itself. -/
def H0 : Finset (Ref sig .tc) := {main_v15}

/-- The frame's hypothesis: on every core, every word of the table the host operations computed is a row of the row
    table. The certificate's precondition implies it. -/
def Hyps : Prop := ∀ c : Dev nD, TblOk (V m c main_v13)

/-- The proof data of the pipeline on core `c`: the output array as the region finds it; after the body at point `t` the
    output block's staging buffer at `outBlk` of the table and the row table; the invariant: the scratch buffer at some
    contents, the generator register, the 128 own cells at zero, the row table whole at its region-entry contents, and half
    of the table; nothing owed; full shares. -/
def dats (_ : Fin 1) (c : Dev nD) : Dat τ (Elt F) Unit ℕ (Pipeline.UD sig nD τ) ℕ (cfgM m) c where
  A w := V m c (Pipeline.arrRef spec0 w)
  after w t := match w with
    | ⟨0, _⟩ => outBlk (V m c main_v13) (V m c main_v15) (grid0.coords t)
  Φ _ := iprop(Pipeline.ΦD osem0 spec0 H0 (V m) c ∗ Pipeline.ΦT pre0 (tbl m) c)
  q _ := fullShare
  owed _ := 0

/-- What the output array holds when the program ends: row `n` is the row table's row `table[n]`. -/
def finalOut (c : Dev nD) : S16384x128.Idx → Elt F .f32 :=
  fun j => V m c main_v15 (ix3 (⟨(V m c main_v13 (ix1 (j 0))).toNat % 2097152, Nat.mod_lt _ (by decide)⟩ : Fin 2097152) (0 : Fin 1) (j 1))

end Cert.Kernel.Hand

end
-- ==== Proof.KernelHost.lean ====
/-
  What the kernel program's host operations hand its region, read at an index, and what the precondition says.

  Before the region the program computes, from the point table `pts : [8, 2048, 2]`, the flat row number of every
  point, `(b · 512 + y) · 512 + x` as 32-bit words, reshaped to one table of 16384 words (`flatTbl`); and from the
  image batch `img : [8, 128, 512, 512]` the channel-last row table `[8 · 512 · 512, 1, 128]`, whose row
  `r = (b · 512 + y) · 512 + x` holds the 128 channels of pixel (y, x) of image `b`. The arguments themselves are
  untouched. Under the range condition on the coordinates the 32-bit arithmetic does not wrap (the row number is
  below 2²¹), so the table's words are the specification's flat row numbers. The printed precondition's second
  conjunct is that range condition.
-/
import proofs.«410525_j11055245820322_2_alg».proof.Proof.Gen.Kernel.Launch
import proofs.«410525_j11055245820322_2_alg».proof.Proof.Gen.Kernel.Skeleton
import proofs.«410525_j11055245820322_2_alg».proof.Proof.KernelBase
import proofs.«410525_j11055245820322_2_alg».proof.Proof.Spec
import proofs.«410525_j11055245820322_2_alg».proof.Pre_finite_inputs
import proofs.«410525_j11055245820322_2_alg».proof.Proof.Gen.Pre_finite_inputs
import Idealize.ShloMosaic.Lib.Pipeline.FrameBody
import Idealize.ShloMosaic.Lib.Pipeline.FrameSuffix
import Idealize.ShloMosaic.Lib.Pipeline.Value
import Idealize.ShloMosaic.Lib.StableHlo.Run
import Idealize.ShloMosaic.Lib.StableHlo.Predicate
import Idealize.ShloMosaic.Lib.ReduceAll
import Idealize.ShloMosaic.Lib.Ring
import Idealize.ShloMosaic.Lib.Tactic
import Idealize.ShloMosaic.Lib.ValueIdx
import Idealize.ShloMosaic.Lib.ValueLayout

set_option maxRecDepth 16384

noncomputable section

namespace Cert.Kernel.Hand

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The table and the row table as terms of the arguments -/

/-- The column words `x` and the row words `y` of the points, as `[8, 2048]` arrays: the point table's two slices along its
    last axis, the unit axis dropped. -/
def xOf (pts : IVec S8x2048x2 32) : IVec S8x2048 32 :=
  shapeCast S8x2048 (extractStridedSlice S8x2048x1 ![0, 0, 0] pts Gen.slices_S8x2048x2_S8x2048x1_0_0_0) Gen.shapeCasts_S8x2048x1_S8x2048
def yOf (pts : IVec S8x2048x2 32) : IVec S8x2048 32 :=
  shapeCast S8x2048 (extractStridedSlice S8x2048x1 ![0, 0, 1] pts Gen.slices_S8x2048x2_S8x2048x1_0_0_1) Gen.shapeCasts_S8x2048x1_S8x2048

/-- The image number of every point (an iota over the images, copied along the points), and the word 512 everywhere. -/
def imgIdx : IVec S8x2048 32 :=
  broadcastInDim S8x2048 ![0, 1] Gen.bcast_S8x1_S8x2048_0_1 (broadcastInDim S8x1 ![0] Gen.bcast_S8_S8x1_0 (iotaInDim S8 32 0))
def c512 : IVec S8x2048 32 := broadcastInDim S8x2048 ![] Gen.bcast_S_S8x2048 (constantI S_ 32 512#32)

/-- The flat row number of every point, `(b · 512 + y) · 512 + x` in 32-bit words, over `[8, 2048]`. -/
def flat2 (pts : IVec S8x2048x2 32) : IVec S8x2048 32 :=
  addi (muli (addi (muli imgIdx c512) (yOf pts)) c512) (xOf pts)

/-- The flat row numbers as one table of 16384 words: what the host operations before the region compute. -/
def flatTbl (pts : IVec S8x2048x2 32) : IVec S16384 32 := shapeCast S16384 (flat2 pts) Gen.shapeCasts_S8x2048_S16384

/-- The channel-last row table: the image batch with the channel axis moved last, reshaped to one row per pixel. -/
def rowsTbl {α : Type} (img : S8x128x512x512.Idx → α) : S2097152x1x128.Idx → α :=
  shapeCast S2097152x1x128
    (transpose S8x512x512x128 [0, 2, 3, 1] img Gen.transposes_S8x128x512x512_S8x512x512x128_0_2_3_1)
    Gen.shapeCasts_S8x512x512x128_S2097152x1x128

section Launch
variable (m : (ℓ : Loc nD τ sig) → Buf (Elt F) ℓ)

/-- No host operation writes an argument. -/
theorem V_main_arg0 (c : Dev nD) : V m c main_arg0 = m ((c : Thread nD τ).loc main_arg0) := by
  dsimp only [V, V0]
  simp only [hostOps0, List.flatten_cons, List.flatten_nil, List.append_nil]
  after_results

theorem V_main_arg1 (c : Dev nD) : V m c main_arg1 = m ((c : Thread nD τ).loc main_arg1) := by
  dsimp only [V, V0]
  simp only [hostOps0, List.flatten_cons, List.flatten_nil, List.append_nil]
  after_results

/-- The prefetched table is the flat row numbers of the point table. -/
theorem V_tbl (c : Dev nD) : V m c main_v13 = flatTbl (m ((c : Thread nD τ).loc main_arg1)) := by
  dsimp only [V, V0]
  simp only [hostOps0, List.flatten_cons, List.flatten_nil, List.append_nil]
  after_results
  rfl

/-- The row table the region reads is the channel-last relayout of the image batch. -/
theorem V_rows (c : Dev nD) : V m c main_v15 = rowsTbl (m ((c : Thread nD τ).loc main_arg0)) := by
  dsimp only [V, V0]
  simp only [hostOps0, List.flatten_cons, List.flatten_nil, List.append_nil]
  after_results
  rfl

end Launch

/-! ## The table's words are the specification's flat row numbers -/

/-- A point's column word: the point table at component 0. -/
theorem xOf_apply (pts : IVec S8x2048x2 32) (b : Fin 8) (q : Fin 2048) : xOf pts (ix2 b q) = pts (ix3 b q (0 : Fin 2)) := by
  unfold xOf
  refine (shapeCast_apply _ Gen.shapeCasts_S8x2048x1_S8x2048 (ix2 b q) (ix3 b q (0 : Fin 1)) ?_).trans ?_
  · rw [Shape.rowMajor_val_three, Shape.rowMajor_val_two]
    show (b.val * 2048 + q.val) * 1 + 0 = b.val * 2048 + q.val
    omega
  · refine extractStridedSlice_apply _ pts Gen.slices_S8x2048x2_S8x2048x1_0_0_0 (ix3 b q (0 : Fin 1)) (ix3 b q (0 : Fin 2)) fun a => ?_
    match a with
    | ⟨0, _⟩ => show b.val = 0 + b.val; omega
    | ⟨1, _⟩ => show q.val = 0 + q.val; omega
    | ⟨2, _⟩ => show 0 = 0 + 0; omega

/-- A point's row word: the point table at component 1. -/
theorem yOf_apply (pts : IVec S8x2048x2 32) (b : Fin 8) (q : Fin 2048) : yOf pts (ix2 b q) = pts (ix3 b q (1 : Fin 2)) := by
  unfold yOf
  refine (shapeCast_apply _ Gen.shapeCasts_S8x2048x1_S8x2048 (ix2 b q) (ix3 b q (0 : Fin 1)) ?_).trans ?_
  · rw [Shape.rowMajor_val_three, Shape.rowMajor_val_two]
    show (b.val * 2048 + q.val) * 1 + 0 = b.val * 2048 + q.val
    omega
  · refine extractStridedSlice_apply _ pts Gen.slices_S8x2048x2_S8x2048x1_0_0_1 (ix3 b q (0 : Fin 1)) (ix3 b q (1 : Fin 2)) fun a => ?_
    match a with
    | ⟨0, _⟩ => show b.val = 0 + b.val; omega
    | ⟨1, _⟩ => show q.val = 0 + q.val; omega
    | ⟨2, _⟩ => show 1 = 1 + 0; omega

/-- A point's image number, as a word. -/
theorem imgIdx_apply (b : Fin 8) (q : Fin 2048) : imgIdx (ix2 b q) = BitVec.ofNat 32 b.val := by
  unfold imgIdx
  refine (broadcastInDim_apply _ Gen.bcast_S8x1_S8x2048_0_1 _ (ix2 b q) (ix2 b (0 : Fin 1)) fun a => ?_).trans ?_
  · match a with
    | ⟨0, _⟩ => rfl
    | ⟨1, _⟩ => rfl
  · refine (broadcastInDim_apply _ Gen.bcast_S8_S8x1_0 _ (ix2 b (0 : Fin 1)) (ix1 b) fun a => ?_).trans rfl
    match a with
    | ⟨0, _⟩ => rfl

theorem c512_apply (j : S8x2048.Idx) : c512 j = 512#32 := rfl

/-- The flat row number of point `q` of image `b`, in words. -/
theorem flat2_apply (pts : IVec S8x2048x2 32) (b : Fin 8) (q : Fin 2048) :
    flat2 pts (ix2 b q)
      = (BitVec.ofNat 32 b.val * 512#32 + pts (ix3 b q (1 : Fin 2))) * 512#32 + pts (ix3 b q (0 : Fin 2)) := by
  show IntOp.addi (IntOp.muli (IntOp.addi (IntOp.muli (imgIdx (ix2 b q)) (c512 (ix2 b q))) (yOf pts (ix2 b q))) (c512 (ix2 b q))) (xOf pts (ix2 b q)) = _
  rw [imgIdx_apply, c512_apply, yOf_apply, xOf_apply]
  rfl

/-- Word `n` of the table is the flat row number of point `n % 2048` of image `n / 2048`. -/
theorem flatTbl_word (pts : IVec S8x2048x2 32) (n : Fin 16384) :
    flatTbl pts (ix1 n)
      = (BitVec.ofNat 32 (Cert.Spec.imgOf n).val * 512#32 + pts (ix3 (Cert.Spec.imgOf n) (Cert.Spec.ptOf n) (1 : Fin 2))) * 512#32
          + pts (ix3 (Cert.Spec.imgOf n) (Cert.Spec.ptOf n) (0 : Fin 2)) := by
  unfold flatTbl
  refine (shapeCast_apply _ Gen.shapeCasts_S8x2048_S16384 (ix1 n) (ix2 (Cert.Spec.imgOf n) (Cert.Spec.ptOf n)) ?_).trans (flat2_apply pts _ _)
  rw [Shape.rowMajor_val_two, Shape.rowMajor_val_one]
  show n.val / 2048 * 2048 + n.val % 2048 = n.val
  omega

/-- With every coordinate below 512 the 32-bit arithmetic does not wrap (the row number is below 2²¹), and the table's word
    is the specification's flat row number. -/
theorem flatTbl_apply (pts : IVec S8x2048x2 32) (h : Cert.Spec.InRange pts) (n : Fin 16384) :
    (flatTbl pts (ix1 n)).toNat = Cert.Spec.flatOf pts n := by
  have hy : (pts (ix3 (Cert.Spec.imgOf n) (Cert.Spec.ptOf n) (1 : Fin 2))).toNat < 512 := h _
  have hx : (pts (ix3 (Cert.Spec.imgOf n) (Cert.Spec.ptOf n) (0 : Fin 2))).toNat < 512 := h _
  have hb : (Cert.Spec.imgOf n).val < 8 := (Cert.Spec.imgOf n).isLt
  rw [flatTbl_word]
  unfold Cert.Spec.flatOf Cert.Spec.rowOf Cert.Spec.colOf
  simp only [BitVec.toNat_add, BitVec.toNat_mul, BitVec.toNat_ofNat]
  generalize (pts (ix3 (Cert.Spec.imgOf n) (Cert.Spec.ptOf n) (1 : Fin 2))).toNat = y at hy ⊢
  generalize (pts (ix3 (Cert.Spec.imgOf n) (Cert.Spec.ptOf n) (0 : Fin 2))).toNat = x at hx ⊢
  generalize (Cert.Spec.imgOf n).val = b at hb ⊢
  omega

/-- Under the range condition every word of the table is a row of the row table. -/
theorem tblOk_of_inRange (pts : IVec S8x2048x2 32) (h : Cert.Spec.InRange pts) : TblOk (flatTbl pts) := fun n => by
  rw [flatTbl_apply pts h n]
  exact Cert.Spec.flatOf_lt pts n

/-! ## The row table read at an index -/

/-- Row `r = (b · 512 + y) · 512 + x` of the channel-last table holds, at channel `ch`, the image batch at (b, ch, y, x). -/
theorem rowsTbl_apply {α : Type} (img : S8x128x512x512.Idx → α) (r : Fin 2097152) (ch : Fin 128) :
    rowsTbl img (ix3 r (0 : Fin 1) ch)
      = img (ix4 (⟨r.val / 262144, by have := r.isLt; omega⟩ : Fin 8) ch
          (⟨(r.val / 512) % 512, Nat.mod_lt _ (by decide)⟩ : Fin 512) (⟨r.val % 512, Nat.mod_lt _ (by decide)⟩ : Fin 512)) := by
  unfold rowsTbl
  refine (shapeCast_apply _ Gen.shapeCasts_S8x512x512x128_S2097152x1x128 (ix3 r (0 : Fin 1) ch)
    (ix4 (⟨r.val / 262144, by have := r.isLt; omega⟩ : Fin 8) (⟨(r.val / 512) % 512, Nat.mod_lt _ (by decide)⟩ : Fin 512)
      (⟨r.val % 512, Nat.mod_lt _ (by decide)⟩ : Fin 512) ch) ?_).trans ?_
  · rw [Shape.rowMajor_val_four, Shape.rowMajor_val_three]
    show ((r.val / 262144 * 512 + r.val / 512 % 512) * 512 + r.val % 512) * 128 + ch.val = (r.val * 1 + 0) * 128 + ch.val
    omega
  · refine transpose_apply _ img Gen.transposes_S8x128x512x512_S8x512x512x128_0_2_3_1 _ _ fun a => ?_
    match a with
    | ⟨0, _⟩ => rfl
    | ⟨1, _⟩ => rfl
    | ⟨2, _⟩ => rfl
    | ⟨3, _⟩ => rfl

/-- The row table the region reads, at (r, 0, ch): the image batch's pixel (r / 512 % 512, r % 512) of image r / 512², channel ch. -/
theorem V_rows_apply (m : (ℓ : Loc nD τ sig) → Buf (Elt F) ℓ) (c : Dev nD) (r : Fin 2097152) (ch : Fin 128) :
    V m c main_v15 (ix3 r (0 : Fin 1) ch)
      = (m ((c : Thread nD τ).loc main_arg0)) (ix4 (⟨r.val / 262144, by have := r.isLt; omega⟩ : Fin 8) ch
          (⟨(r.val / 512) % 512, Nat.mod_lt _ (by decide)⟩ : Fin 512) (⟨r.val % 512, Nat.mod_lt _ (by decide)⟩ : Fin 512)) := by
  rw [V_rows]
  exact rowsTbl_apply _ r ch

/-! ## The precondition's range condition -/

/-- The printed precondition's second conjunct: every coordinate word is at least 0 and below 512, read signed; such a word is
    below 512 read unsigned. -/
theorem inRange_of_pre (x : FVec F Cert.Pre_finite_inputs.S8x128x512x512 .f32) (p : IVec Cert.Pre_finite_inputs.S8x2048x2 32)
    (h : Cert.Pre_finite_inputs.fn (F := F) x p = fun _ => 1#1) : Cert.Spec.InRange p := by
  intro i
  haveI : Subsingleton Cert.Pre_finite_inputs.S_.Idx := ⟨fun a b => funext fun d => d.elim0⟩
  have h0 := congrFun h ValueIdx.ix0
  dsimp only [Cert.Pre_finite_inputs.fn] at h0
  obtain ⟨-, h2⟩ := IntOp.andi_eq_one.1 h0
  have h3 := Host.reduce_andi_all _ _ _ _ ValueIdx.ix0 h2 i
  obtain ⟨hge, hlt⟩ := IntOp.andi_eq_one.1 h3
  have hnn : 2 * (p i).toNat < 2 ^ 32 := (Scalar.nonneg_iff (p i)).1 hge
  have hlt' : (p i).toNat < (512#32 : BitVec 32).toNat :=
    (StableHlo.Predicate.slt_iff_toNat (by omega) (by decide)).1 hlt
  exact hlt'

end Cert.Kernel.Hand

end
-- ==== Proof.KernelBridge.lean ====
/-
  From the range condition on the point table to what the frame run needs and what the program leaves.

  The frame's hypothesis (every word of the table is a row of the row table) follows from the range condition, which the
  printed precondition states. And under it the output array the program leaves, row `n` = the row table's row
  `table[n]`, is the specification's gather: the table's word is the flat row number `r = (b · 512 + y) · 512 + x` of point
  `n`, below 8 · 512 · 512, and row `r` of the channel-last table holds the channels of pixel (y, x) of image `b`, because
  `r / 512² = b`, `r / 512 % 512 = y` and `r % 512 = x` for `y, x < 512`.
-/
import proofs.«410525_j11055245820322_2_alg».proof.Proof.Gen.Kernel.Launch
import proofs.«410525_j11055245820322_2_alg».proof.Proof.Gen.Kernel.Skeleton
import proofs.«410525_j11055245820322_2_alg».proof.Proof.KernelBase
import proofs.«410525_j11055245820322_2_alg».proof.Proof.KernelSetup
import proofs.«410525_j11055245820322_2_alg».proof.Proof.KernelHost
import proofs.«410525_j11055245820322_2_alg».proof.Proof.Spec
import proofs.«410525_j11055245820322_2_alg».proof.Pre_finite_inputs
import proofs.«410525_j11055245820322_2_alg».proof.Proof.Gen.Pre_finite_inputs
import Idealize.ShloMosaic.Lib.Pipeline.FrameBody
import Idealize.ShloMosaic.Lib.Pipeline.FrameSuffix
import Idealize.ShloMosaic.Lib.Pipeline.Value
import Idealize.ShloMosaic.Lib.StableHlo.Run
import Idealize.ShloMosaic.Lib.StableHlo.Predicate
import Idealize.ShloMosaic.Lib.ReduceAll
import Idealize.ShloMosaic.Lib.Ring
import Idealize.ShloMosaic.Lib.Tactic
import Idealize.ShloMosaic.Lib.ValueIdx
import Idealize.ShloMosaic.Lib.ValueLayout

set_option maxRecDepth 16384

noncomputable section

namespace Cert.Kernel.Hand

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The flat row number taken apart -/

theorem flatOf_div (pts : IVec S8x2048x2 32) (n : Fin 16384) : Cert.Spec.flatOf pts n / 262144 = (Cert.Spec.imgOf n).val := by
  unfold Cert.Spec.flatOf
  have h2 := (Cert.Spec.rowOf pts n).isLt; have h3 := (Cert.Spec.colOf pts n).isLt
  omega
theorem flatOf_row (pts : IVec S8x2048x2 32) (n : Fin 16384) : Cert.Spec.flatOf pts n / 512 % 512 = (Cert.Spec.rowOf pts n).val := by
  unfold Cert.Spec.flatOf
  have h2 := (Cert.Spec.rowOf pts n).isLt; have h3 := (Cert.Spec.colOf pts n).isLt
  omega
theorem flatOf_col (pts : IVec S8x2048x2 32) (n : Fin 16384) : Cert.Spec.flatOf pts n % 512 = (Cert.Spec.colOf pts n).val := by
  unfold Cert.Spec.flatOf
  have h2 := (Cert.Spec.rowOf pts n).isLt; have h3 := (Cert.Spec.colOf pts n).isLt
  omega

/-- The channel-last table's row at a point's flat row number holds that point's pixel. -/
theorem rowsTbl_flatOf {α : Type} (img : S8x128x512x512.Idx → α) (pts : IVec S8x2048x2 32) (n : Fin 16384) (ch : Fin 128) :
    rowsTbl img (ix3 (⟨Cert.Spec.flatOf pts n, Cert.Spec.flatOf_lt pts n⟩ : Fin 2097152) (0 : Fin 1) ch)
      = img (ix4 (Cert.Spec.imgOf n) ch (Cert.Spec.rowOf pts n) (Cert.Spec.colOf pts n)) := by
  rw [rowsTbl_apply]
  congr 1
  funext a
  match a with
  | ⟨0, _⟩ => exact Fin.ext (flatOf_div pts n)
  | ⟨1, _⟩ => rfl
  | ⟨2, _⟩ => exact Fin.ext (flatOf_row pts n)
  | ⟨3, _⟩ => exact Fin.ext (flatOf_col pts n)

section Launch
variable (m : (ℓ : Loc nD τ sig) → Buf (Elt F) ℓ)

/-! ## The frame's hypothesis -/

/-- Under the range condition every word of the prefetched table is a row of the row table. -/
theorem hyps_of_inRange (h : ∀ c : Dev nD, Cert.Spec.InRange (m ((c : Thread nD τ).loc main_arg1))) : Hyps m := fun c => by
  rw [V_tbl]
  exact tblOk_of_inRange _ (h c)

/-- The printed precondition gives the range condition on every device … -/
theorem inRange_of_pre'
    (h : ∀ c : Dev nD, Cert.Pre_finite_inputs.fn (F := F) (m ((c : Thread nD τ).loc main_arg0)) (m ((c : Thread nD τ).loc main_arg1)) = fun _ => 1#1)
    (c : Dev nD) : Cert.Spec.InRange (m ((c : Thread nD τ).loc main_arg1)) :=
  inRange_of_pre _ _ (h c)

/-- … and so the frame's hypothesis. -/
theorem hyps_of_pre
    (h : ∀ c : Dev nD, Cert.Pre_finite_inputs.fn (F := F) (m ((c : Thread nD τ).loc main_arg0)) (m ((c : Thread nD τ).loc main_arg1)) = fun _ => 1#1) :
    Hyps m :=
  hyps_of_inRange m (inRange_of_pre' m h)

/-! ## What the program leaves is the specification's gather -/

theorem finalOut_eq (c : Dev nD) (h : Cert.Spec.InRange (m ((c : Thread nD τ).loc main_arg1))) :
    finalOut m c = Cert.Spec.gatherPix (m ((c : Thread nD τ).loc main_arg0)) (m ((c : Thread nD τ).loc main_arg1)) := by
  funext j
  obtain ⟨n, ch, rfl⟩ : ∃ (n : Fin 16384) (ch : Fin 128), j = ix2 n ch := ⟨j 0, j 1, eq_ix2 j⟩
  have hr : (⟨(V m c main_v13 (ix1 n)).toNat % 2097152, Nat.mod_lt _ (by decide)⟩ : Fin 2097152)
      = ⟨Cert.Spec.flatOf (m ((c : Thread nD τ).loc main_arg1)) n, Cert.Spec.flatOf_lt _ n⟩ := by
    apply Fin.ext
    show (V m c main_v13 (ix1 n)).toNat % 2097152 = Cert.Spec.flatOf (m ((c : Thread nD τ).loc main_arg1)) n
    rw [V_tbl, flatTbl_apply _ h n]
    exact Nat.mod_eq_of_lt (Cert.Spec.flatOf_lt _ n)
  show V m c main_v15 (ix3 (⟨(V m c main_v13 (ix1 n)).toNat % 2097152, Nat.mod_lt _ (by decide)⟩ : Fin 2097152) (0 : Fin 1) ch) = _
  rw [hr, V_rows, Cert.Spec.gatherPix_apply]
  exact rowsTbl_flatOf _ _ n ch

end Launch

end Cert.Kernel.Hand

end
-- ==== Proof.KernelTable.lean ====
import proofs.«410525_j11055245820322_2_alg».proof.Proof.KernelBase

set_option maxRecDepth 16384

noncomputable section

namespace Cert.Kernel.Hand

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-! Row k of the scratch buffer, as copy k's destination is spelt. -/
abbrev scRow0 : Memref sig .tc .vmem S1x128 .f32 := (scM.slice (Rect.unit (s := S128x1x128) ![0, 0, 0] S1x1x128.size inb_S128x1x128_S1x1x128_0_0_0) (fun _ => rfl)).squeeze S1x128 squeezes_S1x1x128_S1x128
abbrev scRow1 : Memref sig .tc .vmem S1x128 .f32 := (scM.slice (Rect.unit (s := S128x1x128) ![1, 0, 0] S1x1x128.size inb_S128x1x128_S1x1x128_1_0_0) (fun _ => rfl)).squeeze S1x128 squeezes_S1x1x128_S1x128
abbrev scRow2 : Memref sig .tc .vmem S1x128 .f32 := (scM.slice (Rect.unit (s := S128x1x128) ![2, 0, 0] S1x1x128.size inb_S128x1x128_S1x1x128_2_0_0) (fun _ => rfl)).squeeze S1x128 squeezes_S1x1x128_S1x128
abbrev scRow3 : Memref sig .tc .vmem S1x128 .f32 := (scM.slice (Rect.unit (s := S128x1x128) ![3, 0, 0] S1x1x128.size inb_S128x1x128_S1x1x128_3_0_0) (fun _ => rfl)).squeeze S1x128 squeezes_S1x1x128_S1x128
abbrev scRow4 : Memref sig .tc .vmem S1x128 .f32 := (scM.slice (Rect.unit (s := S128x1x128) ![4, 0, 0] S1x1x128.size inb_S128x1x128_S1x1x128_4_0_0) (fun _ => rfl)).squeeze S1x128 squeezes_S1x1x128_S1x128
abbrev scRow5 : Memref sig .tc .vmem S1x128 .f32 := (scM.slice (Rect.unit (s := S128x1x128) ![5, 0, 0] S1x1x128.size inb_S128x1x128_S1x1x128_5_0_0) (fun _ => rfl)).squeeze S1x128 squeezes_S1x1x128_S1x128
abbrev scRow6 : Memref sig .tc .vmem S1x128 .f32 := (scM.slice (Rect.unit (s := S128x1x128) ![6, 0, 0] S1x1x128.size inb_S128x1x128_S1x1x128_6_0_0) (fun _ => rfl)).squeeze S1x128 squeezes_S1x1x128_S1x128
abbrev scRow7 : Memref sig .tc .vmem S1x128 .f32 := (scM.slice (Rect.unit (s := S128x1x128) ![7, 0, 0] S1x1x128.size inb_S128x1x128_S1x1x128_7_0_0) (fun _ => rfl)).squeeze S1x128 squeezes_S1x1x128_S1x128
abbrev scRow8 : Memref sig .tc .vmem S1x128 .f32 := (scM.slice (Rect.unit (s := S128x1x128) ![8, 0, 0] S1x1x128.size inb_S128x1x128_S1x1x128_8_0_0) (fun _ => rfl)).squeeze S1x128 squeezes_S1x1x128_S1x128
abbrev scRow9 : Memref sig .tc .vmem S1x128 .f32 := (scM.slice (Rect.unit (s := S128x1x128) ![9, 0, 0] S1x1x128.size inb_S128x1x128_S1x1x128_9_0_0) (fun _ => rfl)).squeeze S1x128 squeezes_S1x1x128_S1x128
abbrev scRow10 : Memref sig .tc .vmem S1x128 .f32 := (scM.slice (Rect.unit (s := S128x1x128) ![10, 0, 0] S1x1x128.size inb_S128x1x128_S1x1x128_10_0_0) (fun _ => rfl)).squeeze S1x128 squeezes_S1x1x128_S1x128
abbrev scRow11 : Memref sig .tc .vmem S1x128 .f32 := (scM.slice (Rect.unit (s := S128x1x128) ![11, 0, 0] S1x1x128.size inb_S128x1x128_S1x1x128_11_0_0) (fun _ => rfl)).squeeze S1x128 squeezes_S1x1x128_S1x128
abbrev scRow12 : Memref sig .tc .vmem S1x128 .f32 := (scM.slice (Rect.unit (s := S128x1x128) ![12, 0, 0] S1x1x128.size inb_S128x1x128_S1x1x128_12_0_0) (fun _ => rfl)).squeeze S1x128 squeezes_S1x1x128_S1x128
abbrev scRow13 : Memref sig .tc .vmem S1x128 .f32 := (scM.slice (Rect.unit (s := S128x1x128) ![13, 0, 0] S1x1x128.size inb_S128x1x128_S1x1x128_13_0_0) (fun _ => rfl)).squeeze S1x128 squeezes_S1x1x128_S1x128
abbrev scRow14 : Memref sig .tc .vmem S1x128 .f32 := (scM.slice (Rect.unit (s := S128x1x128) ![14, 0, 0] S1x1x128.size inb_S128x1x128_S1x1x128_14_0_0) (fun _ => rfl)).squeeze S1x128 squeezes_S1x1x128_S1x128
abbrev scRow15 : Memref sig .tc .vmem S1x128 .f32 := (scM.slice (Rect.unit (s := S128x1x128) ![15, 0, 0] S1x1x128.size inb_S128x1x128_S1x1x128_15_0_0) (fun _ => rfl)).squeeze S1x128 squeezes_S1x1x128_S1x128
abbrev scRow16 : Memref sig .tc .vmem S1x128 .f32 := (scM.slice (Rect.unit (s := S128x1x128) ![16, 0, 0] S1x1x128.size inb_S128x1x128_S1x1x128_16_0_0) (fun _ => rfl)).squeeze S1x128 squeezes_S1x1x128_S1x128
abbrev scRow17 : Memref sig .tc .vmem S1x128 .f32 := (scM.slice (Rect.unit (s := S128x1x128) ![17, 0, 0] S1x1x128.size inb_S128x1x128_S1x1x128_17_0_0) (fun _ => rfl)).squeeze S1x128 squeezes_S1x1x128_S1x128
abbrev scRow18 : Memref sig .tc .vmem S1x128 .f32 := (scM.slice (Rect.unit (s := S128x1x128) ![18, 0, 0] S1x1x128.size inb_S128x1x128_S1x1x128_18_0_0) (fun _ => rfl)).squeeze S1x128 squeezes_S1x1x128_S1x128
abbrev scRow19 : Memref sig .tc .vmem S1x128 .f32 := (scM.slice (Rect.unit (s := S128x1x128) ![19, 0, 0] S1x1x128.size inb_S128x1x128_S1x1x128_19_0_0) (fun _ => rfl)).squeeze S1x128 squeezes_S1x1x128_S1x128
abbrev scRow20 : Memref sig .tc .vmem S1x128 .f32 := (scM.slice (Rect.unit (s := S128x1x128) ![20, 0, 0] S1x1x128.size inb_S128x1x128_S1x1x128_20_0_0) (fun _ => rfl)).squeeze S1x128 squeezes_S1x1x128_S1x128
abbrev scRow21 : Memref sig .tc .vmem S1x128 .f32 := (scM.slice (Rect.unit (s := S128x1x128) ![21, 0, 0] S1x1x128.size inb_S128x1x128_S1x1x128_21_0_0) (fun _ => rfl)).squeeze S1x128 squeezes_S1x1x128_S1x128
abbrev scRow22 : Memref sig .tc .vmem S1x128 .f32 := (scM.slice (Rect.unit (s := S128x1x128) ![22, 0, 0] S1x1x128.size inb_S128x1x128_S1x1x128_22_0_0) (fun _ => rfl)).squeeze S1x128 squeezes_S1x1x128_S1x128
abbrev scRow23 : Memref sig .tc .vmem S1x128 .f32 := (scM.slice (Rect.unit (s := S128x1x128) ![23, 0, 0] S1x1x128.size inb_S128x1x128_S1x1x128_23_0_0) (fun _ => rfl)).squeeze S1x128 squeezes_S1x1x128_S1x128
abbrev scRow24 : Memref sig .tc .vmem S1x128 .f32 := (scM.slice (Rect.unit (s := S128x1x128) ![24, 0, 0] S1x1x128.size inb_S128x1x128_S1x1x128_24_0_0) (fun _ => rfl)).squeeze S1x128 squeezes_S1x1x128_S1x128
abbrev scRow25 : Memref sig .tc .vmem S1x128 .f32 := (scM.slice (Rect.unit (s := S128x1x128) ![25, 0, 0] S1x1x128.size inb_S128x1x128_S1x1x128_25_0_0) (fun _ => rfl)).squeeze S1x128 squeezes_S1x1x128_S1x128
abbrev scRow26 : Memref sig .tc .vmem S1x128 .f32 := (scM.slice (Rect.unit (s := S128x1x128) ![26, 0, 0] S1x1x128.size inb_S128x1x128_S1x1x128_26_0_0) (fun _ => rfl)).squeeze S1x128 squeezes_S1x1x128_S1x128
abbrev scRow27 : Memref sig .tc .vmem S1x128 .f32 := (scM.slice (Rect.unit (s := S128x1x128) ![27, 0, 0] S1x1x128.size inb_S128x1x128_S1x1x128_27_0_0) (fun _ => rfl)).squeeze S1x128 squeezes_S1x1x128_S1x128
abbrev scRow28 : Memref sig .tc .vmem S1x128 .f32 := (scM.slice (Rect.unit (s := S128x1x128) ![28, 0, 0] S1x1x128.size inb_S128x1x128_S1x1x128_28_0_0) (fun _ => rfl)).squeeze S1x128 squeezes_S1x1x128_S1x128
abbrev scRow29 : Memref sig .tc .vmem S1x128 .f32 := (scM.slice (Rect.unit (s := S128x1x128) ![29, 0, 0] S1x1x128.size inb_S128x1x128_S1x1x128_29_0_0) (fun _ => rfl)).squeeze S1x128 squeezes_S1x1x128_S1x128
abbrev scRow30 : Memref sig .tc .vmem S1x128 .f32 := (scM.slice (Rect.unit (s := S128x1x128) ![30, 0, 0] S1x1x128.size inb_S128x1x128_S1x1x128_30_0_0) (fun _ => rfl)).squeeze S1x128 squeezes_S1x1x128_S1x128
abbrev scRow31 : Memref sig .tc .vmem S1x128 .f32 := (scM.slice (Rect.unit (s := S128x1x128) ![31, 0, 0] S1x1x128.size inb_S128x1x128_S1x1x128_31_0_0) (fun _ => rfl)).squeeze S1x128 squeezes_S1x1x128_S1x128
abbrev scRow32 : Memref sig .tc .vmem S1x128 .f32 := (scM.slice (Rect.unit (s := S128x1x128) ![32, 0, 0] S1x1x128.size inb_S128x1x128_S1x1x128_32_0_0) (fun _ => rfl)).squeeze S1x128 squeezes_S1x1x128_S1x128
abbrev scRow33 : Memref sig .tc .vmem S1x128 .f32 := (scM.slice (Rect.unit (s := S128x1x128) ![33, 0, 0] S1x1x128.size inb_S128x1x128_S1x1x128_33_0_0) (fun _ => rfl)).squeeze S1x128 squeezes_S1x1x128_S1x128
abbrev scRow34 : Memref sig .tc .vmem S1x128 .f32 := (scM.slice (Rect.unit (s := S128x1x128) ![34, 0, 0] S1x1x128.size inb_S128x1x128_S1x1x128_34_0_0) (fun _ => rfl)).squeeze S1x128 squeezes_S1x1x128_S1x128
abbrev scRow35 : Memref sig .tc .vmem S1x128 .f32 := (scM.slice (Rect.unit (s := S128x1x128) ![35, 0, 0] S1x1x128.size inb_S128x1x128_S1x1x128_35_0_0) (fun _ => rfl)).squeeze S1x128 squeezes_S1x1x128_S1x128
abbrev scRow36 : Memref sig .tc .vmem S1x128 .f32 := (scM.slice (Rect.unit (s := S128x1x128) ![36, 0, 0] S1x1x128.size inb_S128x1x128_S1x1x128_36_0_0) (fun _ => rfl)).squeeze S1x128 squeezes_S1x1x128_S1x128
abbrev scRow37 : Memref sig .tc .vmem S1x128 .f32 := (scM.slice (Rect.unit (s := S128x1x128) ![37, 0, 0] S1x1x128.size inb_S128x1x128_S1x1x128_37_0_0) (fun _ => rfl)).squeeze S1x128 squeezes_S1x1x128_S1x128
abbrev scRow38 : Memref sig .tc .vmem S1x128 .f32 := (scM.slice (Rect.unit (s := S128x1x128) ![38, 0, 0] S1x1x128.size inb_S128x1x128_S1x1x128_38_0_0) (fun _ => rfl)).squeeze S1x128 squeezes_S1x1x128_S1x128
abbrev scRow39 : Memref sig .tc .vmem S1x128 .f32 := (scM.slice (Rect.unit (s := S128x1x128) ![39, 0, 0] S1x1x128.size inb_S128x1x128_S1x1x128_39_0_0) (fun _ => rfl)).squeeze S1x128 squeezes_S1x1x128_S1x128
abbrev scRow40 : Memref sig .tc .vmem S1x128 .f32 := (scM.slice (Rect.unit (s := S128x1x128) ![40, 0, 0] S1x1x128.size inb_S128x1x128_S1x1x128_40_0_0) (fun _ => rfl)).squeeze S1x128 squeezes_S1x1x128_S1x128
abbrev scRow41 : Memref sig .tc .vmem S1x128 .f32 := (scM.slice (Rect.unit (s := S128x1x128) ![41, 0, 0] S1x1x128.size inb_S128x1x128_S1x1x128_41_0_0) (fun _ => rfl)).squeeze S1x128 squeezes_S1x1x128_S1x128
abbrev scRow42 : Memref sig .tc .vmem S1x128 .f32 := (scM.slice (Rect.unit (s := S128x1x128) ![42, 0, 0] S1x1x128.size inb_S128x1x128_S1x1x128_42_0_0) (fun _ => rfl)).squeeze S1x128 squeezes_S1x1x128_S1x128
abbrev scRow43 : Memref sig .tc .vmem S1x128 .f32 := (scM.slice (Rect.unit (s := S128x1x128) ![43, 0, 0] S1x1x128.size inb_S128x1x128_S1x1x128_43_0_0) (fun _ => rfl)).squeeze S1x128 squeezes_S1x1x128_S1x128
abbrev scRow44 : Memref sig .tc .vmem S1x128 .f32 := (scM.slice (Rect.unit (s := S128x1x128) ![44, 0, 0] S1x1x128.size inb_S128x1x128_S1x1x128_44_0_0) (fun _ => rfl)).squeeze S1x128 squeezes_S1x1x128_S1x128
abbrev scRow45 : Memref sig .tc .vmem S1x128 .f32 := (scM.slice (Rect.unit (s := S128x1x128) ![45, 0, 0] S1x1x128.size inb_S128x1x128_S1x1x128_45_0_0) (fun _ => rfl)).squeeze S1x128 squeezes_S1x1x128_S1x128
abbrev scRow46 : Memref sig .tc .vmem S1x128 .f32 := (scM.slice (Rect.unit (s := S128x1x128) ![46, 0, 0] S1x1x128.size inb_S128x1x128_S1x1x128_46_0_0) (fun _ => rfl)).squeeze S1x128 squeezes_S1x1x128_S1x128
abbrev scRow47 : Memref sig .tc .vmem S1x128 .f32 := (scM.slice (Rect.unit (s := S128x1x128) ![47, 0, 0] S1x1x128.size inb_S128x1x128_S1x1x128_47_0_0) (fun _ => rfl)).squeeze S1x128 squeezes_S1x1x128_S1x128
abbrev scRow48 : Memref sig .tc .vmem S1x128 .f32 := (scM.slice (Rect.unit (s := S128x1x128) ![48, 0, 0] S1x1x128.size inb_S128x1x128_S1x1x128_48_0_0) (fun _ => rfl)).squeeze S1x128 squeezes_S1x1x128_S1x128
abbrev scRow49 : Memref sig .tc .vmem S1x128 .f32 := (scM.slice (Rect.unit (s := S128x1x128) ![49, 0, 0] S1x1x128.size inb_S128x1x128_S1x1x128_49_0_0) (fun _ => rfl)).squeeze S1x128 squeezes_S1x1x128_S1x128
abbrev scRow50 : Memref sig .tc .vmem S1x128 .f32 := (scM.slice (Rect.unit (s := S128x1x128) ![50, 0, 0] S1x1x128.size inb_S128x1x128_S1x1x128_50_0_0) (fun _ => rfl)).squeeze S1x128 squeezes_S1x1x128_S1x128
abbrev scRow51 : Memref sig .tc .vmem S1x128 .f32 := (scM.slice (Rect.unit (s := S128x1x128) ![51, 0, 0] S1x1x128.size inb_S128x1x128_S1x1x128_51_0_0) (fun _ => rfl)).squeeze S1x128 squeezes_S1x1x128_S1x128
abbrev scRow52 : Memref sig .tc .vmem S1x128 .f32 := (scM.slice (Rect.unit (s := S128x1x128) ![52, 0, 0] S1x1x128.size inb_S128x1x128_S1x1x128_52_0_0) (fun _ => rfl)).squeeze S1x128 squeezes_S1x1x128_S1x128
abbrev scRow53 : Memref sig .tc .vmem S1x128 .f32 := (scM.slice (Rect.unit (s := S128x1x128) ![53, 0, 0] S1x1x128.size inb_S128x1x128_S1x1x128_53_0_0) (fun _ => rfl)).squeeze S1x128 squeezes_S1x1x128_S1x128
abbrev scRow54 : Memref sig .tc .vmem S1x128 .f32 := (scM.slice (Rect.unit (s := S128x1x128) ![54, 0, 0] S1x1x128.size inb_S128x1x128_S1x1x128_54_0_0) (fun _ => rfl)).squeeze S1x128 squeezes_S1x1x128_S1x128
abbrev scRow55 : Memref sig .tc .vmem S1x128 .f32 := (scM.slice (Rect.unit (s := S128x1x128) ![55, 0, 0] S1x1x128.size inb_S128x1x128_S1x1x128_55_0_0) (fun _ => rfl)).squeeze S1x128 squeezes_S1x1x128_S1x128
abbrev scRow56 : Memref sig .tc .vmem S1x128 .f32 := (scM.slice (Rect.unit (s := S128x1x128) ![56, 0, 0] S1x1x128.size inb_S128x1x128_S1x1x128_56_0_0) (fun _ => rfl)).squeeze S1x128 squeezes_S1x1x128_S1x128
abbrev scRow57 : Memref sig .tc .vmem S1x128 .f32 := (scM.slice (Rect.unit (s := S128x1x128) ![57, 0, 0] S1x1x128.size inb_S128x1x128_S1x1x128_57_0_0) (fun _ => rfl)).squeeze S1x128 squeezes_S1x1x128_S1x128
abbrev scRow58 : Memref sig .tc .vmem S1x128 .f32 := (scM.slice (Rect.unit (s := S128x1x128) ![58, 0, 0] S1x1x128.size inb_S128x1x128_S1x1x128_58_0_0) (fun _ => rfl)).squeeze S1x128 squeezes_S1x1x128_S1x128
abbrev scRow59 : Memref sig .tc .vmem S1x128 .f32 := (scM.slice (Rect.unit (s := S128x1x128) ![59, 0, 0] S1x1x128.size inb_S128x1x128_S1x1x128_59_0_0) (fun _ => rfl)).squeeze S1x128 squeezes_S1x1x128_S1x128
abbrev scRow60 : Memref sig .tc .vmem S1x128 .f32 := (scM.slice (Rect.unit (s := S128x1x128) ![60, 0, 0] S1x1x128.size inb_S128x1x128_S1x1x128_60_0_0) (fun _ => rfl)).squeeze S1x128 squeezes_S1x1x128_S1x128
abbrev scRow61 : Memref sig .tc .vmem S1x128 .f32 := (scM.slice (Rect.unit (s := S128x1x128) ![61, 0, 0] S1x1x128.size inb_S128x1x128_S1x1x128_61_0_0) (fun _ => rfl)).squeeze S1x128 squeezes_S1x1x128_S1x128
abbrev scRow62 : Memref sig .tc .vmem S1x128 .f32 := (scM.slice (Rect.unit (s := S128x1x128) ![62, 0, 0] S1x1x128.size inb_S128x1x128_S1x1x128_62_0_0) (fun _ => rfl)).squeeze S1x128 squeezes_S1x1x128_S1x128
abbrev scRow63 : Memref sig .tc .vmem S1x128 .f32 := (scM.slice (Rect.unit (s := S128x1x128) ![63, 0, 0] S1x1x128.size inb_S128x1x128_S1x1x128_63_0_0) (fun _ => rfl)).squeeze S1x128 squeezes_S1x1x128_S1x128
abbrev scRow64 : Memref sig .tc .vmem S1x128 .f32 := (scM.slice (Rect.unit (s := S128x1x128) ![64, 0, 0] S1x1x128.size inb_S128x1x128_S1x1x128_64_0_0) (fun _ => rfl)).squeeze S1x128 squeezes_S1x1x128_S1x128
abbrev scRow65 : Memref sig .tc .vmem S1x128 .f32 := (scM.slice (Rect.unit (s := S128x1x128) ![65, 0, 0] S1x1x128.size inb_S128x1x128_S1x1x128_65_0_0) (fun _ => rfl)).squeeze S1x128 squeezes_S1x1x128_S1x128
abbrev scRow66 : Memref sig .tc .vmem S1x128 .f32 := (scM.slice (Rect.unit (s := S128x1x128) ![66, 0, 0] S1x1x128.size inb_S128x1x128_S1x1x128_66_0_0) (fun _ => rfl)).squeeze S1x128 squeezes_S1x1x128_S1x128
abbrev scRow67 : Memref sig .tc .vmem S1x128 .f32 := (scM.slice (Rect.unit (s := S128x1x128) ![67, 0, 0] S1x1x128.size inb_S128x1x128_S1x1x128_67_0_0) (fun _ => rfl)).squeeze S1x128 squeezes_S1x1x128_S1x128
abbrev scRow68 : Memref sig .tc .vmem S1x128 .f32 := (scM.slice (Rect.unit (s := S128x1x128) ![68, 0, 0] S1x1x128.size inb_S128x1x128_S1x1x128_68_0_0) (fun _ => rfl)).squeeze S1x128 squeezes_S1x1x128_S1x128
abbrev scRow69 : Memref sig .tc .vmem S1x128 .f32 := (scM.slice (Rect.unit (s := S128x1x128) ![69, 0, 0] S1x1x128.size inb_S128x1x128_S1x1x128_69_0_0) (fun _ => rfl)).squeeze S1x128 squeezes_S1x1x128_S1x128
abbrev scRow70 : Memref sig .tc .vmem S1x128 .f32 := (scM.slice (Rect.unit (s := S128x1x128) ![70, 0, 0] S1x1x128.size inb_S128x1x128_S1x1x128_70_0_0) (fun _ => rfl)).squeeze S1x128 squeezes_S1x1x128_S1x128
abbrev scRow71 : Memref sig .tc .vmem S1x128 .f32 := (scM.slice (Rect.unit (s := S128x1x128) ![71, 0, 0] S1x1x128.size inb_S128x1x128_S1x1x128_71_0_0) (fun _ => rfl)).squeeze S1x128 squeezes_S1x1x128_S1x128
abbrev scRow72 : Memref sig .tc .vmem S1x128 .f32 := (scM.slice (Rect.unit (s := S128x1x128) ![72, 0, 0] S1x1x128.size inb_S128x1x128_S1x1x128_72_0_0) (fun _ => rfl)).squeeze S1x128 squeezes_S1x1x128_S1x128
abbrev scRow73 : Memref sig .tc .vmem S1x128 .f32 := (scM.slice (Rect.unit (s := S128x1x128) ![73, 0, 0] S1x1x128.size inb_S128x1x128_S1x1x128_73_0_0) (fun _ => rfl)).squeeze S1x128 squeezes_S1x1x128_S1x128
abbrev scRow74 : Memref sig .tc .vmem S1x128 .f32 := (scM.slice (Rect.unit (s := S128x1x128) ![74, 0, 0] S1x1x128.size inb_S128x1x128_S1x1x128_74_0_0) (fun _ => rfl)).squeeze S1x128 squeezes_S1x1x128_S1x128
abbrev scRow75 : Memref sig .tc .vmem S1x128 .f32 := (scM.slice (Rect.unit (s := S128x1x128) ![75, 0, 0] S1x1x128.size inb_S128x1x128_S1x1x128_75_0_0) (fun _ => rfl)).squeeze S1x128 squeezes_S1x1x128_S1x128
abbrev scRow76 : Memref sig .tc .vmem S1x128 .f32 := (scM.slice (Rect.unit (s := S128x1x128) ![76, 0, 0] S1x1x128.size inb_S128x1x128_S1x1x128_76_0_0) (fun _ => rfl)).squeeze S1x128 squeezes_S1x1x128_S1x128
abbrev scRow77 : Memref sig .tc .vmem S1x128 .f32 := (scM.slice (Rect.unit (s := S128x1x128) ![77, 0, 0] S1x1x128.size inb_S128x1x128_S1x1x128_77_0_0) (fun _ => rfl)).squeeze S1x128 squeezes_S1x1x128_S1x128
abbrev scRow78 : Memref sig .tc .vmem S1x128 .f32 := (scM.slice (Rect.unit (s := S128x1x128) ![78, 0, 0] S1x1x128.size inb_S128x1x128_S1x1x128_78_0_0) (fun _ => rfl)).squeeze S1x128 squeezes_S1x1x128_S1x128
abbrev scRow79 : Memref sig .tc .vmem S1x128 .f32 := (scM.slice (Rect.unit (s := S128x1x128) ![79, 0, 0] S1x1x128.size inb_S128x1x128_S1x1x128_79_0_0) (fun _ => rfl)).squeeze S1x128 squeezes_S1x1x128_S1x128
abbrev scRow80 : Memref sig .tc .vmem S1x128 .f32 := (scM.slice (Rect.unit (s := S128x1x128) ![80, 0, 0] S1x1x128.size inb_S128x1x128_S1x1x128_80_0_0) (fun _ => rfl)).squeeze S1x128 squeezes_S1x1x128_S1x128
abbrev scRow81 : Memref sig .tc .vmem S1x128 .f32 := (scM.slice (Rect.unit (s := S128x1x128) ![81, 0, 0] S1x1x128.size inb_S128x1x128_S1x1x128_81_0_0) (fun _ => rfl)).squeeze S1x128 squeezes_S1x1x128_S1x128
abbrev scRow82 : Memref sig .tc .vmem S1x128 .f32 := (scM.slice (Rect.unit (s := S128x1x128) ![82, 0, 0] S1x1x128.size inb_S128x1x128_S1x1x128_82_0_0) (fun _ => rfl)).squeeze S1x128 squeezes_S1x1x128_S1x128
abbrev scRow83 : Memref sig .tc .vmem S1x128 .f32 := (scM.slice (Rect.unit (s := S128x1x128) ![83, 0, 0] S1x1x128.size inb_S128x1x128_S1x1x128_83_0_0) (fun _ => rfl)).squeeze S1x128 squeezes_S1x1x128_S1x128
abbrev scRow84 : Memref sig .tc .vmem S1x128 .f32 := (scM.slice (Rect.unit (s := S128x1x128) ![84, 0, 0] S1x1x128.size inb_S128x1x128_S1x1x128_84_0_0) (fun _ => rfl)).squeeze S1x128 squeezes_S1x1x128_S1x128
abbrev scRow85 : Memref sig .tc .vmem S1x128 .f32 := (scM.slice (Rect.unit (s := S128x1x128) ![85, 0, 0] S1x1x128.size inb_S128x1x128_S1x1x128_85_0_0) (fun _ => rfl)).squeeze S1x128 squeezes_S1x1x128_S1x128
abbrev scRow86 : Memref sig .tc .vmem S1x128 .f32 := (scM.slice (Rect.unit (s := S128x1x128) ![86, 0, 0] S1x1x128.size inb_S128x1x128_S1x1x128_86_0_0) (fun _ => rfl)).squeeze S1x128 squeezes_S1x1x128_S1x128
abbrev scRow87 : Memref sig .tc .vmem S1x128 .f32 := (scM.slice (Rect.unit (s := S128x1x128) ![87, 0, 0] S1x1x128.size inb_S128x1x128_S1x1x128_87_0_0) (fun _ => rfl)).squeeze S1x128 squeezes_S1x1x128_S1x128
abbrev scRow88 : Memref sig .tc .vmem S1x128 .f32 := (scM.slice (Rect.unit (s := S128x1x128) ![88, 0, 0] S1x1x128.size inb_S128x1x128_S1x1x128_88_0_0) (fun _ => rfl)).squeeze S1x128 squeezes_S1x1x128_S1x128
abbrev scRow89 : Memref sig .tc .vmem S1x128 .f32 := (scM.slice (Rect.unit (s := S128x1x128) ![89, 0, 0] S1x1x128.size inb_S128x1x128_S1x1x128_89_0_0) (fun _ => rfl)).squeeze S1x128 squeezes_S1x1x128_S1x128
abbrev scRow90 : Memref sig .tc .vmem S1x128 .f32 := (scM.slice (Rect.unit (s := S128x1x128) ![90, 0, 0] S1x1x128.size inb_S128x1x128_S1x1x128_90_0_0) (fun _ => rfl)).squeeze S1x128 squeezes_S1x1x128_S1x128
abbrev scRow91 : Memref sig .tc .vmem S1x128 .f32 := (scM.slice (Rect.unit (s := S128x1x128) ![91, 0, 0] S1x1x128.size inb_S128x1x128_S1x1x128_91_0_0) (fun _ => rfl)).squeeze S1x128 squeezes_S1x1x128_S1x128
abbrev scRow92 : Memref sig .tc .vmem S1x128 .f32 := (scM.slice (Rect.unit (s := S128x1x128) ![92, 0, 0] S1x1x128.size inb_S128x1x128_S1x1x128_92_0_0) (fun _ => rfl)).squeeze S1x128 squeezes_S1x1x128_S1x128
abbrev scRow93 : Memref sig .tc .vmem S1x128 .f32 := (scM.slice (Rect.unit (s := S128x1x128) ![93, 0, 0] S1x1x128.size inb_S128x1x128_S1x1x128_93_0_0) (fun _ => rfl)).squeeze S1x128 squeezes_S1x1x128_S1x128
abbrev scRow94 : Memref sig .tc .vmem S1x128 .f32 := (scM.slice (Rect.unit (s := S128x1x128) ![94, 0, 0] S1x1x128.size inb_S128x1x128_S1x1x128_94_0_0) (fun _ => rfl)).squeeze S1x128 squeezes_S1x1x128_S1x128
abbrev scRow95 : Memref sig .tc .vmem S1x128 .f32 := (scM.slice (Rect.unit (s := S128x1x128) ![95, 0, 0] S1x1x128.size inb_S128x1x128_S1x1x128_95_0_0) (fun _ => rfl)).squeeze S1x128 squeezes_S1x1x128_S1x128
abbrev scRow96 : Memref sig .tc .vmem S1x128 .f32 := (scM.slice (Rect.unit (s := S128x1x128) ![96, 0, 0] S1x1x128.size inb_S128x1x128_S1x1x128_96_0_0) (fun _ => rfl)).squeeze S1x128 squeezes_S1x1x128_S1x128
abbrev scRow97 : Memref sig .tc .vmem S1x128 .f32 := (scM.slice (Rect.unit (s := S128x1x128) ![97, 0, 0] S1x1x128.size inb_S128x1x128_S1x1x128_97_0_0) (fun _ => rfl)).squeeze S1x128 squeezes_S1x1x128_S1x128
abbrev scRow98 : Memref sig .tc .vmem S1x128 .f32 := (scM.slice (Rect.unit (s := S128x1x128) ![98, 0, 0] S1x1x128.size inb_S128x1x128_S1x1x128_98_0_0) (fun _ => rfl)).squeeze S1x128 squeezes_S1x1x128_S1x128
abbrev scRow99 : Memref sig .tc .vmem S1x128 .f32 := (scM.slice (Rect.unit (s := S128x1x128) ![99, 0, 0] S1x1x128.size inb_S128x1x128_S1x1x128_99_0_0) (fun _ => rfl)).squeeze S1x128 squeezes_S1x1x128_S1x128
abbrev scRow100 : Memref sig .tc .vmem S1x128 .f32 := (scM.slice (Rect.unit (s := S128x1x128) ![100, 0, 0] S1x1x128.size inb_S128x1x128_S1x1x128_100_0_0) (fun _ => rfl)).squeeze S1x128 squeezes_S1x1x128_S1x128
abbrev scRow101 : Memref sig .tc .vmem S1x128 .f32 := (scM.slice (Rect.unit (s := S128x1x128) ![101, 0, 0] S1x1x128.size inb_S128x1x128_S1x1x128_101_0_0) (fun _ => rfl)).squeeze S1x128 squeezes_S1x1x128_S1x128
abbrev scRow102 : Memref sig .tc .vmem S1x128 .f32 := (scM.slice (Rect.unit (s := S128x1x128) ![102, 0, 0] S1x1x128.size inb_S128x1x128_S1x1x128_102_0_0) (fun _ => rfl)).squeeze S1x128 squeezes_S1x1x128_S1x128
abbrev scRow103 : Memref sig .tc .vmem S1x128 .f32 := (scM.slice (Rect.unit (s := S128x1x128) ![103, 0, 0] S1x1x128.size inb_S128x1x128_S1x1x128_103_0_0) (fun _ => rfl)).squeeze S1x128 squeezes_S1x1x128_S1x128
abbrev scRow104 : Memref sig .tc .vmem S1x128 .f32 := (scM.slice (Rect.unit (s := S128x1x128) ![104, 0, 0] S1x1x128.size inb_S128x1x128_S1x1x128_104_0_0) (fun _ => rfl)).squeeze S1x128 squeezes_S1x1x128_S1x128
abbrev scRow105 : Memref sig .tc .vmem S1x128 .f32 := (scM.slice (Rect.unit (s := S128x1x128) ![105, 0, 0] S1x1x128.size inb_S128x1x128_S1x1x128_105_0_0) (fun _ => rfl)).squeeze S1x128 squeezes_S1x1x128_S1x128
abbrev scRow106 : Memref sig .tc .vmem S1x128 .f32 := (scM.slice (Rect.unit (s := S128x1x128) ![106, 0, 0] S1x1x128.size inb_S128x1x128_S1x1x128_106_0_0) (fun _ => rfl)).squeeze S1x128 squeezes_S1x1x128_S1x128
abbrev scRow107 : Memref sig .tc .vmem S1x128 .f32 := (scM.slice (Rect.unit (s := S128x1x128) ![107, 0, 0] S1x1x128.size inb_S128x1x128_S1x1x128_107_0_0) (fun _ => rfl)).squeeze S1x128 squeezes_S1x1x128_S1x128
abbrev scRow108 : Memref sig .tc .vmem S1x128 .f32 := (scM.slice (Rect.unit (s := S128x1x128) ![108, 0, 0] S1x1x128.size inb_S128x1x128_S1x1x128_108_0_0) (fun _ => rfl)).squeeze S1x128 squeezes_S1x1x128_S1x128
abbrev scRow109 : Memref sig .tc .vmem S1x128 .f32 := (scM.slice (Rect.unit (s := S128x1x128) ![109, 0, 0] S1x1x128.size inb_S128x1x128_S1x1x128_109_0_0) (fun _ => rfl)).squeeze S1x128 squeezes_S1x1x128_S1x128
abbrev scRow110 : Memref sig .tc .vmem S1x128 .f32 := (scM.slice (Rect.unit (s := S128x1x128) ![110, 0, 0] S1x1x128.size inb_S128x1x128_S1x1x128_110_0_0) (fun _ => rfl)).squeeze S1x128 squeezes_S1x1x128_S1x128
abbrev scRow111 : Memref sig .tc .vmem S1x128 .f32 := (scM.slice (Rect.unit (s := S128x1x128) ![111, 0, 0] S1x1x128.size inb_S128x1x128_S1x1x128_111_0_0) (fun _ => rfl)).squeeze S1x128 squeezes_S1x1x128_S1x128
abbrev scRow112 : Memref sig .tc .vmem S1x128 .f32 := (scM.slice (Rect.unit (s := S128x1x128) ![112, 0, 0] S1x1x128.size inb_S128x1x128_S1x1x128_112_0_0) (fun _ => rfl)).squeeze S1x128 squeezes_S1x1x128_S1x128
abbrev scRow113 : Memref sig .tc .vmem S1x128 .f32 := (scM.slice (Rect.unit (s := S128x1x128) ![113, 0, 0] S1x1x128.size inb_S128x1x128_S1x1x128_113_0_0) (fun _ => rfl)).squeeze S1x128 squeezes_S1x1x128_S1x128
abbrev scRow114 : Memref sig .tc .vmem S1x128 .f32 := (scM.slice (Rect.unit (s := S128x1x128) ![114, 0, 0] S1x1x128.size inb_S128x1x128_S1x1x128_114_0_0) (fun _ => rfl)).squeeze S1x128 squeezes_S1x1x128_S1x128
abbrev scRow115 : Memref sig .tc .vmem S1x128 .f32 := (scM.slice (Rect.unit (s := S128x1x128) ![115, 0, 0] S1x1x128.size inb_S128x1x128_S1x1x128_115_0_0) (fun _ => rfl)).squeeze S1x128 squeezes_S1x1x128_S1x128
abbrev scRow116 : Memref sig .tc .vmem S1x128 .f32 := (scM.slice (Rect.unit (s := S128x1x128) ![116, 0, 0] S1x1x128.size inb_S128x1x128_S1x1x128_116_0_0) (fun _ => rfl)).squeeze S1x128 squeezes_S1x1x128_S1x128
abbrev scRow117 : Memref sig .tc .vmem S1x128 .f32 := (scM.slice (Rect.unit (s := S128x1x128) ![117, 0, 0] S1x1x128.size inb_S128x1x128_S1x1x128_117_0_0) (fun _ => rfl)).squeeze S1x128 squeezes_S1x1x128_S1x128
abbrev scRow118 : Memref sig .tc .vmem S1x128 .f32 := (scM.slice (Rect.unit (s := S128x1x128) ![118, 0, 0] S1x1x128.size inb_S128x1x128_S1x1x128_118_0_0) (fun _ => rfl)).squeeze S1x128 squeezes_S1x1x128_S1x128
abbrev scRow119 : Memref sig .tc .vmem S1x128 .f32 := (scM.slice (Rect.unit (s := S128x1x128) ![119, 0, 0] S1x1x128.size inb_S128x1x128_S1x1x128_119_0_0) (fun _ => rfl)).squeeze S1x128 squeezes_S1x1x128_S1x128
abbrev scRow120 : Memref sig .tc .vmem S1x128 .f32 := (scM.slice (Rect.unit (s := S128x1x128) ![120, 0, 0] S1x1x128.size inb_S128x1x128_S1x1x128_120_0_0) (fun _ => rfl)).squeeze S1x128 squeezes_S1x1x128_S1x128
abbrev scRow121 : Memref sig .tc .vmem S1x128 .f32 := (scM.slice (Rect.unit (s := S128x1x128) ![121, 0, 0] S1x1x128.size inb_S128x1x128_S1x1x128_121_0_0) (fun _ => rfl)).squeeze S1x128 squeezes_S1x1x128_S1x128
abbrev scRow122 : Memref sig .tc .vmem S1x128 .f32 := (scM.slice (Rect.unit (s := S128x1x128) ![122, 0, 0] S1x1x128.size inb_S128x1x128_S1x1x128_122_0_0) (fun _ => rfl)).squeeze S1x128 squeezes_S1x1x128_S1x128
abbrev scRow123 : Memref sig .tc .vmem S1x128 .f32 := (scM.slice (Rect.unit (s := S128x1x128) ![123, 0, 0] S1x1x128.size inb_S128x1x128_S1x1x128_123_0_0) (fun _ => rfl)).squeeze S1x128 squeezes_S1x1x128_S1x128
abbrev scRow124 : Memref sig .tc .vmem S1x128 .f32 := (scM.slice (Rect.unit (s := S128x1x128) ![124, 0, 0] S1x1x128.size inb_S128x1x128_S1x1x128_124_0_0) (fun _ => rfl)).squeeze S1x128 squeezes_S1x1x128_S1x128
abbrev scRow125 : Memref sig .tc .vmem S1x128 .f32 := (scM.slice (Rect.unit (s := S128x1x128) ![125, 0, 0] S1x1x128.size inb_S128x1x128_S1x1x128_125_0_0) (fun _ => rfl)).squeeze S1x128 squeezes_S1x1x128_S1x128
abbrev scRow126 : Memref sig .tc .vmem S1x128 .f32 := (scM.slice (Rect.unit (s := S128x1x128) ![126, 0, 0] S1x1x128.size inb_S128x1x128_S1x1x128_126_0_0) (fun _ => rfl)).squeeze S1x128 squeezes_S1x1x128_S1x128
abbrev scRow127 : Memref sig .tc .vmem S1x128 .f32 := (scM.slice (Rect.unit (s := S128x1x128) ![127, 0, 0] S1x1x128.size inb_S128x1x128_S1x1x128_127_0_0) (fun _ => rfl)).squeeze S1x128 squeezes_S1x1x128_S1x128

/-- The 128 rows, each held by its own elements, at the contents f. -/
def RowsAt (c : Dev nD) (f : MBuf (F := F) c scM) : sProp 𝕄 :=
  iprop(mOwn c scRow0 f ∗ mOwn c scRow1 f ∗ mOwn c scRow2 f ∗ mOwn c scRow3 f ∗ mOwn c scRow4 f ∗ mOwn c scRow5 f ∗ mOwn c scRow6 f ∗ mOwn c scRow7 f ∗ mOwn c scRow8 f ∗ mOwn c scRow9 f ∗ mOwn c scRow10 f ∗ mOwn c scRow11 f ∗ mOwn c scRow12 f ∗ mOwn c scRow13 f ∗ mOwn c scRow14 f ∗ mOwn c scRow15 f ∗ mOwn c scRow16 f ∗ mOwn c scRow17 f ∗ mOwn c scRow18 f ∗ mOwn c scRow19 f ∗ mOwn c scRow20 f ∗ mOwn c scRow21 f ∗ mOwn c scRow22 f ∗ mOwn c scRow23 f ∗ mOwn c scRow24 f ∗ mOwn c scRow25 f ∗ mOwn c scRow26 f ∗ mOwn c scRow27 f ∗ mOwn c scRow28 f ∗ mOwn c scRow29 f ∗ mOwn c scRow30 f ∗ mOwn c scRow31 f ∗ mOwn c scRow32 f ∗ mOwn c scRow33 f ∗ mOwn c scRow34 f ∗ mOwn c scRow35 f ∗ mOwn c scRow36 f ∗ mOwn c scRow37 f ∗ mOwn c scRow38 f ∗ mOwn c scRow39 f ∗ mOwn c scRow40 f ∗ mOwn c scRow41 f ∗ mOwn c scRow42 f ∗ mOwn c scRow43 f ∗ mOwn c scRow44 f ∗ mOwn c scRow45 f ∗ mOwn c scRow46 f ∗ mOwn c scRow47 f ∗ mOwn c scRow48 f ∗ mOwn c scRow49 f ∗ mOwn c scRow50 f ∗ mOwn c scRow51 f ∗ mOwn c scRow52 f ∗ mOwn c scRow53 f ∗ mOwn c scRow54 f ∗ mOwn c scRow55 f ∗ mOwn c scRow56 f ∗ mOwn c scRow57 f ∗ mOwn c scRow58 f ∗ mOwn c scRow59 f ∗ mOwn c scRow60 f ∗ mOwn c scRow61 f ∗ mOwn c scRow62 f ∗ mOwn c scRow63 f ∗ mOwn c scRow64 f ∗ mOwn c scRow65 f ∗ mOwn c scRow66 f ∗ mOwn c scRow67 f ∗ mOwn c scRow68 f ∗ mOwn c scRow69 f ∗ mOwn c scRow70 f ∗ mOwn c scRow71 f ∗ mOwn c scRow72 f ∗ mOwn c scRow73 f ∗ mOwn c scRow74 f ∗ mOwn c scRow75 f ∗ mOwn c scRow76 f ∗ mOwn c scRow77 f ∗ mOwn c scRow78 f ∗ mOwn c scRow79 f ∗ mOwn c scRow80 f ∗ mOwn c scRow81 f ∗ mOwn c scRow82 f ∗ mOwn c scRow83 f ∗ mOwn c scRow84 f ∗ mOwn c scRow85 f ∗ mOwn c scRow86 f ∗ mOwn c scRow87 f ∗ mOwn c scRow88 f ∗ mOwn c scRow89 f ∗ mOwn c scRow90 f ∗ mOwn c scRow91 f ∗ mOwn c scRow92 f ∗ mOwn c scRow93 f ∗ mOwn c scRow94 f ∗ mOwn c scRow95 f ∗ mOwn c scRow96 f ∗ mOwn c scRow97 f ∗ mOwn c scRow98 f ∗ mOwn c scRow99 f ∗ mOwn c scRow100 f ∗ mOwn c scRow101 f ∗ mOwn c scRow102 f ∗ mOwn c scRow103 f ∗ mOwn c scRow104 f ∗ mOwn c scRow105 f ∗ mOwn c scRow106 f ∗ mOwn c scRow107 f ∗ mOwn c scRow108 f ∗ mOwn c scRow109 f ∗ mOwn c scRow110 f ∗ mOwn c scRow111 f ∗ mOwn c scRow112 f ∗ mOwn c scRow113 f ∗ mOwn c scRow114 f ∗ mOwn c scRow115 f ∗ mOwn c scRow116 f ∗ mOwn c scRow117 f ∗ mOwn c scRow118 f ∗ mOwn c scRow119 f ∗ mOwn c scRow120 f ∗ mOwn c scRow121 f ∗ mOwn c scRow122 f ∗ mOwn c scRow123 f ∗ mOwn c scRow124 f ∗ mOwn c scRow125 f ∗ mOwn c scRow126 f ∗ mOwn c scRow127 f)

/-- The row table's remainder and read shares 0 … 129. -/
def ToksAt (c : Dev nD) (fh : MBuf (F := F) c hbM) : sProp 𝕄 :=
  iprop(mPt c hbM (Transfers.shareDrop fullShare 130) fh ∗ mPt c hbM (Transfers.shareTokN fullShare 0) fh ∗ mPt c hbM (Transfers.shareTokN fullShare 1) fh ∗ mPt c hbM (Transfers.shareTokN fullShare 2) fh ∗ mPt c hbM (Transfers.shareTokN fullShare 3) fh ∗ mPt c hbM (Transfers.shareTokN fullShare 4) fh ∗ mPt c hbM (Transfers.shareTokN fullShare 5) fh ∗ mPt c hbM (Transfers.shareTokN fullShare 6) fh ∗ mPt c hbM (Transfers.shareTokN fullShare 7) fh ∗ mPt c hbM (Transfers.shareTokN fullShare 8) fh ∗ mPt c hbM (Transfers.shareTokN fullShare 9) fh ∗ mPt c hbM (Transfers.shareTokN fullShare 10) fh ∗ mPt c hbM (Transfers.shareTokN fullShare 11) fh ∗ mPt c hbM (Transfers.shareTokN fullShare 12) fh ∗ mPt c hbM (Transfers.shareTokN fullShare 13) fh ∗ mPt c hbM (Transfers.shareTokN fullShare 14) fh ∗ mPt c hbM (Transfers.shareTokN fullShare 15) fh ∗ mPt c hbM (Transfers.shareTokN fullShare 16) fh ∗ mPt c hbM (Transfers.shareTokN fullShare 17) fh ∗ mPt c hbM (Transfers.shareTokN fullShare 18) fh ∗ mPt c hbM (Transfers.shareTokN fullShare 19) fh ∗ mPt c hbM (Transfers.shareTokN fullShare 20) fh ∗ mPt c hbM (Transfers.shareTokN fullShare 21) fh ∗ mPt c hbM (Transfers.shareTokN fullShare 22) fh ∗ mPt c hbM (Transfers.shareTokN fullShare 23) fh ∗ mPt c hbM (Transfers.shareTokN fullShare 24) fh ∗ mPt c hbM (Transfers.shareTokN fullShare 25) fh ∗ mPt c hbM (Transfers.shareTokN fullShare 26) fh ∗ mPt c hbM (Transfers.shareTokN fullShare 27) fh ∗ mPt c hbM (Transfers.shareTokN fullShare 28) fh ∗ mPt c hbM (Transfers.shareTokN fullShare 29) fh ∗ mPt c hbM (Transfers.shareTokN fullShare 30) fh ∗ mPt c hbM (Transfers.shareTokN fullShare 31) fh ∗ mPt c hbM (Transfers.shareTokN fullShare 32) fh ∗ mPt c hbM (Transfers.shareTokN fullShare 33) fh ∗ mPt c hbM (Transfers.shareTokN fullShare 34) fh ∗ mPt c hbM (Transfers.shareTokN fullShare 35) fh ∗ mPt c hbM (Transfers.shareTokN fullShare 36) fh ∗ mPt c hbM (Transfers.shareTokN fullShare 37) fh ∗ mPt c hbM (Transfers.shareTokN fullShare 38) fh ∗ mPt c hbM (Transfers.shareTokN fullShare 39) fh ∗ mPt c hbM (Transfers.shareTokN fullShare 40) fh ∗ mPt c hbM (Transfers.shareTokN fullShare 41) fh ∗ mPt c hbM (Transfers.shareTokN fullShare 42) fh ∗ mPt c hbM (Transfers.shareTokN fullShare 43) fh ∗ mPt c hbM (Transfers.shareTokN fullShare 44) fh ∗ mPt c hbM (Transfers.shareTokN fullShare 45) fh ∗ mPt c hbM (Transfers.shareTokN fullShare 46) fh ∗ mPt c hbM (Transfers.shareTokN fullShare 47) fh ∗ mPt c hbM (Transfers.shareTokN fullShare 48) fh ∗ mPt c hbM (Transfers.shareTokN fullShare 49) fh ∗ mPt c hbM (Transfers.shareTokN fullShare 50) fh ∗ mPt c hbM (Transfers.shareTokN fullShare 51) fh ∗ mPt c hbM (Transfers.shareTokN fullShare 52) fh ∗ mPt c hbM (Transfers.shareTokN fullShare 53) fh ∗ mPt c hbM (Transfers.shareTokN fullShare 54) fh ∗ mPt c hbM (Transfers.shareTokN fullShare 55) fh ∗ mPt c hbM (Transfers.shareTokN fullShare 56) fh ∗ mPt c hbM (Transfers.shareTokN fullShare 57) fh ∗ mPt c hbM (Transfers.shareTokN fullShare 58) fh ∗ mPt c hbM (Transfers.shareTokN fullShare 59) fh ∗ mPt c hbM (Transfers.shareTokN fullShare 60) fh ∗ mPt c hbM (Transfers.shareTokN fullShare 61) fh ∗ mPt c hbM (Transfers.shareTokN fullShare 62) fh ∗ mPt c hbM (Transfers.shareTokN fullShare 63) fh ∗ mPt c hbM (Transfers.shareTokN fullShare 64) fh ∗ mPt c hbM (Transfers.shareTokN fullShare 65) fh ∗ mPt c hbM (Transfers.shareTokN fullShare 66) fh ∗ mPt c hbM (Transfers.shareTokN fullShare 67) fh ∗ mPt c hbM (Transfers.shareTokN fullShare 68) fh ∗ mPt c hbM (Transfers.shareTokN fullShare 69) fh ∗ mPt c hbM (Transfers.shareTokN fullShare 70) fh ∗ mPt c hbM (Transfers.shareTokN fullShare 71) fh ∗ mPt c hbM (Transfers.shareTokN fullShare 72) fh ∗ mPt c hbM (Transfers.shareTokN fullShare 73) fh ∗ mPt c hbM (Transfers.shareTokN fullShare 74) fh ∗ mPt c hbM (Transfers.shareTokN fullShare 75) fh ∗ mPt c hbM (Transfers.shareTokN fullShare 76) fh ∗ mPt c hbM (Transfers.shareTokN fullShare 77) fh ∗ mPt c hbM (Transfers.shareTokN fullShare 78) fh ∗ mPt c hbM (Transfers.shareTokN fullShare 79) fh ∗ mPt c hbM (Transfers.shareTokN fullShare 80) fh ∗ mPt c hbM (Transfers.shareTokN fullShare 81) fh ∗ mPt c hbM (Transfers.shareTokN fullShare 82) fh ∗ mPt c hbM (Transfers.shareTokN fullShare 83) fh ∗ mPt c hbM (Transfers.shareTokN fullShare 84) fh ∗ mPt c hbM (Transfers.shareTokN fullShare 85) fh ∗ mPt c hbM (Transfers.shareTokN fullShare 86) fh ∗ mPt c hbM (Transfers.shareTokN fullShare 87) fh ∗ mPt c hbM (Transfers.shareTokN fullShare 88) fh ∗ mPt c hbM (Transfers.shareTokN fullShare 89) fh ∗ mPt c hbM (Transfers.shareTokN fullShare 90) fh ∗ mPt c hbM (Transfers.shareTokN fullShare 91) fh ∗ mPt c hbM (Transfers.shareTokN fullShare 92) fh ∗ mPt c hbM (Transfers.shareTokN fullShare 93) fh ∗ mPt c hbM (Transfers.shareTokN fullShare 94) fh ∗ mPt c hbM (Transfers.shareTokN fullShare 95) fh ∗ mPt c hbM (Transfers.shareTokN fullShare 96) fh ∗ mPt c hbM (Transfers.shareTokN fullShare 97) fh ∗ mPt c hbM (Transfers.shareTokN fullShare 98) fh ∗ mPt c hbM (Transfers.shareTokN fullShare 99) fh ∗ mPt c hbM (Transfers.shareTokN fullShare 100) fh ∗ mPt c hbM (Transfers.shareTokN fullShare 101) fh ∗ mPt c hbM (Transfers.shareTokN fullShare 102) fh ∗ mPt c hbM (Transfers.shareTokN fullShare 103) fh ∗ mPt c hbM (Transfers.shareTokN fullShare 104) fh ∗ mPt c hbM (Transfers.shareTokN fullShare 105) fh ∗ mPt c hbM (Transfers.shareTokN fullShare 106) fh ∗ mPt c hbM (Transfers.shareTokN fullShare 107) fh ∗ mPt c hbM (Transfers.shareTokN fullShare 108) fh ∗ mPt c hbM (Transfers.shareTokN fullShare 109) fh ∗ mPt c hbM (Transfers.shareTokN fullShare 110) fh ∗ mPt c hbM (Transfers.shareTokN fullShare 111) fh ∗ mPt c hbM (Transfers.shareTokN fullShare 112) fh ∗ mPt c hbM (Transfers.shareTokN fullShare 113) fh ∗ mPt c hbM (Transfers.shareTokN fullShare 114) fh ∗ mPt c hbM (Transfers.shareTokN fullShare 115) fh ∗ mPt c hbM (Transfers.shareTokN fullShare 116) fh ∗ mPt c hbM (Transfers.shareTokN fullShare 117) fh ∗ mPt c hbM (Transfers.shareTokN fullShare 118) fh ∗ mPt c hbM (Transfers.shareTokN fullShare 119) fh ∗ mPt c hbM (Transfers.shareTokN fullShare 120) fh ∗ mPt c hbM (Transfers.shareTokN fullShare 121) fh ∗ mPt c hbM (Transfers.shareTokN fullShare 122) fh ∗ mPt c hbM (Transfers.shareTokN fullShare 123) fh ∗ mPt c hbM (Transfers.shareTokN fullShare 124) fh ∗ mPt c hbM (Transfers.shareTokN fullShare 125) fh ∗ mPt c hbM (Transfers.shareTokN fullShare 126) fh ∗ mPt c hbM (Transfers.shareTokN fullShare 127) fh ∗ mPt c hbM (Transfers.shareTokN fullShare 128) fh ∗ mPt c hbM (Transfers.shareTokN fullShare 129) fh)

/-- The body's own cells (semaphores 2 … 129 of the pool) at zero. -/
def SemsAt (c : Dev nD) : sProp 𝕄 :=
  iprop(semVal ((c : Thread nD τ), SemLoc.dma (⟨2, by decide⟩ : DmaSem sig)) 0 ∗ semVal ((c : Thread nD τ), SemLoc.dma (⟨3, by decide⟩ : DmaSem sig)) 0 ∗ semVal ((c : Thread nD τ), SemLoc.dma (⟨4, by decide⟩ : DmaSem sig)) 0 ∗ semVal ((c : Thread nD τ), SemLoc.dma (⟨5, by decide⟩ : DmaSem sig)) 0 ∗ semVal ((c : Thread nD τ), SemLoc.dma (⟨6, by decide⟩ : DmaSem sig)) 0 ∗ semVal ((c : Thread nD τ), SemLoc.dma (⟨7, by decide⟩ : DmaSem sig)) 0 ∗ semVal ((c : Thread nD τ), SemLoc.dma (⟨8, by decide⟩ : DmaSem sig)) 0 ∗ semVal ((c : Thread nD τ), SemLoc.dma (⟨9, by decide⟩ : DmaSem sig)) 0 ∗ semVal ((c : Thread nD τ), SemLoc.dma (⟨10, by decide⟩ : DmaSem sig)) 0 ∗ semVal ((c : Thread nD τ), SemLoc.dma (⟨11, by decide⟩ : DmaSem sig)) 0 ∗ semVal ((c : Thread nD τ), SemLoc.dma (⟨12, by decide⟩ : DmaSem sig)) 0 ∗ semVal ((c : Thread nD τ), SemLoc.dma (⟨13, by decide⟩ : DmaSem sig)) 0 ∗ semVal ((c : Thread nD τ), SemLoc.dma (⟨14, by decide⟩ : DmaSem sig)) 0 ∗ semVal ((c : Thread nD τ), SemLoc.dma (⟨15, by decide⟩ : DmaSem sig)) 0 ∗ semVal ((c : Thread nD τ), SemLoc.dma (⟨16, by decide⟩ : DmaSem sig)) 0 ∗ semVal ((c : Thread nD τ), SemLoc.dma (⟨17, by decide⟩ : DmaSem sig)) 0 ∗ semVal ((c : Thread nD τ), SemLoc.dma (⟨18, by decide⟩ : DmaSem sig)) 0 ∗ semVal ((c : Thread nD τ), SemLoc.dma (⟨19, by decide⟩ : DmaSem sig)) 0 ∗ semVal ((c : Thread nD τ), SemLoc.dma (⟨20, by decide⟩ : DmaSem sig)) 0 ∗ semVal ((c : Thread nD τ), SemLoc.dma (⟨21, by decide⟩ : DmaSem sig)) 0 ∗ semVal ((c : Thread nD τ), SemLoc.dma (⟨22, by decide⟩ : DmaSem sig)) 0 ∗ semVal ((c : Thread nD τ), SemLoc.dma (⟨23, by decide⟩ : DmaSem sig)) 0 ∗ semVal ((c : Thread nD τ), SemLoc.dma (⟨24, by decide⟩ : DmaSem sig)) 0 ∗ semVal ((c : Thread nD τ), SemLoc.dma (⟨25, by decide⟩ : DmaSem sig)) 0 ∗ semVal ((c : Thread nD τ), SemLoc.dma (⟨26, by decide⟩ : DmaSem sig)) 0 ∗ semVal ((c : Thread nD τ), SemLoc.dma (⟨27, by decide⟩ : DmaSem sig)) 0 ∗ semVal ((c : Thread nD τ), SemLoc.dma (⟨28, by decide⟩ : DmaSem sig)) 0 ∗ semVal ((c : Thread nD τ), SemLoc.dma (⟨29, by decide⟩ : DmaSem sig)) 0 ∗ semVal ((c : Thread nD τ), SemLoc.dma (⟨30, by decide⟩ : DmaSem sig)) 0 ∗ semVal ((c : Thread nD τ), SemLoc.dma (⟨31, by decide⟩ : DmaSem sig)) 0 ∗ semVal ((c : Thread nD τ), SemLoc.dma (⟨32, by decide⟩ : DmaSem sig)) 0 ∗ semVal ((c : Thread nD τ), SemLoc.dma (⟨33, by decide⟩ : DmaSem sig)) 0 ∗ semVal ((c : Thread nD τ), SemLoc.dma (⟨34, by decide⟩ : DmaSem sig)) 0 ∗ semVal ((c : Thread nD τ), SemLoc.dma (⟨35, by decide⟩ : DmaSem sig)) 0 ∗ semVal ((c : Thread nD τ), SemLoc.dma (⟨36, by decide⟩ : DmaSem sig)) 0 ∗ semVal ((c : Thread nD τ), SemLoc.dma (⟨37, by decide⟩ : DmaSem sig)) 0 ∗ semVal ((c : Thread nD τ), SemLoc.dma (⟨38, by decide⟩ : DmaSem sig)) 0 ∗ semVal ((c : Thread nD τ), SemLoc.dma (⟨39, by decide⟩ : DmaSem sig)) 0 ∗ semVal ((c : Thread nD τ), SemLoc.dma (⟨40, by decide⟩ : DmaSem sig)) 0 ∗ semVal ((c : Thread nD τ), SemLoc.dma (⟨41, by decide⟩ : DmaSem sig)) 0 ∗ semVal ((c : Thread nD τ), SemLoc.dma (⟨42, by decide⟩ : DmaSem sig)) 0 ∗ semVal ((c : Thread nD τ), SemLoc.dma (⟨43, by decide⟩ : DmaSem sig)) 0 ∗ semVal ((c : Thread nD τ), SemLoc.dma (⟨44, by decide⟩ : DmaSem sig)) 0 ∗ semVal ((c : Thread nD τ), SemLoc.dma (⟨45, by decide⟩ : DmaSem sig)) 0 ∗ semVal ((c : Thread nD τ), SemLoc.dma (⟨46, by decide⟩ : DmaSem sig)) 0 ∗ semVal ((c : Thread nD τ), SemLoc.dma (⟨47, by decide⟩ : DmaSem sig)) 0 ∗ semVal ((c : Thread nD τ), SemLoc.dma (⟨48, by decide⟩ : DmaSem sig)) 0 ∗ semVal ((c : Thread nD τ), SemLoc.dma (⟨49, by decide⟩ : DmaSem sig)) 0 ∗ semVal ((c : Thread nD τ), SemLoc.dma (⟨50, by decide⟩ : DmaSem sig)) 0 ∗ semVal ((c : Thread nD τ), SemLoc.dma (⟨51, by decide⟩ : DmaSem sig)) 0 ∗ semVal ((c : Thread nD τ), SemLoc.dma (⟨52, by decide⟩ : DmaSem sig)) 0 ∗ semVal ((c : Thread nD τ), SemLoc.dma (⟨53, by decide⟩ : DmaSem sig)) 0 ∗ semVal ((c : Thread nD τ), SemLoc.dma (⟨54, by decide⟩ : DmaSem sig)) 0 ∗ semVal ((c : Thread nD τ), SemLoc.dma (⟨55, by decide⟩ : DmaSem sig)) 0 ∗ semVal ((c : Thread nD τ), SemLoc.dma (⟨56, by decide⟩ : DmaSem sig)) 0 ∗ semVal ((c : Thread nD τ), SemLoc.dma (⟨57, by decide⟩ : DmaSem sig)) 0 ∗ semVal ((c : Thread nD τ), SemLoc.dma (⟨58, by decide⟩ : DmaSem sig)) 0 ∗ semVal ((c : Thread nD τ), SemLoc.dma (⟨59, by decide⟩ : DmaSem sig)) 0 ∗ semVal ((c : Thread nD τ), SemLoc.dma (⟨60, by decide⟩ : DmaSem sig)) 0 ∗ semVal ((c : Thread nD τ), SemLoc.dma (⟨61, by decide⟩ : DmaSem sig)) 0 ∗ semVal ((c : Thread nD τ), SemLoc.dma (⟨62, by decide⟩ : DmaSem sig)) 0 ∗ semVal ((c : Thread nD τ), SemLoc.dma (⟨63, by decide⟩ : DmaSem sig)) 0 ∗ semVal ((c : Thread nD τ), SemLoc.dma (⟨64, by decide⟩ : DmaSem sig)) 0 ∗ semVal ((c : Thread nD τ), SemLoc.dma (⟨65, by decide⟩ : DmaSem sig)) 0 ∗ semVal ((c : Thread nD τ), SemLoc.dma (⟨66, by decide⟩ : DmaSem sig)) 0 ∗ semVal ((c : Thread nD τ), SemLoc.dma (⟨67, by decide⟩ : DmaSem sig)) 0 ∗ semVal ((c : Thread nD τ), SemLoc.dma (⟨68, by decide⟩ : DmaSem sig)) 0 ∗ semVal ((c : Thread nD τ), SemLoc.dma (⟨69, by decide⟩ : DmaSem sig)) 0 ∗ semVal ((c : Thread nD τ), SemLoc.dma (⟨70, by decide⟩ : DmaSem sig)) 0 ∗ semVal ((c : Thread nD τ), SemLoc.dma (⟨71, by decide⟩ : DmaSem sig)) 0 ∗ semVal ((c : Thread nD τ), SemLoc.dma (⟨72, by decide⟩ : DmaSem sig)) 0 ∗ semVal ((c : Thread nD τ), SemLoc.dma (⟨73, by decide⟩ : DmaSem sig)) 0 ∗ semVal ((c : Thread nD τ), SemLoc.dma (⟨74, by decide⟩ : DmaSem sig)) 0 ∗ semVal ((c : Thread nD τ), SemLoc.dma (⟨75, by decide⟩ : DmaSem sig)) 0 ∗ semVal ((c : Thread nD τ), SemLoc.dma (⟨76, by decide⟩ : DmaSem sig)) 0 ∗ semVal ((c : Thread nD τ), SemLoc.dma (⟨77, by decide⟩ : DmaSem sig)) 0 ∗ semVal ((c : Thread nD τ), SemLoc.dma (⟨78, by decide⟩ : DmaSem sig)) 0 ∗ semVal ((c : Thread nD τ), SemLoc.dma (⟨79, by decide⟩ : DmaSem sig)) 0 ∗ semVal ((c : Thread nD τ), SemLoc.dma (⟨80, by decide⟩ : DmaSem sig)) 0 ∗ semVal ((c : Thread nD τ), SemLoc.dma (⟨81, by decide⟩ : DmaSem sig)) 0 ∗ semVal ((c : Thread nD τ), SemLoc.dma (⟨82, by decide⟩ : DmaSem sig)) 0 ∗ semVal ((c : Thread nD τ), SemLoc.dma (⟨83, by decide⟩ : DmaSem sig)) 0 ∗ semVal ((c : Thread nD τ), SemLoc.dma (⟨84, by decide⟩ : DmaSem sig)) 0 ∗ semVal ((c : Thread nD τ), SemLoc.dma (⟨85, by decide⟩ : DmaSem sig)) 0 ∗ semVal ((c : Thread nD τ), SemLoc.dma (⟨86, by decide⟩ : DmaSem sig)) 0 ∗ semVal ((c : Thread nD τ), SemLoc.dma (⟨87, by decide⟩ : DmaSem sig)) 0 ∗ semVal ((c : Thread nD τ), SemLoc.dma (⟨88, by decide⟩ : DmaSem sig)) 0 ∗ semVal ((c : Thread nD τ), SemLoc.dma (⟨89, by decide⟩ : DmaSem sig)) 0 ∗ semVal ((c : Thread nD τ), SemLoc.dma (⟨90, by decide⟩ : DmaSem sig)) 0 ∗ semVal ((c : Thread nD τ), SemLoc.dma (⟨91, by decide⟩ : DmaSem sig)) 0 ∗ semVal ((c : Thread nD τ), SemLoc.dma (⟨92, by decide⟩ : DmaSem sig)) 0 ∗ semVal ((c : Thread nD τ), SemLoc.dma (⟨93, by decide⟩ : DmaSem sig)) 0 ∗ semVal ((c : Thread nD τ), SemLoc.dma (⟨94, by decide⟩ : DmaSem sig)) 0 ∗ semVal ((c : Thread nD τ), SemLoc.dma (⟨95, by decide⟩ : DmaSem sig)) 0 ∗ semVal ((c : Thread nD τ), SemLoc.dma (⟨96, by decide⟩ : DmaSem sig)) 0 ∗ semVal ((c : Thread nD τ), SemLoc.dma (⟨97, by decide⟩ : DmaSem sig)) 0 ∗ semVal ((c : Thread nD τ), SemLoc.dma (⟨98, by decide⟩ : DmaSem sig)) 0 ∗ semVal ((c : Thread nD τ), SemLoc.dma (⟨99, by decide⟩ : DmaSem sig)) 0 ∗ semVal ((c : Thread nD τ), SemLoc.dma (⟨100, by decide⟩ : DmaSem sig)) 0 ∗ semVal ((c : Thread nD τ), SemLoc.dma (⟨101, by decide⟩ : DmaSem sig)) 0 ∗ semVal ((c : Thread nD τ), SemLoc.dma (⟨102, by decide⟩ : DmaSem sig)) 0 ∗ semVal ((c : Thread nD τ), SemLoc.dma (⟨103, by decide⟩ : DmaSem sig)) 0 ∗ semVal ((c : Thread nD τ), SemLoc.dma (⟨104, by decide⟩ : DmaSem sig)) 0 ∗ semVal ((c : Thread nD τ), SemLoc.dma (⟨105, by decide⟩ : DmaSem sig)) 0 ∗ semVal ((c : Thread nD τ), SemLoc.dma (⟨106, by decide⟩ : DmaSem sig)) 0 ∗ semVal ((c : Thread nD τ), SemLoc.dma (⟨107, by decide⟩ : DmaSem sig)) 0 ∗ semVal ((c : Thread nD τ), SemLoc.dma (⟨108, by decide⟩ : DmaSem sig)) 0 ∗ semVal ((c : Thread nD τ), SemLoc.dma (⟨109, by decide⟩ : DmaSem sig)) 0 ∗ semVal ((c : Thread nD τ), SemLoc.dma (⟨110, by decide⟩ : DmaSem sig)) 0 ∗ semVal ((c : Thread nD τ), SemLoc.dma (⟨111, by decide⟩ : DmaSem sig)) 0 ∗ semVal ((c : Thread nD τ), SemLoc.dma (⟨112, by decide⟩ : DmaSem sig)) 0 ∗ semVal ((c : Thread nD τ), SemLoc.dma (⟨113, by decide⟩ : DmaSem sig)) 0 ∗ semVal ((c : Thread nD τ), SemLoc.dma (⟨114, by decide⟩ : DmaSem sig)) 0 ∗ semVal ((c : Thread nD τ), SemLoc.dma (⟨115, by decide⟩ : DmaSem sig)) 0 ∗ semVal ((c : Thread nD τ), SemLoc.dma (⟨116, by decide⟩ : DmaSem sig)) 0 ∗ semVal ((c : Thread nD τ), SemLoc.dma (⟨117, by decide⟩ : DmaSem sig)) 0 ∗ semVal ((c : Thread nD τ), SemLoc.dma (⟨118, by decide⟩ : DmaSem sig)) 0 ∗ semVal ((c : Thread nD τ), SemLoc.dma (⟨119, by decide⟩ : DmaSem sig)) 0 ∗ semVal ((c : Thread nD τ), SemLoc.dma (⟨120, by decide⟩ : DmaSem sig)) 0 ∗ semVal ((c : Thread nD τ), SemLoc.dma (⟨121, by decide⟩ : DmaSem sig)) 0 ∗ semVal ((c : Thread nD τ), SemLoc.dma (⟨122, by decide⟩ : DmaSem sig)) 0 ∗ semVal ((c : Thread nD τ), SemLoc.dma (⟨123, by decide⟩ : DmaSem sig)) 0 ∗ semVal ((c : Thread nD τ), SemLoc.dma (⟨124, by decide⟩ : DmaSem sig)) 0 ∗ semVal ((c : Thread nD τ), SemLoc.dma (⟨125, by decide⟩ : DmaSem sig)) 0 ∗ semVal ((c : Thread nD τ), SemLoc.dma (⟨126, by decide⟩ : DmaSem sig)) 0 ∗ semVal ((c : Thread nD τ), SemLoc.dma (⟨127, by decide⟩ : DmaSem sig)) 0 ∗ semVal ((c : Thread nD τ), SemLoc.dma (⟨128, by decide⟩ : DmaSem sig)) 0 ∗ semVal ((c : Thread nD τ), SemLoc.dma (⟨129, by decide⟩ : DmaSem sig)) 0)

/-- The indices, listed. -/
def idx128 : List (Fin 128) := [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61, 62, 63, 64, 65, 66, 67, 68, 69, 70, 71, 72, 73, 74, 75, 76, 77, 78, 79, 80, 81, 82, 83, 84, 85, 86, 87, 88, 89, 90, 91, 92, 93, 94, 95, 96, 97, 98, 99, 100, 101, 102, 103, 104, 105, 106, 107, 108, 109, 110, 111, 112, 113, 114, 115, 116, 117, 118, 119, 120, 121, 122, 123, 124, 125, 126, 127]
def idx130 : List ℕ := [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61, 62, 63, 64, 65, 66, 67, 68, 69, 70, 71, 72, 73, 74, 75, 76, 77, 78, 79, 80, 81, 82, 83, 84, 85, 86, 87, 88, 89, 90, 91, 92, 93, 94, 95, 96, 97, 98, 99, 100, 101, 102, 103, 104, 105, 106, 107, 108, 109, 110, 111, 112, 113, 114, 115, 116, 117, 118, 119, 120, 121, 122, 123, 124, 125, 126, 127, 128, 129]

/-! The names the run gives the listed hypotheses. -/
set_option hygiene false in
macro "icases_rows " h:ident : tactic => `(tactic| icases $h:ident with ⟨HS0, HS1, HS2, HS3, HS4, HS5, HS6, HS7, HS8, HS9, HS10, HS11, HS12, HS13, HS14, HS15, HS16, HS17, HS18, HS19, HS20, HS21, HS22, HS23, HS24, HS25, HS26, HS27, HS28, HS29, HS30, HS31, HS32, HS33, HS34, HS35, HS36, HS37, HS38, HS39, HS40, HS41, HS42, HS43, HS44, HS45, HS46, HS47, HS48, HS49, HS50, HS51, HS52, HS53, HS54, HS55, HS56, HS57, HS58, HS59, HS60, HS61, HS62, HS63, HS64, HS65, HS66, HS67, HS68, HS69, HS70, HS71, HS72, HS73, HS74, HS75, HS76, HS77, HS78, HS79, HS80, HS81, HS82, HS83, HS84, HS85, HS86, HS87, HS88, HS89, HS90, HS91, HS92, HS93, HS94, HS95, HS96, HS97, HS98, HS99, HS100, HS101, HS102, HS103, HS104, HS105, HS106, HS107, HS108, HS109, HS110, HS111, HS112, HS113, HS114, HS115, HS116, HS117, HS118, HS119, HS120, HS121, HS122, HS123, HS124, HS125, HS126, HS127⟩)
set_option hygiene false in
macro "icases_toks " h:ident : tactic => `(tactic| icases $h:ident with ⟨Hrem, Hx0, Hx1, Hh0, Hh1, Hh2, Hh3, Hh4, Hh5, Hh6, Hh7, Hh8, Hh9, Hh10, Hh11, Hh12, Hh13, Hh14, Hh15, Hh16, Hh17, Hh18, Hh19, Hh20, Hh21, Hh22, Hh23, Hh24, Hh25, Hh26, Hh27, Hh28, Hh29, Hh30, Hh31, Hh32, Hh33, Hh34, Hh35, Hh36, Hh37, Hh38, Hh39, Hh40, Hh41, Hh42, Hh43, Hh44, Hh45, Hh46, Hh47, Hh48, Hh49, Hh50, Hh51, Hh52, Hh53, Hh54, Hh55, Hh56, Hh57, Hh58, Hh59, Hh60, Hh61, Hh62, Hh63, Hh64, Hh65, Hh66, Hh67, Hh68, Hh69, Hh70, Hh71, Hh72, Hh73, Hh74, Hh75, Hh76, Hh77, Hh78, Hh79, Hh80, Hh81, Hh82, Hh83, Hh84, Hh85, Hh86, Hh87, Hh88, Hh89, Hh90, Hh91, Hh92, Hh93, Hh94, Hh95, Hh96, Hh97, Hh98, Hh99, Hh100, Hh101, Hh102, Hh103, Hh104, Hh105, Hh106, Hh107, Hh108, Hh109, Hh110, Hh111, Hh112, Hh113, Hh114, Hh115, Hh116, Hh117, Hh118, Hh119, Hh120, Hh121, Hh122, Hh123, Hh124, Hh125, Hh126, Hh127⟩)
set_option hygiene false in
macro "icases_sems " h:ident : tactic => `(tactic| icases $h:ident with ⟨Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, Hq25, Hq26, Hq27, Hq28, Hq29, Hq30, Hq31, Hq32, Hq33, Hq34, Hq35, Hq36, Hq37, Hq38, Hq39, Hq40, Hq41, Hq42, Hq43, Hq44, Hq45, Hq46, Hq47, Hq48, Hq49, Hq50, Hq51, Hq52, Hq53, Hq54, Hq55, Hq56, Hq57, Hq58, Hq59, Hq60, Hq61, Hq62, Hq63, Hq64, Hq65, Hq66, Hq67, Hq68, Hq69, Hq70, Hq71, Hq72, Hq73, Hq74, Hq75, Hq76, Hq77, Hq78, Hq79, Hq80, Hq81, Hq82, Hq83, Hq84, Hq85, Hq86, Hq87, Hq88, Hq89, Hq90, Hq91, Hq92, Hq93, Hq94, Hq95, Hq96, Hq97, Hq98, Hq99, Hq100, Hq101, Hq102, Hq103, Hq104, Hq105, Hq106, Hq107, Hq108, Hq109, Hq110, Hq111, Hq112, Hq113, Hq114, Hq115, Hq116, Hq117, Hq118, Hq119, Hq120, Hq121, Hq122, Hq123, Hq124, Hq125, Hq126, Hq127⟩)
set_option hygiene false in
macro "isplitl_rows" : tactic => `(tactic| isplitl [HS0 HS1 HS2 HS3 HS4 HS5 HS6 HS7 HS8 HS9 HS10 HS11 HS12 HS13 HS14 HS15 HS16 HS17 HS18 HS19 HS20 HS21 HS22 HS23 HS24 HS25 HS26 HS27 HS28 HS29 HS30 HS31 HS32 HS33 HS34 HS35 HS36 HS37 HS38 HS39 HS40 HS41 HS42 HS43 HS44 HS45 HS46 HS47 HS48 HS49 HS50 HS51 HS52 HS53 HS54 HS55 HS56 HS57 HS58 HS59 HS60 HS61 HS62 HS63 HS64 HS65 HS66 HS67 HS68 HS69 HS70 HS71 HS72 HS73 HS74 HS75 HS76 HS77 HS78 HS79 HS80 HS81 HS82 HS83 HS84 HS85 HS86 HS87 HS88 HS89 HS90 HS91 HS92 HS93 HS94 HS95 HS96 HS97 HS98 HS99 HS100 HS101 HS102 HS103 HS104 HS105 HS106 HS107 HS108 HS109 HS110 HS111 HS112 HS113 HS114 HS115 HS116 HS117 HS118 HS119 HS120 HS121 HS122 HS123 HS124 HS125 HS126 HS127])
set_option hygiene false in
macro "isplitl_toks" : tactic => `(tactic| isplitl [Hrem Hx0 Hx1 Hh0 Hh1 Hh2 Hh3 Hh4 Hh5 Hh6 Hh7 Hh8 Hh9 Hh10 Hh11 Hh12 Hh13 Hh14 Hh15 Hh16 Hh17 Hh18 Hh19 Hh20 Hh21 Hh22 Hh23 Hh24 Hh25 Hh26 Hh27 Hh28 Hh29 Hh30 Hh31 Hh32 Hh33 Hh34 Hh35 Hh36 Hh37 Hh38 Hh39 Hh40 Hh41 Hh42 Hh43 Hh44 Hh45 Hh46 Hh47 Hh48 Hh49 Hh50 Hh51 Hh52 Hh53 Hh54 Hh55 Hh56 Hh57 Hh58 Hh59 Hh60 Hh61 Hh62 Hh63 Hh64 Hh65 Hh66 Hh67 Hh68 Hh69 Hh70 Hh71 Hh72 Hh73 Hh74 Hh75 Hh76 Hh77 Hh78 Hh79 Hh80 Hh81 Hh82 Hh83 Hh84 Hh85 Hh86 Hh87 Hh88 Hh89 Hh90 Hh91 Hh92 Hh93 Hh94 Hh95 Hh96 Hh97 Hh98 Hh99 Hh100 Hh101 Hh102 Hh103 Hh104 Hh105 Hh106 Hh107 Hh108 Hh109 Hh110 Hh111 Hh112 Hh113 Hh114 Hh115 Hh116 Hh117 Hh118 Hh119 Hh120 Hh121 Hh122 Hh123 Hh124 Hh125 Hh126 Hh127])
set_option hygiene false in
macro "isplitl_sems" : tactic => `(tactic| isplitl [Hq0 Hq1 Hq2 Hq3 Hq4 Hq5 Hq6 Hq7 Hq8 Hq9 Hq10 Hq11 Hq12 Hq13 Hq14 Hq15 Hq16 Hq17 Hq18 Hq19 Hq20 Hq21 Hq22 Hq23 Hq24 Hq25 Hq26 Hq27 Hq28 Hq29 Hq30 Hq31 Hq32 Hq33 Hq34 Hq35 Hq36 Hq37 Hq38 Hq39 Hq40 Hq41 Hq42 Hq43 Hq44 Hq45 Hq46 Hq47 Hq48 Hq49 Hq50 Hq51 Hq52 Hq53 Hq54 Hq55 Hq56 Hq57 Hq58 Hq59 Hq60 Hq61 Hq62 Hq63 Hq64 Hq65 Hq66 Hq67 Hq68 Hq69 Hq70 Hq71 Hq72 Hq73 Hq74 Hq75 Hq76 Hq77 Hq78 Hq79 Hq80 Hq81 Hq82 Hq83 Hq84 Hq85 Hq86 Hq87 Hq88 Hq89 Hq90 Hq91 Hq92 Hq93 Hq94 Hq95 Hq96 Hq97 Hq98 Hq99 Hq100 Hq101 Hq102 Hq103 Hq104 Hq105 Hq106 Hq107 Hq108 Hq109 Hq110 Hq111 Hq112 Hq113 Hq114 Hq115 Hq116 Hq117 Hq118 Hq119 Hq120 Hq121 Hq122 Hq123 Hq124 Hq125 Hq126 Hq127])
set_option hygiene false in
macro "iexact_rows" : tactic => `(tactic| (isplitl [HS0]; iexact HS0; isplitl [HS1]; iexact HS1; isplitl [HS2]; iexact HS2; isplitl [HS3]; iexact HS3; isplitl [HS4]; iexact HS4; isplitl [HS5]; iexact HS5; isplitl [HS6]; iexact HS6; isplitl [HS7]; iexact HS7; isplitl [HS8]; iexact HS8; isplitl [HS9]; iexact HS9; isplitl [HS10]; iexact HS10; isplitl [HS11]; iexact HS11; isplitl [HS12]; iexact HS12; isplitl [HS13]; iexact HS13; isplitl [HS14]; iexact HS14; isplitl [HS15]; iexact HS15; isplitl [HS16]; iexact HS16; isplitl [HS17]; iexact HS17; isplitl [HS18]; iexact HS18; isplitl [HS19]; iexact HS19; isplitl [HS20]; iexact HS20; isplitl [HS21]; iexact HS21; isplitl [HS22]; iexact HS22; isplitl [HS23]; iexact HS23; isplitl [HS24]; iexact HS24; isplitl [HS25]; iexact HS25; isplitl [HS26]; iexact HS26; isplitl [HS27]; iexact HS27; isplitl [HS28]; iexact HS28; isplitl [HS29]; iexact HS29; isplitl [HS30]; iexact HS30; isplitl [HS31]; iexact HS31; isplitl [HS32]; iexact HS32; isplitl [HS33]; iexact HS33; isplitl [HS34]; iexact HS34; isplitl [HS35]; iexact HS35; isplitl [HS36]; iexact HS36; isplitl [HS37]; iexact HS37; isplitl [HS38]; iexact HS38; isplitl [HS39]; iexact HS39; isplitl [HS40]; iexact HS40; isplitl [HS41]; iexact HS41; isplitl [HS42]; iexact HS42; isplitl [HS43]; iexact HS43; isplitl [HS44]; iexact HS44; isplitl [HS45]; iexact HS45; isplitl [HS46]; iexact HS46; isplitl [HS47]; iexact HS47; isplitl [HS48]; iexact HS48; isplitl [HS49]; iexact HS49; isplitl [HS50]; iexact HS50; isplitl [HS51]; iexact HS51; isplitl [HS52]; iexact HS52; isplitl [HS53]; iexact HS53; isplitl [HS54]; iexact HS54; isplitl [HS55]; iexact HS55; isplitl [HS56]; iexact HS56; isplitl [HS57]; iexact HS57; isplitl [HS58]; iexact HS58; isplitl [HS59]; iexact HS59; isplitl [HS60]; iexact HS60; isplitl [HS61]; iexact HS61; isplitl [HS62]; iexact HS62; isplitl [HS63]; iexact HS63; isplitl [HS64]; iexact HS64; isplitl [HS65]; iexact HS65; isplitl [HS66]; iexact HS66; isplitl [HS67]; iexact HS67; isplitl [HS68]; iexact HS68; isplitl [HS69]; iexact HS69; isplitl [HS70]; iexact HS70; isplitl [HS71]; iexact HS71; isplitl [HS72]; iexact HS72; isplitl [HS73]; iexact HS73; isplitl [HS74]; iexact HS74; isplitl [HS75]; iexact HS75; isplitl [HS76]; iexact HS76; isplitl [HS77]; iexact HS77; isplitl [HS78]; iexact HS78; isplitl [HS79]; iexact HS79; isplitl [HS80]; iexact HS80; isplitl [HS81]; iexact HS81; isplitl [HS82]; iexact HS82; isplitl [HS83]; iexact HS83; isplitl [HS84]; iexact HS84; isplitl [HS85]; iexact HS85; isplitl [HS86]; iexact HS86; isplitl [HS87]; iexact HS87; isplitl [HS88]; iexact HS88; isplitl [HS89]; iexact HS89; isplitl [HS90]; iexact HS90; isplitl [HS91]; iexact HS91; isplitl [HS92]; iexact HS92; isplitl [HS93]; iexact HS93; isplitl [HS94]; iexact HS94; isplitl [HS95]; iexact HS95; isplitl [HS96]; iexact HS96; isplitl [HS97]; iexact HS97; isplitl [HS98]; iexact HS98; isplitl [HS99]; iexact HS99; isplitl [HS100]; iexact HS100; isplitl [HS101]; iexact HS101; isplitl [HS102]; iexact HS102; isplitl [HS103]; iexact HS103; isplitl [HS104]; iexact HS104; isplitl [HS105]; iexact HS105; isplitl [HS106]; iexact HS106; isplitl [HS107]; iexact HS107; isplitl [HS108]; iexact HS108; isplitl [HS109]; iexact HS109; isplitl [HS110]; iexact HS110; isplitl [HS111]; iexact HS111; isplitl [HS112]; iexact HS112; isplitl [HS113]; iexact HS113; isplitl [HS114]; iexact HS114; isplitl [HS115]; iexact HS115; isplitl [HS116]; iexact HS116; isplitl [HS117]; iexact HS117; isplitl [HS118]; iexact HS118; isplitl [HS119]; iexact HS119; isplitl [HS120]; iexact HS120; isplitl [HS121]; iexact HS121; isplitl [HS122]; iexact HS122; isplitl [HS123]; iexact HS123; isplitl [HS124]; iexact HS124; isplitl [HS125]; iexact HS125; isplitl [HS126]; iexact HS126; iexact HS127))
set_option hygiene false in
macro "iexact_toks" : tactic => `(tactic| (isplitl [Hrem]; iexact Hrem; isplitl [Hx0]; iexact Hx0; isplitl [Hx1]; iexact Hx1; isplitl [Hh0]; iexact Hh0; isplitl [Hh1]; iexact Hh1; isplitl [Hh2]; iexact Hh2; isplitl [Hh3]; iexact Hh3; isplitl [Hh4]; iexact Hh4; isplitl [Hh5]; iexact Hh5; isplitl [Hh6]; iexact Hh6; isplitl [Hh7]; iexact Hh7; isplitl [Hh8]; iexact Hh8; isplitl [Hh9]; iexact Hh9; isplitl [Hh10]; iexact Hh10; isplitl [Hh11]; iexact Hh11; isplitl [Hh12]; iexact Hh12; isplitl [Hh13]; iexact Hh13; isplitl [Hh14]; iexact Hh14; isplitl [Hh15]; iexact Hh15; isplitl [Hh16]; iexact Hh16; isplitl [Hh17]; iexact Hh17; isplitl [Hh18]; iexact Hh18; isplitl [Hh19]; iexact Hh19; isplitl [Hh20]; iexact Hh20; isplitl [Hh21]; iexact Hh21; isplitl [Hh22]; iexact Hh22; isplitl [Hh23]; iexact Hh23; isplitl [Hh24]; iexact Hh24; isplitl [Hh25]; iexact Hh25; isplitl [Hh26]; iexact Hh26; isplitl [Hh27]; iexact Hh27; isplitl [Hh28]; iexact Hh28; isplitl [Hh29]; iexact Hh29; isplitl [Hh30]; iexact Hh30; isplitl [Hh31]; iexact Hh31; isplitl [Hh32]; iexact Hh32; isplitl [Hh33]; iexact Hh33; isplitl [Hh34]; iexact Hh34; isplitl [Hh35]; iexact Hh35; isplitl [Hh36]; iexact Hh36; isplitl [Hh37]; iexact Hh37; isplitl [Hh38]; iexact Hh38; isplitl [Hh39]; iexact Hh39; isplitl [Hh40]; iexact Hh40; isplitl [Hh41]; iexact Hh41; isplitl [Hh42]; iexact Hh42; isplitl [Hh43]; iexact Hh43; isplitl [Hh44]; iexact Hh44; isplitl [Hh45]; iexact Hh45; isplitl [Hh46]; iexact Hh46; isplitl [Hh47]; iexact Hh47; isplitl [Hh48]; iexact Hh48; isplitl [Hh49]; iexact Hh49; isplitl [Hh50]; iexact Hh50; isplitl [Hh51]; iexact Hh51; isplitl [Hh52]; iexact Hh52; isplitl [Hh53]; iexact Hh53; isplitl [Hh54]; iexact Hh54; isplitl [Hh55]; iexact Hh55; isplitl [Hh56]; iexact Hh56; isplitl [Hh57]; iexact Hh57; isplitl [Hh58]; iexact Hh58; isplitl [Hh59]; iexact Hh59; isplitl [Hh60]; iexact Hh60; isplitl [Hh61]; iexact Hh61; isplitl [Hh62]; iexact Hh62; isplitl [Hh63]; iexact Hh63; isplitl [Hh64]; iexact Hh64; isplitl [Hh65]; iexact Hh65; isplitl [Hh66]; iexact Hh66; isplitl [Hh67]; iexact Hh67; isplitl [Hh68]; iexact Hh68; isplitl [Hh69]; iexact Hh69; isplitl [Hh70]; iexact Hh70; isplitl [Hh71]; iexact Hh71; isplitl [Hh72]; iexact Hh72; isplitl [Hh73]; iexact Hh73; isplitl [Hh74]; iexact Hh74; isplitl [Hh75]; iexact Hh75; isplitl [Hh76]; iexact Hh76; isplitl [Hh77]; iexact Hh77; isplitl [Hh78]; iexact Hh78; isplitl [Hh79]; iexact Hh79; isplitl [Hh80]; iexact Hh80; isplitl [Hh81]; iexact Hh81; isplitl [Hh82]; iexact Hh82; isplitl [Hh83]; iexact Hh83; isplitl [Hh84]; iexact Hh84; isplitl [Hh85]; iexact Hh85; isplitl [Hh86]; iexact Hh86; isplitl [Hh87]; iexact Hh87; isplitl [Hh88]; iexact Hh88; isplitl [Hh89]; iexact Hh89; isplitl [Hh90]; iexact Hh90; isplitl [Hh91]; iexact Hh91; isplitl [Hh92]; iexact Hh92; isplitl [Hh93]; iexact Hh93; isplitl [Hh94]; iexact Hh94; isplitl [Hh95]; iexact Hh95; isplitl [Hh96]; iexact Hh96; isplitl [Hh97]; iexact Hh97; isplitl [Hh98]; iexact Hh98; isplitl [Hh99]; iexact Hh99; isplitl [Hh100]; iexact Hh100; isplitl [Hh101]; iexact Hh101; isplitl [Hh102]; iexact Hh102; isplitl [Hh103]; iexact Hh103; isplitl [Hh104]; iexact Hh104; isplitl [Hh105]; iexact Hh105; isplitl [Hh106]; iexact Hh106; isplitl [Hh107]; iexact Hh107; isplitl [Hh108]; iexact Hh108; isplitl [Hh109]; iexact Hh109; isplitl [Hh110]; iexact Hh110; isplitl [Hh111]; iexact Hh111; isplitl [Hh112]; iexact Hh112; isplitl [Hh113]; iexact Hh113; isplitl [Hh114]; iexact Hh114; isplitl [Hh115]; iexact Hh115; isplitl [Hh116]; iexact Hh116; isplitl [Hh117]; iexact Hh117; isplitl [Hh118]; iexact Hh118; isplitl [Hh119]; iexact Hh119; isplitl [Hh120]; iexact Hh120; isplitl [Hh121]; iexact Hh121; isplitl [Hh122]; iexact Hh122; isplitl [Hh123]; iexact Hh123; isplitl [Hh124]; iexact Hh124; isplitl [Hh125]; iexact Hh125; isplitl [Hh126]; iexact Hh126; iexact Hh127))
set_option hygiene false in
macro "iexact_sems" : tactic => `(tactic| (isplitl [Hq0]; iexact Hq0; isplitl [Hq1]; iexact Hq1; isplitl [Hq2]; iexact Hq2; isplitl [Hq3]; iexact Hq3; isplitl [Hq4]; iexact Hq4; isplitl [Hq5]; iexact Hq5; isplitl [Hq6]; iexact Hq6; isplitl [Hq7]; iexact Hq7; isplitl [Hq8]; iexact Hq8; isplitl [Hq9]; iexact Hq9; isplitl [Hq10]; iexact Hq10; isplitl [Hq11]; iexact Hq11; isplitl [Hq12]; iexact Hq12; isplitl [Hq13]; iexact Hq13; isplitl [Hq14]; iexact Hq14; isplitl [Hq15]; iexact Hq15; isplitl [Hq16]; iexact Hq16; isplitl [Hq17]; iexact Hq17; isplitl [Hq18]; iexact Hq18; isplitl [Hq19]; iexact Hq19; isplitl [Hq20]; iexact Hq20; isplitl [Hq21]; iexact Hq21; isplitl [Hq22]; iexact Hq22; isplitl [Hq23]; iexact Hq23; isplitl [Hq24]; iexact Hq24; isplitl [Hq25]; iexact Hq25; isplitl [Hq26]; iexact Hq26; isplitl [Hq27]; iexact Hq27; isplitl [Hq28]; iexact Hq28; isplitl [Hq29]; iexact Hq29; isplitl [Hq30]; iexact Hq30; isplitl [Hq31]; iexact Hq31; isplitl [Hq32]; iexact Hq32; isplitl [Hq33]; iexact Hq33; isplitl [Hq34]; iexact Hq34; isplitl [Hq35]; iexact Hq35; isplitl [Hq36]; iexact Hq36; isplitl [Hq37]; iexact Hq37; isplitl [Hq38]; iexact Hq38; isplitl [Hq39]; iexact Hq39; isplitl [Hq40]; iexact Hq40; isplitl [Hq41]; iexact Hq41; isplitl [Hq42]; iexact Hq42; isplitl [Hq43]; iexact Hq43; isplitl [Hq44]; iexact Hq44; isplitl [Hq45]; iexact Hq45; isplitl [Hq46]; iexact Hq46; isplitl [Hq47]; iexact Hq47; isplitl [Hq48]; iexact Hq48; isplitl [Hq49]; iexact Hq49; isplitl [Hq50]; iexact Hq50; isplitl [Hq51]; iexact Hq51; isplitl [Hq52]; iexact Hq52; isplitl [Hq53]; iexact Hq53; isplitl [Hq54]; iexact Hq54; isplitl [Hq55]; iexact Hq55; isplitl [Hq56]; iexact Hq56; isplitl [Hq57]; iexact Hq57; isplitl [Hq58]; iexact Hq58; isplitl [Hq59]; iexact Hq59; isplitl [Hq60]; iexact Hq60; isplitl [Hq61]; iexact Hq61; isplitl [Hq62]; iexact Hq62; isplitl [Hq63]; iexact Hq63; isplitl [Hq64]; iexact Hq64; isplitl [Hq65]; iexact Hq65; isplitl [Hq66]; iexact Hq66; isplitl [Hq67]; iexact Hq67; isplitl [Hq68]; iexact Hq68; isplitl [Hq69]; iexact Hq69; isplitl [Hq70]; iexact Hq70; isplitl [Hq71]; iexact Hq71; isplitl [Hq72]; iexact Hq72; isplitl [Hq73]; iexact Hq73; isplitl [Hq74]; iexact Hq74; isplitl [Hq75]; iexact Hq75; isplitl [Hq76]; iexact Hq76; isplitl [Hq77]; iexact Hq77; isplitl [Hq78]; iexact Hq78; isplitl [Hq79]; iexact Hq79; isplitl [Hq80]; iexact Hq80; isplitl [Hq81]; iexact Hq81; isplitl [Hq82]; iexact Hq82; isplitl [Hq83]; iexact Hq83; isplitl [Hq84]; iexact Hq84; isplitl [Hq85]; iexact Hq85; isplitl [Hq86]; iexact Hq86; isplitl [Hq87]; iexact Hq87; isplitl [Hq88]; iexact Hq88; isplitl [Hq89]; iexact Hq89; isplitl [Hq90]; iexact Hq90; isplitl [Hq91]; iexact Hq91; isplitl [Hq92]; iexact Hq92; isplitl [Hq93]; iexact Hq93; isplitl [Hq94]; iexact Hq94; isplitl [Hq95]; iexact Hq95; isplitl [Hq96]; iexact Hq96; isplitl [Hq97]; iexact Hq97; isplitl [Hq98]; iexact Hq98; isplitl [Hq99]; iexact Hq99; isplitl [Hq100]; iexact Hq100; isplitl [Hq101]; iexact Hq101; isplitl [Hq102]; iexact Hq102; isplitl [Hq103]; iexact Hq103; isplitl [Hq104]; iexact Hq104; isplitl [Hq105]; iexact Hq105; isplitl [Hq106]; iexact Hq106; isplitl [Hq107]; iexact Hq107; isplitl [Hq108]; iexact Hq108; isplitl [Hq109]; iexact Hq109; isplitl [Hq110]; iexact Hq110; isplitl [Hq111]; iexact Hq111; isplitl [Hq112]; iexact Hq112; isplitl [Hq113]; iexact Hq113; isplitl [Hq114]; iexact Hq114; isplitl [Hq115]; iexact Hq115; isplitl [Hq116]; iexact Hq116; isplitl [Hq117]; iexact Hq117; isplitl [Hq118]; iexact Hq118; isplitl [Hq119]; iexact Hq119; isplitl [Hq120]; iexact Hq120; isplitl [Hq121]; iexact Hq121; isplitl [Hq122]; iexact Hq122; isplitl [Hq123]; iexact Hq123; isplitl [Hq124]; iexact Hq124; isplitl [Hq125]; iexact Hq125; isplitl [Hq126]; iexact Hq126; iexact Hq127))

end Cert.Kernel.Hand

end
-- ==== Proof.KernelRows.lean ====
/-
  The scratch buffer row by row, the row table's read shares cell by cell, the body's semaphores one by one.

  The body's 128 copies are in flight at once: copy `k` lands in row `k` of the scratch buffer, reads the row table,
  and completes on semaphore `2 + k`. So the scratch buffer is held as its 128 rows, the row table as one read share
  per semaphore (and a remainder), and the semaphores one by one; after the waits the rows are joined again.
-/
import proofs.«410525_j11055245820322_2_alg».proof.Proof.Gen.Kernel.Launch
import proofs.«410525_j11055245820322_2_alg».proof.Proof.Gen.Kernel.Skeleton
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.ValueIdx
import proofs.«410525_j11055245820322_2_alg».proof.Proof.KernelTable
set_option maxRecDepth 16384

noncomputable section

namespace Cert.Kernel.Hand

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

theorem inbRow (k : Fin 128) : ∀ a, (![k.val, 0, 0] : Fin 3 → Nat) a + S1x1x128.size a ≤ S128x1x128.size a := by
  intro a
  have := k.isLt
  match a with
  | ⟨0, _⟩ => show k.val + 1 ≤ 128; omega
  | ⟨1, _⟩ => show 0 + 1 ≤ 1; omega
  | ⟨2, _⟩ => show 0 + 128 ≤ 128; omega

/-- Row `k` of the scratch buffer, for a variable `k` (at a literal `k` it is the table's `scRow<k>`, by `rfl`). -/
abbrev scRowF (k : Fin 128) : Memref sig .tc .vmem S1x128 .f32 :=
  (scM.slice (Rect.unit (s := S128x1x128) ![k.val, 0, 0] S1x1x128.size (inbRow k)) (fun _ => rfl)).squeeze S1x128 squeezes_S1x1x128_S1x128

/-- An element of the scratch buffer is in row `k` exactly when its first coordinate is `k`. -/
theorem mem_row (k : Fin 128) (i : S128x1x128.Idx) : i ∈ (scRowF k).view.set ↔ (i 0).val = k.val := by
  have hset : (scRowF k).view.set = (Rect.unit (s := S128x1x128) ![k.val, 0, 0] S1x1x128.size (inbRow k)).set :=
    (View.set_reshape (v := (View.whole cc0_scratch0).slice (Rect.unit (s := S128x1x128) ![k.val, 0, 0] S1x1x128.size (inbRow k))) _).trans
      (View.set_slice_whole cc0_scratch0 _)
  rw [hset, Rect.mem_set_unit]
  have h1 : (i 1).val < 1 := Nat.lt_of_lt_of_le (i 1).isLt (Nat.le_of_eq rfl)
  have h2 : (i 2).val < 128 := Nat.lt_of_lt_of_le (i 2).isLt (Nat.le_of_eq rfl)
  constructor
  · intro h
    have h0 : k.val ≤ (i 0).val ∧ (i 0).val < k.val + 1 := h 0
    omega
  · intro h a
    match a with
    | ⟨0, _⟩ => show k.val ≤ (i 0).val ∧ (i 0).val < k.val + 1; omega
    | ⟨1, _⟩ => show 0 ≤ (i 1).val ∧ (i 1).val < 0 + 1; omega
    | ⟨2, _⟩ => show 0 ≤ (i 2).val ∧ (i 2).val < 0 + 128; omega

/-- A row's contents matter only on the row. -/
theorem row_congr (c : Dev nD) (k : Fin 128) (f g : MBuf (F := F) c scM) (h : ∀ i : S128x1x128.Idx, (i 0).val = k.val → f i = g i) :
    (mOwn c (scRowF k) f : sProp 𝕄) ⊢ mOwn c (scRowF k) g := by
  have e : (mOwn c (scRowF k) f : sProp 𝕄) = mOwn c (scRowF k) g :=
    pointsTo_congr fun i hi => h i ((mem_row k i).mp hi)
  rw [e]

/-- Two different rows share no element: their elements differ in the first coordinate. -/
theorem rows_disjoint (k k' : Fin 128) (hk : k ≠ k') : Disjoint (scRowF k).view.set (scRowF k').view.set := by
  rw [Finset.disjoint_left]
  intro i hi hi'
  exact hk (Fin.ext (((mem_row k i).mp hi).symm.trans ((mem_row k' i).mp hi')))

/-- A set of elements of the scratch buffer that holds every element is the whole buffer's. -/
theorem set_of_all (S : Finset S128x1x128.Idx) (hS : ∀ i, i ∈ S) : S = scM.view.set := by
  rw [show scM.view.set = Finset.univ from View.set_whole cc0_scratch0]
  exact Finset.eq_univ_iff_forall.mpr hS

/-- The scratch buffer is the disjoint union of its rows: element `i` lies in row `i 0`. -/
theorem rows_univ (c : Dev nD) (f : MBuf (F := F) c scM) :
    (mOwn c scM f : sProp 𝕄) = bigSep Finset.univ fun k : Fin 128 => mOwn c (scRowF k) f := by
  have H := pointsTo_biUnion (Ix := Unit) (Name := ℕ) (U := Pipeline.UD sig nD τ) (Lvl := ℕ) (ℓ := scM.view.loc (c : Thread nD τ))
    (q := fullShare) (f := f) (Finset.univ : Finset (Fin 128)) (fun k => (scRowF k).view.set)
    (fun k _ k' _ hk => rows_disjoint k k' hk)
  refine (congrArg (fun S => ((scM.view.loc (c : Thread nD τ)) ↦[S]{fullShare} f : sProp 𝕄)) (set_of_all _ ?_)).symm.trans H
  intro i
  exact Finset.mem_biUnion.mpr ⟨(⟨(i 0).val, (i 0).isLt⟩ : Fin 128), Finset.mem_univ _, (mem_row _ i).mpr rfl⟩

/-- The rows one by one. -/
theorem rows_eq (c : Dev nD) (f : MBuf (F := F) c scM) : (mOwn c scM f : sProp 𝕄) = RowsAt c f := by
  rw [rows_univ c f, bigSep_univ_eq_bigSepL idx128 (by decide) (by decide)]
  rfl

/-- The scratch buffer held by its own elements is its 128 rows, each held by its own elements, at the same contents. -/
theorem rows_split (c : Dev nD) (f : MBuf (F := F) c scM) : (mOwn c scM f : sProp 𝕄) ⊢ RowsAt c f := by
  rw [rows_eq c f]

theorem rows_join (c : Dev nD) (f : MBuf (F := F) c scM) : (RowsAt c f : sProp 𝕄) ⊢ mOwn c scM f := by
  rw [rows_eq c f]

/-- The row table held whole, and its remainder with the 130 read shares one by one. -/
theorem toks_equiv (c : Dev nD) (fh : MBuf (F := F) c hbM) : (mPt c hbM fullShare fh : sProp 𝕄) ⊣⊢ ToksAt c fh := by
  have H := Transfers.pointsTo_toks_range (Ix := Unit) (Name := ℕ) (U := Pipeline.UD sig nD τ) (Lvl := ℕ)
    (ℓ := hbM.view.loc (c : Thread nD τ)) (S := Finset.univ) (f := fh) fullShare 130
  rw [bigSep_eq_bigSepL_of_eq idx130 (by decide) (by decide)] at H
  exact H

/-- The row table held whole is a remainder and one read share per semaphore of the pool (the body uses shares 2 … 129). -/
theorem toks_split (c : Dev nD) (fh : MBuf (F := F) c hbM) : (mPt c hbM fullShare fh : sProp 𝕄) ⊢ ToksAt c fh :=
  (toks_equiv c fh).1

theorem toks_join (c : Dev nD) (fh : MBuf (F := F) c hbM) : (ToksAt c fh : sProp 𝕄) ⊢ mPt c hbM fullShare fh :=
  (toks_equiv c fh).2

/-- The body's own cells at zero, one by one. -/
theorem sems_eq (c : Dev nD) :
    (Pipeline.ownSems0 (Ix := Unit) (Name := ℕ) (U := Pipeline.UD sig nD τ) (Lvl := ℕ) (Val := Elt F) (τ := τ) osem0 c : sProp 𝕄) = SemsAt c := by
  rw [Pipeline.ownSems0_eq_of_list c osem0 idx128 (by decide) (by decide)]
  rfl

end Cert.Kernel.Hand

end
-- ==== Proof.KernelTable2.lean ====
import proofs.«410525_j11055245820322_2_alg».proof.Proof.KernelTable

namespace Cert.Kernel.Hand

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

/-! Row k of the scratch buffer, once copy k has landed, holds the row table's row table[128 i + k]: land_row at k, for each k. -/
set_option maxHeartbeats 4000000 in
set_option hygiene false in
macro "land_rows0" : tactic => `(tactic| (ihave HS0 := (show mOwn c scRow0 (scRow0.view.writes (Elt F) d [⟨Rect.whole S1x128, runCore.sl.dma1 c i pf fh hall⟩]) ⊢ mOwn c scRow0 (landed pf fh i) from land_row c 0 d fh pf i (runCore.sl.r c i pf) (word_eq c pf i 0 (k0_off1 i) rfl _ _) (hall _ _) (k0_off2 (runCore.sl.r c i pf)) rfl _) $$ HS0; ihave HS1 := (show mOwn c scRow1 (scRow1.view.writes (Elt F) d [⟨Rect.whole S1x128, runCore.sl.dma2 c i pf fh hall⟩]) ⊢ mOwn c scRow1 (landed pf fh i) from land_row c 1 d fh pf i (runCore.sl.r_1 c i pf) (word_eq c pf i 1 (k0_off3 i) rfl _ _) (hall _ _) (k0_off4 (runCore.sl.r_1 c i pf)) rfl _) $$ HS1; ihave HS2 := (show mOwn c scRow2 (scRow2.view.writes (Elt F) d [⟨Rect.whole S1x128, runCore.sl.dma3 c i pf fh hall⟩]) ⊢ mOwn c scRow2 (landed pf fh i) from land_row c 2 d fh pf i (runCore.sl.r_2 c i pf) (word_eq c pf i 2 (k0_off5 i) rfl _ _) (hall _ _) (k0_off6 (runCore.sl.r_2 c i pf)) rfl _) $$ HS2; ihave HS3 := (show mOwn c scRow3 (scRow3.view.writes (Elt F) d [⟨Rect.whole S1x128, runCore.sl.dma4 c i pf fh hall⟩]) ⊢ mOwn c scRow3 (landed pf fh i) from land_row c 3 d fh pf i (runCore.sl.r_3 c i pf) (word_eq c pf i 3 (k0_off7 i) rfl _ _) (hall _ _) (k0_off8 (runCore.sl.r_3 c i pf)) rfl _) $$ HS3; ihave HS4 := (show mOwn c scRow4 (scRow4.view.writes (Elt F) d [⟨Rect.whole S1x128, runCore.sl.dma5 c i pf fh hall⟩]) ⊢ mOwn c scRow4 (landed pf fh i) from land_row c 4 d fh pf i (runCore.sl.r_4 c i pf) (word_eq c pf i 4 (k0_off9 i) rfl _ _) (hall _ _) (k0_off10 (runCore.sl.r_4 c i pf)) rfl _) $$ HS4; ihave HS5 := (show mOwn c scRow5 (scRow5.view.writes (Elt F) d [⟨Rect.whole S1x128, runCore.sl.dma6 c i pf fh hall⟩]) ⊢ mOwn c scRow5 (landed pf fh i) from land_row c 5 d fh pf i (runCore.sl.r_5 c i pf) (word_eq c pf i 5 (k0_off11 i) rfl _ _) (hall _ _) (k0_off12 (runCore.sl.r_5 c i pf)) rfl _) $$ HS5; ihave HS6 := (show mOwn c scRow6 (scRow6.view.writes (Elt F) d [⟨Rect.whole S1x128, runCore.sl.dma7 c i pf fh hall⟩]) ⊢ mOwn c scRow6 (landed pf fh i) from land_row c 6 d fh pf i (runCore.sl.r_6 c i pf) (word_eq c pf i 6 (k0_off13 i) rfl _ _) (hall _ _) (k0_off14 (runCore.sl.r_6 c i pf)) rfl _) $$ HS6; ihave HS7 := (show mOwn c scRow7 (scRow7.view.writes (Elt F) d [⟨Rect.whole S1x128, runCore.sl.dma8 c i pf fh hall⟩]) ⊢ mOwn c scRow7 (landed pf fh i) from land_row c 7 d fh pf i (runCore.sl.r_7 c i pf) (word_eq c pf i 7 (k0_off15 i) rfl _ _) (hall _ _) (k0_off16 (runCore.sl.r_7 c i pf)) rfl _) $$ HS7))
set_option maxHeartbeats 4000000 in
set_option hygiene false in
macro "land_rows1" : tactic => `(tactic| (ihave HS8 := (show mOwn c scRow8 (scRow8.view.writes (Elt F) d [⟨Rect.whole S1x128, runCore.sl.dma9 c i pf fh hall⟩]) ⊢ mOwn c scRow8 (landed pf fh i) from land_row c 8 d fh pf i (runCore.sl.r_8 c i pf) (word_eq c pf i 8 (k0_off17 i) rfl _ _) (hall _ _) (k0_off18 (runCore.sl.r_8 c i pf)) rfl _) $$ HS8; ihave HS9 := (show mOwn c scRow9 (scRow9.view.writes (Elt F) d [⟨Rect.whole S1x128, runCore.sl.dma10 c i pf fh hall⟩]) ⊢ mOwn c scRow9 (landed pf fh i) from land_row c 9 d fh pf i (runCore.sl.r_9 c i pf) (word_eq c pf i 9 (k0_off19 i) rfl _ _) (hall _ _) (k0_off20 (runCore.sl.r_9 c i pf)) rfl _) $$ HS9; ihave HS10 := (show mOwn c scRow10 (scRow10.view.writes (Elt F) d [⟨Rect.whole S1x128, runCore.sl.dma11 c i pf fh hall⟩]) ⊢ mOwn c scRow10 (landed pf fh i) from land_row c 10 d fh pf i (runCore.sl.r_10 c i pf) (word_eq c pf i 10 (k0_off21 i) rfl _ _) (hall _ _) (k0_off22 (runCore.sl.r_10 c i pf)) rfl _) $$ HS10; ihave HS11 := (show mOwn c scRow11 (scRow11.view.writes (Elt F) d [⟨Rect.whole S1x128, runCore.sl.dma12 c i pf fh hall⟩]) ⊢ mOwn c scRow11 (landed pf fh i) from land_row c 11 d fh pf i (runCore.sl.r_11 c i pf) (word_eq c pf i 11 (k0_off23 i) rfl _ _) (hall _ _) (k0_off24 (runCore.sl.r_11 c i pf)) rfl _) $$ HS11; ihave HS12 := (show mOwn c scRow12 (scRow12.view.writes (Elt F) d [⟨Rect.whole S1x128, runCore.sl.dma13 c i pf fh hall⟩]) ⊢ mOwn c scRow12 (landed pf fh i) from land_row c 12 d fh pf i (runCore.sl.r_12 c i pf) (word_eq c pf i 12 (k0_off25 i) rfl _ _) (hall _ _) (k0_off26 (runCore.sl.r_12 c i pf)) rfl _) $$ HS12; ihave HS13 := (show mOwn c scRow13 (scRow13.view.writes (Elt F) d [⟨Rect.whole S1x128, runCore.sl.dma14 c i pf fh hall⟩]) ⊢ mOwn c scRow13 (landed pf fh i) from land_row c 13 d fh pf i (runCore.sl.r_13 c i pf) (word_eq c pf i 13 (k0_off27 i) rfl _ _) (hall _ _) (k0_off28 (runCore.sl.r_13 c i pf)) rfl _) $$ HS13; ihave HS14 := (show mOwn c scRow14 (scRow14.view.writes (Elt F) d [⟨Rect.whole S1x128, runCore.sl.dma15 c i pf fh hall⟩]) ⊢ mOwn c scRow14 (landed pf fh i) from land_row c 14 d fh pf i (runCore.sl.r_14 c i pf) (word_eq c pf i 14 (k0_off29 i) rfl _ _) (hall _ _) (k0_off30 (runCore.sl.r_14 c i pf)) rfl _) $$ HS14; ihave HS15 := (show mOwn c scRow15 (scRow15.view.writes (Elt F) d [⟨Rect.whole S1x128, runCore.sl.dma16 c i pf fh hall⟩]) ⊢ mOwn c scRow15 (landed pf fh i) from land_row c 15 d fh pf i (runCore.sl.r_15 c i pf) (word_eq c pf i 15 (k0_off31 i) rfl _ _) (hall _ _) (k0_off32 (runCore.sl.r_15 c i pf)) rfl _) $$ HS15))
set_option maxHeartbeats 4000000 in
set_option hygiene false in
macro "land_rows2" : tactic => `(tactic| (ihave HS16 := (show mOwn c scRow16 (scRow16.view.writes (Elt F) d [⟨Rect.whole S1x128, runCore.sl.dma17 c i pf fh hall⟩]) ⊢ mOwn c scRow16 (landed pf fh i) from land_row c 16 d fh pf i (runCore.sl.r_16 c i pf) (word_eq c pf i 16 (k0_off33 i) rfl _ _) (hall _ _) (k0_off34 (runCore.sl.r_16 c i pf)) rfl _) $$ HS16; ihave HS17 := (show mOwn c scRow17 (scRow17.view.writes (Elt F) d [⟨Rect.whole S1x128, runCore.sl.dma18 c i pf fh hall⟩]) ⊢ mOwn c scRow17 (landed pf fh i) from land_row c 17 d fh pf i (runCore.sl.r_17 c i pf) (word_eq c pf i 17 (k0_off35 i) rfl _ _) (hall _ _) (k0_off36 (runCore.sl.r_17 c i pf)) rfl _) $$ HS17; ihave HS18 := (show mOwn c scRow18 (scRow18.view.writes (Elt F) d [⟨Rect.whole S1x128, runCore.sl.dma19 c i pf fh hall⟩]) ⊢ mOwn c scRow18 (landed pf fh i) from land_row c 18 d fh pf i (runCore.sl.r_18 c i pf) (word_eq c pf i 18 (k0_off37 i) rfl _ _) (hall _ _) (k0_off38 (runCore.sl.r_18 c i pf)) rfl _) $$ HS18; ihave HS19 := (show mOwn c scRow19 (scRow19.view.writes (Elt F) d [⟨Rect.whole S1x128, runCore.sl.dma20 c i pf fh hall⟩]) ⊢ mOwn c scRow19 (landed pf fh i) from land_row c 19 d fh pf i (runCore.sl.r_19 c i pf) (word_eq c pf i 19 (k0_off39 i) rfl _ _) (hall _ _) (k0_off40 (runCore.sl.r_19 c i pf)) rfl _) $$ HS19; ihave HS20 := (show mOwn c scRow20 (scRow20.view.writes (Elt F) d [⟨Rect.whole S1x128, runCore.sl.dma21 c i pf fh hall⟩]) ⊢ mOwn c scRow20 (landed pf fh i) from land_row c 20 d fh pf i (runCore.sl.r_20 c i pf) (word_eq c pf i 20 (k0_off41 i) rfl _ _) (hall _ _) (k0_off42 (runCore.sl.r_20 c i pf)) rfl _) $$ HS20; ihave HS21 := (show mOwn c scRow21 (scRow21.view.writes (Elt F) d [⟨Rect.whole S1x128, runCore.sl.dma22 c i pf fh hall⟩]) ⊢ mOwn c scRow21 (landed pf fh i) from land_row c 21 d fh pf i (runCore.sl.r_21 c i pf) (word_eq c pf i 21 (k0_off43 i) rfl _ _) (hall _ _) (k0_off44 (runCore.sl.r_21 c i pf)) rfl _) $$ HS21; ihave HS22 := (show mOwn c scRow22 (scRow22.view.writes (Elt F) d [⟨Rect.whole S1x128, runCore.sl.dma23 c i pf fh hall⟩]) ⊢ mOwn c scRow22 (landed pf fh i) from land_row c 22 d fh pf i (runCore.sl.r_22 c i pf) (word_eq c pf i 22 (k0_off45 i) rfl _ _) (hall _ _) (k0_off46 (runCore.sl.r_22 c i pf)) rfl _) $$ HS22; ihave HS23 := (show mOwn c scRow23 (scRow23.view.writes (Elt F) d [⟨Rect.whole S1x128, runCore.sl.dma24 c i pf fh hall⟩]) ⊢ mOwn c scRow23 (landed pf fh i) from land_row c 23 d fh pf i (runCore.sl.r_23 c i pf) (word_eq c pf i 23 (k0_off47 i) rfl _ _) (hall _ _) (k0_off48 (runCore.sl.r_23 c i pf)) rfl _) $$ HS23))
set_option maxHeartbeats 4000000 in
set_option hygiene false in
macro "land_rows3" : tactic => `(tactic| (ihave HS24 := (show mOwn c scRow24 (scRow24.view.writes (Elt F) d [⟨Rect.whole S1x128, runCore.sl.dma25 c i pf fh hall⟩]) ⊢ mOwn c scRow24 (landed pf fh i) from land_row c 24 d fh pf i (runCore.sl.r_24 c i pf) (word_eq c pf i 24 (k0_off49 i) rfl _ _) (hall _ _) (k0_off50 (runCore.sl.r_24 c i pf)) rfl _) $$ HS24; ihave HS25 := (show mOwn c scRow25 (scRow25.view.writes (Elt F) d [⟨Rect.whole S1x128, runCore.sl.dma26 c i pf fh hall⟩]) ⊢ mOwn c scRow25 (landed pf fh i) from land_row c 25 d fh pf i (runCore.sl.r_25 c i pf) (word_eq c pf i 25 (k0_off51 i) rfl _ _) (hall _ _) (k0_off52 (runCore.sl.r_25 c i pf)) rfl _) $$ HS25; ihave HS26 := (show mOwn c scRow26 (scRow26.view.writes (Elt F) d [⟨Rect.whole S1x128, runCore.sl.dma27 c i pf fh hall⟩]) ⊢ mOwn c scRow26 (landed pf fh i) from land_row c 26 d fh pf i (runCore.sl.r_26 c i pf) (word_eq c pf i 26 (k0_off53 i) rfl _ _) (hall _ _) (k0_off54 (runCore.sl.r_26 c i pf)) rfl _) $$ HS26; ihave HS27 := (show mOwn c scRow27 (scRow27.view.writes (Elt F) d [⟨Rect.whole S1x128, runCore.sl.dma28 c i pf fh hall⟩]) ⊢ mOwn c scRow27 (landed pf fh i) from land_row c 27 d fh pf i (runCore.sl.r_27 c i pf) (word_eq c pf i 27 (k0_off55 i) rfl _ _) (hall _ _) (k0_off56 (runCore.sl.r_27 c i pf)) rfl _) $$ HS27; ihave HS28 := (show mOwn c scRow28 (scRow28.view.writes (Elt F) d [⟨Rect.whole S1x128, runCore.sl.dma29 c i pf fh hall⟩]) ⊢ mOwn c scRow28 (landed pf fh i) from land_row c 28 d fh pf i (runCore.sl.r_28 c i pf) (word_eq c pf i 28 (k0_off57 i) rfl _ _) (hall _ _) (k0_off58 (runCore.sl.r_28 c i pf)) rfl _) $$ HS28; ihave HS29 := (show mOwn c scRow29 (scRow29.view.writes (Elt F) d [⟨Rect.whole S1x128, runCore.sl.dma30 c i pf fh hall⟩]) ⊢ mOwn c scRow29 (landed pf fh i) from land_row c 29 d fh pf i (runCore.sl.r_29 c i pf) (word_eq c pf i 29 (k0_off59 i) rfl _ _) (hall _ _) (k0_off60 (runCore.sl.r_29 c i pf)) rfl _) $$ HS29; ihave HS30 := (show mOwn c scRow30 (scRow30.view.writes (Elt F) d [⟨Rect.whole S1x128, runCore.sl.dma31 c i pf fh hall⟩]) ⊢ mOwn c scRow30 (landed pf fh i) from land_row c 30 d fh pf i (runCore.sl.r_30 c i pf) (word_eq c pf i 30 (k0_off61 i) rfl _ _) (hall _ _) (k0_off62 (runCore.sl.r_30 c i pf)) rfl _) $$ HS30; ihave HS31 := (show mOwn c scRow31 (scRow31.view.writes (Elt F) d [⟨Rect.whole S1x128, runCore.sl.dma32 c i pf fh hall⟩]) ⊢ mOwn c scRow31 (landed pf fh i) from land_row c 31 d fh pf i (runCore.sl.r_31 c i pf) (word_eq c pf i 31 (k0_off63 i) rfl _ _) (hall _ _) (k0_off64 (runCore.sl.r_31 c i pf)) rfl _) $$ HS31))
set_option maxHeartbeats 4000000 in
set_option hygiene false in
macro "land_rows4" : tactic => `(tactic| (ihave HS32 := (show mOwn c scRow32 (scRow32.view.writes (Elt F) d [⟨Rect.whole S1x128, runCore.sl.dma33 c i pf fh hall⟩]) ⊢ mOwn c scRow32 (landed pf fh i) from land_row c 32 d fh pf i (runCore.sl.r_32 c i pf) (word_eq c pf i 32 (k0_off65 i) rfl _ _) (hall _ _) (k0_off66 (runCore.sl.r_32 c i pf)) rfl _) $$ HS32; ihave HS33 := (show mOwn c scRow33 (scRow33.view.writes (Elt F) d [⟨Rect.whole S1x128, runCore.sl.dma34 c i pf fh hall⟩]) ⊢ mOwn c scRow33 (landed pf fh i) from land_row c 33 d fh pf i (runCore.sl.r_33 c i pf) (word_eq c pf i 33 (k0_off67 i) rfl _ _) (hall _ _) (k0_off68 (runCore.sl.r_33 c i pf)) rfl _) $$ HS33; ihave HS34 := (show mOwn c scRow34 (scRow34.view.writes (Elt F) d [⟨Rect.whole S1x128, runCore.sl.dma35 c i pf fh hall⟩]) ⊢ mOwn c scRow34 (landed pf fh i) from land_row c 34 d fh pf i (runCore.sl.r_34 c i pf) (word_eq c pf i 34 (k0_off69 i) rfl _ _) (hall _ _) (k0_off70 (runCore.sl.r_34 c i pf)) rfl _) $$ HS34; ihave HS35 := (show mOwn c scRow35 (scRow35.view.writes (Elt F) d [⟨Rect.whole S1x128, runCore.sl.dma36 c i pf fh hall⟩]) ⊢ mOwn c scRow35 (landed pf fh i) from land_row c 35 d fh pf i (runCore.sl.r_35 c i pf) (word_eq c pf i 35 (k0_off71 i) rfl _ _) (hall _ _) (k0_off72 (runCore.sl.r_35 c i pf)) rfl _) $$ HS35; ihave HS36 := (show mOwn c scRow36 (scRow36.view.writes (Elt F) d [⟨Rect.whole S1x128, runCore.sl.dma37 c i pf fh hall⟩]) ⊢ mOwn c scRow36 (landed pf fh i) from land_row c 36 d fh pf i (runCore.sl.r_36 c i pf) (word_eq c pf i 36 (k0_off73 i) rfl _ _) (hall _ _) (k0_off74 (runCore.sl.r_36 c i pf)) rfl _) $$ HS36; ihave HS37 := (show mOwn c scRow37 (scRow37.view.writes (Elt F) d [⟨Rect.whole S1x128, runCore.sl.dma38 c i pf fh hall⟩]) ⊢ mOwn c scRow37 (landed pf fh i) from land_row c 37 d fh pf i (runCore.sl.r_37 c i pf) (word_eq c pf i 37 (k0_off75 i) rfl _ _) (hall _ _) (k0_off76 (runCore.sl.r_37 c i pf)) rfl _) $$ HS37; ihave HS38 := (show mOwn c scRow38 (scRow38.view.writes (Elt F) d [⟨Rect.whole S1x128, runCore.sl.dma39 c i pf fh hall⟩]) ⊢ mOwn c scRow38 (landed pf fh i) from land_row c 38 d fh pf i (runCore.sl.r_38 c i pf) (word_eq c pf i 38 (k0_off77 i) rfl _ _) (hall _ _) (k0_off78 (runCore.sl.r_38 c i pf)) rfl _) $$ HS38; ihave HS39 := (show mOwn c scRow39 (scRow39.view.writes (Elt F) d [⟨Rect.whole S1x128, runCore.sl.dma40 c i pf fh hall⟩]) ⊢ mOwn c scRow39 (landed pf fh i) from land_row c 39 d fh pf i (runCore.sl.r_39 c i pf) (word_eq c pf i 39 (k0_off79 i) rfl _ _) (hall _ _) (k0_off80 (runCore.sl.r_39 c i pf)) rfl _) $$ HS39))
set_option maxHeartbeats 4000000 in
set_option hygiene false in
macro "land_rows5" : tactic => `(tactic| (ihave HS40 := (show mOwn c scRow40 (scRow40.view.writes (Elt F) d [⟨Rect.whole S1x128, runCore.sl.dma41 c i pf fh hall⟩]) ⊢ mOwn c scRow40 (landed pf fh i) from land_row c 40 d fh pf i (runCore.sl.r_40 c i pf) (word_eq c pf i 40 (k0_off81 i) rfl _ _) (hall _ _) (k0_off82 (runCore.sl.r_40 c i pf)) rfl _) $$ HS40; ihave HS41 := (show mOwn c scRow41 (scRow41.view.writes (Elt F) d [⟨Rect.whole S1x128, runCore.sl.dma42 c i pf fh hall⟩]) ⊢ mOwn c scRow41 (landed pf fh i) from land_row c 41 d fh pf i (runCore.sl.r_41 c i pf) (word_eq c pf i 41 (k0_off83 i) rfl _ _) (hall _ _) (k0_off84 (runCore.sl.r_41 c i pf)) rfl _) $$ HS41; ihave HS42 := (show mOwn c scRow42 (scRow42.view.writes (Elt F) d [⟨Rect.whole S1x128, runCore.sl.dma43 c i pf fh hall⟩]) ⊢ mOwn c scRow42 (landed pf fh i) from land_row c 42 d fh pf i (runCore.sl.r_42 c i pf) (word_eq c pf i 42 (k0_off85 i) rfl _ _) (hall _ _) (k0_off86 (runCore.sl.r_42 c i pf)) rfl _) $$ HS42; ihave HS43 := (show mOwn c scRow43 (scRow43.view.writes (Elt F) d [⟨Rect.whole S1x128, runCore.sl.dma44 c i pf fh hall⟩]) ⊢ mOwn c scRow43 (landed pf fh i) from land_row c 43 d fh pf i (runCore.sl.r_43 c i pf) (word_eq c pf i 43 (k0_off87 i) rfl _ _) (hall _ _) (k0_off88 (runCore.sl.r_43 c i pf)) rfl _) $$ HS43; ihave HS44 := (show mOwn c scRow44 (scRow44.view.writes (Elt F) d [⟨Rect.whole S1x128, runCore.sl.dma45 c i pf fh hall⟩]) ⊢ mOwn c scRow44 (landed pf fh i) from land_row c 44 d fh pf i (runCore.sl.r_44 c i pf) (word_eq c pf i 44 (k0_off89 i) rfl _ _) (hall _ _) (k0_off90 (runCore.sl.r_44 c i pf)) rfl _) $$ HS44; ihave HS45 := (show mOwn c scRow45 (scRow45.view.writes (Elt F) d [⟨Rect.whole S1x128, runCore.sl.dma46 c i pf fh hall⟩]) ⊢ mOwn c scRow45 (landed pf fh i) from land_row c 45 d fh pf i (runCore.sl.r_45 c i pf) (word_eq c pf i 45 (k0_off91 i) rfl _ _) (hall _ _) (k0_off92 (runCore.sl.r_45 c i pf)) rfl _) $$ HS45; ihave HS46 := (show mOwn c scRow46 (scRow46.view.writes (Elt F) d [⟨Rect.whole S1x128, runCore.sl.dma47 c i pf fh hall⟩]) ⊢ mOwn c scRow46 (landed pf fh i) from land_row c 46 d fh pf i (runCore.sl.r_46 c i pf) (word_eq c pf i 46 (k0_off93 i) rfl _ _) (hall _ _) (k0_off94 (runCore.sl.r_46 c i pf)) rfl _) $$ HS46; ihave HS47 := (show mOwn c scRow47 (scRow47.view.writes (Elt F) d [⟨Rect.whole S1x128, runCore.sl.dma48 c i pf fh hall⟩]) ⊢ mOwn c scRow47 (landed pf fh i) from land_row c 47 d fh pf i (runCore.sl.r_47 c i pf) (word_eq c pf i 47 (k0_off95 i) rfl _ _) (hall _ _) (k0_off96 (runCore.sl.r_47 c i pf)) rfl _) $$ HS47))
set_option maxHeartbeats 4000000 in
set_option hygiene false in
macro "land_rows6" : tactic => `(tactic| (ihave HS48 := (show mOwn c scRow48 (scRow48.view.writes (Elt F) d [⟨Rect.whole S1x128, runCore.sl.dma49 c i pf fh hall⟩]) ⊢ mOwn c scRow48 (landed pf fh i) from land_row c 48 d fh pf i (runCore.sl.r_48 c i pf) (word_eq c pf i 48 (k0_off97 i) rfl _ _) (hall _ _) (k0_off98 (runCore.sl.r_48 c i pf)) rfl _) $$ HS48; ihave HS49 := (show mOwn c scRow49 (scRow49.view.writes (Elt F) d [⟨Rect.whole S1x128, runCore.sl.dma50 c i pf fh hall⟩]) ⊢ mOwn c scRow49 (landed pf fh i) from land_row c 49 d fh pf i (runCore.sl.r_49 c i pf) (word_eq c pf i 49 (k0_off99 i) rfl _ _) (hall _ _) (k0_off100 (runCore.sl.r_49 c i pf)) rfl _) $$ HS49; ihave HS50 := (show mOwn c scRow50 (scRow50.view.writes (Elt F) d [⟨Rect.whole S1x128, runCore.sl.dma51 c i pf fh hall⟩]) ⊢ mOwn c scRow50 (landed pf fh i) from land_row c 50 d fh pf i (runCore.sl.r_50 c i pf) (word_eq c pf i 50 (k0_off101 i) rfl _ _) (hall _ _) (k0_off102 (runCore.sl.r_50 c i pf)) rfl _) $$ HS50; ihave HS51 := (show mOwn c scRow51 (scRow51.view.writes (Elt F) d [⟨Rect.whole S1x128, runCore.sl.dma52 c i pf fh hall⟩]) ⊢ mOwn c scRow51 (landed pf fh i) from land_row c 51 d fh pf i (runCore.sl.r_51 c i pf) (word_eq c pf i 51 (k0_off103 i) rfl _ _) (hall _ _) (k0_off104 (runCore.sl.r_51 c i pf)) rfl _) $$ HS51; ihave HS52 := (show mOwn c scRow52 (scRow52.view.writes (Elt F) d [⟨Rect.whole S1x128, runCore.sl.dma53 c i pf fh hall⟩]) ⊢ mOwn c scRow52 (landed pf fh i) from land_row c 52 d fh pf i (runCore.sl.r_52 c i pf) (word_eq c pf i 52 (k0_off105 i) rfl _ _) (hall _ _) (k0_off106 (runCore.sl.r_52 c i pf)) rfl _) $$ HS52; ihave HS53 := (show mOwn c scRow53 (scRow53.view.writes (Elt F) d [⟨Rect.whole S1x128, runCore.sl.dma54 c i pf fh hall⟩]) ⊢ mOwn c scRow53 (landed pf fh i) from land_row c 53 d fh pf i (runCore.sl.r_53 c i pf) (word_eq c pf i 53 (k0_off107 i) rfl _ _) (hall _ _) (k0_off108 (runCore.sl.r_53 c i pf)) rfl _) $$ HS53; ihave HS54 := (show mOwn c scRow54 (scRow54.view.writes (Elt F) d [⟨Rect.whole S1x128, runCore.sl.dma55 c i pf fh hall⟩]) ⊢ mOwn c scRow54 (landed pf fh i) from land_row c 54 d fh pf i (runCore.sl.r_54 c i pf) (word_eq c pf i 54 (k0_off109 i) rfl _ _) (hall _ _) (k0_off110 (runCore.sl.r_54 c i pf)) rfl _) $$ HS54; ihave HS55 := (show mOwn c scRow55 (scRow55.view.writes (Elt F) d [⟨Rect.whole S1x128, runCore.sl.dma56 c i pf fh hall⟩]) ⊢ mOwn c scRow55 (landed pf fh i) from land_row c 55 d fh pf i (runCore.sl.r_55 c i pf) (word_eq c pf i 55 (k0_off111 i) rfl _ _) (hall _ _) (k0_off112 (runCore.sl.r_55 c i pf)) rfl _) $$ HS55))
set_option maxHeartbeats 4000000 in
set_option hygiene false in
macro "land_rows7" : tactic => `(tactic| (ihave HS56 := (show mOwn c scRow56 (scRow56.view.writes (Elt F) d [⟨Rect.whole S1x128, runCore.sl.dma57 c i pf fh hall⟩]) ⊢ mOwn c scRow56 (landed pf fh i) from land_row c 56 d fh pf i (runCore.sl.r_56 c i pf) (word_eq c pf i 56 (k0_off113 i) rfl _ _) (hall _ _) (k0_off114 (runCore.sl.r_56 c i pf)) rfl _) $$ HS56; ihave HS57 := (show mOwn c scRow57 (scRow57.view.writes (Elt F) d [⟨Rect.whole S1x128, runCore.sl.dma58 c i pf fh hall⟩]) ⊢ mOwn c scRow57 (landed pf fh i) from land_row c 57 d fh pf i (runCore.sl.r_57 c i pf) (word_eq c pf i 57 (k0_off115 i) rfl _ _) (hall _ _) (k0_off116 (runCore.sl.r_57 c i pf)) rfl _) $$ HS57; ihave HS58 := (show mOwn c scRow58 (scRow58.view.writes (Elt F) d [⟨Rect.whole S1x128, runCore.sl.dma59 c i pf fh hall⟩]) ⊢ mOwn c scRow58 (landed pf fh i) from land_row c 58 d fh pf i (runCore.sl.r_58 c i pf) (word_eq c pf i 58 (k0_off117 i) rfl _ _) (hall _ _) (k0_off118 (runCore.sl.r_58 c i pf)) rfl _) $$ HS58; ihave HS59 := (show mOwn c scRow59 (scRow59.view.writes (Elt F) d [⟨Rect.whole S1x128, runCore.sl.dma60 c i pf fh hall⟩]) ⊢ mOwn c scRow59 (landed pf fh i) from land_row c 59 d fh pf i (runCore.sl.r_59 c i pf) (word_eq c pf i 59 (k0_off119 i) rfl _ _) (hall _ _) (k0_off120 (runCore.sl.r_59 c i pf)) rfl _) $$ HS59; ihave HS60 := (show mOwn c scRow60 (scRow60.view.writes (Elt F) d [⟨Rect.whole S1x128, runCore.sl.dma61 c i pf fh hall⟩]) ⊢ mOwn c scRow60 (landed pf fh i) from land_row c 60 d fh pf i (runCore.sl.r_60 c i pf) (word_eq c pf i 60 (k0_off121 i) rfl _ _) (hall _ _) (k0_off122 (runCore.sl.r_60 c i pf)) rfl _) $$ HS60; ihave HS61 := (show mOwn c scRow61 (scRow61.view.writes (Elt F) d [⟨Rect.whole S1x128, runCore.sl.dma62 c i pf fh hall⟩]) ⊢ mOwn c scRow61 (landed pf fh i) from land_row c 61 d fh pf i (runCore.sl.r_61 c i pf) (word_eq c pf i 61 (k0_off123 i) rfl _ _) (hall _ _) (k0_off124 (runCore.sl.r_61 c i pf)) rfl _) $$ HS61; ihave HS62 := (show mOwn c scRow62 (scRow62.view.writes (Elt F) d [⟨Rect.whole S1x128, runCore.sl.dma63 c i pf fh hall⟩]) ⊢ mOwn c scRow62 (landed pf fh i) from land_row c 62 d fh pf i (runCore.sl.r_62 c i pf) (word_eq c pf i 62 (k0_off125 i) rfl _ _) (hall _ _) (k0_off126 (runCore.sl.r_62 c i pf)) rfl _) $$ HS62; ihave HS63 := (show mOwn c scRow63 (scRow63.view.writes (Elt F) d [⟨Rect.whole S1x128, runCore.sl.dma64 c i pf fh hall⟩]) ⊢ mOwn c scRow63 (landed pf fh i) from land_row c 63 d fh pf i (runCore.sl.r_63 c i pf) (word_eq c pf i 63 (k0_off127 i) rfl _ _) (hall _ _) (k0_off128 (runCore.sl.r_63 c i pf)) rfl _) $$ HS63))
set_option maxHeartbeats 4000000 in
set_option hygiene false in
macro "land_rows8" : tactic => `(tactic| (ihave HS64 := (show mOwn c scRow64 (scRow64.view.writes (Elt F) d [⟨Rect.whole S1x128, runCore.sl.dma65 c i pf fh hall⟩]) ⊢ mOwn c scRow64 (landed pf fh i) from land_row c 64 d fh pf i (runCore.sl.r_64 c i pf) (word_eq c pf i 64 (k0_off129 i) rfl _ _) (hall _ _) (k0_off130 (runCore.sl.r_64 c i pf)) rfl _) $$ HS64; ihave HS65 := (show mOwn c scRow65 (scRow65.view.writes (Elt F) d [⟨Rect.whole S1x128, runCore.sl.dma66 c i pf fh hall⟩]) ⊢ mOwn c scRow65 (landed pf fh i) from land_row c 65 d fh pf i (runCore.sl.r_65 c i pf) (word_eq c pf i 65 (k0_off131 i) rfl _ _) (hall _ _) (k0_off132 (runCore.sl.r_65 c i pf)) rfl _) $$ HS65; ihave HS66 := (show mOwn c scRow66 (scRow66.view.writes (Elt F) d [⟨Rect.whole S1x128, runCore.sl.dma67 c i pf fh hall⟩]) ⊢ mOwn c scRow66 (landed pf fh i) from land_row c 66 d fh pf i (runCore.sl.r_66 c i pf) (word_eq c pf i 66 (k0_off133 i) rfl _ _) (hall _ _) (k0_off134 (runCore.sl.r_66 c i pf)) rfl _) $$ HS66; ihave HS67 := (show mOwn c scRow67 (scRow67.view.writes (Elt F) d [⟨Rect.whole S1x128, runCore.sl.dma68 c i pf fh hall⟩]) ⊢ mOwn c scRow67 (landed pf fh i) from land_row c 67 d fh pf i (runCore.sl.r_67 c i pf) (word_eq c pf i 67 (k0_off135 i) rfl _ _) (hall _ _) (k0_off136 (runCore.sl.r_67 c i pf)) rfl _) $$ HS67; ihave HS68 := (show mOwn c scRow68 (scRow68.view.writes (Elt F) d [⟨Rect.whole S1x128, runCore.sl.dma69 c i pf fh hall⟩]) ⊢ mOwn c scRow68 (landed pf fh i) from land_row c 68 d fh pf i (runCore.sl.r_68 c i pf) (word_eq c pf i 68 (k0_off137 i) rfl _ _) (hall _ _) (k0_off138 (runCore.sl.r_68 c i pf)) rfl _) $$ HS68; ihave HS69 := (show mOwn c scRow69 (scRow69.view.writes (Elt F) d [⟨Rect.whole S1x128, runCore.sl.dma70 c i pf fh hall⟩]) ⊢ mOwn c scRow69 (landed pf fh i) from land_row c 69 d fh pf i (runCore.sl.r_69 c i pf) (word_eq c pf i 69 (k0_off139 i) rfl _ _) (hall _ _) (k0_off140 (runCore.sl.r_69 c i pf)) rfl _) $$ HS69; ihave HS70 := (show mOwn c scRow70 (scRow70.view.writes (Elt F) d [⟨Rect.whole S1x128, runCore.sl.dma71 c i pf fh hall⟩]) ⊢ mOwn c scRow70 (landed pf fh i) from land_row c 70 d fh pf i (runCore.sl.r_70 c i pf) (word_eq c pf i 70 (k0_off141 i) rfl _ _) (hall _ _) (k0_off142 (runCore.sl.r_70 c i pf)) rfl _) $$ HS70; ihave HS71 := (show mOwn c scRow71 (scRow71.view.writes (Elt F) d [⟨Rect.whole S1x128, runCore.sl.dma72 c i pf fh hall⟩]) ⊢ mOwn c scRow71 (landed pf fh i) from land_row c 71 d fh pf i (runCore.sl.r_71 c i pf) (word_eq c pf i 71 (k0_off143 i) rfl _ _) (hall _ _) (k0_off144 (runCore.sl.r_71 c i pf)) rfl _) $$ HS71))
set_option maxHeartbeats 4000000 in
set_option hygiene false in
macro "land_rows9" : tactic => `(tactic| (ihave HS72 := (show mOwn c scRow72 (scRow72.view.writes (Elt F) d [⟨Rect.whole S1x128, runCore.sl.dma73 c i pf fh hall⟩]) ⊢ mOwn c scRow72 (landed pf fh i) from land_row c 72 d fh pf i (runCore.sl.r_72 c i pf) (word_eq c pf i 72 (k0_off145 i) rfl _ _) (hall _ _) (k0_off146 (runCore.sl.r_72 c i pf)) rfl _) $$ HS72; ihave HS73 := (show mOwn c scRow73 (scRow73.view.writes (Elt F) d [⟨Rect.whole S1x128, runCore.sl.dma74 c i pf fh hall⟩]) ⊢ mOwn c scRow73 (landed pf fh i) from land_row c 73 d fh pf i (runCore.sl.r_73 c i pf) (word_eq c pf i 73 (k0_off147 i) rfl _ _) (hall _ _) (k0_off148 (runCore.sl.r_73 c i pf)) rfl _) $$ HS73; ihave HS74 := (show mOwn c scRow74 (scRow74.view.writes (Elt F) d [⟨Rect.whole S1x128, runCore.sl.dma75 c i pf fh hall⟩]) ⊢ mOwn c scRow74 (landed pf fh i) from land_row c 74 d fh pf i (runCore.sl.r_74 c i pf) (word_eq c pf i 74 (k0_off149 i) rfl _ _) (hall _ _) (k0_off150 (runCore.sl.r_74 c i pf)) rfl _) $$ HS74; ihave HS75 := (show mOwn c scRow75 (scRow75.view.writes (Elt F) d [⟨Rect.whole S1x128, runCore.sl.dma76 c i pf fh hall⟩]) ⊢ mOwn c scRow75 (landed pf fh i) from land_row c 75 d fh pf i (runCore.sl.r_75 c i pf) (word_eq c pf i 75 (k0_off151 i) rfl _ _) (hall _ _) (k0_off152 (runCore.sl.r_75 c i pf)) rfl _) $$ HS75; ihave HS76 := (show mOwn c scRow76 (scRow76.view.writes (Elt F) d [⟨Rect.whole S1x128, runCore.sl.dma77 c i pf fh hall⟩]) ⊢ mOwn c scRow76 (landed pf fh i) from land_row c 76 d fh pf i (runCore.sl.r_76 c i pf) (word_eq c pf i 76 (k0_off153 i) rfl _ _) (hall _ _) (k0_off154 (runCore.sl.r_76 c i pf)) rfl _) $$ HS76; ihave HS77 := (show mOwn c scRow77 (scRow77.view.writes (Elt F) d [⟨Rect.whole S1x128, runCore.sl.dma78 c i pf fh hall⟩]) ⊢ mOwn c scRow77 (landed pf fh i) from land_row c 77 d fh pf i (runCore.sl.r_77 c i pf) (word_eq c pf i 77 (k0_off155 i) rfl _ _) (hall _ _) (k0_off156 (runCore.sl.r_77 c i pf)) rfl _) $$ HS77; ihave HS78 := (show mOwn c scRow78 (scRow78.view.writes (Elt F) d [⟨Rect.whole S1x128, runCore.sl.dma79 c i pf fh hall⟩]) ⊢ mOwn c scRow78 (landed pf fh i) from land_row c 78 d fh pf i (runCore.sl.r_78 c i pf) (word_eq c pf i 78 (k0_off157 i) rfl _ _) (hall _ _) (k0_off158 (runCore.sl.r_78 c i pf)) rfl _) $$ HS78; ihave HS79 := (show mOwn c scRow79 (scRow79.view.writes (Elt F) d [⟨Rect.whole S1x128, runCore.sl.dma80 c i pf fh hall⟩]) ⊢ mOwn c scRow79 (landed pf fh i) from land_row c 79 d fh pf i (runCore.sl.r_79 c i pf) (word_eq c pf i 79 (k0_off159 i) rfl _ _) (hall _ _) (k0_off160 (runCore.sl.r_79 c i pf)) rfl _) $$ HS79))
set_option maxHeartbeats 4000000 in
set_option hygiene false in
macro "land_rows10" : tactic => `(tactic| (ihave HS80 := (show mOwn c scRow80 (scRow80.view.writes (Elt F) d [⟨Rect.whole S1x128, runCore.sl.dma81 c i pf fh hall⟩]) ⊢ mOwn c scRow80 (landed pf fh i) from land_row c 80 d fh pf i (runCore.sl.r_80 c i pf) (word_eq c pf i 80 (k0_off161 i) rfl _ _) (hall _ _) (k0_off162 (runCore.sl.r_80 c i pf)) rfl _) $$ HS80; ihave HS81 := (show mOwn c scRow81 (scRow81.view.writes (Elt F) d [⟨Rect.whole S1x128, runCore.sl.dma82 c i pf fh hall⟩]) ⊢ mOwn c scRow81 (landed pf fh i) from land_row c 81 d fh pf i (runCore.sl.r_81 c i pf) (word_eq c pf i 81 (k0_off163 i) rfl _ _) (hall _ _) (k0_off164 (runCore.sl.r_81 c i pf)) rfl _) $$ HS81; ihave HS82 := (show mOwn c scRow82 (scRow82.view.writes (Elt F) d [⟨Rect.whole S1x128, runCore.sl.dma83 c i pf fh hall⟩]) ⊢ mOwn c scRow82 (landed pf fh i) from land_row c 82 d fh pf i (runCore.sl.r_82 c i pf) (word_eq c pf i 82 (k0_off165 i) rfl _ _) (hall _ _) (k0_off166 (runCore.sl.r_82 c i pf)) rfl _) $$ HS82; ihave HS83 := (show mOwn c scRow83 (scRow83.view.writes (Elt F) d [⟨Rect.whole S1x128, runCore.sl.dma84 c i pf fh hall⟩]) ⊢ mOwn c scRow83 (landed pf fh i) from land_row c 83 d fh pf i (runCore.sl.r_83 c i pf) (word_eq c pf i 83 (k0_off167 i) rfl _ _) (hall _ _) (k0_off168 (runCore.sl.r_83 c i pf)) rfl _) $$ HS83; ihave HS84 := (show mOwn c scRow84 (scRow84.view.writes (Elt F) d [⟨Rect.whole S1x128, runCore.sl.dma85 c i pf fh hall⟩]) ⊢ mOwn c scRow84 (landed pf fh i) from land_row c 84 d fh pf i (runCore.sl.r_84 c i pf) (word_eq c pf i 84 (k0_off169 i) rfl _ _) (hall _ _) (k0_off170 (runCore.sl.r_84 c i pf)) rfl _) $$ HS84; ihave HS85 := (show mOwn c scRow85 (scRow85.view.writes (Elt F) d [⟨Rect.whole S1x128, runCore.sl.dma86 c i pf fh hall⟩]) ⊢ mOwn c scRow85 (landed pf fh i) from land_row c 85 d fh pf i (runCore.sl.r_85 c i pf) (word_eq c pf i 85 (k0_off171 i) rfl _ _) (hall _ _) (k0_off172 (runCore.sl.r_85 c i pf)) rfl _) $$ HS85; ihave HS86 := (show mOwn c scRow86 (scRow86.view.writes (Elt F) d [⟨Rect.whole S1x128, runCore.sl.dma87 c i pf fh hall⟩]) ⊢ mOwn c scRow86 (landed pf fh i) from land_row c 86 d fh pf i (runCore.sl.r_86 c i pf) (word_eq c pf i 86 (k0_off173 i) rfl _ _) (hall _ _) (k0_off174 (runCore.sl.r_86 c i pf)) rfl _) $$ HS86; ihave HS87 := (show mOwn c scRow87 (scRow87.view.writes (Elt F) d [⟨Rect.whole S1x128, runCore.sl.dma88 c i pf fh hall⟩]) ⊢ mOwn c scRow87 (landed pf fh i) from land_row c 87 d fh pf i (runCore.sl.r_87 c i pf) (word_eq c pf i 87 (k0_off175 i) rfl _ _) (hall _ _) (k0_off176 (runCore.sl.r_87 c i pf)) rfl _) $$ HS87))
set_option maxHeartbeats 4000000 in
set_option hygiene false in
macro "land_rows11" : tactic => `(tactic| (ihave HS88 := (show mOwn c scRow88 (scRow88.view.writes (Elt F) d [⟨Rect.whole S1x128, runCore.sl.dma89 c i pf fh hall⟩]) ⊢ mOwn c scRow88 (landed pf fh i) from land_row c 88 d fh pf i (runCore.sl.r_88 c i pf) (word_eq c pf i 88 (k0_off177 i) rfl _ _) (hall _ _) (k0_off178 (runCore.sl.r_88 c i pf)) rfl _) $$ HS88; ihave HS89 := (show mOwn c scRow89 (scRow89.view.writes (Elt F) d [⟨Rect.whole S1x128, runCore.sl.dma90 c i pf fh hall⟩]) ⊢ mOwn c scRow89 (landed pf fh i) from land_row c 89 d fh pf i (runCore.sl.r_89 c i pf) (word_eq c pf i 89 (k0_off179 i) rfl _ _) (hall _ _) (k0_off180 (runCore.sl.r_89 c i pf)) rfl _) $$ HS89; ihave HS90 := (show mOwn c scRow90 (scRow90.view.writes (Elt F) d [⟨Rect.whole S1x128, runCore.sl.dma91 c i pf fh hall⟩]) ⊢ mOwn c scRow90 (landed pf fh i) from land_row c 90 d fh pf i (runCore.sl.r_90 c i pf) (word_eq c pf i 90 (k0_off181 i) rfl _ _) (hall _ _) (k0_off182 (runCore.sl.r_90 c i pf)) rfl _) $$ HS90; ihave HS91 := (show mOwn c scRow91 (scRow91.view.writes (Elt F) d [⟨Rect.whole S1x128, runCore.sl.dma92 c i pf fh hall⟩]) ⊢ mOwn c scRow91 (landed pf fh i) from land_row c 91 d fh pf i (runCore.sl.r_91 c i pf) (word_eq c pf i 91 (k0_off183 i) rfl _ _) (hall _ _) (k0_off184 (runCore.sl.r_91 c i pf)) rfl _) $$ HS91; ihave HS92 := (show mOwn c scRow92 (scRow92.view.writes (Elt F) d [⟨Rect.whole S1x128, runCore.sl.dma93 c i pf fh hall⟩]) ⊢ mOwn c scRow92 (landed pf fh i) from land_row c 92 d fh pf i (runCore.sl.r_92 c i pf) (word_eq c pf i 92 (k0_off185 i) rfl _ _) (hall _ _) (k0_off186 (runCore.sl.r_92 c i pf)) rfl _) $$ HS92; ihave HS93 := (show mOwn c scRow93 (scRow93.view.writes (Elt F) d [⟨Rect.whole S1x128, runCore.sl.dma94 c i pf fh hall⟩]) ⊢ mOwn c scRow93 (landed pf fh i) from land_row c 93 d fh pf i (runCore.sl.r_93 c i pf) (word_eq c pf i 93 (k0_off187 i) rfl _ _) (hall _ _) (k0_off188 (runCore.sl.r_93 c i pf)) rfl _) $$ HS93; ihave HS94 := (show mOwn c scRow94 (scRow94.view.writes (Elt F) d [⟨Rect.whole S1x128, runCore.sl.dma95 c i pf fh hall⟩]) ⊢ mOwn c scRow94 (landed pf fh i) from land_row c 94 d fh pf i (runCore.sl.r_94 c i pf) (word_eq c pf i 94 (k0_off189 i) rfl _ _) (hall _ _) (k0_off190 (runCore.sl.r_94 c i pf)) rfl _) $$ HS94; ihave HS95 := (show mOwn c scRow95 (scRow95.view.writes (Elt F) d [⟨Rect.whole S1x128, runCore.sl.dma96 c i pf fh hall⟩]) ⊢ mOwn c scRow95 (landed pf fh i) from land_row c 95 d fh pf i (runCore.sl.r_95 c i pf) (word_eq c pf i 95 (k0_off191 i) rfl _ _) (hall _ _) (k0_off192 (runCore.sl.r_95 c i pf)) rfl _) $$ HS95))
set_option maxHeartbeats 4000000 in
set_option hygiene false in
macro "land_rows12" : tactic => `(tactic| (ihave HS96 := (show mOwn c scRow96 (scRow96.view.writes (Elt F) d [⟨Rect.whole S1x128, runCore.sl.dma97 c i pf fh hall⟩]) ⊢ mOwn c scRow96 (landed pf fh i) from land_row c 96 d fh pf i (runCore.sl.r_96 c i pf) (word_eq c pf i 96 (k0_off193 i) rfl _ _) (hall _ _) (k0_off194 (runCore.sl.r_96 c i pf)) rfl _) $$ HS96; ihave HS97 := (show mOwn c scRow97 (scRow97.view.writes (Elt F) d [⟨Rect.whole S1x128, runCore.sl.dma98 c i pf fh hall⟩]) ⊢ mOwn c scRow97 (landed pf fh i) from land_row c 97 d fh pf i (runCore.sl.r_97 c i pf) (word_eq c pf i 97 (k0_off195 i) rfl _ _) (hall _ _) (k0_off196 (runCore.sl.r_97 c i pf)) rfl _) $$ HS97; ihave HS98 := (show mOwn c scRow98 (scRow98.view.writes (Elt F) d [⟨Rect.whole S1x128, runCore.sl.dma99 c i pf fh hall⟩]) ⊢ mOwn c scRow98 (landed pf fh i) from land_row c 98 d fh pf i (runCore.sl.r_98 c i pf) (word_eq c pf i 98 (k0_off197 i) rfl _ _) (hall _ _) (k0_off198 (runCore.sl.r_98 c i pf)) rfl _) $$ HS98; ihave HS99 := (show mOwn c scRow99 (scRow99.view.writes (Elt F) d [⟨Rect.whole S1x128, runCore.sl.dma100 c i pf fh hall⟩]) ⊢ mOwn c scRow99 (landed pf fh i) from land_row c 99 d fh pf i (runCore.sl.r_99 c i pf) (word_eq c pf i 99 (k0_off199 i) rfl _ _) (hall _ _) (k0_off200 (runCore.sl.r_99 c i pf)) rfl _) $$ HS99; ihave HS100 := (show mOwn c scRow100 (scRow100.view.writes (Elt F) d [⟨Rect.whole S1x128, runCore.sl.dma101 c i pf fh hall⟩]) ⊢ mOwn c scRow100 (landed pf fh i) from land_row c 100 d fh pf i (runCore.sl.r_100 c i pf) (word_eq c pf i 100 (k0_off201 i) rfl _ _) (hall _ _) (k0_off202 (runCore.sl.r_100 c i pf)) rfl _) $$ HS100; ihave HS101 := (show mOwn c scRow101 (scRow101.view.writes (Elt F) d [⟨Rect.whole S1x128, runCore.sl.dma102 c i pf fh hall⟩]) ⊢ mOwn c scRow101 (landed pf fh i) from land_row c 101 d fh pf i (runCore.sl.r_101 c i pf) (word_eq c pf i 101 (k0_off203 i) rfl _ _) (hall _ _) (k0_off204 (runCore.sl.r_101 c i pf)) rfl _) $$ HS101; ihave HS102 := (show mOwn c scRow102 (scRow102.view.writes (Elt F) d [⟨Rect.whole S1x128, runCore.sl.dma103 c i pf fh hall⟩]) ⊢ mOwn c scRow102 (landed pf fh i) from land_row c 102 d fh pf i (runCore.sl.r_102 c i pf) (word_eq c pf i 102 (k0_off205 i) rfl _ _) (hall _ _) (k0_off206 (runCore.sl.r_102 c i pf)) rfl _) $$ HS102; ihave HS103 := (show mOwn c scRow103 (scRow103.view.writes (Elt F) d [⟨Rect.whole S1x128, runCore.sl.dma104 c i pf fh hall⟩]) ⊢ mOwn c scRow103 (landed pf fh i) from land_row c 103 d fh pf i (runCore.sl.r_103 c i pf) (word_eq c pf i 103 (k0_off207 i) rfl _ _) (hall _ _) (k0_off208 (runCore.sl.r_103 c i pf)) rfl _) $$ HS103))
set_option maxHeartbeats 4000000 in
set_option hygiene false in
macro "land_rows13" : tactic => `(tactic| (ihave HS104 := (show mOwn c scRow104 (scRow104.view.writes (Elt F) d [⟨Rect.whole S1x128, runCore.sl.dma105 c i pf fh hall⟩]) ⊢ mOwn c scRow104 (landed pf fh i) from land_row c 104 d fh pf i (runCore.sl.r_104 c i pf) (word_eq c pf i 104 (k0_off209 i) rfl _ _) (hall _ _) (k0_off210 (runCore.sl.r_104 c i pf)) rfl _) $$ HS104; ihave HS105 := (show mOwn c scRow105 (scRow105.view.writes (Elt F) d [⟨Rect.whole S1x128, runCore.sl.dma106 c i pf fh hall⟩]) ⊢ mOwn c scRow105 (landed pf fh i) from land_row c 105 d fh pf i (runCore.sl.r_105 c i pf) (word_eq c pf i 105 (k0_off211 i) rfl _ _) (hall _ _) (k0_off212 (runCore.sl.r_105 c i pf)) rfl _) $$ HS105; ihave HS106 := (show mOwn c scRow106 (scRow106.view.writes (Elt F) d [⟨Rect.whole S1x128, runCore.sl.dma107 c i pf fh hall⟩]) ⊢ mOwn c scRow106 (landed pf fh i) from land_row c 106 d fh pf i (runCore.sl.r_106 c i pf) (word_eq c pf i 106 (k0_off213 i) rfl _ _) (hall _ _) (k0_off214 (runCore.sl.r_106 c i pf)) rfl _) $$ HS106; ihave HS107 := (show mOwn c scRow107 (scRow107.view.writes (Elt F) d [⟨Rect.whole S1x128, runCore.sl.dma108 c i pf fh hall⟩]) ⊢ mOwn c scRow107 (landed pf fh i) from land_row c 107 d fh pf i (runCore.sl.r_107 c i pf) (word_eq c pf i 107 (k0_off215 i) rfl _ _) (hall _ _) (k0_off216 (runCore.sl.r_107 c i pf)) rfl _) $$ HS107; ihave HS108 := (show mOwn c scRow108 (scRow108.view.writes (Elt F) d [⟨Rect.whole S1x128, runCore.sl.dma109 c i pf fh hall⟩]) ⊢ mOwn c scRow108 (landed pf fh i) from land_row c 108 d fh pf i (runCore.sl.r_108 c i pf) (word_eq c pf i 108 (k0_off217 i) rfl _ _) (hall _ _) (k0_off218 (runCore.sl.r_108 c i pf)) rfl _) $$ HS108; ihave HS109 := (show mOwn c scRow109 (scRow109.view.writes (Elt F) d [⟨Rect.whole S1x128, runCore.sl.dma110 c i pf fh hall⟩]) ⊢ mOwn c scRow109 (landed pf fh i) from land_row c 109 d fh pf i (runCore.sl.r_109 c i pf) (word_eq c pf i 109 (k0_off219 i) rfl _ _) (hall _ _) (k0_off220 (runCore.sl.r_109 c i pf)) rfl _) $$ HS109; ihave HS110 := (show mOwn c scRow110 (scRow110.view.writes (Elt F) d [⟨Rect.whole S1x128, runCore.sl.dma111 c i pf fh hall⟩]) ⊢ mOwn c scRow110 (landed pf fh i) from land_row c 110 d fh pf i (runCore.sl.r_110 c i pf) (word_eq c pf i 110 (k0_off221 i) rfl _ _) (hall _ _) (k0_off222 (runCore.sl.r_110 c i pf)) rfl _) $$ HS110; ihave HS111 := (show mOwn c scRow111 (scRow111.view.writes (Elt F) d [⟨Rect.whole S1x128, runCore.sl.dma112 c i pf fh hall⟩]) ⊢ mOwn c scRow111 (landed pf fh i) from land_row c 111 d fh pf i (runCore.sl.r_111 c i pf) (word_eq c pf i 111 (k0_off223 i) rfl _ _) (hall _ _) (k0_off224 (runCore.sl.r_111 c i pf)) rfl _) $$ HS111))
set_option maxHeartbeats 4000000 in
set_option hygiene false in
macro "land_rows14" : tactic => `(tactic| (ihave HS112 := (show mOwn c scRow112 (scRow112.view.writes (Elt F) d [⟨Rect.whole S1x128, runCore.sl.dma113 c i pf fh hall⟩]) ⊢ mOwn c scRow112 (landed pf fh i) from land_row c 112 d fh pf i (runCore.sl.r_112 c i pf) (word_eq c pf i 112 (k0_off225 i) rfl _ _) (hall _ _) (k0_off226 (runCore.sl.r_112 c i pf)) rfl _) $$ HS112; ihave HS113 := (show mOwn c scRow113 (scRow113.view.writes (Elt F) d [⟨Rect.whole S1x128, runCore.sl.dma114 c i pf fh hall⟩]) ⊢ mOwn c scRow113 (landed pf fh i) from land_row c 113 d fh pf i (runCore.sl.r_113 c i pf) (word_eq c pf i 113 (k0_off227 i) rfl _ _) (hall _ _) (k0_off228 (runCore.sl.r_113 c i pf)) rfl _) $$ HS113; ihave HS114 := (show mOwn c scRow114 (scRow114.view.writes (Elt F) d [⟨Rect.whole S1x128, runCore.sl.dma115 c i pf fh hall⟩]) ⊢ mOwn c scRow114 (landed pf fh i) from land_row c 114 d fh pf i (runCore.sl.r_114 c i pf) (word_eq c pf i 114 (k0_off229 i) rfl _ _) (hall _ _) (k0_off230 (runCore.sl.r_114 c i pf)) rfl _) $$ HS114; ihave HS115 := (show mOwn c scRow115 (scRow115.view.writes (Elt F) d [⟨Rect.whole S1x128, runCore.sl.dma116 c i pf fh hall⟩]) ⊢ mOwn c scRow115 (landed pf fh i) from land_row c 115 d fh pf i (runCore.sl.r_115 c i pf) (word_eq c pf i 115 (k0_off231 i) rfl _ _) (hall _ _) (k0_off232 (runCore.sl.r_115 c i pf)) rfl _) $$ HS115; ihave HS116 := (show mOwn c scRow116 (scRow116.view.writes (Elt F) d [⟨Rect.whole S1x128, runCore.sl.dma117 c i pf fh hall⟩]) ⊢ mOwn c scRow116 (landed pf fh i) from land_row c 116 d fh pf i (runCore.sl.r_116 c i pf) (word_eq c pf i 116 (k0_off233 i) rfl _ _) (hall _ _) (k0_off234 (runCore.sl.r_116 c i pf)) rfl _) $$ HS116; ihave HS117 := (show mOwn c scRow117 (scRow117.view.writes (Elt F) d [⟨Rect.whole S1x128, runCore.sl.dma118 c i pf fh hall⟩]) ⊢ mOwn c scRow117 (landed pf fh i) from land_row c 117 d fh pf i (runCore.sl.r_117 c i pf) (word_eq c pf i 117 (k0_off235 i) rfl _ _) (hall _ _) (k0_off236 (runCore.sl.r_117 c i pf)) rfl _) $$ HS117; ihave HS118 := (show mOwn c scRow118 (scRow118.view.writes (Elt F) d [⟨Rect.whole S1x128, runCore.sl.dma119 c i pf fh hall⟩]) ⊢ mOwn c scRow118 (landed pf fh i) from land_row c 118 d fh pf i (runCore.sl.r_118 c i pf) (word_eq c pf i 118 (k0_off237 i) rfl _ _) (hall _ _) (k0_off238 (runCore.sl.r_118 c i pf)) rfl _) $$ HS118; ihave HS119 := (show mOwn c scRow119 (scRow119.view.writes (Elt F) d [⟨Rect.whole S1x128, runCore.sl.dma120 c i pf fh hall⟩]) ⊢ mOwn c scRow119 (landed pf fh i) from land_row c 119 d fh pf i (runCore.sl.r_119 c i pf) (word_eq c pf i 119 (k0_off239 i) rfl _ _) (hall _ _) (k0_off240 (runCore.sl.r_119 c i pf)) rfl _) $$ HS119))
set_option maxHeartbeats 4000000 in
set_option hygiene false in
macro "land_rows15" : tactic => `(tactic| (ihave HS120 := (show mOwn c scRow120 (scRow120.view.writes (Elt F) d [⟨Rect.whole S1x128, runCore.sl.dma121 c i pf fh hall⟩]) ⊢ mOwn c scRow120 (landed pf fh i) from land_row c 120 d fh pf i (runCore.sl.r_120 c i pf) (word_eq c pf i 120 (k0_off241 i) rfl _ _) (hall _ _) (k0_off242 (runCore.sl.r_120 c i pf)) rfl _) $$ HS120; ihave HS121 := (show mOwn c scRow121 (scRow121.view.writes (Elt F) d [⟨Rect.whole S1x128, runCore.sl.dma122 c i pf fh hall⟩]) ⊢ mOwn c scRow121 (landed pf fh i) from land_row c 121 d fh pf i (runCore.sl.r_121 c i pf) (word_eq c pf i 121 (k0_off243 i) rfl _ _) (hall _ _) (k0_off244 (runCore.sl.r_121 c i pf)) rfl _) $$ HS121; ihave HS122 := (show mOwn c scRow122 (scRow122.view.writes (Elt F) d [⟨Rect.whole S1x128, runCore.sl.dma123 c i pf fh hall⟩]) ⊢ mOwn c scRow122 (landed pf fh i) from land_row c 122 d fh pf i (runCore.sl.r_122 c i pf) (word_eq c pf i 122 (k0_off245 i) rfl _ _) (hall _ _) (k0_off246 (runCore.sl.r_122 c i pf)) rfl _) $$ HS122; ihave HS123 := (show mOwn c scRow123 (scRow123.view.writes (Elt F) d [⟨Rect.whole S1x128, runCore.sl.dma124 c i pf fh hall⟩]) ⊢ mOwn c scRow123 (landed pf fh i) from land_row c 123 d fh pf i (runCore.sl.r_123 c i pf) (word_eq c pf i 123 (k0_off247 i) rfl _ _) (hall _ _) (k0_off248 (runCore.sl.r_123 c i pf)) rfl _) $$ HS123; ihave HS124 := (show mOwn c scRow124 (scRow124.view.writes (Elt F) d [⟨Rect.whole S1x128, runCore.sl.dma125 c i pf fh hall⟩]) ⊢ mOwn c scRow124 (landed pf fh i) from land_row c 124 d fh pf i (runCore.sl.r_124 c i pf) (word_eq c pf i 124 (k0_off249 i) rfl _ _) (hall _ _) (k0_off250 (runCore.sl.r_124 c i pf)) rfl _) $$ HS124; ihave HS125 := (show mOwn c scRow125 (scRow125.view.writes (Elt F) d [⟨Rect.whole S1x128, runCore.sl.dma126 c i pf fh hall⟩]) ⊢ mOwn c scRow125 (landed pf fh i) from land_row c 125 d fh pf i (runCore.sl.r_125 c i pf) (word_eq c pf i 125 (k0_off251 i) rfl _ _) (hall _ _) (k0_off252 (runCore.sl.r_125 c i pf)) rfl _) $$ HS125; ihave HS126 := (show mOwn c scRow126 (scRow126.view.writes (Elt F) d [⟨Rect.whole S1x128, runCore.sl.dma127 c i pf fh hall⟩]) ⊢ mOwn c scRow126 (landed pf fh i) from land_row c 126 d fh pf i (runCore.sl.r_126 c i pf) (word_eq c pf i 126 (k0_off253 i) rfl _ _) (hall _ _) (k0_off254 (runCore.sl.r_126 c i pf)) rfl _) $$ HS126; ihave HS127 := (show mOwn c scRow127 (scRow127.view.writes (Elt F) d [⟨Rect.whole S1x128, runCore.sl.dma128 c i pf fh hall⟩]) ⊢ mOwn c scRow127 (landed pf fh i) from land_row c 127 d fh pf i (runCore.sl.r_127 c i pf) (word_eq c pf i 127 (k0_off255 i) rfl _ _) (hall _ _) (k0_off256 (runCore.sl.r_127 c i pf)) rfl _) $$ HS127))
set_option maxHeartbeats 4000000 in
set_option hygiene false in
macro "land_all2" : tactic => `(tactic| (land_rows0; land_rows1; land_rows2; land_rows3; land_rows4; land_rows5; land_rows6; land_rows7; land_rows8; land_rows9; land_rows10; land_rows11; land_rows12; land_rows13; land_rows14; land_rows15))
/-! The rows joined. -/
set_option maxHeartbeats 4000000 in
set_option hygiene false in
macro "ijoin_rows2" : tactic => `(tactic| ihave HS := (rows_join c (landed pf fh i)) $$ [HS0 HS1 HS2 HS3 HS4 HS5 HS6 HS7 HS8 HS9 HS10 HS11 HS12 HS13 HS14 HS15 HS16 HS17 HS18 HS19 HS20 HS21 HS22 HS23 HS24 HS25 HS26 HS27 HS28 HS29 HS30 HS31 HS32 HS33 HS34 HS35 HS36 HS37 HS38 HS39 HS40 HS41 HS42 HS43 HS44 HS45 HS46 HS47 HS48 HS49 HS50 HS51 HS52 HS53 HS54 HS55 HS56 HS57 HS58 HS59 HS60 HS61 HS62 HS63 HS64 HS65 HS66 HS67 HS68 HS69 HS70 HS71 HS72 HS73 HS74 HS75 HS76 HS77 HS78 HS79 HS80 HS81 HS82 HS83 HS84 HS85 HS86 HS87 HS88 HS89 HS90 HS91 HS92 HS93 HS94 HS95 HS96 HS97 HS98 HS99 HS100 HS101 HS102 HS103 HS104 HS105 HS106 HS107 HS108 HS109 HS110 HS111 HS112 HS113 HS114 HS115 HS116 HS117 HS118 HS119 HS120 HS121 HS122 HS123 HS124 HS125 HS126 HS127])

end Cert.Kernel.Hand
-- ==== Proof.KernelRun.lean ====
/-
  The kernel body at one grid point, with the scratch buffer held row by row.

  Copy `k` of grid point `i` reads the table word `table[128·i + k]` (a row number of the row table, by hypothesis in
  range), copies that row of the row table into row `k` of the scratch buffer on semaphore `2 + k`; all 128 copies are
  started, then all are waited for; then the scratch buffer is read whole and stored into the output block.
  Row `k` of the scratch buffer therefore ends at the row table's row `table[128·i + k]` (`land_row`), the scratch buffer
  whole at `landed`, and the output block at `outBlk` (`tail_val`).
-/
import proofs.«410525_j11055245820322_2_alg».proof.Proof.Gen.Kernel.Launch
import proofs.«410525_j11055245820322_2_alg».proof.Proof.Gen.Kernel.Skeleton
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.ValueIdx
import proofs.«410525_j11055245820322_2_alg».proof.Proof.KernelRows
import proofs.«410525_j11055245820322_2_alg».proof.Proof.KernelTable2
import Idealize.ShloMosaic.Lib.ValueLayout
import Idealize.ShloMosaic.Lib.Pipeline.Value
set_option maxRecDepth 16384

noncomputable section

namespace Cert.Kernel.Hand

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- A table word in range names a row inside the row table. -/
theorem chk_of_lt (v : BitVec 32) (h : v.toNat < 2097152) :
    ∀ a, (![v.toNat, 0, 0] : Fin 3 → Nat) a + S1x1x128.size a ≤ S2097152x1x128.size a := by
  intro a
  match a with
  | ⟨0, _⟩ => show v.toNat + 1 ≤ 2097152; omega
  | ⟨1, _⟩ => show 0 + 1 ≤ 1; omega
  | ⟨2, _⟩ => show 0 + 128 ≤ 128; omega

/-- Where entry (x, q) of row `k` sits in the scratch buffer: at (k, 0, q). -/
theorem rowEmb (k : Fin 128) (x : Fin 1) (q : Fin 128) :
    (scRowF k).view.emb (ix2 x q) = (ix3 k (0 : Fin 1) q : S128x1x128.Idx) := by
  show (Rect.unit (s := S128x1x128) ![k.val, 0, 0] S1x1x128.size (inbRow k)).emb (Shape.reshapeEquiv _ (ix2 x q)) = _
  rw [reshapeEquiv_ix2_1ab]
  funext a
  apply Fin.ext
  rw [Rect.emb_apply]
  have hx := x.isLt
  match a with
  | ⟨0, _⟩ => show k.val + 1 * 0 = k.val; omega
  | ⟨1, _⟩ => show 0 + 1 * x.val = 0; omega
  | ⟨2, _⟩ => show 0 + 1 * q.val = q.val; omega

/-- Where entry (x, q) of the copied row sits in the row table: at (n, 0, q). -/
theorem srcEmb (n : Fin 2097152) (off : Fin 3 → Nat) (hoff : off = ![n.val, 0, 0])
    (inb : ∀ a, off a + S1x1x128.size a ≤ S2097152x1x128.size a) (x : Fin 1) (q : Fin 128) :
    ((hbM.slice (Rect.unit (s := S2097152x1x128) off S1x1x128.size inb) (fun _ => rfl)).squeeze S1x128 squeezes_S1x1x128_S1x128).view.emb (ix2 x q)
      = (ix3 n (0 : Fin 1) q : S2097152x1x128.Idx) := by
  subst hoff
  show (Rect.unit (s := S2097152x1x128) ![n.val, 0, 0] S1x1x128.size inb).emb (Shape.reshapeEquiv _ (ix2 x q)) = _
  rw [reshapeEquiv_ix2_1ab]
  funext a
  apply Fin.ext
  rw [Rect.emb_apply]
  have hx := x.isLt
  match a with
  | ⟨0, _⟩ => show n.val + 1 * 0 = n.val; omega
  | ⟨1, _⟩ => show 0 + 1 * x.val = 0; omega
  | ⟨2, _⟩ => show 0 + 1 * q.val = q.val; omega

/-- What the scratch buffer holds once every copy of grid point `i` has landed: entry (k, 0, q) is the row table's entry
    (table[128·i + k], 0, q). -/
def landed {α : Type} (pf : S16384.Idx → BitVec 32) (fh : S2097152x1x128.Idx → α) (i : grid0.Coords) : S128x1x128.Idx → α :=
  fun j => fh (ix3 (⟨(wordAt pf i ⟨(j 0).val % 128, Nat.mod_lt _ (by decide)⟩).toNat % 2097152, Nat.mod_lt _ (by decide)⟩ : Fin 2097152) (0 : Fin 1)
    (⟨(j 2).val % 128, Nat.mod_lt _ (by decide)⟩ : Fin 128))

theorem land_row (c : Dev nD) (k : Fin 128) (d : MBuf (F := F) c scM) (fh : MBuf (F := F) c hbM) (pf : MBuf (F := F) c tbM) (i : grid0.Coords)
    (v : BitVec 32) (hv : v = wordAt pf i k) (hlt : v.toNat < 2097152)
    (off : Fin 3 → Nat) (hoff : off = ![v.toNat, 0, 0]) (inb : ∀ a, off a + S1x1x128.size a ≤ S2097152x1x128.size a) :
    (mOwn c (scRowF k) ((scRowF k).view.writes (Elt F) d [⟨Rect.whole S1x128, ReadAs.same.apply (View.read (Elt F)
        ((hbM.slice (Rect.unit (s := S2097152x1x128) off S1x1x128.size inb) (fun _ => rfl)).squeeze S1x128 squeezes_S1x1x128_S1x128).view fh)⟩]) : sProp 𝕄)
      ⊢ mOwn c (scRowF k) (landed pf fh i) := by
  refine Entails.of_eq (pointsTo_congr ?_)
  intro j hj
  obtain ⟨y, -, rfl⟩ := Finset.mem_map.mp hj
  obtain ⟨x, q, rfl⟩ : ∃ (x : Fin 1) (q : Fin 128), y = ix2 x q := ⟨y 0, y 1, eq_ix2 y⟩
  rw [View.writes_singleton]
  have he : (scRowF k).view.emb (ix2 x q) = ((scRowF k).view.slice (Rect.whole S1x128)).emb (ix2 x q) := by
    rw [View.emb_slice]
    show _ = (scRowF k).view.emb ((Rect.whole S1x128).emb (ix2 x q))
    rw [Rect.emb_whole_apply]
  rw [he, View.write_emb_of_mem _ _ (Finset.mem_univ _), ← he, rowEmb]
  show (View.read (Elt F) ((hbM.slice (Rect.unit (s := S2097152x1x128) off S1x1x128.size inb) (fun _ => rfl)).squeeze S1x128 squeezes_S1x1x128_S1x128).view fh (ix2 x q)) = _
  rw [View.read_apply, srcEmb ⟨v.toNat, hlt⟩ off hoff inb]
  unfold landed
  have hk : (⟨((ix3 k (0 : Fin 1) q : S128x1x128.Idx) 0).val % 128, Nat.mod_lt _ (by decide)⟩ : Fin 128) = k :=
    Fin.ext (Nat.mod_eq_of_lt k.isLt)
  have hq : (⟨((ix3 k (0 : Fin 1) q : S128x1x128.Idx) 2).val % 128, Nat.mod_lt _ (by decide)⟩ : Fin 128) = q :=
    Fin.ext (Nat.mod_eq_of_lt q.isLt)
  refine (cast_eq _ _).trans (congrArg fh ?_)
  have hA : (⟨v.toNat, hlt⟩ : Fin 2097152)
      = ⟨(wordAt pf i ⟨((ix3 k (0 : Fin 1) q : S128x1x128.Idx) 0).val % 128, Nat.mod_lt _ (by decide)⟩).toNat % 2097152, Nat.mod_lt _ (by decide)⟩ := by
    apply Fin.ext
    show v.toNat = (wordAt pf i ⟨((ix3 k (0 : Fin 1) q : S128x1x128.Idx) 0).val % 128, Nat.mod_lt _ (by decide)⟩).toNat % 2097152
    rw [hk, ← hv, Nat.mod_eq_of_lt hlt]
  rw [hA, hq]

/-- The offset of the table word copy `k` of grid point `i` loads, as the body computes it in 32-bit words. -/
def wordOff (i : grid0.Coords) (k : Fin 128) : Fin 1 → Nat :=
  ![(Scalar.indexCast (Scalar.addi (Scalar.muli (BitVec.ofNat 32 (i 0).val) 128#32) (BitVec.ofNat 32 k.val))).toNat]

theorem wordOff_val (i : grid0.Coords) (k : Fin 128) : wordOff i k 0 = 128 * (i 0).val + k.val := by
  have hi : (i 0).val < 128 := (i 0).isLt
  have hk := k.isLt
  show (Scalar.indexCast (Scalar.addi (Scalar.muli (BitVec.ofNat 32 (i 0).val) 128#32) (BitVec.ofNat 32 k.val))).toNat = _
  simp only [Scalar.indexCast, Scalar.addi, Scalar.muli, IntOp.addi, IntOp.muli]
  rw [BitVec.toNat_add, BitVec.toNat_mul, BitVec.toNat_ofNat, BitVec.toNat_ofNat]
  show ((i 0).val % 2 ^ 32 * 128 % 2 ^ 32 + k.val % 2 ^ 32) % 2 ^ 32 = _
  omega

theorem word_eq (c : Dev nD) (pf : MBuf (F := F) c tbM) (i : grid0.Coords) (k : Fin 128) (off : Fin 1 → Nat) (hoff : off = wordOff i k)
    (inb : ∀ a, off a + S1.size a ≤ S16384.size a) (h : 0 < (Rect.unit (s := S16384) off S1.size inb).toLoadRect.shape.numel) :
    View.readAt (Elt F) tbM.view (Rect.unit (s := S16384) off S1.size inb).toLoadRect pf (Shape.Idx.first h) = wordAt pf i k := by
  subst hoff
  rw [View.readAt_apply, View.read_apply]
  refine (cast_eq _ _).trans ?_
  unfold wordAt
  refine congrArg pf ?_
  funext a
  apply Fin.ext
  match a with
  | ⟨0, _⟩ =>
    show (tbM.view.emb ((Rect.unit (s := S16384) (wordOff i k) S1.size inb).idx (Shape.Idx.first h)) ⟨0, by decide⟩ : Nat) = 128 * (i 0).val + k.val
    have e : (tbM.view.emb ((Rect.unit (s := S16384) (wordOff i k) S1.size inb).idx (Shape.Idx.first h)) ⟨0, by decide⟩ : Nat) = wordOff i k 0 + 1 * 0 := rfl
    rw [e, wordOff_val]; omega

theorem landed_apply {α : Type} (pf : S16384.Idx → BitVec 32) (fh : S2097152x1x128.Idx → α) (i : grid0.Coords) (k q : Fin 128) :
    landed pf fh i (ix3 k (0 : Fin 1) q) = outBlk pf fh i (ix2 k q) := by
  unfold landed outBlk
  have hk : (⟨((ix3 k (0 : Fin 1) q : S128x1x128.Idx) 0).val % 128, Nat.mod_lt _ (by decide)⟩ : Fin 128) = k :=
    Fin.ext (Nat.mod_eq_of_lt k.isLt)
  have hq : (⟨((ix3 k (0 : Fin 1) q : S128x1x128.Idx) 2).val % 128, Nat.mod_lt _ (by decide)⟩ : Fin 128) = q :=
    Fin.ext (Nat.mod_eq_of_lt q.isLt)
  refine congrArg fh ?_
  have hA : (⟨(wordAt pf i ⟨((ix3 k (0 : Fin 1) q : S128x1x128.Idx) 0).val % 128, Nat.mod_lt _ (by decide)⟩).toNat % 2097152, Nat.mod_lt _ (by decide)⟩ : Fin 2097152)
      = ⟨(wordAt pf i ((ix2 k q : S128x128.Idx) 0)).toNat % 2097152, Nat.mod_lt _ (by decide)⟩ := by
    apply Fin.ext
    show (wordAt pf i ⟨((ix3 k (0 : Fin 1) q : S128x1x128.Idx) 0).val % 128, Nat.mod_lt _ (by decide)⟩).toNat % 2097152 = (wordAt pf i k).toNat % 2097152
    rw [hk]
  rw [hA, hq]

/-- The vector the body stores into its output block — the scratch buffer read whole, its unit middle axis dropped — is the
    output block's contents `outBlk`. -/
theorem tail_val (c : Dev nD) (pf : MBuf (F := F) c tbM) (fh : MBuf (F := F) c hbM) (i : grid0.Coords) :
    k0_pay1 (F := F) (scM.view.readAt (Elt F) (Rect.unit (s := S128x1x128) ![0, 0, 0] S128x1x128.size inb_S128x1x128_S128x1x128_0_0_0).toLoadRect (landed pf fh i))
      = outBlk pf fh i := by
  funext j
  obtain ⟨k, q, rfl⟩ : ∃ (k : Fin 128) (q : Fin 128), j = ix2 k q := ⟨j 0, j 1, eq_ix2 j⟩
  unfold k0_pay1
  refine (shapeCast_apply _ _ (ix2 k q) (ix3 k (0 : Fin 1) q) ?_).trans ?_
  · rw [Shape.rowMajor_val_three, Shape.rowMajor_val_two]
    show (k.val * 1 + 0) * 128 + q.val = k.val * 128 + q.val
    omega
  · rw [View.readAt_apply, View.read_apply]
    refine (cast_eq _ _).trans ?_
    have e : scM.view.emb ((Rect.unit (s := S128x1x128) ![0, 0, 0] S128x1x128.size inb_S128x1x128_S128x1x128_0_0_0).toLoadRect.idx (ix3 k (0 : Fin 1) q))
        = (ix3 k (0 : Fin 1) q : S128x1x128.Idx) := by
      funext a
      apply Fin.ext
      match a with
      | ⟨0, _⟩ => show 0 + 1 * k.val = k.val; omega
      | ⟨1, _⟩ => show 0 + 1 * 0 = 0; omega
      | ⟨2, _⟩ => show 0 + 1 * q.val = q.val; omega
    rw [e]
    exact landed_apply pf fh i k q

/-- Every word a load reads off a table whose words are all in range is in range. -/
theorem readAt_lt (c : Dev nD) (pf : MBuf (F := F) c tbM) (hpf : TblOk pf) (r : LoadRect S16384) (j : r.shape.Idx) :
    ((tbM.view.readAt (Elt F) r pf j : Elt F .i32) : BitVec 32).toNat < 2097152 := by
  rw [View.readAt_apply, View.read_apply]
  refine lt_of_eq_of_lt (congrArg BitVec.toNat (cast_eq _ _)) ?_
  have e : tbM.view.emb (r.idx j) = ix1 (⟨(r.idx j 0).val, (r.idx j 0).isLt⟩ : Fin 16384) := by
    funext a
    match a with
    | ⟨0, _⟩ => rfl
  rw [e]
  exact hpf _

set_option maxHeartbeats 40000000 in
/-- The body at grid point `i` with the scratch buffer held row by row (at contents `d`), the row table as read shares, the
    semaphores one by one: it runs to its end with the output block's staging buffer at `outBlk pf fh i` and the scratch
    buffer whole at `landed pf fh i`. -/
theorem runCore (c : Dev nD) (i : grid0.Coords) (arg3 : Memref sig .tc .vmem S128x128 .f32) (harg3 : arg3.IsWhole)
    (pf : MBuf (F := F) c tbM) (fh : MBuf (F := F) c hbM) (d : MBuf (F := F) c scM)
    (hall : ∀ (r : LoadRect S16384) (j : r.shape.Idx), ((tbM.view.readAt (Elt F) r pf j : Elt F .i32) : BitVec 32).toNat < 2097152)
    (W : Waits sig Unit) (K : PUnit → sProp 𝕄) :
    iprop(mPt c tbM fullShare.right pf ∗ (∃ d3, owns (c : Thread nD τ) arg3 fullShare d3) ∗ RowsAt c d ∗ ToksAt c fh ∗ SemsAt c
        ∗ owes (c : Thread nD τ) 0 W
        ∗ (iprop(mPt c tbM fullShare.right pf ∗ owns (c : Thread nD τ) arg3 fullShare (outBlk pf fh i) ∗ mOwn c scM (landed pf fh i)
              ∗ ToksAt c fh ∗ SemsAt c ∗ (∃ W', owes (c : Thread nD τ) 0 W')) -∗ K ⟨⟩))
      ⊢ wp frame (wpE (defs₀ (F := F)) Variants.none c none) Set.univ
          (cc0__gather_kernel i tbM (Memref.isWhole_whole _) hbM (Memref.isWhole_whole _) arg3 harg3 scM (Memref.isWhole_whole _) cc0_scratch1) K := by
  simp only [cc0__gather_kernel_eq_skeleton]; unfold cc0__gather_kernel_skel
  unfold owns RowsAt ToksAt SemsAt
  iintro ⟨HT, ⟨%d3, %f3, -, H3⟩, HR, HTk, Hsem, HW, Hk⟩
  icases_rows HR
  icases_toks HTk
  icases_sems Hsem
  sl_exec (disch := first | exact ⟨chk_of_lt _ (hall _ _), chk_of_lt _ (hall _ _)⟩ | exact chk_of_lt _ (hall _ _))
  land_all2
  ijoin_rows2
  · unfold RowsAt; iexact_rows
  sl_exec
  sl_step
  iapply Hk
  isplitl [HT]; · iexact HT
  isplitl [H3]
  · iexists _; isplitr; swap; · iexact H3
    ipureintro
    have hz : (![0, 0] : Fin 2 → Nat) = fun _ => 0 := by funext a; match a with | ⟨0, _⟩ => rfl | ⟨1, _⟩ => rfl
    rw [View.read_writes_eq_canon _ _ _ (View.cover_of_tiledL _ S128x128.size (by sl_kernel_rfl)), View.canon_unit_zero hz]
    exact tail_val c pf fh i
  isplitl [HS]; · iexact HS
  isplitl_toks; · iexact_toks
  isplitl_sems; · iexact_sems
  iexists _; iexact HW

/-- The body at grid point `i`, handed the table at half a share at contents `pf` (every word a row of the row table),
    its output block's staging buffer, its scratch buffer, its 128 semaphores at zero, the row table whole at contents `fh`
    and the core's wait record, runs to its end handing everything back as it was, the output block's staging buffer at
    `outBlk pf fh i`. -/
theorem kernel_run (c : Dev nD) (i : grid0.Coords) (arg3 : Memref sig .tc .vmem S128x128 .f32) (harg3 : arg3.IsWhole)
    (pf : MBuf (F := F) c tbM) (fh : MBuf (F := F) c hbM) (hpf : TblOk pf) (W : Waits sig Unit) (K : PUnit → sProp 𝕄) :
    iprop(mPt c tbM fullShare.right pf ∗ (∃ d, owns (c : Thread nD τ) arg3 fullShare d) ∗ (∃ d, owns (c : Thread nD τ) scM fullShare d)
        ∗ Pipeline.ownSems0 (Ix := Unit) (Name := ℕ) (U := Pipeline.UD sig nD τ) (Lvl := ℕ) (Val := Elt F) (τ := τ) osem0 c
        ∗ mPt c hbM fullShare fh ∗ owes (c : Thread nD τ) 0 W
        ∗ (iprop(mPt c tbM fullShare.right pf ∗ owns (c : Thread nD τ) arg3 fullShare (outBlk pf fh i) ∗ (∃ d, owns (c : Thread nD τ) scM fullShare d)
              ∗ Pipeline.ownSems0 (Ix := Unit) (Name := ℕ) (U := Pipeline.UD sig nD τ) (Lvl := ℕ) (Val := Elt F) (τ := τ) osem0 c
              ∗ mPt c hbM fullShare fh ∗ (∃ W', owes (c : Thread nD τ) 0 W')) -∗ K ⟨⟩))
      ⊢ wp frame (wpE (defs₀ (F := F)) Variants.none c none) Set.univ
          (cc0__gather_kernel i tbM (Memref.isWhole_whole _) hbM (Memref.isWhole_whole _) arg3 harg3 scM (Memref.isWhole_whole _) cc0_scratch1) K := by
  rw [sems_eq]
  iintro ⟨HT, H3, ⟨%ds0, HS⟩, Hsem, Hh, HW, Hk⟩
  unfold owns
  icases HS with ⟨%fs0, -, HS⟩
  iapply (runCore c i arg3 harg3 pf fh fs0 (readAt_lt c pf hpf) W K)
  isplitl [HT]; · iexact HT
  isplitl [H3]; · iexact H3
  isplitl [HS]; · iapply (rows_split c fs0); iexact HS
  isplitl [Hh]; · iapply (toks_split c fh); iexact Hh
  isplitl [Hsem]; · iexact Hsem
  isplitl [HW]; · iexact HW
  iintro ⟨HT, H3, HS, HTk, Hsem, HW⟩
  unfold owns
  iapply Hk
  isplitl [HT]; · iexact HT
  isplitl [H3]; · iexact H3
  isplitl [HS]
  · iexists _, _; isplitr; swap; · iexact HS
    ipureintro; rfl
  isplitl [Hsem]; · iexact Hsem
  isplitl [HTk]; · iapply (toks_join c fh); iexact HTk
  iexact HW

end Cert.Kernel.Hand

end
-- ==== Proof.KernelFrame.lean ====
/-
  The launch of the program: from the body's triple at one grid point to the run of @main.

  @main is eighteen host operations, one kernel region and one more host operation. The region's pipeline has one output
  window; the index table is prefetched into scalar memory and the row table stays in HBM, where the body reads it by
  copies of its own. The body's triple at a grid point is lifted to the pipeline's body obligation, and the library's
  launch theorem for a region with a prefetched table, transfers of the body's own and host operations after the region
  gives the run of @main.
-/
import proofs.«410525_j11055245820322_2_alg».proof.Proof.Gen.Kernel.Launch
import proofs.«410525_j11055245820322_2_alg».proof.Proof.Gen.Kernel.Skeleton
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.ValueIdx
import proofs.«410525_j11055245820322_2_alg».proof.Proof.KernelBase
import proofs.«410525_j11055245820322_2_alg».proof.Proof.KernelSetup
import proofs.«410525_j11055245820322_2_alg».proof.Proof.KernelRun
set_option maxRecDepth 16384

noncomputable section

namespace Cert.Kernel.Hand

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## @main around the region -/

/-- No host operation before the region allocates a buffer. -/
theorem hostOps0_fresh : (hostOps0 : List (HloOp τ sig (Elt F))).Forall fun op => op.fresh = ∅ := by
  simp only [List.Forall]; repeat' constructor

/-- Nor does the one after it. -/
theorem hostOps1_fresh : (hostOps1 : List (HloOp τ sig (Elt F))).Forall fun op => op.fresh = ∅ := by
  simp only [List.Forall]; repeat' constructor

/-- @main reduces to the region continued by the host operation after it, at the contents the host operations before the
    region leave. -/
theorem hmain (𝒱₀ : Variants) : Pipeline.HMainPK (Ix := Unit) (Name := ℕ) (U := Pipeline.UD sig nD τ) (Lvl := ℕ) pcfgs 0 defs₀ 𝒱₀ m (main (F := F)) (V m)
      (fun _ => Pipeline.chain [StableHlo.seq hostOps1]) :=
  Pipeline.hmainP_around pcfgs 0 defs₀ 𝒱₀ m main [hostOps0] [hostOps1] hostOps0_sub hostOps0_fresh main_chain

/-! ## The body's own semaphores and the buffer it moves itself -/

/-- The body's 128 semaphores are DMA semaphores, pairwise distinct, none a staging semaphore of the window. -/
theorem ownSemFacts0 : Pipeline.OwnSemFacts spec0 osem0 := by decide +kernel

/-- The row table is unscoped, no window's array and no prefetched table. -/
theorem H0_sub : H0 ⊆ Pipeline.restRefsP sig pre0 spec0 := by decide

/-! ## The host operation after the region -/

/-- It touches only its own result buffer, which bypasses the region and is not the row table. -/
theorem sfx_sub : ∀ ops ∈ ([hostOps1] : List (List (HloOp τ sig (Elt F)))), ∀ op ∈ ops,
    op.bufs ⊆ Pipeline.tailRefsBut sig pre0 spec0 H0 := by
  intro ops hops op hop
  simp only [List.mem_cons, List.mem_nil_iff, or_false] at hops
  subst hops
  simp only [hostOps1, List.mem_cons, List.mem_nil_iff, or_false] at hop
  subst hop
  refine Pipeline.sub_tailRefsBut pre0 spec0 H0 _ (StableHlo.nullary_bufs_sub ..) ?_ ?_
  · intro k
    rw [StableHlo.nullary_bufs, Finset.mem_singleton]
    exact StableHlo.devRef_ne_of_ne ((by decide : ∀ k : Fin 1, pre0.ref k ≠ main_c_1) k)
  · intro b hb
    rw [StableHlo.nullary_bufs, Finset.mem_singleton]
    simp only [H0, Finset.mem_singleton] at hb
    subst hb
    exact StableHlo.devRef_ne_of_ne (by decide)

/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

/-- It does not write the output array. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  subst hops
  simp only [hostOps1, List.mem_cons, List.mem_nil_iff, or_false] at hop
  subst hop
  intro w
  fin_cases w
  simp only [StableHlo.nullary_writes, Finset.mem_singleton]
  exact StableHlo.devRef_ne_of_ne (by decide)

/-! ## The proof data, projected -/

/-- The proof data's array is the output array as the region finds it. -/
theorem A_eq (c : Dev nD) (w : Fin (cfgM m).W) : (dats m 0 c).A w = V m c (Pipeline.arrRef spec0 w) := by
  dsimp only [dats]

/-- What the body leaves in the output block's staging buffer at point `t`. -/
theorem after0_0 (c : Dev nD) (t : Fin (cfgM m).N) :
    (dats m 0 c).after 0 t = outBlk (V m c main_v13) (V m c main_v15) (grid0.coords t) := by
  dsimp only [dats]
  rfl

/-! ## The body obligation -/

/-- The body as the pipeline calls it at point `t`: on the whole table, the whole row table, the output window's current
    staging buffer, the whole scratch buffer and the body's semaphore array. -/
abbrev bodyAt0 (t : Fin (cfgM m).N) : Prog (TpuEff nD τ sig (Elt F) Λ₀ .tc) PUnit :=
  cc0__gather_kernel (grid0.coords t) (Memref.whole main_v13) (Memref.isWhole_whole _) (Memref.whole main_v15) (Memref.isWhole_whole _)
    (spec0_0.stage ((cfgM m).slots t 0)) (hstage0_0 (((cfgM m).slots t 0).cast nbuf0_0)) (Memref.whole cc0_scratch0) (Memref.isWhole_whole _) cc0_scratch1

/-- The table's half the region hands the body: the one table, whole, at half a share. -/
theorem PhiT0_eq (c : Dev nD) : (Pipeline.ΦT pre0 (tbl m) c : sProp 𝕄) = iprop(mPt c tbM fullShare.right (tbl m 0)) := by
  unfold Pipeline.ΦT Pipeline.prefHeld
  rw [show (Finset.univ : Finset (Fin 1)) = {(0 : Fin 1)} from by decide, bigSep_singleton]
  rfl

/-- The buffers the body moves itself, listed: the row table, whole, at its region-entry contents. -/
theorem hbmPts0_eq (c : Dev nD) :
    (bigSep H0 (fun b => ((c : Thread nD τ).loc b) ↦{fullShare} V m c b) : sProp 𝕄) = iprop(mPt c hbM fullShare (V m c main_v15)) := by
  rw [BI.bigSep_eq_bigSepL_of_eq [main_v15] (by decide) (by decide)]; rfl

/-- The invariant of a body with transfers of its own, conjunct by conjunct: the scratch buffer at some contents, the
    generator register at some state, the body's semaphores at zero, the row table at its region-entry contents. -/
theorem PhiD0_eq (c : Dev nD) :
    (Pipeline.ΦD osem0 spec0 H0 (V m) c : sProp 𝕄)
      = iprop((∃ d, owns (c : Thread nD τ) scM fullShare d) ∗ (∃ r, prngReg c r)
          ∗ Pipeline.ownSems0 (Ix := Unit) (Name := ℕ) (U := Pipeline.UD sig nD τ) (Lvl := ℕ) (Val := Elt F) (τ := τ) osem0 c
          ∗ mPt c hbM fullShare (V m c main_v15)) := by
  rw [Pipeline.ΦD_eq, scopedRest0_eq, hbmPts0_eq]; simp only [scM, owns_whole]; try rfl

/-- What the body is called with at point `t`: the invariant, the core's wait record within its bound, and the output
    window's current staging buffer at whatever the pipeline left there, -/
def bodyPre (c : Dev nD) (t : Fin (cfgM m).N) : sProp 𝕄 :=
  iprop((dats m 0 c).Φ t.castSucc ∗ (dats m 0 c).owesAt () t.castSucc
    ∗ (∃ d, owns (c : Thread nD τ) (spec0_0.stage ((cfgM m).slots t 0)) fullShare ((dats m 0 c).before 0 t d)))

/-- and what it returns: the invariant, a wait record, the staging buffer at the block of gathered rows. -/
def bodyPost (c : Dev nD) (t : Fin (cfgM m).N) : sProp 𝕄 :=
  iprop((dats m 0 c).Φ t.succ ∗ (dats m 0 c).owesAt () t.succ
    ∗ owns (c : Thread nD τ) (spec0_0.stage ((cfgM m).slots t 0)) fullShare ((dats m 0 c).after 0 t))

set_option backward.isDefEq.respectTransparency.types false in
/-- The body at any point: the invariant hands it the scratch buffer, its semaphores at zero, the row table and the
    table's half; the body's triple applies, every word of the table being a row of the row table; everything comes back
    as it was, the staging buffer at the block of gathered rows; the wait record comes back within the next point's
    bound, which is everything. -/
theorem sound_body (hH : Hyps m) (c : Dev nD) (t : Fin (cfgM m).N) :
    bodyPre m c t ⊢ wp frame (wpE (defs₀ (F := F)) Variants.none c none) Set.univ (bodyAt0 m t) (fun _ => bodyPost m c t) := by
  have hpf : V m c main_v13 = tbl m 0 := V_pre m c 0
  have hok : TblOk (tbl m 0) := hpf ▸ hH c
  unfold bodyPre bodyPost bodyAt0
  rw [after0_0, hpf]
  rw [show (dats m 0 c).Φ t.succ = iprop(Pipeline.ΦD osem0 spec0 H0 (V m) c ∗ Pipeline.ΦT pre0 (tbl m) c) from rfl,
    show (dats m 0 c).Φ t.castSucc = iprop(Pipeline.ΦD osem0 spec0 H0 (V m) c ∗ Pipeline.ΦT pre0 (tbl m) c) from rfl,
    PhiD0_eq, PhiT0_eq]
  unfold Dat.owesAt Pipeline.owesWithin
  rw [show (dats m 0 c).owed t.castSucc = 0 from rfl, show (dats m 0 c).owed t.succ = 0 from rfl]
  iintro ⟨⟨⟨HS, Hg, Hq, Hh⟩, Ht⟩, ⟨%W, -, HW⟩, ⟨%d, Hst⟩⟩
  iapply (kernel_run c (grid0.coords t) (spec0_0.stage ((cfgM m).slots t 0)) (hstage0_0 (((cfgM m).slots t 0).cast nbuf0_0))
    (tbl m 0) (V m c main_v15) hok W _)
  isplitl [Ht]; · iexact Ht
  isplitl [Hst]; · iexists _; iexact Hst
  isplitl [HS]; · iexact HS
  isplitl [Hq]; · iexact Hq
  isplitl [Hh]; · iexact Hh
  isplitl [HW]; · iexact HW
  iintro ⟨Ht, Hst, HS, Hq, Hh, ⟨%W', HW'⟩⟩
  isplitl [HS Hg Hq Hh Ht]
  · isplitr [Ht]
    · isplitl [HS]; · iexact HS
      isplitl [Hg]; · iexact Hg
      isplitl [Hq]; · iexact Hq
      iexact Hh
    · iexact Ht
  isplitl [HW']
  · iexists W'; isplitr; · ipureintro; exact fun _ _ => Or.inl trivial
    iexact HW'
  iexact Hst

/-- An entailment into a predicate transformer applied to a postcondition, transported along equalities of the
    precondition, the transformer and the postcondition. -/
theorem ent_of_eq {α : Type} {A A' : sProp 𝕄} {w w' : sWPT 𝕄 α} {Q Q' : α → sProp 𝕄}
    (h : A' ⊢ w' Q') (hA : A = A') (hw : w = w') (hQ : Q = Q') : A ⊢ w Q := by
  subst hA hw hQ; exact h

/-- At every point the body, handed the invariant, the core's wait record and the output window's current staging buffer,
    hands back the invariant, a wait record and the staging buffer at the block of gathered rows. -/
theorem body_obligation (hH : Hyps m) (c : Dev nD) :
    BodyObligation (dats (F := F) m 0 c) (defs₀ (F := F)) Variants.none () Set.univ := fun t => by
  rw [bigSep_W0, bigSep_W0]
  refine ent_of_eq (sound_body m hH c t) ?_ ?_ ?_
  · rfl
  · exact congrArg (wp frame (wpE (defs₀ (F := F)) Variants.none c none) Set.univ) (rfl : _ = bodyAt0 m t)
  · rfl

/-! ## The run -/

set_option backward.isDefEq.respectTransparency.types false in
/-- Under the frame's hypothesis, from any memory with zero counters every weakly fair execution of @main on the
    TensorCores terminates, and every final state has the output array at what the library computes from the proof data
    and every other unscoped buffer at what the host operation after the region leaves. -/
theorem run_main (hH : Hyps m) : θ_run defs (onTc (τ := τ) (main (F := F))) (s₀ m ρ)
    (Pipeline.FramePost (Pipeline.pin pcfgs fun _ => adm m) (dats m) 0
      (Pipeline.afterTail pcfgs (fun _ => adm m) (dats m) 0 (V0 m) [hostOps1])) :=
  Pipeline.θ_run_frameP_dma_around pcfgs (fun _ => adm m) (dats m) (0 : Fin 1) launch0 osem0 defs₀ Variants.none ownSemFacts0 H0 H0_sub m ρ main
    (hbody := fun c => (body_obligation m hH c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hpf := fun c k => V_pre m c k)
    (hin := fun _ => .rfl)
    (hout := fun c => (show iprop(Pipeline.ΦD osem0 spec0 H0 (V m) c ∗ Pipeline.ΦT pre0 (tbl m) c) ⊢ Pipeline.ΦD osem0 spec0 H0 (V m) c from by
      iintro ⟨H, -⟩; iexact H))

end Cert.Kernel.Hand

end
-- ==== Proof.KernelValue.lean ====
/-
  Reading the frame run's post: from the post of the run over the one region and the host operation after it to the memory's
  arrays as plain functions. The output array is written back block by block (128 rows per grid point); every block is the
  restriction of ONE whole-array function, so the array ends holding that function; the buffers the region bypasses hold what
  the host operations left in them.
-/
import proofs.«410525_j11055245820322_2_alg».proof.Proof.Gen.Kernel.Launch
import proofs.«410525_j11055245820322_2_alg».proof.Proof.Gen.Kernel.Skeleton
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.ValueIdx
import proofs.«410525_j11055245820322_2_alg».proof.Proof.KernelBase
import proofs.«410525_j11055245820322_2_alg».proof.Proof.KernelSetup
import Idealize.ShloMosaic.Lib.Pipeline.Value
import Idealize.ShloMosaic.Lib.StableHlo.Run
set_option maxRecDepth 16384

noncomputable section

namespace Cert.Kernel.Hand

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The output window's index map, decided over the grid: at point `t` the block index is `(t, 0)`, and the grid's one
    coordinate at point `t` is `t`. -/
theorem idx_facts : ∀ t : Fin grid0.N, cc0_transform_1 (grid0.coords t) 0 = t.val ∧ cc0_transform_1 (grid0.coords t) 1 = 0
    ∧ (grid0.coords t 0).val = t.val := by decide +kernel

/-- The block `outBlk` at grid coordinates `g`, at the block's entry `y`, is the row table's row `table[r]` at column `ch` for
    any array index `i = (r, ch)` with `r = 128 · g + ` the entry's row and `ch` the entry's column. -/
theorem outBlk_at {α : Type} (pf : S16384.Idx → BitVec 32) (fh : S2097152x1x128.Idx → α) (g : grid0.Coords) (y : S128x128.Idx)
    (i : S16384x128.Idx) (h0 : (i 0).val = 128 * (g 0).val + (y 0).val) (h1 : (i 1).val = (y 1).val) :
    outBlk pf fh g y = fh (ix3 (⟨(pf (ix1 (i 0))).toNat % 2097152, Nat.mod_lt _ (by decide)⟩ : Fin 2097152) (0 : Fin 1) (i 1)) := by
  unfold outBlk wordAt
  exact congrArg₂ (fun (a : Fin 16384) (b : Fin 128) =>
      fh (ix3 (⟨(pf (ix1 a)).toNat % 2097152, Nat.mod_lt _ (by decide)⟩ : Fin 2097152) (0 : Fin 1) b))
    (Fin.ext h0.symm) (Fin.ext h1.symm)

/-- Every grid point writes its block back: the block index changes from each point to the next. -/
theorem flush_all (t : Fin (cfgM m).N) : ((cfgM m).win 0).flush t = true := by
  rw [Pipeline.Window.flush_out _ rfl]
  have hN : grid0.N = 128 := N_0
  have htl : t.val < grid0.N := t.isLt
  by_cases h : t.val + 1 = grid0.N
  · exact .inl h
  · have ht : t.val + 1 < grid0.N := by omega
    refine .inr ⟨ht, fun e => ?_⟩
    have e0 : cc0_transform_1 (grid0.coords ⟨t.val + 1, ht⟩) 0 = cc0_transform_1 (grid0.coords t) 0 := congrFun e (0 : Fin 2)
    rw [(idx_facts ⟨t.val + 1, ht⟩).1, (idx_facts t).1] at e0
    exact absurd e0 (by show t.val + 1 ≠ t.val; omega)

/-- What grid point `t` writes back is block `t` of the whole-array function `finalOut`. -/
theorem flushed_eq (c : Dev nD) (t : Fin (cfgM m).N) :
    (dats m 0 c).flushed 0 t = (((cfgM m).win 0).blk t).view.read (Elt F) (finalOut m c) := by
  obtain ⟨e0, e1, e2⟩ := idx_facts t
  funext y
  show outBlk (V m c main_v13) (V m c main_v15) (grid0.coords t) (((cfgM m).win 0).xinj (grid0.coords t) y)
    = finalOut m c ((((cfgM m).win 0).blk t).view.emb y)
  refine outBlk_at _ _ _ _ _ ?_ ?_
  · show cc0_transform_1 (grid0.coords t) 0 * 128 + 1 * (y (0 : Fin 2)).val = 128 * (grid0.coords t 0).val + (y (0 : Fin 2)).val
    rw [e0, e2]; omega
  · show cc0_transform_1 (grid0.coords t) 1 * 128 + 1 * (y (1 : Fin 2)).val = (y (1 : Fin 2)).val
    rw [e1]; omega

/-- An index of the array is in point `t`'s block iff each coordinate is in the block's range on its axis. -/
theorem mem_blk (t : Fin (cfgM m).N) (i : S16384x128.Idx) :
    i ∈ (((cfgM m).win 0).blk t).view.set ↔ ∀ a : Fin 2, cc0_transform_1 (grid0.coords t) a * S128x128.size a ≤ (i a).val
      ∧ (i a).val < cc0_transform_1 (grid0.coords t) a * S128x128.size a + S128x128.size a := by
  refine Iff.trans (Eq.to_iff (congrArg (fun s => i ∈ s) (View.set_slice_whole main_v16 (((cfgM m).win 0).rect t)))) ?_
  exact Rect.mem_set_unit

/-- Row `r` of the array is in the block of grid point `r / 128`. -/
theorem cover (i : S16384x128.Idx) :
    ∃ t : Fin (cfgM m).N, ((cfgM m).win 0).flush t = true ∧ i ∈ (((cfgM m).win 0).blk t).view.set := by
  have hN : grid0.N = 128 := N_0
  have hi0 : (i 0).val < 16384 := (i 0).isLt
  have hi1 : (i 1).val < 128 := (i 1).isLt
  have ht : (i 0).val / 128 < grid0.N := by omega
  obtain ⟨e0, e1, e2⟩ := idx_facts ⟨(i 0).val / 128, ht⟩
  refine ⟨⟨(i 0).val / 128, ht⟩, flush_all m _, ?_⟩
  rw [mem_blk]
  intro a
  match a with
  | ⟨0, _⟩ =>
    show cc0_transform_1 (grid0.coords ⟨(i 0).val / 128, ht⟩) 0 * 128 ≤ (i 0).val
      ∧ (i 0).val < cc0_transform_1 (grid0.coords ⟨(i 0).val / 128, ht⟩) 0 * 128 + 128
    rw [e0]; show (i 0).val / 128 * 128 ≤ (i 0).val ∧ (i 0).val < (i 0).val / 128 * 128 + 128; omega
  | ⟨1, _⟩ =>
    show cc0_transform_1 (grid0.coords ⟨(i 0).val / 128, ht⟩) 1 * 128 ≤ (i 1).val
      ∧ (i 1).val < cc0_transform_1 (grid0.coords ⟨(i 0).val / 128, ht⟩) 1 * 128 + 128
    rw [e1]; omega

/-- The output array after the run is `finalOut`: the 128 blocks of 128 rows tile its 16384 rows. -/
theorem final_eq (c : Dev nD) : (dats m 0 c).arrAt 0 (cfgM m).N = finalOut m c :=
  (dats m 0 c).arrAt_eq_of_cover 0 (finalOut m c) (fun t _ => flushed_eq m c t) (cover m)

/-- The scalar result after the host operation that follows the region: the constant it writes. -/
theorem tail_c_1 (c : Dev nD) :
    Pipeline.afterTail pcfgs (fun _ => adm m) (dats m) 0 (V0 m) [hostOps1] c main_c_1 = constantI S_ 32 16384#32 := by
  unfold Pipeline.afterTail
  show StableHlo.after hostOps1 _ (Proc.devRef .tc main_c_1) = _
  after_results

/-- The first argument after the host operation that follows the region: what was launched. -/
theorem tail_arg0 (c : Dev nD) :
    Pipeline.afterTail pcfgs (fun _ => adm m) (dats m) 0 (V0 m) [hostOps1] c main_arg0 = m ((c.tc : Thread nD τ).loc main_arg0) := by
  unfold Pipeline.afterTail
  show StableHlo.after hostOps1 _ (Proc.devRef .tc main_arg0) = _
  after_results
  rw [Pipeline.withArrays_of_ne _ c (V0 m c) _ main_arg0 (by decide : ∀ w : Fin 1, Pipeline.arrRef spec0 w ≠ main_arg0)]
  show StableHlo.after hostOps0 (fun b => m (c, b)) (Proc.devRef .tc main_arg0) = _
  after_results

/-- The second argument after the host operation that follows the region: what was launched. -/
theorem tail_arg1 (c : Dev nD) :
    Pipeline.afterTail pcfgs (fun _ => adm m) (dats m) 0 (V0 m) [hostOps1] c main_arg1 = m ((c.tc : Thread nD τ).loc main_arg1) := by
  unfold Pipeline.afterTail
  show StableHlo.after hostOps1 _ (Proc.devRef .tc main_arg1) = _
  after_results
  rw [Pipeline.withArrays_of_ne _ c (V0 m c) _ main_arg1 (by decide : ∀ w : Fin 1, Pipeline.arrRef spec0 w ≠ main_arg1)]
  show StableHlo.after hostOps0 (fun b => m (c, b)) (Proc.devRef .tc main_arg1) = _
  after_results

/-- The frame run re-posted: the output array at `finalOut`, the scalar result at its constant, the arguments unchanged. -/
theorem run_value
    (h : θ_run defs (onTc (τ := τ) (main (F := F))) (s₀ m ρ) (Pipeline.FramePost (Pipeline.pin pcfgs fun _ => adm m) (dats m) 0
      (Pipeline.afterTail pcfgs (fun _ => adm m) (dats m) 0 (V0 m) [hostOps1]))) :
    θ_run defs (onTc (τ := τ) (main (F := F))) ⟨m, fun _ => 0, ρ⟩ (fun r => ∀ c : Dev nD,
      r.2.mem ((c.tc : Thread nD τ).loc main_v16) = finalOut m c
      ∧ r.2.mem ((c.tc : Thread nD τ).loc main_c_1) = constantI S_ 32 16384#32
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 0).trans (final_eq m c),
      ((h c).2 main_c_1 (by decide : main_c_1 ∈ Pipeline.restRefs sig spec0)).trans (tail_c_1 m c),
      ((h c).2 main_arg0 (by decide : main_arg0 ∈ Pipeline.restRefs sig spec0)).trans (tail_arg0 m c),
      ((h c).2 main_arg1 (by decide : main_arg1 ∈ Pipeline.restRefs sig spec0)).trans (tail_arg1 m c)⟩) h

end Cert.Kernel.Hand

end
-- ==== Proof.lean ====
/-
  The proof of `Cert.Claim`.

  Both programs compute one function of the image batch `img : [8, 128, 512, 512]` and the point table
  `pts : [8, 2048, 2]`: `out[2048 b + q, ch] = img[b, ch, y, x]` with `(x, y)` point `q` of image `b` (`Cert.Spec.gatherPix`),
  beside the constant 16384. The precondition says every float is finite and every coordinate word lies in [0, 512); only
  the second part is used: it keeps the kernel's 32-bit flat row numbers `(b · 512 + y) · 512 + x` from wrapping and inside
  the channel-last row table, and it keeps the reference's index wrap and clamp idle.

  The kernel program: its host operations build the flat row numbers and the channel-last row table; the region copies,
  for each output row, the row of the row table its table word names into the output block; what the program leaves is
  `finalOut`, which under the range condition is the specification's gather. The kernel as printed (bit patterns) and its
  idealization (extended reals) are one text and move floats without computing on them, so one proof, generic in the float
  instance, serves both frames. The reference program's run is read off its operations index by index.
-/
import proofs.«410525_j11055245820322_2_alg».proof.Defs
import proofs.«410525_j11055245820322_2_alg».proof.Proof.Gen.Kernel
import proofs.«410525_j11055245820322_2_alg».proof.Proof.Gen.KernelIdeal
import proofs.«410525_j11055245820322_2_alg».proof.Proof.Gen.ReferenceIdeal
import proofs.«410525_j11055245820322_2_alg».proof.Proof.Gen.Pre_finite_inputs
import proofs.«410525_j11055245820322_2_alg».proof.Proof.Spec
import proofs.«410525_j11055245820322_2_alg».proof.Proof.RefValue
import proofs.«410525_j11055245820322_2_alg».proof.Proof.KernelIdealHost
import proofs.«410525_j11055245820322_2_alg».proof.Proof.KernelIdealBridge
import proofs.«410525_j11055245820322_2_alg».proof.Proof.KernelIdealFrame
import proofs.«410525_j11055245820322_2_alg».proof.Proof.KernelIdealValue
import proofs.«410525_j11055245820322_2_alg».proof.Proof.KernelBridge
import proofs.«410525_j11055245820322_2_alg».proof.Proof.KernelFrame
import proofs.«410525_j11055245820322_2_alg».proof.Proof.KernelValue

noncomputable section

namespace Cert.Proof

open Idealize.ShloMosaic Idealize.ShloMosaic.TcCoe Idealize.SL.Sem

/-- The kernel as printed runs from every memory the precondition admits, and leaves its arguments as they were. -/
theorem frame_k : Cert.frame_Kernel := fun m ρ hpre =>
  (θ_run Cert.Kernel.defs _ _).mono (fun _ h c => (h c).2.2)
    (Cert.Kernel.Hand.run_value (F := Bits) m ρ (Cert.Kernel.Hand.run_main (F := Bits) m ρ (Cert.Kernel.Hand.hyps_of_pre (F := Bits) m hpre)))

/-- So does its idealization. -/
theorem frame_ki : Cert.frame_KernelIdeal := fun m ρ hpre =>
  (θ_run Cert.KernelIdeal.defs _ _).mono (fun _ h c => (h c).2.2)
    (Cert.KernelIdeal.Hand.run_value (F := Ideal) m ρ (Cert.KernelIdeal.Hand.run_main (F := Ideal) m ρ (Cert.KernelIdeal.Hand.hyps_of_pre (F := Ideal) m hpre)))

/-- And the reference: the precondition over its own argument arrays gives the range condition its run asks for. -/
theorem frame_ri : Cert.frame_ReferenceIdeal := fun m ρ hpre =>
  (θ_run Cert.ReferenceIdeal.defs _ _).mono (fun _ h c => (h c).2.2)
    (Cert.ReferenceIdeal.RefValue.run_value m ρ fun c => Cert.KernelIdeal.Hand.inRange_of_pre (F := Ideal) _ _ (hpre c))

/-- The ideal pass rewrote no operation of the kernel: nothing to preserve. -/
theorem preserves : Cert.preserves_Kernel_KernelIdeal := trivial

/-- At the ideal instance, from memories that agree on the arguments, both programs end with the specification's gather of
    the kernel's arguments and the constant 16384, their arguments unchanged. -/
theorem algebraic : Cert.algebraic_KernelIdeal_ReferenceIdeal := by
  intro m ρ m' ρ' hpre hagree
  have hin := Cert.KernelIdeal.Hand.inRange_of_pre' (F := Ideal) m hpre
  refine ⟨fun c => Cert.Spec.gatherPix (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    fun _ => constantI Cert.KernelIdeal.S_ 32 16384#32, ?_, ?_⟩
  · exact (θ_run Cert.KernelIdeal.defs _ _).mono
      (fun _ h c => ⟨(h c).1.trans (Cert.KernelIdeal.Hand.finalOut_eq (F := Ideal) m c (hin c)), (h c).2⟩)
      (Cert.KernelIdeal.Hand.run_value (F := Ideal) m ρ (Cert.KernelIdeal.Hand.run_main (F := Ideal) m ρ (Cert.KernelIdeal.Hand.hyps_of_pre (F := Ideal) m hpre)))
  · have hin' : ∀ c : Dev Cert.ReferenceIdeal.nD,
        Cert.Spec.InRange (m' ((c.tc : Thread Cert.ReferenceIdeal.nD Cert.ReferenceIdeal.τ).loc Cert.ReferenceIdeal.main_arg1)) := fun c => by
      rw [(hagree c).2]; exact hin c
    refine (θ_run Cert.ReferenceIdeal.defs _ _).mono (fun _ h c => ⟨(h c).1.trans ?_, (h c).2⟩)
      (Cert.ReferenceIdeal.RefValue.run_value m' ρ' hin')
    rw [(hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
